-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S3x4096x256 : Shape := ⟨3, ![3, 4096, 256]⟩
abbrev S3x256x256 : Shape := ⟨3, ![3, 256, 256]⟩
abbrev S3x256 : Shape := ⟨2, ![3, 256]⟩
abbrev S3x3x256 : Shape := ⟨3, ![3, 3, 256]⟩
abbrev S3x3 : Shape := ⟨2, ![3, 3]⟩
abbrev S3x3x768 : Shape := ⟨3, ![3, 3, 768]⟩
abbrev S3x768x768 : Shape := ⟨3, ![3, 768, 768]⟩
abbrev S3x768 : Shape := ⟨2, ![3, 768]⟩
abbrev S44x2304 : Shape := ⟨2, ![44, 2304]⟩
abbrev S44 : Shape := ⟨1, ![44]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S3x4096x256 : S_.BroadcastsInDim S3x4096x256 (![] : Fin 0 → Fin S3x4096x256.rank)
  reducesTo_S3x4096x256_S_d0_1_2 : S3x4096x256.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S3x3x256 : S_.BroadcastsInDim S3x3x256 (![] : Fin 0 → Fin S3x3x256.rank)
  reducesTo_S3x3x256_S_d0_1_2 : S3x3x256.ReducesTo [0, 1, 2] S_
  bcast_S_S3x3 : S_.BroadcastsInDim S3x3 (![] : Fin 0 → Fin S3x3.rank)
  reducesTo_S3x3_S_d0_1 : S3x3.ReducesTo [0, 1] S_
  bcast_S_S3x3x768 : S_.BroadcastsInDim S3x3x768 (![] : Fin 0 → Fin S3x3x768.rank)
  reducesTo_S3x3x768_S_d0_1_2 : S3x3x768.ReducesTo [0, 1, 2] S_
  bcast_S_S3x768x768 : S_.BroadcastsInDim S3x768x768 (![] : Fin 0 → Fin S3x768x768.rank)
  reducesTo_S3x768x768_S_d0_1_2 : S3x768x768.ReducesTo [0, 1, 2] S_
  bcast_S_S3x768 : S_.BroadcastsInDim S3x768 (![] : Fin 0 → Fin S3x768.rank)
  reducesTo_S3x768_S_d0_1 : S3x768.ReducesTo [0, 1] S_
  bcast_S_S44x2304 : S_.BroadcastsInDim S44x2304 (![] : Fin 0 → Fin S44x2304.rank)
  reducesTo_S44x2304_S_d0_1 : S44x2304.ReducesTo [0, 1] S_
  bcast_S_S44 : S_.BroadcastsInDim S44 (![] : Fin 0 → Fin S44.rank)
  reducesTo_S44_S_d0 : S44.ReducesTo [0] S_

variable [Facts]

def fn_part7 {F : FTy → Type} [FloatOps F] (main_v118 : IVec S_ 1) (main_v119 : FVec F S44 .f32) : IVec S_ 1 :=
  let main_cst_46 : FVec F S_ .f32 := constant S_ .f32 0x7F800000#32
  let main_v120 : FVec F S44 .f32 := broadcastInDim S44 ![] bcast_S_S44 main_cst_46
  let main_v121 : IVec S44 1 := cmpf .olt main_v119 main_v120
  let main_c_47 : IVec S_ 1 := constantI S_ 1 1#1
  let main_v122 : IVec S_ 1 := (fun x v => Host.reduce IntOp.andi x v reducesTo_S44_S_d0 h_S_) main_v121 main_c_47
  let main_v123 : IVec S_ 1 := andi main_v118 main_v122
  main_v123

def fn_part6 {F : FTy → Type} [FloatOps F] (main_arg21 : FVec F S3x768x768 .f32) (main_arg22 : FVec F S3x768 .f32) (main_arg23 : FVec F S44x2304 .f32) (main_arg24 : FVec F S44 .f32) (main_v98 : IVec S_ 1) (main_v101 : IVec S3x3 1) (main_c_39 : IVec S_ 1) : IVec S_ 1 :=
  let main_v102 : IVec S_ 1 := (fun x v => Host.reduce IntOp.andi x v reducesTo_S3x3_S_d0_1 h_S_) main_v101 main_c_39
  let main_v103 : IVec S_ 1 := andi main_v98 main_v102
  let main_v104 : FVec F S3x768x768 .f32 := Host.absf main_arg21
  let main_cst_40 : FVec F S_ .f32 := constant S_ .f32 0x7F800000#32
  let main_v105 : FVec F S3x768x768 .f32 := broadcastInDim S3x768x768 ![] bcast_S_S3x768x768 main_cst_40
  let main_v106 : IVec S3x768x768 1 := cmpf .olt main_v104 main_v105
  let main_c_41 : IVec S_ 1 := constantI S_ 1 1#1
  let main_v107 : IVec S_ 1 := (fun x v => Host.reduce IntOp.andi x v reducesTo_S3x768x768_S_d0_1_2 h_S_) main_v106 main_c_41
  let main_v108 : IVec S_ 1 := andi main_v103 main_v107
  let main_v109 : FVec F S3x768 .f32 := Host.absf main_arg22
  let main_cst_42 : FVec F S_ .f32 := constant S_ .f32 0x7F800000#32
  let main_v110 : FVec F S3x768 .f32 := broadcastInDim S3x768 ![] bcast_S_S3x768 main_cst_42
  let main_v111 : IVec S3x768 1 := cmpf .olt main_v109 main_v110
  let main_c_43 : IVec S_ 1 := constantI S_ 1 1#1
  let main_v112 : IVec S_ 1 := (fun x v => Host.reduce IntOp.andi x v reducesTo_S3x768_S_d0_1 h_S_) main_v111 main_c_43
  let main_v113 : IVec S_ 1 := andi main_v108 main_v112
  let main_v114 : FVec F S44x2304 .f32 := Host.absf main_arg23
  let main_cst_44 : FVec F S_ .f32 := constant S_ .f32 0x7F800000#32
  let main_v115 : FVec F S44x2304 .f32 := broadcastInDim S44x2304 ![] bcast_S_S44x2304 main_cst_44
  let main_v116 : IVec S44x2304 1 := cmpf .olt main_v114 main_v115
  let main_c_45 : IVec S_ 1 := constantI S_ 1 1#1
  let main_v117 : IVec S_ 1 := (fun x v => Host.reduce IntOp.andi x v reducesTo_S44x2304_S_d0_1 h_S_) main_v116 main_c_45
  let main_v118 : IVec S_ 1 := andi main_v113 main_v117
  let main_v119 : FVec F S44 .f32 := Host.absf main_arg24
  fn_part7 (F := F) main_v118 main_v119

def fn_part5 {F : FTy → Type} [FloatOps F] (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v83 : IVec S_ 1) (main_v84 : FVec F S3x256x256 .f32) (main_cst_32 : FVec F S_ .f32) : IVec S_ 1 :=
  let main_v85 : FVec F S3x256x256 .f32 := broadcastInDim S3x256x256 ![] bcast_S_S3x256x256 main_cst_32
  let main_v86 : IVec S3x256x256 1 := cmpf .olt main_v84 main_v85
  let main_c_33 : IVec S_ 1 := constantI S_ 1 1#1
  let main_v87 : IVec S_ 1 := (fun x v => Host.reduce IntOp.andi x v reducesTo_S3x256x256_S_d0_1_2 h_S_) main_v86 main_c_33
  let main_v88 : IVec S_ 1 := andi main_v83 main_v87
  let main_v89 : FVec F S3x256 .f32 := Host.absf main_arg18
  let main_cst_34 : FVec F S_ .f32 := constant S_ .f32 0x7F800000#32
  let main_v90 : FVec F S3x256 .f32 := broadcastInDim S3x256 ![] bcast_S_S3x256 main_cst_34
  let main_v91 : IVec S3x256 1 := cmpf .olt main_v89 main_v90
  let main_c_35 : IVec S_ 1 := constantI S_ 1 1#1
  let main_v92 : IVec S_ 1 := (fun x v => Host.reduce IntOp.andi x v reducesTo_S3x256_S_d0_1 h_S_) main_v91 main_c_35
  let main_v93 : IVec S_ 1 := andi main_v88 main_v92
  let main_v94 : FVec F S3x3x768 .f32 := Host.absf main_arg19
  let main_cst_36 : FVec F S_ .f32 := constant S_ .f32 0x7F800000#32
  let main_v95 : FVec F S3x3x768 .f32 := broadcastInDim S3x3x768 ![] bcast_S_S3x3x768 main_cst_36
  let main_v96 : IVec S3x3x768 1 := cmpf .olt main_v94 main_v95
  let main_c_37 : IVec S_ 1 := constantI S_ 1 1#1
  let main_v97 : IVec S_ 1 := (fun x v => Host.reduce IntOp.andi x v reducesTo_S3x3x768_S_d0_1_2 h_S_) main_v96 main_c_37
  let main_v98 : IVec S_ 1 := andi main_v93 main_v97
  let main_v99 : FVec F S3x3 .f32 := Host.absf main_arg20
  let main_cst_38 : FVec F S_ .f32 := constant S_ .f32 0x7F800000#32
  let main_v100 : FVec F S3x3 .f32 := broadcastInDim S3x3 ![] bcast_S_S3x3 main_cst_38
  let main_v101 : IVec S3x3 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v63 : IVec S_ 1) (main_v67 : IVec S_ 1) : IVec S_ 1 :=
  let main_v68 : IVec S_ 1 := andi main_v63 main_v67
  let main_v69 : FVec F S3x256 .f32 := Host.absf main_arg14
  let main_cst_26 : FVec F S_ .f32 := constant S_ .f32 0x7F800000#32
  let main_v70 : FVec F S3x256 .f32 := broadcastInDim S3x256 ![] bcast_S_S3x256 main_cst_26
  let main_v71 : IVec S3x256 1 := cmpf .olt main_v69 main_v70
  let main_c_27 : IVec S_ 1 := constantI S_ 1 1#1
  let main_v72 : IVec S_ 1 := (fun x v => Host.reduce IntOp.andi x v reducesTo_S3x256_S_d0_1 h_S_) main_v71 main_c_27
  let main_v73 : IVec S_ 1 := andi main_v68 main_v72
  let main_v74 : FVec F S3x256x256 .f32 := Host.absf main_arg15
  let main_cst_28 : FVec F S_ .f32 := constant S_ .f32 0x7F800000#32
  let main_v75 : FVec F S3x256x256 .f32 := broadcastInDim S3x256x256 ![] bcast_S_S3x256x256 main_cst_28
  let main_v76 : IVec S3x256x256 1 := cmpf .olt main_v74 main_v75
  let main_c_29 : IVec S_ 1 := constantI S_ 1 1#1
  let main_v77 : IVec S_ 1 := (fun x v => Host.reduce IntOp.andi x v reducesTo_S3x256x256_S_d0_1_2 h_S_) main_v76 main_c_29
  let main_v78 : IVec S_ 1 := andi main_v73 main_v77
  let main_v79 : FVec F S3x256 .f32 := Host.absf main_arg16
  let main_cst_30 : FVec F S_ .f32 := constant S_ .f32 0x7F800000#32
  let main_v80 : FVec F S3x256 .f32 := broadcastInDim S3x256 ![] bcast_S_S3x256 main_cst_30
  let main_v81 : IVec S3x256 1 := cmpf .olt main_v79 main_v80
  let main_c_31 : IVec S_ 1 := constantI S_ 1 1#1
  let main_v82 : IVec S_ 1 := (fun x v => Host.reduce IntOp.andi x v reducesTo_S3x256_S_d0_1 h_S_) main_v81 main_c_31
  let main_v83 : IVec S_ 1 := andi main_v78 main_v82
  let main_v84 : FVec F S3x256x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x3x256 .f32 := Host.absf main_arg11
  let main_cst_20 : FVec F S_ .f32 := constant S_ .f32 0x7F800000#32
  let main_v55 : FVec F S3x3x256 .f32 := broadcastInDim S3x3x256 ![] bcast_S_S3x3x256 main_cst_20
  let main_v56 : IVec S3x3x256 1 := cmpf .olt main_v54 main_v55
  let main_c_21 : IVec S_ 1 := constantI S_ 1 1#1
  let main_v57 : IVec S_ 1 := (fun x v => Host.reduce IntOp.andi x v reducesTo_S3x3x256_S_d0_1_2 h_S_) main_v56 main_c_21
  let main_v58 : IVec S_ 1 := andi main_v53 main_v57
  let main_v59 : FVec F S3x3 .f32 := Host.absf main_arg12
  let main_cst_22 : FVec F S_ .f32 := constant S_ .f32 0x7F800000#32
  let main_v60 : FVec F S3x3 .f32 := broadcastInDim S3x3 ![] bcast_S_S3x3 main_cst_22
  let main_v61 : IVec S3x3 1 := cmpf .olt main_v59 main_v60
  let main_c_23 : IVec S_ 1 := constantI S_ 1 1#1
  let main_v62 : IVec S_ 1 := (fun x v => Host.reduce IntOp.andi x v reducesTo_S3x3_S_d0_1 h_S_) main_v61 main_c_23
  let main_v63 : IVec S_ 1 := andi main_v58 main_v62
  let main_v64 : FVec F S3x256x256 .f32 := Host.absf main_arg13
  let main_cst_24 : FVec F S_ .f32 := constant S_ .f32 0x7F800000#32
  let main_v65 : FVec F S3x256x256 .f32 := broadcastInDim S3x256x256 ![] bcast_S_S3x256x256 main_cst_24
  let main_v66 : IVec S3x256x256 1 := cmpf .olt main_v64 main_v65
  let main_c_25 : IVec S_ 1 := constantI S_ 1 1#1
  let main_v67 : IVec S_ 1 := (fun x v => Host.reduce IntOp.andi x v reducesTo_S3x256x256_S_d0_1_2 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S3x256x256 .f32) (main_arg8 : FVec F S3x256 .f32) (main_arg9 : FVec F S3x256x256 .f32) (main_arg10 : FVec F S3x256 .f32) (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v33 : IVec S_ 1) : IVec S_ 1 :=
  let main_v34 : FVec F S3x256x256 .f32 := Host.absf main_arg7
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg8
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg9
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S3x256 .f32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256x256 .f32 := Host.absf main_arg5
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg6
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4096x256 .f32) (main_arg1 : FVec F S3x4096x256 .f32) (main_arg2 : FVec F S3x4096x256 .f32) (main_arg3 : FVec F S3x256x256 .f32) (main_arg4 : FVec F S3x256 .f32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S3x4096x256 .f32 := Host.absf main_arg1
  let main_cst_0 : FVec F S_ .f32 := constant S_ .f32 0x7F800000#32
  let main_v5 : FVec F S3x4096x256 .f32 := broadcastInDim S3x4096x256 ![] bcast_S_S3x4096x256 main_cst_0
  let main_v6 : IVec S3x4096x256 1 := cmpf .olt main_v4 main_v5
  let main_c_1 : IVec S_ 1 := constantI S_ 1 1#1
  let main_v7 : IVec S_ 1 := (fun x v => Host.reduce IntOp.andi x v reducesTo_S3x4096x256_S_d0_1_2 h_S_) main_v6 main_c_1
  let main_v8 : IVec S_ 1 := andi main_v3 main_v7
  let main_v9 : FVec F S3x4096x256 .f32 := Host.absf main_arg2
  let main_cst_2 : FVec F S_ .f32 := constant S_ .f32 0x7F800000#32
  let main_v10 : FVec F S3x4096x256 .f32 := broadcastInDim S3x4096x256 ![] bcast_S_S3x4096x256 main_cst_2
  let main_v11 : IVec S3x4096x256 1 := cmpf .olt main_v9 main_v10
  let main_c_3 : IVec S_ 1 := constantI S_ 1 1#1
  let main_v12 : IVec S_ 1 := (fun x v => Host.reduce IntOp.andi x v reducesTo_S3x4096x256_S_d0_1_2 h_S_) main_v11 main_c_3
  let main_v13 : IVec S_ 1 := andi main_v8 main_v12
  let main_v14 : FVec F S3x256x256 .f32 := Host.absf main_arg3
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096x256 : Shape := ⟨2, ![4096, 256]⟩
abbrev S3x4096x256 : Shape := ⟨3, ![3, 4096, 256]⟩
abbrev S3x256x256 : Shape := ⟨3, ![3, 256, 256]⟩
abbrev S3x256 : Shape := ⟨2, ![3, 256]⟩
abbrev S3x3x256 : Shape := ⟨3, ![3, 3, 256]⟩
abbrev S3x3 : Shape := ⟨2, ![3, 3]⟩
abbrev S3x3x768 : Shape := ⟨3, ![3, 3, 768]⟩
abbrev S3x768x768 : Shape := ⟨3, ![3, 768, 768]⟩
abbrev S3x768 : Shape := ⟨2, ![3, 768]⟩
abbrev S44x2304 : Shape := ⟨2, ![44, 2304]⟩
abbrev S44 : Shape := ⟨1, ![44]⟩
abbrev S3x256x1024 : Shape := ⟨3, ![3, 256, 1024]⟩
abbrev S3x1024 : Shape := ⟨2, ![3, 1024]⟩
abbrev S3x256x768 : Shape := ⟨3, ![3, 256, 768]⟩
abbrev S3x256x3 : Shape := ⟨3, ![3, 256, 3]⟩
abbrev S3x768x3 : Shape := ⟨3, ![3, 768, 3]⟩
abbrev S2304x44 : Shape := ⟨2, ![2304, 44]⟩
abbrev S4096x44 : Shape := ⟨2, ![4096, 44]⟩
abbrev S256x256 : Shape := ⟨2, ![256, 256]⟩
abbrev S256x44 : Shape := ⟨2, ![256, 44]⟩
abbrev S1x256x256 : Shape := ⟨3, ![1, 256, 256]⟩
abbrev S256x768 : Shape := ⟨2, ![256, 768]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x256x768 : Shape := ⟨3, ![1, 256, 768]⟩
abbrev S1x768 : Shape := ⟨2, ![1, 768]⟩
abbrev S768 : Shape := ⟨1, ![768]⟩
abbrev S1x256x3 : Shape := ⟨3, ![1, 256, 3]⟩
abbrev S256x3 : Shape := ⟨2, ![256, 3]⟩
abbrev S1x3 : Shape := ⟨2, ![1, 3]⟩
abbrev S3 : Shape := ⟨1, ![3]⟩
abbrev S1x768x3 : Shape := ⟨3, ![1, 768, 3]⟩
abbrev S768x3 : Shape := ⟨2, ![768, 3]⟩
abbrev S1x768x768 : Shape := ⟨3, ![1, 768, 768]⟩
abbrev S768x768 : Shape := ⟨2, ![768, 768]⟩
abbrev S256x1 : Shape := ⟨2, ![256, 1]⟩
abbrev S256x2304 : Shape := ⟨2, ![256, 2304]⟩
abbrev S1x44 : Shape := ⟨2, ![1, 44]⟩

abbrev nBuf : Space → Nat
  | .hbm => 47
  | .vmem => 20
  | .smem => 0
  | _ => 0

abbrev bufTy : (tb : Table) → Fin (tcTables nBuf tb) → BufTy
  | .hbm, ⟨0, _⟩ => ⟨S4096x256, .f32⟩
  | .hbm, ⟨1, _⟩ => ⟨S3x4096x256, .f32⟩
  | .hbm, ⟨2, _⟩ => ⟨S3x4096x256, .f32⟩
  | .hbm, ⟨3, _⟩ => ⟨S3x256x256, .f32⟩
  | .hbm, ⟨4, _⟩ => ⟨S3x256, .f32⟩
  | .hbm, ⟨5, _⟩ => ⟨S3x256x256, .f32⟩
  | .hbm, ⟨6, _⟩ => ⟨S3x256, .f32⟩
  | .hbm, ⟨7, _⟩ => ⟨S3x256x256, .f32⟩
  | .hbm, ⟨8, _⟩ => ⟨S3x256, .f32⟩
  | .hbm, ⟨9, _⟩ => ⟨S3x256x256, .f32⟩
  | .hbm, ⟨10, _⟩ => ⟨S3x256, .f32⟩
  | .hbm, ⟨11, _⟩ => ⟨S3x3x256, .f32⟩
  | .hbm, ⟨12, _⟩ => ⟨S3x3, .f32⟩
  | .hbm, ⟨13, _⟩ => ⟨S3x256x256, .f32⟩
  | .hbm, ⟨14, _⟩ => ⟨S3x256, .f32⟩
  | .hbm, ⟨15, _⟩ => ⟨S3x256x256, .f32⟩
  | .hbm, ⟨16, _⟩ => ⟨S3x256, .f32⟩
  | .hbm, ⟨17, _⟩ => ⟨S3x256x256, .f32⟩
  | .hbm, ⟨18, _⟩ => ⟨S3x256, .f32⟩
  | .hbm, ⟨19, _⟩ => ⟨S3x3x768, .f32⟩
  | .hbm, ⟨20, _⟩ => ⟨S3x3, .f32⟩
  | .hbm, ⟨21, _⟩ => ⟨S3x768x768, .f32⟩
  | .hbm, ⟨22, _⟩ => ⟨S3x768, .f32⟩
  | .hbm, ⟨23, _⟩ => ⟨S44x2304, .f32⟩
  | .hbm, ⟨24, _⟩ => ⟨S44, .f32⟩
  | .hbm, ⟨25, _⟩ => ⟨S3x256x256, .f32⟩
  | .hbm, ⟨26, _⟩ => ⟨S3x256x256, .f32⟩
  | .hbm, ⟨27, _⟩ => ⟨S3x256x256, .f32⟩
  | .hbm, ⟨28, _⟩ => ⟨S3x256x256, .f32⟩
  | .hbm, ⟨29, _⟩ => ⟨S3x256x1024, .f32⟩
  | .hbm, ⟨30, _⟩ => ⟨S3x256x1024, .bf16⟩
  | .hbm, ⟨31, _⟩ => ⟨S3x1024, .f32⟩
  | .hbm, ⟨32, _⟩ => ⟨S3x256x256, .f32⟩
  | .hbm, ⟨33, _⟩ => ⟨S3x256x256, .f32⟩
  | .hbm, ⟨34, _⟩ => ⟨S3x256x256, .f32⟩
  | .hbm, ⟨35, _⟩ => ⟨S3x256x768, .f32⟩
  | .hbm, ⟨36, _⟩ => ⟨S3x256x768, .bf16⟩
  | .hbm, ⟨37, _⟩ => ⟨S3x768, .f32⟩
  | .hbm, ⟨38, _⟩ => ⟨S3x256x3, .f32⟩
  | .hbm, ⟨39, _⟩ => ⟨S3x256x3, .bf16⟩
  | .hbm, ⟨40, _⟩ => ⟨S3x768x3, .f32⟩
  | .hbm, ⟨41, _⟩ => ⟨S3x768x3, .bf16⟩
  | .hbm, ⟨42, _⟩ => ⟨S3x768x768, .f32⟩
  | .hbm, ⟨43, _⟩ => ⟨S3x768x768, .bf16⟩
  | .hbm, ⟨44, _⟩ => ⟨S2304x44, .f32⟩
  | .hbm, ⟨45, _⟩ => ⟨S2304x44, .bf16⟩
  | .hbm, ⟨46, _⟩ => ⟨S4096x44, .f32⟩
  | .local _ .vmem, ⟨0, _⟩ => ⟨S256x256, .f32⟩
  | .local _ .vmem, ⟨1, _⟩ => ⟨S256x256, .f32⟩
  | .local _ .vmem, ⟨2, _⟩ => ⟨S3x256x256, .f32⟩
  | .local _ .vmem, ⟨3, _⟩ => ⟨S3x256x256, .f32⟩
  | .local _ .vmem, ⟨4, _⟩ => ⟨S3x256x256, .f32⟩
  | .local _ .vmem, ⟨5, _⟩ => ⟨S3x256x256, .f32⟩
  | .local _ .vmem, ⟨6, _⟩ => ⟨S3x256x1024, .bf16⟩
  | .local _ .vmem, ⟨7, _⟩ => ⟨S3x1024, .f32⟩
  | .local _ .vmem, ⟨8, _⟩ => ⟨S3x256x3, .bf16⟩
  | .local _ .vmem, ⟨9, _⟩ => ⟨S3x3, .f32⟩
  | .local _ .vmem, ⟨10, _⟩ => ⟨S3x256x768, .bf16⟩
  | .local _ .vmem, ⟨11, _⟩ => ⟨S3x768, .f32⟩
  | .local _ .vmem, ⟨12, _⟩ => ⟨S3x768x3, .bf16⟩
  | .local _ .vmem, ⟨13, _⟩ => ⟨S3x3, .f32⟩
  | .local _ .vmem, ⟨14, _⟩ => ⟨S3x768x768, .bf16⟩
  | .local _ .vmem, ⟨15, _⟩ => ⟨S3x768, .f32⟩
  | .local _ .vmem, ⟨16, _⟩ => ⟨S2304x44, .bf16⟩
  | .local _ .vmem, ⟨17, _⟩ => ⟨S44, .f32⟩
  | .local _ .vmem, ⟨18, _⟩ => ⟨S256x44, .f32⟩
  | .local _ .vmem, ⟨19, _⟩ => ⟨S256x44, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x768x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x768x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2304x44 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S44 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x44 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S3x256x256_S3x256x256_0_2_1 : S3x256x256.Transposes [0, 2, 1] S3x256x256
  concatenates_S3x256x256_S3x256x256_S3x256x256_S3x256x256_S3x256x1024_d2 : Shape.Concatenates [S3x256x256, S3x256x256, S3x256x256, S3x256x256] S3x256x1024 2
  bitsLt_bf16_f32 : FTy.bits .bf16 < FTy.bits .f32
  concatenates_S3x256_S3x256_S3x256_S3x256_S3x1024_d1 : Shape.Concatenates [S3x256, S3x256, S3x256, S3x256] S3x1024 1
  concatenates_S3x256x256_S3x256x256_S3x256x256_S3x256x768_d2 : Shape.Concatenates [S3x256x256, S3x256x256, S3x256x256] S3x256x768 2
  concatenates_S3x256_S3x256_S3x256_S3x768_d1 : Shape.Concatenates [S3x256, S3x256, S3x256] S3x768 1
  transposes_S3x3x256_S3x256x3_0_2_1 : S3x3x256.Transposes [0, 2, 1] S3x256x3
  transposes_S3x3x768_S3x768x3_0_2_1 : S3x3x768.Transposes [0, 2, 1] S3x768x3
  transposes_S3x768x768_S3x768x768_0_2_1 : S3x768x768.Transposes [0, 2, 1] S3x768x768
  transposes_S44x2304_S2304x44_1_0 : S44x2304.Transposes [1, 0] S2304x44
  inb_S256x256_S256x256_0_0 : ∀ a, (![0, 0] : Fin 2 → Nat) a + S256x256.size a ≤ S256x256.size a
  h_S256x256 : 0 < S256x256.numel
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  concatenates_S256x256_S256x256_S256x256_S256x768_d1 : Shape.Concatenates [S256x256, S256x256, S256x256] S256x768 1
  inb_S3x256x1024_S1x256x1024_0_0_0 : ∀ a, (![0, 0, 0] : Fin 3 → Nat) a + S1x256x1024.size a ≤ S3x256x1024.size a
  h_S1x256x1024 : 0 < S1x256x1024.numel
  shapeCasts_S1x256x1024_S256x1024 : S1x256x1024.ShapeCasts S256x1024
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  inb_S3x256x768_S1x256x768_0_0_0 : ∀ a, (![0, 0, 0] : Fin 3 → Nat) a + S1x256x768.size a ≤ S3x256x768.size a
  h_S1x256x768 : 0 < S1x256x768.numel
  shapeCasts_S1x256x768_S256x768 : S1x256x768.ShapeCasts S256x768
  inb_S3x768_S1x768_0_0 : ∀ a, (![0, 0] : Fin 2 → Nat) a + S1x768.size a ≤ S3x768.size a
  h_S1x768 : 0 < S1x768.numel
  shapeCasts_S1x768_S768 : S1x768.ShapeCasts S768
  shapeCasts_S768_S1x768 : S768.ShapeCasts S1x768
  broadcasts_S1x768_S256x768 : S1x768.Broadcasts S256x768
  slices_S256x768_o0_0_S256x256 : S256x768.Slices ![0, 0] S256x256
  slices_S256x768_o0_256_S256x256 : S256x768.Slices ![0, 256] S256x256
  slices_S256x768_o0_512_S256x256 : S256x768.Slices ![0, 512] S256x256
  inb_S3x256x3_S1x256x3_0_0_0 : ∀ a, (![0, 0, 0] : Fin 3 → Nat) a + S1x256x3.size a ≤ S3x256x3.size a
  h_S1x256x3 : 0 < S1x256x3.numel
  shapeCasts_S1x256x3_S256x3 : S1x256x3.ShapeCasts S256x3
  inb_S3x3_S1x3_0_0 : ∀ a, (![0, 0] : Fin 2 → Nat) a + S1x3.size a ≤ S3x3.size a
  h_S1x3 : 0 < S1x3.numel
  shapeCasts_S1x3_S3 : S1x3.ShapeCasts S3
  shapeCasts_S3_S1x3 : S3.ShapeCasts S1x3
  broadcasts_S1x3_S256x3 : S1x3.Broadcasts S256x3
  inb_S3x768x3_S1x768x3_0_0_0 : ∀ a, (![0, 0, 0] : Fin 3 → Nat) a + S1x768x3.size a ≤ S3x768x3.size a
  h_S1x768x3 : 0 < S1x768x3.numel
  shapeCasts_S1x768x3_S768x3 : S1x768x3.ShapeCasts S768x3
  inb_S3x768x768_S1x768x768_0_0_0 : ∀ a, (![0, 0, 0] : Fin 3 → Nat) a + S1x768x768.size a ≤ S3x768x768.size a
  h_S1x768x768 : 0 < S1x768x768.numel
  shapeCasts_S1x768x768_S768x768 : S1x768x768.ShapeCasts S768x768
  slices_S256x3_o0_0_S256x1 : S256x3.Slices ![0, 0] S256x1
  broadcasts_S256x1_S256x256 : S256x1.Broadcasts S256x256
  slices_S256x3_o0_1_S256x1 : S256x3.Slices ![0, 1] S256x1
  slices_S256x3_o0_2_S256x1 : S256x3.Slices ![0, 2] S256x1
  inb_S3x256x1024_S1x256x1024_1_0_0 : ∀ a, (![1, 0, 0] : Fin 3 → Nat) a + S1x256x1024.size a ≤ S3x256x1024.size a
  inb_S3x1024_S1x1024_1_0 : ∀ a, (![1, 0] : Fin 2 → Nat) a + S1x1024.size a ≤ S3x1024.size a
  inb_S3x256x768_S1x256x768_1_0_0 : ∀ a, (![1, 0, 0] : Fin 3 → Nat) a + S1x256x768.size a ≤ S3x256x768.size a
  inb_S3x768_S1x768_1_0 : ∀ a, (![1, 0] : Fin 2 → Nat) a + S1x768.size a ≤ S3x768.size a
  inb_S3x256x3_S1x256x3_1_0_0 : ∀ a, (![1, 0, 0] : Fin 3 → Nat) a + S1x256x3.size a ≤ S3x256x3.size a
  inb_S3x3_S1x3_1_0 : ∀ a, (![1, 0] : Fin 2 → Nat) a + S1x3.size a ≤ S3x3.size a
  inb_S3x768x3_S1x768x3_1_0_0 : ∀ a, (![1, 0, 0] : Fin 3 → Nat) a + S1x768x3.size a ≤ S3x768x3.size a
  inb_S3x768x768_S1x768x768_1_0_0 : ∀ a, (![1, 0, 0] : Fin 3 → Nat) a + S1x768x768.size a ≤ S3x768x768.size a
  inb_S3x256x1024_S1x256x1024_2_0_0 : ∀ a, (![2, 0, 0] : Fin 3 → Nat) a + S1x256x1024.size a ≤ S3x256x1024.size a
  inb_S3x1024_S1x1024_2_0 : ∀ a, (![2, 0] : Fin 2 → Nat) a + S1x1024.size a ≤ S3x1024.size a
  inb_S3x256x768_S1x256x768_2_0_0 : ∀ a, (![2, 0, 0] : Fin 3 → Nat) a + S1x256x768.size a ≤ S3x256x768.size a
  inb_S3x768_S1x768_2_0 : ∀ a, (![2, 0] : Fin 2 → Nat) a + S1x768.size a ≤ S3x768.size a
  inb_S3x256x3_S1x256x3_2_0_0 : ∀ a, (![2, 0, 0] : Fin 3 → Nat) a + S1x256x3.size a ≤ S3x256x3.size a
  inb_S3x3_S1x3_2_0 : ∀ a, (![2, 0] : Fin 2 → Nat) a + S1x3.size a ≤ S3x3.size a
  inb_S3x768x3_S1x768x3_2_0_0 : ∀ a, (![2, 0, 0] : Fin 3 → Nat) a + S1x768x3.size a ≤ S3x768x3.size a
  inb_S3x768x768_S1x768x768_2_0_0 : ∀ a, (![2, 0, 0] : Fin 3 → Nat) a + S1x768x768.size a ≤ S3x768x768.size a
  concatenates_S256x256_S256x256_S256x256_S256x256_S256x256_S256x256_S256x256_S256x256_S256x256_S256x2304_d1 : Shape.Concatenates [S256x256, S256x256, S256x256, S256x256, S256x256, S256x256, S256x256, S256x256, S256x256] S256x2304 1
  inb_S2304x44_S2304x44_0_0 : ∀ a, (![0, 0] : Fin 2 → Nat) a + S2304x44.size a ≤ S2304x44.size a
  h_S2304x44 : 0 < S2304x44.numel
  shapeCasts_S2304x44_S2304x44 : S2304x44.ShapeCasts S2304x44
  inb_S44_S44_0 : ∀ a, (![0] : Fin 1 → Nat) a + S44.size a ≤ S44.size a
  h_S44 : 0 < S44.numel
  shapeCasts_S44_S1x44 : S44.ShapeCasts S1x44
  broadcasts_S1x44_S256x44 : S1x44.Broadcasts S256x44
  inb_S256x44_S256x44_0_0 : ∀ a, (![0, 0] : Fin 2 → Nat) a + S256x44.size a ≤ S256x44.size a
  h_S256x44 : 0 < S256x44.numel
  dot_S256x256_S256x1024_S256x1024_1_0_0_1_n_n_wf : DotDims.WF S256x256 S256x1024 S256x1024 [1] [0] [0] [1] [] []
  dot_S256x256_S256x768_S256x768_1_0_0_1_n_n_wf : DotDims.WF S256x256 S256x768 S256x768 [1] [0] [0] [1] [] []
  dot_S256x256_S256x3_S256x3_1_0_0_1_n_n_wf : DotDims.WF S256x256 S256x3 S256x3 [1] [0] [0] [1] [] []
  dot_S256x768_S768x3_S256x3_1_0_0_1_n_n_wf : DotDims.WF S256x768 S768x3 S256x3 [1] [0] [0] [1] [] []
  dot_S256x768_S768x768_S256x768_1_0_0_1_n_n_wf : DotDims.WF S256x768 S768x768 S256x768 [1] [0] [0] [1] [] []
  dot_S256x2304_S2304x44_S256x44_1_0_0_1_n_n_wf : DotDims.WF S256x2304 S2304x44 S256x44 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x4096x256.size a
  hwx0_1 : ∀ i : grid0.Coords, EltTy.bits .f32 = 32 ∨ (Rect.block (s := S3x4096x256) S3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x4096x256.size a
  hwx0_2 : ∀ i : grid0.Coords, EltTy.bits .f32 = 32 ∨ (Rect.block (s := S3x4096x256) S3x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x1024.size a ≤ S3x256x1024.size a
  hwx0_3 : ∀ i : grid0.Coords, EltTy.bits .bf16 = 32 ∨ (Rect.block (s := S3x256x1024) S3x256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256x3.size a ≤ S3x256x3.size a
  hwx0_5 : ∀ i : grid0.Coords, EltTy.bits .bf16 = 32 ∨ (Rect.block (s := S3x256x3) S3x256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x3.size a ≤ S3x3.size a
  hwx0_6 : ∀ i : grid0.Coords, EltTy.bits .f32 = 32 ∨ (Rect.block (s := S3x3) S3x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x256x768.size a ≤ S3x256x768.size a
  hwx0_7 : ∀ i : grid0.Coords, EltTy.bits .bf16 = 32 ∨ (Rect.block (s := S3x256x768) S3x256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x768.size a ≤ S3x768.size a
  hwx0_8 : ∀ i : grid0.Coords, EltTy.bits .f32 = 32 ∨ (Rect.block (s := S3x768) S3x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x768x3.size a ≤ S3x768x3.size a
  hwx0_9 : ∀ i : grid0.Coords, EltTy.bits .bf16 = 32 ∨ (Rect.block (s := S3x768x3) S3x768x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x3.size a ≤ S3x3.size a
  hwx0_10 : ∀ i : grid0.Coords, EltTy.bits .f32 = 32 ∨ (Rect.block (s := S3x3) S3x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x768x768.size a ≤ S3x768x768.size a
  hwx0_11 : ∀ i : grid0.Coords, EltTy.bits .bf16 = 32 ∨ (Rect.block (s := S3x768x768) S3x768x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x768.size a ≤ S3x768.size a
  hwx0_12 : ∀ i : grid0.Coords, EltTy.bits .f32 = 32 ∨ (Rect.block (s := S3x768) S3x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2304x44.size a ≤ S2304x44.size a
  hwx0_13 : ∀ i : grid0.Coords, EltTy.bits .bf16 = 32 ∨ (Rect.block (s := S2304x44) S2304x44.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S44.size a ≤ S44.size a
  hwx0_14 : ∀ i : grid0.Coords, EltTy.bits .f32 = 32 ∨ (Rect.block (s := S44) S44.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x44.size a ≤ S4096x44.size a
  hwx0_15 : ∀ i : grid0.Coords, EltTy.bits .f32 = 32 ∨ (Rect.block (s := S4096x44) S256x44.size (cc0_transform_15 i) (hinb0_15 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S256x256_S256x3_S256x3_1_0_0_1_n_n : DotDims S256x256 S256x3 S256x3 where
  lhsContracting := [1]
  rhsContracting := [0]
  lhsNonContracting := [0]
  rhsNonContracting := [1]
  lhsBatch := []
  rhsBatch := []
  wf := dot_S256x256_S256x3_S256x3_1_0_0_1_n_n_wf
def dot_S256x768_S768x3_S256x3_1_0_0_1_n_n : DotDims S256x768 S768x3 S256x3 where
  lhsContracting := [1]
  rhsContracting := [0]
  lhsNonContracting := [0]
  rhsNonContracting := [1]
  lhsBatch := []
  rhsBatch := []
  wf := dot_S256x768_S768x3_S256x3_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x2304_S2304x44_S256x44_1_0_0_1_n_n : DotDims S256x2304 S2304x44 S256x44 where
  lhsContracting := [1]
  rhsContracting := [0]
  lhsNonContracting := [0]
  rhsNonContracting := [1]
  lhsBatch := []
  rhsBatch := []
  wf := dot_S256x2304_S2304x44_S256x44_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3x256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S3x256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S3x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S3x256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S3x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S3x768x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg20) S3x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S3x768x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg22) S3x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S2304x44.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg24) S44.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S256x44.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x256 : Shape := ⟨2, ![4096, 256]⟩
abbrev S3x4096x256 : Shape := ⟨3, ![3, 4096, 256]⟩
abbrev S3x256x256 : Shape := ⟨3, ![3, 256, 256]⟩
abbrev S3x256 : Shape := ⟨2, ![3, 256]⟩
abbrev S3x3x256 : Shape := ⟨3, ![3, 3, 256]⟩
abbrev S3x3 : Shape := ⟨2, ![3, 3]⟩
abbrev S3x3x768 : Shape := ⟨3, ![3, 3, 768]⟩
abbrev S3x768x768 : Shape := ⟨3, ![3, 768, 768]⟩
abbrev S3x768 : Shape := ⟨2, ![3, 768]⟩
abbrev S44x2304 : Shape := ⟨2, ![44, 2304]⟩
abbrev S44 : Shape := ⟨1, ![44]⟩
abbrev S4096x3x256 : Shape := ⟨3, ![4096, 3, 256]⟩
abbrev S4096x768 : Shape := ⟨2, ![4096, 768]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x4096x256 : Shape := ⟨3, ![1, 4096, 256]⟩
abbrev S_ : Shape := ⟨0, ![]⟩
abbrev S1x3x256 : Shape := ⟨3, ![1, 3, 256]⟩
abbrev S1x3 : Shape := ⟨2, ![1, 3]⟩
abbrev S3 : Shape := ⟨1, ![3]⟩
abbrev S256x3 : Shape := ⟨2, ![256, 3]⟩
abbrev S4096x3 : Shape := ⟨2, ![4096, 3]⟩
abbrev S1x3x768 : Shape := ⟨3, ![1, 3, 768]⟩
abbrev S768x3 : Shape := ⟨2, ![768, 3]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S4096x3x1 : Shape := ⟨3, ![4096, 3, 1]⟩
abbrev S4096x2304 : Shape := ⟨2, ![4096, 2304]⟩
abbrev S2304x44 : Shape := ⟨2, ![2304, 44]⟩
abbrev S4096x44 : Shape := ⟨2, ![4096, 44]⟩
abbrev S1x44 : Shape := ⟨2, ![1, 44]⟩

abbrev nBuf : Space → Nat
  | .hbm => 4519
  | .vmem => 0
  | .smem => 0
  | _ => 0

abbrev hbmTy0_0 (i : Nat) : BufTy := match i % 128 with
  | 0 => ⟨S4096x256, .f32⟩
  | 1 => ⟨S3x4096x256, .f32⟩
  | 2 => ⟨S3x4096x256, .f32⟩
  | 3 => ⟨S3x256x256, .f32⟩
  | 4 => ⟨S3x256, .f32⟩
  | 5 => ⟨S3x256x256, .f32⟩
  | 6 => ⟨S3x256, .f32⟩
  | 7 => ⟨S3x256x256, .f32⟩
  | 8 => ⟨S3x256, .f32⟩
  | 9 => ⟨S3x256x256, .f32⟩
  | 10 => ⟨S3x256, .f32⟩
  | 11 => ⟨S3x3x256, .f32⟩
  | 12 => ⟨S3x3, .f32⟩
  | 13 => ⟨S3x256x256, .f32⟩
  | 14 => ⟨S3x256, .f32⟩
  | 15 => ⟨S3x256x256, .f32⟩
  | 16 => ⟨S3x256, .f32⟩
  | 17 => ⟨S3x256x256, .f32⟩
  | 18 => ⟨S3x256, .f32⟩
  | 19 => ⟨S3x3x768, .f32⟩
  | 20 => ⟨S3x3, .f32⟩
  | 21 => ⟨S3x768x768, .f32⟩
  | 22 => ⟨S3x768, .f32⟩
  | 23 => ⟨S44x2304, .f32⟩
  | 24 => ⟨S44, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_1 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_2 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_3 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_4 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_5 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_6 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_7 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_8 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_9 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_10 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_11 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_12 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_13 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_14 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_15 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_16 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_17 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_18 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_19 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_20 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_21 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_22 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_23 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_24 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_25 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_26 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_27 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_28 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_29 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_30 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_31 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_32 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_33 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_34 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_35 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x2304, .f32⟩
  | 26 => ⟨S2304x44, .f32⟩
  | 27 => ⟨S4096x44, .f32⟩
  | 28 => ⟨S1x44, .f32⟩
  | 29 => ⟨S4096x44, .f32⟩
  | 30 => ⟨S4096x44, .f32⟩
  | 31 => ⟨S4096x44, .f32⟩
  | 32 => ⟨S4096x44, .f32⟩
  | 33 => ⟨S_, .f32⟩
  | 34 => ⟨S4096x44, .f32⟩
  | 35 => ⟨S4096x44, .f32⟩
  | 36 => ⟨S_, .f32⟩
  | 37 => ⟨S4096x44, .f32⟩
  | 38 => ⟨S4096x44, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_1 : Ref sig .tc := ⟨.hbm, 79, rfl⟩
abbrev main_v52 : Ref sig .tc := ⟨.hbm, 80, rfl⟩
abbrev main_v53 : Ref sig .tc := ⟨.hbm, 81, rfl⟩
abbrev main_cst_2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_3 : Ref sig .tc := ⟨.hbm, 106, rfl⟩
abbrev main_v77 : Ref sig .tc := ⟨.hbm, 107, rfl⟩
abbrev main_v78 : Ref sig .tc := ⟨.hbm, 108, rfl⟩
abbrev main_cst_4 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_5 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_6 : Ref sig .tc := ⟨.hbm, 166, rfl⟩
abbrev main_v134 : Ref sig .tc := ⟨.hbm, 167, rfl⟩
abbrev main_v135 : Ref sig .tc := ⟨.hbm, 168, rfl⟩
abbrev main_cst_7 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_8 : Ref sig .tc := ⟨.hbm, 196, rfl⟩
abbrev main_v162 : Ref sig .tc := ⟨.hbm, 197, rfl⟩
abbrev main_v163 : Ref sig .tc := ⟨.hbm, 198, rfl⟩
abbrev main_cst_9 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_cst_10 : Ref sig .tc := ⟨.hbm, 225, rfl⟩
abbrev main_v189 : Ref sig .tc := ⟨.hbm, 226, rfl⟩
abbrev main_v190 : Ref sig .tc := ⟨.hbm, 227, rfl⟩
abbrev main_cst_11 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_cst_12 : Ref sig .tc := ⟨.hbm, 252, rfl⟩
abbrev main_v214 : Ref sig .tc := ⟨.hbm, 253, rfl⟩
abbrev main_v215 : Ref sig .tc := ⟨.hbm, 254, rfl⟩
abbrev main_cst_13 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_cst_14 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_cst_15 : Ref sig .tc := ⟨.hbm, 312, rfl⟩
abbrev main_v271 : Ref sig .tc := ⟨.hbm, 313, rfl⟩
abbrev main_v272 : Ref sig .tc := ⟨.hbm, 314, rfl⟩
abbrev main_cst_16 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_cst_17 : Ref sig .tc := ⟨.hbm, 342, rfl⟩
abbrev main_v299 : Ref sig .tc := ⟨.hbm, 343, rfl⟩
abbrev main_v300 : Ref sig .tc := ⟨.hbm, 344, rfl⟩
abbrev main_cst_18 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_cst_19 : Ref sig .tc := ⟨.hbm, 371, rfl⟩
abbrev main_v326 : Ref sig .tc := ⟨.hbm, 372, rfl⟩
abbrev main_v327 : Ref sig .tc := ⟨.hbm, 373, rfl⟩
abbrev main_cst_20 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_cst_21 : Ref sig .tc := ⟨.hbm, 398, rfl⟩
abbrev main_v351 : Ref sig .tc := ⟨.hbm, 399, rfl⟩
abbrev main_v352 : Ref sig .tc := ⟨.hbm, 400, rfl⟩
abbrev main_cst_22 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_cst_23 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_v380 : Ref sig .tc := ⟨.hbm, 430, rfl⟩
abbrev main_v381 : Ref sig .tc := ⟨.hbm, 431, rfl⟩
abbrev main_v382 : Ref sig .tc := ⟨.hbm, 432, rfl⟩
abbrev main_v383 : Ref sig .tc := ⟨.hbm, 433, rfl⟩
abbrev main_v384 : Ref sig .tc := ⟨.hbm, 434, rfl⟩
abbrev main_v385 : Ref sig .tc := ⟨.hbm, 435, rfl⟩
abbrev main_v386 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_v406 : Ref sig .tc := ⟨.hbm, 456, rfl⟩
abbrev main_v407 : Ref sig .tc := ⟨.hbm, 457, rfl⟩
abbrev main_cst_24 : Ref sig .tc := ⟨.hbm, 458, rfl⟩
abbrev main_v408 : Ref sig .tc := ⟨.hbm, 459, rfl⟩
abbrev main_v409 : Ref sig .tc := ⟨.hbm, 460, rfl⟩
abbrev main_cst_25 : Ref sig .tc := ⟨.hbm, 461, rfl⟩
abbrev main_v410 : Ref sig .tc := ⟨.hbm, 462, rfl⟩
abbrev main_v411 : Ref sig .tc := ⟨.hbm, 463, rfl⟩
abbrev main_v412 : Ref sig .tc := ⟨.hbm, 464, rfl⟩
abbrev main_v413 : Ref sig .tc := ⟨.hbm, 465, rfl⟩
abbrev main_v414 : Ref sig .tc := ⟨.hbm, 466, rfl⟩
abbrev main_v415 : Ref sig .tc := ⟨.hbm, 467, rfl⟩
abbrev main_v416 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_v426 : Ref sig .tc := ⟨.hbm, 478, rfl⟩
abbrev main_v427 : Ref sig .tc := ⟨.hbm, 479, rfl⟩
abbrev main_v428 : Ref sig .tc := ⟨.hbm, 480, rfl⟩
abbrev main_v429 : Ref sig .tc := ⟨.hbm, 481, rfl⟩
abbrev main_v430 : Ref sig .tc := ⟨.hbm, 482, rfl⟩
abbrev main_v431 : Ref sig .tc := ⟨.hbm, 483, rfl⟩
abbrev main_v432 : Ref sig .tc := ⟨.hbm, 484, rfl⟩
abbrev main_v433 : Ref sig .tc := ⟨.hbm, 485, rfl⟩
abbrev main_v434 : Ref sig .tc := ⟨.hbm, 486, rfl⟩
abbrev main_v435 : Ref sig .tc := ⟨.hbm, 487, rfl⟩
abbrev main_v436 : Ref sig .tc := ⟨.hbm, 488, rfl⟩
abbrev main_v437 : Ref sig .tc := ⟨.hbm, 489, rfl⟩
abbrev main_v438 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_cst_26 : Ref sig .tc := ⟨.hbm, 498, rfl⟩
abbrev main_v446 : Ref sig .tc := ⟨.hbm, 499, rfl⟩
abbrev main_v447 : Ref sig .tc := ⟨.hbm, 500, rfl⟩
abbrev main_cst_27 : Ref sig .tc := ⟨.hbm, 501, rfl⟩
abbrev main_v448 : Ref sig .tc := ⟨.hbm, 502, rfl⟩
abbrev main_v449 : Ref sig .tc := ⟨.hbm, 503, rfl⟩
abbrev main_v450 : Ref sig .tc := ⟨.hbm, 504, rfl⟩
abbrev main_v451 : Ref sig .tc := ⟨.hbm, 505, rfl⟩
abbrev main_v452 : Ref sig .tc := ⟨.hbm, 506, rfl⟩
abbrev main_v453 : Ref sig .tc := ⟨.hbm, 507, rfl⟩
abbrev main_v454 : Ref sig .tc := ⟨.hbm, 508, rfl⟩
abbrev main_v455 : Ref sig .tc := ⟨.hbm, 509, rfl⟩
abbrev main_v456 : Ref sig .tc := ⟨.hbm, 510, rfl⟩
abbrev main_v457 : Ref sig .tc := ⟨.hbm, 511, rfl⟩
abbrev main_v458 : Ref sig .tc := ⟨.hbm, 512, rfl⟩
abbrev main_v459 : Ref sig .tc := ⟨.hbm, 513, rfl⟩
abbrev main_v460 : Ref sig .tc := ⟨.hbm, 514, rfl⟩
abbrev main_v461 : Ref sig .tc := ⟨.hbm, 515, rfl⟩
abbrev main_v462 : Ref sig .tc := ⟨.hbm, 516, rfl⟩
abbrev main_v463 : Ref sig .tc := ⟨.hbm, 517, rfl⟩
abbrev main_v464 : Ref sig .tc := ⟨.hbm, 518, rfl⟩
abbrev main_v465 : Ref sig .tc := ⟨.hbm, 519, rfl⟩
abbrev main_v466 : Ref sig .tc := ⟨.hbm, 520, rfl⟩
abbrev main_v467 : Ref sig .tc := ⟨.hbm, 521, rfl⟩
abbrev main_v468 : Ref sig .tc := ⟨.hbm, 522, rfl⟩
abbrev main_v469 : Ref sig .tc := ⟨.hbm, 523, rfl⟩
abbrev main_v470 : Ref sig .tc := ⟨.hbm, 524, rfl⟩
abbrev main_v471 : Ref sig .tc := ⟨.hbm, 525, rfl⟩
abbrev main_v472 : Ref sig .tc := ⟨.hbm, 526, rfl⟩
abbrev main_cst_28 : Ref sig .tc := ⟨.hbm, 527, rfl⟩
abbrev main_v473 : Ref sig .tc := ⟨.hbm, 528, rfl⟩
abbrev main_v474 : Ref sig .tc := ⟨.hbm, 529, rfl⟩
abbrev main_cst_29 : Ref sig .tc := ⟨.hbm, 530, rfl⟩
abbrev main_v475 : Ref sig .tc := ⟨.hbm, 531, rfl⟩
abbrev main_v476 : Ref sig .tc := ⟨.hbm, 532, rfl⟩
abbrev main_v477 : Ref sig .tc := ⟨.hbm, 533, rfl⟩
abbrev main_v478 : Ref sig .tc := ⟨.hbm, 534, rfl⟩
abbrev main_v479 : Ref sig .tc := ⟨.hbm, 535, rfl⟩
abbrev main_v480 : Ref sig .tc := ⟨.hbm, 536, rfl⟩
abbrev main_v481 : Ref sig .tc := ⟨.hbm, 537, rfl⟩
abbrev main_v482 : Ref sig .tc := ⟨.hbm, 538, rfl⟩
abbrev main_v483 : Ref sig .tc := ⟨.hbm, 539, rfl⟩
abbrev main_v484 : Ref sig .tc := ⟨.hbm, 540, rfl⟩
abbrev main_v485 : Ref sig .tc := ⟨.hbm, 541, rfl⟩
abbrev main_v486 : Ref sig .tc := ⟨.hbm, 542, rfl⟩
abbrev main_v487 : Ref sig .tc := ⟨.hbm, 543, rfl⟩
abbrev main_v488 : Ref sig .tc := ⟨.hbm, 544, rfl⟩
abbrev main_v489 : Ref sig .tc := ⟨.hbm, 545, rfl⟩
abbrev main_v490 : Ref sig .tc := ⟨.hbm, 546, rfl⟩
abbrev main_v491 : Ref sig .tc := ⟨.hbm, 547, rfl⟩
abbrev main_v492 : Ref sig .tc := ⟨.hbm, 548, rfl⟩
abbrev main_v493 : Ref sig .tc := ⟨.hbm, 549, rfl⟩
abbrev main_v494 : Ref sig .tc := ⟨.hbm, 550, rfl⟩
abbrev main_v495 : Ref sig .tc := ⟨.hbm, 551, rfl⟩
abbrev main_v496 : Ref sig .tc := ⟨.hbm, 552, rfl⟩
abbrev main_v497 : Ref sig .tc := ⟨.hbm, 553, rfl⟩
abbrev main_cst_30 : Ref sig .tc := ⟨.hbm, 554, rfl⟩
abbrev main_v498 : Ref sig .tc := ⟨.hbm, 555, rfl⟩
abbrev main_v499 : Ref sig .tc := ⟨.hbm, 556, rfl⟩
abbrev main_cst_31 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_v503 : Ref sig .tc := ⟨.hbm, 561, rfl⟩
abbrev main_v504 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_cst_32 : Ref sig .tc := ⟨.hbm, 573, rfl⟩
abbrev main_v515 : Ref sig .tc := ⟨.hbm, 574, rfl⟩
abbrev main_v516 : Ref sig .tc := ⟨.hbm, 575, rfl⟩
abbrev main_v517 : Ref sig .tc := ⟨.hbm, 576, rfl⟩
abbrev main_v518 : Ref sig .tc := ⟨.hbm, 577, rfl⟩
abbrev main_v519 : Ref sig .tc := ⟨.hbm, 578, rfl⟩
abbrev main_v520 : Ref sig .tc := ⟨.hbm, 579, rfl⟩
abbrev main_v521 : Ref sig .tc := ⟨.hbm, 580, rfl⟩
abbrev main_v522 : Ref sig .tc := ⟨.hbm, 581, rfl⟩
abbrev main_v523 : Ref sig .tc := ⟨.hbm, 582, rfl⟩
abbrev main_v524 : Ref sig .tc := ⟨.hbm, 583, rfl⟩
abbrev main_v525 : Ref sig .tc := ⟨.hbm, 584, rfl⟩
abbrev main_v526 : Ref sig .tc := ⟨.hbm, 585, rfl⟩
abbrev main_v527 : Ref sig .tc := ⟨.hbm, 586, rfl⟩
abbrev main_v528 : Ref sig .tc := ⟨.hbm, 587, rfl⟩
abbrev main_v529 : Ref sig .tc := ⟨.hbm, 588, rfl⟩
abbrev main_v530 : Ref sig .tc := ⟨.hbm, 589, rfl⟩
abbrev main_v531 : Ref sig .tc := ⟨.hbm, 590, rfl⟩
abbrev main_v532 : Ref sig .tc := ⟨.hbm, 591, rfl⟩
abbrev main_v533 : Ref sig .tc := ⟨.hbm, 592, rfl⟩
abbrev main_v534 : Ref sig .tc := ⟨.hbm, 593, rfl⟩
abbrev main_v535 : Ref sig .tc := ⟨.hbm, 594, rfl⟩
abbrev main_v536 : Ref sig .tc := ⟨.hbm, 595, rfl⟩
abbrev main_v537 : Ref sig .tc := ⟨.hbm, 596, rfl⟩
abbrev main_v538 : Ref sig .tc := ⟨.hbm, 597, rfl⟩
abbrev main_v539 : Ref sig .tc := ⟨.hbm, 598, rfl⟩
abbrev main_v540 : Ref sig .tc := ⟨.hbm, 599, rfl⟩
abbrev main_v541 : Ref sig .tc := ⟨.hbm, 600, rfl⟩
abbrev main_v542 : Ref sig .tc := ⟨.hbm, 601, rfl⟩
abbrev main_v543 : Ref sig .tc := ⟨.hbm, 602, rfl⟩
abbrev main_v544 : Ref sig .tc := ⟨.hbm, 603, rfl⟩
abbrev main_v545 : Ref sig .tc := ⟨.hbm, 604, rfl⟩
abbrev main_v546 : Ref sig .tc := ⟨.hbm, 605, rfl⟩
abbrev main_v547 : Ref sig .tc := ⟨.hbm, 606, rfl⟩
abbrev main_v548 : Ref sig .tc := ⟨.hbm, 607, rfl⟩
abbrev main_v549 : Ref sig .tc := ⟨.hbm, 608, rfl⟩
abbrev main_v550 : Ref sig .tc := ⟨.hbm, 609, rfl⟩
abbrev main_v551 : Ref sig .tc := ⟨.hbm, 610, rfl⟩
abbrev main_v552 : Ref sig .tc := ⟨.hbm, 611, rfl⟩
abbrev main_v553 : Ref sig .tc := ⟨.hbm, 612, rfl⟩
abbrev main_v554 : Ref sig .tc := ⟨.hbm, 613, rfl⟩
abbrev main_cst_33 : Ref sig .tc := ⟨.hbm, 614, rfl⟩
abbrev main_v555 : Ref sig .tc := ⟨.hbm, 615, rfl⟩
abbrev main_v556 : Ref sig .tc := ⟨.hbm, 616, rfl⟩
abbrev main_cst_34 : Ref sig .tc := ⟨.hbm, 617, rfl⟩
abbrev main_v557 : Ref sig .tc := ⟨.hbm, 618, rfl⟩
abbrev main_v558 : Ref sig .tc := ⟨.hbm, 619, rfl⟩
abbrev main_v559 : Ref sig .tc := ⟨.hbm, 620, rfl⟩
abbrev main_v560 : Ref sig .tc := ⟨.hbm, 621, rfl⟩
abbrev main_v561 : Ref sig .tc := ⟨.hbm, 622, rfl⟩
abbrev main_v562 : Ref sig .tc := ⟨.hbm, 623, rfl⟩
abbrev main_v563 : Ref sig .tc := ⟨.hbm, 624, rfl⟩
abbrev main_v564 : Ref sig .tc := ⟨.hbm, 625, rfl⟩
abbrev main_v565 : Ref sig .tc := ⟨.hbm, 626, rfl⟩
abbrev main_v566 : Ref sig .tc := ⟨.hbm, 627, rfl⟩
abbrev main_v567 : Ref sig .tc := ⟨.hbm, 628, rfl⟩
abbrev main_v568 : Ref sig .tc := ⟨.hbm, 629, rfl⟩
abbrev main_v569 : Ref sig .tc := ⟨.hbm, 630, rfl⟩
abbrev main_v570 : Ref sig .tc := ⟨.hbm, 631, rfl⟩
abbrev main_v571 : Ref sig .tc := ⟨.hbm, 632, rfl⟩
abbrev main_v572 : Ref sig .tc := ⟨.hbm, 633, rfl⟩
abbrev main_v573 : Ref sig .tc := ⟨.hbm, 634, rfl⟩
abbrev main_v574 : Ref sig .tc := ⟨.hbm, 635, rfl⟩
abbrev main_v575 : Ref sig .tc := ⟨.hbm, 636, rfl⟩
abbrev main_v576 : Ref sig .tc := ⟨.hbm, 637, rfl⟩
abbrev main_v577 : Ref sig .tc := ⟨.hbm, 638, rfl⟩
abbrev main_v578 : Ref sig .tc := ⟨.hbm, 639, rfl⟩
abbrev main_v579 : Ref sig .tc := ⟨.hbm, 640, rfl⟩
abbrev main_v580 : Ref sig .tc := ⟨.hbm, 641, rfl⟩
abbrev main_v581 : Ref sig .tc := ⟨.hbm, 642, rfl⟩
abbrev main_v582 : Ref sig .tc := ⟨.hbm, 643, rfl⟩
abbrev main_cst_35 : Ref sig .tc := ⟨.hbm, 644, rfl⟩
abbrev main_v583 : Ref sig .tc := ⟨.hbm, 645, rfl⟩
abbrev main_v584 : Ref sig .tc := ⟨.hbm, 646, rfl⟩
abbrev main_cst_36 : Ref sig .tc := ⟨.hbm, 647, rfl⟩
abbrev main_v585 : Ref sig .tc := ⟨.hbm, 648, rfl⟩
abbrev main_v586 : Ref sig .tc := ⟨.hbm, 649, rfl⟩
abbrev main_v587 : Ref sig .tc := ⟨.hbm, 650, rfl⟩
abbrev main_v588 : Ref sig .tc := ⟨.hbm, 651, rfl⟩
abbrev main_v589 : Ref sig .tc := ⟨.hbm, 652, rfl⟩
abbrev main_v590 : Ref sig .tc := ⟨.hbm, 653, rfl⟩
abbrev main_v591 : Ref sig .tc := ⟨.hbm, 654, rfl⟩
abbrev main_v592 : Ref sig .tc := ⟨.hbm, 655, rfl⟩
abbrev main_v593 : Ref sig .tc := ⟨.hbm, 656, rfl⟩
abbrev main_v594 : Ref sig .tc := ⟨.hbm, 657, rfl⟩
abbrev main_v595 : Ref sig .tc := ⟨.hbm, 658, rfl⟩
abbrev main_v596 : Ref sig .tc := ⟨.hbm, 659, rfl⟩
abbrev main_v597 : Ref sig .tc := ⟨.hbm, 660, rfl⟩
abbrev main_v598 : Ref sig .tc := ⟨.hbm, 661, rfl⟩
abbrev main_v599 : Ref sig .tc := ⟨.hbm, 662, rfl⟩
abbrev main_v600 : Ref sig .tc := ⟨.hbm, 663, rfl⟩
abbrev main_v601 : Ref sig .tc := ⟨.hbm, 664, rfl⟩
abbrev main_v602 : Ref sig .tc := ⟨.hbm, 665, rfl⟩
abbrev main_v603 : Ref sig .tc := ⟨.hbm, 666, rfl⟩
abbrev main_v604 : Ref sig .tc := ⟨.hbm, 667, rfl⟩
abbrev main_v605 : Ref sig .tc := ⟨.hbm, 668, rfl⟩
abbrev main_v606 : Ref sig .tc := ⟨.hbm, 669, rfl⟩
abbrev main_v607 : Ref sig .tc := ⟨.hbm, 670, rfl⟩
abbrev main_v608 : Ref sig .tc := ⟨.hbm, 671, rfl⟩
abbrev main_v609 : Ref sig .tc := ⟨.hbm, 672, rfl⟩
abbrev main_cst_37 : Ref sig .tc := ⟨.hbm, 673, rfl⟩
abbrev main_v610 : Ref sig .tc := ⟨.hbm, 674, rfl⟩
abbrev main_v611 : Ref sig .tc := ⟨.hbm, 675, rfl⟩
abbrev main_cst_38 : Ref sig .tc := ⟨.hbm, 676, rfl⟩
abbrev main_v612 : Ref sig .tc := ⟨.hbm, 677, rfl⟩
abbrev main_v613 : Ref sig .tc := ⟨.hbm, 678, rfl⟩
abbrev main_v614 : Ref sig .tc := ⟨.hbm, 679, rfl⟩
abbrev main_v615 : Ref sig .tc := ⟨.hbm, 680, rfl⟩
abbrev main_v616 : Ref sig .tc := ⟨.hbm, 681, rfl⟩
abbrev main_v617 : Ref sig .tc := ⟨.hbm, 682, rfl⟩
abbrev main_v618 : Ref sig .tc := ⟨.hbm, 683, rfl⟩
abbrev main_v619 : Ref sig .tc := ⟨.hbm, 684, rfl⟩
abbrev main_v620 : Ref sig .tc := ⟨.hbm, 685, rfl⟩
abbrev main_v621 : Ref sig .tc := ⟨.hbm, 686, rfl⟩
abbrev main_v622 : Ref sig .tc := ⟨.hbm, 687, rfl⟩
abbrev main_v623 : Ref sig .tc := ⟨.hbm, 688, rfl⟩
abbrev main_v624 : Ref sig .tc := ⟨.hbm, 689, rfl⟩
abbrev main_v625 : Ref sig .tc := ⟨.hbm, 690, rfl⟩
abbrev main_v626 : Ref sig .tc := ⟨.hbm, 691, rfl⟩
abbrev main_v627 : Ref sig .tc := ⟨.hbm, 692, rfl⟩
abbrev main_v628 : Ref sig .tc := ⟨.hbm, 693, rfl⟩
abbrev main_v629 : Ref sig .tc := ⟨.hbm, 694, rfl⟩
abbrev main_v630 : Ref sig .tc := ⟨.hbm, 695, rfl⟩
abbrev main_v631 : Ref sig .tc := ⟨.hbm, 696, rfl⟩
abbrev main_v632 : Ref sig .tc := ⟨.hbm, 697, rfl⟩
abbrev main_v633 : Ref sig .tc := ⟨.hbm, 698, rfl⟩
abbrev main_v634 : Ref sig .tc := ⟨.hbm, 699, rfl⟩
abbrev main_cst_39 : Ref sig .tc := ⟨.hbm, 700, rfl⟩
abbrev main_v635 : Ref sig .tc := ⟨.hbm, 701, rfl⟩
abbrev main_v636 : Ref sig .tc := ⟨.hbm, 702, rfl⟩
abbrev main_cst_40 : Ref sig .tc := ⟨.hbm, 703, rfl⟩
abbrev main_v637 : Ref sig .tc := ⟨.hbm, 704, rfl⟩
abbrev main_v638 : Ref sig .tc := ⟨.hbm, 705, rfl⟩
abbrev main_v639 : Ref sig .tc := ⟨.hbm, 706, rfl⟩
abbrev main_v640 : Ref sig .tc := ⟨.hbm, 707, rfl⟩
abbrev main_v641 : Ref sig .tc := ⟨.hbm, 708, rfl⟩
abbrev main_v642 : Ref sig .tc := ⟨.hbm, 709, rfl⟩
abbrev main_v643 : Ref sig .tc := ⟨.hbm, 710, rfl⟩
abbrev main_v644 : Ref sig .tc := ⟨.hbm, 711, rfl⟩
abbrev main_v645 : Ref sig .tc := ⟨.hbm, 712, rfl⟩
abbrev main_v646 : Ref sig .tc := ⟨.hbm, 713, rfl⟩
abbrev main_v647 : Ref sig .tc := ⟨.hbm, 714, rfl⟩
abbrev main_v648 : Ref sig .tc := ⟨.hbm, 715, rfl⟩
abbrev main_v649 : Ref sig .tc := ⟨.hbm, 716, rfl⟩
abbrev main_v650 : Ref sig .tc := ⟨.hbm, 717, rfl⟩
abbrev main_v651 : Ref sig .tc := ⟨.hbm, 718, rfl⟩
abbrev main_cst_41 : Ref sig .tc := ⟨.hbm, 719, rfl⟩
abbrev main_v652 : Ref sig .tc := ⟨.hbm, 720, rfl⟩
abbrev main_v653 : Ref sig .tc := ⟨.hbm, 721, rfl⟩
abbrev main_v654 : Ref sig .tc := ⟨.hbm, 722, rfl⟩
abbrev main_v655 : Ref sig .tc := ⟨.hbm, 723, rfl⟩
abbrev main_v656 : Ref sig .tc := ⟨.hbm, 724, rfl⟩
abbrev main_v657 : Ref sig .tc := ⟨.hbm, 725, rfl⟩
abbrev main_v658 : Ref sig .tc := ⟨.hbm, 726, rfl⟩
abbrev main_v659 : Ref sig .tc := ⟨.hbm, 727, rfl⟩
abbrev main_v660 : Ref sig .tc := ⟨.hbm, 728, rfl⟩
abbrev main_v661 : Ref sig .tc := ⟨.hbm, 729, rfl⟩
abbrev main_v662 : Ref sig .tc := ⟨.hbm, 730, rfl⟩
abbrev main_v663 : Ref sig .tc := ⟨.hbm, 731, rfl⟩
abbrev main_v664 : Ref sig .tc := ⟨.hbm, 732, rfl⟩
abbrev main_v665 : Ref sig .tc := ⟨.hbm, 733, rfl⟩
abbrev main_v666 : Ref sig .tc := ⟨.hbm, 734, rfl⟩
abbrev main_v667 : Ref sig .tc := ⟨.hbm, 735, rfl⟩
abbrev main_v668 : Ref sig .tc := ⟨.hbm, 736, rfl⟩
abbrev main_v669 : Ref sig .tc := ⟨.hbm, 737, rfl⟩
abbrev main_v670 : Ref sig .tc := ⟨.hbm, 738, rfl⟩
abbrev main_v671 : Ref sig .tc := ⟨.hbm, 739, rfl⟩
abbrev main_v672 : Ref sig .tc := ⟨.hbm, 740, rfl⟩
abbrev main_v673 : Ref sig .tc := ⟨.hbm, 741, rfl⟩
abbrev main_v674 : Ref sig .tc := ⟨.hbm, 742, rfl⟩
abbrev main_v675 : Ref sig .tc := ⟨.hbm, 743, rfl⟩
abbrev main_v676 : Ref sig .tc := ⟨.hbm, 744, rfl⟩
abbrev main_v677 : Ref sig .tc := ⟨.hbm, 745, rfl⟩
abbrev main_v678 : Ref sig .tc := ⟨.hbm, 746, rfl⟩
abbrev main_v679 : Ref sig .tc := ⟨.hbm, 747, rfl⟩
abbrev main_v680 : Ref sig .tc := ⟨.hbm, 748, rfl⟩
abbrev main_v681 : Ref sig .tc := ⟨.hbm, 749, rfl⟩
abbrev main_v682 : Ref sig .tc := ⟨.hbm, 750, rfl⟩
abbrev main_v683 : Ref sig .tc := ⟨.hbm, 751, rfl⟩
abbrev main_v684 : Ref sig .tc := ⟨.hbm, 752, rfl⟩
abbrev main_v685 : Ref sig .tc := ⟨.hbm, 753, rfl⟩
abbrev main_v686 : Ref sig .tc := ⟨.hbm, 754, rfl⟩
abbrev main_v687 : Ref sig .tc := ⟨.hbm, 755, rfl⟩
abbrev main_v688 : Ref sig .tc := ⟨.hbm, 756, rfl⟩
abbrev main_v689 : Ref sig .tc := ⟨.hbm, 757, rfl⟩
abbrev main_v690 : Ref sig .tc := ⟨.hbm, 758, rfl⟩
abbrev main_v691 : Ref sig .tc := ⟨.hbm, 759, rfl⟩
abbrev main_cst_42 : Ref sig .tc := ⟨.hbm, 760, rfl⟩
abbrev main_v692 : Ref sig .tc := ⟨.hbm, 761, rfl⟩
abbrev main_v693 : Ref sig .tc := ⟨.hbm, 762, rfl⟩
abbrev main_cst_43 : Ref sig .tc := ⟨.hbm, 763, rfl⟩
abbrev main_v694 : Ref sig .tc := ⟨.hbm, 764, rfl⟩
abbrev main_v695 : Ref sig .tc := ⟨.hbm, 765, rfl⟩
abbrev main_v696 : Ref sig .tc := ⟨.hbm, 766, rfl⟩
abbrev main_v697 : Ref sig .tc := ⟨.hbm, 767, rfl⟩
abbrev main_v698 : Ref sig .tc := ⟨.hbm, 768, rfl⟩
abbrev main_v699 : Ref sig .tc := ⟨.hbm, 769, rfl⟩
abbrev main_v700 : Ref sig .tc := ⟨.hbm, 770, rfl⟩
abbrev main_v701 : Ref sig .tc := ⟨.hbm, 771, rfl⟩
abbrev main_v702 : Ref sig .tc := ⟨.hbm, 772, rfl⟩
abbrev main_v703 : Ref sig .tc := ⟨.hbm, 773, rfl⟩
abbrev main_v704 : Ref sig .tc := ⟨.hbm, 774, rfl⟩
abbrev main_v705 : Ref sig .tc := ⟨.hbm, 775, rfl⟩
abbrev main_v706 : Ref sig .tc := ⟨.hbm, 776, rfl⟩
abbrev main_v707 : Ref sig .tc := ⟨.hbm, 777, rfl⟩
abbrev main_v708 : Ref sig .tc := ⟨.hbm, 778, rfl⟩
abbrev main_v709 : Ref sig .tc := ⟨.hbm, 779, rfl⟩
abbrev main_v710 : Ref sig .tc := ⟨.hbm, 780, rfl⟩
abbrev main_v711 : Ref sig .tc := ⟨.hbm, 781, rfl⟩
abbrev main_v712 : Ref sig .tc := ⟨.hbm, 782, rfl⟩
abbrev main_v713 : Ref sig .tc := ⟨.hbm, 783, rfl⟩
abbrev main_v714 : Ref sig .tc := ⟨.hbm, 784, rfl⟩
abbrev main_v715 : Ref sig .tc := ⟨.hbm, 785, rfl⟩
abbrev main_v716 : Ref sig .tc := ⟨.hbm, 786, rfl⟩
abbrev main_v717 : Ref sig .tc := ⟨.hbm, 787, rfl⟩
abbrev main_v718 : Ref sig .tc := ⟨.hbm, 788, rfl⟩
abbrev main_v719 : Ref sig .tc := ⟨.hbm, 789, rfl⟩
abbrev main_cst_44 : Ref sig .tc := ⟨.hbm, 790, rfl⟩
abbrev main_v720 : Ref sig .tc := ⟨.hbm, 791, rfl⟩
abbrev main_v721 : Ref sig .tc := ⟨.hbm, 792, rfl⟩
abbrev main_cst_45 : Ref sig .tc := ⟨.hbm, 793, rfl⟩
abbrev main_v722 : Ref sig .tc := ⟨.hbm, 794, rfl⟩
abbrev main_v723 : Ref sig .tc := ⟨.hbm, 795, rfl⟩
abbrev main_v724 : Ref sig .tc := ⟨.hbm, 796, rfl⟩
abbrev main_v725 : Ref sig .tc := ⟨.hbm, 797, rfl⟩
abbrev main_v726 : Ref sig .tc := ⟨.hbm, 798, rfl⟩
abbrev main_v727 : Ref sig .tc := ⟨.hbm, 799, rfl⟩
abbrev main_v728 : Ref sig .tc := ⟨.hbm, 800, rfl⟩
abbrev main_v729 : Ref sig .tc := ⟨.hbm, 801, rfl⟩
abbrev main_v730 : Ref sig .tc := ⟨.hbm, 802, rfl⟩
abbrev main_v731 : Ref sig .tc := ⟨.hbm, 803, rfl⟩
abbrev main_v732 : Ref sig .tc := ⟨.hbm, 804, rfl⟩
abbrev main_v733 : Ref sig .tc := ⟨.hbm, 805, rfl⟩
abbrev main_v734 : Ref sig .tc := ⟨.hbm, 806, rfl⟩
abbrev main_v735 : Ref sig .tc := ⟨.hbm, 807, rfl⟩
abbrev main_v736 : Ref sig .tc := ⟨.hbm, 808, rfl⟩
abbrev main_v737 : Ref sig .tc := ⟨.hbm, 809, rfl⟩
abbrev main_v738 : Ref sig .tc := ⟨.hbm, 810, rfl⟩
abbrev main_v739 : Ref sig .tc := ⟨.hbm, 811, rfl⟩
abbrev main_v740 : Ref sig .tc := ⟨.hbm, 812, rfl⟩
abbrev main_v741 : Ref sig .tc := ⟨.hbm, 813, rfl⟩
abbrev main_v742 : Ref sig .tc := ⟨.hbm, 814, rfl⟩
abbrev main_v743 : Ref sig .tc := ⟨.hbm, 815, rfl⟩
abbrev main_v744 : Ref sig .tc := ⟨.hbm, 816, rfl⟩
abbrev main_v745 : Ref sig .tc := ⟨.hbm, 817, rfl⟩
abbrev main_v746 : Ref sig .tc := ⟨.hbm, 818, rfl⟩
abbrev main_cst_46 : Ref sig .tc := ⟨.hbm, 819, rfl⟩
abbrev main_v747 : Ref sig .tc := ⟨.hbm, 820, rfl⟩
abbrev main_v748 : Ref sig .tc := ⟨.hbm, 821, rfl⟩
abbrev main_cst_47 : Ref sig .tc := ⟨.hbm, 822, rfl⟩
abbrev main_v749 : Ref sig .tc := ⟨.hbm, 823, rfl⟩
abbrev main_v750 : Ref sig .tc := ⟨.hbm, 824, rfl⟩
abbrev main_v751 : Ref sig .tc := ⟨.hbm, 825, rfl⟩
abbrev main_v752 : Ref sig .tc := ⟨.hbm, 826, rfl⟩
abbrev main_v753 : Ref sig .tc := ⟨.hbm, 827, rfl⟩
abbrev main_v754 : Ref sig .tc := ⟨.hbm, 828, rfl⟩
abbrev main_v755 : Ref sig .tc := ⟨.hbm, 829, rfl⟩
abbrev main_v756 : Ref sig .tc := ⟨.hbm, 830, rfl⟩
abbrev main_v757 : Ref sig .tc := ⟨.hbm, 831, rfl⟩
abbrev main_v758 : Ref sig .tc := ⟨.hbm, 832, rfl⟩
abbrev main_v759 : Ref sig .tc := ⟨.hbm, 833, rfl⟩
abbrev main_v760 : Ref sig .tc := ⟨.hbm, 834, rfl⟩
abbrev main_v761 : Ref sig .tc := ⟨.hbm, 835, rfl⟩
abbrev main_v762 : Ref sig .tc := ⟨.hbm, 836, rfl⟩
abbrev main_v763 : Ref sig .tc := ⟨.hbm, 837, rfl⟩
abbrev main_v764 : Ref sig .tc := ⟨.hbm, 838, rfl⟩
abbrev main_v765 : Ref sig .tc := ⟨.hbm, 839, rfl⟩
abbrev main_v766 : Ref sig .tc := ⟨.hbm, 840, rfl⟩
abbrev main_v767 : Ref sig .tc := ⟨.hbm, 841, rfl⟩
abbrev main_v768 : Ref sig .tc := ⟨.hbm, 842, rfl⟩
abbrev main_v769 : Ref sig .tc := ⟨.hbm, 843, rfl⟩
abbrev main_v770 : Ref sig .tc := ⟨.hbm, 844, rfl⟩
abbrev main_v771 : Ref sig .tc := ⟨.hbm, 845, rfl⟩
abbrev main_cst_48 : Ref sig .tc := ⟨.hbm, 846, rfl⟩
abbrev main_v772 : Ref sig .tc := ⟨.hbm, 847, rfl⟩
abbrev main_v773 : Ref sig .tc := ⟨.hbm, 848, rfl⟩
abbrev main_cst_49 : Ref sig .tc := ⟨.hbm, 849, rfl⟩
abbrev main_v774 : Ref sig .tc := ⟨.hbm, 850, rfl⟩
abbrev main_v775 : Ref sig .tc := ⟨.hbm, 851, rfl⟩
abbrev main_v776 : Ref sig .tc := ⟨.hbm, 852, rfl⟩
abbrev main_v777 : Ref sig .tc := ⟨.hbm, 853, rfl⟩
abbrev main_v778 : Ref sig .tc := ⟨.hbm, 854, rfl⟩
abbrev main_v779 : Ref sig .tc := ⟨.hbm, 855, rfl⟩
abbrev main_v780 : Ref sig .tc := ⟨.hbm, 856, rfl⟩
abbrev main_v781 : Ref sig .tc := ⟨.hbm, 857, rfl⟩
abbrev main_v782 : Ref sig .tc := ⟨.hbm, 858, rfl⟩
abbrev main_v783 : Ref sig .tc := ⟨.hbm, 859, rfl⟩
abbrev main_v784 : Ref sig .tc := ⟨.hbm, 860, rfl⟩
abbrev main_v785 : Ref sig .tc := ⟨.hbm, 861, rfl⟩
abbrev main_v786 : Ref sig .tc := ⟨.hbm, 862, rfl⟩
abbrev main_v787 : Ref sig .tc := ⟨.hbm, 863, rfl⟩
abbrev main_v788 : Ref sig .tc := ⟨.hbm, 864, rfl⟩
abbrev main_cst_50 : Ref sig .tc := ⟨.hbm, 865, rfl⟩
abbrev main_v789 : Ref sig .tc := ⟨.hbm, 866, rfl⟩
abbrev main_v790 : Ref sig .tc := ⟨.hbm, 867, rfl⟩
abbrev main_v791 : Ref sig .tc := ⟨.hbm, 868, rfl⟩
abbrev main_v792 : Ref sig .tc := ⟨.hbm, 869, rfl⟩
abbrev main_v793 : Ref sig .tc := ⟨.hbm, 870, rfl⟩
abbrev main_v794 : Ref sig .tc := ⟨.hbm, 871, rfl⟩
abbrev main_v795 : Ref sig .tc := ⟨.hbm, 872, rfl⟩
abbrev main_v796 : Ref sig .tc := ⟨.hbm, 873, rfl⟩
abbrev main_v797 : Ref sig .tc := ⟨.hbm, 874, rfl⟩
abbrev main_v798 : Ref sig .tc := ⟨.hbm, 875, rfl⟩
abbrev main_v799 : Ref sig .tc := ⟨.hbm, 876, rfl⟩
abbrev main_v800 : Ref sig .tc := ⟨.hbm, 877, rfl⟩
abbrev main_v801 : Ref sig .tc := ⟨.hbm, 878, rfl⟩
abbrev main_v802 : Ref sig .tc := ⟨.hbm, 879, rfl⟩
abbrev main_v803 : Ref sig .tc := ⟨.hbm, 880, rfl⟩
abbrev main_v804 : Ref sig .tc := ⟨.hbm, 881, rfl⟩
abbrev main_v805 : Ref sig .tc := ⟨.hbm, 882, rfl⟩
abbrev main_v806 : Ref sig .tc := ⟨.hbm, 883, rfl⟩
abbrev main_v807 : Ref sig .tc := ⟨.hbm, 884, rfl⟩
abbrev main_v808 : Ref sig .tc := ⟨.hbm, 885, rfl⟩
abbrev main_v809 : Ref sig .tc := ⟨.hbm, 886, rfl⟩
abbrev main_v810 : Ref sig .tc := ⟨.hbm, 887, rfl⟩
abbrev main_v811 : Ref sig .tc := ⟨.hbm, 888, rfl⟩
abbrev main_v812 : Ref sig .tc := ⟨.hbm, 889, rfl⟩
abbrev main_v813 : Ref sig .tc := ⟨.hbm, 890, rfl⟩
abbrev main_v814 : Ref sig .tc := ⟨.hbm, 891, rfl⟩
abbrev main_v815 : Ref sig .tc := ⟨.hbm, 892, rfl⟩
abbrev main_v816 : Ref sig .tc := ⟨.hbm, 893, rfl⟩
abbrev main_v817 : Ref sig .tc := ⟨.hbm, 894, rfl⟩
abbrev main_v818 : Ref sig .tc := ⟨.hbm, 895, rfl⟩
abbrev main_v819 : Ref sig .tc := ⟨.hbm, 896, rfl⟩
abbrev main_v820 : Ref sig .tc := ⟨.hbm, 897, rfl⟩
abbrev main_v821 : Ref sig .tc := ⟨.hbm, 898, rfl⟩
abbrev main_v822 : Ref sig .tc := ⟨.hbm, 899, rfl⟩
abbrev main_v823 : Ref sig .tc := ⟨.hbm, 900, rfl⟩
abbrev main_v824 : Ref sig .tc := ⟨.hbm, 901, rfl⟩
abbrev main_v825 : Ref sig .tc := ⟨.hbm, 902, rfl⟩
abbrev main_v826 : Ref sig .tc := ⟨.hbm, 903, rfl⟩
abbrev main_v827 : Ref sig .tc := ⟨.hbm, 904, rfl⟩
abbrev main_v828 : Ref sig .tc := ⟨.hbm, 905, rfl⟩
abbrev main_cst_51 : Ref sig .tc := ⟨.hbm, 906, rfl⟩
abbrev main_v829 : Ref sig .tc := ⟨.hbm, 907, rfl⟩
abbrev main_v830 : Ref sig .tc := ⟨.hbm, 908, rfl⟩
abbrev main_cst_52 : Ref sig .tc := ⟨.hbm, 909, rfl⟩
abbrev main_v831 : Ref sig .tc := ⟨.hbm, 910, rfl⟩
abbrev main_v832 : Ref sig .tc := ⟨.hbm, 911, rfl⟩
abbrev main_v833 : Ref sig .tc := ⟨.hbm, 912, rfl⟩
abbrev main_v834 : Ref sig .tc := ⟨.hbm, 913, rfl⟩
abbrev main_v835 : Ref sig .tc := ⟨.hbm, 914, rfl⟩
abbrev main_v836 : Ref sig .tc := ⟨.hbm, 915, rfl⟩
abbrev main_v837 : Ref sig .tc := ⟨.hbm, 916, rfl⟩
abbrev main_v838 : Ref sig .tc := ⟨.hbm, 917, rfl⟩
abbrev main_v839 : Ref sig .tc := ⟨.hbm, 918, rfl⟩
abbrev main_v840 : Ref sig .tc := ⟨.hbm, 919, rfl⟩
abbrev main_v841 : Ref sig .tc := ⟨.hbm, 920, rfl⟩
abbrev main_v842 : Ref sig .tc := ⟨.hbm, 921, rfl⟩
abbrev main_v843 : Ref sig .tc := ⟨.hbm, 922, rfl⟩
abbrev main_v844 : Ref sig .tc := ⟨.hbm, 923, rfl⟩
abbrev main_v845 : Ref sig .tc := ⟨.hbm, 924, rfl⟩
abbrev main_v846 : Ref sig .tc := ⟨.hbm, 925, rfl⟩
abbrev main_v847 : Ref sig .tc := ⟨.hbm, 926, rfl⟩
abbrev main_v848 : Ref sig .tc := ⟨.hbm, 927, rfl⟩
abbrev main_v849 : Ref sig .tc := ⟨.hbm, 928, rfl⟩
abbrev main_v850 : Ref sig .tc := ⟨.hbm, 929, rfl⟩
abbrev main_v851 : Ref sig .tc := ⟨.hbm, 930, rfl⟩
abbrev main_v852 : Ref sig .tc := ⟨.hbm, 931, rfl⟩
abbrev main_v853 : Ref sig .tc := ⟨.hbm, 932, rfl⟩
abbrev main_v854 : Ref sig .tc := ⟨.hbm, 933, rfl⟩
abbrev main_v855 : Ref sig .tc := ⟨.hbm, 934, rfl⟩
abbrev main_v856 : Ref sig .tc := ⟨.hbm, 935, rfl⟩
abbrev main_v857 : Ref sig .tc := ⟨.hbm, 936, rfl⟩
abbrev main_v858 : Ref sig .tc := ⟨.hbm, 937, rfl⟩
abbrev main_v859 : Ref sig .tc := ⟨.hbm, 938, rfl⟩
abbrev main_v860 : Ref sig .tc := ⟨.hbm, 939, rfl⟩
abbrev main_v861 : Ref sig .tc := ⟨.hbm, 940, rfl⟩
abbrev main_v862 : Ref sig .tc := ⟨.hbm, 941, rfl⟩
abbrev main_v863 : Ref sig .tc := ⟨.hbm, 942, rfl⟩
abbrev main_v864 : Ref sig .tc := ⟨.hbm, 943, rfl⟩
abbrev main_v865 : Ref sig .tc := ⟨.hbm, 944, rfl⟩
abbrev main_v866 : Ref sig .tc := ⟨.hbm, 945, rfl⟩
abbrev main_cst_53 : Ref sig .tc := ⟨.hbm, 946, rfl⟩
abbrev main_v867 : Ref sig .tc := ⟨.hbm, 947, rfl⟩
abbrev main_v868 : Ref sig .tc := ⟨.hbm, 948, rfl⟩
abbrev main_cst_54 : Ref sig .tc := ⟨.hbm, 949, rfl⟩
abbrev main_v869 : Ref sig .tc := ⟨.hbm, 950, rfl⟩
abbrev main_v870 : Ref sig .tc := ⟨.hbm, 951, rfl⟩
abbrev main_v871 : Ref sig .tc := ⟨.hbm, 952, rfl⟩
abbrev main_v872 : Ref sig .tc := ⟨.hbm, 953, rfl⟩
abbrev main_v873 : Ref sig .tc := ⟨.hbm, 954, rfl⟩
abbrev main_v874 : Ref sig .tc := ⟨.hbm, 955, rfl⟩
abbrev main_v875 : Ref sig .tc := ⟨.hbm, 956, rfl⟩
abbrev main_v876 : Ref sig .tc := ⟨.hbm, 957, rfl⟩
abbrev main_v877 : Ref sig .tc := ⟨.hbm, 958, rfl⟩
abbrev main_v878 : Ref sig .tc := ⟨.hbm, 959, rfl⟩
abbrev main_v879 : Ref sig .tc := ⟨.hbm, 960, rfl⟩
abbrev main_v880 : Ref sig .tc := ⟨.hbm, 961, rfl⟩
abbrev main_v881 : Ref sig .tc := ⟨.hbm, 962, rfl⟩
abbrev main_v882 : Ref sig .tc := ⟨.hbm, 963, rfl⟩
abbrev main_v883 : Ref sig .tc := ⟨.hbm, 964, rfl⟩
abbrev main_v884 : Ref sig .tc := ⟨.hbm, 965, rfl⟩
abbrev main_v885 : Ref sig .tc := ⟨.hbm, 966, rfl⟩
abbrev main_v886 : Ref sig .tc := ⟨.hbm, 967, rfl⟩
abbrev main_v887 : Ref sig .tc := ⟨.hbm, 968, rfl⟩
abbrev main_v888 : Ref sig .tc := ⟨.hbm, 969, rfl⟩
abbrev main_v889 : Ref sig .tc := ⟨.hbm, 970, rfl⟩
abbrev main_v890 : Ref sig .tc := ⟨.hbm, 971, rfl⟩
abbrev main_v891 : Ref sig .tc := ⟨.hbm, 972, rfl⟩
abbrev main_v892 : Ref sig .tc := ⟨.hbm, 973, rfl⟩
abbrev main_v893 : Ref sig .tc := ⟨.hbm, 974, rfl⟩
abbrev main_cst_55 : Ref sig .tc := ⟨.hbm, 975, rfl⟩
abbrev main_v894 : Ref sig .tc := ⟨.hbm, 976, rfl⟩
abbrev main_v895 : Ref sig .tc := ⟨.hbm, 977, rfl⟩
abbrev main_cst_56 : Ref sig .tc := ⟨.hbm, 978, rfl⟩
abbrev main_v896 : Ref sig .tc := ⟨.hbm, 979, rfl⟩
abbrev main_v897 : Ref sig .tc := ⟨.hbm, 980, rfl⟩
abbrev main_v898 : Ref sig .tc := ⟨.hbm, 981, rfl⟩
abbrev main_v899 : Ref sig .tc := ⟨.hbm, 982, rfl⟩
abbrev main_v900 : Ref sig .tc := ⟨.hbm, 983, rfl⟩
abbrev main_v901 : Ref sig .tc := ⟨.hbm, 984, rfl⟩
abbrev main_v902 : Ref sig .tc := ⟨.hbm, 985, rfl⟩
abbrev main_v903 : Ref sig .tc := ⟨.hbm, 986, rfl⟩
abbrev main_v904 : Ref sig .tc := ⟨.hbm, 987, rfl⟩
abbrev main_v905 : Ref sig .tc := ⟨.hbm, 988, rfl⟩
abbrev main_v906 : Ref sig .tc := ⟨.hbm, 989, rfl⟩
abbrev main_v907 : Ref sig .tc := ⟨.hbm, 990, rfl⟩
abbrev main_v908 : Ref sig .tc := ⟨.hbm, 991, rfl⟩
abbrev main_v909 : Ref sig .tc := ⟨.hbm, 992, rfl⟩
abbrev main_v910 : Ref sig .tc := ⟨.hbm, 993, rfl⟩
abbrev main_v911 : Ref sig .tc := ⟨.hbm, 994, rfl⟩
abbrev main_v912 : Ref sig .tc := ⟨.hbm, 995, rfl⟩
abbrev main_v913 : Ref sig .tc := ⟨.hbm, 996, rfl⟩
abbrev main_v914 : Ref sig .tc := ⟨.hbm, 997, rfl⟩
abbrev main_v915 : Ref sig .tc := ⟨.hbm, 998, rfl⟩
abbrev main_v916 : Ref sig .tc := ⟨.hbm, 999, rfl⟩
abbrev main_v917 : Ref sig .tc := ⟨.hbm, 1000, rfl⟩
abbrev main_v918 : Ref sig .tc := ⟨.hbm, 1001, rfl⟩
abbrev main_cst_57 : Ref sig .tc := ⟨.hbm, 1002, rfl⟩
abbrev main_v919 : Ref sig .tc := ⟨.hbm, 1003, rfl⟩
abbrev main_v920 : Ref sig .tc := ⟨.hbm, 1004, rfl⟩
abbrev main_cst_58 : Ref sig .tc := ⟨.hbm, 1005, rfl⟩
abbrev main_v921 : Ref sig .tc := ⟨.hbm, 1006, rfl⟩
abbrev main_v922 : Ref sig .tc := ⟨.hbm, 1007, rfl⟩
abbrev main_v923 : Ref sig .tc := ⟨.hbm, 1008, rfl⟩
abbrev main_v924 : Ref sig .tc := ⟨.hbm, 1009, rfl⟩
abbrev main_v925 : Ref sig .tc := ⟨.hbm, 1010, rfl⟩
abbrev main_v926 : Ref sig .tc := ⟨.hbm, 1011, rfl⟩
abbrev main_v927 : Ref sig .tc := ⟨.hbm, 1012, rfl⟩
abbrev main_v928 : Ref sig .tc := ⟨.hbm, 1013, rfl⟩
abbrev main_v929 : Ref sig .tc := ⟨.hbm, 1014, rfl⟩
abbrev main_v930 : Ref sig .tc := ⟨.hbm, 1015, rfl⟩
abbrev main_v931 : Ref sig .tc := ⟨.hbm, 1016, rfl⟩
abbrev main_v932 : Ref sig .tc := ⟨.hbm, 1017, rfl⟩
abbrev main_v933 : Ref sig .tc := ⟨.hbm, 1018, rfl⟩
abbrev main_v934 : Ref sig .tc := ⟨.hbm, 1019, rfl⟩
abbrev main_v935 : Ref sig .tc := ⟨.hbm, 1020, rfl⟩
abbrev main_cst_59 : Ref sig .tc := ⟨.hbm, 1021, rfl⟩
abbrev main_v936 : Ref sig .tc := ⟨.hbm, 1022, rfl⟩
abbrev main_v937 : Ref sig .tc := ⟨.hbm, 1023, rfl⟩
abbrev main_v938 : Ref sig .tc := ⟨.hbm, 1024, rfl⟩
abbrev main_v939 : Ref sig .tc := ⟨.hbm, 1025, rfl⟩
abbrev main_v940 : Ref sig .tc := ⟨.hbm, 1026, rfl⟩
abbrev main_v941 : Ref sig .tc := ⟨.hbm, 1027, rfl⟩
abbrev main_v942 : Ref sig .tc := ⟨.hbm, 1028, rfl⟩
abbrev main_v943 : Ref sig .tc := ⟨.hbm, 1029, rfl⟩
abbrev main_v944 : Ref sig .tc := ⟨.hbm, 1030, rfl⟩
abbrev main_v945 : Ref sig .tc := ⟨.hbm, 1031, rfl⟩
abbrev main_v946 : Ref sig .tc := ⟨.hbm, 1032, rfl⟩
abbrev main_v947 : Ref sig .tc := ⟨.hbm, 1033, rfl⟩
abbrev main_v948 : Ref sig .tc := ⟨.hbm, 1034, rfl⟩
abbrev main_v949 : Ref sig .tc := ⟨.hbm, 1035, rfl⟩
abbrev main_v950 : Ref sig .tc := ⟨.hbm, 1036, rfl⟩
abbrev main_v951 : Ref sig .tc := ⟨.hbm, 1037, rfl⟩
abbrev main_v952 : Ref sig .tc := ⟨.hbm, 1038, rfl⟩
abbrev main_v953 : Ref sig .tc := ⟨.hbm, 1039, rfl⟩
abbrev main_v954 : Ref sig .tc := ⟨.hbm, 1040, rfl⟩
abbrev main_v955 : Ref sig .tc := ⟨.hbm, 1041, rfl⟩
abbrev main_v956 : Ref sig .tc := ⟨.hbm, 1042, rfl⟩
abbrev main_v957 : Ref sig .tc := ⟨.hbm, 1043, rfl⟩
abbrev main_v958 : Ref sig .tc := ⟨.hbm, 1044, rfl⟩
abbrev main_v959 : Ref sig .tc := ⟨.hbm, 1045, rfl⟩
abbrev main_v960 : Ref sig .tc := ⟨.hbm, 1046, rfl⟩
abbrev main_v961 : Ref sig .tc := ⟨.hbm, 1047, rfl⟩
abbrev main_v962 : Ref sig .tc := ⟨.hbm, 1048, rfl⟩
abbrev main_v963 : Ref sig .tc := ⟨.hbm, 1049, rfl⟩
abbrev main_v964 : Ref sig .tc := ⟨.hbm, 1050, rfl⟩
abbrev main_v965 : Ref sig .tc := ⟨.hbm, 1051, rfl⟩
abbrev main_v966 : Ref sig .tc := ⟨.hbm, 1052, rfl⟩
abbrev main_v967 : Ref sig .tc := ⟨.hbm, 1053, rfl⟩
abbrev main_v968 : Ref sig .tc := ⟨.hbm, 1054, rfl⟩
abbrev main_v969 : Ref sig .tc := ⟨.hbm, 1055, rfl⟩
abbrev main_v970 : Ref sig .tc := ⟨.hbm, 1056, rfl⟩
abbrev main_v971 : Ref sig .tc := ⟨.hbm, 1057, rfl⟩
abbrev main_v972 : Ref sig .tc := ⟨.hbm, 1058, rfl⟩
abbrev main_v973 : Ref sig .tc := ⟨.hbm, 1059, rfl⟩
abbrev main_v974 : Ref sig .tc := ⟨.hbm, 1060, rfl⟩
abbrev main_v975 : Ref sig .tc := ⟨.hbm, 1061, rfl⟩
abbrev main_cst_60 : Ref sig .tc := ⟨.hbm, 1062, rfl⟩
abbrev main_v976 : Ref sig .tc := ⟨.hbm, 1063, rfl⟩
abbrev main_v977 : Ref sig .tc := ⟨.hbm, 1064, rfl⟩
abbrev main_cst_61 : Ref sig .tc := ⟨.hbm, 1065, rfl⟩
abbrev main_v978 : Ref sig .tc := ⟨.hbm, 1066, rfl⟩
abbrev main_v979 : Ref sig .tc := ⟨.hbm, 1067, rfl⟩
abbrev main_v980 : Ref sig .tc := ⟨.hbm, 1068, rfl⟩
abbrev main_v981 : Ref sig .tc := ⟨.hbm, 1069, rfl⟩
abbrev main_v982 : Ref sig .tc := ⟨.hbm, 1070, rfl⟩
abbrev main_v983 : Ref sig .tc := ⟨.hbm, 1071, rfl⟩
abbrev main_v984 : Ref sig .tc := ⟨.hbm, 1072, rfl⟩
abbrev main_v985 : Ref sig .tc := ⟨.hbm, 1073, rfl⟩
abbrev main_v986 : Ref sig .tc := ⟨.hbm, 1074, rfl⟩
abbrev main_v987 : Ref sig .tc := ⟨.hbm, 1075, rfl⟩
abbrev main_v988 : Ref sig .tc := ⟨.hbm, 1076, rfl⟩
abbrev main_v989 : Ref sig .tc := ⟨.hbm, 1077, rfl⟩
abbrev main_v990 : Ref sig .tc := ⟨.hbm, 1078, rfl⟩
abbrev main_v991 : Ref sig .tc := ⟨.hbm, 1079, rfl⟩
abbrev main_v992 : Ref sig .tc := ⟨.hbm, 1080, rfl⟩
abbrev main_v993 : Ref sig .tc := ⟨.hbm, 1081, rfl⟩
abbrev main_v994 : Ref sig .tc := ⟨.hbm, 1082, rfl⟩
abbrev main_v995 : Ref sig .tc := ⟨.hbm, 1083, rfl⟩
abbrev main_v996 : Ref sig .tc := ⟨.hbm, 1084, rfl⟩
abbrev main_v997 : Ref sig .tc := ⟨.hbm, 1085, rfl⟩
abbrev main_v998 : Ref sig .tc := ⟨.hbm, 1086, rfl⟩
abbrev main_v999 : Ref sig .tc := ⟨.hbm, 1087, rfl⟩
abbrev main_v1000 : Ref sig .tc := ⟨.hbm, 1088, rfl⟩
abbrev main_v1001 : Ref sig .tc := ⟨.hbm, 1089, rfl⟩
abbrev main_v1002 : Ref sig .tc := ⟨.hbm, 1090, rfl⟩
abbrev main_v1003 : Ref sig .tc := ⟨.hbm, 1091, rfl⟩
abbrev main_cst_62 : Ref sig .tc := ⟨.hbm, 1092, rfl⟩
abbrev main_v1004 : Ref sig .tc := ⟨.hbm, 1093, rfl⟩
abbrev main_v1005 : Ref sig .tc := ⟨.hbm, 1094, rfl⟩
abbrev main_cst_63 : Ref sig .tc := ⟨.hbm, 1095, rfl⟩
abbrev main_v1006 : Ref sig .tc := ⟨.hbm, 1096, rfl⟩
abbrev main_v1007 : Ref sig .tc := ⟨.hbm, 1097, rfl⟩
abbrev main_v1008 : Ref sig .tc := ⟨.hbm, 1098, rfl⟩
abbrev main_v1009 : Ref sig .tc := ⟨.hbm, 1099, rfl⟩
abbrev main_v1010 : Ref sig .tc := ⟨.hbm, 1100, rfl⟩
abbrev main_v1011 : Ref sig .tc := ⟨.hbm, 1101, rfl⟩
abbrev main_v1012 : Ref sig .tc := ⟨.hbm, 1102, rfl⟩
abbrev main_v1013 : Ref sig .tc := ⟨.hbm, 1103, rfl⟩
abbrev main_v1014 : Ref sig .tc := ⟨.hbm, 1104, rfl⟩
abbrev main_v1015 : Ref sig .tc := ⟨.hbm, 1105, rfl⟩
abbrev main_v1016 : Ref sig .tc := ⟨.hbm, 1106, rfl⟩
abbrev main_v1017 : Ref sig .tc := ⟨.hbm, 1107, rfl⟩
abbrev main_v1018 : Ref sig .tc := ⟨.hbm, 1108, rfl⟩
abbrev main_v1019 : Ref sig .tc := ⟨.hbm, 1109, rfl⟩
abbrev main_v1020 : Ref sig .tc := ⟨.hbm, 1110, rfl⟩
abbrev main_v1021 : Ref sig .tc := ⟨.hbm, 1111, rfl⟩
abbrev main_v1022 : Ref sig .tc := ⟨.hbm, 1112, rfl⟩
abbrev main_v1023 : Ref sig .tc := ⟨.hbm, 1113, rfl⟩
abbrev main_v1024 : Ref sig .tc := ⟨.hbm, 1114, rfl⟩
abbrev main_v1025 : Ref sig .tc := ⟨.hbm, 1115, rfl⟩
abbrev main_v1026 : Ref sig .tc := ⟨.hbm, 1116, rfl⟩
abbrev main_v1027 : Ref sig .tc := ⟨.hbm, 1117, rfl⟩
abbrev main_v1028 : Ref sig .tc := ⟨.hbm, 1118, rfl⟩
abbrev main_v1029 : Ref sig .tc := ⟨.hbm, 1119, rfl⟩
abbrev main_v1030 : Ref sig .tc := ⟨.hbm, 1120, rfl⟩
abbrev main_cst_64 : Ref sig .tc := ⟨.hbm, 1121, rfl⟩
abbrev main_v1031 : Ref sig .tc := ⟨.hbm, 1122, rfl⟩
abbrev main_v1032 : Ref sig .tc := ⟨.hbm, 1123, rfl⟩
abbrev main_cst_65 : Ref sig .tc := ⟨.hbm, 1124, rfl⟩
abbrev main_v1033 : Ref sig .tc := ⟨.hbm, 1125, rfl⟩
abbrev main_v1034 : Ref sig .tc := ⟨.hbm, 1126, rfl⟩
abbrev main_v1035 : Ref sig .tc := ⟨.hbm, 1127, rfl⟩
abbrev main_v1036 : Ref sig .tc := ⟨.hbm, 1128, rfl⟩
abbrev main_v1037 : Ref sig .tc := ⟨.hbm, 1129, rfl⟩
abbrev main_v1038 : Ref sig .tc := ⟨.hbm, 1130, rfl⟩
abbrev main_v1039 : Ref sig .tc := ⟨.hbm, 1131, rfl⟩
abbrev main_v1040 : Ref sig .tc := ⟨.hbm, 1132, rfl⟩
abbrev main_v1041 : Ref sig .tc := ⟨.hbm, 1133, rfl⟩
abbrev main_v1042 : Ref sig .tc := ⟨.hbm, 1134, rfl⟩
abbrev main_v1043 : Ref sig .tc := ⟨.hbm, 1135, rfl⟩
abbrev main_v1044 : Ref sig .tc := ⟨.hbm, 1136, rfl⟩
abbrev main_v1045 : Ref sig .tc := ⟨.hbm, 1137, rfl⟩
abbrev main_v1046 : Ref sig .tc := ⟨.hbm, 1138, rfl⟩
abbrev main_v1047 : Ref sig .tc := ⟨.hbm, 1139, rfl⟩
abbrev main_v1048 : Ref sig .tc := ⟨.hbm, 1140, rfl⟩
abbrev main_v1049 : Ref sig .tc := ⟨.hbm, 1141, rfl⟩
abbrev main_v1050 : Ref sig .tc := ⟨.hbm, 1142, rfl⟩
abbrev main_v1051 : Ref sig .tc := ⟨.hbm, 1143, rfl⟩
abbrev main_v1052 : Ref sig .tc := ⟨.hbm, 1144, rfl⟩
abbrev main_v1053 : Ref sig .tc := ⟨.hbm, 1145, rfl⟩
abbrev main_v1054 : Ref sig .tc := ⟨.hbm, 1146, rfl⟩
abbrev main_v1055 : Ref sig .tc := ⟨.hbm, 1147, rfl⟩
abbrev main_cst_66 : Ref sig .tc := ⟨.hbm, 1148, rfl⟩
abbrev main_v1056 : Ref sig .tc := ⟨.hbm, 1149, rfl⟩
abbrev main_v1057 : Ref sig .tc := ⟨.hbm, 1150, rfl⟩
abbrev main_cst_67 : Ref sig .tc := ⟨.hbm, 1151, rfl⟩
abbrev main_v1058 : Ref sig .tc := ⟨.hbm, 1152, rfl⟩
abbrev main_v1059 : Ref sig .tc := ⟨.hbm, 1153, rfl⟩
abbrev main_v1060 : Ref sig .tc := ⟨.hbm, 1154, rfl⟩
abbrev main_v1061 : Ref sig .tc := ⟨.hbm, 1155, rfl⟩
abbrev main_v1062 : Ref sig .tc := ⟨.hbm, 1156, rfl⟩
abbrev main_v1063 : Ref sig .tc := ⟨.hbm, 1157, rfl⟩
abbrev main_v1064 : Ref sig .tc := ⟨.hbm, 1158, rfl⟩
abbrev main_v1065 : Ref sig .tc := ⟨.hbm, 1159, rfl⟩
abbrev main_v1066 : Ref sig .tc := ⟨.hbm, 1160, rfl⟩
abbrev main_v1067 : Ref sig .tc := ⟨.hbm, 1161, rfl⟩
abbrev main_v1068 : Ref sig .tc := ⟨.hbm, 1162, rfl⟩
abbrev main_v1069 : Ref sig .tc := ⟨.hbm, 1163, rfl⟩
abbrev main_v1070 : Ref sig .tc := ⟨.hbm, 1164, rfl⟩
abbrev main_v1071 : Ref sig .tc := ⟨.hbm, 1165, rfl⟩
abbrev main_v1072 : Ref sig .tc := ⟨.hbm, 1166, rfl⟩
abbrev main_cst_68 : Ref sig .tc := ⟨.hbm, 1167, rfl⟩
abbrev main_v1073 : Ref sig .tc := ⟨.hbm, 1168, rfl⟩
abbrev main_v1074 : Ref sig .tc := ⟨.hbm, 1169, rfl⟩
abbrev main_v1075 : Ref sig .tc := ⟨.hbm, 1170, rfl⟩
abbrev main_v1076 : Ref sig .tc := ⟨.hbm, 1171, rfl⟩
abbrev main_v1077 : Ref sig .tc := ⟨.hbm, 1172, rfl⟩
abbrev main_v1078 : Ref sig .tc := ⟨.hbm, 1173, rfl⟩
abbrev main_v1079 : Ref sig .tc := ⟨.hbm, 1174, rfl⟩
abbrev main_v1080 : Ref sig .tc := ⟨.hbm, 1175, rfl⟩
abbrev main_v1081 : Ref sig .tc := ⟨.hbm, 1176, rfl⟩
abbrev main_v1082 : Ref sig .tc := ⟨.hbm, 1177, rfl⟩
abbrev main_v1083 : Ref sig .tc := ⟨.hbm, 1178, rfl⟩
abbrev main_v1084 : Ref sig .tc := ⟨.hbm, 1179, rfl⟩
abbrev main_v1085 : Ref sig .tc := ⟨.hbm, 1180, rfl⟩
abbrev main_v1086 : Ref sig .tc := ⟨.hbm, 1181, rfl⟩
abbrev main_v1087 : Ref sig .tc := ⟨.hbm, 1182, rfl⟩
abbrev main_v1088 : Ref sig .tc := ⟨.hbm, 1183, rfl⟩
abbrev main_v1089 : Ref sig .tc := ⟨.hbm, 1184, rfl⟩
abbrev main_v1090 : Ref sig .tc := ⟨.hbm, 1185, rfl⟩
abbrev main_v1091 : Ref sig .tc := ⟨.hbm, 1186, rfl⟩
abbrev main_v1092 : Ref sig .tc := ⟨.hbm, 1187, rfl⟩
abbrev main_v1093 : Ref sig .tc := ⟨.hbm, 1188, rfl⟩
abbrev main_v1094 : Ref sig .tc := ⟨.hbm, 1189, rfl⟩
abbrev main_v1095 : Ref sig .tc := ⟨.hbm, 1190, rfl⟩
abbrev main_v1096 : Ref sig .tc := ⟨.hbm, 1191, rfl⟩
abbrev main_v1097 : Ref sig .tc := ⟨.hbm, 1192, rfl⟩
abbrev main_v1098 : Ref sig .tc := ⟨.hbm, 1193, rfl⟩
abbrev main_v1099 : Ref sig .tc := ⟨.hbm, 1194, rfl⟩
abbrev main_v1100 : Ref sig .tc := ⟨.hbm, 1195, rfl⟩
abbrev main_v1101 : Ref sig .tc := ⟨.hbm, 1196, rfl⟩
abbrev main_v1102 : Ref sig .tc := ⟨.hbm, 1197, rfl⟩
abbrev main_v1103 : Ref sig .tc := ⟨.hbm, 1198, rfl⟩
abbrev main_v1104 : Ref sig .tc := ⟨.hbm, 1199, rfl⟩
abbrev main_v1105 : Ref sig .tc := ⟨.hbm, 1200, rfl⟩
abbrev main_v1106 : Ref sig .tc := ⟨.hbm, 1201, rfl⟩
abbrev main_v1107 : Ref sig .tc := ⟨.hbm, 1202, rfl⟩
abbrev main_v1108 : Ref sig .tc := ⟨.hbm, 1203, rfl⟩
abbrev main_v1109 : Ref sig .tc := ⟨.hbm, 1204, rfl⟩
abbrev main_v1110 : Ref sig .tc := ⟨.hbm, 1205, rfl⟩
abbrev main_v1111 : Ref sig .tc := ⟨.hbm, 1206, rfl⟩
abbrev main_v1112 : Ref sig .tc := ⟨.hbm, 1207, rfl⟩
abbrev main_cst_69 : Ref sig .tc := ⟨.hbm, 1208, rfl⟩
abbrev main_v1113 : Ref sig .tc := ⟨.hbm, 1209, rfl⟩
abbrev main_v1114 : Ref sig .tc := ⟨.hbm, 1210, rfl⟩
abbrev main_cst_70 : Ref sig .tc := ⟨.hbm, 1211, rfl⟩
abbrev main_v1115 : Ref sig .tc := ⟨.hbm, 1212, rfl⟩
abbrev main_v1116 : Ref sig .tc := ⟨.hbm, 1213, rfl⟩
abbrev main_v1117 : Ref sig .tc := ⟨.hbm, 1214, rfl⟩
abbrev main_v1118 : Ref sig .tc := ⟨.hbm, 1215, rfl⟩
abbrev main_v1119 : Ref sig .tc := ⟨.hbm, 1216, rfl⟩
abbrev main_v1120 : Ref sig .tc := ⟨.hbm, 1217, rfl⟩
abbrev main_v1121 : Ref sig .tc := ⟨.hbm, 1218, rfl⟩
abbrev main_v1122 : Ref sig .tc := ⟨.hbm, 1219, rfl⟩
abbrev main_v1123 : Ref sig .tc := ⟨.hbm, 1220, rfl⟩
abbrev main_v1124 : Ref sig .tc := ⟨.hbm, 1221, rfl⟩
abbrev main_v1125 : Ref sig .tc := ⟨.hbm, 1222, rfl⟩
abbrev main_v1126 : Ref sig .tc := ⟨.hbm, 1223, rfl⟩
abbrev main_v1127 : Ref sig .tc := ⟨.hbm, 1224, rfl⟩
abbrev main_v1128 : Ref sig .tc := ⟨.hbm, 1225, rfl⟩
abbrev main_v1129 : Ref sig .tc := ⟨.hbm, 1226, rfl⟩
abbrev main_v1130 : Ref sig .tc := ⟨.hbm, 1227, rfl⟩
abbrev main_v1131 : Ref sig .tc := ⟨.hbm, 1228, rfl⟩
abbrev main_v1132 : Ref sig .tc := ⟨.hbm, 1229, rfl⟩
abbrev main_v1133 : Ref sig .tc := ⟨.hbm, 1230, rfl⟩
abbrev main_v1134 : Ref sig .tc := ⟨.hbm, 1231, rfl⟩
abbrev main_v1135 : Ref sig .tc := ⟨.hbm, 1232, rfl⟩
abbrev main_v1136 : Ref sig .tc := ⟨.hbm, 1233, rfl⟩
abbrev main_v1137 : Ref sig .tc := ⟨.hbm, 1234, rfl⟩
abbrev main_v1138 : Ref sig .tc := ⟨.hbm, 1235, rfl⟩
abbrev main_v1139 : Ref sig .tc := ⟨.hbm, 1236, rfl⟩
abbrev main_v1140 : Ref sig .tc := ⟨.hbm, 1237, rfl⟩
abbrev main_cst_71 : Ref sig .tc := ⟨.hbm, 1238, rfl⟩
abbrev main_v1141 : Ref sig .tc := ⟨.hbm, 1239, rfl⟩
abbrev main_v1142 : Ref sig .tc := ⟨.hbm, 1240, rfl⟩
abbrev main_cst_72 : Ref sig .tc := ⟨.hbm, 1241, rfl⟩
abbrev main_v1143 : Ref sig .tc := ⟨.hbm, 1242, rfl⟩
abbrev main_v1144 : Ref sig .tc := ⟨.hbm, 1243, rfl⟩
abbrev main_v1145 : Ref sig .tc := ⟨.hbm, 1244, rfl⟩
abbrev main_v1146 : Ref sig .tc := ⟨.hbm, 1245, rfl⟩
abbrev main_v1147 : Ref sig .tc := ⟨.hbm, 1246, rfl⟩
abbrev main_v1148 : Ref sig .tc := ⟨.hbm, 1247, rfl⟩
abbrev main_v1149 : Ref sig .tc := ⟨.hbm, 1248, rfl⟩
abbrev main_v1150 : Ref sig .tc := ⟨.hbm, 1249, rfl⟩
abbrev main_v1151 : Ref sig .tc := ⟨.hbm, 1250, rfl⟩
abbrev main_v1152 : Ref sig .tc := ⟨.hbm, 1251, rfl⟩
abbrev main_v1153 : Ref sig .tc := ⟨.hbm, 1252, rfl⟩
abbrev main_v1154 : Ref sig .tc := ⟨.hbm, 1253, rfl⟩
abbrev main_v1155 : Ref sig .tc := ⟨.hbm, 1254, rfl⟩
abbrev main_v1156 : Ref sig .tc := ⟨.hbm, 1255, rfl⟩
abbrev main_v1157 : Ref sig .tc := ⟨.hbm, 1256, rfl⟩
abbrev main_v1158 : Ref sig .tc := ⟨.hbm, 1257, rfl⟩
abbrev main_v1159 : Ref sig .tc := ⟨.hbm, 1258, rfl⟩
abbrev main_v1160 : Ref sig .tc := ⟨.hbm, 1259, rfl⟩
abbrev main_v1161 : Ref sig .tc := ⟨.hbm, 1260, rfl⟩
abbrev main_v1162 : Ref sig .tc := ⟨.hbm, 1261, rfl⟩
abbrev main_v1163 : Ref sig .tc := ⟨.hbm, 1262, rfl⟩
abbrev main_v1164 : Ref sig .tc := ⟨.hbm, 1263, rfl⟩
abbrev main_v1165 : Ref sig .tc := ⟨.hbm, 1264, rfl⟩
abbrev main_v1166 : Ref sig .tc := ⟨.hbm, 1265, rfl⟩
abbrev main_v1167 : Ref sig .tc := ⟨.hbm, 1266, rfl⟩
abbrev main_cst_73 : Ref sig .tc := ⟨.hbm, 1267, rfl⟩
abbrev main_v1168 : Ref sig .tc := ⟨.hbm, 1268, rfl⟩
abbrev main_v1169 : Ref sig .tc := ⟨.hbm, 1269, rfl⟩
abbrev main_cst_74 : Ref sig .tc := ⟨.hbm, 1270, rfl⟩
abbrev main_v1170 : Ref sig .tc := ⟨.hbm, 1271, rfl⟩
abbrev main_v1171 : Ref sig .tc := ⟨.hbm, 1272, rfl⟩
abbrev main_v1172 : Ref sig .tc := ⟨.hbm, 1273, rfl⟩
abbrev main_v1173 : Ref sig .tc := ⟨.hbm, 1274, rfl⟩
abbrev main_v1174 : Ref sig .tc := ⟨.hbm, 1275, rfl⟩
abbrev main_v1175 : Ref sig .tc := ⟨.hbm, 1276, rfl⟩
abbrev main_v1176 : Ref sig .tc := ⟨.hbm, 1277, rfl⟩
abbrev main_v1177 : Ref sig .tc := ⟨.hbm, 1278, rfl⟩
abbrev main_v1178 : Ref sig .tc := ⟨.hbm, 1279, rfl⟩
abbrev main_v1179 : Ref sig .tc := ⟨.hbm, 1280, rfl⟩
abbrev main_v1180 : Ref sig .tc := ⟨.hbm, 1281, rfl⟩
abbrev main_v1181 : Ref sig .tc := ⟨.hbm, 1282, rfl⟩
abbrev main_v1182 : Ref sig .tc := ⟨.hbm, 1283, rfl⟩
abbrev main_v1183 : Ref sig .tc := ⟨.hbm, 1284, rfl⟩
abbrev main_v1184 : Ref sig .tc := ⟨.hbm, 1285, rfl⟩
abbrev main_v1185 : Ref sig .tc := ⟨.hbm, 1286, rfl⟩
abbrev main_v1186 : Ref sig .tc := ⟨.hbm, 1287, rfl⟩
abbrev main_v1187 : Ref sig .tc := ⟨.hbm, 1288, rfl⟩
abbrev main_v1188 : Ref sig .tc := ⟨.hbm, 1289, rfl⟩
abbrev main_v1189 : Ref sig .tc := ⟨.hbm, 1290, rfl⟩
abbrev main_v1190 : Ref sig .tc := ⟨.hbm, 1291, rfl⟩
abbrev main_v1191 : Ref sig .tc := ⟨.hbm, 1292, rfl⟩
abbrev main_v1192 : Ref sig .tc := ⟨.hbm, 1293, rfl⟩
abbrev main_cst_75 : Ref sig .tc := ⟨.hbm, 1294, rfl⟩
abbrev main_v1193 : Ref sig .tc := ⟨.hbm, 1295, rfl⟩
abbrev main_v1194 : Ref sig .tc := ⟨.hbm, 1296, rfl⟩
abbrev main_cst_76 : Ref sig .tc := ⟨.hbm, 1297, rfl⟩
abbrev main_v1195 : Ref sig .tc := ⟨.hbm, 1298, rfl⟩
abbrev main_v1196 : Ref sig .tc := ⟨.hbm, 1299, rfl⟩
abbrev main_v1197 : Ref sig .tc := ⟨.hbm, 1300, rfl⟩
abbrev main_v1198 : Ref sig .tc := ⟨.hbm, 1301, rfl⟩
abbrev main_v1199 : Ref sig .tc := ⟨.hbm, 1302, rfl⟩
abbrev main_v1200 : Ref sig .tc := ⟨.hbm, 1303, rfl⟩
abbrev main_v1201 : Ref sig .tc := ⟨.hbm, 1304, rfl⟩
abbrev main_v1202 : Ref sig .tc := ⟨.hbm, 1305, rfl⟩
abbrev main_v1203 : Ref sig .tc := ⟨.hbm, 1306, rfl⟩
abbrev main_v1204 : Ref sig .tc := ⟨.hbm, 1307, rfl⟩
abbrev main_v1205 : Ref sig .tc := ⟨.hbm, 1308, rfl⟩
abbrev main_v1206 : Ref sig .tc := ⟨.hbm, 1309, rfl⟩
abbrev main_v1207 : Ref sig .tc := ⟨.hbm, 1310, rfl⟩
abbrev main_v1208 : Ref sig .tc := ⟨.hbm, 1311, rfl⟩
abbrev main_v1209 : Ref sig .tc := ⟨.hbm, 1312, rfl⟩
abbrev main_cst_77 : Ref sig .tc := ⟨.hbm, 1313, rfl⟩
abbrev main_v1210 : Ref sig .tc := ⟨.hbm, 1314, rfl⟩
abbrev main_v1211 : Ref sig .tc := ⟨.hbm, 1315, rfl⟩
abbrev main_v1212 : Ref sig .tc := ⟨.hbm, 1316, rfl⟩
abbrev main_v1213 : Ref sig .tc := ⟨.hbm, 1317, rfl⟩
abbrev main_v1214 : Ref sig .tc := ⟨.hbm, 1318, rfl⟩
abbrev main_v1215 : Ref sig .tc := ⟨.hbm, 1319, rfl⟩
abbrev main_v1216 : Ref sig .tc := ⟨.hbm, 1320, rfl⟩
abbrev main_v1217 : Ref sig .tc := ⟨.hbm, 1321, rfl⟩
abbrev main_v1218 : Ref sig .tc := ⟨.hbm, 1322, rfl⟩
abbrev main_v1219 : Ref sig .tc := ⟨.hbm, 1323, rfl⟩
abbrev main_v1220 : Ref sig .tc := ⟨.hbm, 1324, rfl⟩
abbrev main_v1221 : Ref sig .tc := ⟨.hbm, 1325, rfl⟩
abbrev main_v1222 : Ref sig .tc := ⟨.hbm, 1326, rfl⟩
abbrev main_v1223 : Ref sig .tc := ⟨.hbm, 1327, rfl⟩
abbrev main_v1224 : Ref sig .tc := ⟨.hbm, 1328, rfl⟩
abbrev main_v1225 : Ref sig .tc := ⟨.hbm, 1329, rfl⟩
abbrev main_v1226 : Ref sig .tc := ⟨.hbm, 1330, rfl⟩
abbrev main_v1227 : Ref sig .tc := ⟨.hbm, 1331, rfl⟩
abbrev main_v1228 : Ref sig .tc := ⟨.hbm, 1332, rfl⟩
abbrev main_v1229 : Ref sig .tc := ⟨.hbm, 1333, rfl⟩
abbrev main_v1230 : Ref sig .tc := ⟨.hbm, 1334, rfl⟩
abbrev main_v1231 : Ref sig .tc := ⟨.hbm, 1335, rfl⟩
abbrev main_v1232 : Ref sig .tc := ⟨.hbm, 1336, rfl⟩
abbrev main_v1233 : Ref sig .tc := ⟨.hbm, 1337, rfl⟩
abbrev main_v1234 : Ref sig .tc := ⟨.hbm, 1338, rfl⟩
abbrev main_v1235 : Ref sig .tc := ⟨.hbm, 1339, rfl⟩
abbrev main_v1236 : Ref sig .tc := ⟨.hbm, 1340, rfl⟩
abbrev main_v1237 : Ref sig .tc := ⟨.hbm, 1341, rfl⟩
abbrev main_v1238 : Ref sig .tc := ⟨.hbm, 1342, rfl⟩
abbrev main_v1239 : Ref sig .tc := ⟨.hbm, 1343, rfl⟩
abbrev main_v1240 : Ref sig .tc := ⟨.hbm, 1344, rfl⟩
abbrev main_v1241 : Ref sig .tc := ⟨.hbm, 1345, rfl⟩
abbrev main_v1242 : Ref sig .tc := ⟨.hbm, 1346, rfl⟩
abbrev main_v1243 : Ref sig .tc := ⟨.hbm, 1347, rfl⟩
abbrev main_v1244 : Ref sig .tc := ⟨.hbm, 1348, rfl⟩
abbrev main_v1245 : Ref sig .tc := ⟨.hbm, 1349, rfl⟩
abbrev main_v1246 : Ref sig .tc := ⟨.hbm, 1350, rfl⟩
abbrev main_v1247 : Ref sig .tc := ⟨.hbm, 1351, rfl⟩
abbrev main_v1248 : Ref sig .tc := ⟨.hbm, 1352, rfl⟩
abbrev main_v1249 : Ref sig .tc := ⟨.hbm, 1353, rfl⟩
abbrev main_cst_78 : Ref sig .tc := ⟨.hbm, 1354, rfl⟩
abbrev main_v1250 : Ref sig .tc := ⟨.hbm, 1355, rfl⟩
abbrev main_v1251 : Ref sig .tc := ⟨.hbm, 1356, rfl⟩
abbrev main_cst_79 : Ref sig .tc := ⟨.hbm, 1357, rfl⟩
abbrev main_v1252 : Ref sig .tc := ⟨.hbm, 1358, rfl⟩
abbrev main_v1253 : Ref sig .tc := ⟨.hbm, 1359, rfl⟩
abbrev main_v1254 : Ref sig .tc := ⟨.hbm, 1360, rfl⟩
abbrev main_v1255 : Ref sig .tc := ⟨.hbm, 1361, rfl⟩
abbrev main_v1256 : Ref sig .tc := ⟨.hbm, 1362, rfl⟩
abbrev main_v1257 : Ref sig .tc := ⟨.hbm, 1363, rfl⟩
abbrev main_v1258 : Ref sig .tc := ⟨.hbm, 1364, rfl⟩
abbrev main_v1259 : Ref sig .tc := ⟨.hbm, 1365, rfl⟩
abbrev main_v1260 : Ref sig .tc := ⟨.hbm, 1366, rfl⟩
abbrev main_v1261 : Ref sig .tc := ⟨.hbm, 1367, rfl⟩
abbrev main_v1262 : Ref sig .tc := ⟨.hbm, 1368, rfl⟩
abbrev main_v1263 : Ref sig .tc := ⟨.hbm, 1369, rfl⟩
abbrev main_v1264 : Ref sig .tc := ⟨.hbm, 1370, rfl⟩
abbrev main_v1265 : Ref sig .tc := ⟨.hbm, 1371, rfl⟩
abbrev main_v1266 : Ref sig .tc := ⟨.hbm, 1372, rfl⟩
abbrev main_v1267 : Ref sig .tc := ⟨.hbm, 1373, rfl⟩
abbrev main_v1268 : Ref sig .tc := ⟨.hbm, 1374, rfl⟩
abbrev main_v1269 : Ref sig .tc := ⟨.hbm, 1375, rfl⟩
abbrev main_v1270 : Ref sig .tc := ⟨.hbm, 1376, rfl⟩
abbrev main_v1271 : Ref sig .tc := ⟨.hbm, 1377, rfl⟩
abbrev main_v1272 : Ref sig .tc := ⟨.hbm, 1378, rfl⟩
abbrev main_v1273 : Ref sig .tc := ⟨.hbm, 1379, rfl⟩
abbrev main_v1274 : Ref sig .tc := ⟨.hbm, 1380, rfl⟩
abbrev main_v1275 : Ref sig .tc := ⟨.hbm, 1381, rfl⟩
abbrev main_v1276 : Ref sig .tc := ⟨.hbm, 1382, rfl⟩
abbrev main_v1277 : Ref sig .tc := ⟨.hbm, 1383, rfl⟩
abbrev main_v1278 : Ref sig .tc := ⟨.hbm, 1384, rfl⟩
abbrev main_v1279 : Ref sig .tc := ⟨.hbm, 1385, rfl⟩
abbrev main_v1280 : Ref sig .tc := ⟨.hbm, 1386, rfl⟩
abbrev main_v1281 : Ref sig .tc := ⟨.hbm, 1387, rfl⟩
abbrev main_v1282 : Ref sig .tc := ⟨.hbm, 1388, rfl⟩
abbrev main_v1283 : Ref sig .tc := ⟨.hbm, 1389, rfl⟩
abbrev main_v1284 : Ref sig .tc := ⟨.hbm, 1390, rfl⟩
abbrev main_v1285 : Ref sig .tc := ⟨.hbm, 1391, rfl⟩
abbrev main_v1286 : Ref sig .tc := ⟨.hbm, 1392, rfl⟩
abbrev main_v1287 : Ref sig .tc := ⟨.hbm, 1393, rfl⟩
abbrev main_cst_80 : Ref sig .tc := ⟨.hbm, 1394, rfl⟩
abbrev main_v1288 : Ref sig .tc := ⟨.hbm, 1395, rfl⟩
abbrev main_v1289 : Ref sig .tc := ⟨.hbm, 1396, rfl⟩
abbrev main_cst_81 : Ref sig .tc := ⟨.hbm, 1397, rfl⟩
abbrev main_v1290 : Ref sig .tc := ⟨.hbm, 1398, rfl⟩
abbrev main_v1291 : Ref sig .tc := ⟨.hbm, 1399, rfl⟩
abbrev main_v1292 : Ref sig .tc := ⟨.hbm, 1400, rfl⟩
abbrev main_v1293 : Ref sig .tc := ⟨.hbm, 1401, rfl⟩
abbrev main_v1294 : Ref sig .tc := ⟨.hbm, 1402, rfl⟩
abbrev main_v1295 : Ref sig .tc := ⟨.hbm, 1403, rfl⟩
abbrev main_v1296 : Ref sig .tc := ⟨.hbm, 1404, rfl⟩
abbrev main_v1297 : Ref sig .tc := ⟨.hbm, 1405, rfl⟩
abbrev main_v1298 : Ref sig .tc := ⟨.hbm, 1406, rfl⟩
abbrev main_v1299 : Ref sig .tc := ⟨.hbm, 1407, rfl⟩
abbrev main_v1300 : Ref sig .tc := ⟨.hbm, 1408, rfl⟩
abbrev main_v1301 : Ref sig .tc := ⟨.hbm, 1409, rfl⟩
abbrev main_v1302 : Ref sig .tc := ⟨.hbm, 1410, rfl⟩
abbrev main_v1303 : Ref sig .tc := ⟨.hbm, 1411, rfl⟩
abbrev main_v1304 : Ref sig .tc := ⟨.hbm, 1412, rfl⟩
abbrev main_v1305 : Ref sig .tc := ⟨.hbm, 1413, rfl⟩
abbrev main_v1306 : Ref sig .tc := ⟨.hbm, 1414, rfl⟩
abbrev main_v1307 : Ref sig .tc := ⟨.hbm, 1415, rfl⟩
abbrev main_v1308 : Ref sig .tc := ⟨.hbm, 1416, rfl⟩
abbrev main_v1309 : Ref sig .tc := ⟨.hbm, 1417, rfl⟩
abbrev main_v1310 : Ref sig .tc := ⟨.hbm, 1418, rfl⟩
abbrev main_v1311 : Ref sig .tc := ⟨.hbm, 1419, rfl⟩
abbrev main_v1312 : Ref sig .tc := ⟨.hbm, 1420, rfl⟩
abbrev main_v1313 : Ref sig .tc := ⟨.hbm, 1421, rfl⟩
abbrev main_v1314 : Ref sig .tc := ⟨.hbm, 1422, rfl⟩
abbrev main_cst_82 : Ref sig .tc := ⟨.hbm, 1423, rfl⟩
abbrev main_v1315 : Ref sig .tc := ⟨.hbm, 1424, rfl⟩
abbrev main_v1316 : Ref sig .tc := ⟨.hbm, 1425, rfl⟩
abbrev main_cst_83 : Ref sig .tc := ⟨.hbm, 1426, rfl⟩
abbrev main_v1317 : Ref sig .tc := ⟨.hbm, 1427, rfl⟩
abbrev main_v1318 : Ref sig .tc := ⟨.hbm, 1428, rfl⟩
abbrev main_v1319 : Ref sig .tc := ⟨.hbm, 1429, rfl⟩
abbrev main_v1320 : Ref sig .tc := ⟨.hbm, 1430, rfl⟩
abbrev main_v1321 : Ref sig .tc := ⟨.hbm, 1431, rfl⟩
abbrev main_v1322 : Ref sig .tc := ⟨.hbm, 1432, rfl⟩
abbrev main_v1323 : Ref sig .tc := ⟨.hbm, 1433, rfl⟩
abbrev main_v1324 : Ref sig .tc := ⟨.hbm, 1434, rfl⟩
abbrev main_v1325 : Ref sig .tc := ⟨.hbm, 1435, rfl⟩
abbrev main_v1326 : Ref sig .tc := ⟨.hbm, 1436, rfl⟩
abbrev main_v1327 : Ref sig .tc := ⟨.hbm, 1437, rfl⟩
abbrev main_v1328 : Ref sig .tc := ⟨.hbm, 1438, rfl⟩
abbrev main_v1329 : Ref sig .tc := ⟨.hbm, 1439, rfl⟩
abbrev main_v1330 : Ref sig .tc := ⟨.hbm, 1440, rfl⟩
abbrev main_v1331 : Ref sig .tc := ⟨.hbm, 1441, rfl⟩
abbrev main_v1332 : Ref sig .tc := ⟨.hbm, 1442, rfl⟩
abbrev main_v1333 : Ref sig .tc := ⟨.hbm, 1443, rfl⟩
abbrev main_v1334 : Ref sig .tc := ⟨.hbm, 1444, rfl⟩
abbrev main_v1335 : Ref sig .tc := ⟨.hbm, 1445, rfl⟩
abbrev main_v1336 : Ref sig .tc := ⟨.hbm, 1446, rfl⟩
abbrev main_v1337 : Ref sig .tc := ⟨.hbm, 1447, rfl⟩
abbrev main_v1338 : Ref sig .tc := ⟨.hbm, 1448, rfl⟩
abbrev main_v1339 : Ref sig .tc := ⟨.hbm, 1449, rfl⟩
abbrev main_cst_84 : Ref sig .tc := ⟨.hbm, 1450, rfl⟩
abbrev main_v1340 : Ref sig .tc := ⟨.hbm, 1451, rfl⟩
abbrev main_v1341 : Ref sig .tc := ⟨.hbm, 1452, rfl⟩
abbrev main_cst_85 : Ref sig .tc := ⟨.hbm, 1453, rfl⟩
abbrev main_v1342 : Ref sig .tc := ⟨.hbm, 1454, rfl⟩
abbrev main_v1343 : Ref sig .tc := ⟨.hbm, 1455, rfl⟩
abbrev main_v1344 : Ref sig .tc := ⟨.hbm, 1456, rfl⟩
abbrev main_v1345 : Ref sig .tc := ⟨.hbm, 1457, rfl⟩
abbrev main_v1346 : Ref sig .tc := ⟨.hbm, 1458, rfl⟩
abbrev main_v1347 : Ref sig .tc := ⟨.hbm, 1459, rfl⟩
abbrev main_v1348 : Ref sig .tc := ⟨.hbm, 1460, rfl⟩
abbrev main_v1349 : Ref sig .tc := ⟨.hbm, 1461, rfl⟩
abbrev main_v1350 : Ref sig .tc := ⟨.hbm, 1462, rfl⟩
abbrev main_v1351 : Ref sig .tc := ⟨.hbm, 1463, rfl⟩
abbrev main_v1352 : Ref sig .tc := ⟨.hbm, 1464, rfl⟩
abbrev main_v1353 : Ref sig .tc := ⟨.hbm, 1465, rfl⟩
abbrev main_v1354 : Ref sig .tc := ⟨.hbm, 1466, rfl⟩
abbrev main_v1355 : Ref sig .tc := ⟨.hbm, 1467, rfl⟩
abbrev main_v1356 : Ref sig .tc := ⟨.hbm, 1468, rfl⟩
abbrev main_cst_86 : Ref sig .tc := ⟨.hbm, 1469, rfl⟩
abbrev main_v1357 : Ref sig .tc := ⟨.hbm, 1470, rfl⟩
abbrev main_v1358 : Ref sig .tc := ⟨.hbm, 1471, rfl⟩
abbrev main_v1359 : Ref sig .tc := ⟨.hbm, 1472, rfl⟩
abbrev main_v1360 : Ref sig .tc := ⟨.hbm, 1473, rfl⟩
abbrev main_v1361 : Ref sig .tc := ⟨.hbm, 1474, rfl⟩
abbrev main_v1362 : Ref sig .tc := ⟨.hbm, 1475, rfl⟩
abbrev main_v1363 : Ref sig .tc := ⟨.hbm, 1476, rfl⟩
abbrev main_v1364 : Ref sig .tc := ⟨.hbm, 1477, rfl⟩
abbrev main_v1365 : Ref sig .tc := ⟨.hbm, 1478, rfl⟩
abbrev main_v1366 : Ref sig .tc := ⟨.hbm, 1479, rfl⟩
abbrev main_v1367 : Ref sig .tc := ⟨.hbm, 1480, rfl⟩
abbrev main_v1368 : Ref sig .tc := ⟨.hbm, 1481, rfl⟩
abbrev main_v1369 : Ref sig .tc := ⟨.hbm, 1482, rfl⟩
abbrev main_v1370 : Ref sig .tc := ⟨.hbm, 1483, rfl⟩
abbrev main_v1371 : Ref sig .tc := ⟨.hbm, 1484, rfl⟩
abbrev main_v1372 : Ref sig .tc := ⟨.hbm, 1485, rfl⟩
abbrev main_v1373 : Ref sig .tc := ⟨.hbm, 1486, rfl⟩
abbrev main_v1374 : Ref sig .tc := ⟨.hbm, 1487, rfl⟩
abbrev main_v1375 : Ref sig .tc := ⟨.hbm, 1488, rfl⟩
abbrev main_v1376 : Ref sig .tc := ⟨.hbm, 1489, rfl⟩
abbrev main_v1377 : Ref sig .tc := ⟨.hbm, 1490, rfl⟩
abbrev main_v1378 : Ref sig .tc := ⟨.hbm, 1491, rfl⟩
abbrev main_v1379 : Ref sig .tc := ⟨.hbm, 1492, rfl⟩
abbrev main_v1380 : Ref sig .tc := ⟨.hbm, 1493, rfl⟩
abbrev main_v1381 : Ref sig .tc := ⟨.hbm, 1494, rfl⟩
abbrev main_v1382 : Ref sig .tc := ⟨.hbm, 1495, rfl⟩
abbrev main_v1383 : Ref sig .tc := ⟨.hbm, 1496, rfl⟩
abbrev main_v1384 : Ref sig .tc := ⟨.hbm, 1497, rfl⟩
abbrev main_v1385 : Ref sig .tc := ⟨.hbm, 1498, rfl⟩
abbrev main_v1386 : Ref sig .tc := ⟨.hbm, 1499, rfl⟩
abbrev main_v1387 : Ref sig .tc := ⟨.hbm, 1500, rfl⟩
abbrev main_v1388 : Ref sig .tc := ⟨.hbm, 1501, rfl⟩
abbrev main_v1389 : Ref sig .tc := ⟨.hbm, 1502, rfl⟩
abbrev main_v1390 : Ref sig .tc := ⟨.hbm, 1503, rfl⟩
abbrev main_v1391 : Ref sig .tc := ⟨.hbm, 1504, rfl⟩
abbrev main_v1392 : Ref sig .tc := ⟨.hbm, 1505, rfl⟩
abbrev main_v1393 : Ref sig .tc := ⟨.hbm, 1506, rfl⟩
abbrev main_v1394 : Ref sig .tc := ⟨.hbm, 1507, rfl⟩
abbrev main_v1395 : Ref sig .tc := ⟨.hbm, 1508, rfl⟩
abbrev main_v1396 : Ref sig .tc := ⟨.hbm, 1509, rfl⟩
abbrev main_cst_87 : Ref sig .tc := ⟨.hbm, 1510, rfl⟩
abbrev main_v1397 : Ref sig .tc := ⟨.hbm, 1511, rfl⟩
abbrev main_v1398 : Ref sig .tc := ⟨.hbm, 1512, rfl⟩
abbrev main_cst_88 : Ref sig .tc := ⟨.hbm, 1513, rfl⟩
abbrev main_v1399 : Ref sig .tc := ⟨.hbm, 1514, rfl⟩
abbrev main_v1400 : Ref sig .tc := ⟨.hbm, 1515, rfl⟩
abbrev main_v1401 : Ref sig .tc := ⟨.hbm, 1516, rfl⟩
abbrev main_v1402 : Ref sig .tc := ⟨.hbm, 1517, rfl⟩
abbrev main_v1403 : Ref sig .tc := ⟨.hbm, 1518, rfl⟩
abbrev main_v1404 : Ref sig .tc := ⟨.hbm, 1519, rfl⟩
abbrev main_v1405 : Ref sig .tc := ⟨.hbm, 1520, rfl⟩
abbrev main_v1406 : Ref sig .tc := ⟨.hbm, 1521, rfl⟩
abbrev main_v1407 : Ref sig .tc := ⟨.hbm, 1522, rfl⟩
abbrev main_v1408 : Ref sig .tc := ⟨.hbm, 1523, rfl⟩
abbrev main_v1409 : Ref sig .tc := ⟨.hbm, 1524, rfl⟩
abbrev main_v1410 : Ref sig .tc := ⟨.hbm, 1525, rfl⟩
abbrev main_v1411 : Ref sig .tc := ⟨.hbm, 1526, rfl⟩
abbrev main_v1412 : Ref sig .tc := ⟨.hbm, 1527, rfl⟩
abbrev main_v1413 : Ref sig .tc := ⟨.hbm, 1528, rfl⟩
abbrev main_v1414 : Ref sig .tc := ⟨.hbm, 1529, rfl⟩
abbrev main_v1415 : Ref sig .tc := ⟨.hbm, 1530, rfl⟩
abbrev main_v1416 : Ref sig .tc := ⟨.hbm, 1531, rfl⟩
abbrev main_v1417 : Ref sig .tc := ⟨.hbm, 1532, rfl⟩
abbrev main_v1418 : Ref sig .tc := ⟨.hbm, 1533, rfl⟩
abbrev main_v1419 : Ref sig .tc := ⟨.hbm, 1534, rfl⟩
abbrev main_v1420 : Ref sig .tc := ⟨.hbm, 1535, rfl⟩
abbrev main_v1421 : Ref sig .tc := ⟨.hbm, 1536, rfl⟩
abbrev main_v1422 : Ref sig .tc := ⟨.hbm, 1537, rfl⟩
abbrev main_v1423 : Ref sig .tc := ⟨.hbm, 1538, rfl⟩
abbrev main_v1424 : Ref sig .tc := ⟨.hbm, 1539, rfl⟩
abbrev main_cst_89 : Ref sig .tc := ⟨.hbm, 1540, rfl⟩
abbrev main_v1425 : Ref sig .tc := ⟨.hbm, 1541, rfl⟩
abbrev main_v1426 : Ref sig .tc := ⟨.hbm, 1542, rfl⟩
abbrev main_cst_90 : Ref sig .tc := ⟨.hbm, 1543, rfl⟩
abbrev main_v1427 : Ref sig .tc := ⟨.hbm, 1544, rfl⟩
abbrev main_v1428 : Ref sig .tc := ⟨.hbm, 1545, rfl⟩
abbrev main_v1429 : Ref sig .tc := ⟨.hbm, 1546, rfl⟩
abbrev main_v1430 : Ref sig .tc := ⟨.hbm, 1547, rfl⟩
abbrev main_v1431 : Ref sig .tc := ⟨.hbm, 1548, rfl⟩
abbrev main_v1432 : Ref sig .tc := ⟨.hbm, 1549, rfl⟩
abbrev main_v1433 : Ref sig .tc := ⟨.hbm, 1550, rfl⟩
abbrev main_v1434 : Ref sig .tc := ⟨.hbm, 1551, rfl⟩
abbrev main_v1435 : Ref sig .tc := ⟨.hbm, 1552, rfl⟩
abbrev main_v1436 : Ref sig .tc := ⟨.hbm, 1553, rfl⟩
abbrev main_v1437 : Ref sig .tc := ⟨.hbm, 1554, rfl⟩
abbrev main_v1438 : Ref sig .tc := ⟨.hbm, 1555, rfl⟩
abbrev main_v1439 : Ref sig .tc := ⟨.hbm, 1556, rfl⟩
abbrev main_v1440 : Ref sig .tc := ⟨.hbm, 1557, rfl⟩
abbrev main_v1441 : Ref sig .tc := ⟨.hbm, 1558, rfl⟩
abbrev main_v1442 : Ref sig .tc := ⟨.hbm, 1559, rfl⟩
abbrev main_v1443 : Ref sig .tc := ⟨.hbm, 1560, rfl⟩
abbrev main_v1444 : Ref sig .tc := ⟨.hbm, 1561, rfl⟩
abbrev main_v1445 : Ref sig .tc := ⟨.hbm, 1562, rfl⟩
abbrev main_v1446 : Ref sig .tc := ⟨.hbm, 1563, rfl⟩
abbrev main_v1447 : Ref sig .tc := ⟨.hbm, 1564, rfl⟩
abbrev main_v1448 : Ref sig .tc := ⟨.hbm, 1565, rfl⟩
abbrev main_v1449 : Ref sig .tc := ⟨.hbm, 1566, rfl⟩
abbrev main_v1450 : Ref sig .tc := ⟨.hbm, 1567, rfl⟩
abbrev main_v1451 : Ref sig .tc := ⟨.hbm, 1568, rfl⟩
abbrev main_cst_91 : Ref sig .tc := ⟨.hbm, 1569, rfl⟩
abbrev main_v1452 : Ref sig .tc := ⟨.hbm, 1570, rfl⟩
abbrev main_v1453 : Ref sig .tc := ⟨.hbm, 1571, rfl⟩
abbrev main_cst_92 : Ref sig .tc := ⟨.hbm, 1572, rfl⟩
abbrev main_v1454 : Ref sig .tc := ⟨.hbm, 1573, rfl⟩
abbrev main_v1455 : Ref sig .tc := ⟨.hbm, 1574, rfl⟩
abbrev main_v1456 : Ref sig .tc := ⟨.hbm, 1575, rfl⟩
abbrev main_v1457 : Ref sig .tc := ⟨.hbm, 1576, rfl⟩
abbrev main_v1458 : Ref sig .tc := ⟨.hbm, 1577, rfl⟩
abbrev main_v1459 : Ref sig .tc := ⟨.hbm, 1578, rfl⟩
abbrev main_v1460 : Ref sig .tc := ⟨.hbm, 1579, rfl⟩
abbrev main_v1461 : Ref sig .tc := ⟨.hbm, 1580, rfl⟩
abbrev main_v1462 : Ref sig .tc := ⟨.hbm, 1581, rfl⟩
abbrev main_v1463 : Ref sig .tc := ⟨.hbm, 1582, rfl⟩
abbrev main_v1464 : Ref sig .tc := ⟨.hbm, 1583, rfl⟩
abbrev main_v1465 : Ref sig .tc := ⟨.hbm, 1584, rfl⟩
abbrev main_v1466 : Ref sig .tc := ⟨.hbm, 1585, rfl⟩
abbrev main_v1467 : Ref sig .tc := ⟨.hbm, 1586, rfl⟩
abbrev main_v1468 : Ref sig .tc := ⟨.hbm, 1587, rfl⟩
abbrev main_v1469 : Ref sig .tc := ⟨.hbm, 1588, rfl⟩
abbrev main_v1470 : Ref sig .tc := ⟨.hbm, 1589, rfl⟩
abbrev main_v1471 : Ref sig .tc := ⟨.hbm, 1590, rfl⟩
abbrev main_v1472 : Ref sig .tc := ⟨.hbm, 1591, rfl⟩
abbrev main_v1473 : Ref sig .tc := ⟨.hbm, 1592, rfl⟩
abbrev main_v1474 : Ref sig .tc := ⟨.hbm, 1593, rfl⟩
abbrev main_v1475 : Ref sig .tc := ⟨.hbm, 1594, rfl⟩
abbrev main_v1476 : Ref sig .tc := ⟨.hbm, 1595, rfl⟩
abbrev main_cst_93 : Ref sig .tc := ⟨.hbm, 1596, rfl⟩
abbrev main_v1477 : Ref sig .tc := ⟨.hbm, 1597, rfl⟩
abbrev main_v1478 : Ref sig .tc := ⟨.hbm, 1598, rfl⟩
abbrev main_cst_94 : Ref sig .tc := ⟨.hbm, 1599, rfl⟩
abbrev main_v1479 : Ref sig .tc := ⟨.hbm, 1600, rfl⟩
abbrev main_v1480 : Ref sig .tc := ⟨.hbm, 1601, rfl⟩
abbrev main_v1481 : Ref sig .tc := ⟨.hbm, 1602, rfl⟩
abbrev main_v1482 : Ref sig .tc := ⟨.hbm, 1603, rfl⟩
abbrev main_v1483 : Ref sig .tc := ⟨.hbm, 1604, rfl⟩
abbrev main_v1484 : Ref sig .tc := ⟨.hbm, 1605, rfl⟩
abbrev main_v1485 : Ref sig .tc := ⟨.hbm, 1606, rfl⟩
abbrev main_v1486 : Ref sig .tc := ⟨.hbm, 1607, rfl⟩
abbrev main_v1487 : Ref sig .tc := ⟨.hbm, 1608, rfl⟩
abbrev main_v1488 : Ref sig .tc := ⟨.hbm, 1609, rfl⟩
abbrev main_v1489 : Ref sig .tc := ⟨.hbm, 1610, rfl⟩
abbrev main_v1490 : Ref sig .tc := ⟨.hbm, 1611, rfl⟩
abbrev main_v1491 : Ref sig .tc := ⟨.hbm, 1612, rfl⟩
abbrev main_v1492 : Ref sig .tc := ⟨.hbm, 1613, rfl⟩
abbrev main_v1493 : Ref sig .tc := ⟨.hbm, 1614, rfl⟩
abbrev main_cst_95 : Ref sig .tc := ⟨.hbm, 1615, rfl⟩
abbrev main_v1494 : Ref sig .tc := ⟨.hbm, 1616, rfl⟩
abbrev main_v1495 : Ref sig .tc := ⟨.hbm, 1617, rfl⟩
abbrev main_v1496 : Ref sig .tc := ⟨.hbm, 1618, rfl⟩
abbrev main_v1497 : Ref sig .tc := ⟨.hbm, 1619, rfl⟩
abbrev main_v1498 : Ref sig .tc := ⟨.hbm, 1620, rfl⟩
abbrev main_v1499 : Ref sig .tc := ⟨.hbm, 1621, rfl⟩
abbrev main_v1500 : Ref sig .tc := ⟨.hbm, 1622, rfl⟩
abbrev main_v1501 : Ref sig .tc := ⟨.hbm, 1623, rfl⟩
abbrev main_v1502 : Ref sig .tc := ⟨.hbm, 1624, rfl⟩
abbrev main_v1503 : Ref sig .tc := ⟨.hbm, 1625, rfl⟩
abbrev main_v1504 : Ref sig .tc := ⟨.hbm, 1626, rfl⟩
abbrev main_v1505 : Ref sig .tc := ⟨.hbm, 1627, rfl⟩
abbrev main_v1506 : Ref sig .tc := ⟨.hbm, 1628, rfl⟩
abbrev main_v1507 : Ref sig .tc := ⟨.hbm, 1629, rfl⟩
abbrev main_v1508 : Ref sig .tc := ⟨.hbm, 1630, rfl⟩
abbrev main_v1509 : Ref sig .tc := ⟨.hbm, 1631, rfl⟩
abbrev main_v1510 : Ref sig .tc := ⟨.hbm, 1632, rfl⟩
abbrev main_v1511 : Ref sig .tc := ⟨.hbm, 1633, rfl⟩
abbrev main_v1512 : Ref sig .tc := ⟨.hbm, 1634, rfl⟩
abbrev main_v1513 : Ref sig .tc := ⟨.hbm, 1635, rfl⟩
abbrev main_v1514 : Ref sig .tc := ⟨.hbm, 1636, rfl⟩
abbrev main_v1515 : Ref sig .tc := ⟨.hbm, 1637, rfl⟩
abbrev main_v1516 : Ref sig .tc := ⟨.hbm, 1638, rfl⟩
abbrev main_v1517 : Ref sig .tc := ⟨.hbm, 1639, rfl⟩
abbrev main_v1518 : Ref sig .tc := ⟨.hbm, 1640, rfl⟩
abbrev main_v1519 : Ref sig .tc := ⟨.hbm, 1641, rfl⟩
abbrev main_v1520 : Ref sig .tc := ⟨.hbm, 1642, rfl⟩
abbrev main_v1521 : Ref sig .tc := ⟨.hbm, 1643, rfl⟩
abbrev main_v1522 : Ref sig .tc := ⟨.hbm, 1644, rfl⟩
abbrev main_v1523 : Ref sig .tc := ⟨.hbm, 1645, rfl⟩
abbrev main_v1524 : Ref sig .tc := ⟨.hbm, 1646, rfl⟩
abbrev main_v1525 : Ref sig .tc := ⟨.hbm, 1647, rfl⟩
abbrev main_v1526 : Ref sig .tc := ⟨.hbm, 1648, rfl⟩
abbrev main_v1527 : Ref sig .tc := ⟨.hbm, 1649, rfl⟩
abbrev main_v1528 : Ref sig .tc := ⟨.hbm, 1650, rfl⟩
abbrev main_v1529 : Ref sig .tc := ⟨.hbm, 1651, rfl⟩
abbrev main_v1530 : Ref sig .tc := ⟨.hbm, 1652, rfl⟩
abbrev main_v1531 : Ref sig .tc := ⟨.hbm, 1653, rfl⟩
abbrev main_v1532 : Ref sig .tc := ⟨.hbm, 1654, rfl⟩
abbrev main_v1533 : Ref sig .tc := ⟨.hbm, 1655, rfl⟩
abbrev main_cst_96 : Ref sig .tc := ⟨.hbm, 1656, rfl⟩
abbrev main_v1534 : Ref sig .tc := ⟨.hbm, 1657, rfl⟩
abbrev main_v1535 : Ref sig .tc := ⟨.hbm, 1658, rfl⟩
abbrev main_cst_97 : Ref sig .tc := ⟨.hbm, 1659, rfl⟩
abbrev main_v1536 : Ref sig .tc := ⟨.hbm, 1660, rfl⟩
abbrev main_v1537 : Ref sig .tc := ⟨.hbm, 1661, rfl⟩
abbrev main_v1538 : Ref sig .tc := ⟨.hbm, 1662, rfl⟩
abbrev main_v1539 : Ref sig .tc := ⟨.hbm, 1663, rfl⟩
abbrev main_v1540 : Ref sig .tc := ⟨.hbm, 1664, rfl⟩
abbrev main_v1541 : Ref sig .tc := ⟨.hbm, 1665, rfl⟩
abbrev main_v1542 : Ref sig .tc := ⟨.hbm, 1666, rfl⟩
abbrev main_v1543 : Ref sig .tc := ⟨.hbm, 1667, rfl⟩
abbrev main_v1544 : Ref sig .tc := ⟨.hbm, 1668, rfl⟩
abbrev main_v1545 : Ref sig .tc := ⟨.hbm, 1669, rfl⟩
abbrev main_v1546 : Ref sig .tc := ⟨.hbm, 1670, rfl⟩
abbrev main_v1547 : Ref sig .tc := ⟨.hbm, 1671, rfl⟩
abbrev main_v1548 : Ref sig .tc := ⟨.hbm, 1672, rfl⟩
abbrev main_v1549 : Ref sig .tc := ⟨.hbm, 1673, rfl⟩
abbrev main_v1550 : Ref sig .tc := ⟨.hbm, 1674, rfl⟩
abbrev main_v1551 : Ref sig .tc := ⟨.hbm, 1675, rfl⟩
abbrev main_v1552 : Ref sig .tc := ⟨.hbm, 1676, rfl⟩
abbrev main_v1553 : Ref sig .tc := ⟨.hbm, 1677, rfl⟩
abbrev main_v1554 : Ref sig .tc := ⟨.hbm, 1678, rfl⟩
abbrev main_v1555 : Ref sig .tc := ⟨.hbm, 1679, rfl⟩
abbrev main_v1556 : Ref sig .tc := ⟨.hbm, 1680, rfl⟩
abbrev main_v1557 : Ref sig .tc := ⟨.hbm, 1681, rfl⟩
abbrev main_v1558 : Ref sig .tc := ⟨.hbm, 1682, rfl⟩
abbrev main_v1559 : Ref sig .tc := ⟨.hbm, 1683, rfl⟩
abbrev main_v1560 : Ref sig .tc := ⟨.hbm, 1684, rfl⟩
abbrev main_v1561 : Ref sig .tc := ⟨.hbm, 1685, rfl⟩
abbrev main_cst_98 : Ref sig .tc := ⟨.hbm, 1686, rfl⟩
abbrev main_v1562 : Ref sig .tc := ⟨.hbm, 1687, rfl⟩
abbrev main_v1563 : Ref sig .tc := ⟨.hbm, 1688, rfl⟩
abbrev main_cst_99 : Ref sig .tc := ⟨.hbm, 1689, rfl⟩
abbrev main_v1564 : Ref sig .tc := ⟨.hbm, 1690, rfl⟩
abbrev main_v1565 : Ref sig .tc := ⟨.hbm, 1691, rfl⟩
abbrev main_v1566 : Ref sig .tc := ⟨.hbm, 1692, rfl⟩
abbrev main_v1567 : Ref sig .tc := ⟨.hbm, 1693, rfl⟩
abbrev main_v1568 : Ref sig .tc := ⟨.hbm, 1694, rfl⟩
abbrev main_v1569 : Ref sig .tc := ⟨.hbm, 1695, rfl⟩
abbrev main_v1570 : Ref sig .tc := ⟨.hbm, 1696, rfl⟩
abbrev main_v1571 : Ref sig .tc := ⟨.hbm, 1697, rfl⟩
abbrev main_v1572 : Ref sig .tc := ⟨.hbm, 1698, rfl⟩
abbrev main_v1573 : Ref sig .tc := ⟨.hbm, 1699, rfl⟩
abbrev main_v1574 : Ref sig .tc := ⟨.hbm, 1700, rfl⟩
abbrev main_v1575 : Ref sig .tc := ⟨.hbm, 1701, rfl⟩
abbrev main_v1576 : Ref sig .tc := ⟨.hbm, 1702, rfl⟩
abbrev main_v1577 : Ref sig .tc := ⟨.hbm, 1703, rfl⟩
abbrev main_v1578 : Ref sig .tc := ⟨.hbm, 1704, rfl⟩
abbrev main_v1579 : Ref sig .tc := ⟨.hbm, 1705, rfl⟩
abbrev main_v1580 : Ref sig .tc := ⟨.hbm, 1706, rfl⟩
abbrev main_v1581 : Ref sig .tc := ⟨.hbm, 1707, rfl⟩
abbrev main_v1582 : Ref sig .tc := ⟨.hbm, 1708, rfl⟩
abbrev main_v1583 : Ref sig .tc := ⟨.hbm, 1709, rfl⟩
abbrev main_v1584 : Ref sig .tc := ⟨.hbm, 1710, rfl⟩
abbrev main_v1585 : Ref sig .tc := ⟨.hbm, 1711, rfl⟩
abbrev main_v1586 : Ref sig .tc := ⟨.hbm, 1712, rfl⟩
abbrev main_v1587 : Ref sig .tc := ⟨.hbm, 1713, rfl⟩
abbrev main_v1588 : Ref sig .tc := ⟨.hbm, 1714, rfl⟩
abbrev main_cst_100 : Ref sig .tc := ⟨.hbm, 1715, rfl⟩
abbrev main_v1589 : Ref sig .tc := ⟨.hbm, 1716, rfl⟩
abbrev main_v1590 : Ref sig .tc := ⟨.hbm, 1717, rfl⟩
abbrev main_cst_101 : Ref sig .tc := ⟨.hbm, 1718, rfl⟩
abbrev main_v1591 : Ref sig .tc := ⟨.hbm, 1719, rfl⟩
abbrev main_v1592 : Ref sig .tc := ⟨.hbm, 1720, rfl⟩
abbrev main_v1593 : Ref sig .tc := ⟨.hbm, 1721, rfl⟩
abbrev main_v1594 : Ref sig .tc := ⟨.hbm, 1722, rfl⟩
abbrev main_v1595 : Ref sig .tc := ⟨.hbm, 1723, rfl⟩
abbrev main_v1596 : Ref sig .tc := ⟨.hbm, 1724, rfl⟩
abbrev main_v1597 : Ref sig .tc := ⟨.hbm, 1725, rfl⟩
abbrev main_v1598 : Ref sig .tc := ⟨.hbm, 1726, rfl⟩
abbrev main_v1599 : Ref sig .tc := ⟨.hbm, 1727, rfl⟩
abbrev main_v1600 : Ref sig .tc := ⟨.hbm, 1728, rfl⟩
abbrev main_v1601 : Ref sig .tc := ⟨.hbm, 1729, rfl⟩
abbrev main_v1602 : Ref sig .tc := ⟨.hbm, 1730, rfl⟩
abbrev main_v1603 : Ref sig .tc := ⟨.hbm, 1731, rfl⟩
abbrev main_v1604 : Ref sig .tc := ⟨.hbm, 1732, rfl⟩
abbrev main_v1605 : Ref sig .tc := ⟨.hbm, 1733, rfl⟩
abbrev main_v1606 : Ref sig .tc := ⟨.hbm, 1734, rfl⟩
abbrev main_v1607 : Ref sig .tc := ⟨.hbm, 1735, rfl⟩
abbrev main_v1608 : Ref sig .tc := ⟨.hbm, 1736, rfl⟩
abbrev main_v1609 : Ref sig .tc := ⟨.hbm, 1737, rfl⟩
abbrev main_v1610 : Ref sig .tc := ⟨.hbm, 1738, rfl⟩
abbrev main_v1611 : Ref sig .tc := ⟨.hbm, 1739, rfl⟩
abbrev main_v1612 : Ref sig .tc := ⟨.hbm, 1740, rfl⟩
abbrev main_v1613 : Ref sig .tc := ⟨.hbm, 1741, rfl⟩
abbrev main_cst_102 : Ref sig .tc := ⟨.hbm, 1742, rfl⟩
abbrev main_v1614 : Ref sig .tc := ⟨.hbm, 1743, rfl⟩
abbrev main_v1615 : Ref sig .tc := ⟨.hbm, 1744, rfl⟩
abbrev main_cst_103 : Ref sig .tc := ⟨.hbm, 1745, rfl⟩
abbrev main_v1616 : Ref sig .tc := ⟨.hbm, 1746, rfl⟩
abbrev main_v1617 : Ref sig .tc := ⟨.hbm, 1747, rfl⟩
abbrev main_v1618 : Ref sig .tc := ⟨.hbm, 1748, rfl⟩
abbrev main_v1619 : Ref sig .tc := ⟨.hbm, 1749, rfl⟩
abbrev main_v1620 : Ref sig .tc := ⟨.hbm, 1750, rfl⟩
abbrev main_v1621 : Ref sig .tc := ⟨.hbm, 1751, rfl⟩
abbrev main_v1622 : Ref sig .tc := ⟨.hbm, 1752, rfl⟩
abbrev main_v1623 : Ref sig .tc := ⟨.hbm, 1753, rfl⟩
abbrev main_v1624 : Ref sig .tc := ⟨.hbm, 1754, rfl⟩
abbrev main_v1625 : Ref sig .tc := ⟨.hbm, 1755, rfl⟩
abbrev main_v1626 : Ref sig .tc := ⟨.hbm, 1756, rfl⟩
abbrev main_v1627 : Ref sig .tc := ⟨.hbm, 1757, rfl⟩
abbrev main_v1628 : Ref sig .tc := ⟨.hbm, 1758, rfl⟩
abbrev main_v1629 : Ref sig .tc := ⟨.hbm, 1759, rfl⟩
abbrev main_v1630 : Ref sig .tc := ⟨.hbm, 1760, rfl⟩
abbrev main_cst_104 : Ref sig .tc := ⟨.hbm, 1761, rfl⟩
abbrev main_v1631 : Ref sig .tc := ⟨.hbm, 1762, rfl⟩
abbrev main_v1632 : Ref sig .tc := ⟨.hbm, 1763, rfl⟩
abbrev main_v1633 : Ref sig .tc := ⟨.hbm, 1764, rfl⟩
abbrev main_v1634 : Ref sig .tc := ⟨.hbm, 1765, rfl⟩
abbrev main_v1635 : Ref sig .tc := ⟨.hbm, 1766, rfl⟩
abbrev main_v1636 : Ref sig .tc := ⟨.hbm, 1767, rfl⟩
abbrev main_v1637 : Ref sig .tc := ⟨.hbm, 1768, rfl⟩
abbrev main_v1638 : Ref sig .tc := ⟨.hbm, 1769, rfl⟩
abbrev main_v1639 : Ref sig .tc := ⟨.hbm, 1770, rfl⟩
abbrev main_v1640 : Ref sig .tc := ⟨.hbm, 1771, rfl⟩
abbrev main_v1641 : Ref sig .tc := ⟨.hbm, 1772, rfl⟩
abbrev main_v1642 : Ref sig .tc := ⟨.hbm, 1773, rfl⟩
abbrev main_v1643 : Ref sig .tc := ⟨.hbm, 1774, rfl⟩
abbrev main_v1644 : Ref sig .tc := ⟨.hbm, 1775, rfl⟩
abbrev main_v1645 : Ref sig .tc := ⟨.hbm, 1776, rfl⟩
abbrev main_v1646 : Ref sig .tc := ⟨.hbm, 1777, rfl⟩
abbrev main_v1647 : Ref sig .tc := ⟨.hbm, 1778, rfl⟩
abbrev main_v1648 : Ref sig .tc := ⟨.hbm, 1779, rfl⟩
abbrev main_v1649 : Ref sig .tc := ⟨.hbm, 1780, rfl⟩
abbrev main_v1650 : Ref sig .tc := ⟨.hbm, 1781, rfl⟩
abbrev main_v1651 : Ref sig .tc := ⟨.hbm, 1782, rfl⟩
abbrev main_v1652 : Ref sig .tc := ⟨.hbm, 1783, rfl⟩
abbrev main_v1653 : Ref sig .tc := ⟨.hbm, 1784, rfl⟩
abbrev main_v1654 : Ref sig .tc := ⟨.hbm, 1785, rfl⟩
abbrev main_v1655 : Ref sig .tc := ⟨.hbm, 1786, rfl⟩
abbrev main_v1656 : Ref sig .tc := ⟨.hbm, 1787, rfl⟩
abbrev main_v1657 : Ref sig .tc := ⟨.hbm, 1788, rfl⟩
abbrev main_v1658 : Ref sig .tc := ⟨.hbm, 1789, rfl⟩
abbrev main_v1659 : Ref sig .tc := ⟨.hbm, 1790, rfl⟩
abbrev main_v1660 : Ref sig .tc := ⟨.hbm, 1791, rfl⟩
abbrev main_v1661 : Ref sig .tc := ⟨.hbm, 1792, rfl⟩
abbrev main_v1662 : Ref sig .tc := ⟨.hbm, 1793, rfl⟩
abbrev main_v1663 : Ref sig .tc := ⟨.hbm, 1794, rfl⟩
abbrev main_v1664 : Ref sig .tc := ⟨.hbm, 1795, rfl⟩
abbrev main_v1665 : Ref sig .tc := ⟨.hbm, 1796, rfl⟩
abbrev main_v1666 : Ref sig .tc := ⟨.hbm, 1797, rfl⟩
abbrev main_v1667 : Ref sig .tc := ⟨.hbm, 1798, rfl⟩
abbrev main_v1668 : Ref sig .tc := ⟨.hbm, 1799, rfl⟩
abbrev main_v1669 : Ref sig .tc := ⟨.hbm, 1800, rfl⟩
abbrev main_v1670 : Ref sig .tc := ⟨.hbm, 1801, rfl⟩
abbrev main_cst_105 : Ref sig .tc := ⟨.hbm, 1802, rfl⟩
abbrev main_v1671 : Ref sig .tc := ⟨.hbm, 1803, rfl⟩
abbrev main_v1672 : Ref sig .tc := ⟨.hbm, 1804, rfl⟩
abbrev main_cst_106 : Ref sig .tc := ⟨.hbm, 1805, rfl⟩
abbrev main_v1673 : Ref sig .tc := ⟨.hbm, 1806, rfl⟩
abbrev main_v1674 : Ref sig .tc := ⟨.hbm, 1807, rfl⟩
abbrev main_v1675 : Ref sig .tc := ⟨.hbm, 1808, rfl⟩
abbrev main_v1676 : Ref sig .tc := ⟨.hbm, 1809, rfl⟩
abbrev main_v1677 : Ref sig .tc := ⟨.hbm, 1810, rfl⟩
abbrev main_v1678 : Ref sig .tc := ⟨.hbm, 1811, rfl⟩
abbrev main_v1679 : Ref sig .tc := ⟨.hbm, 1812, rfl⟩
abbrev main_v1680 : Ref sig .tc := ⟨.hbm, 1813, rfl⟩
abbrev main_v1681 : Ref sig .tc := ⟨.hbm, 1814, rfl⟩
abbrev main_v1682 : Ref sig .tc := ⟨.hbm, 1815, rfl⟩
abbrev main_v1683 : Ref sig .tc := ⟨.hbm, 1816, rfl⟩
abbrev main_v1684 : Ref sig .tc := ⟨.hbm, 1817, rfl⟩
abbrev main_v1685 : Ref sig .tc := ⟨.hbm, 1818, rfl⟩
abbrev main_v1686 : Ref sig .tc := ⟨.hbm, 1819, rfl⟩
abbrev main_v1687 : Ref sig .tc := ⟨.hbm, 1820, rfl⟩
abbrev main_v1688 : Ref sig .tc := ⟨.hbm, 1821, rfl⟩
abbrev main_v1689 : Ref sig .tc := ⟨.hbm, 1822, rfl⟩
abbrev main_v1690 : Ref sig .tc := ⟨.hbm, 1823, rfl⟩
abbrev main_v1691 : Ref sig .tc := ⟨.hbm, 1824, rfl⟩
abbrev main_v1692 : Ref sig .tc := ⟨.hbm, 1825, rfl⟩
abbrev main_v1693 : Ref sig .tc := ⟨.hbm, 1826, rfl⟩
abbrev main_v1694 : Ref sig .tc := ⟨.hbm, 1827, rfl⟩
abbrev main_v1695 : Ref sig .tc := ⟨.hbm, 1828, rfl⟩
abbrev main_v1696 : Ref sig .tc := ⟨.hbm, 1829, rfl⟩
abbrev main_v1697 : Ref sig .tc := ⟨.hbm, 1830, rfl⟩
abbrev main_v1698 : Ref sig .tc := ⟨.hbm, 1831, rfl⟩
abbrev main_v1699 : Ref sig .tc := ⟨.hbm, 1832, rfl⟩
abbrev main_v1700 : Ref sig .tc := ⟨.hbm, 1833, rfl⟩
abbrev main_v1701 : Ref sig .tc := ⟨.hbm, 1834, rfl⟩
abbrev main_v1702 : Ref sig .tc := ⟨.hbm, 1835, rfl⟩
abbrev main_v1703 : Ref sig .tc := ⟨.hbm, 1836, rfl⟩
abbrev main_v1704 : Ref sig .tc := ⟨.hbm, 1837, rfl⟩
abbrev main_v1705 : Ref sig .tc := ⟨.hbm, 1838, rfl⟩
abbrev main_v1706 : Ref sig .tc := ⟨.hbm, 1839, rfl⟩
abbrev main_v1707 : Ref sig .tc := ⟨.hbm, 1840, rfl⟩
abbrev main_v1708 : Ref sig .tc := ⟨.hbm, 1841, rfl⟩
abbrev main_cst_107 : Ref sig .tc := ⟨.hbm, 1842, rfl⟩
abbrev main_v1709 : Ref sig .tc := ⟨.hbm, 1843, rfl⟩
abbrev main_v1710 : Ref sig .tc := ⟨.hbm, 1844, rfl⟩
abbrev main_cst_108 : Ref sig .tc := ⟨.hbm, 1845, rfl⟩
abbrev main_v1711 : Ref sig .tc := ⟨.hbm, 1846, rfl⟩
abbrev main_v1712 : Ref sig .tc := ⟨.hbm, 1847, rfl⟩
abbrev main_v1713 : Ref sig .tc := ⟨.hbm, 1848, rfl⟩
abbrev main_v1714 : Ref sig .tc := ⟨.hbm, 1849, rfl⟩
abbrev main_v1715 : Ref sig .tc := ⟨.hbm, 1850, rfl⟩
abbrev main_v1716 : Ref sig .tc := ⟨.hbm, 1851, rfl⟩
abbrev main_v1717 : Ref sig .tc := ⟨.hbm, 1852, rfl⟩
abbrev main_v1718 : Ref sig .tc := ⟨.hbm, 1853, rfl⟩
abbrev main_v1719 : Ref sig .tc := ⟨.hbm, 1854, rfl⟩
abbrev main_v1720 : Ref sig .tc := ⟨.hbm, 1855, rfl⟩
abbrev main_v1721 : Ref sig .tc := ⟨.hbm, 1856, rfl⟩
abbrev main_v1722 : Ref sig .tc := ⟨.hbm, 1857, rfl⟩
abbrev main_v1723 : Ref sig .tc := ⟨.hbm, 1858, rfl⟩
abbrev main_v1724 : Ref sig .tc := ⟨.hbm, 1859, rfl⟩
abbrev main_v1725 : Ref sig .tc := ⟨.hbm, 1860, rfl⟩
abbrev main_v1726 : Ref sig .tc := ⟨.hbm, 1861, rfl⟩
abbrev main_v1727 : Ref sig .tc := ⟨.hbm, 1862, rfl⟩
abbrev main_v1728 : Ref sig .tc := ⟨.hbm, 1863, rfl⟩
abbrev main_v1729 : Ref sig .tc := ⟨.hbm, 1864, rfl⟩
abbrev main_v1730 : Ref sig .tc := ⟨.hbm, 1865, rfl⟩
abbrev main_v1731 : Ref sig .tc := ⟨.hbm, 1866, rfl⟩
abbrev main_v1732 : Ref sig .tc := ⟨.hbm, 1867, rfl⟩
abbrev main_v1733 : Ref sig .tc := ⟨.hbm, 1868, rfl⟩
abbrev main_v1734 : Ref sig .tc := ⟨.hbm, 1869, rfl⟩
abbrev main_v1735 : Ref sig .tc := ⟨.hbm, 1870, rfl⟩
abbrev main_cst_109 : Ref sig .tc := ⟨.hbm, 1871, rfl⟩
abbrev main_v1736 : Ref sig .tc := ⟨.hbm, 1872, rfl⟩
abbrev main_v1737 : Ref sig .tc := ⟨.hbm, 1873, rfl⟩
abbrev main_cst_110 : Ref sig .tc := ⟨.hbm, 1874, rfl⟩
abbrev main_v1738 : Ref sig .tc := ⟨.hbm, 1875, rfl⟩
abbrev main_v1739 : Ref sig .tc := ⟨.hbm, 1876, rfl⟩
abbrev main_v1740 : Ref sig .tc := ⟨.hbm, 1877, rfl⟩
abbrev main_v1741 : Ref sig .tc := ⟨.hbm, 1878, rfl⟩
abbrev main_v1742 : Ref sig .tc := ⟨.hbm, 1879, rfl⟩
abbrev main_v1743 : Ref sig .tc := ⟨.hbm, 1880, rfl⟩
abbrev main_v1744 : Ref sig .tc := ⟨.hbm, 1881, rfl⟩
abbrev main_v1745 : Ref sig .tc := ⟨.hbm, 1882, rfl⟩
abbrev main_v1746 : Ref sig .tc := ⟨.hbm, 1883, rfl⟩
abbrev main_v1747 : Ref sig .tc := ⟨.hbm, 1884, rfl⟩
abbrev main_v1748 : Ref sig .tc := ⟨.hbm, 1885, rfl⟩
abbrev main_v1749 : Ref sig .tc := ⟨.hbm, 1886, rfl⟩
abbrev main_v1750 : Ref sig .tc := ⟨.hbm, 1887, rfl⟩
abbrev main_v1751 : Ref sig .tc := ⟨.hbm, 1888, rfl⟩
abbrev main_v1752 : Ref sig .tc := ⟨.hbm, 1889, rfl⟩
abbrev main_v1753 : Ref sig .tc := ⟨.hbm, 1890, rfl⟩
abbrev main_v1754 : Ref sig .tc := ⟨.hbm, 1891, rfl⟩
abbrev main_v1755 : Ref sig .tc := ⟨.hbm, 1892, rfl⟩
abbrev main_v1756 : Ref sig .tc := ⟨.hbm, 1893, rfl⟩
abbrev main_v1757 : Ref sig .tc := ⟨.hbm, 1894, rfl⟩
abbrev main_v1758 : Ref sig .tc := ⟨.hbm, 1895, rfl⟩
abbrev main_v1759 : Ref sig .tc := ⟨.hbm, 1896, rfl⟩
abbrev main_v1760 : Ref sig .tc := ⟨.hbm, 1897, rfl⟩
abbrev main_cst_111 : Ref sig .tc := ⟨.hbm, 1898, rfl⟩
abbrev main_v1761 : Ref sig .tc := ⟨.hbm, 1899, rfl⟩
abbrev main_v1762 : Ref sig .tc := ⟨.hbm, 1900, rfl⟩
abbrev main_cst_112 : Ref sig .tc := ⟨.hbm, 1901, rfl⟩
abbrev main_v1763 : Ref sig .tc := ⟨.hbm, 1902, rfl⟩
abbrev main_v1764 : Ref sig .tc := ⟨.hbm, 1903, rfl⟩
abbrev main_v1765 : Ref sig .tc := ⟨.hbm, 1904, rfl⟩
abbrev main_v1766 : Ref sig .tc := ⟨.hbm, 1905, rfl⟩
abbrev main_v1767 : Ref sig .tc := ⟨.hbm, 1906, rfl⟩
abbrev main_v1768 : Ref sig .tc := ⟨.hbm, 1907, rfl⟩
abbrev main_v1769 : Ref sig .tc := ⟨.hbm, 1908, rfl⟩
abbrev main_v1770 : Ref sig .tc := ⟨.hbm, 1909, rfl⟩
abbrev main_v1771 : Ref sig .tc := ⟨.hbm, 1910, rfl⟩
abbrev main_v1772 : Ref sig .tc := ⟨.hbm, 1911, rfl⟩
abbrev main_v1773 : Ref sig .tc := ⟨.hbm, 1912, rfl⟩
abbrev main_v1774 : Ref sig .tc := ⟨.hbm, 1913, rfl⟩
abbrev main_v1775 : Ref sig .tc := ⟨.hbm, 1914, rfl⟩
abbrev main_v1776 : Ref sig .tc := ⟨.hbm, 1915, rfl⟩
abbrev main_v1777 : Ref sig .tc := ⟨.hbm, 1916, rfl⟩
abbrev main_cst_113 : Ref sig .tc := ⟨.hbm, 1917, rfl⟩
abbrev main_v1778 : Ref sig .tc := ⟨.hbm, 1918, rfl⟩
abbrev main_v1779 : Ref sig .tc := ⟨.hbm, 1919, rfl⟩
abbrev main_v1780 : Ref sig .tc := ⟨.hbm, 1920, rfl⟩
abbrev main_v1781 : Ref sig .tc := ⟨.hbm, 1921, rfl⟩
abbrev main_v1782 : Ref sig .tc := ⟨.hbm, 1922, rfl⟩
abbrev main_v1783 : Ref sig .tc := ⟨.hbm, 1923, rfl⟩
abbrev main_v1784 : Ref sig .tc := ⟨.hbm, 1924, rfl⟩
abbrev main_v1785 : Ref sig .tc := ⟨.hbm, 1925, rfl⟩
abbrev main_v1786 : Ref sig .tc := ⟨.hbm, 1926, rfl⟩
abbrev main_v1787 : Ref sig .tc := ⟨.hbm, 1927, rfl⟩
abbrev main_v1788 : Ref sig .tc := ⟨.hbm, 1928, rfl⟩
abbrev main_v1789 : Ref sig .tc := ⟨.hbm, 1929, rfl⟩
abbrev main_v1790 : Ref sig .tc := ⟨.hbm, 1930, rfl⟩
abbrev main_v1791 : Ref sig .tc := ⟨.hbm, 1931, rfl⟩
abbrev main_v1792 : Ref sig .tc := ⟨.hbm, 1932, rfl⟩
abbrev main_v1793 : Ref sig .tc := ⟨.hbm, 1933, rfl⟩
abbrev main_v1794 : Ref sig .tc := ⟨.hbm, 1934, rfl⟩
abbrev main_v1795 : Ref sig .tc := ⟨.hbm, 1935, rfl⟩
abbrev main_v1796 : Ref sig .tc := ⟨.hbm, 1936, rfl⟩
abbrev main_v1797 : Ref sig .tc := ⟨.hbm, 1937, rfl⟩
abbrev main_v1798 : Ref sig .tc := ⟨.hbm, 1938, rfl⟩
abbrev main_v1799 : Ref sig .tc := ⟨.hbm, 1939, rfl⟩
abbrev main_v1800 : Ref sig .tc := ⟨.hbm, 1940, rfl⟩
abbrev main_v1801 : Ref sig .tc := ⟨.hbm, 1941, rfl⟩
abbrev main_v1802 : Ref sig .tc := ⟨.hbm, 1942, rfl⟩
abbrev main_v1803 : Ref sig .tc := ⟨.hbm, 1943, rfl⟩
abbrev main_v1804 : Ref sig .tc := ⟨.hbm, 1944, rfl⟩
abbrev main_v1805 : Ref sig .tc := ⟨.hbm, 1945, rfl⟩
abbrev main_v1806 : Ref sig .tc := ⟨.hbm, 1946, rfl⟩
abbrev main_v1807 : Ref sig .tc := ⟨.hbm, 1947, rfl⟩
abbrev main_v1808 : Ref sig .tc := ⟨.hbm, 1948, rfl⟩
abbrev main_v1809 : Ref sig .tc := ⟨.hbm, 1949, rfl⟩
abbrev main_v1810 : Ref sig .tc := ⟨.hbm, 1950, rfl⟩
abbrev main_v1811 : Ref sig .tc := ⟨.hbm, 1951, rfl⟩
abbrev main_v1812 : Ref sig .tc := ⟨.hbm, 1952, rfl⟩
abbrev main_v1813 : Ref sig .tc := ⟨.hbm, 1953, rfl⟩
abbrev main_v1814 : Ref sig .tc := ⟨.hbm, 1954, rfl⟩
abbrev main_v1815 : Ref sig .tc := ⟨.hbm, 1955, rfl⟩
abbrev main_v1816 : Ref sig .tc := ⟨.hbm, 1956, rfl⟩
abbrev main_v1817 : Ref sig .tc := ⟨.hbm, 1957, rfl⟩
abbrev main_cst_114 : Ref sig .tc := ⟨.hbm, 1958, rfl⟩
abbrev main_v1818 : Ref sig .tc := ⟨.hbm, 1959, rfl⟩
abbrev main_v1819 : Ref sig .tc := ⟨.hbm, 1960, rfl⟩
abbrev main_cst_115 : Ref sig .tc := ⟨.hbm, 1961, rfl⟩
abbrev main_v1820 : Ref sig .tc := ⟨.hbm, 1962, rfl⟩
abbrev main_v1821 : Ref sig .tc := ⟨.hbm, 1963, rfl⟩
abbrev main_v1822 : Ref sig .tc := ⟨.hbm, 1964, rfl⟩
abbrev main_v1823 : Ref sig .tc := ⟨.hbm, 1965, rfl⟩
abbrev main_v1824 : Ref sig .tc := ⟨.hbm, 1966, rfl⟩
abbrev main_v1825 : Ref sig .tc := ⟨.hbm, 1967, rfl⟩
abbrev main_v1826 : Ref sig .tc := ⟨.hbm, 1968, rfl⟩
abbrev main_v1827 : Ref sig .tc := ⟨.hbm, 1969, rfl⟩
abbrev main_v1828 : Ref sig .tc := ⟨.hbm, 1970, rfl⟩
abbrev main_v1829 : Ref sig .tc := ⟨.hbm, 1971, rfl⟩
abbrev main_v1830 : Ref sig .tc := ⟨.hbm, 1972, rfl⟩
abbrev main_v1831 : Ref sig .tc := ⟨.hbm, 1973, rfl⟩
abbrev main_v1832 : Ref sig .tc := ⟨.hbm, 1974, rfl⟩
abbrev main_v1833 : Ref sig .tc := ⟨.hbm, 1975, rfl⟩
abbrev main_v1834 : Ref sig .tc := ⟨.hbm, 1976, rfl⟩
abbrev main_v1835 : Ref sig .tc := ⟨.hbm, 1977, rfl⟩
abbrev main_v1836 : Ref sig .tc := ⟨.hbm, 1978, rfl⟩
abbrev main_v1837 : Ref sig .tc := ⟨.hbm, 1979, rfl⟩
abbrev main_v1838 : Ref sig .tc := ⟨.hbm, 1980, rfl⟩
abbrev main_v1839 : Ref sig .tc := ⟨.hbm, 1981, rfl⟩
abbrev main_v1840 : Ref sig .tc := ⟨.hbm, 1982, rfl⟩
abbrev main_v1841 : Ref sig .tc := ⟨.hbm, 1983, rfl⟩
abbrev main_v1842 : Ref sig .tc := ⟨.hbm, 1984, rfl⟩
abbrev main_v1843 : Ref sig .tc := ⟨.hbm, 1985, rfl⟩
abbrev main_v1844 : Ref sig .tc := ⟨.hbm, 1986, rfl⟩
abbrev main_v1845 : Ref sig .tc := ⟨.hbm, 1987, rfl⟩
abbrev main_cst_116 : Ref sig .tc := ⟨.hbm, 1988, rfl⟩
abbrev main_v1846 : Ref sig .tc := ⟨.hbm, 1989, rfl⟩
abbrev main_v1847 : Ref sig .tc := ⟨.hbm, 1990, rfl⟩
abbrev main_cst_117 : Ref sig .tc := ⟨.hbm, 1991, rfl⟩
abbrev main_v1848 : Ref sig .tc := ⟨.hbm, 1992, rfl⟩
abbrev main_v1849 : Ref sig .tc := ⟨.hbm, 1993, rfl⟩
abbrev main_v1850 : Ref sig .tc := ⟨.hbm, 1994, rfl⟩
abbrev main_v1851 : Ref sig .tc := ⟨.hbm, 1995, rfl⟩
abbrev main_v1852 : Ref sig .tc := ⟨.hbm, 1996, rfl⟩
abbrev main_v1853 : Ref sig .tc := ⟨.hbm, 1997, rfl⟩
abbrev main_v1854 : Ref sig .tc := ⟨.hbm, 1998, rfl⟩
abbrev main_v1855 : Ref sig .tc := ⟨.hbm, 1999, rfl⟩
abbrev main_v1856 : Ref sig .tc := ⟨.hbm, 2000, rfl⟩
abbrev main_v1857 : Ref sig .tc := ⟨.hbm, 2001, rfl⟩
abbrev main_v1858 : Ref sig .tc := ⟨.hbm, 2002, rfl⟩
abbrev main_v1859 : Ref sig .tc := ⟨.hbm, 2003, rfl⟩
abbrev main_v1860 : Ref sig .tc := ⟨.hbm, 2004, rfl⟩
abbrev main_v1861 : Ref sig .tc := ⟨.hbm, 2005, rfl⟩
abbrev main_v1862 : Ref sig .tc := ⟨.hbm, 2006, rfl⟩
abbrev main_v1863 : Ref sig .tc := ⟨.hbm, 2007, rfl⟩
abbrev main_v1864 : Ref sig .tc := ⟨.hbm, 2008, rfl⟩
abbrev main_v1865 : Ref sig .tc := ⟨.hbm, 2009, rfl⟩
abbrev main_v1866 : Ref sig .tc := ⟨.hbm, 2010, rfl⟩
abbrev main_v1867 : Ref sig .tc := ⟨.hbm, 2011, rfl⟩
abbrev main_v1868 : Ref sig .tc := ⟨.hbm, 2012, rfl⟩
abbrev main_v1869 : Ref sig .tc := ⟨.hbm, 2013, rfl⟩
abbrev main_v1870 : Ref sig .tc := ⟨.hbm, 2014, rfl⟩
abbrev main_v1871 : Ref sig .tc := ⟨.hbm, 2015, rfl⟩
abbrev main_v1872 : Ref sig .tc := ⟨.hbm, 2016, rfl⟩
abbrev main_cst_118 : Ref sig .tc := ⟨.hbm, 2017, rfl⟩
abbrev main_v1873 : Ref sig .tc := ⟨.hbm, 2018, rfl⟩
abbrev main_v1874 : Ref sig .tc := ⟨.hbm, 2019, rfl⟩
abbrev main_cst_119 : Ref sig .tc := ⟨.hbm, 2020, rfl⟩
abbrev main_v1875 : Ref sig .tc := ⟨.hbm, 2021, rfl⟩
abbrev main_v1876 : Ref sig .tc := ⟨.hbm, 2022, rfl⟩
abbrev main_v1877 : Ref sig .tc := ⟨.hbm, 2023, rfl⟩
abbrev main_v1878 : Ref sig .tc := ⟨.hbm, 2024, rfl⟩
abbrev main_v1879 : Ref sig .tc := ⟨.hbm, 2025, rfl⟩
abbrev main_v1880 : Ref sig .tc := ⟨.hbm, 2026, rfl⟩
abbrev main_v1881 : Ref sig .tc := ⟨.hbm, 2027, rfl⟩
abbrev main_v1882 : Ref sig .tc := ⟨.hbm, 2028, rfl⟩
abbrev main_v1883 : Ref sig .tc := ⟨.hbm, 2029, rfl⟩
abbrev main_v1884 : Ref sig .tc := ⟨.hbm, 2030, rfl⟩
abbrev main_v1885 : Ref sig .tc := ⟨.hbm, 2031, rfl⟩
abbrev main_v1886 : Ref sig .tc := ⟨.hbm, 2032, rfl⟩
abbrev main_v1887 : Ref sig .tc := ⟨.hbm, 2033, rfl⟩
abbrev main_v1888 : Ref sig .tc := ⟨.hbm, 2034, rfl⟩
abbrev main_v1889 : Ref sig .tc := ⟨.hbm, 2035, rfl⟩
abbrev main_v1890 : Ref sig .tc := ⟨.hbm, 2036, rfl⟩
abbrev main_v1891 : Ref sig .tc := ⟨.hbm, 2037, rfl⟩
abbrev main_v1892 : Ref sig .tc := ⟨.hbm, 2038, rfl⟩
abbrev main_v1893 : Ref sig .tc := ⟨.hbm, 2039, rfl⟩
abbrev main_v1894 : Ref sig .tc := ⟨.hbm, 2040, rfl⟩
abbrev main_v1895 : Ref sig .tc := ⟨.hbm, 2041, rfl⟩
abbrev main_v1896 : Ref sig .tc := ⟨.hbm, 2042, rfl⟩
abbrev main_v1897 : Ref sig .tc := ⟨.hbm, 2043, rfl⟩
abbrev main_cst_120 : Ref sig .tc := ⟨.hbm, 2044, rfl⟩
abbrev main_v1898 : Ref sig .tc := ⟨.hbm, 2045, rfl⟩
abbrev main_v1899 : Ref sig .tc := ⟨.hbm, 2046, rfl⟩
abbrev main_cst_121 : Ref sig .tc := ⟨.hbm, 2047, rfl⟩
abbrev main_v1900 : Ref sig .tc := ⟨.hbm, 2048, rfl⟩
abbrev main_v1901 : Ref sig .tc := ⟨.hbm, 2049, rfl⟩
abbrev main_v1902 : Ref sig .tc := ⟨.hbm, 2050, rfl⟩
abbrev main_v1903 : Ref sig .tc := ⟨.hbm, 2051, rfl⟩
abbrev main_v1904 : Ref sig .tc := ⟨.hbm, 2052, rfl⟩
abbrev main_v1905 : Ref sig .tc := ⟨.hbm, 2053, rfl⟩
abbrev main_v1906 : Ref sig .tc := ⟨.hbm, 2054, rfl⟩
abbrev main_v1907 : Ref sig .tc := ⟨.hbm, 2055, rfl⟩
abbrev main_v1908 : Ref sig .tc := ⟨.hbm, 2056, rfl⟩
abbrev main_v1909 : Ref sig .tc := ⟨.hbm, 2057, rfl⟩
abbrev main_v1910 : Ref sig .tc := ⟨.hbm, 2058, rfl⟩
abbrev main_v1911 : Ref sig .tc := ⟨.hbm, 2059, rfl⟩
abbrev main_v1912 : Ref sig .tc := ⟨.hbm, 2060, rfl⟩
abbrev main_v1913 : Ref sig .tc := ⟨.hbm, 2061, rfl⟩
abbrev main_v1914 : Ref sig .tc := ⟨.hbm, 2062, rfl⟩
abbrev main_cst_122 : Ref sig .tc := ⟨.hbm, 2063, rfl⟩
abbrev main_v1915 : Ref sig .tc := ⟨.hbm, 2064, rfl⟩
abbrev main_v1916 : Ref sig .tc := ⟨.hbm, 2065, rfl⟩
abbrev main_v1917 : Ref sig .tc := ⟨.hbm, 2066, rfl⟩
abbrev main_v1918 : Ref sig .tc := ⟨.hbm, 2067, rfl⟩
abbrev main_v1919 : Ref sig .tc := ⟨.hbm, 2068, rfl⟩
abbrev main_v1920 : Ref sig .tc := ⟨.hbm, 2069, rfl⟩
abbrev main_v1921 : Ref sig .tc := ⟨.hbm, 2070, rfl⟩
abbrev main_v1922 : Ref sig .tc := ⟨.hbm, 2071, rfl⟩
abbrev main_v1923 : Ref sig .tc := ⟨.hbm, 2072, rfl⟩
abbrev main_v1924 : Ref sig .tc := ⟨.hbm, 2073, rfl⟩
abbrev main_v1925 : Ref sig .tc := ⟨.hbm, 2074, rfl⟩
abbrev main_v1926 : Ref sig .tc := ⟨.hbm, 2075, rfl⟩
abbrev main_v1927 : Ref sig .tc := ⟨.hbm, 2076, rfl⟩
abbrev main_v1928 : Ref sig .tc := ⟨.hbm, 2077, rfl⟩
abbrev main_v1929 : Ref sig .tc := ⟨.hbm, 2078, rfl⟩
abbrev main_v1930 : Ref sig .tc := ⟨.hbm, 2079, rfl⟩
abbrev main_v1931 : Ref sig .tc := ⟨.hbm, 2080, rfl⟩
abbrev main_v1932 : Ref sig .tc := ⟨.hbm, 2081, rfl⟩
abbrev main_v1933 : Ref sig .tc := ⟨.hbm, 2082, rfl⟩
abbrev main_v1934 : Ref sig .tc := ⟨.hbm, 2083, rfl⟩
abbrev main_v1935 : Ref sig .tc := ⟨.hbm, 2084, rfl⟩
abbrev main_v1936 : Ref sig .tc := ⟨.hbm, 2085, rfl⟩
abbrev main_v1937 : Ref sig .tc := ⟨.hbm, 2086, rfl⟩
abbrev main_v1938 : Ref sig .tc := ⟨.hbm, 2087, rfl⟩
abbrev main_v1939 : Ref sig .tc := ⟨.hbm, 2088, rfl⟩
abbrev main_v1940 : Ref sig .tc := ⟨.hbm, 2089, rfl⟩
abbrev main_v1941 : Ref sig .tc := ⟨.hbm, 2090, rfl⟩
abbrev main_v1942 : Ref sig .tc := ⟨.hbm, 2091, rfl⟩
abbrev main_v1943 : Ref sig .tc := ⟨.hbm, 2092, rfl⟩
abbrev main_v1944 : Ref sig .tc := ⟨.hbm, 2093, rfl⟩
abbrev main_v1945 : Ref sig .tc := ⟨.hbm, 2094, rfl⟩
abbrev main_v1946 : Ref sig .tc := ⟨.hbm, 2095, rfl⟩
abbrev main_v1947 : Ref sig .tc := ⟨.hbm, 2096, rfl⟩
abbrev main_v1948 : Ref sig .tc := ⟨.hbm, 2097, rfl⟩
abbrev main_v1949 : Ref sig .tc := ⟨.hbm, 2098, rfl⟩
abbrev main_v1950 : Ref sig .tc := ⟨.hbm, 2099, rfl⟩
abbrev main_v1951 : Ref sig .tc := ⟨.hbm, 2100, rfl⟩
abbrev main_v1952 : Ref sig .tc := ⟨.hbm, 2101, rfl⟩
abbrev main_v1953 : Ref sig .tc := ⟨.hbm, 2102, rfl⟩
abbrev main_v1954 : Ref sig .tc := ⟨.hbm, 2103, rfl⟩
abbrev main_cst_123 : Ref sig .tc := ⟨.hbm, 2104, rfl⟩
abbrev main_v1955 : Ref sig .tc := ⟨.hbm, 2105, rfl⟩
abbrev main_v1956 : Ref sig .tc := ⟨.hbm, 2106, rfl⟩
abbrev main_cst_124 : Ref sig .tc := ⟨.hbm, 2107, rfl⟩
abbrev main_v1957 : Ref sig .tc := ⟨.hbm, 2108, rfl⟩
abbrev main_v1958 : Ref sig .tc := ⟨.hbm, 2109, rfl⟩
abbrev main_v1959 : Ref sig .tc := ⟨.hbm, 2110, rfl⟩
abbrev main_v1960 : Ref sig .tc := ⟨.hbm, 2111, rfl⟩
abbrev main_v1961 : Ref sig .tc := ⟨.hbm, 2112, rfl⟩
abbrev main_v1962 : Ref sig .tc := ⟨.hbm, 2113, rfl⟩
abbrev main_v1963 : Ref sig .tc := ⟨.hbm, 2114, rfl⟩
abbrev main_v1964 : Ref sig .tc := ⟨.hbm, 2115, rfl⟩
abbrev main_v1965 : Ref sig .tc := ⟨.hbm, 2116, rfl⟩
abbrev main_v1966 : Ref sig .tc := ⟨.hbm, 2117, rfl⟩
abbrev main_v1967 : Ref sig .tc := ⟨.hbm, 2118, rfl⟩
abbrev main_v1968 : Ref sig .tc := ⟨.hbm, 2119, rfl⟩
abbrev main_v1969 : Ref sig .tc := ⟨.hbm, 2120, rfl⟩
abbrev main_v1970 : Ref sig .tc := ⟨.hbm, 2121, rfl⟩
abbrev main_v1971 : Ref sig .tc := ⟨.hbm, 2122, rfl⟩
abbrev main_v1972 : Ref sig .tc := ⟨.hbm, 2123, rfl⟩
abbrev main_v1973 : Ref sig .tc := ⟨.hbm, 2124, rfl⟩
abbrev main_v1974 : Ref sig .tc := ⟨.hbm, 2125, rfl⟩
abbrev main_v1975 : Ref sig .tc := ⟨.hbm, 2126, rfl⟩
abbrev main_v1976 : Ref sig .tc := ⟨.hbm, 2127, rfl⟩
abbrev main_v1977 : Ref sig .tc := ⟨.hbm, 2128, rfl⟩
abbrev main_v1978 : Ref sig .tc := ⟨.hbm, 2129, rfl⟩
abbrev main_v1979 : Ref sig .tc := ⟨.hbm, 2130, rfl⟩
abbrev main_v1980 : Ref sig .tc := ⟨.hbm, 2131, rfl⟩
abbrev main_v1981 : Ref sig .tc := ⟨.hbm, 2132, rfl⟩
abbrev main_v1982 : Ref sig .tc := ⟨.hbm, 2133, rfl⟩
abbrev main_cst_125 : Ref sig .tc := ⟨.hbm, 2134, rfl⟩
abbrev main_v1983 : Ref sig .tc := ⟨.hbm, 2135, rfl⟩
abbrev main_v1984 : Ref sig .tc := ⟨.hbm, 2136, rfl⟩
abbrev main_cst_126 : Ref sig .tc := ⟨.hbm, 2137, rfl⟩
abbrev main_v1985 : Ref sig .tc := ⟨.hbm, 2138, rfl⟩
abbrev main_v1986 : Ref sig .tc := ⟨.hbm, 2139, rfl⟩
abbrev main_v1987 : Ref sig .tc := ⟨.hbm, 2140, rfl⟩
abbrev main_v1988 : Ref sig .tc := ⟨.hbm, 2141, rfl⟩
abbrev main_v1989 : Ref sig .tc := ⟨.hbm, 2142, rfl⟩
abbrev main_v1990 : Ref sig .tc := ⟨.hbm, 2143, rfl⟩
abbrev main_v1991 : Ref sig .tc := ⟨.hbm, 2144, rfl⟩
abbrev main_v1992 : Ref sig .tc := ⟨.hbm, 2145, rfl⟩
abbrev main_v1993 : Ref sig .tc := ⟨.hbm, 2146, rfl⟩
abbrev main_v1994 : Ref sig .tc := ⟨.hbm, 2147, rfl⟩
abbrev main_v1995 : Ref sig .tc := ⟨.hbm, 2148, rfl⟩
abbrev main_v1996 : Ref sig .tc := ⟨.hbm, 2149, rfl⟩
abbrev main_v1997 : Ref sig .tc := ⟨.hbm, 2150, rfl⟩
abbrev main_v1998 : Ref sig .tc := ⟨.hbm, 2151, rfl⟩
abbrev main_v1999 : Ref sig .tc := ⟨.hbm, 2152, rfl⟩
abbrev main_v2000 : Ref sig .tc := ⟨.hbm, 2153, rfl⟩
abbrev main_v2001 : Ref sig .tc := ⟨.hbm, 2154, rfl⟩
abbrev main_v2002 : Ref sig .tc := ⟨.hbm, 2155, rfl⟩
abbrev main_v2003 : Ref sig .tc := ⟨.hbm, 2156, rfl⟩
abbrev main_v2004 : Ref sig .tc := ⟨.hbm, 2157, rfl⟩
abbrev main_v2005 : Ref sig .tc := ⟨.hbm, 2158, rfl⟩
abbrev main_v2006 : Ref sig .tc := ⟨.hbm, 2159, rfl⟩
abbrev main_v2007 : Ref sig .tc := ⟨.hbm, 2160, rfl⟩
abbrev main_v2008 : Ref sig .tc := ⟨.hbm, 2161, rfl⟩
abbrev main_v2009 : Ref sig .tc := ⟨.hbm, 2162, rfl⟩
abbrev main_cst_127 : Ref sig .tc := ⟨.hbm, 2163, rfl⟩
abbrev main_v2010 : Ref sig .tc := ⟨.hbm, 2164, rfl⟩
abbrev main_v2011 : Ref sig .tc := ⟨.hbm, 2165, rfl⟩
abbrev main_cst_128 : Ref sig .tc := ⟨.hbm, 2166, rfl⟩
abbrev main_v2012 : Ref sig .tc := ⟨.hbm, 2167, rfl⟩
abbrev main_v2013 : Ref sig .tc := ⟨.hbm, 2168, rfl⟩
abbrev main_v2014 : Ref sig .tc := ⟨.hbm, 2169, rfl⟩
abbrev main_v2015 : Ref sig .tc := ⟨.hbm, 2170, rfl⟩
abbrev main_v2016 : Ref sig .tc := ⟨.hbm, 2171, rfl⟩
abbrev main_v2017 : Ref sig .tc := ⟨.hbm, 2172, rfl⟩
abbrev main_v2018 : Ref sig .tc := ⟨.hbm, 2173, rfl⟩
abbrev main_v2019 : Ref sig .tc := ⟨.hbm, 2174, rfl⟩
abbrev main_v2020 : Ref sig .tc := ⟨.hbm, 2175, rfl⟩
abbrev main_v2021 : Ref sig .tc := ⟨.hbm, 2176, rfl⟩
abbrev main_v2022 : Ref sig .tc := ⟨.hbm, 2177, rfl⟩
abbrev main_v2023 : Ref sig .tc := ⟨.hbm, 2178, rfl⟩
abbrev main_v2024 : Ref sig .tc := ⟨.hbm, 2179, rfl⟩
abbrev main_v2025 : Ref sig .tc := ⟨.hbm, 2180, rfl⟩
abbrev main_v2026 : Ref sig .tc := ⟨.hbm, 2181, rfl⟩
abbrev main_v2027 : Ref sig .tc := ⟨.hbm, 2182, rfl⟩
abbrev main_v2028 : Ref sig .tc := ⟨.hbm, 2183, rfl⟩
abbrev main_v2029 : Ref sig .tc := ⟨.hbm, 2184, rfl⟩
abbrev main_v2030 : Ref sig .tc := ⟨.hbm, 2185, rfl⟩
abbrev main_v2031 : Ref sig .tc := ⟨.hbm, 2186, rfl⟩
abbrev main_v2032 : Ref sig .tc := ⟨.hbm, 2187, rfl⟩
abbrev main_v2033 : Ref sig .tc := ⟨.hbm, 2188, rfl⟩
abbrev main_v2034 : Ref sig .tc := ⟨.hbm, 2189, rfl⟩
abbrev main_cst_129 : Ref sig .tc := ⟨.hbm, 2190, rfl⟩
abbrev main_v2035 : Ref sig .tc := ⟨.hbm, 2191, rfl⟩
abbrev main_v2036 : Ref sig .tc := ⟨.hbm, 2192, rfl⟩
abbrev main_cst_130 : Ref sig .tc := ⟨.hbm, 2193, rfl⟩
abbrev main_v2037 : Ref sig .tc := ⟨.hbm, 2194, rfl⟩
abbrev main_v2038 : Ref sig .tc := ⟨.hbm, 2195, rfl⟩
abbrev main_v2039 : Ref sig .tc := ⟨.hbm, 2196, rfl⟩
abbrev main_v2040 : Ref sig .tc := ⟨.hbm, 2197, rfl⟩
abbrev main_v2041 : Ref sig .tc := ⟨.hbm, 2198, rfl⟩
abbrev main_v2042 : Ref sig .tc := ⟨.hbm, 2199, rfl⟩
abbrev main_v2043 : Ref sig .tc := ⟨.hbm, 2200, rfl⟩
abbrev main_v2044 : Ref sig .tc := ⟨.hbm, 2201, rfl⟩
abbrev main_v2045 : Ref sig .tc := ⟨.hbm, 2202, rfl⟩
abbrev main_v2046 : Ref sig .tc := ⟨.hbm, 2203, rfl⟩
abbrev main_v2047 : Ref sig .tc := ⟨.hbm, 2204, rfl⟩
abbrev main_v2048 : Ref sig .tc := ⟨.hbm, 2205, rfl⟩
abbrev main_v2049 : Ref sig .tc := ⟨.hbm, 2206, rfl⟩
abbrev main_v2050 : Ref sig .tc := ⟨.hbm, 2207, rfl⟩
abbrev main_v2051 : Ref sig .tc := ⟨.hbm, 2208, rfl⟩
abbrev main_cst_131 : Ref sig .tc := ⟨.hbm, 2209, rfl⟩
abbrev main_v2052 : Ref sig .tc := ⟨.hbm, 2210, rfl⟩
abbrev main_v2053 : Ref sig .tc := ⟨.hbm, 2211, rfl⟩
abbrev main_v2054 : Ref sig .tc := ⟨.hbm, 2212, rfl⟩
abbrev main_v2055 : Ref sig .tc := ⟨.hbm, 2213, rfl⟩
abbrev main_v2056 : Ref sig .tc := ⟨.hbm, 2214, rfl⟩
abbrev main_v2057 : Ref sig .tc := ⟨.hbm, 2215, rfl⟩
abbrev main_v2058 : Ref sig .tc := ⟨.hbm, 2216, rfl⟩
abbrev main_v2059 : Ref sig .tc := ⟨.hbm, 2217, rfl⟩
abbrev main_v2060 : Ref sig .tc := ⟨.hbm, 2218, rfl⟩
abbrev main_v2061 : Ref sig .tc := ⟨.hbm, 2219, rfl⟩
abbrev main_v2062 : Ref sig .tc := ⟨.hbm, 2220, rfl⟩
abbrev main_v2063 : Ref sig .tc := ⟨.hbm, 2221, rfl⟩
abbrev main_v2064 : Ref sig .tc := ⟨.hbm, 2222, rfl⟩
abbrev main_v2065 : Ref sig .tc := ⟨.hbm, 2223, rfl⟩
abbrev main_v2066 : Ref sig .tc := ⟨.hbm, 2224, rfl⟩
abbrev main_v2067 : Ref sig .tc := ⟨.hbm, 2225, rfl⟩
abbrev main_v2068 : Ref sig .tc := ⟨.hbm, 2226, rfl⟩
abbrev main_v2069 : Ref sig .tc := ⟨.hbm, 2227, rfl⟩
abbrev main_v2070 : Ref sig .tc := ⟨.hbm, 2228, rfl⟩
abbrev main_v2071 : Ref sig .tc := ⟨.hbm, 2229, rfl⟩
abbrev main_v2072 : Ref sig .tc := ⟨.hbm, 2230, rfl⟩
abbrev main_v2073 : Ref sig .tc := ⟨.hbm, 2231, rfl⟩
abbrev main_v2074 : Ref sig .tc := ⟨.hbm, 2232, rfl⟩
abbrev main_v2075 : Ref sig .tc := ⟨.hbm, 2233, rfl⟩
abbrev main_v2076 : Ref sig .tc := ⟨.hbm, 2234, rfl⟩
abbrev main_v2077 : Ref sig .tc := ⟨.hbm, 2235, rfl⟩
abbrev main_v2078 : Ref sig .tc := ⟨.hbm, 2236, rfl⟩
abbrev main_v2079 : Ref sig .tc := ⟨.hbm, 2237, rfl⟩
abbrev main_v2080 : Ref sig .tc := ⟨.hbm, 2238, rfl⟩
abbrev main_v2081 : Ref sig .tc := ⟨.hbm, 2239, rfl⟩
abbrev main_v2082 : Ref sig .tc := ⟨.hbm, 2240, rfl⟩
abbrev main_v2083 : Ref sig .tc := ⟨.hbm, 2241, rfl⟩
abbrev main_v2084 : Ref sig .tc := ⟨.hbm, 2242, rfl⟩
abbrev main_v2085 : Ref sig .tc := ⟨.hbm, 2243, rfl⟩
abbrev main_v2086 : Ref sig .tc := ⟨.hbm, 2244, rfl⟩
abbrev main_v2087 : Ref sig .tc := ⟨.hbm, 2245, rfl⟩
abbrev main_v2088 : Ref sig .tc := ⟨.hbm, 2246, rfl⟩
abbrev main_v2089 : Ref sig .tc := ⟨.hbm, 2247, rfl⟩
abbrev main_v2090 : Ref sig .tc := ⟨.hbm, 2248, rfl⟩
abbrev main_v2091 : Ref sig .tc := ⟨.hbm, 2249, rfl⟩
abbrev main_cst_132 : Ref sig .tc := ⟨.hbm, 2250, rfl⟩
abbrev main_v2092 : Ref sig .tc := ⟨.hbm, 2251, rfl⟩
abbrev main_v2093 : Ref sig .tc := ⟨.hbm, 2252, rfl⟩
abbrev main_cst_133 : Ref sig .tc := ⟨.hbm, 2253, rfl⟩
abbrev main_v2094 : Ref sig .tc := ⟨.hbm, 2254, rfl⟩
abbrev main_v2095 : Ref sig .tc := ⟨.hbm, 2255, rfl⟩
abbrev main_v2096 : Ref sig .tc := ⟨.hbm, 2256, rfl⟩
abbrev main_v2097 : Ref sig .tc := ⟨.hbm, 2257, rfl⟩
abbrev main_v2098 : Ref sig .tc := ⟨.hbm, 2258, rfl⟩
abbrev main_v2099 : Ref sig .tc := ⟨.hbm, 2259, rfl⟩
abbrev main_v2100 : Ref sig .tc := ⟨.hbm, 2260, rfl⟩
abbrev main_v2101 : Ref sig .tc := ⟨.hbm, 2261, rfl⟩
abbrev main_v2102 : Ref sig .tc := ⟨.hbm, 2262, rfl⟩
abbrev main_v2103 : Ref sig .tc := ⟨.hbm, 2263, rfl⟩
abbrev main_v2104 : Ref sig .tc := ⟨.hbm, 2264, rfl⟩
abbrev main_v2105 : Ref sig .tc := ⟨.hbm, 2265, rfl⟩
abbrev main_v2106 : Ref sig .tc := ⟨.hbm, 2266, rfl⟩
abbrev main_v2107 : Ref sig .tc := ⟨.hbm, 2267, rfl⟩
abbrev main_v2108 : Ref sig .tc := ⟨.hbm, 2268, rfl⟩
abbrev main_v2109 : Ref sig .tc := ⟨.hbm, 2269, rfl⟩
abbrev main_v2110 : Ref sig .tc := ⟨.hbm, 2270, rfl⟩
abbrev main_v2111 : Ref sig .tc := ⟨.hbm, 2271, rfl⟩
abbrev main_v2112 : Ref sig .tc := ⟨.hbm, 2272, rfl⟩
abbrev main_v2113 : Ref sig .tc := ⟨.hbm, 2273, rfl⟩
abbrev main_v2114 : Ref sig .tc := ⟨.hbm, 2274, rfl⟩
abbrev main_v2115 : Ref sig .tc := ⟨.hbm, 2275, rfl⟩
abbrev main_v2116 : Ref sig .tc := ⟨.hbm, 2276, rfl⟩
abbrev main_v2117 : Ref sig .tc := ⟨.hbm, 2277, rfl⟩
abbrev main_v2118 : Ref sig .tc := ⟨.hbm, 2278, rfl⟩
abbrev main_v2119 : Ref sig .tc := ⟨.hbm, 2279, rfl⟩
abbrev main_v2120 : Ref sig .tc := ⟨.hbm, 2280, rfl⟩
abbrev main_v2121 : Ref sig .tc := ⟨.hbm, 2281, rfl⟩
abbrev main_v2122 : Ref sig .tc := ⟨.hbm, 2282, rfl⟩
abbrev main_v2123 : Ref sig .tc := ⟨.hbm, 2283, rfl⟩
abbrev main_v2124 : Ref sig .tc := ⟨.hbm, 2284, rfl⟩
abbrev main_v2125 : Ref sig .tc := ⟨.hbm, 2285, rfl⟩
abbrev main_v2126 : Ref sig .tc := ⟨.hbm, 2286, rfl⟩
abbrev main_v2127 : Ref sig .tc := ⟨.hbm, 2287, rfl⟩
abbrev main_v2128 : Ref sig .tc := ⟨.hbm, 2288, rfl⟩
abbrev main_v2129 : Ref sig .tc := ⟨.hbm, 2289, rfl⟩
abbrev main_cst_134 : Ref sig .tc := ⟨.hbm, 2290, rfl⟩
abbrev main_v2130 : Ref sig .tc := ⟨.hbm, 2291, rfl⟩
abbrev main_v2131 : Ref sig .tc := ⟨.hbm, 2292, rfl⟩
abbrev main_cst_135 : Ref sig .tc := ⟨.hbm, 2293, rfl⟩
abbrev main_v2132 : Ref sig .tc := ⟨.hbm, 2294, rfl⟩
abbrev main_v2133 : Ref sig .tc := ⟨.hbm, 2295, rfl⟩
abbrev main_v2134 : Ref sig .tc := ⟨.hbm, 2296, rfl⟩
abbrev main_v2135 : Ref sig .tc := ⟨.hbm, 2297, rfl⟩
abbrev main_v2136 : Ref sig .tc := ⟨.hbm, 2298, rfl⟩
abbrev main_v2137 : Ref sig .tc := ⟨.hbm, 2299, rfl⟩
abbrev main_v2138 : Ref sig .tc := ⟨.hbm, 2300, rfl⟩
abbrev main_v2139 : Ref sig .tc := ⟨.hbm, 2301, rfl⟩
abbrev main_v2140 : Ref sig .tc := ⟨.hbm, 2302, rfl⟩
abbrev main_v2141 : Ref sig .tc := ⟨.hbm, 2303, rfl⟩
abbrev main_v2142 : Ref sig .tc := ⟨.hbm, 2304, rfl⟩
abbrev main_v2143 : Ref sig .tc := ⟨.hbm, 2305, rfl⟩
abbrev main_v2144 : Ref sig .tc := ⟨.hbm, 2306, rfl⟩
abbrev main_v2145 : Ref sig .tc := ⟨.hbm, 2307, rfl⟩
abbrev main_v2146 : Ref sig .tc := ⟨.hbm, 2308, rfl⟩
abbrev main_v2147 : Ref sig .tc := ⟨.hbm, 2309, rfl⟩
abbrev main_v2148 : Ref sig .tc := ⟨.hbm, 2310, rfl⟩
abbrev main_v2149 : Ref sig .tc := ⟨.hbm, 2311, rfl⟩
abbrev main_v2150 : Ref sig .tc := ⟨.hbm, 2312, rfl⟩
abbrev main_v2151 : Ref sig .tc := ⟨.hbm, 2313, rfl⟩
abbrev main_v2152 : Ref sig .tc := ⟨.hbm, 2314, rfl⟩
abbrev main_v2153 : Ref sig .tc := ⟨.hbm, 2315, rfl⟩
abbrev main_v2154 : Ref sig .tc := ⟨.hbm, 2316, rfl⟩
abbrev main_v2155 : Ref sig .tc := ⟨.hbm, 2317, rfl⟩
abbrev main_v2156 : Ref sig .tc := ⟨.hbm, 2318, rfl⟩
abbrev main_cst_136 : Ref sig .tc := ⟨.hbm, 2319, rfl⟩
abbrev main_v2157 : Ref sig .tc := ⟨.hbm, 2320, rfl⟩
abbrev main_v2158 : Ref sig .tc := ⟨.hbm, 2321, rfl⟩
abbrev main_cst_137 : Ref sig .tc := ⟨.hbm, 2322, rfl⟩
abbrev main_v2159 : Ref sig .tc := ⟨.hbm, 2323, rfl⟩
abbrev main_v2160 : Ref sig .tc := ⟨.hbm, 2324, rfl⟩
abbrev main_v2161 : Ref sig .tc := ⟨.hbm, 2325, rfl⟩
abbrev main_v2162 : Ref sig .tc := ⟨.hbm, 2326, rfl⟩
abbrev main_v2163 : Ref sig .tc := ⟨.hbm, 2327, rfl⟩
abbrev main_v2164 : Ref sig .tc := ⟨.hbm, 2328, rfl⟩
abbrev main_v2165 : Ref sig .tc := ⟨.hbm, 2329, rfl⟩
abbrev main_v2166 : Ref sig .tc := ⟨.hbm, 2330, rfl⟩
abbrev main_v2167 : Ref sig .tc := ⟨.hbm, 2331, rfl⟩
abbrev main_v2168 : Ref sig .tc := ⟨.hbm, 2332, rfl⟩
abbrev main_v2169 : Ref sig .tc := ⟨.hbm, 2333, rfl⟩
abbrev main_v2170 : Ref sig .tc := ⟨.hbm, 2334, rfl⟩
abbrev main_v2171 : Ref sig .tc := ⟨.hbm, 2335, rfl⟩
abbrev main_v2172 : Ref sig .tc := ⟨.hbm, 2336, rfl⟩
abbrev main_v2173 : Ref sig .tc := ⟨.hbm, 2337, rfl⟩
abbrev main_v2174 : Ref sig .tc := ⟨.hbm, 2338, rfl⟩
abbrev main_v2175 : Ref sig .tc := ⟨.hbm, 2339, rfl⟩
abbrev main_v2176 : Ref sig .tc := ⟨.hbm, 2340, rfl⟩
abbrev main_v2177 : Ref sig .tc := ⟨.hbm, 2341, rfl⟩
abbrev main_v2178 : Ref sig .tc := ⟨.hbm, 2342, rfl⟩
abbrev main_v2179 : Ref sig .tc := ⟨.hbm, 2343, rfl⟩
abbrev main_v2180 : Ref sig .tc := ⟨.hbm, 2344, rfl⟩
abbrev main_v2181 : Ref sig .tc := ⟨.hbm, 2345, rfl⟩
abbrev main_cst_138 : Ref sig .tc := ⟨.hbm, 2346, rfl⟩
abbrev main_v2182 : Ref sig .tc := ⟨.hbm, 2347, rfl⟩
abbrev main_v2183 : Ref sig .tc := ⟨.hbm, 2348, rfl⟩
abbrev main_cst_139 : Ref sig .tc := ⟨.hbm, 2349, rfl⟩
abbrev main_v2184 : Ref sig .tc := ⟨.hbm, 2350, rfl⟩
abbrev main_v2185 : Ref sig .tc := ⟨.hbm, 2351, rfl⟩
abbrev main_v2186 : Ref sig .tc := ⟨.hbm, 2352, rfl⟩
abbrev main_v2187 : Ref sig .tc := ⟨.hbm, 2353, rfl⟩
abbrev main_v2188 : Ref sig .tc := ⟨.hbm, 2354, rfl⟩
abbrev main_v2189 : Ref sig .tc := ⟨.hbm, 2355, rfl⟩
abbrev main_v2190 : Ref sig .tc := ⟨.hbm, 2356, rfl⟩
abbrev main_v2191 : Ref sig .tc := ⟨.hbm, 2357, rfl⟩
abbrev main_v2192 : Ref sig .tc := ⟨.hbm, 2358, rfl⟩
abbrev main_v2193 : Ref sig .tc := ⟨.hbm, 2359, rfl⟩
abbrev main_v2194 : Ref sig .tc := ⟨.hbm, 2360, rfl⟩
abbrev main_v2195 : Ref sig .tc := ⟨.hbm, 2361, rfl⟩
abbrev main_v2196 : Ref sig .tc := ⟨.hbm, 2362, rfl⟩
abbrev main_v2197 : Ref sig .tc := ⟨.hbm, 2363, rfl⟩
abbrev main_v2198 : Ref sig .tc := ⟨.hbm, 2364, rfl⟩
abbrev main_cst_140 : Ref sig .tc := ⟨.hbm, 2365, rfl⟩
abbrev main_v2199 : Ref sig .tc := ⟨.hbm, 2366, rfl⟩
abbrev main_v2200 : Ref sig .tc := ⟨.hbm, 2367, rfl⟩
abbrev main_v2201 : Ref sig .tc := ⟨.hbm, 2368, rfl⟩
abbrev main_v2202 : Ref sig .tc := ⟨.hbm, 2369, rfl⟩
abbrev main_v2203 : Ref sig .tc := ⟨.hbm, 2370, rfl⟩
abbrev main_v2204 : Ref sig .tc := ⟨.hbm, 2371, rfl⟩
abbrev main_v2205 : Ref sig .tc := ⟨.hbm, 2372, rfl⟩
abbrev main_v2206 : Ref sig .tc := ⟨.hbm, 2373, rfl⟩
abbrev main_v2207 : Ref sig .tc := ⟨.hbm, 2374, rfl⟩
abbrev main_v2208 : Ref sig .tc := ⟨.hbm, 2375, rfl⟩
abbrev main_v2209 : Ref sig .tc := ⟨.hbm, 2376, rfl⟩
abbrev main_v2210 : Ref sig .tc := ⟨.hbm, 2377, rfl⟩
abbrev main_v2211 : Ref sig .tc := ⟨.hbm, 2378, rfl⟩
abbrev main_v2212 : Ref sig .tc := ⟨.hbm, 2379, rfl⟩
abbrev main_v2213 : Ref sig .tc := ⟨.hbm, 2380, rfl⟩
abbrev main_v2214 : Ref sig .tc := ⟨.hbm, 2381, rfl⟩
abbrev main_v2215 : Ref sig .tc := ⟨.hbm, 2382, rfl⟩
abbrev main_v2216 : Ref sig .tc := ⟨.hbm, 2383, rfl⟩
abbrev main_v2217 : Ref sig .tc := ⟨.hbm, 2384, rfl⟩
abbrev main_v2218 : Ref sig .tc := ⟨.hbm, 2385, rfl⟩
abbrev main_v2219 : Ref sig .tc := ⟨.hbm, 2386, rfl⟩
abbrev main_v2220 : Ref sig .tc := ⟨.hbm, 2387, rfl⟩
abbrev main_v2221 : Ref sig .tc := ⟨.hbm, 2388, rfl⟩
abbrev main_v2222 : Ref sig .tc := ⟨.hbm, 2389, rfl⟩
abbrev main_v2223 : Ref sig .tc := ⟨.hbm, 2390, rfl⟩
abbrev main_v2224 : Ref sig .tc := ⟨.hbm, 2391, rfl⟩
abbrev main_v2225 : Ref sig .tc := ⟨.hbm, 2392, rfl⟩
abbrev main_v2226 : Ref sig .tc := ⟨.hbm, 2393, rfl⟩
abbrev main_v2227 : Ref sig .tc := ⟨.hbm, 2394, rfl⟩
abbrev main_v2228 : Ref sig .tc := ⟨.hbm, 2395, rfl⟩
abbrev main_v2229 : Ref sig .tc := ⟨.hbm, 2396, rfl⟩
abbrev main_v2230 : Ref sig .tc := ⟨.hbm, 2397, rfl⟩
abbrev main_v2231 : Ref sig .tc := ⟨.hbm, 2398, rfl⟩
abbrev main_v2232 : Ref sig .tc := ⟨.hbm, 2399, rfl⟩
abbrev main_v2233 : Ref sig .tc := ⟨.hbm, 2400, rfl⟩
abbrev main_v2234 : Ref sig .tc := ⟨.hbm, 2401, rfl⟩
abbrev main_v2235 : Ref sig .tc := ⟨.hbm, 2402, rfl⟩
abbrev main_v2236 : Ref sig .tc := ⟨.hbm, 2403, rfl⟩
abbrev main_v2237 : Ref sig .tc := ⟨.hbm, 2404, rfl⟩
abbrev main_v2238 : Ref sig .tc := ⟨.hbm, 2405, rfl⟩
abbrev main_cst_141 : Ref sig .tc := ⟨.hbm, 2406, rfl⟩
abbrev main_v2239 : Ref sig .tc := ⟨.hbm, 2407, rfl⟩
abbrev main_v2240 : Ref sig .tc := ⟨.hbm, 2408, rfl⟩
abbrev main_cst_142 : Ref sig .tc := ⟨.hbm, 2409, rfl⟩
abbrev main_v2241 : Ref sig .tc := ⟨.hbm, 2410, rfl⟩
abbrev main_v2242 : Ref sig .tc := ⟨.hbm, 2411, rfl⟩
abbrev main_v2243 : Ref sig .tc := ⟨.hbm, 2412, rfl⟩
abbrev main_v2244 : Ref sig .tc := ⟨.hbm, 2413, rfl⟩
abbrev main_v2245 : Ref sig .tc := ⟨.hbm, 2414, rfl⟩
abbrev main_v2246 : Ref sig .tc := ⟨.hbm, 2415, rfl⟩
abbrev main_v2247 : Ref sig .tc := ⟨.hbm, 2416, rfl⟩
abbrev main_v2248 : Ref sig .tc := ⟨.hbm, 2417, rfl⟩
abbrev main_v2249 : Ref sig .tc := ⟨.hbm, 2418, rfl⟩
abbrev main_v2250 : Ref sig .tc := ⟨.hbm, 2419, rfl⟩
abbrev main_v2251 : Ref sig .tc := ⟨.hbm, 2420, rfl⟩
abbrev main_v2252 : Ref sig .tc := ⟨.hbm, 2421, rfl⟩
abbrev main_v2253 : Ref sig .tc := ⟨.hbm, 2422, rfl⟩
abbrev main_v2254 : Ref sig .tc := ⟨.hbm, 2423, rfl⟩
abbrev main_v2255 : Ref sig .tc := ⟨.hbm, 2424, rfl⟩
abbrev main_v2256 : Ref sig .tc := ⟨.hbm, 2425, rfl⟩
abbrev main_v2257 : Ref sig .tc := ⟨.hbm, 2426, rfl⟩
abbrev main_v2258 : Ref sig .tc := ⟨.hbm, 2427, rfl⟩
abbrev main_v2259 : Ref sig .tc := ⟨.hbm, 2428, rfl⟩
abbrev main_v2260 : Ref sig .tc := ⟨.hbm, 2429, rfl⟩
abbrev main_v2261 : Ref sig .tc := ⟨.hbm, 2430, rfl⟩
abbrev main_v2262 : Ref sig .tc := ⟨.hbm, 2431, rfl⟩
abbrev main_v2263 : Ref sig .tc := ⟨.hbm, 2432, rfl⟩
abbrev main_v2264 : Ref sig .tc := ⟨.hbm, 2433, rfl⟩
abbrev main_v2265 : Ref sig .tc := ⟨.hbm, 2434, rfl⟩
abbrev main_v2266 : Ref sig .tc := ⟨.hbm, 2435, rfl⟩
abbrev main_cst_143 : Ref sig .tc := ⟨.hbm, 2436, rfl⟩
abbrev main_v2267 : Ref sig .tc := ⟨.hbm, 2437, rfl⟩
abbrev main_v2268 : Ref sig .tc := ⟨.hbm, 2438, rfl⟩
abbrev main_cst_144 : Ref sig .tc := ⟨.hbm, 2439, rfl⟩
abbrev main_v2269 : Ref sig .tc := ⟨.hbm, 2440, rfl⟩
abbrev main_v2270 : Ref sig .tc := ⟨.hbm, 2441, rfl⟩
abbrev main_v2271 : Ref sig .tc := ⟨.hbm, 2442, rfl⟩
abbrev main_v2272 : Ref sig .tc := ⟨.hbm, 2443, rfl⟩
abbrev main_v2273 : Ref sig .tc := ⟨.hbm, 2444, rfl⟩
abbrev main_v2274 : Ref sig .tc := ⟨.hbm, 2445, rfl⟩
abbrev main_v2275 : Ref sig .tc := ⟨.hbm, 2446, rfl⟩
abbrev main_v2276 : Ref sig .tc := ⟨.hbm, 2447, rfl⟩
abbrev main_v2277 : Ref sig .tc := ⟨.hbm, 2448, rfl⟩
abbrev main_v2278 : Ref sig .tc := ⟨.hbm, 2449, rfl⟩
abbrev main_v2279 : Ref sig .tc := ⟨.hbm, 2450, rfl⟩
abbrev main_v2280 : Ref sig .tc := ⟨.hbm, 2451, rfl⟩
abbrev main_v2281 : Ref sig .tc := ⟨.hbm, 2452, rfl⟩
abbrev main_v2282 : Ref sig .tc := ⟨.hbm, 2453, rfl⟩
abbrev main_v2283 : Ref sig .tc := ⟨.hbm, 2454, rfl⟩
abbrev main_v2284 : Ref sig .tc := ⟨.hbm, 2455, rfl⟩
abbrev main_v2285 : Ref sig .tc := ⟨.hbm, 2456, rfl⟩
abbrev main_v2286 : Ref sig .tc := ⟨.hbm, 2457, rfl⟩
abbrev main_v2287 : Ref sig .tc := ⟨.hbm, 2458, rfl⟩
abbrev main_v2288 : Ref sig .tc := ⟨.hbm, 2459, rfl⟩
abbrev main_v2289 : Ref sig .tc := ⟨.hbm, 2460, rfl⟩
abbrev main_v2290 : Ref sig .tc := ⟨.hbm, 2461, rfl⟩
abbrev main_v2291 : Ref sig .tc := ⟨.hbm, 2462, rfl⟩
abbrev main_v2292 : Ref sig .tc := ⟨.hbm, 2463, rfl⟩
abbrev main_v2293 : Ref sig .tc := ⟨.hbm, 2464, rfl⟩
abbrev main_cst_145 : Ref sig .tc := ⟨.hbm, 2465, rfl⟩
abbrev main_v2294 : Ref sig .tc := ⟨.hbm, 2466, rfl⟩
abbrev main_v2295 : Ref sig .tc := ⟨.hbm, 2467, rfl⟩
abbrev main_cst_146 : Ref sig .tc := ⟨.hbm, 2468, rfl⟩
abbrev main_v2296 : Ref sig .tc := ⟨.hbm, 2469, rfl⟩
abbrev main_v2297 : Ref sig .tc := ⟨.hbm, 2470, rfl⟩
abbrev main_v2298 : Ref sig .tc := ⟨.hbm, 2471, rfl⟩
abbrev main_v2299 : Ref sig .tc := ⟨.hbm, 2472, rfl⟩
abbrev main_v2300 : Ref sig .tc := ⟨.hbm, 2473, rfl⟩
abbrev main_v2301 : Ref sig .tc := ⟨.hbm, 2474, rfl⟩
abbrev main_v2302 : Ref sig .tc := ⟨.hbm, 2475, rfl⟩
abbrev main_v2303 : Ref sig .tc := ⟨.hbm, 2476, rfl⟩
abbrev main_v2304 : Ref sig .tc := ⟨.hbm, 2477, rfl⟩
abbrev main_v2305 : Ref sig .tc := ⟨.hbm, 2478, rfl⟩
abbrev main_v2306 : Ref sig .tc := ⟨.hbm, 2479, rfl⟩
abbrev main_v2307 : Ref sig .tc := ⟨.hbm, 2480, rfl⟩
abbrev main_v2308 : Ref sig .tc := ⟨.hbm, 2481, rfl⟩
abbrev main_v2309 : Ref sig .tc := ⟨.hbm, 2482, rfl⟩
abbrev main_v2310 : Ref sig .tc := ⟨.hbm, 2483, rfl⟩
abbrev main_v2311 : Ref sig .tc := ⟨.hbm, 2484, rfl⟩
abbrev main_v2312 : Ref sig .tc := ⟨.hbm, 2485, rfl⟩
abbrev main_v2313 : Ref sig .tc := ⟨.hbm, 2486, rfl⟩
abbrev main_v2314 : Ref sig .tc := ⟨.hbm, 2487, rfl⟩
abbrev main_v2315 : Ref sig .tc := ⟨.hbm, 2488, rfl⟩
abbrev main_v2316 : Ref sig .tc := ⟨.hbm, 2489, rfl⟩
abbrev main_v2317 : Ref sig .tc := ⟨.hbm, 2490, rfl⟩
abbrev main_v2318 : Ref sig .tc := ⟨.hbm, 2491, rfl⟩
abbrev main_cst_147 : Ref sig .tc := ⟨.hbm, 2492, rfl⟩
abbrev main_v2319 : Ref sig .tc := ⟨.hbm, 2493, rfl⟩
abbrev main_v2320 : Ref sig .tc := ⟨.hbm, 2494, rfl⟩
abbrev main_cst_148 : Ref sig .tc := ⟨.hbm, 2495, rfl⟩
abbrev main_v2321 : Ref sig .tc := ⟨.hbm, 2496, rfl⟩
abbrev main_v2322 : Ref sig .tc := ⟨.hbm, 2497, rfl⟩
abbrev main_v2323 : Ref sig .tc := ⟨.hbm, 2498, rfl⟩
abbrev main_v2324 : Ref sig .tc := ⟨.hbm, 2499, rfl⟩
abbrev main_v2325 : Ref sig .tc := ⟨.hbm, 2500, rfl⟩
abbrev main_v2326 : Ref sig .tc := ⟨.hbm, 2501, rfl⟩
abbrev main_v2327 : Ref sig .tc := ⟨.hbm, 2502, rfl⟩
abbrev main_v2328 : Ref sig .tc := ⟨.hbm, 2503, rfl⟩
abbrev main_v2329 : Ref sig .tc := ⟨.hbm, 2504, rfl⟩
abbrev main_v2330 : Ref sig .tc := ⟨.hbm, 2505, rfl⟩
abbrev main_v2331 : Ref sig .tc := ⟨.hbm, 2506, rfl⟩
abbrev main_v2332 : Ref sig .tc := ⟨.hbm, 2507, rfl⟩
abbrev main_v2333 : Ref sig .tc := ⟨.hbm, 2508, rfl⟩
abbrev main_v2334 : Ref sig .tc := ⟨.hbm, 2509, rfl⟩
abbrev main_v2335 : Ref sig .tc := ⟨.hbm, 2510, rfl⟩
abbrev main_cst_149 : Ref sig .tc := ⟨.hbm, 2511, rfl⟩
abbrev main_v2336 : Ref sig .tc := ⟨.hbm, 2512, rfl⟩
abbrev main_v2337 : Ref sig .tc := ⟨.hbm, 2513, rfl⟩
abbrev main_v2338 : Ref sig .tc := ⟨.hbm, 2514, rfl⟩
abbrev main_v2339 : Ref sig .tc := ⟨.hbm, 2515, rfl⟩
abbrev main_v2340 : Ref sig .tc := ⟨.hbm, 2516, rfl⟩
abbrev main_v2341 : Ref sig .tc := ⟨.hbm, 2517, rfl⟩
abbrev main_v2342 : Ref sig .tc := ⟨.hbm, 2518, rfl⟩
abbrev main_v2343 : Ref sig .tc := ⟨.hbm, 2519, rfl⟩
abbrev main_v2344 : Ref sig .tc := ⟨.hbm, 2520, rfl⟩
abbrev main_v2345 : Ref sig .tc := ⟨.hbm, 2521, rfl⟩
abbrev main_v2346 : Ref sig .tc := ⟨.hbm, 2522, rfl⟩
abbrev main_v2347 : Ref sig .tc := ⟨.hbm, 2523, rfl⟩
abbrev main_v2348 : Ref sig .tc := ⟨.hbm, 2524, rfl⟩
abbrev main_v2349 : Ref sig .tc := ⟨.hbm, 2525, rfl⟩
abbrev main_v2350 : Ref sig .tc := ⟨.hbm, 2526, rfl⟩
abbrev main_v2351 : Ref sig .tc := ⟨.hbm, 2527, rfl⟩
abbrev main_v2352 : Ref sig .tc := ⟨.hbm, 2528, rfl⟩
abbrev main_v2353 : Ref sig .tc := ⟨.hbm, 2529, rfl⟩
abbrev main_v2354 : Ref sig .tc := ⟨.hbm, 2530, rfl⟩
abbrev main_v2355 : Ref sig .tc := ⟨.hbm, 2531, rfl⟩
abbrev main_v2356 : Ref sig .tc := ⟨.hbm, 2532, rfl⟩
abbrev main_v2357 : Ref sig .tc := ⟨.hbm, 2533, rfl⟩
abbrev main_v2358 : Ref sig .tc := ⟨.hbm, 2534, rfl⟩
abbrev main_v2359 : Ref sig .tc := ⟨.hbm, 2535, rfl⟩
abbrev main_v2360 : Ref sig .tc := ⟨.hbm, 2536, rfl⟩
abbrev main_v2361 : Ref sig .tc := ⟨.hbm, 2537, rfl⟩
abbrev main_v2362 : Ref sig .tc := ⟨.hbm, 2538, rfl⟩
abbrev main_v2363 : Ref sig .tc := ⟨.hbm, 2539, rfl⟩
abbrev main_v2364 : Ref sig .tc := ⟨.hbm, 2540, rfl⟩
abbrev main_v2365 : Ref sig .tc := ⟨.hbm, 2541, rfl⟩
abbrev main_v2366 : Ref sig .tc := ⟨.hbm, 2542, rfl⟩
abbrev main_v2367 : Ref sig .tc := ⟨.hbm, 2543, rfl⟩
abbrev main_v2368 : Ref sig .tc := ⟨.hbm, 2544, rfl⟩
abbrev main_v2369 : Ref sig .tc := ⟨.hbm, 2545, rfl⟩
abbrev main_v2370 : Ref sig .tc := ⟨.hbm, 2546, rfl⟩
abbrev main_v2371 : Ref sig .tc := ⟨.hbm, 2547, rfl⟩
abbrev main_v2372 : Ref sig .tc := ⟨.hbm, 2548, rfl⟩
abbrev main_v2373 : Ref sig .tc := ⟨.hbm, 2549, rfl⟩
abbrev main_v2374 : Ref sig .tc := ⟨.hbm, 2550, rfl⟩
abbrev main_v2375 : Ref sig .tc := ⟨.hbm, 2551, rfl⟩
abbrev main_cst_150 : Ref sig .tc := ⟨.hbm, 2552, rfl⟩
abbrev main_v2376 : Ref sig .tc := ⟨.hbm, 2553, rfl⟩
abbrev main_v2377 : Ref sig .tc := ⟨.hbm, 2554, rfl⟩
abbrev main_cst_151 : Ref sig .tc := ⟨.hbm, 2555, rfl⟩
abbrev main_v2378 : Ref sig .tc := ⟨.hbm, 2556, rfl⟩
abbrev main_v2379 : Ref sig .tc := ⟨.hbm, 2557, rfl⟩
abbrev main_v2380 : Ref sig .tc := ⟨.hbm, 2558, rfl⟩
abbrev main_v2381 : Ref sig .tc := ⟨.hbm, 2559, rfl⟩
abbrev main_v2382 : Ref sig .tc := ⟨.hbm, 2560, rfl⟩
abbrev main_v2383 : Ref sig .tc := ⟨.hbm, 2561, rfl⟩
abbrev main_v2384 : Ref sig .tc := ⟨.hbm, 2562, rfl⟩
abbrev main_v2385 : Ref sig .tc := ⟨.hbm, 2563, rfl⟩
abbrev main_v2386 : Ref sig .tc := ⟨.hbm, 2564, rfl⟩
abbrev main_v2387 : Ref sig .tc := ⟨.hbm, 2565, rfl⟩
abbrev main_v2388 : Ref sig .tc := ⟨.hbm, 2566, rfl⟩
abbrev main_v2389 : Ref sig .tc := ⟨.hbm, 2567, rfl⟩
abbrev main_v2390 : Ref sig .tc := ⟨.hbm, 2568, rfl⟩
abbrev main_v2391 : Ref sig .tc := ⟨.hbm, 2569, rfl⟩
abbrev main_v2392 : Ref sig .tc := ⟨.hbm, 2570, rfl⟩
abbrev main_v2393 : Ref sig .tc := ⟨.hbm, 2571, rfl⟩
abbrev main_v2394 : Ref sig .tc := ⟨.hbm, 2572, rfl⟩
abbrev main_v2395 : Ref sig .tc := ⟨.hbm, 2573, rfl⟩
abbrev main_v2396 : Ref sig .tc := ⟨.hbm, 2574, rfl⟩
abbrev main_v2397 : Ref sig .tc := ⟨.hbm, 2575, rfl⟩
abbrev main_v2398 : Ref sig .tc := ⟨.hbm, 2576, rfl⟩
abbrev main_v2399 : Ref sig .tc := ⟨.hbm, 2577, rfl⟩
abbrev main_v2400 : Ref sig .tc := ⟨.hbm, 2578, rfl⟩
abbrev main_v2401 : Ref sig .tc := ⟨.hbm, 2579, rfl⟩
abbrev main_v2402 : Ref sig .tc := ⟨.hbm, 2580, rfl⟩
abbrev main_v2403 : Ref sig .tc := ⟨.hbm, 2581, rfl⟩
abbrev main_cst_152 : Ref sig .tc := ⟨.hbm, 2582, rfl⟩
abbrev main_v2404 : Ref sig .tc := ⟨.hbm, 2583, rfl⟩
abbrev main_v2405 : Ref sig .tc := ⟨.hbm, 2584, rfl⟩
abbrev main_cst_153 : Ref sig .tc := ⟨.hbm, 2585, rfl⟩
abbrev main_v2406 : Ref sig .tc := ⟨.hbm, 2586, rfl⟩
abbrev main_v2407 : Ref sig .tc := ⟨.hbm, 2587, rfl⟩
abbrev main_v2408 : Ref sig .tc := ⟨.hbm, 2588, rfl⟩
abbrev main_v2409 : Ref sig .tc := ⟨.hbm, 2589, rfl⟩
abbrev main_v2410 : Ref sig .tc := ⟨.hbm, 2590, rfl⟩
abbrev main_v2411 : Ref sig .tc := ⟨.hbm, 2591, rfl⟩
abbrev main_v2412 : Ref sig .tc := ⟨.hbm, 2592, rfl⟩
abbrev main_v2413 : Ref sig .tc := ⟨.hbm, 2593, rfl⟩
abbrev main_v2414 : Ref sig .tc := ⟨.hbm, 2594, rfl⟩
abbrev main_v2415 : Ref sig .tc := ⟨.hbm, 2595, rfl⟩
abbrev main_v2416 : Ref sig .tc := ⟨.hbm, 2596, rfl⟩
abbrev main_v2417 : Ref sig .tc := ⟨.hbm, 2597, rfl⟩
abbrev main_v2418 : Ref sig .tc := ⟨.hbm, 2598, rfl⟩
abbrev main_v2419 : Ref sig .tc := ⟨.hbm, 2599, rfl⟩
abbrev main_v2420 : Ref sig .tc := ⟨.hbm, 2600, rfl⟩
abbrev main_v2421 : Ref sig .tc := ⟨.hbm, 2601, rfl⟩
abbrev main_v2422 : Ref sig .tc := ⟨.hbm, 2602, rfl⟩
abbrev main_v2423 : Ref sig .tc := ⟨.hbm, 2603, rfl⟩
abbrev main_v2424 : Ref sig .tc := ⟨.hbm, 2604, rfl⟩
abbrev main_v2425 : Ref sig .tc := ⟨.hbm, 2605, rfl⟩
abbrev main_v2426 : Ref sig .tc := ⟨.hbm, 2606, rfl⟩
abbrev main_v2427 : Ref sig .tc := ⟨.hbm, 2607, rfl⟩
abbrev main_v2428 : Ref sig .tc := ⟨.hbm, 2608, rfl⟩
abbrev main_v2429 : Ref sig .tc := ⟨.hbm, 2609, rfl⟩
abbrev main_v2430 : Ref sig .tc := ⟨.hbm, 2610, rfl⟩
abbrev main_cst_154 : Ref sig .tc := ⟨.hbm, 2611, rfl⟩
abbrev main_v2431 : Ref sig .tc := ⟨.hbm, 2612, rfl⟩
abbrev main_v2432 : Ref sig .tc := ⟨.hbm, 2613, rfl⟩
abbrev main_cst_155 : Ref sig .tc := ⟨.hbm, 2614, rfl⟩
abbrev main_v2433 : Ref sig .tc := ⟨.hbm, 2615, rfl⟩
abbrev main_v2434 : Ref sig .tc := ⟨.hbm, 2616, rfl⟩
abbrev main_v2435 : Ref sig .tc := ⟨.hbm, 2617, rfl⟩
abbrev main_v2436 : Ref sig .tc := ⟨.hbm, 2618, rfl⟩
abbrev main_v2437 : Ref sig .tc := ⟨.hbm, 2619, rfl⟩
abbrev main_v2438 : Ref sig .tc := ⟨.hbm, 2620, rfl⟩
abbrev main_v2439 : Ref sig .tc := ⟨.hbm, 2621, rfl⟩
abbrev main_v2440 : Ref sig .tc := ⟨.hbm, 2622, rfl⟩
abbrev main_v2441 : Ref sig .tc := ⟨.hbm, 2623, rfl⟩
abbrev main_v2442 : Ref sig .tc := ⟨.hbm, 2624, rfl⟩
abbrev main_v2443 : Ref sig .tc := ⟨.hbm, 2625, rfl⟩
abbrev main_v2444 : Ref sig .tc := ⟨.hbm, 2626, rfl⟩
abbrev main_v2445 : Ref sig .tc := ⟨.hbm, 2627, rfl⟩
abbrev main_v2446 : Ref sig .tc := ⟨.hbm, 2628, rfl⟩
abbrev main_v2447 : Ref sig .tc := ⟨.hbm, 2629, rfl⟩
abbrev main_v2448 : Ref sig .tc := ⟨.hbm, 2630, rfl⟩
abbrev main_v2449 : Ref sig .tc := ⟨.hbm, 2631, rfl⟩
abbrev main_v2450 : Ref sig .tc := ⟨.hbm, 2632, rfl⟩
abbrev main_v2451 : Ref sig .tc := ⟨.hbm, 2633, rfl⟩
abbrev main_v2452 : Ref sig .tc := ⟨.hbm, 2634, rfl⟩
abbrev main_v2453 : Ref sig .tc := ⟨.hbm, 2635, rfl⟩
abbrev main_v2454 : Ref sig .tc := ⟨.hbm, 2636, rfl⟩
abbrev main_v2455 : Ref sig .tc := ⟨.hbm, 2637, rfl⟩
abbrev main_cst_156 : Ref sig .tc := ⟨.hbm, 2638, rfl⟩
abbrev main_v2456 : Ref sig .tc := ⟨.hbm, 2639, rfl⟩
abbrev main_v2457 : Ref sig .tc := ⟨.hbm, 2640, rfl⟩
abbrev main_cst_157 : Ref sig .tc := ⟨.hbm, 2641, rfl⟩
abbrev main_v2458 : Ref sig .tc := ⟨.hbm, 2642, rfl⟩
abbrev main_v2459 : Ref sig .tc := ⟨.hbm, 2643, rfl⟩
abbrev main_v2460 : Ref sig .tc := ⟨.hbm, 2644, rfl⟩
abbrev main_v2461 : Ref sig .tc := ⟨.hbm, 2645, rfl⟩
abbrev main_v2462 : Ref sig .tc := ⟨.hbm, 2646, rfl⟩
abbrev main_v2463 : Ref sig .tc := ⟨.hbm, 2647, rfl⟩
abbrev main_v2464 : Ref sig .tc := ⟨.hbm, 2648, rfl⟩
abbrev main_v2465 : Ref sig .tc := ⟨.hbm, 2649, rfl⟩
abbrev main_v2466 : Ref sig .tc := ⟨.hbm, 2650, rfl⟩
abbrev main_v2467 : Ref sig .tc := ⟨.hbm, 2651, rfl⟩
abbrev main_v2468 : Ref sig .tc := ⟨.hbm, 2652, rfl⟩
abbrev main_v2469 : Ref sig .tc := ⟨.hbm, 2653, rfl⟩
abbrev main_v2470 : Ref sig .tc := ⟨.hbm, 2654, rfl⟩
abbrev main_v2471 : Ref sig .tc := ⟨.hbm, 2655, rfl⟩
abbrev main_v2472 : Ref sig .tc := ⟨.hbm, 2656, rfl⟩
abbrev main_cst_158 : Ref sig .tc := ⟨.hbm, 2657, rfl⟩
abbrev main_v2473 : Ref sig .tc := ⟨.hbm, 2658, rfl⟩
abbrev main_v2474 : Ref sig .tc := ⟨.hbm, 2659, rfl⟩
abbrev main_v2475 : Ref sig .tc := ⟨.hbm, 2660, rfl⟩
abbrev main_v2476 : Ref sig .tc := ⟨.hbm, 2661, rfl⟩
abbrev main_v2477 : Ref sig .tc := ⟨.hbm, 2662, rfl⟩
abbrev main_v2478 : Ref sig .tc := ⟨.hbm, 2663, rfl⟩
abbrev main_v2479 : Ref sig .tc := ⟨.hbm, 2664, rfl⟩
abbrev main_v2480 : Ref sig .tc := ⟨.hbm, 2665, rfl⟩
abbrev main_v2481 : Ref sig .tc := ⟨.hbm, 2666, rfl⟩
abbrev main_v2482 : Ref sig .tc := ⟨.hbm, 2667, rfl⟩
abbrev main_v2483 : Ref sig .tc := ⟨.hbm, 2668, rfl⟩
abbrev main_v2484 : Ref sig .tc := ⟨.hbm, 2669, rfl⟩
abbrev main_v2485 : Ref sig .tc := ⟨.hbm, 2670, rfl⟩
abbrev main_v2486 : Ref sig .tc := ⟨.hbm, 2671, rfl⟩
abbrev main_v2487 : Ref sig .tc := ⟨.hbm, 2672, rfl⟩
abbrev main_v2488 : Ref sig .tc := ⟨.hbm, 2673, rfl⟩
abbrev main_v2489 : Ref sig .tc := ⟨.hbm, 2674, rfl⟩
abbrev main_v2490 : Ref sig .tc := ⟨.hbm, 2675, rfl⟩
abbrev main_v2491 : Ref sig .tc := ⟨.hbm, 2676, rfl⟩
abbrev main_v2492 : Ref sig .tc := ⟨.hbm, 2677, rfl⟩
abbrev main_v2493 : Ref sig .tc := ⟨.hbm, 2678, rfl⟩
abbrev main_v2494 : Ref sig .tc := ⟨.hbm, 2679, rfl⟩
abbrev main_v2495 : Ref sig .tc := ⟨.hbm, 2680, rfl⟩
abbrev main_v2496 : Ref sig .tc := ⟨.hbm, 2681, rfl⟩
abbrev main_v2497 : Ref sig .tc := ⟨.hbm, 2682, rfl⟩
abbrev main_v2498 : Ref sig .tc := ⟨.hbm, 2683, rfl⟩
abbrev main_v2499 : Ref sig .tc := ⟨.hbm, 2684, rfl⟩
abbrev main_v2500 : Ref sig .tc := ⟨.hbm, 2685, rfl⟩
abbrev main_v2501 : Ref sig .tc := ⟨.hbm, 2686, rfl⟩
abbrev main_v2502 : Ref sig .tc := ⟨.hbm, 2687, rfl⟩
abbrev main_v2503 : Ref sig .tc := ⟨.hbm, 2688, rfl⟩
abbrev main_v2504 : Ref sig .tc := ⟨.hbm, 2689, rfl⟩
abbrev main_v2505 : Ref sig .tc := ⟨.hbm, 2690, rfl⟩
abbrev main_v2506 : Ref sig .tc := ⟨.hbm, 2691, rfl⟩
abbrev main_v2507 : Ref sig .tc := ⟨.hbm, 2692, rfl⟩
abbrev main_v2508 : Ref sig .tc := ⟨.hbm, 2693, rfl⟩
abbrev main_v2509 : Ref sig .tc := ⟨.hbm, 2694, rfl⟩
abbrev main_v2510 : Ref sig .tc := ⟨.hbm, 2695, rfl⟩
abbrev main_v2511 : Ref sig .tc := ⟨.hbm, 2696, rfl⟩
abbrev main_v2512 : Ref sig .tc := ⟨.hbm, 2697, rfl⟩
abbrev main_cst_159 : Ref sig .tc := ⟨.hbm, 2698, rfl⟩
abbrev main_v2513 : Ref sig .tc := ⟨.hbm, 2699, rfl⟩
abbrev main_v2514 : Ref sig .tc := ⟨.hbm, 2700, rfl⟩
abbrev main_cst_160 : Ref sig .tc := ⟨.hbm, 2701, rfl⟩
abbrev main_v2515 : Ref sig .tc := ⟨.hbm, 2702, rfl⟩
abbrev main_v2516 : Ref sig .tc := ⟨.hbm, 2703, rfl⟩
abbrev main_v2517 : Ref sig .tc := ⟨.hbm, 2704, rfl⟩
abbrev main_v2518 : Ref sig .tc := ⟨.hbm, 2705, rfl⟩
abbrev main_v2519 : Ref sig .tc := ⟨.hbm, 2706, rfl⟩
abbrev main_v2520 : Ref sig .tc := ⟨.hbm, 2707, rfl⟩
abbrev main_v2521 : Ref sig .tc := ⟨.hbm, 2708, rfl⟩
abbrev main_v2522 : Ref sig .tc := ⟨.hbm, 2709, rfl⟩
abbrev main_v2523 : Ref sig .tc := ⟨.hbm, 2710, rfl⟩
abbrev main_v2524 : Ref sig .tc := ⟨.hbm, 2711, rfl⟩
abbrev main_v2525 : Ref sig .tc := ⟨.hbm, 2712, rfl⟩
abbrev main_v2526 : Ref sig .tc := ⟨.hbm, 2713, rfl⟩
abbrev main_v2527 : Ref sig .tc := ⟨.hbm, 2714, rfl⟩
abbrev main_v2528 : Ref sig .tc := ⟨.hbm, 2715, rfl⟩
abbrev main_v2529 : Ref sig .tc := ⟨.hbm, 2716, rfl⟩
abbrev main_v2530 : Ref sig .tc := ⟨.hbm, 2717, rfl⟩
abbrev main_v2531 : Ref sig .tc := ⟨.hbm, 2718, rfl⟩
abbrev main_v2532 : Ref sig .tc := ⟨.hbm, 2719, rfl⟩
abbrev main_v2533 : Ref sig .tc := ⟨.hbm, 2720, rfl⟩
abbrev main_v2534 : Ref sig .tc := ⟨.hbm, 2721, rfl⟩
abbrev main_v2535 : Ref sig .tc := ⟨.hbm, 2722, rfl⟩
abbrev main_v2536 : Ref sig .tc := ⟨.hbm, 2723, rfl⟩
abbrev main_v2537 : Ref sig .tc := ⟨.hbm, 2724, rfl⟩
abbrev main_v2538 : Ref sig .tc := ⟨.hbm, 2725, rfl⟩
abbrev main_v2539 : Ref sig .tc := ⟨.hbm, 2726, rfl⟩
abbrev main_v2540 : Ref sig .tc := ⟨.hbm, 2727, rfl⟩
abbrev main_v2541 : Ref sig .tc := ⟨.hbm, 2728, rfl⟩
abbrev main_v2542 : Ref sig .tc := ⟨.hbm, 2729, rfl⟩
abbrev main_v2543 : Ref sig .tc := ⟨.hbm, 2730, rfl⟩
abbrev main_v2544 : Ref sig .tc := ⟨.hbm, 2731, rfl⟩
abbrev main_v2545 : Ref sig .tc := ⟨.hbm, 2732, rfl⟩
abbrev main_v2546 : Ref sig .tc := ⟨.hbm, 2733, rfl⟩
abbrev main_v2547 : Ref sig .tc := ⟨.hbm, 2734, rfl⟩
abbrev main_v2548 : Ref sig .tc := ⟨.hbm, 2735, rfl⟩
abbrev main_v2549 : Ref sig .tc := ⟨.hbm, 2736, rfl⟩
abbrev main_v2550 : Ref sig .tc := ⟨.hbm, 2737, rfl⟩
abbrev main_cst_161 : Ref sig .tc := ⟨.hbm, 2738, rfl⟩
abbrev main_v2551 : Ref sig .tc := ⟨.hbm, 2739, rfl⟩
abbrev main_v2552 : Ref sig .tc := ⟨.hbm, 2740, rfl⟩
abbrev main_cst_162 : Ref sig .tc := ⟨.hbm, 2741, rfl⟩
abbrev main_v2553 : Ref sig .tc := ⟨.hbm, 2742, rfl⟩
abbrev main_v2554 : Ref sig .tc := ⟨.hbm, 2743, rfl⟩
abbrev main_v2555 : Ref sig .tc := ⟨.hbm, 2744, rfl⟩
abbrev main_v2556 : Ref sig .tc := ⟨.hbm, 2745, rfl⟩
abbrev main_v2557 : Ref sig .tc := ⟨.hbm, 2746, rfl⟩
abbrev main_v2558 : Ref sig .tc := ⟨.hbm, 2747, rfl⟩
abbrev main_v2559 : Ref sig .tc := ⟨.hbm, 2748, rfl⟩
abbrev main_v2560 : Ref sig .tc := ⟨.hbm, 2749, rfl⟩
abbrev main_v2561 : Ref sig .tc := ⟨.hbm, 2750, rfl⟩
abbrev main_v2562 : Ref sig .tc := ⟨.hbm, 2751, rfl⟩
abbrev main_v2563 : Ref sig .tc := ⟨.hbm, 2752, rfl⟩
abbrev main_v2564 : Ref sig .tc := ⟨.hbm, 2753, rfl⟩
abbrev main_v2565 : Ref sig .tc := ⟨.hbm, 2754, rfl⟩
abbrev main_v2566 : Ref sig .tc := ⟨.hbm, 2755, rfl⟩
abbrev main_v2567 : Ref sig .tc := ⟨.hbm, 2756, rfl⟩
abbrev main_v2568 : Ref sig .tc := ⟨.hbm, 2757, rfl⟩
abbrev main_v2569 : Ref sig .tc := ⟨.hbm, 2758, rfl⟩
abbrev main_v2570 : Ref sig .tc := ⟨.hbm, 2759, rfl⟩
abbrev main_v2571 : Ref sig .tc := ⟨.hbm, 2760, rfl⟩
abbrev main_v2572 : Ref sig .tc := ⟨.hbm, 2761, rfl⟩
abbrev main_v2573 : Ref sig .tc := ⟨.hbm, 2762, rfl⟩
abbrev main_v2574 : Ref sig .tc := ⟨.hbm, 2763, rfl⟩
abbrev main_v2575 : Ref sig .tc := ⟨.hbm, 2764, rfl⟩
abbrev main_v2576 : Ref sig .tc := ⟨.hbm, 2765, rfl⟩
abbrev main_v2577 : Ref sig .tc := ⟨.hbm, 2766, rfl⟩
abbrev main_cst_163 : Ref sig .tc := ⟨.hbm, 2767, rfl⟩
abbrev main_v2578 : Ref sig .tc := ⟨.hbm, 2768, rfl⟩
abbrev main_v2579 : Ref sig .tc := ⟨.hbm, 2769, rfl⟩
abbrev main_cst_164 : Ref sig .tc := ⟨.hbm, 2770, rfl⟩
abbrev main_v2580 : Ref sig .tc := ⟨.hbm, 2771, rfl⟩
abbrev main_v2581 : Ref sig .tc := ⟨.hbm, 2772, rfl⟩
abbrev main_v2582 : Ref sig .tc := ⟨.hbm, 2773, rfl⟩
abbrev main_v2583 : Ref sig .tc := ⟨.hbm, 2774, rfl⟩
abbrev main_v2584 : Ref sig .tc := ⟨.hbm, 2775, rfl⟩
abbrev main_v2585 : Ref sig .tc := ⟨.hbm, 2776, rfl⟩
abbrev main_v2586 : Ref sig .tc := ⟨.hbm, 2777, rfl⟩
abbrev main_v2587 : Ref sig .tc := ⟨.hbm, 2778, rfl⟩
abbrev main_v2588 : Ref sig .tc := ⟨.hbm, 2779, rfl⟩
abbrev main_v2589 : Ref sig .tc := ⟨.hbm, 2780, rfl⟩
abbrev main_v2590 : Ref sig .tc := ⟨.hbm, 2781, rfl⟩
abbrev main_v2591 : Ref sig .tc := ⟨.hbm, 2782, rfl⟩
abbrev main_v2592 : Ref sig .tc := ⟨.hbm, 2783, rfl⟩
abbrev main_v2593 : Ref sig .tc := ⟨.hbm, 2784, rfl⟩
abbrev main_v2594 : Ref sig .tc := ⟨.hbm, 2785, rfl⟩
abbrev main_v2595 : Ref sig .tc := ⟨.hbm, 2786, rfl⟩
abbrev main_v2596 : Ref sig .tc := ⟨.hbm, 2787, rfl⟩
abbrev main_v2597 : Ref sig .tc := ⟨.hbm, 2788, rfl⟩
abbrev main_v2598 : Ref sig .tc := ⟨.hbm, 2789, rfl⟩
abbrev main_v2599 : Ref sig .tc := ⟨.hbm, 2790, rfl⟩
abbrev main_v2600 : Ref sig .tc := ⟨.hbm, 2791, rfl⟩
abbrev main_v2601 : Ref sig .tc := ⟨.hbm, 2792, rfl⟩
abbrev main_v2602 : Ref sig .tc := ⟨.hbm, 2793, rfl⟩
abbrev main_cst_165 : Ref sig .tc := ⟨.hbm, 2794, rfl⟩
abbrev main_v2603 : Ref sig .tc := ⟨.hbm, 2795, rfl⟩
abbrev main_v2604 : Ref sig .tc := ⟨.hbm, 2796, rfl⟩
abbrev main_cst_166 : Ref sig .tc := ⟨.hbm, 2797, rfl⟩
abbrev main_v2605 : Ref sig .tc := ⟨.hbm, 2798, rfl⟩
abbrev main_v2606 : Ref sig .tc := ⟨.hbm, 2799, rfl⟩
abbrev main_v2607 : Ref sig .tc := ⟨.hbm, 2800, rfl⟩
abbrev main_v2608 : Ref sig .tc := ⟨.hbm, 2801, rfl⟩
abbrev main_v2609 : Ref sig .tc := ⟨.hbm, 2802, rfl⟩
abbrev main_v2610 : Ref sig .tc := ⟨.hbm, 2803, rfl⟩
abbrev main_v2611 : Ref sig .tc := ⟨.hbm, 2804, rfl⟩
abbrev main_v2612 : Ref sig .tc := ⟨.hbm, 2805, rfl⟩
abbrev main_v2613 : Ref sig .tc := ⟨.hbm, 2806, rfl⟩
abbrev main_v2614 : Ref sig .tc := ⟨.hbm, 2807, rfl⟩
abbrev main_v2615 : Ref sig .tc := ⟨.hbm, 2808, rfl⟩
abbrev main_v2616 : Ref sig .tc := ⟨.hbm, 2809, rfl⟩
abbrev main_v2617 : Ref sig .tc := ⟨.hbm, 2810, rfl⟩
abbrev main_v2618 : Ref sig .tc := ⟨.hbm, 2811, rfl⟩
abbrev main_v2619 : Ref sig .tc := ⟨.hbm, 2812, rfl⟩
abbrev main_cst_167 : Ref sig .tc := ⟨.hbm, 2813, rfl⟩
abbrev main_v2620 : Ref sig .tc := ⟨.hbm, 2814, rfl⟩
abbrev main_v2621 : Ref sig .tc := ⟨.hbm, 2815, rfl⟩
abbrev main_v2622 : Ref sig .tc := ⟨.hbm, 2816, rfl⟩
abbrev main_v2623 : Ref sig .tc := ⟨.hbm, 2817, rfl⟩
abbrev main_v2624 : Ref sig .tc := ⟨.hbm, 2818, rfl⟩
abbrev main_v2625 : Ref sig .tc := ⟨.hbm, 2819, rfl⟩
abbrev main_v2626 : Ref sig .tc := ⟨.hbm, 2820, rfl⟩
abbrev main_v2627 : Ref sig .tc := ⟨.hbm, 2821, rfl⟩
abbrev main_v2628 : Ref sig .tc := ⟨.hbm, 2822, rfl⟩
abbrev main_v2629 : Ref sig .tc := ⟨.hbm, 2823, rfl⟩
abbrev main_v2630 : Ref sig .tc := ⟨.hbm, 2824, rfl⟩
abbrev main_v2631 : Ref sig .tc := ⟨.hbm, 2825, rfl⟩
abbrev main_v2632 : Ref sig .tc := ⟨.hbm, 2826, rfl⟩
abbrev main_v2633 : Ref sig .tc := ⟨.hbm, 2827, rfl⟩
abbrev main_v2634 : Ref sig .tc := ⟨.hbm, 2828, rfl⟩
abbrev main_v2635 : Ref sig .tc := ⟨.hbm, 2829, rfl⟩
abbrev main_v2636 : Ref sig .tc := ⟨.hbm, 2830, rfl⟩
abbrev main_v2637 : Ref sig .tc := ⟨.hbm, 2831, rfl⟩
abbrev main_v2638 : Ref sig .tc := ⟨.hbm, 2832, rfl⟩
abbrev main_v2639 : Ref sig .tc := ⟨.hbm, 2833, rfl⟩
abbrev main_v2640 : Ref sig .tc := ⟨.hbm, 2834, rfl⟩
abbrev main_v2641 : Ref sig .tc := ⟨.hbm, 2835, rfl⟩
abbrev main_v2642 : Ref sig .tc := ⟨.hbm, 2836, rfl⟩
abbrev main_v2643 : Ref sig .tc := ⟨.hbm, 2837, rfl⟩
abbrev main_v2644 : Ref sig .tc := ⟨.hbm, 2838, rfl⟩
abbrev main_v2645 : Ref sig .tc := ⟨.hbm, 2839, rfl⟩
abbrev main_v2646 : Ref sig .tc := ⟨.hbm, 2840, rfl⟩
abbrev main_v2647 : Ref sig .tc := ⟨.hbm, 2841, rfl⟩
abbrev main_v2648 : Ref sig .tc := ⟨.hbm, 2842, rfl⟩
abbrev main_v2649 : Ref sig .tc := ⟨.hbm, 2843, rfl⟩
abbrev main_v2650 : Ref sig .tc := ⟨.hbm, 2844, rfl⟩
abbrev main_v2651 : Ref sig .tc := ⟨.hbm, 2845, rfl⟩
abbrev main_v2652 : Ref sig .tc := ⟨.hbm, 2846, rfl⟩
abbrev main_v2653 : Ref sig .tc := ⟨.hbm, 2847, rfl⟩
abbrev main_v2654 : Ref sig .tc := ⟨.hbm, 2848, rfl⟩
abbrev main_v2655 : Ref sig .tc := ⟨.hbm, 2849, rfl⟩
abbrev main_v2656 : Ref sig .tc := ⟨.hbm, 2850, rfl⟩
abbrev main_v2657 : Ref sig .tc := ⟨.hbm, 2851, rfl⟩
abbrev main_v2658 : Ref sig .tc := ⟨.hbm, 2852, rfl⟩
abbrev main_v2659 : Ref sig .tc := ⟨.hbm, 2853, rfl⟩
abbrev main_cst_168 : Ref sig .tc := ⟨.hbm, 2854, rfl⟩
abbrev main_v2660 : Ref sig .tc := ⟨.hbm, 2855, rfl⟩
abbrev main_v2661 : Ref sig .tc := ⟨.hbm, 2856, rfl⟩
abbrev main_cst_169 : Ref sig .tc := ⟨.hbm, 2857, rfl⟩
abbrev main_v2662 : Ref sig .tc := ⟨.hbm, 2858, rfl⟩
abbrev main_v2663 : Ref sig .tc := ⟨.hbm, 2859, rfl⟩
abbrev main_v2664 : Ref sig .tc := ⟨.hbm, 2860, rfl⟩
abbrev main_v2665 : Ref sig .tc := ⟨.hbm, 2861, rfl⟩
abbrev main_v2666 : Ref sig .tc := ⟨.hbm, 2862, rfl⟩
abbrev main_v2667 : Ref sig .tc := ⟨.hbm, 2863, rfl⟩
abbrev main_v2668 : Ref sig .tc := ⟨.hbm, 2864, rfl⟩
abbrev main_v2669 : Ref sig .tc := ⟨.hbm, 2865, rfl⟩
abbrev main_v2670 : Ref sig .tc := ⟨.hbm, 2866, rfl⟩
abbrev main_v2671 : Ref sig .tc := ⟨.hbm, 2867, rfl⟩
abbrev main_v2672 : Ref sig .tc := ⟨.hbm, 2868, rfl⟩
abbrev main_v2673 : Ref sig .tc := ⟨.hbm, 2869, rfl⟩
abbrev main_v2674 : Ref sig .tc := ⟨.hbm, 2870, rfl⟩
abbrev main_v2675 : Ref sig .tc := ⟨.hbm, 2871, rfl⟩
abbrev main_v2676 : Ref sig .tc := ⟨.hbm, 2872, rfl⟩
abbrev main_v2677 : Ref sig .tc := ⟨.hbm, 2873, rfl⟩
abbrev main_v2678 : Ref sig .tc := ⟨.hbm, 2874, rfl⟩
abbrev main_v2679 : Ref sig .tc := ⟨.hbm, 2875, rfl⟩
abbrev main_v2680 : Ref sig .tc := ⟨.hbm, 2876, rfl⟩
abbrev main_v2681 : Ref sig .tc := ⟨.hbm, 2877, rfl⟩
abbrev main_v2682 : Ref sig .tc := ⟨.hbm, 2878, rfl⟩
abbrev main_v2683 : Ref sig .tc := ⟨.hbm, 2879, rfl⟩
abbrev main_v2684 : Ref sig .tc := ⟨.hbm, 2880, rfl⟩
abbrev main_v2685 : Ref sig .tc := ⟨.hbm, 2881, rfl⟩
abbrev main_v2686 : Ref sig .tc := ⟨.hbm, 2882, rfl⟩
abbrev main_v2687 : Ref sig .tc := ⟨.hbm, 2883, rfl⟩
abbrev main_cst_170 : Ref sig .tc := ⟨.hbm, 2884, rfl⟩
abbrev main_v2688 : Ref sig .tc := ⟨.hbm, 2885, rfl⟩
abbrev main_v2689 : Ref sig .tc := ⟨.hbm, 2886, rfl⟩
abbrev main_cst_171 : Ref sig .tc := ⟨.hbm, 2887, rfl⟩
abbrev main_v2690 : Ref sig .tc := ⟨.hbm, 2888, rfl⟩
abbrev main_v2691 : Ref sig .tc := ⟨.hbm, 2889, rfl⟩
abbrev main_v2692 : Ref sig .tc := ⟨.hbm, 2890, rfl⟩
abbrev main_v2693 : Ref sig .tc := ⟨.hbm, 2891, rfl⟩
abbrev main_v2694 : Ref sig .tc := ⟨.hbm, 2892, rfl⟩
abbrev main_v2695 : Ref sig .tc := ⟨.hbm, 2893, rfl⟩
abbrev main_v2696 : Ref sig .tc := ⟨.hbm, 2894, rfl⟩
abbrev main_v2697 : Ref sig .tc := ⟨.hbm, 2895, rfl⟩
abbrev main_v2698 : Ref sig .tc := ⟨.hbm, 2896, rfl⟩
abbrev main_v2699 : Ref sig .tc := ⟨.hbm, 2897, rfl⟩
abbrev main_v2700 : Ref sig .tc := ⟨.hbm, 2898, rfl⟩
abbrev main_v2701 : Ref sig .tc := ⟨.hbm, 2899, rfl⟩
abbrev main_v2702 : Ref sig .tc := ⟨.hbm, 2900, rfl⟩
abbrev main_v2703 : Ref sig .tc := ⟨.hbm, 2901, rfl⟩
abbrev main_v2704 : Ref sig .tc := ⟨.hbm, 2902, rfl⟩
abbrev main_v2705 : Ref sig .tc := ⟨.hbm, 2903, rfl⟩
abbrev main_v2706 : Ref sig .tc := ⟨.hbm, 2904, rfl⟩
abbrev main_v2707 : Ref sig .tc := ⟨.hbm, 2905, rfl⟩
abbrev main_v2708 : Ref sig .tc := ⟨.hbm, 2906, rfl⟩
abbrev main_v2709 : Ref sig .tc := ⟨.hbm, 2907, rfl⟩
abbrev main_v2710 : Ref sig .tc := ⟨.hbm, 2908, rfl⟩
abbrev main_v2711 : Ref sig .tc := ⟨.hbm, 2909, rfl⟩
abbrev main_v2712 : Ref sig .tc := ⟨.hbm, 2910, rfl⟩
abbrev main_v2713 : Ref sig .tc := ⟨.hbm, 2911, rfl⟩
abbrev main_v2714 : Ref sig .tc := ⟨.hbm, 2912, rfl⟩
abbrev main_cst_172 : Ref sig .tc := ⟨.hbm, 2913, rfl⟩
abbrev main_v2715 : Ref sig .tc := ⟨.hbm, 2914, rfl⟩
abbrev main_v2716 : Ref sig .tc := ⟨.hbm, 2915, rfl⟩
abbrev main_cst_173 : Ref sig .tc := ⟨.hbm, 2916, rfl⟩
abbrev main_v2717 : Ref sig .tc := ⟨.hbm, 2917, rfl⟩
abbrev main_v2718 : Ref sig .tc := ⟨.hbm, 2918, rfl⟩
abbrev main_v2719 : Ref sig .tc := ⟨.hbm, 2919, rfl⟩
abbrev main_v2720 : Ref sig .tc := ⟨.hbm, 2920, rfl⟩
abbrev main_v2721 : Ref sig .tc := ⟨.hbm, 2921, rfl⟩
abbrev main_v2722 : Ref sig .tc := ⟨.hbm, 2922, rfl⟩
abbrev main_v2723 : Ref sig .tc := ⟨.hbm, 2923, rfl⟩
abbrev main_v2724 : Ref sig .tc := ⟨.hbm, 2924, rfl⟩
abbrev main_v2725 : Ref sig .tc := ⟨.hbm, 2925, rfl⟩
abbrev main_v2726 : Ref sig .tc := ⟨.hbm, 2926, rfl⟩
abbrev main_v2727 : Ref sig .tc := ⟨.hbm, 2927, rfl⟩
abbrev main_v2728 : Ref sig .tc := ⟨.hbm, 2928, rfl⟩
abbrev main_v2729 : Ref sig .tc := ⟨.hbm, 2929, rfl⟩
abbrev main_v2730 : Ref sig .tc := ⟨.hbm, 2930, rfl⟩
abbrev main_v2731 : Ref sig .tc := ⟨.hbm, 2931, rfl⟩
abbrev main_v2732 : Ref sig .tc := ⟨.hbm, 2932, rfl⟩
abbrev main_v2733 : Ref sig .tc := ⟨.hbm, 2933, rfl⟩
abbrev main_v2734 : Ref sig .tc := ⟨.hbm, 2934, rfl⟩
abbrev main_v2735 : Ref sig .tc := ⟨.hbm, 2935, rfl⟩
abbrev main_v2736 : Ref sig .tc := ⟨.hbm, 2936, rfl⟩
abbrev main_v2737 : Ref sig .tc := ⟨.hbm, 2937, rfl⟩
abbrev main_v2738 : Ref sig .tc := ⟨.hbm, 2938, rfl⟩
abbrev main_v2739 : Ref sig .tc := ⟨.hbm, 2939, rfl⟩
abbrev main_cst_174 : Ref sig .tc := ⟨.hbm, 2940, rfl⟩
abbrev main_v2740 : Ref sig .tc := ⟨.hbm, 2941, rfl⟩
abbrev main_v2741 : Ref sig .tc := ⟨.hbm, 2942, rfl⟩
abbrev main_cst_175 : Ref sig .tc := ⟨.hbm, 2943, rfl⟩
abbrev main_v2742 : Ref sig .tc := ⟨.hbm, 2944, rfl⟩
abbrev main_v2743 : Ref sig .tc := ⟨.hbm, 2945, rfl⟩
abbrev main_v2744 : Ref sig .tc := ⟨.hbm, 2946, rfl⟩
abbrev main_v2745 : Ref sig .tc := ⟨.hbm, 2947, rfl⟩
abbrev main_v2746 : Ref sig .tc := ⟨.hbm, 2948, rfl⟩
abbrev main_v2747 : Ref sig .tc := ⟨.hbm, 2949, rfl⟩
abbrev main_v2748 : Ref sig .tc := ⟨.hbm, 2950, rfl⟩
abbrev main_v2749 : Ref sig .tc := ⟨.hbm, 2951, rfl⟩
abbrev main_v2750 : Ref sig .tc := ⟨.hbm, 2952, rfl⟩
abbrev main_v2751 : Ref sig .tc := ⟨.hbm, 2953, rfl⟩
abbrev main_v2752 : Ref sig .tc := ⟨.hbm, 2954, rfl⟩
abbrev main_v2753 : Ref sig .tc := ⟨.hbm, 2955, rfl⟩
abbrev main_v2754 : Ref sig .tc := ⟨.hbm, 2956, rfl⟩
abbrev main_v2755 : Ref sig .tc := ⟨.hbm, 2957, rfl⟩
abbrev main_v2756 : Ref sig .tc := ⟨.hbm, 2958, rfl⟩
abbrev main_cst_176 : Ref sig .tc := ⟨.hbm, 2959, rfl⟩
abbrev main_v2757 : Ref sig .tc := ⟨.hbm, 2960, rfl⟩
abbrev main_v2758 : Ref sig .tc := ⟨.hbm, 2961, rfl⟩
abbrev main_v2759 : Ref sig .tc := ⟨.hbm, 2962, rfl⟩
abbrev main_v2760 : Ref sig .tc := ⟨.hbm, 2963, rfl⟩
abbrev main_v2761 : Ref sig .tc := ⟨.hbm, 2964, rfl⟩
abbrev main_v2762 : Ref sig .tc := ⟨.hbm, 2965, rfl⟩
abbrev main_v2763 : Ref sig .tc := ⟨.hbm, 2966, rfl⟩
abbrev main_v2764 : Ref sig .tc := ⟨.hbm, 2967, rfl⟩
abbrev main_v2765 : Ref sig .tc := ⟨.hbm, 2968, rfl⟩
abbrev main_v2766 : Ref sig .tc := ⟨.hbm, 2969, rfl⟩
abbrev main_v2767 : Ref sig .tc := ⟨.hbm, 2970, rfl⟩
abbrev main_v2768 : Ref sig .tc := ⟨.hbm, 2971, rfl⟩
abbrev main_v2769 : Ref sig .tc := ⟨.hbm, 2972, rfl⟩
abbrev main_v2770 : Ref sig .tc := ⟨.hbm, 2973, rfl⟩
abbrev main_v2771 : Ref sig .tc := ⟨.hbm, 2974, rfl⟩
abbrev main_v2772 : Ref sig .tc := ⟨.hbm, 2975, rfl⟩
abbrev main_v2773 : Ref sig .tc := ⟨.hbm, 2976, rfl⟩
abbrev main_v2774 : Ref sig .tc := ⟨.hbm, 2977, rfl⟩
abbrev main_v2775 : Ref sig .tc := ⟨.hbm, 2978, rfl⟩
abbrev main_v2776 : Ref sig .tc := ⟨.hbm, 2979, rfl⟩
abbrev main_v2777 : Ref sig .tc := ⟨.hbm, 2980, rfl⟩
abbrev main_v2778 : Ref sig .tc := ⟨.hbm, 2981, rfl⟩
abbrev main_v2779 : Ref sig .tc := ⟨.hbm, 2982, rfl⟩
abbrev main_v2780 : Ref sig .tc := ⟨.hbm, 2983, rfl⟩
abbrev main_v2781 : Ref sig .tc := ⟨.hbm, 2984, rfl⟩
abbrev main_v2782 : Ref sig .tc := ⟨.hbm, 2985, rfl⟩
abbrev main_v2783 : Ref sig .tc := ⟨.hbm, 2986, rfl⟩
abbrev main_v2784 : Ref sig .tc := ⟨.hbm, 2987, rfl⟩
abbrev main_v2785 : Ref sig .tc := ⟨.hbm, 2988, rfl⟩
abbrev main_v2786 : Ref sig .tc := ⟨.hbm, 2989, rfl⟩
abbrev main_v2787 : Ref sig .tc := ⟨.hbm, 2990, rfl⟩
abbrev main_v2788 : Ref sig .tc := ⟨.hbm, 2991, rfl⟩
abbrev main_v2789 : Ref sig .tc := ⟨.hbm, 2992, rfl⟩
abbrev main_v2790 : Ref sig .tc := ⟨.hbm, 2993, rfl⟩
abbrev main_v2791 : Ref sig .tc := ⟨.hbm, 2994, rfl⟩
abbrev main_v2792 : Ref sig .tc := ⟨.hbm, 2995, rfl⟩
abbrev main_v2793 : Ref sig .tc := ⟨.hbm, 2996, rfl⟩
abbrev main_v2794 : Ref sig .tc := ⟨.hbm, 2997, rfl⟩
abbrev main_v2795 : Ref sig .tc := ⟨.hbm, 2998, rfl⟩
abbrev main_v2796 : Ref sig .tc := ⟨.hbm, 2999, rfl⟩
abbrev main_cst_177 : Ref sig .tc := ⟨.hbm, 3000, rfl⟩
abbrev main_v2797 : Ref sig .tc := ⟨.hbm, 3001, rfl⟩
abbrev main_v2798 : Ref sig .tc := ⟨.hbm, 3002, rfl⟩
abbrev main_cst_178 : Ref sig .tc := ⟨.hbm, 3003, rfl⟩
abbrev main_v2799 : Ref sig .tc := ⟨.hbm, 3004, rfl⟩
abbrev main_v2800 : Ref sig .tc := ⟨.hbm, 3005, rfl⟩
abbrev main_v2801 : Ref sig .tc := ⟨.hbm, 3006, rfl⟩
abbrev main_v2802 : Ref sig .tc := ⟨.hbm, 3007, rfl⟩
abbrev main_v2803 : Ref sig .tc := ⟨.hbm, 3008, rfl⟩
abbrev main_v2804 : Ref sig .tc := ⟨.hbm, 3009, rfl⟩
abbrev main_v2805 : Ref sig .tc := ⟨.hbm, 3010, rfl⟩
abbrev main_v2806 : Ref sig .tc := ⟨.hbm, 3011, rfl⟩
abbrev main_v2807 : Ref sig .tc := ⟨.hbm, 3012, rfl⟩
abbrev main_v2808 : Ref sig .tc := ⟨.hbm, 3013, rfl⟩
abbrev main_v2809 : Ref sig .tc := ⟨.hbm, 3014, rfl⟩
abbrev main_v2810 : Ref sig .tc := ⟨.hbm, 3015, rfl⟩
abbrev main_v2811 : Ref sig .tc := ⟨.hbm, 3016, rfl⟩
abbrev main_v2812 : Ref sig .tc := ⟨.hbm, 3017, rfl⟩
abbrev main_v2813 : Ref sig .tc := ⟨.hbm, 3018, rfl⟩
abbrev main_v2814 : Ref sig .tc := ⟨.hbm, 3019, rfl⟩
abbrev main_v2815 : Ref sig .tc := ⟨.hbm, 3020, rfl⟩
abbrev main_v2816 : Ref sig .tc := ⟨.hbm, 3021, rfl⟩
abbrev main_v2817 : Ref sig .tc := ⟨.hbm, 3022, rfl⟩
abbrev main_v2818 : Ref sig .tc := ⟨.hbm, 3023, rfl⟩
abbrev main_v2819 : Ref sig .tc := ⟨.hbm, 3024, rfl⟩
abbrev main_v2820 : Ref sig .tc := ⟨.hbm, 3025, rfl⟩
abbrev main_v2821 : Ref sig .tc := ⟨.hbm, 3026, rfl⟩
abbrev main_v2822 : Ref sig .tc := ⟨.hbm, 3027, rfl⟩
abbrev main_v2823 : Ref sig .tc := ⟨.hbm, 3028, rfl⟩
abbrev main_v2824 : Ref sig .tc := ⟨.hbm, 3029, rfl⟩
abbrev main_cst_179 : Ref sig .tc := ⟨.hbm, 3030, rfl⟩
abbrev main_v2825 : Ref sig .tc := ⟨.hbm, 3031, rfl⟩
abbrev main_v2826 : Ref sig .tc := ⟨.hbm, 3032, rfl⟩
abbrev main_cst_180 : Ref sig .tc := ⟨.hbm, 3033, rfl⟩
abbrev main_v2827 : Ref sig .tc := ⟨.hbm, 3034, rfl⟩
abbrev main_v2828 : Ref sig .tc := ⟨.hbm, 3035, rfl⟩
abbrev main_v2829 : Ref sig .tc := ⟨.hbm, 3036, rfl⟩
abbrev main_v2830 : Ref sig .tc := ⟨.hbm, 3037, rfl⟩
abbrev main_v2831 : Ref sig .tc := ⟨.hbm, 3038, rfl⟩
abbrev main_v2832 : Ref sig .tc := ⟨.hbm, 3039, rfl⟩
abbrev main_v2833 : Ref sig .tc := ⟨.hbm, 3040, rfl⟩
abbrev main_v2834 : Ref sig .tc := ⟨.hbm, 3041, rfl⟩
abbrev main_v2835 : Ref sig .tc := ⟨.hbm, 3042, rfl⟩
abbrev main_v2836 : Ref sig .tc := ⟨.hbm, 3043, rfl⟩
abbrev main_v2837 : Ref sig .tc := ⟨.hbm, 3044, rfl⟩
abbrev main_v2838 : Ref sig .tc := ⟨.hbm, 3045, rfl⟩
abbrev main_v2839 : Ref sig .tc := ⟨.hbm, 3046, rfl⟩
abbrev main_v2840 : Ref sig .tc := ⟨.hbm, 3047, rfl⟩
abbrev main_v2841 : Ref sig .tc := ⟨.hbm, 3048, rfl⟩
abbrev main_v2842 : Ref sig .tc := ⟨.hbm, 3049, rfl⟩
abbrev main_v2843 : Ref sig .tc := ⟨.hbm, 3050, rfl⟩
abbrev main_v2844 : Ref sig .tc := ⟨.hbm, 3051, rfl⟩
abbrev main_v2845 : Ref sig .tc := ⟨.hbm, 3052, rfl⟩
abbrev main_v2846 : Ref sig .tc := ⟨.hbm, 3053, rfl⟩
abbrev main_v2847 : Ref sig .tc := ⟨.hbm, 3054, rfl⟩
abbrev main_v2848 : Ref sig .tc := ⟨.hbm, 3055, rfl⟩
abbrev main_v2849 : Ref sig .tc := ⟨.hbm, 3056, rfl⟩
abbrev main_v2850 : Ref sig .tc := ⟨.hbm, 3057, rfl⟩
abbrev main_v2851 : Ref sig .tc := ⟨.hbm, 3058, rfl⟩
abbrev main_cst_181 : Ref sig .tc := ⟨.hbm, 3059, rfl⟩
abbrev main_v2852 : Ref sig .tc := ⟨.hbm, 3060, rfl⟩
abbrev main_v2853 : Ref sig .tc := ⟨.hbm, 3061, rfl⟩
abbrev main_cst_182 : Ref sig .tc := ⟨.hbm, 3062, rfl⟩
abbrev main_v2854 : Ref sig .tc := ⟨.hbm, 3063, rfl⟩
abbrev main_v2855 : Ref sig .tc := ⟨.hbm, 3064, rfl⟩
abbrev main_v2856 : Ref sig .tc := ⟨.hbm, 3065, rfl⟩
abbrev main_v2857 : Ref sig .tc := ⟨.hbm, 3066, rfl⟩
abbrev main_v2858 : Ref sig .tc := ⟨.hbm, 3067, rfl⟩
abbrev main_v2859 : Ref sig .tc := ⟨.hbm, 3068, rfl⟩
abbrev main_v2860 : Ref sig .tc := ⟨.hbm, 3069, rfl⟩
abbrev main_v2861 : Ref sig .tc := ⟨.hbm, 3070, rfl⟩
abbrev main_v2862 : Ref sig .tc := ⟨.hbm, 3071, rfl⟩
abbrev main_v2863 : Ref sig .tc := ⟨.hbm, 3072, rfl⟩
abbrev main_v2864 : Ref sig .tc := ⟨.hbm, 3073, rfl⟩
abbrev main_v2865 : Ref sig .tc := ⟨.hbm, 3074, rfl⟩
abbrev main_v2866 : Ref sig .tc := ⟨.hbm, 3075, rfl⟩
abbrev main_v2867 : Ref sig .tc := ⟨.hbm, 3076, rfl⟩
abbrev main_v2868 : Ref sig .tc := ⟨.hbm, 3077, rfl⟩
abbrev main_v2869 : Ref sig .tc := ⟨.hbm, 3078, rfl⟩
abbrev main_v2870 : Ref sig .tc := ⟨.hbm, 3079, rfl⟩
abbrev main_v2871 : Ref sig .tc := ⟨.hbm, 3080, rfl⟩
abbrev main_v2872 : Ref sig .tc := ⟨.hbm, 3081, rfl⟩
abbrev main_v2873 : Ref sig .tc := ⟨.hbm, 3082, rfl⟩
abbrev main_v2874 : Ref sig .tc := ⟨.hbm, 3083, rfl⟩
abbrev main_v2875 : Ref sig .tc := ⟨.hbm, 3084, rfl⟩
abbrev main_v2876 : Ref sig .tc := ⟨.hbm, 3085, rfl⟩
abbrev main_cst_183 : Ref sig .tc := ⟨.hbm, 3086, rfl⟩
abbrev main_v2877 : Ref sig .tc := ⟨.hbm, 3087, rfl⟩
abbrev main_v2878 : Ref sig .tc := ⟨.hbm, 3088, rfl⟩
abbrev main_cst_184 : Ref sig .tc := ⟨.hbm, 3089, rfl⟩
abbrev main_v2879 : Ref sig .tc := ⟨.hbm, 3090, rfl⟩
abbrev main_v2880 : Ref sig .tc := ⟨.hbm, 3091, rfl⟩
abbrev main_v2881 : Ref sig .tc := ⟨.hbm, 3092, rfl⟩
abbrev main_v2882 : Ref sig .tc := ⟨.hbm, 3093, rfl⟩
abbrev main_v2883 : Ref sig .tc := ⟨.hbm, 3094, rfl⟩
abbrev main_v2884 : Ref sig .tc := ⟨.hbm, 3095, rfl⟩
abbrev main_v2885 : Ref sig .tc := ⟨.hbm, 3096, rfl⟩
abbrev main_v2886 : Ref sig .tc := ⟨.hbm, 3097, rfl⟩
abbrev main_v2887 : Ref sig .tc := ⟨.hbm, 3098, rfl⟩
abbrev main_v2888 : Ref sig .tc := ⟨.hbm, 3099, rfl⟩
abbrev main_v2889 : Ref sig .tc := ⟨.hbm, 3100, rfl⟩
abbrev main_v2890 : Ref sig .tc := ⟨.hbm, 3101, rfl⟩
abbrev main_v2891 : Ref sig .tc := ⟨.hbm, 3102, rfl⟩
abbrev main_v2892 : Ref sig .tc := ⟨.hbm, 3103, rfl⟩
abbrev main_v2893 : Ref sig .tc := ⟨.hbm, 3104, rfl⟩
abbrev main_cst_185 : Ref sig .tc := ⟨.hbm, 3105, rfl⟩
abbrev main_v2894 : Ref sig .tc := ⟨.hbm, 3106, rfl⟩
abbrev main_v2895 : Ref sig .tc := ⟨.hbm, 3107, rfl⟩
abbrev main_v2896 : Ref sig .tc := ⟨.hbm, 3108, rfl⟩
abbrev main_v2897 : Ref sig .tc := ⟨.hbm, 3109, rfl⟩
abbrev main_v2898 : Ref sig .tc := ⟨.hbm, 3110, rfl⟩
abbrev main_v2899 : Ref sig .tc := ⟨.hbm, 3111, rfl⟩
abbrev main_v2900 : Ref sig .tc := ⟨.hbm, 3112, rfl⟩
abbrev main_v2901 : Ref sig .tc := ⟨.hbm, 3113, rfl⟩
abbrev main_v2902 : Ref sig .tc := ⟨.hbm, 3114, rfl⟩
abbrev main_v2903 : Ref sig .tc := ⟨.hbm, 3115, rfl⟩
abbrev main_v2904 : Ref sig .tc := ⟨.hbm, 3116, rfl⟩
abbrev main_v2905 : Ref sig .tc := ⟨.hbm, 3117, rfl⟩
abbrev main_v2906 : Ref sig .tc := ⟨.hbm, 3118, rfl⟩
abbrev main_v2907 : Ref sig .tc := ⟨.hbm, 3119, rfl⟩
abbrev main_v2908 : Ref sig .tc := ⟨.hbm, 3120, rfl⟩
abbrev main_v2909 : Ref sig .tc := ⟨.hbm, 3121, rfl⟩
abbrev main_v2910 : Ref sig .tc := ⟨.hbm, 3122, rfl⟩
abbrev main_v2911 : Ref sig .tc := ⟨.hbm, 3123, rfl⟩
abbrev main_v2912 : Ref sig .tc := ⟨.hbm, 3124, rfl⟩
abbrev main_v2913 : Ref sig .tc := ⟨.hbm, 3125, rfl⟩
abbrev main_v2914 : Ref sig .tc := ⟨.hbm, 3126, rfl⟩
abbrev main_v2915 : Ref sig .tc := ⟨.hbm, 3127, rfl⟩
abbrev main_v2916 : Ref sig .tc := ⟨.hbm, 3128, rfl⟩
abbrev main_v2917 : Ref sig .tc := ⟨.hbm, 3129, rfl⟩
abbrev main_v2918 : Ref sig .tc := ⟨.hbm, 3130, rfl⟩
abbrev main_v2919 : Ref sig .tc := ⟨.hbm, 3131, rfl⟩
abbrev main_v2920 : Ref sig .tc := ⟨.hbm, 3132, rfl⟩
abbrev main_v2921 : Ref sig .tc := ⟨.hbm, 3133, rfl⟩
abbrev main_v2922 : Ref sig .tc := ⟨.hbm, 3134, rfl⟩
abbrev main_v2923 : Ref sig .tc := ⟨.hbm, 3135, rfl⟩
abbrev main_v2924 : Ref sig .tc := ⟨.hbm, 3136, rfl⟩
abbrev main_v2925 : Ref sig .tc := ⟨.hbm, 3137, rfl⟩
abbrev main_v2926 : Ref sig .tc := ⟨.hbm, 3138, rfl⟩
abbrev main_v2927 : Ref sig .tc := ⟨.hbm, 3139, rfl⟩
abbrev main_v2928 : Ref sig .tc := ⟨.hbm, 3140, rfl⟩
abbrev main_v2929 : Ref sig .tc := ⟨.hbm, 3141, rfl⟩
abbrev main_v2930 : Ref sig .tc := ⟨.hbm, 3142, rfl⟩
abbrev main_v2931 : Ref sig .tc := ⟨.hbm, 3143, rfl⟩
abbrev main_v2932 : Ref sig .tc := ⟨.hbm, 3144, rfl⟩
abbrev main_v2933 : Ref sig .tc := ⟨.hbm, 3145, rfl⟩
abbrev main_cst_186 : Ref sig .tc := ⟨.hbm, 3146, rfl⟩
abbrev main_v2934 : Ref sig .tc := ⟨.hbm, 3147, rfl⟩
abbrev main_v2935 : Ref sig .tc := ⟨.hbm, 3148, rfl⟩
abbrev main_cst_187 : Ref sig .tc := ⟨.hbm, 3149, rfl⟩
abbrev main_v2936 : Ref sig .tc := ⟨.hbm, 3150, rfl⟩
abbrev main_v2937 : Ref sig .tc := ⟨.hbm, 3151, rfl⟩
abbrev main_v2938 : Ref sig .tc := ⟨.hbm, 3152, rfl⟩
abbrev main_v2939 : Ref sig .tc := ⟨.hbm, 3153, rfl⟩
abbrev main_v2940 : Ref sig .tc := ⟨.hbm, 3154, rfl⟩
abbrev main_v2941 : Ref sig .tc := ⟨.hbm, 3155, rfl⟩
abbrev main_v2942 : Ref sig .tc := ⟨.hbm, 3156, rfl⟩
abbrev main_v2943 : Ref sig .tc := ⟨.hbm, 3157, rfl⟩
abbrev main_v2944 : Ref sig .tc := ⟨.hbm, 3158, rfl⟩
abbrev main_v2945 : Ref sig .tc := ⟨.hbm, 3159, rfl⟩
abbrev main_v2946 : Ref sig .tc := ⟨.hbm, 3160, rfl⟩
abbrev main_v2947 : Ref sig .tc := ⟨.hbm, 3161, rfl⟩
abbrev main_v2948 : Ref sig .tc := ⟨.hbm, 3162, rfl⟩
abbrev main_v2949 : Ref sig .tc := ⟨.hbm, 3163, rfl⟩
abbrev main_v2950 : Ref sig .tc := ⟨.hbm, 3164, rfl⟩
abbrev main_v2951 : Ref sig .tc := ⟨.hbm, 3165, rfl⟩
abbrev main_v2952 : Ref sig .tc := ⟨.hbm, 3166, rfl⟩
abbrev main_v2953 : Ref sig .tc := ⟨.hbm, 3167, rfl⟩
abbrev main_v2954 : Ref sig .tc := ⟨.hbm, 3168, rfl⟩
abbrev main_v2955 : Ref sig .tc := ⟨.hbm, 3169, rfl⟩
abbrev main_v2956 : Ref sig .tc := ⟨.hbm, 3170, rfl⟩
abbrev main_v2957 : Ref sig .tc := ⟨.hbm, 3171, rfl⟩
abbrev main_v2958 : Ref sig .tc := ⟨.hbm, 3172, rfl⟩
abbrev main_v2959 : Ref sig .tc := ⟨.hbm, 3173, rfl⟩
abbrev main_v2960 : Ref sig .tc := ⟨.hbm, 3174, rfl⟩
abbrev main_v2961 : Ref sig .tc := ⟨.hbm, 3175, rfl⟩
abbrev main_v2962 : Ref sig .tc := ⟨.hbm, 3176, rfl⟩
abbrev main_v2963 : Ref sig .tc := ⟨.hbm, 3177, rfl⟩
abbrev main_v2964 : Ref sig .tc := ⟨.hbm, 3178, rfl⟩
abbrev main_v2965 : Ref sig .tc := ⟨.hbm, 3179, rfl⟩
abbrev main_v2966 : Ref sig .tc := ⟨.hbm, 3180, rfl⟩
abbrev main_v2967 : Ref sig .tc := ⟨.hbm, 3181, rfl⟩
abbrev main_v2968 : Ref sig .tc := ⟨.hbm, 3182, rfl⟩
abbrev main_v2969 : Ref sig .tc := ⟨.hbm, 3183, rfl⟩
abbrev main_v2970 : Ref sig .tc := ⟨.hbm, 3184, rfl⟩
abbrev main_v2971 : Ref sig .tc := ⟨.hbm, 3185, rfl⟩
abbrev main_cst_188 : Ref sig .tc := ⟨.hbm, 3186, rfl⟩
abbrev main_v2972 : Ref sig .tc := ⟨.hbm, 3187, rfl⟩
abbrev main_v2973 : Ref sig .tc := ⟨.hbm, 3188, rfl⟩
abbrev main_cst_189 : Ref sig .tc := ⟨.hbm, 3189, rfl⟩
abbrev main_v2974 : Ref sig .tc := ⟨.hbm, 3190, rfl⟩
abbrev main_v2975 : Ref sig .tc := ⟨.hbm, 3191, rfl⟩
abbrev main_v2976 : Ref sig .tc := ⟨.hbm, 3192, rfl⟩
abbrev main_v2977 : Ref sig .tc := ⟨.hbm, 3193, rfl⟩
abbrev main_v2978 : Ref sig .tc := ⟨.hbm, 3194, rfl⟩
abbrev main_v2979 : Ref sig .tc := ⟨.hbm, 3195, rfl⟩
abbrev main_v2980 : Ref sig .tc := ⟨.hbm, 3196, rfl⟩
abbrev main_v2981 : Ref sig .tc := ⟨.hbm, 3197, rfl⟩
abbrev main_v2982 : Ref sig .tc := ⟨.hbm, 3198, rfl⟩
abbrev main_v2983 : Ref sig .tc := ⟨.hbm, 3199, rfl⟩
abbrev main_v2984 : Ref sig .tc := ⟨.hbm, 3200, rfl⟩
abbrev main_v2985 : Ref sig .tc := ⟨.hbm, 3201, rfl⟩
abbrev main_v2986 : Ref sig .tc := ⟨.hbm, 3202, rfl⟩
abbrev main_v2987 : Ref sig .tc := ⟨.hbm, 3203, rfl⟩
abbrev main_v2988 : Ref sig .tc := ⟨.hbm, 3204, rfl⟩
abbrev main_v2989 : Ref sig .tc := ⟨.hbm, 3205, rfl⟩
abbrev main_v2990 : Ref sig .tc := ⟨.hbm, 3206, rfl⟩
abbrev main_v2991 : Ref sig .tc := ⟨.hbm, 3207, rfl⟩
abbrev main_v2992 : Ref sig .tc := ⟨.hbm, 3208, rfl⟩
abbrev main_v2993 : Ref sig .tc := ⟨.hbm, 3209, rfl⟩
abbrev main_v2994 : Ref sig .tc := ⟨.hbm, 3210, rfl⟩
abbrev main_v2995 : Ref sig .tc := ⟨.hbm, 3211, rfl⟩
abbrev main_v2996 : Ref sig .tc := ⟨.hbm, 3212, rfl⟩
abbrev main_v2997 : Ref sig .tc := ⟨.hbm, 3213, rfl⟩
abbrev main_v2998 : Ref sig .tc := ⟨.hbm, 3214, rfl⟩
abbrev main_cst_190 : Ref sig .tc := ⟨.hbm, 3215, rfl⟩
abbrev main_v2999 : Ref sig .tc := ⟨.hbm, 3216, rfl⟩
abbrev main_v3000 : Ref sig .tc := ⟨.hbm, 3217, rfl⟩
abbrev main_cst_191 : Ref sig .tc := ⟨.hbm, 3218, rfl⟩
abbrev main_v3001 : Ref sig .tc := ⟨.hbm, 3219, rfl⟩
abbrev main_v3002 : Ref sig .tc := ⟨.hbm, 3220, rfl⟩
abbrev main_v3003 : Ref sig .tc := ⟨.hbm, 3221, rfl⟩
abbrev main_v3004 : Ref sig .tc := ⟨.hbm, 3222, rfl⟩
abbrev main_v3005 : Ref sig .tc := ⟨.hbm, 3223, rfl⟩
abbrev main_v3006 : Ref sig .tc := ⟨.hbm, 3224, rfl⟩
abbrev main_v3007 : Ref sig .tc := ⟨.hbm, 3225, rfl⟩
abbrev main_v3008 : Ref sig .tc := ⟨.hbm, 3226, rfl⟩
abbrev main_v3009 : Ref sig .tc := ⟨.hbm, 3227, rfl⟩
abbrev main_v3010 : Ref sig .tc := ⟨.hbm, 3228, rfl⟩
abbrev main_v3011 : Ref sig .tc := ⟨.hbm, 3229, rfl⟩
abbrev main_v3012 : Ref sig .tc := ⟨.hbm, 3230, rfl⟩
abbrev main_v3013 : Ref sig .tc := ⟨.hbm, 3231, rfl⟩
abbrev main_v3014 : Ref sig .tc := ⟨.hbm, 3232, rfl⟩
abbrev main_v3015 : Ref sig .tc := ⟨.hbm, 3233, rfl⟩
abbrev main_v3016 : Ref sig .tc := ⟨.hbm, 3234, rfl⟩
abbrev main_v3017 : Ref sig .tc := ⟨.hbm, 3235, rfl⟩
abbrev main_v3018 : Ref sig .tc := ⟨.hbm, 3236, rfl⟩
abbrev main_v3019 : Ref sig .tc := ⟨.hbm, 3237, rfl⟩
abbrev main_v3020 : Ref sig .tc := ⟨.hbm, 3238, rfl⟩
abbrev main_v3021 : Ref sig .tc := ⟨.hbm, 3239, rfl⟩
abbrev main_v3022 : Ref sig .tc := ⟨.hbm, 3240, rfl⟩
abbrev main_v3023 : Ref sig .tc := ⟨.hbm, 3241, rfl⟩
abbrev main_cst_192 : Ref sig .tc := ⟨.hbm, 3242, rfl⟩
abbrev main_v3024 : Ref sig .tc := ⟨.hbm, 3243, rfl⟩
abbrev main_v3025 : Ref sig .tc := ⟨.hbm, 3244, rfl⟩
abbrev main_cst_193 : Ref sig .tc := ⟨.hbm, 3245, rfl⟩
abbrev main_v3026 : Ref sig .tc := ⟨.hbm, 3246, rfl⟩
abbrev main_v3027 : Ref sig .tc := ⟨.hbm, 3247, rfl⟩
abbrev main_v3028 : Ref sig .tc := ⟨.hbm, 3248, rfl⟩
abbrev main_v3029 : Ref sig .tc := ⟨.hbm, 3249, rfl⟩
abbrev main_v3030 : Ref sig .tc := ⟨.hbm, 3250, rfl⟩
abbrev main_v3031 : Ref sig .tc := ⟨.hbm, 3251, rfl⟩
abbrev main_v3032 : Ref sig .tc := ⟨.hbm, 3252, rfl⟩
abbrev main_v3033 : Ref sig .tc := ⟨.hbm, 3253, rfl⟩
abbrev main_v3034 : Ref sig .tc := ⟨.hbm, 3254, rfl⟩
abbrev main_v3035 : Ref sig .tc := ⟨.hbm, 3255, rfl⟩
abbrev main_v3036 : Ref sig .tc := ⟨.hbm, 3256, rfl⟩
abbrev main_v3037 : Ref sig .tc := ⟨.hbm, 3257, rfl⟩
abbrev main_v3038 : Ref sig .tc := ⟨.hbm, 3258, rfl⟩
abbrev main_v3039 : Ref sig .tc := ⟨.hbm, 3259, rfl⟩
abbrev main_v3040 : Ref sig .tc := ⟨.hbm, 3260, rfl⟩
abbrev main_cst_194 : Ref sig .tc := ⟨.hbm, 3261, rfl⟩
abbrev main_v3041 : Ref sig .tc := ⟨.hbm, 3262, rfl⟩
abbrev main_v3042 : Ref sig .tc := ⟨.hbm, 3263, rfl⟩
abbrev main_v3043 : Ref sig .tc := ⟨.hbm, 3264, rfl⟩
abbrev main_v3044 : Ref sig .tc := ⟨.hbm, 3265, rfl⟩
abbrev main_v3045 : Ref sig .tc := ⟨.hbm, 3266, rfl⟩
abbrev main_v3046 : Ref sig .tc := ⟨.hbm, 3267, rfl⟩
abbrev main_v3047 : Ref sig .tc := ⟨.hbm, 3268, rfl⟩
abbrev main_v3048 : Ref sig .tc := ⟨.hbm, 3269, rfl⟩
abbrev main_v3049 : Ref sig .tc := ⟨.hbm, 3270, rfl⟩
abbrev main_v3050 : Ref sig .tc := ⟨.hbm, 3271, rfl⟩
abbrev main_v3051 : Ref sig .tc := ⟨.hbm, 3272, rfl⟩
abbrev main_v3052 : Ref sig .tc := ⟨.hbm, 3273, rfl⟩
abbrev main_v3053 : Ref sig .tc := ⟨.hbm, 3274, rfl⟩
abbrev main_v3054 : Ref sig .tc := ⟨.hbm, 3275, rfl⟩
abbrev main_v3055 : Ref sig .tc := ⟨.hbm, 3276, rfl⟩
abbrev main_v3056 : Ref sig .tc := ⟨.hbm, 3277, rfl⟩
abbrev main_v3057 : Ref sig .tc := ⟨.hbm, 3278, rfl⟩
abbrev main_v3058 : Ref sig .tc := ⟨.hbm, 3279, rfl⟩
abbrev main_v3059 : Ref sig .tc := ⟨.hbm, 3280, rfl⟩
abbrev main_v3060 : Ref sig .tc := ⟨.hbm, 3281, rfl⟩
abbrev main_v3061 : Ref sig .tc := ⟨.hbm, 3282, rfl⟩
abbrev main_v3062 : Ref sig .tc := ⟨.hbm, 3283, rfl⟩
abbrev main_v3063 : Ref sig .tc := ⟨.hbm, 3284, rfl⟩
abbrev main_v3064 : Ref sig .tc := ⟨.hbm, 3285, rfl⟩
abbrev main_v3065 : Ref sig .tc := ⟨.hbm, 3286, rfl⟩
abbrev main_v3066 : Ref sig .tc := ⟨.hbm, 3287, rfl⟩
abbrev main_v3067 : Ref sig .tc := ⟨.hbm, 3288, rfl⟩
abbrev main_v3068 : Ref sig .tc := ⟨.hbm, 3289, rfl⟩
abbrev main_v3069 : Ref sig .tc := ⟨.hbm, 3290, rfl⟩
abbrev main_v3070 : Ref sig .tc := ⟨.hbm, 3291, rfl⟩
abbrev main_v3071 : Ref sig .tc := ⟨.hbm, 3292, rfl⟩
abbrev main_v3072 : Ref sig .tc := ⟨.hbm, 3293, rfl⟩
abbrev main_v3073 : Ref sig .tc := ⟨.hbm, 3294, rfl⟩
abbrev main_v3074 : Ref sig .tc := ⟨.hbm, 3295, rfl⟩
abbrev main_v3075 : Ref sig .tc := ⟨.hbm, 3296, rfl⟩
abbrev main_v3076 : Ref sig .tc := ⟨.hbm, 3297, rfl⟩
abbrev main_v3077 : Ref sig .tc := ⟨.hbm, 3298, rfl⟩
abbrev main_v3078 : Ref sig .tc := ⟨.hbm, 3299, rfl⟩
abbrev main_v3079 : Ref sig .tc := ⟨.hbm, 3300, rfl⟩
abbrev main_v3080 : Ref sig .tc := ⟨.hbm, 3301, rfl⟩
abbrev main_cst_195 : Ref sig .tc := ⟨.hbm, 3302, rfl⟩
abbrev main_v3081 : Ref sig .tc := ⟨.hbm, 3303, rfl⟩
abbrev main_v3082 : Ref sig .tc := ⟨.hbm, 3304, rfl⟩
abbrev main_cst_196 : Ref sig .tc := ⟨.hbm, 3305, rfl⟩
abbrev main_v3083 : Ref sig .tc := ⟨.hbm, 3306, rfl⟩
abbrev main_v3084 : Ref sig .tc := ⟨.hbm, 3307, rfl⟩
abbrev main_v3085 : Ref sig .tc := ⟨.hbm, 3308, rfl⟩
abbrev main_v3086 : Ref sig .tc := ⟨.hbm, 3309, rfl⟩
abbrev main_v3087 : Ref sig .tc := ⟨.hbm, 3310, rfl⟩
abbrev main_v3088 : Ref sig .tc := ⟨.hbm, 3311, rfl⟩
abbrev main_v3089 : Ref sig .tc := ⟨.hbm, 3312, rfl⟩
abbrev main_v3090 : Ref sig .tc := ⟨.hbm, 3313, rfl⟩
abbrev main_v3091 : Ref sig .tc := ⟨.hbm, 3314, rfl⟩
abbrev main_v3092 : Ref sig .tc := ⟨.hbm, 3315, rfl⟩
abbrev main_v3093 : Ref sig .tc := ⟨.hbm, 3316, rfl⟩
abbrev main_v3094 : Ref sig .tc := ⟨.hbm, 3317, rfl⟩
abbrev main_v3095 : Ref sig .tc := ⟨.hbm, 3318, rfl⟩
abbrev main_v3096 : Ref sig .tc := ⟨.hbm, 3319, rfl⟩
abbrev main_v3097 : Ref sig .tc := ⟨.hbm, 3320, rfl⟩
abbrev main_v3098 : Ref sig .tc := ⟨.hbm, 3321, rfl⟩
abbrev main_v3099 : Ref sig .tc := ⟨.hbm, 3322, rfl⟩
abbrev main_v3100 : Ref sig .tc := ⟨.hbm, 3323, rfl⟩
abbrev main_v3101 : Ref sig .tc := ⟨.hbm, 3324, rfl⟩
abbrev main_v3102 : Ref sig .tc := ⟨.hbm, 3325, rfl⟩
abbrev main_v3103 : Ref sig .tc := ⟨.hbm, 3326, rfl⟩
abbrev main_v3104 : Ref sig .tc := ⟨.hbm, 3327, rfl⟩
abbrev main_v3105 : Ref sig .tc := ⟨.hbm, 3328, rfl⟩
abbrev main_v3106 : Ref sig .tc := ⟨.hbm, 3329, rfl⟩
abbrev main_v3107 : Ref sig .tc := ⟨.hbm, 3330, rfl⟩
abbrev main_v3108 : Ref sig .tc := ⟨.hbm, 3331, rfl⟩
abbrev main_cst_197 : Ref sig .tc := ⟨.hbm, 3332, rfl⟩
abbrev main_v3109 : Ref sig .tc := ⟨.hbm, 3333, rfl⟩
abbrev main_v3110 : Ref sig .tc := ⟨.hbm, 3334, rfl⟩
abbrev main_cst_198 : Ref sig .tc := ⟨.hbm, 3335, rfl⟩
abbrev main_v3111 : Ref sig .tc := ⟨.hbm, 3336, rfl⟩
abbrev main_v3112 : Ref sig .tc := ⟨.hbm, 3337, rfl⟩
abbrev main_v3113 : Ref sig .tc := ⟨.hbm, 3338, rfl⟩
abbrev main_v3114 : Ref sig .tc := ⟨.hbm, 3339, rfl⟩
abbrev main_v3115 : Ref sig .tc := ⟨.hbm, 3340, rfl⟩
abbrev main_v3116 : Ref sig .tc := ⟨.hbm, 3341, rfl⟩
abbrev main_v3117 : Ref sig .tc := ⟨.hbm, 3342, rfl⟩
abbrev main_v3118 : Ref sig .tc := ⟨.hbm, 3343, rfl⟩
abbrev main_v3119 : Ref sig .tc := ⟨.hbm, 3344, rfl⟩
abbrev main_v3120 : Ref sig .tc := ⟨.hbm, 3345, rfl⟩
abbrev main_v3121 : Ref sig .tc := ⟨.hbm, 3346, rfl⟩
abbrev main_v3122 : Ref sig .tc := ⟨.hbm, 3347, rfl⟩
abbrev main_v3123 : Ref sig .tc := ⟨.hbm, 3348, rfl⟩
abbrev main_v3124 : Ref sig .tc := ⟨.hbm, 3349, rfl⟩
abbrev main_v3125 : Ref sig .tc := ⟨.hbm, 3350, rfl⟩
abbrev main_v3126 : Ref sig .tc := ⟨.hbm, 3351, rfl⟩
abbrev main_v3127 : Ref sig .tc := ⟨.hbm, 3352, rfl⟩
abbrev main_v3128 : Ref sig .tc := ⟨.hbm, 3353, rfl⟩
abbrev main_v3129 : Ref sig .tc := ⟨.hbm, 3354, rfl⟩
abbrev main_v3130 : Ref sig .tc := ⟨.hbm, 3355, rfl⟩
abbrev main_v3131 : Ref sig .tc := ⟨.hbm, 3356, rfl⟩
abbrev main_v3132 : Ref sig .tc := ⟨.hbm, 3357, rfl⟩
abbrev main_v3133 : Ref sig .tc := ⟨.hbm, 3358, rfl⟩
abbrev main_v3134 : Ref sig .tc := ⟨.hbm, 3359, rfl⟩
abbrev main_v3135 : Ref sig .tc := ⟨.hbm, 3360, rfl⟩
abbrev main_cst_199 : Ref sig .tc := ⟨.hbm, 3361, rfl⟩
abbrev main_v3136 : Ref sig .tc := ⟨.hbm, 3362, rfl⟩
abbrev main_v3137 : Ref sig .tc := ⟨.hbm, 3363, rfl⟩
abbrev main_cst_200 : Ref sig .tc := ⟨.hbm, 3364, rfl⟩
abbrev main_v3138 : Ref sig .tc := ⟨.hbm, 3365, rfl⟩
abbrev main_v3139 : Ref sig .tc := ⟨.hbm, 3366, rfl⟩
abbrev main_v3140 : Ref sig .tc := ⟨.hbm, 3367, rfl⟩
abbrev main_v3141 : Ref sig .tc := ⟨.hbm, 3368, rfl⟩
abbrev main_v3142 : Ref sig .tc := ⟨.hbm, 3369, rfl⟩
abbrev main_v3143 : Ref sig .tc := ⟨.hbm, 3370, rfl⟩
abbrev main_v3144 : Ref sig .tc := ⟨.hbm, 3371, rfl⟩
abbrev main_v3145 : Ref sig .tc := ⟨.hbm, 3372, rfl⟩
abbrev main_v3146 : Ref sig .tc := ⟨.hbm, 3373, rfl⟩
abbrev main_v3147 : Ref sig .tc := ⟨.hbm, 3374, rfl⟩
abbrev main_v3148 : Ref sig .tc := ⟨.hbm, 3375, rfl⟩
abbrev main_v3149 : Ref sig .tc := ⟨.hbm, 3376, rfl⟩
abbrev main_v3150 : Ref sig .tc := ⟨.hbm, 3377, rfl⟩
abbrev main_v3151 : Ref sig .tc := ⟨.hbm, 3378, rfl⟩
abbrev main_v3152 : Ref sig .tc := ⟨.hbm, 3379, rfl⟩
abbrev main_v3153 : Ref sig .tc := ⟨.hbm, 3380, rfl⟩
abbrev main_v3154 : Ref sig .tc := ⟨.hbm, 3381, rfl⟩
abbrev main_v3155 : Ref sig .tc := ⟨.hbm, 3382, rfl⟩
abbrev main_v3156 : Ref sig .tc := ⟨.hbm, 3383, rfl⟩
abbrev main_v3157 : Ref sig .tc := ⟨.hbm, 3384, rfl⟩
abbrev main_v3158 : Ref sig .tc := ⟨.hbm, 3385, rfl⟩
abbrev main_v3159 : Ref sig .tc := ⟨.hbm, 3386, rfl⟩
abbrev main_v3160 : Ref sig .tc := ⟨.hbm, 3387, rfl⟩
abbrev main_cst_201 : Ref sig .tc := ⟨.hbm, 3388, rfl⟩
abbrev main_v3161 : Ref sig .tc := ⟨.hbm, 3389, rfl⟩
abbrev main_v3162 : Ref sig .tc := ⟨.hbm, 3390, rfl⟩
abbrev main_cst_202 : Ref sig .tc := ⟨.hbm, 3391, rfl⟩
abbrev main_v3163 : Ref sig .tc := ⟨.hbm, 3392, rfl⟩
abbrev main_v3164 : Ref sig .tc := ⟨.hbm, 3393, rfl⟩
abbrev main_v3165 : Ref sig .tc := ⟨.hbm, 3394, rfl⟩
abbrev main_v3166 : Ref sig .tc := ⟨.hbm, 3395, rfl⟩
abbrev main_v3167 : Ref sig .tc := ⟨.hbm, 3396, rfl⟩
abbrev main_v3168 : Ref sig .tc := ⟨.hbm, 3397, rfl⟩
abbrev main_v3169 : Ref sig .tc := ⟨.hbm, 3398, rfl⟩
abbrev main_v3170 : Ref sig .tc := ⟨.hbm, 3399, rfl⟩
abbrev main_v3171 : Ref sig .tc := ⟨.hbm, 3400, rfl⟩
abbrev main_v3172 : Ref sig .tc := ⟨.hbm, 3401, rfl⟩
abbrev main_v3173 : Ref sig .tc := ⟨.hbm, 3402, rfl⟩
abbrev main_v3174 : Ref sig .tc := ⟨.hbm, 3403, rfl⟩
abbrev main_v3175 : Ref sig .tc := ⟨.hbm, 3404, rfl⟩
abbrev main_v3176 : Ref sig .tc := ⟨.hbm, 3405, rfl⟩
abbrev main_v3177 : Ref sig .tc := ⟨.hbm, 3406, rfl⟩
abbrev main_cst_203 : Ref sig .tc := ⟨.hbm, 3407, rfl⟩
abbrev main_v3178 : Ref sig .tc := ⟨.hbm, 3408, rfl⟩
abbrev main_v3179 : Ref sig .tc := ⟨.hbm, 3409, rfl⟩
abbrev main_v3180 : Ref sig .tc := ⟨.hbm, 3410, rfl⟩
abbrev main_v3181 : Ref sig .tc := ⟨.hbm, 3411, rfl⟩
abbrev main_v3182 : Ref sig .tc := ⟨.hbm, 3412, rfl⟩
abbrev main_v3183 : Ref sig .tc := ⟨.hbm, 3413, rfl⟩
abbrev main_v3184 : Ref sig .tc := ⟨.hbm, 3414, rfl⟩
abbrev main_v3185 : Ref sig .tc := ⟨.hbm, 3415, rfl⟩
abbrev main_v3186 : Ref sig .tc := ⟨.hbm, 3416, rfl⟩
abbrev main_v3187 : Ref sig .tc := ⟨.hbm, 3417, rfl⟩
abbrev main_v3188 : Ref sig .tc := ⟨.hbm, 3418, rfl⟩
abbrev main_v3189 : Ref sig .tc := ⟨.hbm, 3419, rfl⟩
abbrev main_v3190 : Ref sig .tc := ⟨.hbm, 3420, rfl⟩
abbrev main_v3191 : Ref sig .tc := ⟨.hbm, 3421, rfl⟩
abbrev main_v3192 : Ref sig .tc := ⟨.hbm, 3422, rfl⟩
abbrev main_v3193 : Ref sig .tc := ⟨.hbm, 3423, rfl⟩
abbrev main_v3194 : Ref sig .tc := ⟨.hbm, 3424, rfl⟩
abbrev main_v3195 : Ref sig .tc := ⟨.hbm, 3425, rfl⟩
abbrev main_v3196 : Ref sig .tc := ⟨.hbm, 3426, rfl⟩
abbrev main_v3197 : Ref sig .tc := ⟨.hbm, 3427, rfl⟩
abbrev main_v3198 : Ref sig .tc := ⟨.hbm, 3428, rfl⟩
abbrev main_v3199 : Ref sig .tc := ⟨.hbm, 3429, rfl⟩
abbrev main_v3200 : Ref sig .tc := ⟨.hbm, 3430, rfl⟩
abbrev main_v3201 : Ref sig .tc := ⟨.hbm, 3431, rfl⟩
abbrev main_v3202 : Ref sig .tc := ⟨.hbm, 3432, rfl⟩
abbrev main_v3203 : Ref sig .tc := ⟨.hbm, 3433, rfl⟩
abbrev main_v3204 : Ref sig .tc := ⟨.hbm, 3434, rfl⟩
abbrev main_v3205 : Ref sig .tc := ⟨.hbm, 3435, rfl⟩
abbrev main_v3206 : Ref sig .tc := ⟨.hbm, 3436, rfl⟩
abbrev main_v3207 : Ref sig .tc := ⟨.hbm, 3437, rfl⟩
abbrev main_v3208 : Ref sig .tc := ⟨.hbm, 3438, rfl⟩
abbrev main_v3209 : Ref sig .tc := ⟨.hbm, 3439, rfl⟩
abbrev main_v3210 : Ref sig .tc := ⟨.hbm, 3440, rfl⟩
abbrev main_v3211 : Ref sig .tc := ⟨.hbm, 3441, rfl⟩
abbrev main_v3212 : Ref sig .tc := ⟨.hbm, 3442, rfl⟩
abbrev main_v3213 : Ref sig .tc := ⟨.hbm, 3443, rfl⟩
abbrev main_v3214 : Ref sig .tc := ⟨.hbm, 3444, rfl⟩
abbrev main_v3215 : Ref sig .tc := ⟨.hbm, 3445, rfl⟩
abbrev main_v3216 : Ref sig .tc := ⟨.hbm, 3446, rfl⟩
abbrev main_v3217 : Ref sig .tc := ⟨.hbm, 3447, rfl⟩
abbrev main_cst_204 : Ref sig .tc := ⟨.hbm, 3448, rfl⟩
abbrev main_v3218 : Ref sig .tc := ⟨.hbm, 3449, rfl⟩
abbrev main_v3219 : Ref sig .tc := ⟨.hbm, 3450, rfl⟩
abbrev main_cst_205 : Ref sig .tc := ⟨.hbm, 3451, rfl⟩
abbrev main_v3220 : Ref sig .tc := ⟨.hbm, 3452, rfl⟩
abbrev main_v3221 : Ref sig .tc := ⟨.hbm, 3453, rfl⟩
abbrev main_v3222 : Ref sig .tc := ⟨.hbm, 3454, rfl⟩
abbrev main_v3223 : Ref sig .tc := ⟨.hbm, 3455, rfl⟩
abbrev main_v3224 : Ref sig .tc := ⟨.hbm, 3456, rfl⟩
abbrev main_v3225 : Ref sig .tc := ⟨.hbm, 3457, rfl⟩
abbrev main_v3226 : Ref sig .tc := ⟨.hbm, 3458, rfl⟩
abbrev main_v3227 : Ref sig .tc := ⟨.hbm, 3459, rfl⟩
abbrev main_v3228 : Ref sig .tc := ⟨.hbm, 3460, rfl⟩
abbrev main_v3229 : Ref sig .tc := ⟨.hbm, 3461, rfl⟩
abbrev main_v3230 : Ref sig .tc := ⟨.hbm, 3462, rfl⟩
abbrev main_v3231 : Ref sig .tc := ⟨.hbm, 3463, rfl⟩
abbrev main_v3232 : Ref sig .tc := ⟨.hbm, 3464, rfl⟩
abbrev main_v3233 : Ref sig .tc := ⟨.hbm, 3465, rfl⟩
abbrev main_v3234 : Ref sig .tc := ⟨.hbm, 3466, rfl⟩
abbrev main_v3235 : Ref sig .tc := ⟨.hbm, 3467, rfl⟩
abbrev main_v3236 : Ref sig .tc := ⟨.hbm, 3468, rfl⟩
abbrev main_v3237 : Ref sig .tc := ⟨.hbm, 3469, rfl⟩
abbrev main_v3238 : Ref sig .tc := ⟨.hbm, 3470, rfl⟩
abbrev main_v3239 : Ref sig .tc := ⟨.hbm, 3471, rfl⟩
abbrev main_v3240 : Ref sig .tc := ⟨.hbm, 3472, rfl⟩
abbrev main_v3241 : Ref sig .tc := ⟨.hbm, 3473, rfl⟩
abbrev main_v3242 : Ref sig .tc := ⟨.hbm, 3474, rfl⟩
abbrev main_v3243 : Ref sig .tc := ⟨.hbm, 3475, rfl⟩
abbrev main_v3244 : Ref sig .tc := ⟨.hbm, 3476, rfl⟩
abbrev main_v3245 : Ref sig .tc := ⟨.hbm, 3477, rfl⟩
abbrev main_cst_206 : Ref sig .tc := ⟨.hbm, 3478, rfl⟩
abbrev main_v3246 : Ref sig .tc := ⟨.hbm, 3479, rfl⟩
abbrev main_v3247 : Ref sig .tc := ⟨.hbm, 3480, rfl⟩
abbrev main_cst_207 : Ref sig .tc := ⟨.hbm, 3481, rfl⟩
abbrev main_v3248 : Ref sig .tc := ⟨.hbm, 3482, rfl⟩
abbrev main_v3249 : Ref sig .tc := ⟨.hbm, 3483, rfl⟩
abbrev main_v3250 : Ref sig .tc := ⟨.hbm, 3484, rfl⟩
abbrev main_v3251 : Ref sig .tc := ⟨.hbm, 3485, rfl⟩
abbrev main_v3252 : Ref sig .tc := ⟨.hbm, 3486, rfl⟩
abbrev main_v3253 : Ref sig .tc := ⟨.hbm, 3487, rfl⟩
abbrev main_v3254 : Ref sig .tc := ⟨.hbm, 3488, rfl⟩
abbrev main_v3255 : Ref sig .tc := ⟨.hbm, 3489, rfl⟩
abbrev main_v3256 : Ref sig .tc := ⟨.hbm, 3490, rfl⟩
abbrev main_v3257 : Ref sig .tc := ⟨.hbm, 3491, rfl⟩
abbrev main_v3258 : Ref sig .tc := ⟨.hbm, 3492, rfl⟩
abbrev main_v3259 : Ref sig .tc := ⟨.hbm, 3493, rfl⟩
abbrev main_v3260 : Ref sig .tc := ⟨.hbm, 3494, rfl⟩
abbrev main_v3261 : Ref sig .tc := ⟨.hbm, 3495, rfl⟩
abbrev main_v3262 : Ref sig .tc := ⟨.hbm, 3496, rfl⟩
abbrev main_v3263 : Ref sig .tc := ⟨.hbm, 3497, rfl⟩
abbrev main_v3264 : Ref sig .tc := ⟨.hbm, 3498, rfl⟩
abbrev main_v3265 : Ref sig .tc := ⟨.hbm, 3499, rfl⟩
abbrev main_v3266 : Ref sig .tc := ⟨.hbm, 3500, rfl⟩
abbrev main_v3267 : Ref sig .tc := ⟨.hbm, 3501, rfl⟩
abbrev main_v3268 : Ref sig .tc := ⟨.hbm, 3502, rfl⟩
abbrev main_v3269 : Ref sig .tc := ⟨.hbm, 3503, rfl⟩
abbrev main_v3270 : Ref sig .tc := ⟨.hbm, 3504, rfl⟩
abbrev main_v3271 : Ref sig .tc := ⟨.hbm, 3505, rfl⟩
abbrev main_v3272 : Ref sig .tc := ⟨.hbm, 3506, rfl⟩
abbrev main_cst_208 : Ref sig .tc := ⟨.hbm, 3507, rfl⟩
abbrev main_v3273 : Ref sig .tc := ⟨.hbm, 3508, rfl⟩
abbrev main_v3274 : Ref sig .tc := ⟨.hbm, 3509, rfl⟩
abbrev main_cst_209 : Ref sig .tc := ⟨.hbm, 3510, rfl⟩
abbrev main_v3275 : Ref sig .tc := ⟨.hbm, 3511, rfl⟩
abbrev main_v3276 : Ref sig .tc := ⟨.hbm, 3512, rfl⟩
abbrev main_v3277 : Ref sig .tc := ⟨.hbm, 3513, rfl⟩
abbrev main_v3278 : Ref sig .tc := ⟨.hbm, 3514, rfl⟩
abbrev main_v3279 : Ref sig .tc := ⟨.hbm, 3515, rfl⟩
abbrev main_v3280 : Ref sig .tc := ⟨.hbm, 3516, rfl⟩
abbrev main_v3281 : Ref sig .tc := ⟨.hbm, 3517, rfl⟩
abbrev main_v3282 : Ref sig .tc := ⟨.hbm, 3518, rfl⟩
abbrev main_v3283 : Ref sig .tc := ⟨.hbm, 3519, rfl⟩
abbrev main_v3284 : Ref sig .tc := ⟨.hbm, 3520, rfl⟩
abbrev main_v3285 : Ref sig .tc := ⟨.hbm, 3521, rfl⟩
abbrev main_v3286 : Ref sig .tc := ⟨.hbm, 3522, rfl⟩
abbrev main_v3287 : Ref sig .tc := ⟨.hbm, 3523, rfl⟩
abbrev main_v3288 : Ref sig .tc := ⟨.hbm, 3524, rfl⟩
abbrev main_v3289 : Ref sig .tc := ⟨.hbm, 3525, rfl⟩
abbrev main_v3290 : Ref sig .tc := ⟨.hbm, 3526, rfl⟩
abbrev main_v3291 : Ref sig .tc := ⟨.hbm, 3527, rfl⟩
abbrev main_v3292 : Ref sig .tc := ⟨.hbm, 3528, rfl⟩
abbrev main_v3293 : Ref sig .tc := ⟨.hbm, 3529, rfl⟩
abbrev main_v3294 : Ref sig .tc := ⟨.hbm, 3530, rfl⟩
abbrev main_v3295 : Ref sig .tc := ⟨.hbm, 3531, rfl⟩
abbrev main_v3296 : Ref sig .tc := ⟨.hbm, 3532, rfl⟩
abbrev main_v3297 : Ref sig .tc := ⟨.hbm, 3533, rfl⟩
abbrev main_cst_210 : Ref sig .tc := ⟨.hbm, 3534, rfl⟩
abbrev main_v3298 : Ref sig .tc := ⟨.hbm, 3535, rfl⟩
abbrev main_v3299 : Ref sig .tc := ⟨.hbm, 3536, rfl⟩
abbrev main_cst_211 : Ref sig .tc := ⟨.hbm, 3537, rfl⟩
abbrev main_v3300 : Ref sig .tc := ⟨.hbm, 3538, rfl⟩
abbrev main_v3301 : Ref sig .tc := ⟨.hbm, 3539, rfl⟩
abbrev main_v3302 : Ref sig .tc := ⟨.hbm, 3540, rfl⟩
abbrev main_v3303 : Ref sig .tc := ⟨.hbm, 3541, rfl⟩
abbrev main_v3304 : Ref sig .tc := ⟨.hbm, 3542, rfl⟩
abbrev main_v3305 : Ref sig .tc := ⟨.hbm, 3543, rfl⟩
abbrev main_v3306 : Ref sig .tc := ⟨.hbm, 3544, rfl⟩
abbrev main_v3307 : Ref sig .tc := ⟨.hbm, 3545, rfl⟩
abbrev main_v3308 : Ref sig .tc := ⟨.hbm, 3546, rfl⟩
abbrev main_v3309 : Ref sig .tc := ⟨.hbm, 3547, rfl⟩
abbrev main_v3310 : Ref sig .tc := ⟨.hbm, 3548, rfl⟩
abbrev main_v3311 : Ref sig .tc := ⟨.hbm, 3549, rfl⟩
abbrev main_v3312 : Ref sig .tc := ⟨.hbm, 3550, rfl⟩
abbrev main_v3313 : Ref sig .tc := ⟨.hbm, 3551, rfl⟩
abbrev main_v3314 : Ref sig .tc := ⟨.hbm, 3552, rfl⟩
abbrev main_cst_212 : Ref sig .tc := ⟨.hbm, 3553, rfl⟩
abbrev main_v3315 : Ref sig .tc := ⟨.hbm, 3554, rfl⟩
abbrev main_v3316 : Ref sig .tc := ⟨.hbm, 3555, rfl⟩
abbrev main_v3317 : Ref sig .tc := ⟨.hbm, 3556, rfl⟩
abbrev main_v3318 : Ref sig .tc := ⟨.hbm, 3557, rfl⟩
abbrev main_v3319 : Ref sig .tc := ⟨.hbm, 3558, rfl⟩
abbrev main_v3320 : Ref sig .tc := ⟨.hbm, 3559, rfl⟩
abbrev main_v3321 : Ref sig .tc := ⟨.hbm, 3560, rfl⟩
abbrev main_v3322 : Ref sig .tc := ⟨.hbm, 3561, rfl⟩
abbrev main_v3323 : Ref sig .tc := ⟨.hbm, 3562, rfl⟩
abbrev main_v3324 : Ref sig .tc := ⟨.hbm, 3563, rfl⟩
abbrev main_v3325 : Ref sig .tc := ⟨.hbm, 3564, rfl⟩
abbrev main_v3326 : Ref sig .tc := ⟨.hbm, 3565, rfl⟩
abbrev main_v3327 : Ref sig .tc := ⟨.hbm, 3566, rfl⟩
abbrev main_v3328 : Ref sig .tc := ⟨.hbm, 3567, rfl⟩
abbrev main_v3329 : Ref sig .tc := ⟨.hbm, 3568, rfl⟩
abbrev main_v3330 : Ref sig .tc := ⟨.hbm, 3569, rfl⟩
abbrev main_v3331 : Ref sig .tc := ⟨.hbm, 3570, rfl⟩
abbrev main_v3332 : Ref sig .tc := ⟨.hbm, 3571, rfl⟩
abbrev main_v3333 : Ref sig .tc := ⟨.hbm, 3572, rfl⟩
abbrev main_v3334 : Ref sig .tc := ⟨.hbm, 3573, rfl⟩
abbrev main_v3335 : Ref sig .tc := ⟨.hbm, 3574, rfl⟩
abbrev main_v3336 : Ref sig .tc := ⟨.hbm, 3575, rfl⟩
abbrev main_v3337 : Ref sig .tc := ⟨.hbm, 3576, rfl⟩
abbrev main_v3338 : Ref sig .tc := ⟨.hbm, 3577, rfl⟩
abbrev main_v3339 : Ref sig .tc := ⟨.hbm, 3578, rfl⟩
abbrev main_v3340 : Ref sig .tc := ⟨.hbm, 3579, rfl⟩
abbrev main_v3341 : Ref sig .tc := ⟨.hbm, 3580, rfl⟩
abbrev main_v3342 : Ref sig .tc := ⟨.hbm, 3581, rfl⟩
abbrev main_v3343 : Ref sig .tc := ⟨.hbm, 3582, rfl⟩
abbrev main_v3344 : Ref sig .tc := ⟨.hbm, 3583, rfl⟩
abbrev main_v3345 : Ref sig .tc := ⟨.hbm, 3584, rfl⟩
abbrev main_v3346 : Ref sig .tc := ⟨.hbm, 3585, rfl⟩
abbrev main_v3347 : Ref sig .tc := ⟨.hbm, 3586, rfl⟩
abbrev main_v3348 : Ref sig .tc := ⟨.hbm, 3587, rfl⟩
abbrev main_v3349 : Ref sig .tc := ⟨.hbm, 3588, rfl⟩
abbrev main_v3350 : Ref sig .tc := ⟨.hbm, 3589, rfl⟩
abbrev main_v3351 : Ref sig .tc := ⟨.hbm, 3590, rfl⟩
abbrev main_v3352 : Ref sig .tc := ⟨.hbm, 3591, rfl⟩
abbrev main_v3353 : Ref sig .tc := ⟨.hbm, 3592, rfl⟩
abbrev main_v3354 : Ref sig .tc := ⟨.hbm, 3593, rfl⟩
abbrev main_cst_213 : Ref sig .tc := ⟨.hbm, 3594, rfl⟩
abbrev main_v3355 : Ref sig .tc := ⟨.hbm, 3595, rfl⟩
abbrev main_v3356 : Ref sig .tc := ⟨.hbm, 3596, rfl⟩
abbrev main_cst_214 : Ref sig .tc := ⟨.hbm, 3597, rfl⟩
abbrev main_v3357 : Ref sig .tc := ⟨.hbm, 3598, rfl⟩
abbrev main_v3358 : Ref sig .tc := ⟨.hbm, 3599, rfl⟩
abbrev main_v3359 : Ref sig .tc := ⟨.hbm, 3600, rfl⟩
abbrev main_v3360 : Ref sig .tc := ⟨.hbm, 3601, rfl⟩
abbrev main_v3361 : Ref sig .tc := ⟨.hbm, 3602, rfl⟩
abbrev main_v3362 : Ref sig .tc := ⟨.hbm, 3603, rfl⟩
abbrev main_v3363 : Ref sig .tc := ⟨.hbm, 3604, rfl⟩
abbrev main_v3364 : Ref sig .tc := ⟨.hbm, 3605, rfl⟩
abbrev main_v3365 : Ref sig .tc := ⟨.hbm, 3606, rfl⟩
abbrev main_v3366 : Ref sig .tc := ⟨.hbm, 3607, rfl⟩
abbrev main_v3367 : Ref sig .tc := ⟨.hbm, 3608, rfl⟩
abbrev main_v3368 : Ref sig .tc := ⟨.hbm, 3609, rfl⟩
abbrev main_v3369 : Ref sig .tc := ⟨.hbm, 3610, rfl⟩
abbrev main_v3370 : Ref sig .tc := ⟨.hbm, 3611, rfl⟩
abbrev main_v3371 : Ref sig .tc := ⟨.hbm, 3612, rfl⟩
abbrev main_v3372 : Ref sig .tc := ⟨.hbm, 3613, rfl⟩
abbrev main_v3373 : Ref sig .tc := ⟨.hbm, 3614, rfl⟩
abbrev main_v3374 : Ref sig .tc := ⟨.hbm, 3615, rfl⟩
abbrev main_v3375 : Ref sig .tc := ⟨.hbm, 3616, rfl⟩
abbrev main_v3376 : Ref sig .tc := ⟨.hbm, 3617, rfl⟩
abbrev main_v3377 : Ref sig .tc := ⟨.hbm, 3618, rfl⟩
abbrev main_v3378 : Ref sig .tc := ⟨.hbm, 3619, rfl⟩
abbrev main_v3379 : Ref sig .tc := ⟨.hbm, 3620, rfl⟩
abbrev main_v3380 : Ref sig .tc := ⟨.hbm, 3621, rfl⟩
abbrev main_v3381 : Ref sig .tc := ⟨.hbm, 3622, rfl⟩
abbrev main_v3382 : Ref sig .tc := ⟨.hbm, 3623, rfl⟩
abbrev main_v3383 : Ref sig .tc := ⟨.hbm, 3624, rfl⟩
abbrev main_v3384 : Ref sig .tc := ⟨.hbm, 3625, rfl⟩
abbrev main_v3385 : Ref sig .tc := ⟨.hbm, 3626, rfl⟩
abbrev main_v3386 : Ref sig .tc := ⟨.hbm, 3627, rfl⟩
abbrev main_v3387 : Ref sig .tc := ⟨.hbm, 3628, rfl⟩
abbrev main_v3388 : Ref sig .tc := ⟨.hbm, 3629, rfl⟩
abbrev main_v3389 : Ref sig .tc := ⟨.hbm, 3630, rfl⟩
abbrev main_v3390 : Ref sig .tc := ⟨.hbm, 3631, rfl⟩
abbrev main_v3391 : Ref sig .tc := ⟨.hbm, 3632, rfl⟩
abbrev main_v3392 : Ref sig .tc := ⟨.hbm, 3633, rfl⟩
abbrev main_cst_215 : Ref sig .tc := ⟨.hbm, 3634, rfl⟩
abbrev main_v3393 : Ref sig .tc := ⟨.hbm, 3635, rfl⟩
abbrev main_v3394 : Ref sig .tc := ⟨.hbm, 3636, rfl⟩
abbrev main_cst_216 : Ref sig .tc := ⟨.hbm, 3637, rfl⟩
abbrev main_v3395 : Ref sig .tc := ⟨.hbm, 3638, rfl⟩
abbrev main_v3396 : Ref sig .tc := ⟨.hbm, 3639, rfl⟩
abbrev main_v3397 : Ref sig .tc := ⟨.hbm, 3640, rfl⟩
abbrev main_v3398 : Ref sig .tc := ⟨.hbm, 3641, rfl⟩
abbrev main_v3399 : Ref sig .tc := ⟨.hbm, 3642, rfl⟩
abbrev main_v3400 : Ref sig .tc := ⟨.hbm, 3643, rfl⟩
abbrev main_v3401 : Ref sig .tc := ⟨.hbm, 3644, rfl⟩
abbrev main_v3402 : Ref sig .tc := ⟨.hbm, 3645, rfl⟩
abbrev main_v3403 : Ref sig .tc := ⟨.hbm, 3646, rfl⟩
abbrev main_v3404 : Ref sig .tc := ⟨.hbm, 3647, rfl⟩
abbrev main_v3405 : Ref sig .tc := ⟨.hbm, 3648, rfl⟩
abbrev main_v3406 : Ref sig .tc := ⟨.hbm, 3649, rfl⟩
abbrev main_v3407 : Ref sig .tc := ⟨.hbm, 3650, rfl⟩
abbrev main_v3408 : Ref sig .tc := ⟨.hbm, 3651, rfl⟩
abbrev main_v3409 : Ref sig .tc := ⟨.hbm, 3652, rfl⟩
abbrev main_v3410 : Ref sig .tc := ⟨.hbm, 3653, rfl⟩
abbrev main_v3411 : Ref sig .tc := ⟨.hbm, 3654, rfl⟩
abbrev main_v3412 : Ref sig .tc := ⟨.hbm, 3655, rfl⟩
abbrev main_v3413 : Ref sig .tc := ⟨.hbm, 3656, rfl⟩
abbrev main_v3414 : Ref sig .tc := ⟨.hbm, 3657, rfl⟩
abbrev main_v3415 : Ref sig .tc := ⟨.hbm, 3658, rfl⟩
abbrev main_v3416 : Ref sig .tc := ⟨.hbm, 3659, rfl⟩
abbrev main_v3417 : Ref sig .tc := ⟨.hbm, 3660, rfl⟩
abbrev main_v3418 : Ref sig .tc := ⟨.hbm, 3661, rfl⟩
abbrev main_v3419 : Ref sig .tc := ⟨.hbm, 3662, rfl⟩
abbrev main_cst_217 : Ref sig .tc := ⟨.hbm, 3663, rfl⟩
abbrev main_v3420 : Ref sig .tc := ⟨.hbm, 3664, rfl⟩
abbrev main_v3421 : Ref sig .tc := ⟨.hbm, 3665, rfl⟩
abbrev main_cst_218 : Ref sig .tc := ⟨.hbm, 3666, rfl⟩
abbrev main_v3422 : Ref sig .tc := ⟨.hbm, 3667, rfl⟩
abbrev main_v3423 : Ref sig .tc := ⟨.hbm, 3668, rfl⟩
abbrev main_v3424 : Ref sig .tc := ⟨.hbm, 3669, rfl⟩
abbrev main_v3425 : Ref sig .tc := ⟨.hbm, 3670, rfl⟩
abbrev main_v3426 : Ref sig .tc := ⟨.hbm, 3671, rfl⟩
abbrev main_v3427 : Ref sig .tc := ⟨.hbm, 3672, rfl⟩
abbrev main_v3428 : Ref sig .tc := ⟨.hbm, 3673, rfl⟩
abbrev main_v3429 : Ref sig .tc := ⟨.hbm, 3674, rfl⟩
abbrev main_v3430 : Ref sig .tc := ⟨.hbm, 3675, rfl⟩
abbrev main_v3431 : Ref sig .tc := ⟨.hbm, 3676, rfl⟩
abbrev main_v3432 : Ref sig .tc := ⟨.hbm, 3677, rfl⟩
abbrev main_v3433 : Ref sig .tc := ⟨.hbm, 3678, rfl⟩
abbrev main_v3434 : Ref sig .tc := ⟨.hbm, 3679, rfl⟩
abbrev main_v3435 : Ref sig .tc := ⟨.hbm, 3680, rfl⟩
abbrev main_v3436 : Ref sig .tc := ⟨.hbm, 3681, rfl⟩
abbrev main_v3437 : Ref sig .tc := ⟨.hbm, 3682, rfl⟩
abbrev main_v3438 : Ref sig .tc := ⟨.hbm, 3683, rfl⟩
abbrev main_v3439 : Ref sig .tc := ⟨.hbm, 3684, rfl⟩
abbrev main_v3440 : Ref sig .tc := ⟨.hbm, 3685, rfl⟩
abbrev main_v3441 : Ref sig .tc := ⟨.hbm, 3686, rfl⟩
abbrev main_v3442 : Ref sig .tc := ⟨.hbm, 3687, rfl⟩
abbrev main_v3443 : Ref sig .tc := ⟨.hbm, 3688, rfl⟩
abbrev main_v3444 : Ref sig .tc := ⟨.hbm, 3689, rfl⟩
abbrev main_cst_219 : Ref sig .tc := ⟨.hbm, 3690, rfl⟩
abbrev main_v3445 : Ref sig .tc := ⟨.hbm, 3691, rfl⟩
abbrev main_v3446 : Ref sig .tc := ⟨.hbm, 3692, rfl⟩
abbrev main_cst_220 : Ref sig .tc := ⟨.hbm, 3693, rfl⟩
abbrev main_v3447 : Ref sig .tc := ⟨.hbm, 3694, rfl⟩
abbrev main_v3448 : Ref sig .tc := ⟨.hbm, 3695, rfl⟩
abbrev main_v3449 : Ref sig .tc := ⟨.hbm, 3696, rfl⟩
abbrev main_v3450 : Ref sig .tc := ⟨.hbm, 3697, rfl⟩
abbrev main_v3451 : Ref sig .tc := ⟨.hbm, 3698, rfl⟩
abbrev main_v3452 : Ref sig .tc := ⟨.hbm, 3699, rfl⟩
abbrev main_v3453 : Ref sig .tc := ⟨.hbm, 3700, rfl⟩
abbrev main_v3454 : Ref sig .tc := ⟨.hbm, 3701, rfl⟩
abbrev main_v3455 : Ref sig .tc := ⟨.hbm, 3702, rfl⟩
abbrev main_v3456 : Ref sig .tc := ⟨.hbm, 3703, rfl⟩
abbrev main_v3457 : Ref sig .tc := ⟨.hbm, 3704, rfl⟩
abbrev main_v3458 : Ref sig .tc := ⟨.hbm, 3705, rfl⟩
abbrev main_v3459 : Ref sig .tc := ⟨.hbm, 3706, rfl⟩
abbrev main_v3460 : Ref sig .tc := ⟨.hbm, 3707, rfl⟩
abbrev main_v3461 : Ref sig .tc := ⟨.hbm, 3708, rfl⟩
abbrev main_cst_221 : Ref sig .tc := ⟨.hbm, 3709, rfl⟩
abbrev main_v3462 : Ref sig .tc := ⟨.hbm, 3710, rfl⟩
abbrev main_v3463 : Ref sig .tc := ⟨.hbm, 3711, rfl⟩
abbrev main_v3464 : Ref sig .tc := ⟨.hbm, 3712, rfl⟩
abbrev main_v3465 : Ref sig .tc := ⟨.hbm, 3713, rfl⟩
abbrev main_v3466 : Ref sig .tc := ⟨.hbm, 3714, rfl⟩
abbrev main_v3467 : Ref sig .tc := ⟨.hbm, 3715, rfl⟩
abbrev main_v3468 : Ref sig .tc := ⟨.hbm, 3716, rfl⟩
abbrev main_v3469 : Ref sig .tc := ⟨.hbm, 3717, rfl⟩
abbrev main_v3470 : Ref sig .tc := ⟨.hbm, 3718, rfl⟩
abbrev main_v3471 : Ref sig .tc := ⟨.hbm, 3719, rfl⟩
abbrev main_v3472 : Ref sig .tc := ⟨.hbm, 3720, rfl⟩
abbrev main_v3473 : Ref sig .tc := ⟨.hbm, 3721, rfl⟩
abbrev main_v3474 : Ref sig .tc := ⟨.hbm, 3722, rfl⟩
abbrev main_v3475 : Ref sig .tc := ⟨.hbm, 3723, rfl⟩
abbrev main_v3476 : Ref sig .tc := ⟨.hbm, 3724, rfl⟩
abbrev main_v3477 : Ref sig .tc := ⟨.hbm, 3725, rfl⟩
abbrev main_v3478 : Ref sig .tc := ⟨.hbm, 3726, rfl⟩
abbrev main_v3479 : Ref sig .tc := ⟨.hbm, 3727, rfl⟩
abbrev main_v3480 : Ref sig .tc := ⟨.hbm, 3728, rfl⟩
abbrev main_v3481 : Ref sig .tc := ⟨.hbm, 3729, rfl⟩
abbrev main_v3482 : Ref sig .tc := ⟨.hbm, 3730, rfl⟩
abbrev main_v3483 : Ref sig .tc := ⟨.hbm, 3731, rfl⟩
abbrev main_v3484 : Ref sig .tc := ⟨.hbm, 3732, rfl⟩
abbrev main_v3485 : Ref sig .tc := ⟨.hbm, 3733, rfl⟩
abbrev main_v3486 : Ref sig .tc := ⟨.hbm, 3734, rfl⟩
abbrev main_v3487 : Ref sig .tc := ⟨.hbm, 3735, rfl⟩
abbrev main_v3488 : Ref sig .tc := ⟨.hbm, 3736, rfl⟩
abbrev main_v3489 : Ref sig .tc := ⟨.hbm, 3737, rfl⟩
abbrev main_v3490 : Ref sig .tc := ⟨.hbm, 3738, rfl⟩
abbrev main_v3491 : Ref sig .tc := ⟨.hbm, 3739, rfl⟩
abbrev main_v3492 : Ref sig .tc := ⟨.hbm, 3740, rfl⟩
abbrev main_v3493 : Ref sig .tc := ⟨.hbm, 3741, rfl⟩
abbrev main_v3494 : Ref sig .tc := ⟨.hbm, 3742, rfl⟩
abbrev main_v3495 : Ref sig .tc := ⟨.hbm, 3743, rfl⟩
abbrev main_v3496 : Ref sig .tc := ⟨.hbm, 3744, rfl⟩
abbrev main_v3497 : Ref sig .tc := ⟨.hbm, 3745, rfl⟩
abbrev main_v3498 : Ref sig .tc := ⟨.hbm, 3746, rfl⟩
abbrev main_v3499 : Ref sig .tc := ⟨.hbm, 3747, rfl⟩
abbrev main_v3500 : Ref sig .tc := ⟨.hbm, 3748, rfl⟩
abbrev main_v3501 : Ref sig .tc := ⟨.hbm, 3749, rfl⟩
abbrev main_cst_222 : Ref sig .tc := ⟨.hbm, 3750, rfl⟩
abbrev main_v3502 : Ref sig .tc := ⟨.hbm, 3751, rfl⟩
abbrev main_v3503 : Ref sig .tc := ⟨.hbm, 3752, rfl⟩
abbrev main_cst_223 : Ref sig .tc := ⟨.hbm, 3753, rfl⟩
abbrev main_v3504 : Ref sig .tc := ⟨.hbm, 3754, rfl⟩
abbrev main_v3505 : Ref sig .tc := ⟨.hbm, 3755, rfl⟩
abbrev main_v3506 : Ref sig .tc := ⟨.hbm, 3756, rfl⟩
abbrev main_v3507 : Ref sig .tc := ⟨.hbm, 3757, rfl⟩
abbrev main_v3508 : Ref sig .tc := ⟨.hbm, 3758, rfl⟩
abbrev main_v3509 : Ref sig .tc := ⟨.hbm, 3759, rfl⟩
abbrev main_v3510 : Ref sig .tc := ⟨.hbm, 3760, rfl⟩
abbrev main_v3511 : Ref sig .tc := ⟨.hbm, 3761, rfl⟩
abbrev main_v3512 : Ref sig .tc := ⟨.hbm, 3762, rfl⟩
abbrev main_v3513 : Ref sig .tc := ⟨.hbm, 3763, rfl⟩
abbrev main_v3514 : Ref sig .tc := ⟨.hbm, 3764, rfl⟩
abbrev main_v3515 : Ref sig .tc := ⟨.hbm, 3765, rfl⟩
abbrev main_v3516 : Ref sig .tc := ⟨.hbm, 3766, rfl⟩
abbrev main_v3517 : Ref sig .tc := ⟨.hbm, 3767, rfl⟩
abbrev main_v3518 : Ref sig .tc := ⟨.hbm, 3768, rfl⟩
abbrev main_v3519 : Ref sig .tc := ⟨.hbm, 3769, rfl⟩
abbrev main_v3520 : Ref sig .tc := ⟨.hbm, 3770, rfl⟩
abbrev main_v3521 : Ref sig .tc := ⟨.hbm, 3771, rfl⟩
abbrev main_v3522 : Ref sig .tc := ⟨.hbm, 3772, rfl⟩
abbrev main_v3523 : Ref sig .tc := ⟨.hbm, 3773, rfl⟩
abbrev main_v3524 : Ref sig .tc := ⟨.hbm, 3774, rfl⟩
abbrev main_v3525 : Ref sig .tc := ⟨.hbm, 3775, rfl⟩
abbrev main_v3526 : Ref sig .tc := ⟨.hbm, 3776, rfl⟩
abbrev main_v3527 : Ref sig .tc := ⟨.hbm, 3777, rfl⟩
abbrev main_v3528 : Ref sig .tc := ⟨.hbm, 3778, rfl⟩
abbrev main_v3529 : Ref sig .tc := ⟨.hbm, 3779, rfl⟩
abbrev main_cst_224 : Ref sig .tc := ⟨.hbm, 3780, rfl⟩
abbrev main_v3530 : Ref sig .tc := ⟨.hbm, 3781, rfl⟩
abbrev main_v3531 : Ref sig .tc := ⟨.hbm, 3782, rfl⟩
abbrev main_cst_225 : Ref sig .tc := ⟨.hbm, 3783, rfl⟩
abbrev main_v3532 : Ref sig .tc := ⟨.hbm, 3784, rfl⟩
abbrev main_v3533 : Ref sig .tc := ⟨.hbm, 3785, rfl⟩
abbrev main_v3534 : Ref sig .tc := ⟨.hbm, 3786, rfl⟩
abbrev main_v3535 : Ref sig .tc := ⟨.hbm, 3787, rfl⟩
abbrev main_v3536 : Ref sig .tc := ⟨.hbm, 3788, rfl⟩
abbrev main_v3537 : Ref sig .tc := ⟨.hbm, 3789, rfl⟩
abbrev main_v3538 : Ref sig .tc := ⟨.hbm, 3790, rfl⟩
abbrev main_v3539 : Ref sig .tc := ⟨.hbm, 3791, rfl⟩
abbrev main_v3540 : Ref sig .tc := ⟨.hbm, 3792, rfl⟩
abbrev main_v3541 : Ref sig .tc := ⟨.hbm, 3793, rfl⟩
abbrev main_v3542 : Ref sig .tc := ⟨.hbm, 3794, rfl⟩
abbrev main_v3543 : Ref sig .tc := ⟨.hbm, 3795, rfl⟩
abbrev main_v3544 : Ref sig .tc := ⟨.hbm, 3796, rfl⟩
abbrev main_v3545 : Ref sig .tc := ⟨.hbm, 3797, rfl⟩
abbrev main_v3546 : Ref sig .tc := ⟨.hbm, 3798, rfl⟩
abbrev main_v3547 : Ref sig .tc := ⟨.hbm, 3799, rfl⟩
abbrev main_v3548 : Ref sig .tc := ⟨.hbm, 3800, rfl⟩
abbrev main_v3549 : Ref sig .tc := ⟨.hbm, 3801, rfl⟩
abbrev main_v3550 : Ref sig .tc := ⟨.hbm, 3802, rfl⟩
abbrev main_v3551 : Ref sig .tc := ⟨.hbm, 3803, rfl⟩
abbrev main_v3552 : Ref sig .tc := ⟨.hbm, 3804, rfl⟩
abbrev main_v3553 : Ref sig .tc := ⟨.hbm, 3805, rfl⟩
abbrev main_v3554 : Ref sig .tc := ⟨.hbm, 3806, rfl⟩
abbrev main_v3555 : Ref sig .tc := ⟨.hbm, 3807, rfl⟩
abbrev main_v3556 : Ref sig .tc := ⟨.hbm, 3808, rfl⟩
abbrev main_cst_226 : Ref sig .tc := ⟨.hbm, 3809, rfl⟩
abbrev main_v3557 : Ref sig .tc := ⟨.hbm, 3810, rfl⟩
abbrev main_v3558 : Ref sig .tc := ⟨.hbm, 3811, rfl⟩
abbrev main_cst_227 : Ref sig .tc := ⟨.hbm, 3812, rfl⟩
abbrev main_v3559 : Ref sig .tc := ⟨.hbm, 3813, rfl⟩
abbrev main_v3560 : Ref sig .tc := ⟨.hbm, 3814, rfl⟩
abbrev main_v3561 : Ref sig .tc := ⟨.hbm, 3815, rfl⟩
abbrev main_v3562 : Ref sig .tc := ⟨.hbm, 3816, rfl⟩
abbrev main_v3563 : Ref sig .tc := ⟨.hbm, 3817, rfl⟩
abbrev main_v3564 : Ref sig .tc := ⟨.hbm, 3818, rfl⟩
abbrev main_v3565 : Ref sig .tc := ⟨.hbm, 3819, rfl⟩
abbrev main_v3566 : Ref sig .tc := ⟨.hbm, 3820, rfl⟩
abbrev main_v3567 : Ref sig .tc := ⟨.hbm, 3821, rfl⟩
abbrev main_v3568 : Ref sig .tc := ⟨.hbm, 3822, rfl⟩
abbrev main_v3569 : Ref sig .tc := ⟨.hbm, 3823, rfl⟩
abbrev main_v3570 : Ref sig .tc := ⟨.hbm, 3824, rfl⟩
abbrev main_v3571 : Ref sig .tc := ⟨.hbm, 3825, rfl⟩
abbrev main_v3572 : Ref sig .tc := ⟨.hbm, 3826, rfl⟩
abbrev main_v3573 : Ref sig .tc := ⟨.hbm, 3827, rfl⟩
abbrev main_v3574 : Ref sig .tc := ⟨.hbm, 3828, rfl⟩
abbrev main_v3575 : Ref sig .tc := ⟨.hbm, 3829, rfl⟩
abbrev main_v3576 : Ref sig .tc := ⟨.hbm, 3830, rfl⟩
abbrev main_v3577 : Ref sig .tc := ⟨.hbm, 3831, rfl⟩
abbrev main_v3578 : Ref sig .tc := ⟨.hbm, 3832, rfl⟩
abbrev main_v3579 : Ref sig .tc := ⟨.hbm, 3833, rfl⟩
abbrev main_v3580 : Ref sig .tc := ⟨.hbm, 3834, rfl⟩
abbrev main_v3581 : Ref sig .tc := ⟨.hbm, 3835, rfl⟩
abbrev main_cst_228 : Ref sig .tc := ⟨.hbm, 3836, rfl⟩
abbrev main_v3582 : Ref sig .tc := ⟨.hbm, 3837, rfl⟩
abbrev main_v3583 : Ref sig .tc := ⟨.hbm, 3838, rfl⟩
abbrev main_cst_229 : Ref sig .tc := ⟨.hbm, 3839, rfl⟩
abbrev main_v3584 : Ref sig .tc := ⟨.hbm, 3840, rfl⟩
abbrev main_v3585 : Ref sig .tc := ⟨.hbm, 3841, rfl⟩
abbrev main_v3586 : Ref sig .tc := ⟨.hbm, 3842, rfl⟩
abbrev main_v3587 : Ref sig .tc := ⟨.hbm, 3843, rfl⟩
abbrev main_v3588 : Ref sig .tc := ⟨.hbm, 3844, rfl⟩
abbrev main_v3589 : Ref sig .tc := ⟨.hbm, 3845, rfl⟩
abbrev main_v3590 : Ref sig .tc := ⟨.hbm, 3846, rfl⟩
abbrev main_v3591 : Ref sig .tc := ⟨.hbm, 3847, rfl⟩
abbrev main_v3592 : Ref sig .tc := ⟨.hbm, 3848, rfl⟩
abbrev main_v3593 : Ref sig .tc := ⟨.hbm, 3849, rfl⟩
abbrev main_v3594 : Ref sig .tc := ⟨.hbm, 3850, rfl⟩
abbrev main_v3595 : Ref sig .tc := ⟨.hbm, 3851, rfl⟩
abbrev main_v3596 : Ref sig .tc := ⟨.hbm, 3852, rfl⟩
abbrev main_v3597 : Ref sig .tc := ⟨.hbm, 3853, rfl⟩
abbrev main_v3598 : Ref sig .tc := ⟨.hbm, 3854, rfl⟩
abbrev main_cst_230 : Ref sig .tc := ⟨.hbm, 3855, rfl⟩
abbrev main_v3599 : Ref sig .tc := ⟨.hbm, 3856, rfl⟩
abbrev main_v3600 : Ref sig .tc := ⟨.hbm, 3857, rfl⟩
abbrev main_v3601 : Ref sig .tc := ⟨.hbm, 3858, rfl⟩
abbrev main_v3602 : Ref sig .tc := ⟨.hbm, 3859, rfl⟩
abbrev main_v3603 : Ref sig .tc := ⟨.hbm, 3860, rfl⟩
abbrev main_v3604 : Ref sig .tc := ⟨.hbm, 3861, rfl⟩
abbrev main_v3605 : Ref sig .tc := ⟨.hbm, 3862, rfl⟩
abbrev main_v3606 : Ref sig .tc := ⟨.hbm, 3863, rfl⟩
abbrev main_v3607 : Ref sig .tc := ⟨.hbm, 3864, rfl⟩
abbrev main_v3608 : Ref sig .tc := ⟨.hbm, 3865, rfl⟩
abbrev main_v3609 : Ref sig .tc := ⟨.hbm, 3866, rfl⟩
abbrev main_v3610 : Ref sig .tc := ⟨.hbm, 3867, rfl⟩
abbrev main_v3611 : Ref sig .tc := ⟨.hbm, 3868, rfl⟩
abbrev main_v3612 : Ref sig .tc := ⟨.hbm, 3869, rfl⟩
abbrev main_v3613 : Ref sig .tc := ⟨.hbm, 3870, rfl⟩
abbrev main_v3614 : Ref sig .tc := ⟨.hbm, 3871, rfl⟩
abbrev main_v3615 : Ref sig .tc := ⟨.hbm, 3872, rfl⟩
abbrev main_v3616 : Ref sig .tc := ⟨.hbm, 3873, rfl⟩
abbrev main_v3617 : Ref sig .tc := ⟨.hbm, 3874, rfl⟩
abbrev main_v3618 : Ref sig .tc := ⟨.hbm, 3875, rfl⟩
abbrev main_v3619 : Ref sig .tc := ⟨.hbm, 3876, rfl⟩
abbrev main_v3620 : Ref sig .tc := ⟨.hbm, 3877, rfl⟩
abbrev main_v3621 : Ref sig .tc := ⟨.hbm, 3878, rfl⟩
abbrev main_v3622 : Ref sig .tc := ⟨.hbm, 3879, rfl⟩
abbrev main_v3623 : Ref sig .tc := ⟨.hbm, 3880, rfl⟩
abbrev main_v3624 : Ref sig .tc := ⟨.hbm, 3881, rfl⟩
abbrev main_v3625 : Ref sig .tc := ⟨.hbm, 3882, rfl⟩
abbrev main_v3626 : Ref sig .tc := ⟨.hbm, 3883, rfl⟩
abbrev main_v3627 : Ref sig .tc := ⟨.hbm, 3884, rfl⟩
abbrev main_v3628 : Ref sig .tc := ⟨.hbm, 3885, rfl⟩
abbrev main_v3629 : Ref sig .tc := ⟨.hbm, 3886, rfl⟩
abbrev main_v3630 : Ref sig .tc := ⟨.hbm, 3887, rfl⟩
abbrev main_v3631 : Ref sig .tc := ⟨.hbm, 3888, rfl⟩
abbrev main_v3632 : Ref sig .tc := ⟨.hbm, 3889, rfl⟩
abbrev main_v3633 : Ref sig .tc := ⟨.hbm, 3890, rfl⟩
abbrev main_v3634 : Ref sig .tc := ⟨.hbm, 3891, rfl⟩
abbrev main_v3635 : Ref sig .tc := ⟨.hbm, 3892, rfl⟩
abbrev main_v3636 : Ref sig .tc := ⟨.hbm, 3893, rfl⟩
abbrev main_v3637 : Ref sig .tc := ⟨.hbm, 3894, rfl⟩
abbrev main_v3638 : Ref sig .tc := ⟨.hbm, 3895, rfl⟩
abbrev main_cst_231 : Ref sig .tc := ⟨.hbm, 3896, rfl⟩
abbrev main_v3639 : Ref sig .tc := ⟨.hbm, 3897, rfl⟩
abbrev main_v3640 : Ref sig .tc := ⟨.hbm, 3898, rfl⟩
abbrev main_cst_232 : Ref sig .tc := ⟨.hbm, 3899, rfl⟩
abbrev main_v3641 : Ref sig .tc := ⟨.hbm, 3900, rfl⟩
abbrev main_v3642 : Ref sig .tc := ⟨.hbm, 3901, rfl⟩
abbrev main_v3643 : Ref sig .tc := ⟨.hbm, 3902, rfl⟩
abbrev main_v3644 : Ref sig .tc := ⟨.hbm, 3903, rfl⟩
abbrev main_v3645 : Ref sig .tc := ⟨.hbm, 3904, rfl⟩
abbrev main_v3646 : Ref sig .tc := ⟨.hbm, 3905, rfl⟩
abbrev main_v3647 : Ref sig .tc := ⟨.hbm, 3906, rfl⟩
abbrev main_v3648 : Ref sig .tc := ⟨.hbm, 3907, rfl⟩
abbrev main_v3649 : Ref sig .tc := ⟨.hbm, 3908, rfl⟩
abbrev main_v3650 : Ref sig .tc := ⟨.hbm, 3909, rfl⟩
abbrev main_v3651 : Ref sig .tc := ⟨.hbm, 3910, rfl⟩
abbrev main_v3652 : Ref sig .tc := ⟨.hbm, 3911, rfl⟩
abbrev main_v3653 : Ref sig .tc := ⟨.hbm, 3912, rfl⟩
abbrev main_v3654 : Ref sig .tc := ⟨.hbm, 3913, rfl⟩
abbrev main_v3655 : Ref sig .tc := ⟨.hbm, 3914, rfl⟩
abbrev main_v3656 : Ref sig .tc := ⟨.hbm, 3915, rfl⟩
abbrev main_v3657 : Ref sig .tc := ⟨.hbm, 3916, rfl⟩
abbrev main_v3658 : Ref sig .tc := ⟨.hbm, 3917, rfl⟩
abbrev main_v3659 : Ref sig .tc := ⟨.hbm, 3918, rfl⟩
abbrev main_v3660 : Ref sig .tc := ⟨.hbm, 3919, rfl⟩
abbrev main_v3661 : Ref sig .tc := ⟨.hbm, 3920, rfl⟩
abbrev main_v3662 : Ref sig .tc := ⟨.hbm, 3921, rfl⟩
abbrev main_v3663 : Ref sig .tc := ⟨.hbm, 3922, rfl⟩
abbrev main_v3664 : Ref sig .tc := ⟨.hbm, 3923, rfl⟩
abbrev main_v3665 : Ref sig .tc := ⟨.hbm, 3924, rfl⟩
abbrev main_v3666 : Ref sig .tc := ⟨.hbm, 3925, rfl⟩
abbrev main_cst_233 : Ref sig .tc := ⟨.hbm, 3926, rfl⟩
abbrev main_v3667 : Ref sig .tc := ⟨.hbm, 3927, rfl⟩
abbrev main_v3668 : Ref sig .tc := ⟨.hbm, 3928, rfl⟩
abbrev main_cst_234 : Ref sig .tc := ⟨.hbm, 3929, rfl⟩
abbrev main_v3669 : Ref sig .tc := ⟨.hbm, 3930, rfl⟩
abbrev main_v3670 : Ref sig .tc := ⟨.hbm, 3931, rfl⟩
abbrev main_v3671 : Ref sig .tc := ⟨.hbm, 3932, rfl⟩
abbrev main_v3672 : Ref sig .tc := ⟨.hbm, 3933, rfl⟩
abbrev main_v3673 : Ref sig .tc := ⟨.hbm, 3934, rfl⟩
abbrev main_v3674 : Ref sig .tc := ⟨.hbm, 3935, rfl⟩
abbrev main_v3675 : Ref sig .tc := ⟨.hbm, 3936, rfl⟩
abbrev main_v3676 : Ref sig .tc := ⟨.hbm, 3937, rfl⟩
abbrev main_v3677 : Ref sig .tc := ⟨.hbm, 3938, rfl⟩
abbrev main_v3678 : Ref sig .tc := ⟨.hbm, 3939, rfl⟩
abbrev main_v3679 : Ref sig .tc := ⟨.hbm, 3940, rfl⟩
abbrev main_v3680 : Ref sig .tc := ⟨.hbm, 3941, rfl⟩
abbrev main_v3681 : Ref sig .tc := ⟨.hbm, 3942, rfl⟩
abbrev main_v3682 : Ref sig .tc := ⟨.hbm, 3943, rfl⟩
abbrev main_v3683 : Ref sig .tc := ⟨.hbm, 3944, rfl⟩
abbrev main_v3684 : Ref sig .tc := ⟨.hbm, 3945, rfl⟩
abbrev main_v3685 : Ref sig .tc := ⟨.hbm, 3946, rfl⟩
abbrev main_v3686 : Ref sig .tc := ⟨.hbm, 3947, rfl⟩
abbrev main_v3687 : Ref sig .tc := ⟨.hbm, 3948, rfl⟩
abbrev main_v3688 : Ref sig .tc := ⟨.hbm, 3949, rfl⟩
abbrev main_v3689 : Ref sig .tc := ⟨.hbm, 3950, rfl⟩
abbrev main_v3690 : Ref sig .tc := ⟨.hbm, 3951, rfl⟩
abbrev main_v3691 : Ref sig .tc := ⟨.hbm, 3952, rfl⟩
abbrev main_v3692 : Ref sig .tc := ⟨.hbm, 3953, rfl⟩
abbrev main_v3693 : Ref sig .tc := ⟨.hbm, 3954, rfl⟩
abbrev main_cst_235 : Ref sig .tc := ⟨.hbm, 3955, rfl⟩
abbrev main_v3694 : Ref sig .tc := ⟨.hbm, 3956, rfl⟩
abbrev main_v3695 : Ref sig .tc := ⟨.hbm, 3957, rfl⟩
abbrev main_cst_236 : Ref sig .tc := ⟨.hbm, 3958, rfl⟩
abbrev main_v3696 : Ref sig .tc := ⟨.hbm, 3959, rfl⟩
abbrev main_v3697 : Ref sig .tc := ⟨.hbm, 3960, rfl⟩
abbrev main_v3698 : Ref sig .tc := ⟨.hbm, 3961, rfl⟩
abbrev main_v3699 : Ref sig .tc := ⟨.hbm, 3962, rfl⟩
abbrev main_v3700 : Ref sig .tc := ⟨.hbm, 3963, rfl⟩
abbrev main_v3701 : Ref sig .tc := ⟨.hbm, 3964, rfl⟩
abbrev main_v3702 : Ref sig .tc := ⟨.hbm, 3965, rfl⟩
abbrev main_v3703 : Ref sig .tc := ⟨.hbm, 3966, rfl⟩
abbrev main_v3704 : Ref sig .tc := ⟨.hbm, 3967, rfl⟩
abbrev main_v3705 : Ref sig .tc := ⟨.hbm, 3968, rfl⟩
abbrev main_v3706 : Ref sig .tc := ⟨.hbm, 3969, rfl⟩
abbrev main_v3707 : Ref sig .tc := ⟨.hbm, 3970, rfl⟩
abbrev main_v3708 : Ref sig .tc := ⟨.hbm, 3971, rfl⟩
abbrev main_v3709 : Ref sig .tc := ⟨.hbm, 3972, rfl⟩
abbrev main_v3710 : Ref sig .tc := ⟨.hbm, 3973, rfl⟩
abbrev main_v3711 : Ref sig .tc := ⟨.hbm, 3974, rfl⟩
abbrev main_v3712 : Ref sig .tc := ⟨.hbm, 3975, rfl⟩
abbrev main_v3713 : Ref sig .tc := ⟨.hbm, 3976, rfl⟩
abbrev main_v3714 : Ref sig .tc := ⟨.hbm, 3977, rfl⟩
abbrev main_v3715 : Ref sig .tc := ⟨.hbm, 3978, rfl⟩
abbrev main_v3716 : Ref sig .tc := ⟨.hbm, 3979, rfl⟩
abbrev main_v3717 : Ref sig .tc := ⟨.hbm, 3980, rfl⟩
abbrev main_v3718 : Ref sig .tc := ⟨.hbm, 3981, rfl⟩
abbrev main_cst_237 : Ref sig .tc := ⟨.hbm, 3982, rfl⟩
abbrev main_v3719 : Ref sig .tc := ⟨.hbm, 3983, rfl⟩
abbrev main_v3720 : Ref sig .tc := ⟨.hbm, 3984, rfl⟩
abbrev main_cst_238 : Ref sig .tc := ⟨.hbm, 3985, rfl⟩
abbrev main_v3721 : Ref sig .tc := ⟨.hbm, 3986, rfl⟩
abbrev main_v3722 : Ref sig .tc := ⟨.hbm, 3987, rfl⟩
abbrev main_v3723 : Ref sig .tc := ⟨.hbm, 3988, rfl⟩
abbrev main_v3724 : Ref sig .tc := ⟨.hbm, 3989, rfl⟩
abbrev main_v3725 : Ref sig .tc := ⟨.hbm, 3990, rfl⟩
abbrev main_v3726 : Ref sig .tc := ⟨.hbm, 3991, rfl⟩
abbrev main_v3727 : Ref sig .tc := ⟨.hbm, 3992, rfl⟩
abbrev main_v3728 : Ref sig .tc := ⟨.hbm, 3993, rfl⟩
abbrev main_v3729 : Ref sig .tc := ⟨.hbm, 3994, rfl⟩
abbrev main_v3730 : Ref sig .tc := ⟨.hbm, 3995, rfl⟩
abbrev main_v3731 : Ref sig .tc := ⟨.hbm, 3996, rfl⟩
abbrev main_v3732 : Ref sig .tc := ⟨.hbm, 3997, rfl⟩
abbrev main_v3733 : Ref sig .tc := ⟨.hbm, 3998, rfl⟩
abbrev main_v3734 : Ref sig .tc := ⟨.hbm, 3999, rfl⟩
abbrev main_v3735 : Ref sig .tc := ⟨.hbm, 4000, rfl⟩
abbrev main_cst_239 : Ref sig .tc := ⟨.hbm, 4001, rfl⟩
abbrev main_v3736 : Ref sig .tc := ⟨.hbm, 4002, rfl⟩
abbrev main_v3737 : Ref sig .tc := ⟨.hbm, 4003, rfl⟩
abbrev main_v3738 : Ref sig .tc := ⟨.hbm, 4004, rfl⟩
abbrev main_v3739 : Ref sig .tc := ⟨.hbm, 4005, rfl⟩
abbrev main_v3740 : Ref sig .tc := ⟨.hbm, 4006, rfl⟩
abbrev main_v3741 : Ref sig .tc := ⟨.hbm, 4007, rfl⟩
abbrev main_v3742 : Ref sig .tc := ⟨.hbm, 4008, rfl⟩
abbrev main_v3743 : Ref sig .tc := ⟨.hbm, 4009, rfl⟩
abbrev main_v3744 : Ref sig .tc := ⟨.hbm, 4010, rfl⟩
abbrev main_v3745 : Ref sig .tc := ⟨.hbm, 4011, rfl⟩
abbrev main_v3746 : Ref sig .tc := ⟨.hbm, 4012, rfl⟩
abbrev main_v3747 : Ref sig .tc := ⟨.hbm, 4013, rfl⟩
abbrev main_v3748 : Ref sig .tc := ⟨.hbm, 4014, rfl⟩
abbrev main_v3749 : Ref sig .tc := ⟨.hbm, 4015, rfl⟩
abbrev main_v3750 : Ref sig .tc := ⟨.hbm, 4016, rfl⟩
abbrev main_v3751 : Ref sig .tc := ⟨.hbm, 4017, rfl⟩
abbrev main_v3752 : Ref sig .tc := ⟨.hbm, 4018, rfl⟩
abbrev main_v3753 : Ref sig .tc := ⟨.hbm, 4019, rfl⟩
abbrev main_v3754 : Ref sig .tc := ⟨.hbm, 4020, rfl⟩
abbrev main_v3755 : Ref sig .tc := ⟨.hbm, 4021, rfl⟩
abbrev main_v3756 : Ref sig .tc := ⟨.hbm, 4022, rfl⟩
abbrev main_v3757 : Ref sig .tc := ⟨.hbm, 4023, rfl⟩
abbrev main_v3758 : Ref sig .tc := ⟨.hbm, 4024, rfl⟩
abbrev main_v3759 : Ref sig .tc := ⟨.hbm, 4025, rfl⟩
abbrev main_v3760 : Ref sig .tc := ⟨.hbm, 4026, rfl⟩
abbrev main_v3761 : Ref sig .tc := ⟨.hbm, 4027, rfl⟩
abbrev main_v3762 : Ref sig .tc := ⟨.hbm, 4028, rfl⟩
abbrev main_v3763 : Ref sig .tc := ⟨.hbm, 4029, rfl⟩
abbrev main_v3764 : Ref sig .tc := ⟨.hbm, 4030, rfl⟩
abbrev main_v3765 : Ref sig .tc := ⟨.hbm, 4031, rfl⟩
abbrev main_v3766 : Ref sig .tc := ⟨.hbm, 4032, rfl⟩
abbrev main_v3767 : Ref sig .tc := ⟨.hbm, 4033, rfl⟩
abbrev main_v3768 : Ref sig .tc := ⟨.hbm, 4034, rfl⟩
abbrev main_v3769 : Ref sig .tc := ⟨.hbm, 4035, rfl⟩
abbrev main_v3770 : Ref sig .tc := ⟨.hbm, 4036, rfl⟩
abbrev main_v3771 : Ref sig .tc := ⟨.hbm, 4037, rfl⟩
abbrev main_v3772 : Ref sig .tc := ⟨.hbm, 4038, rfl⟩
abbrev main_v3773 : Ref sig .tc := ⟨.hbm, 4039, rfl⟩
abbrev main_v3774 : Ref sig .tc := ⟨.hbm, 4040, rfl⟩
abbrev main_v3775 : Ref sig .tc := ⟨.hbm, 4041, rfl⟩
abbrev main_cst_240 : Ref sig .tc := ⟨.hbm, 4042, rfl⟩
abbrev main_v3776 : Ref sig .tc := ⟨.hbm, 4043, rfl⟩
abbrev main_v3777 : Ref sig .tc := ⟨.hbm, 4044, rfl⟩
abbrev main_cst_241 : Ref sig .tc := ⟨.hbm, 4045, rfl⟩
abbrev main_v3778 : Ref sig .tc := ⟨.hbm, 4046, rfl⟩
abbrev main_v3779 : Ref sig .tc := ⟨.hbm, 4047, rfl⟩
abbrev main_v3780 : Ref sig .tc := ⟨.hbm, 4048, rfl⟩
abbrev main_v3781 : Ref sig .tc := ⟨.hbm, 4049, rfl⟩
abbrev main_v3782 : Ref sig .tc := ⟨.hbm, 4050, rfl⟩
abbrev main_v3783 : Ref sig .tc := ⟨.hbm, 4051, rfl⟩
abbrev main_v3784 : Ref sig .tc := ⟨.hbm, 4052, rfl⟩
abbrev main_v3785 : Ref sig .tc := ⟨.hbm, 4053, rfl⟩
abbrev main_v3786 : Ref sig .tc := ⟨.hbm, 4054, rfl⟩
abbrev main_v3787 : Ref sig .tc := ⟨.hbm, 4055, rfl⟩
abbrev main_v3788 : Ref sig .tc := ⟨.hbm, 4056, rfl⟩
abbrev main_v3789 : Ref sig .tc := ⟨.hbm, 4057, rfl⟩
abbrev main_v3790 : Ref sig .tc := ⟨.hbm, 4058, rfl⟩
abbrev main_v3791 : Ref sig .tc := ⟨.hbm, 4059, rfl⟩
abbrev main_v3792 : Ref sig .tc := ⟨.hbm, 4060, rfl⟩
abbrev main_v3793 : Ref sig .tc := ⟨.hbm, 4061, rfl⟩
abbrev main_v3794 : Ref sig .tc := ⟨.hbm, 4062, rfl⟩
abbrev main_v3795 : Ref sig .tc := ⟨.hbm, 4063, rfl⟩
abbrev main_v3796 : Ref sig .tc := ⟨.hbm, 4064, rfl⟩
abbrev main_v3797 : Ref sig .tc := ⟨.hbm, 4065, rfl⟩
abbrev main_v3798 : Ref sig .tc := ⟨.hbm, 4066, rfl⟩
abbrev main_v3799 : Ref sig .tc := ⟨.hbm, 4067, rfl⟩
abbrev main_v3800 : Ref sig .tc := ⟨.hbm, 4068, rfl⟩
abbrev main_v3801 : Ref sig .tc := ⟨.hbm, 4069, rfl⟩
abbrev main_v3802 : Ref sig .tc := ⟨.hbm, 4070, rfl⟩
abbrev main_v3803 : Ref sig .tc := ⟨.hbm, 4071, rfl⟩
abbrev main_v3804 : Ref sig .tc := ⟨.hbm, 4072, rfl⟩
abbrev main_v3805 : Ref sig .tc := ⟨.hbm, 4073, rfl⟩
abbrev main_v3806 : Ref sig .tc := ⟨.hbm, 4074, rfl⟩
abbrev main_v3807 : Ref sig .tc := ⟨.hbm, 4075, rfl⟩
abbrev main_v3808 : Ref sig .tc := ⟨.hbm, 4076, rfl⟩
abbrev main_v3809 : Ref sig .tc := ⟨.hbm, 4077, rfl⟩
abbrev main_v3810 : Ref sig .tc := ⟨.hbm, 4078, rfl⟩
abbrev main_v3811 : Ref sig .tc := ⟨.hbm, 4079, rfl⟩
abbrev main_v3812 : Ref sig .tc := ⟨.hbm, 4080, rfl⟩
abbrev main_v3813 : Ref sig .tc := ⟨.hbm, 4081, rfl⟩
abbrev main_cst_242 : Ref sig .tc := ⟨.hbm, 4082, rfl⟩
abbrev main_v3814 : Ref sig .tc := ⟨.hbm, 4083, rfl⟩
abbrev main_v3815 : Ref sig .tc := ⟨.hbm, 4084, rfl⟩
abbrev main_cst_243 : Ref sig .tc := ⟨.hbm, 4085, rfl⟩
abbrev main_v3816 : Ref sig .tc := ⟨.hbm, 4086, rfl⟩
abbrev main_v3817 : Ref sig .tc := ⟨.hbm, 4087, rfl⟩
abbrev main_v3818 : Ref sig .tc := ⟨.hbm, 4088, rfl⟩
abbrev main_v3819 : Ref sig .tc := ⟨.hbm, 4089, rfl⟩
abbrev main_v3820 : Ref sig .tc := ⟨.hbm, 4090, rfl⟩
abbrev main_v3821 : Ref sig .tc := ⟨.hbm, 4091, rfl⟩
abbrev main_v3822 : Ref sig .tc := ⟨.hbm, 4092, rfl⟩
abbrev main_v3823 : Ref sig .tc := ⟨.hbm, 4093, rfl⟩
abbrev main_v3824 : Ref sig .tc := ⟨.hbm, 4094, rfl⟩
abbrev main_v3825 : Ref sig .tc := ⟨.hbm, 4095, rfl⟩
abbrev main_v3826 : Ref sig .tc := ⟨.hbm, 4096, rfl⟩
abbrev main_v3827 : Ref sig .tc := ⟨.hbm, 4097, rfl⟩
abbrev main_v3828 : Ref sig .tc := ⟨.hbm, 4098, rfl⟩
abbrev main_v3829 : Ref sig .tc := ⟨.hbm, 4099, rfl⟩
abbrev main_v3830 : Ref sig .tc := ⟨.hbm, 4100, rfl⟩
abbrev main_v3831 : Ref sig .tc := ⟨.hbm, 4101, rfl⟩
abbrev main_v3832 : Ref sig .tc := ⟨.hbm, 4102, rfl⟩
abbrev main_v3833 : Ref sig .tc := ⟨.hbm, 4103, rfl⟩
abbrev main_v3834 : Ref sig .tc := ⟨.hbm, 4104, rfl⟩
abbrev main_v3835 : Ref sig .tc := ⟨.hbm, 4105, rfl⟩
abbrev main_v3836 : Ref sig .tc := ⟨.hbm, 4106, rfl⟩
abbrev main_v3837 : Ref sig .tc := ⟨.hbm, 4107, rfl⟩
abbrev main_v3838 : Ref sig .tc := ⟨.hbm, 4108, rfl⟩
abbrev main_v3839 : Ref sig .tc := ⟨.hbm, 4109, rfl⟩
abbrev main_v3840 : Ref sig .tc := ⟨.hbm, 4110, rfl⟩
abbrev main_cst_244 : Ref sig .tc := ⟨.hbm, 4111, rfl⟩
abbrev main_v3841 : Ref sig .tc := ⟨.hbm, 4112, rfl⟩
abbrev main_v3842 : Ref sig .tc := ⟨.hbm, 4113, rfl⟩
abbrev main_cst_245 : Ref sig .tc := ⟨.hbm, 4114, rfl⟩
abbrev main_v3843 : Ref sig .tc := ⟨.hbm, 4115, rfl⟩
abbrev main_v3844 : Ref sig .tc := ⟨.hbm, 4116, rfl⟩
abbrev main_v3845 : Ref sig .tc := ⟨.hbm, 4117, rfl⟩
abbrev main_v3846 : Ref sig .tc := ⟨.hbm, 4118, rfl⟩
abbrev main_v3847 : Ref sig .tc := ⟨.hbm, 4119, rfl⟩
abbrev main_v3848 : Ref sig .tc := ⟨.hbm, 4120, rfl⟩
abbrev main_v3849 : Ref sig .tc := ⟨.hbm, 4121, rfl⟩
abbrev main_v3850 : Ref sig .tc := ⟨.hbm, 4122, rfl⟩
abbrev main_v3851 : Ref sig .tc := ⟨.hbm, 4123, rfl⟩
abbrev main_v3852 : Ref sig .tc := ⟨.hbm, 4124, rfl⟩
abbrev main_v3853 : Ref sig .tc := ⟨.hbm, 4125, rfl⟩
abbrev main_v3854 : Ref sig .tc := ⟨.hbm, 4126, rfl⟩
abbrev main_v3855 : Ref sig .tc := ⟨.hbm, 4127, rfl⟩
abbrev main_v3856 : Ref sig .tc := ⟨.hbm, 4128, rfl⟩
abbrev main_v3857 : Ref sig .tc := ⟨.hbm, 4129, rfl⟩
abbrev main_v3858 : Ref sig .tc := ⟨.hbm, 4130, rfl⟩
abbrev main_v3859 : Ref sig .tc := ⟨.hbm, 4131, rfl⟩
abbrev main_v3860 : Ref sig .tc := ⟨.hbm, 4132, rfl⟩
abbrev main_v3861 : Ref sig .tc := ⟨.hbm, 4133, rfl⟩
abbrev main_v3862 : Ref sig .tc := ⟨.hbm, 4134, rfl⟩
abbrev main_v3863 : Ref sig .tc := ⟨.hbm, 4135, rfl⟩
abbrev main_v3864 : Ref sig .tc := ⟨.hbm, 4136, rfl⟩
abbrev main_v3865 : Ref sig .tc := ⟨.hbm, 4137, rfl⟩
abbrev main_cst_246 : Ref sig .tc := ⟨.hbm, 4138, rfl⟩
abbrev main_v3866 : Ref sig .tc := ⟨.hbm, 4139, rfl⟩
abbrev main_v3867 : Ref sig .tc := ⟨.hbm, 4140, rfl⟩
abbrev main_cst_247 : Ref sig .tc := ⟨.hbm, 4141, rfl⟩
abbrev main_v3868 : Ref sig .tc := ⟨.hbm, 4142, rfl⟩
abbrev main_v3869 : Ref sig .tc := ⟨.hbm, 4143, rfl⟩
abbrev main_v3870 : Ref sig .tc := ⟨.hbm, 4144, rfl⟩
abbrev main_v3871 : Ref sig .tc := ⟨.hbm, 4145, rfl⟩
abbrev main_v3872 : Ref sig .tc := ⟨.hbm, 4146, rfl⟩
abbrev main_v3873 : Ref sig .tc := ⟨.hbm, 4147, rfl⟩
abbrev main_v3874 : Ref sig .tc := ⟨.hbm, 4148, rfl⟩
abbrev main_v3875 : Ref sig .tc := ⟨.hbm, 4149, rfl⟩
abbrev main_v3876 : Ref sig .tc := ⟨.hbm, 4150, rfl⟩
abbrev main_v3877 : Ref sig .tc := ⟨.hbm, 4151, rfl⟩
abbrev main_v3878 : Ref sig .tc := ⟨.hbm, 4152, rfl⟩
abbrev main_v3879 : Ref sig .tc := ⟨.hbm, 4153, rfl⟩
abbrev main_v3880 : Ref sig .tc := ⟨.hbm, 4154, rfl⟩
abbrev main_v3881 : Ref sig .tc := ⟨.hbm, 4155, rfl⟩
abbrev main_v3882 : Ref sig .tc := ⟨.hbm, 4156, rfl⟩
abbrev main_cst_248 : Ref sig .tc := ⟨.hbm, 4157, rfl⟩
abbrev main_v3883 : Ref sig .tc := ⟨.hbm, 4158, rfl⟩
abbrev main_v3884 : Ref sig .tc := ⟨.hbm, 4159, rfl⟩
abbrev main_v3885 : Ref sig .tc := ⟨.hbm, 4160, rfl⟩
abbrev main_v3886 : Ref sig .tc := ⟨.hbm, 4161, rfl⟩
abbrev main_v3887 : Ref sig .tc := ⟨.hbm, 4162, rfl⟩
abbrev main_v3888 : Ref sig .tc := ⟨.hbm, 4163, rfl⟩
abbrev main_v3889 : Ref sig .tc := ⟨.hbm, 4164, rfl⟩
abbrev main_v3890 : Ref sig .tc := ⟨.hbm, 4165, rfl⟩
abbrev main_v3891 : Ref sig .tc := ⟨.hbm, 4166, rfl⟩
abbrev main_v3892 : Ref sig .tc := ⟨.hbm, 4167, rfl⟩
abbrev main_v3893 : Ref sig .tc := ⟨.hbm, 4168, rfl⟩
abbrev main_v3894 : Ref sig .tc := ⟨.hbm, 4169, rfl⟩
abbrev main_v3895 : Ref sig .tc := ⟨.hbm, 4170, rfl⟩
abbrev main_v3896 : Ref sig .tc := ⟨.hbm, 4171, rfl⟩
abbrev main_v3897 : Ref sig .tc := ⟨.hbm, 4172, rfl⟩
abbrev main_v3898 : Ref sig .tc := ⟨.hbm, 4173, rfl⟩
abbrev main_v3899 : Ref sig .tc := ⟨.hbm, 4174, rfl⟩
abbrev main_v3900 : Ref sig .tc := ⟨.hbm, 4175, rfl⟩
abbrev main_v3901 : Ref sig .tc := ⟨.hbm, 4176, rfl⟩
abbrev main_v3902 : Ref sig .tc := ⟨.hbm, 4177, rfl⟩
abbrev main_v3903 : Ref sig .tc := ⟨.hbm, 4178, rfl⟩
abbrev main_v3904 : Ref sig .tc := ⟨.hbm, 4179, rfl⟩
abbrev main_v3905 : Ref sig .tc := ⟨.hbm, 4180, rfl⟩
abbrev main_v3906 : Ref sig .tc := ⟨.hbm, 4181, rfl⟩
abbrev main_v3907 : Ref sig .tc := ⟨.hbm, 4182, rfl⟩
abbrev main_v3908 : Ref sig .tc := ⟨.hbm, 4183, rfl⟩
abbrev main_v3909 : Ref sig .tc := ⟨.hbm, 4184, rfl⟩
abbrev main_v3910 : Ref sig .tc := ⟨.hbm, 4185, rfl⟩
abbrev main_v3911 : Ref sig .tc := ⟨.hbm, 4186, rfl⟩
abbrev main_v3912 : Ref sig .tc := ⟨.hbm, 4187, rfl⟩
abbrev main_v3913 : Ref sig .tc := ⟨.hbm, 4188, rfl⟩
abbrev main_v3914 : Ref sig .tc := ⟨.hbm, 4189, rfl⟩
abbrev main_v3915 : Ref sig .tc := ⟨.hbm, 4190, rfl⟩
abbrev main_v3916 : Ref sig .tc := ⟨.hbm, 4191, rfl⟩
abbrev main_v3917 : Ref sig .tc := ⟨.hbm, 4192, rfl⟩
abbrev main_v3918 : Ref sig .tc := ⟨.hbm, 4193, rfl⟩
abbrev main_v3919 : Ref sig .tc := ⟨.hbm, 4194, rfl⟩
abbrev main_v3920 : Ref sig .tc := ⟨.hbm, 4195, rfl⟩
abbrev main_v3921 : Ref sig .tc := ⟨.hbm, 4196, rfl⟩
abbrev main_v3922 : Ref sig .tc := ⟨.hbm, 4197, rfl⟩
abbrev main_cst_249 : Ref sig .tc := ⟨.hbm, 4198, rfl⟩
abbrev main_v3923 : Ref sig .tc := ⟨.hbm, 4199, rfl⟩
abbrev main_v3924 : Ref sig .tc := ⟨.hbm, 4200, rfl⟩
abbrev main_cst_250 : Ref sig .tc := ⟨.hbm, 4201, rfl⟩
abbrev main_v3925 : Ref sig .tc := ⟨.hbm, 4202, rfl⟩
abbrev main_v3926 : Ref sig .tc := ⟨.hbm, 4203, rfl⟩
abbrev main_v3927 : Ref sig .tc := ⟨.hbm, 4204, rfl⟩
abbrev main_v3928 : Ref sig .tc := ⟨.hbm, 4205, rfl⟩
abbrev main_v3929 : Ref sig .tc := ⟨.hbm, 4206, rfl⟩
abbrev main_v3930 : Ref sig .tc := ⟨.hbm, 4207, rfl⟩
abbrev main_v3931 : Ref sig .tc := ⟨.hbm, 4208, rfl⟩
abbrev main_v3932 : Ref sig .tc := ⟨.hbm, 4209, rfl⟩
abbrev main_v3933 : Ref sig .tc := ⟨.hbm, 4210, rfl⟩
abbrev main_v3934 : Ref sig .tc := ⟨.hbm, 4211, rfl⟩
abbrev main_v3935 : Ref sig .tc := ⟨.hbm, 4212, rfl⟩
abbrev main_v3936 : Ref sig .tc := ⟨.hbm, 4213, rfl⟩
abbrev main_v3937 : Ref sig .tc := ⟨.hbm, 4214, rfl⟩
abbrev main_v3938 : Ref sig .tc := ⟨.hbm, 4215, rfl⟩
abbrev main_v3939 : Ref sig .tc := ⟨.hbm, 4216, rfl⟩
abbrev main_v3940 : Ref sig .tc := ⟨.hbm, 4217, rfl⟩
abbrev main_v3941 : Ref sig .tc := ⟨.hbm, 4218, rfl⟩
abbrev main_v3942 : Ref sig .tc := ⟨.hbm, 4219, rfl⟩
abbrev main_v3943 : Ref sig .tc := ⟨.hbm, 4220, rfl⟩
abbrev main_v3944 : Ref sig .tc := ⟨.hbm, 4221, rfl⟩
abbrev main_v3945 : Ref sig .tc := ⟨.hbm, 4222, rfl⟩
abbrev main_v3946 : Ref sig .tc := ⟨.hbm, 4223, rfl⟩
abbrev main_v3947 : Ref sig .tc := ⟨.hbm, 4224, rfl⟩
abbrev main_v3948 : Ref sig .tc := ⟨.hbm, 4225, rfl⟩
abbrev main_v3949 : Ref sig .tc := ⟨.hbm, 4226, rfl⟩
abbrev main_v3950 : Ref sig .tc := ⟨.hbm, 4227, rfl⟩
abbrev main_cst_251 : Ref sig .tc := ⟨.hbm, 4228, rfl⟩
abbrev main_v3951 : Ref sig .tc := ⟨.hbm, 4229, rfl⟩
abbrev main_v3952 : Ref sig .tc := ⟨.hbm, 4230, rfl⟩
abbrev main_cst_252 : Ref sig .tc := ⟨.hbm, 4231, rfl⟩
abbrev main_v3953 : Ref sig .tc := ⟨.hbm, 4232, rfl⟩
abbrev main_v3954 : Ref sig .tc := ⟨.hbm, 4233, rfl⟩
abbrev main_v3955 : Ref sig .tc := ⟨.hbm, 4234, rfl⟩
abbrev main_v3956 : Ref sig .tc := ⟨.hbm, 4235, rfl⟩
abbrev main_v3957 : Ref sig .tc := ⟨.hbm, 4236, rfl⟩
abbrev main_v3958 : Ref sig .tc := ⟨.hbm, 4237, rfl⟩
abbrev main_v3959 : Ref sig .tc := ⟨.hbm, 4238, rfl⟩
abbrev main_v3960 : Ref sig .tc := ⟨.hbm, 4239, rfl⟩
abbrev main_v3961 : Ref sig .tc := ⟨.hbm, 4240, rfl⟩
abbrev main_v3962 : Ref sig .tc := ⟨.hbm, 4241, rfl⟩
abbrev main_v3963 : Ref sig .tc := ⟨.hbm, 4242, rfl⟩
abbrev main_v3964 : Ref sig .tc := ⟨.hbm, 4243, rfl⟩
abbrev main_v3965 : Ref sig .tc := ⟨.hbm, 4244, rfl⟩
abbrev main_v3966 : Ref sig .tc := ⟨.hbm, 4245, rfl⟩
abbrev main_v3967 : Ref sig .tc := ⟨.hbm, 4246, rfl⟩
abbrev main_v3968 : Ref sig .tc := ⟨.hbm, 4247, rfl⟩
abbrev main_v3969 : Ref sig .tc := ⟨.hbm, 4248, rfl⟩
abbrev main_v3970 : Ref sig .tc := ⟨.hbm, 4249, rfl⟩
abbrev main_v3971 : Ref sig .tc := ⟨.hbm, 4250, rfl⟩
abbrev main_v3972 : Ref sig .tc := ⟨.hbm, 4251, rfl⟩
abbrev main_v3973 : Ref sig .tc := ⟨.hbm, 4252, rfl⟩
abbrev main_v3974 : Ref sig .tc := ⟨.hbm, 4253, rfl⟩
abbrev main_v3975 : Ref sig .tc := ⟨.hbm, 4254, rfl⟩
abbrev main_v3976 : Ref sig .tc := ⟨.hbm, 4255, rfl⟩
abbrev main_v3977 : Ref sig .tc := ⟨.hbm, 4256, rfl⟩
abbrev main_cst_253 : Ref sig .tc := ⟨.hbm, 4257, rfl⟩
abbrev main_v3978 : Ref sig .tc := ⟨.hbm, 4258, rfl⟩
abbrev main_v3979 : Ref sig .tc := ⟨.hbm, 4259, rfl⟩
abbrev main_cst_254 : Ref sig .tc := ⟨.hbm, 4260, rfl⟩
abbrev main_v3980 : Ref sig .tc := ⟨.hbm, 4261, rfl⟩
abbrev main_v3981 : Ref sig .tc := ⟨.hbm, 4262, rfl⟩
abbrev main_v3982 : Ref sig .tc := ⟨.hbm, 4263, rfl⟩
abbrev main_v3983 : Ref sig .tc := ⟨.hbm, 4264, rfl⟩
abbrev main_v3984 : Ref sig .tc := ⟨.hbm, 4265, rfl⟩
abbrev main_v3985 : Ref sig .tc := ⟨.hbm, 4266, rfl⟩
abbrev main_v3986 : Ref sig .tc := ⟨.hbm, 4267, rfl⟩
abbrev main_v3987 : Ref sig .tc := ⟨.hbm, 4268, rfl⟩
abbrev main_v3988 : Ref sig .tc := ⟨.hbm, 4269, rfl⟩
abbrev main_v3989 : Ref sig .tc := ⟨.hbm, 4270, rfl⟩
abbrev main_v3990 : Ref sig .tc := ⟨.hbm, 4271, rfl⟩
abbrev main_v3991 : Ref sig .tc := ⟨.hbm, 4272, rfl⟩
abbrev main_v3992 : Ref sig .tc := ⟨.hbm, 4273, rfl⟩
abbrev main_v3993 : Ref sig .tc := ⟨.hbm, 4274, rfl⟩
abbrev main_v3994 : Ref sig .tc := ⟨.hbm, 4275, rfl⟩
abbrev main_v3995 : Ref sig .tc := ⟨.hbm, 4276, rfl⟩
abbrev main_v3996 : Ref sig .tc := ⟨.hbm, 4277, rfl⟩
abbrev main_v3997 : Ref sig .tc := ⟨.hbm, 4278, rfl⟩
abbrev main_v3998 : Ref sig .tc := ⟨.hbm, 4279, rfl⟩
abbrev main_v3999 : Ref sig .tc := ⟨.hbm, 4280, rfl⟩
abbrev main_v4000 : Ref sig .tc := ⟨.hbm, 4281, rfl⟩
abbrev main_v4001 : Ref sig .tc := ⟨.hbm, 4282, rfl⟩
abbrev main_v4002 : Ref sig .tc := ⟨.hbm, 4283, rfl⟩
abbrev main_cst_255 : Ref sig .tc := ⟨.hbm, 4284, rfl⟩
abbrev main_v4003 : Ref sig .tc := ⟨.hbm, 4285, rfl⟩
abbrev main_v4004 : Ref sig .tc := ⟨.hbm, 4286, rfl⟩
abbrev main_cst_256 : Ref sig .tc := ⟨.hbm, 4287, rfl⟩
abbrev main_v4005 : Ref sig .tc := ⟨.hbm, 4288, rfl⟩
abbrev main_v4006 : Ref sig .tc := ⟨.hbm, 4289, rfl⟩
abbrev main_v4007 : Ref sig .tc := ⟨.hbm, 4290, rfl⟩
abbrev main_v4008 : Ref sig .tc := ⟨.hbm, 4291, rfl⟩
abbrev main_v4009 : Ref sig .tc := ⟨.hbm, 4292, rfl⟩
abbrev main_v4010 : Ref sig .tc := ⟨.hbm, 4293, rfl⟩
abbrev main_v4011 : Ref sig .tc := ⟨.hbm, 4294, rfl⟩
abbrev main_v4012 : Ref sig .tc := ⟨.hbm, 4295, rfl⟩
abbrev main_v4013 : Ref sig .tc := ⟨.hbm, 4296, rfl⟩
abbrev main_v4014 : Ref sig .tc := ⟨.hbm, 4297, rfl⟩
abbrev main_v4015 : Ref sig .tc := ⟨.hbm, 4298, rfl⟩
abbrev main_v4016 : Ref sig .tc := ⟨.hbm, 4299, rfl⟩
abbrev main_v4017 : Ref sig .tc := ⟨.hbm, 4300, rfl⟩
abbrev main_v4018 : Ref sig .tc := ⟨.hbm, 4301, rfl⟩
abbrev main_v4019 : Ref sig .tc := ⟨.hbm, 4302, rfl⟩
abbrev main_cst_257 : Ref sig .tc := ⟨.hbm, 4303, rfl⟩
abbrev main_v4020 : Ref sig .tc := ⟨.hbm, 4304, rfl⟩
abbrev main_v4021 : Ref sig .tc := ⟨.hbm, 4305, rfl⟩
abbrev main_v4022 : Ref sig .tc := ⟨.hbm, 4306, rfl⟩
abbrev main_v4023 : Ref sig .tc := ⟨.hbm, 4307, rfl⟩
abbrev main_v4024 : Ref sig .tc := ⟨.hbm, 4308, rfl⟩
abbrev main_v4025 : Ref sig .tc := ⟨.hbm, 4309, rfl⟩
abbrev main_v4026 : Ref sig .tc := ⟨.hbm, 4310, rfl⟩
abbrev main_v4027 : Ref sig .tc := ⟨.hbm, 4311, rfl⟩
abbrev main_v4028 : Ref sig .tc := ⟨.hbm, 4312, rfl⟩
abbrev main_v4029 : Ref sig .tc := ⟨.hbm, 4313, rfl⟩
abbrev main_v4030 : Ref sig .tc := ⟨.hbm, 4314, rfl⟩
abbrev main_v4031 : Ref sig .tc := ⟨.hbm, 4315, rfl⟩
abbrev main_v4032 : Ref sig .tc := ⟨.hbm, 4316, rfl⟩
abbrev main_v4033 : Ref sig .tc := ⟨.hbm, 4317, rfl⟩
abbrev main_v4034 : Ref sig .tc := ⟨.hbm, 4318, rfl⟩
abbrev main_v4035 : Ref sig .tc := ⟨.hbm, 4319, rfl⟩
abbrev main_v4036 : Ref sig .tc := ⟨.hbm, 4320, rfl⟩
abbrev main_v4037 : Ref sig .tc := ⟨.hbm, 4321, rfl⟩
abbrev main_v4038 : Ref sig .tc := ⟨.hbm, 4322, rfl⟩
abbrev main_v4039 : Ref sig .tc := ⟨.hbm, 4323, rfl⟩
abbrev main_v4040 : Ref sig .tc := ⟨.hbm, 4324, rfl⟩
abbrev main_v4041 : Ref sig .tc := ⟨.hbm, 4325, rfl⟩
abbrev main_v4042 : Ref sig .tc := ⟨.hbm, 4326, rfl⟩
abbrev main_v4043 : Ref sig .tc := ⟨.hbm, 4327, rfl⟩
abbrev main_v4044 : Ref sig .tc := ⟨.hbm, 4328, rfl⟩
abbrev main_v4045 : Ref sig .tc := ⟨.hbm, 4329, rfl⟩
abbrev main_v4046 : Ref sig .tc := ⟨.hbm, 4330, rfl⟩
abbrev main_v4047 : Ref sig .tc := ⟨.hbm, 4331, rfl⟩
abbrev main_v4048 : Ref sig .tc := ⟨.hbm, 4332, rfl⟩
abbrev main_v4049 : Ref sig .tc := ⟨.hbm, 4333, rfl⟩
abbrev main_v4050 : Ref sig .tc := ⟨.hbm, 4334, rfl⟩
abbrev main_v4051 : Ref sig .tc := ⟨.hbm, 4335, rfl⟩
abbrev main_v4052 : Ref sig .tc := ⟨.hbm, 4336, rfl⟩
abbrev main_v4053 : Ref sig .tc := ⟨.hbm, 4337, rfl⟩
abbrev main_v4054 : Ref sig .tc := ⟨.hbm, 4338, rfl⟩
abbrev main_v4055 : Ref sig .tc := ⟨.hbm, 4339, rfl⟩
abbrev main_v4056 : Ref sig .tc := ⟨.hbm, 4340, rfl⟩
abbrev main_v4057 : Ref sig .tc := ⟨.hbm, 4341, rfl⟩
abbrev main_v4058 : Ref sig .tc := ⟨.hbm, 4342, rfl⟩
abbrev main_v4059 : Ref sig .tc := ⟨.hbm, 4343, rfl⟩
abbrev main_cst_258 : Ref sig .tc := ⟨.hbm, 4344, rfl⟩
abbrev main_v4060 : Ref sig .tc := ⟨.hbm, 4345, rfl⟩
abbrev main_v4061 : Ref sig .tc := ⟨.hbm, 4346, rfl⟩
abbrev main_cst_259 : Ref sig .tc := ⟨.hbm, 4347, rfl⟩
abbrev main_v4062 : Ref sig .tc := ⟨.hbm, 4348, rfl⟩
abbrev main_v4063 : Ref sig .tc := ⟨.hbm, 4349, rfl⟩
abbrev main_v4064 : Ref sig .tc := ⟨.hbm, 4350, rfl⟩
abbrev main_v4065 : Ref sig .tc := ⟨.hbm, 4351, rfl⟩
abbrev main_v4066 : Ref sig .tc := ⟨.hbm, 4352, rfl⟩
abbrev main_v4067 : Ref sig .tc := ⟨.hbm, 4353, rfl⟩
abbrev main_v4068 : Ref sig .tc := ⟨.hbm, 4354, rfl⟩
abbrev main_v4069 : Ref sig .tc := ⟨.hbm, 4355, rfl⟩
abbrev main_v4070 : Ref sig .tc := ⟨.hbm, 4356, rfl⟩
abbrev main_v4071 : Ref sig .tc := ⟨.hbm, 4357, rfl⟩
abbrev main_v4072 : Ref sig .tc := ⟨.hbm, 4358, rfl⟩
abbrev main_v4073 : Ref sig .tc := ⟨.hbm, 4359, rfl⟩
abbrev main_v4074 : Ref sig .tc := ⟨.hbm, 4360, rfl⟩
abbrev main_v4075 : Ref sig .tc := ⟨.hbm, 4361, rfl⟩
abbrev main_v4076 : Ref sig .tc := ⟨.hbm, 4362, rfl⟩
abbrev main_v4077 : Ref sig .tc := ⟨.hbm, 4363, rfl⟩
abbrev main_v4078 : Ref sig .tc := ⟨.hbm, 4364, rfl⟩
abbrev main_v4079 : Ref sig .tc := ⟨.hbm, 4365, rfl⟩
abbrev main_v4080 : Ref sig .tc := ⟨.hbm, 4366, rfl⟩
abbrev main_v4081 : Ref sig .tc := ⟨.hbm, 4367, rfl⟩
abbrev main_v4082 : Ref sig .tc := ⟨.hbm, 4368, rfl⟩
abbrev main_v4083 : Ref sig .tc := ⟨.hbm, 4369, rfl⟩
abbrev main_v4084 : Ref sig .tc := ⟨.hbm, 4370, rfl⟩
abbrev main_v4085 : Ref sig .tc := ⟨.hbm, 4371, rfl⟩
abbrev main_v4086 : Ref sig .tc := ⟨.hbm, 4372, rfl⟩
abbrev main_v4087 : Ref sig .tc := ⟨.hbm, 4373, rfl⟩
abbrev main_cst_260 : Ref sig .tc := ⟨.hbm, 4374, rfl⟩
abbrev main_v4088 : Ref sig .tc := ⟨.hbm, 4375, rfl⟩
abbrev main_v4089 : Ref sig .tc := ⟨.hbm, 4376, rfl⟩
abbrev main_cst_261 : Ref sig .tc := ⟨.hbm, 4377, rfl⟩
abbrev main_v4090 : Ref sig .tc := ⟨.hbm, 4378, rfl⟩
abbrev main_v4091 : Ref sig .tc := ⟨.hbm, 4379, rfl⟩
abbrev main_v4092 : Ref sig .tc := ⟨.hbm, 4380, rfl⟩
abbrev main_v4093 : Ref sig .tc := ⟨.hbm, 4381, rfl⟩
abbrev main_v4094 : Ref sig .tc := ⟨.hbm, 4382, rfl⟩
abbrev main_v4095 : Ref sig .tc := ⟨.hbm, 4383, rfl⟩
abbrev main_v4096 : Ref sig .tc := ⟨.hbm, 4384, rfl⟩
abbrev main_v4097 : Ref sig .tc := ⟨.hbm, 4385, rfl⟩
abbrev main_v4098 : Ref sig .tc := ⟨.hbm, 4386, rfl⟩
abbrev main_v4099 : Ref sig .tc := ⟨.hbm, 4387, rfl⟩
abbrev main_v4100 : Ref sig .tc := ⟨.hbm, 4388, rfl⟩
abbrev main_v4101 : Ref sig .tc := ⟨.hbm, 4389, rfl⟩
abbrev main_v4102 : Ref sig .tc := ⟨.hbm, 4390, rfl⟩
abbrev main_v4103 : Ref sig .tc := ⟨.hbm, 4391, rfl⟩
abbrev main_v4104 : Ref sig .tc := ⟨.hbm, 4392, rfl⟩
abbrev main_v4105 : Ref sig .tc := ⟨.hbm, 4393, rfl⟩
abbrev main_v4106 : Ref sig .tc := ⟨.hbm, 4394, rfl⟩
abbrev main_v4107 : Ref sig .tc := ⟨.hbm, 4395, rfl⟩
abbrev main_v4108 : Ref sig .tc := ⟨.hbm, 4396, rfl⟩
abbrev main_v4109 : Ref sig .tc := ⟨.hbm, 4397, rfl⟩
abbrev main_v4110 : Ref sig .tc := ⟨.hbm, 4398, rfl⟩
abbrev main_v4111 : Ref sig .tc := ⟨.hbm, 4399, rfl⟩
abbrev main_v4112 : Ref sig .tc := ⟨.hbm, 4400, rfl⟩
abbrev main_v4113 : Ref sig .tc := ⟨.hbm, 4401, rfl⟩
abbrev main_v4114 : Ref sig .tc := ⟨.hbm, 4402, rfl⟩
abbrev main_cst_262 : Ref sig .tc := ⟨.hbm, 4403, rfl⟩
abbrev main_v4115 : Ref sig .tc := ⟨.hbm, 4404, rfl⟩
abbrev main_v4116 : Ref sig .tc := ⟨.hbm, 4405, rfl⟩
abbrev main_cst_263 : Ref sig .tc := ⟨.hbm, 4406, rfl⟩
abbrev main_v4117 : Ref sig .tc := ⟨.hbm, 4407, rfl⟩
abbrev main_v4118 : Ref sig .tc := ⟨.hbm, 4408, rfl⟩
abbrev main_v4119 : Ref sig .tc := ⟨.hbm, 4409, rfl⟩
abbrev main_v4120 : Ref sig .tc := ⟨.hbm, 4410, rfl⟩
abbrev main_v4121 : Ref sig .tc := ⟨.hbm, 4411, rfl⟩
abbrev main_v4122 : Ref sig .tc := ⟨.hbm, 4412, rfl⟩
abbrev main_v4123 : Ref sig .tc := ⟨.hbm, 4413, rfl⟩
abbrev main_v4124 : Ref sig .tc := ⟨.hbm, 4414, rfl⟩
abbrev main_v4125 : Ref sig .tc := ⟨.hbm, 4415, rfl⟩
abbrev main_v4126 : Ref sig .tc := ⟨.hbm, 4416, rfl⟩
abbrev main_v4127 : Ref sig .tc := ⟨.hbm, 4417, rfl⟩
abbrev main_v4128 : Ref sig .tc := ⟨.hbm, 4418, rfl⟩
abbrev main_v4129 : Ref sig .tc := ⟨.hbm, 4419, rfl⟩
abbrev main_v4130 : Ref sig .tc := ⟨.hbm, 4420, rfl⟩
abbrev main_v4131 : Ref sig .tc := ⟨.hbm, 4421, rfl⟩
abbrev main_v4132 : Ref sig .tc := ⟨.hbm, 4422, rfl⟩
abbrev main_v4133 : Ref sig .tc := ⟨.hbm, 4423, rfl⟩
abbrev main_v4134 : Ref sig .tc := ⟨.hbm, 4424, rfl⟩
abbrev main_v4135 : Ref sig .tc := ⟨.hbm, 4425, rfl⟩
abbrev main_v4136 : Ref sig .tc := ⟨.hbm, 4426, rfl⟩
abbrev main_v4137 : Ref sig .tc := ⟨.hbm, 4427, rfl⟩
abbrev main_v4138 : Ref sig .tc := ⟨.hbm, 4428, rfl⟩
abbrev main_v4139 : Ref sig .tc := ⟨.hbm, 4429, rfl⟩
abbrev main_cst_264 : Ref sig .tc := ⟨.hbm, 4430, rfl⟩
abbrev main_v4140 : Ref sig .tc := ⟨.hbm, 4431, rfl⟩
abbrev main_v4141 : Ref sig .tc := ⟨.hbm, 4432, rfl⟩
abbrev main_cst_265 : Ref sig .tc := ⟨.hbm, 4433, rfl⟩
abbrev main_v4142 : Ref sig .tc := ⟨.hbm, 4434, rfl⟩
abbrev main_v4143 : Ref sig .tc := ⟨.hbm, 4435, rfl⟩
abbrev main_v4144 : Ref sig .tc := ⟨.hbm, 4436, rfl⟩
abbrev main_v4145 : Ref sig .tc := ⟨.hbm, 4437, rfl⟩
abbrev main_v4146 : Ref sig .tc := ⟨.hbm, 4438, rfl⟩
abbrev main_v4147 : Ref sig .tc := ⟨.hbm, 4439, rfl⟩
abbrev main_v4148 : Ref sig .tc := ⟨.hbm, 4440, rfl⟩
abbrev main_v4149 : Ref sig .tc := ⟨.hbm, 4441, rfl⟩
abbrev main_v4150 : Ref sig .tc := ⟨.hbm, 4442, rfl⟩
abbrev main_v4151 : Ref sig .tc := ⟨.hbm, 4443, rfl⟩
abbrev main_v4152 : Ref sig .tc := ⟨.hbm, 4444, rfl⟩
abbrev main_v4153 : Ref sig .tc := ⟨.hbm, 4445, rfl⟩
abbrev main_v4154 : Ref sig .tc := ⟨.hbm, 4446, rfl⟩
abbrev main_v4155 : Ref sig .tc := ⟨.hbm, 4447, rfl⟩
abbrev main_v4156 : Ref sig .tc := ⟨.hbm, 4448, rfl⟩
abbrev main_cst_266 : Ref sig .tc := ⟨.hbm, 4449, rfl⟩
abbrev main_v4157 : Ref sig .tc := ⟨.hbm, 4450, rfl⟩
abbrev main_v4158 : Ref sig .tc := ⟨.hbm, 4451, rfl⟩
abbrev main_v4159 : Ref sig .tc := ⟨.hbm, 4452, rfl⟩
abbrev main_v4160 : Ref sig .tc := ⟨.hbm, 4453, rfl⟩
abbrev main_v4161 : Ref sig .tc := ⟨.hbm, 4454, rfl⟩
abbrev main_v4162 : Ref sig .tc := ⟨.hbm, 4455, rfl⟩
abbrev main_v4163 : Ref sig .tc := ⟨.hbm, 4456, rfl⟩
abbrev main_v4164 : Ref sig .tc := ⟨.hbm, 4457, rfl⟩
abbrev main_v4165 : Ref sig .tc := ⟨.hbm, 4458, rfl⟩
abbrev main_v4166 : Ref sig .tc := ⟨.hbm, 4459, rfl⟩
abbrev main_v4167 : Ref sig .tc := ⟨.hbm, 4460, rfl⟩
abbrev main_v4168 : Ref sig .tc := ⟨.hbm, 4461, rfl⟩
abbrev main_v4169 : Ref sig .tc := ⟨.hbm, 4462, rfl⟩
abbrev main_v4170 : Ref sig .tc := ⟨.hbm, 4463, rfl⟩
abbrev main_v4171 : Ref sig .tc := ⟨.hbm, 4464, rfl⟩
abbrev main_v4172 : Ref sig .tc := ⟨.hbm, 4465, rfl⟩
abbrev main_v4173 : Ref sig .tc := ⟨.hbm, 4466, rfl⟩
abbrev main_v4174 : Ref sig .tc := ⟨.hbm, 4467, rfl⟩
abbrev main_v4175 : Ref sig .tc := ⟨.hbm, 4468, rfl⟩
abbrev main_v4176 : Ref sig .tc := ⟨.hbm, 4469, rfl⟩
abbrev main_v4177 : Ref sig .tc := ⟨.hbm, 4470, rfl⟩
abbrev main_v4178 : Ref sig .tc := ⟨.hbm, 4471, rfl⟩
abbrev main_v4179 : Ref sig .tc := ⟨.hbm, 4472, rfl⟩
abbrev main_v4180 : Ref sig .tc := ⟨.hbm, 4473, rfl⟩
abbrev main_v4181 : Ref sig .tc := ⟨.hbm, 4474, rfl⟩
abbrev main_v4182 : Ref sig .tc := ⟨.hbm, 4475, rfl⟩
abbrev main_v4183 : Ref sig .tc := ⟨.hbm, 4476, rfl⟩
abbrev main_v4184 : Ref sig .tc := ⟨.hbm, 4477, rfl⟩
abbrev main_v4185 : Ref sig .tc := ⟨.hbm, 4478, rfl⟩
abbrev main_v4186 : Ref sig .tc := ⟨.hbm, 4479, rfl⟩
abbrev main_v4187 : Ref sig .tc := ⟨.hbm, 4480, rfl⟩
abbrev main_v4188 : Ref sig .tc := ⟨.hbm, 4481, rfl⟩
abbrev main_v4189 : Ref sig .tc := ⟨.hbm, 4482, rfl⟩
abbrev main_v4190 : Ref sig .tc := ⟨.hbm, 4483, rfl⟩
abbrev main_v4191 : Ref sig .tc := ⟨.hbm, 4484, rfl⟩
abbrev main_v4192 : Ref sig .tc := ⟨.hbm, 4485, rfl⟩
abbrev main_v4193 : Ref sig .tc := ⟨.hbm, 4486, rfl⟩
abbrev main_v4194 : Ref sig .tc := ⟨.hbm, 4487, rfl⟩
abbrev main_v4195 : Ref sig .tc := ⟨.hbm, 4488, rfl⟩
abbrev main_v4196 : Ref sig .tc := ⟨.hbm, 4489, rfl⟩
abbrev main_cst_267 : Ref sig .tc := ⟨.hbm, 4490, rfl⟩
abbrev main_v4197 : Ref sig .tc := ⟨.hbm, 4491, rfl⟩
abbrev main_v4198 : Ref sig .tc := ⟨.hbm, 4492, rfl⟩
abbrev main_cst_268 : Ref sig .tc := ⟨.hbm, 4493, rfl⟩
abbrev main_v4199 : Ref sig .tc := ⟨.hbm, 4494, rfl⟩
abbrev main_v4200 : Ref sig .tc := ⟨.hbm, 4495, rfl⟩
abbrev main_v4201 : Ref sig .tc := ⟨.hbm, 4496, rfl⟩
abbrev main_v4202 : Ref sig .tc := ⟨.hbm, 4497, rfl⟩
abbrev main_v4203 : Ref sig .tc := ⟨.hbm, 4498, rfl⟩
abbrev main_v4204 : Ref sig .tc := ⟨.hbm, 4499, rfl⟩
abbrev main_v4205 : Ref sig .tc := ⟨.hbm, 4500, rfl⟩
abbrev main_v4206 : Ref sig .tc := ⟨.hbm, 4501, rfl⟩
abbrev main_v4207 : Ref sig .tc := ⟨.hbm, 4502, rfl⟩
abbrev main_v4208 : Ref sig .tc := ⟨.hbm, 4503, rfl⟩
abbrev main_v4209 : Ref sig .tc := ⟨.hbm, 4504, rfl⟩
abbrev main_v4210 : Ref sig .tc := ⟨.hbm, 4505, rfl⟩
abbrev main_v4211 : Ref sig .tc := ⟨.hbm, 4506, rfl⟩
abbrev main_v4212 : Ref sig .tc := ⟨.hbm, 4507, rfl⟩
abbrev main_v4213 : Ref sig .tc := ⟨.hbm, 4508, rfl⟩
abbrev main_v4214 : Ref sig .tc := ⟨.hbm, 4509, rfl⟩
abbrev main_v4215 : Ref sig .tc := ⟨.hbm, 4510, rfl⟩
abbrev main_v4216 : Ref sig .tc := ⟨.hbm, 4511, rfl⟩
abbrev main_v4217 : Ref sig .tc := ⟨.hbm, 4512, rfl⟩
abbrev main_cst_269 : Ref sig .tc := ⟨.hbm, 4513, rfl⟩
abbrev main_v4218 : Ref sig .tc := ⟨.hbm, 4514, rfl⟩
abbrev main_v4219 : Ref sig .tc := ⟨.hbm, 4515, rfl⟩
abbrev main_cst_270 : Ref sig .tc := ⟨.hbm, 4516, rfl⟩
abbrev main_v4220 : Ref sig .tc := ⟨.hbm, 4517, rfl⟩
abbrev main_v4221 : Ref sig .tc := ⟨.hbm, 4518, rfl⟩

abbrev nD : Nat := 1
abbrev τ : Topo := Topo.v7x

variable {F : FTy → Type} [FloatOps F]

class Facts₀ : Prop where
  transposes_S3x4096x256_S4096x3x256_1_0_2 : S3x4096x256.Transposes [1, 0, 2] S4096x3x256
  shapeCasts_S4096x3x256_S4096x768 : S4096x3x256.ShapeCasts S4096x768
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S3x4096x256_S1x4096x256_0_0_0 : S3x4096x256.Slices ![0, 0, 0] S1x4096x256
  shapeCasts_S1x4096x256_S4096x256 : S1x4096x256.ShapeCasts S4096x256
  bcast_S_S4096x256 : S_.BroadcastsInDim S4096x256 (![] : Fin 0 → Fin S4096x256.rank)
  slices_S3x3x256_S1x3x256_0_0_0 : S3x3x256.Slices ![0, 0, 0] S1x3x256
  shapeCasts_S1x3x256_S3x256 : S1x3x256.ShapeCasts S3x256
  slices_S3x3_S1x3_0_0 : S3x3.Slices ![0, 0] S1x3
  shapeCasts_S1x3_S3 : S1x3.ShapeCasts S3
  transposes_S3x256_S256x3_1_0 : S3x256.Transposes [1, 0] S256x3
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  slices_S3x3x768_S1x3x768_0_0_0 : S3x3x768.Slices ![0, 0, 0] S1x3x768
  shapeCasts_S1x3x768_S3x768 : S1x3x768.ShapeCasts S3x768
  transposes_S3x768_S768x3_1_0 : S3x768.Transposes [1, 0] S768x3
  bcast_S_S4096x3 : S_.BroadcastsInDim S4096x3 (![] : Fin 0 → Fin S4096x3.rank)
  slices_S3x768x768_S1x768x768_0_0_0 : S3x768x768.Slices ![0, 0, 0] S1x768x768
  shapeCasts_S1x768x768_S768x768 : S1x768x768.ShapeCasts S768x768
  slices_S3x768_S1x768_0_0 : S3x768.Slices ![0, 0] S1x768
  shapeCasts_S1x768_S768 : S1x768.ShapeCasts S768
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  shapeCasts_S4096x768_S4096x3x256 : S4096x768.ShapeCasts S4096x3x256
  bcast_S4096x3_S4096x3x1_0_1 : S4096x3.BroadcastsInDim S4096x3x1 (![0, 1] : Fin 2 → Fin S4096x3x1.rank)
  bcast_S4096x3x1_S4096x3x256_0_1_2 : S4096x3x1.BroadcastsInDim S4096x3x256 (![0, 1, 2] : Fin 3 → Fin S4096x3x256.rank)
  reducesTo_S4096x3x256_S4096x256_d1 : S4096x3x256.ReducesTo [1] S4096x256
  h_S_ : 0 < S_.numel
  slices_S3x256x256_S1x256x256_1_0_0 : S3x256x256.Slices ![1, 0, 0] S1x256x256
  slices_S3x256_S1x256_1_0 : S3x256.Slices ![1, 0] S1x256
  slices_S3x4096x256_S1x4096x256_1_0_0 : S3x4096x256.Slices ![1, 0, 0] S1x4096x256
  slices_S3x3x256_S1x3x256_1_0_0 : S3x3x256.Slices ![1, 0, 0] S1x3x256
  slices_S3x3_S1x3_1_0 : S3x3.Slices ![1, 0] S1x3
  slices_S3x3x768_S1x3x768_1_0_0 : S3x3x768.Slices ![1, 0, 0] S1x3x768
  slices_S3x768x768_S1x768x768_1_0_0 : S3x768x768.Slices ![1, 0, 0] S1x768x768
  slices_S3x768_S1x768_1_0 : S3x768.Slices ![1, 0] S1x768
  slices_S3x256x256_S1x256x256_2_0_0 : S3x256x256.Slices ![2, 0, 0] S1x256x256
  slices_S3x256_S1x256_2_0 : S3x256.Slices ![2, 0] S1x256
  slices_S3x4096x256_S1x4096x256_2_0_0 : S3x4096x256.Slices ![2, 0, 0] S1x4096x256
  slices_S3x3x256_S1x3x256_2_0_0 : S3x3x256.Slices ![2, 0, 0] S1x3x256
  slices_S3x3_S1x3_2_0 : S3x3.Slices ![2, 0] S1x3
  slices_S3x3x768_S1x3x768_2_0_0 : S3x3x768.Slices ![2, 0, 0] S1x3x768
  slices_S3x768x768_S1x768x768_2_0_0 : S3x768x768.Slices ![2, 0, 0] S1x768x768
  slices_S3x768_S1x768_2_0 : S3x768.Slices ![2, 0] S1x768
  bcast_S4096x256_S1x4096x256_1_2 : S4096x256.BroadcastsInDim S1x4096x256 (![1, 2] : Fin 2 → Fin S1x4096x256.rank)
  concatenates_S1x4096x256_S1x4096x256_S1x4096x256_S3x4096x256_d0 : Shape.Concatenates [S1x4096x256, S1x4096x256, S1x4096x256] S3x4096x256 0
  concatenates_S4096x256_S4096x256_S4096x256_S4096x256_S4096x256_S4096x256_S4096x256_S4096x256_S4096x256_S4096x2304_d1 : Shape.Concatenates [S4096x256, S4096x256, S4096x256, S4096x256, S4096x256, S4096x256, S4096x256, S4096x256, S4096x256] S4096x2304 1
  transposes_S44x2304_S2304x44_1_0 : S44x2304.Transposes [1, 0] S2304x44
  bcast_S44_S1x44_1 : S44.BroadcastsInDim S1x44 (![1] : Fin 1 → Fin S1x44.rank)
  bcast_S1x44_S4096x44_0_1 : S1x44.BroadcastsInDim S4096x44 (![0, 1] : Fin 2 → Fin S4096x44.rank)
  bcast_S_S4096x44 : S_.BroadcastsInDim S4096x44 (![] : Fin 0 → Fin S4096x44.rank)
  dot_S4096x256_S256x256_S4096x256_1_0_0_1_n_n_wf : DotDims.WF S4096x256 S256x256 S4096x256 [1] [0] [0] [1] [] []
  dot_S4096x256_S256x3_S4096x3_1_0_0_1_n_n_wf : DotDims.WF S4096x256 S256x3 S4096x3 [1] [0] [0] [1] [] []
  dot_S4096x768_S768x3_S4096x3_1_0_0_1_n_n_wf : DotDims.WF S4096x768 S768x3 S4096x3 [1] [0] [0] [1] [] []
  dot_S4096x768_S768x768_S4096x768_1_0_0_1_n_n_wf : DotDims.WF S4096x768 S768x768 S4096x768 [1] [0] [0] [1] [] []
  dot_S4096x2304_S2304x44_S4096x44_1_0_0_1_n_n_wf : DotDims.WF S4096x2304 S2304x44 S4096x44 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x3_S4096x3_1_0_0_1_n_n : DotDims S4096x256 S256x3 S4096x3 where
  lhsContracting := [1]
  rhsContracting := [0]
  lhsNonContracting := [0]
  rhsNonContracting := [1]
  lhsBatch := []
  rhsBatch := []
  wf := dot_S4096x256_S256x3_S4096x3_1_0_0_1_n_n_wf
def dot_S4096x768_S768x3_S4096x3_1_0_0_1_n_n : DotDims S4096x768 S768x3 S4096x3 where
  lhsContracting := [1]
  rhsContracting := [0]
  lhsNonContracting := [0]
  rhsNonContracting := [1]
  lhsBatch := []
  rhsBatch := []
  wf := dot_S4096x768_S768x3_S4096x3_1_0_0_1_n_n_wf
def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S4096x2304_S2304x44_S4096x44_1_0_0_1_n_n : DotDims S4096x2304 S2304x44 S4096x44 where
  lhsContracting := [1]
  rhsContracting := [0]
  lhsNonContracting := [0]
  rhsNonContracting := [1]
  lhsBatch := []
  rhsBatch := []
  wf := dot_S4096x2304_S2304x44_S4096x44_1_0_0_1_n_n_wf

class Facts : Prop extends Facts₀ where

variable [Facts]
-- ==== Proof.BFrameRun.lean ====
import proofs.«181228_j76424648065777_1_alg».proof.Proof.Gen.Kernel.Launch
import proofs.«181228_j76424648065777_1_alg».proof.Proof.Gen.Kernel.Skeleton
import proofs.«181228_j76424648065777_1_alg».proof.Proof.Gen.Kernel.Points
import Idealize.ShloMosaic.Lib.Pipeline.FrameBody
import Idealize.ShloMosaic.Lib.Ring
import Idealize.ShloMosaic.Lib.Tactic

/-!
# The frame certificate of the program, written out

The program is a prefix of host operations (transposes, concatenations, truncations) followed by ONE pipelined
region of 16 windows on a grid of 16 points: windows 0..14 are inputs, window 15 is the one output, whose block
the body covers with a single whole-block store.

* `V`: each buffer's contents when the region is entered — the host prefix folded over the launch memory; an
  argument array is written by no host operation, so `V` at it is the launch contents (`V_main_argK`).
* `iblk`: a window's block at a grid point, read off its array as the region finds it.
* `kernelRun`: the body run once on arbitrary whole staging memrefs; the pieces the output buffer ends with are
  the witness of a subtype, found by running the body.
* `out15`: the output block after the body — those pieces read back over arbitrary contents (they cover the block).
* `dats`: the pipeline's proof data; `run_main`: the frame run; `frame`: every argument array ends unchanged.
-/

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0` (each writes its own result buffer, a different reference): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1` (each writes its own result buffer, a different reference): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg2` (each writes its own result buffer, a different reference): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg3` (each writes its own result buffer, a different reference): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg4` (each writes its own result buffer, a different reference): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg5` (each writes its own result buffer, a different reference): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg6` (each writes its own result buffer, a different reference): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg7` (each writes its own result buffer, a different reference): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg8` (each writes its own result buffer, a different reference): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg9` (each writes its own result buffer, a different reference): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg10` (each writes its own result buffer, a different reference): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg11` (each writes its own result buffer, a different reference): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg12` (each writes its own result buffer, a different reference): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg13` (each writes its own result buffer, a different reference): the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg14` (each writes its own result buffer, a different reference): the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg15` (each writes its own result buffer, a different reference): the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg16` (each writes its own result buffer, a different reference): the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg17` (each writes its own result buffer, a different reference): the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg18` (each writes its own result buffer, a different reference): the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg19` (each writes its own result buffer, a different reference): the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg20` (each writes its own result buffer, a different reference): the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg21` (each writes its own result buffer, a different reference): the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg22` (each writes its own result buffer, a different reference): the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg23` (each writes its own result buffer, a different reference): the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg24` (each writes its own result buffer, a different reference): the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is not
    fetched its block index has not moved), for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is not
    fetched its block index has not moved), for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is not
    fetched its block index has not moved), for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (when it is not
    fetched its block index has not moved), for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (when it is not
    fetched its block index has not moved), for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (when it is not
    fetched its block index has not moved), for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (when it is not
    fetched its block index has not moved), for any proof data over `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (when it is not
    fetched its block index has not moved), for any proof data over `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (when it is not
    fetched its block index has not moved), for any proof data over `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (when it is not
    fetched its block index has not moved), for any proof data over `V` whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (when it is not
    fetched its block index has not moved), for any proof data over `V` whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (when it is not
    fetched its block index has not moved), for any proof data over `V` whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (when it is not
    fetched its block index has not moved), for any proof data over `V` whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (when it is not
    fetched its block index has not moved), for any proof data over `V` whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data over `V`: an argument array an input window stages
    ends at the data's array (an input is never written back), which is `V`'s; one no window stages ends at `V`'s by
    the post's second clause; and `V` at an argument array is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 6).trans (((dats 0 c).arrAt_in 6 rfl _).trans ((hA c 6).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 10).trans (((dats 0 c).arrAt_in 10 rfl _).trans ((hA c 10).trans (V_main_arg20 m c))),
      ((h c).2 main_arg21 (Pipeline.mem_restRefs_of main_arg21 (by decide) (by decide))).trans (V_main_arg21 m c),
      ((h c).1 12).trans (((dats 0 c).arrAt_in 12 rfl _).trans ((hA c 12).trans (V_main_arg22 m c))),
      ((h c).2 main_arg23 (Pipeline.mem_restRefs_of main_arg23 (by decide) (by decide))).trans (V_main_arg23 m c),
      ((h c).1 14).trans (((dats 0 c).arrAt_in 14 rfl _).trans ((hA c 14).trans (V_main_arg24 m c)))⟩) h

/-! ## The kernel body on any staging memrefs -/

/-- One staging buffer of the output window, through which its contents are stated (the choice does not matter:
    pieces that cover the block read back the same through any view). -/
abbrev VO15 : View sig .tc .vmem S256x44 .f32 := (Memref.whole cc0_stg15_0 : Memref sig .tc .vmem S256x44 .f32).view

abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256x3 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x256x768 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x768x3 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x768x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2304x44 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S44 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x44 .f32 := win0_15.stage (cfg0.slots t 15)
abbrev hs0_15 (t : Fin cfg0.N) : (ms0_15 t).IsWhole := hstage0_15 ((cfg0.slots t 15).cast nbuf0_15)

-- the run is one elaboration step over the body's 51 parts (about 3,000 statements)
set_option maxHeartbeats 8000000 in
/-- What the body's one store leaves in the output's staging memref, as pieces, WITH the proof that on whole staging
    memrefs — the inputs' at their contents, the output's at anything — the body runs to the continuation holding the
    inputs' as they were and the output's buffer with the pieces written. The body is straight-line: loads through
    literal rectangles of the whole memrefs, pure vector operations, one covering store. -/
noncomputable def kernelRun (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) :
    { L : List (View.Piece (Elt F) S256x44 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact H15

end Cert.Kernel.Hand

end
-- ==== Proof.BFrame.lean ====
import proofs.«181228_j76424648065777_1_alg».proof.Proof.BFrameRun

/-!
# The frame certificate of the program: the proof data, the run and the frame

Over the first module (the program up to the region, the windows' blocks, the body run once on arbitrary whole
staging memrefs with the pieces its one store leaves as the witness):

* `cover15`, `out15`: the pieces cover the output block, so the buffer reads back as one value of the input blocks;
* `dats`: the pipeline's proof data — each input's buffer at its block, the output's at `out15` of the input blocks;
* `sound_body`, `body_obligation`: the body at a generic grid point;
* `run_main`: the frame run; `frame`: every argument array ends unchanged.
-/

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces tile the output block (one store of the whole block), so they cover it. -/
theorem cover15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) (y : S256x44.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1 S256x44.size (by sl_kernel_rfl) y

/-- What the body leaves in the output's staging buffer: its pieces read back over arbitrary contents. -/
def out15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) : Vec F S256x44 .f32 :=
  VO15.read (Elt F) (VO15.writes (Elt F) VO15.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1)

/-! ## The pipeline's proof data -/

/-- The proof data of the one pipeline on core `c`: the arrays as the region finds them; after the body at point `t`
    each input's buffer at its block and the output's at `out15` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents (the definition projected; `V`, a fold over the host
    prefix, is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
/-- What the body leaves in the output window's buffer at point `t`. -/
theorem after15 (c : Dev nD) (t : Fin cfg0.N) : (dats m 0 c).after 15 t = out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at any point: the inputs' memrefs hold their blocks, so the run applies; the pieces it leaves cover the
    output block, so the buffer reads back as `out15`; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after15]
  unfold out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs (terminates, no fault) and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.Kernel.Hand

end
-- ==== Proof.KFrameRun.lean ====
import proofs.«181228_j76424648065777_1_alg».proof.Proof.Gen.KernelIdeal.Launch
import proofs.«181228_j76424648065777_1_alg».proof.Proof.Gen.KernelIdeal.Skeleton
import proofs.«181228_j76424648065777_1_alg».proof.Proof.Gen.KernelIdeal.Points
import Idealize.ShloMosaic.Lib.Pipeline.FrameBody
import Idealize.ShloMosaic.Lib.Ring
import Idealize.ShloMosaic.Lib.Tactic

/-!
# The frame certificate of the program, written out

The program is a prefix of host operations (transposes, concatenations, truncations) followed by ONE pipelined
region of 16 windows on a grid of 16 points: windows 0..14 are inputs, window 15 is the one output, whose block
the body covers with a single whole-block store.

* `V`: each buffer's contents when the region is entered — the host prefix folded over the launch memory; an
  argument array is written by no host operation, so `V` at it is the launch contents (`V_main_argK`).
* `iblk`: a window's block at a grid point, read off its array as the region finds it.
* `kernelRun`: the body run once on arbitrary whole staging memrefs; the pieces the output buffer ends with are
  the witness of a subtype, found by running the body.
* `out15`: the output block after the body — those pieces read back over arbitrary contents (they cover the block).
* `dats`: the pipeline's proof data; `run_main`: the frame run; `frame`: every argument array ends unchanged.
-/

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0` (each writes its own result buffer, a different reference): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1` (each writes its own result buffer, a different reference): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg2` (each writes its own result buffer, a different reference): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg3` (each writes its own result buffer, a different reference): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg4` (each writes its own result buffer, a different reference): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg5` (each writes its own result buffer, a different reference): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg6` (each writes its own result buffer, a different reference): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg7` (each writes its own result buffer, a different reference): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg8` (each writes its own result buffer, a different reference): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg9` (each writes its own result buffer, a different reference): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg10` (each writes its own result buffer, a different reference): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg11` (each writes its own result buffer, a different reference): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg12` (each writes its own result buffer, a different reference): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg13` (each writes its own result buffer, a different reference): the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg14` (each writes its own result buffer, a different reference): the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg15` (each writes its own result buffer, a different reference): the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg16` (each writes its own result buffer, a different reference): the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg17` (each writes its own result buffer, a different reference): the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg18` (each writes its own result buffer, a different reference): the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg19` (each writes its own result buffer, a different reference): the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg20` (each writes its own result buffer, a different reference): the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg21` (each writes its own result buffer, a different reference): the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg22` (each writes its own result buffer, a different reference): the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg23` (each writes its own result buffer, a different reference): the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg24` (each writes its own result buffer, a different reference): the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is not
    fetched its block index has not moved), for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is not
    fetched its block index has not moved), for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is not
    fetched its block index has not moved), for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (when it is not
    fetched its block index has not moved), for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (when it is not
    fetched its block index has not moved), for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (when it is not
    fetched its block index has not moved), for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (when it is not
    fetched its block index has not moved), for any proof data over `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (when it is not
    fetched its block index has not moved), for any proof data over `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (when it is not
    fetched its block index has not moved), for any proof data over `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (when it is not
    fetched its block index has not moved), for any proof data over `V` whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (when it is not
    fetched its block index has not moved), for any proof data over `V` whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (when it is not
    fetched its block index has not moved), for any proof data over `V` whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (when it is not
    fetched its block index has not moved), for any proof data over `V` whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (when it is not
    fetched its block index has not moved), for any proof data over `V` whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data over `V`: an argument array an input window stages
    ends at the data's array (an input is never written back), which is `V`'s; one no window stages ends at `V`'s by
    the post's second clause; and `V` at an argument array is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 6).trans (((dats 0 c).arrAt_in 6 rfl _).trans ((hA c 6).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 10).trans (((dats 0 c).arrAt_in 10 rfl _).trans ((hA c 10).trans (V_main_arg20 m c))),
      ((h c).2 main_arg21 (Pipeline.mem_restRefs_of main_arg21 (by decide) (by decide))).trans (V_main_arg21 m c),
      ((h c).1 12).trans (((dats 0 c).arrAt_in 12 rfl _).trans ((hA c 12).trans (V_main_arg22 m c))),
      ((h c).2 main_arg23 (Pipeline.mem_restRefs_of main_arg23 (by decide) (by decide))).trans (V_main_arg23 m c),
      ((h c).1 14).trans (((dats 0 c).arrAt_in 14 rfl _).trans ((hA c 14).trans (V_main_arg24 m c)))⟩) h

/-! ## The kernel body on any staging memrefs -/

/-- One staging buffer of the output window, through which its contents are stated (the choice does not matter:
    pieces that cover the block read back the same through any view). -/
abbrev VO15 : View sig .tc .vmem S256x44 .f32 := (Memref.whole cc0_stg15_0 : Memref sig .tc .vmem S256x44 .f32).view

abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256x3 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x256x768 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x768x3 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x768x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2304x44 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S44 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x44 .f32 := win0_15.stage (cfg0.slots t 15)
abbrev hs0_15 (t : Fin cfg0.N) : (ms0_15 t).IsWhole := hstage0_15 ((cfg0.slots t 15).cast nbuf0_15)

-- the run is one elaboration step over the body's 51 parts (about 3,000 statements)
set_option maxHeartbeats 8000000 in
/-- What the body's one store leaves in the output's staging memref, as pieces, WITH the proof that on whole staging
    memrefs — the inputs' at their contents, the output's at anything — the body runs to the continuation holding the
    inputs' as they were and the output's buffer with the pieces written. The body is straight-line: loads through
    literal rectangles of the whole memrefs, pure vector operations, one covering store. -/
noncomputable def kernelRun (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) :
    { L : List (View.Piece (Elt F) S256x44 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact H15

end Cert.KernelIdeal.Hand

end
-- ==== Proof.KFrame.lean ====
import proofs.«181228_j76424648065777_1_alg».proof.Proof.KFrameRun

/-!
# The frame certificate of the program: the proof data, the run and the frame

Over the first module (the program up to the region, the windows' blocks, the body run once on arbitrary whole
staging memrefs with the pieces its one store leaves as the witness):

* `cover15`, `out15`: the pieces cover the output block, so the buffer reads back as one value of the input blocks;
* `dats`: the pipeline's proof data — each input's buffer at its block, the output's at `out15` of the input blocks;
* `sound_body`, `body_obligation`: the body at a generic grid point;
* `run_main`: the frame run; `frame`: every argument array ends unchanged.
-/

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces tile the output block (one store of the whole block), so they cover it. -/
theorem cover15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) (y : S256x44.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1 S256x44.size (by sl_kernel_rfl) y

/-- What the body leaves in the output's staging buffer: its pieces read back over arbitrary contents. -/
def out15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) : Vec F S256x44 .f32 :=
  VO15.read (Elt F) (VO15.writes (Elt F) VO15.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1)

/-! ## The pipeline's proof data -/

/-- The proof data of the one pipeline on core `c`: the arrays as the region finds them; after the body at point `t`
    each input's buffer at its block and the output's at `out15` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents (the definition projected; `V`, a fold over the host
    prefix, is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
/-- What the body leaves in the output window's buffer at point `t`. -/
theorem after15 (c : Dev nD) (t : Fin cfg0.N) : (dats m 0 c).after 15 t = out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at any point: the inputs' memrefs hold their blocks, so the run applies; the pieces it leaves cover the
    output block, so the buffer reads back as `out15`; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after15]
  unfold out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs (terminates, no fault) and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Hand

end
-- ==== Proof.KSpec.lean ====
/-
  The tile function of the gated-feedback LSTM kernel, written once over whole tile vectors.

  A batch tile holds 256 rows.  One layer of one time step takes the layer's input (already narrowed), the layer's
  previous hidden and cell tiles, the narrowed concatenation of the three previous hidden tiles, and the layer's ten
  weight and bias blocks, and returns the new hidden and cell tiles:
    f, i, o  = logistic of (a slice of xin·Wi + bi) + (a slice of hprev·Wh + bh),
    g        = logistic of ((xin·Wig + big) + hcat·Whg) + bhg            (three gate columns),
    aux      = ((0 + g₀·A₀) + g₁·A₁) + g₂·A₂  with A = hcat·Whc + bhc cut into three column blocks,
    c        = f·cprev + i·tanh(c_lin + aux),   h = o·c.
  A time step runs the three layers in order, layer l+1 reading layer l's new hidden tile; nine steps are run, the
  last layer's hidden tile of each is kept, and the result is logistic of (the nine kept tiles side by side)·Wlast + blast.
-/
import proofs.«181228_j76424648065777_1_alg».proof.KernelIdeal

noncomputable section

namespace Cert.KernelIdeal.Spec

open Idealize.ShloMosaic Idealize.SL.Sem
open Cert.KernelIdeal

variable {F : FTy → Type} [FloatOps F]
variable [Facts]
open Facts₀ Facts

/-- One layer's weight and bias blocks as the body loads them. -/
structure LayerW (F : FTy → Type) where
  wi  : Vec F S1x256x1024 .bf16
  bi  : Vec F S1x1024 .f32
  wh  : Vec F S1x256x768 .bf16
  bh  : Vec F S1x768 .f32
  wig : Vec F S1x256x3 .bf16
  big : Vec F S1x3 .f32
  whg : Vec F S1x768x3 .bf16
  bhg : Vec F S1x3 .f32
  whc : Vec F S1x768x768 .bf16
  bhc : Vec F S1x768 .f32

/-- The four input-side pre-activations, side by side: xin·Wi + bi. -/
def linI (xin : FVec F S256x256 .bf16) (w : LayerW F) : FVec F S256x1024 .f32 :=
  addf (matmul dot_S256x256_S256x1024_S256x1024_1_0_0_1_n_n none xin (shapeCast S256x1024 w.wi shapeCasts_S1x256x1024_S256x1024) (constant S256x1024 .f32 0x00000000#32))
    (broadcastTo S256x1024 (shapeCast S1x1024 (shapeCast S1024 w.bi shapeCasts_S1x1024_S1024) shapeCasts_S1024_S1x1024) broadcasts_S1x1024_S256x1024)

/-- The three hidden-side pre-activations, side by side: hprev·Wh + bh. -/
def linH (hp : FVec F S256x256 .bf16) (w : LayerW F) : FVec F S256x768 .f32 :=
  addf (matmul dot_S256x256_S256x768_S256x768_1_0_0_1_n_n none hp (shapeCast S256x768 w.wh shapeCasts_S1x256x768_S256x768) (constant S256x768 .f32 0x00000000#32))
    (broadcastTo S256x768 (shapeCast S1x768 (shapeCast S768 w.bh shapeCasts_S1x768_S768) shapeCasts_S768_S1x768) broadcasts_S1x768_S256x768)

/-- The three cross-layer gate columns. -/
def gate (xin : FVec F S256x256 .bf16) (hcat : FVec F S256x768 .bf16) (w : LayerW F) : FVec F S256x3 .f32 :=
  logistic (addf (addf
      (addf (matmul dot_S256x256_S256x3_S256x3_1_0_0_1_n_n none xin (shapeCast S256x3 w.wig shapeCasts_S1x256x3_S256x3) (constant S256x3 .f32 0x00000000#32))
        (broadcastTo S256x3 (shapeCast S1x3 (shapeCast S3 w.big shapeCasts_S1x3_S3) shapeCasts_S3_S1x3) broadcasts_S1x3_S256x3))
      (matmul dot_S256x768_S768x3_S256x3_1_0_0_1_n_n none hcat (shapeCast S768x3 w.whg shapeCasts_S1x768x3_S768x3) (constant S256x3 .f32 0x00000000#32)))
    (broadcastTo S256x3 (shapeCast S1x3 (shapeCast S3 w.bhg shapeCasts_S1x3_S3) shapeCasts_S3_S1x3) broadcasts_S1x3_S256x3))

/-- The cross-layer candidate terms, three column blocks side by side: hcat·Whc + bhc. -/
def auxAll (hcat : FVec F S256x768 .bf16) (w : LayerW F) : FVec F S256x768 .f32 :=
  addf (matmul dot_S256x768_S768x768_S256x768_1_0_0_1_n_n none hcat (shapeCast S768x768 w.whc shapeCasts_S1x768x768_S768x768) (constant S256x768 .f32 0x00000000#32))
    (broadcastTo S256x768 (shapeCast S1x768 (shapeCast S768 w.bhc shapeCasts_S1x768_S768) shapeCasts_S768_S1x768) broadcasts_S1x768_S256x768)

/-- The gated sum of the three candidate blocks. -/
def auxSum (g : FVec F S256x3 .f32) (a : FVec F S256x768 .f32) : FVec F S256x256 .f32 :=
  addf (addf (addf (broadcast S256x256 (Scalar.ofBits .f32 0x00000000#32))
      (mulf (broadcastTo S256x256 (extractStridedSlice S256x1 ![0, 0] g slices_S256x3_o0_0_S256x1) broadcasts_S256x1_S256x256) (extractStridedSlice S256x256 ![0, 0] a slices_S256x768_o0_0_S256x256)))
      (mulf (broadcastTo S256x256 (extractStridedSlice S256x1 ![0, 1] g slices_S256x3_o0_1_S256x1) broadcasts_S256x1_S256x256) (extractStridedSlice S256x256 ![0, 256] a slices_S256x768_o0_256_S256x256)))
      (mulf (broadcastTo S256x256 (extractStridedSlice S256x1 ![0, 2] g slices_S256x3_o0_2_S256x1) broadcasts_S256x1_S256x256) (extractStridedSlice S256x256 ![0, 512] a slices_S256x768_o0_512_S256x256))

/-- The new cell tile of one layer. -/
def cellC (xin : FVec F S256x256 .bf16) (hprev cprev : FVec F S256x256 .f32) (hcat : FVec F S256x768 .bf16) (w : LayerW F) :
    FVec F S256x256 .f32 :=
  addf
    (mulf (logistic (addf (extractStridedSlice S256x256 ![0, 0] (linI xin w) slices_S256x1024_o0_0_S256x256)
        (extractStridedSlice S256x256 ![0, 0] (linH (truncf .bf16 hprev bitsLt_bf16_f32) w) slices_S256x768_o0_0_S256x256))) cprev)
    (mulf (logistic (addf (extractStridedSlice S256x256 ![0, 256] (linI xin w) slices_S256x1024_o0_256_S256x256)
        (extractStridedSlice S256x256 ![0, 256] (linH (truncf .bf16 hprev bitsLt_bf16_f32) w) slices_S256x768_o0_256_S256x256)))
      (tanh (addf (extractStridedSlice S256x256 ![0, 512] (linI xin w) slices_S256x1024_o0_512_S256x256)
        (auxSum (gate xin hcat w) (auxAll hcat w)))))

/-- The new hidden tile of one layer. -/
def cellH (xin : FVec F S256x256 .bf16) (hprev cprev : FVec F S256x256 .f32) (hcat : FVec F S256x768 .bf16) (w : LayerW F) :
    FVec F S256x256 .f32 :=
  mulf (logistic (addf (extractStridedSlice S256x256 ![0, 768] (linI xin w) slices_S256x1024_o0_768_S256x256)
        (extractStridedSlice S256x256 ![0, 512] (linH (truncf .bf16 hprev bitsLt_bf16_f32) w) slices_S256x768_o0_512_S256x256)))
    (cellC xin hprev cprev hcat w)

/-- The six tiles carried from one time step to the next. -/
structure St (F : FTy → Type) where
  h0 : FVec F S256x256 .f32
  h1 : FVec F S256x256 .f32
  h2 : FVec F S256x256 .f32
  c0 : FVec F S256x256 .f32
  c1 : FVec F S256x256 .f32
  c2 : FVec F S256x256 .f32

/-- The narrowed concatenation of the three hidden tiles. -/
def hcatOf (s : St F) : FVec F S256x768 .bf16 :=
  truncf .bf16 (concatenate S256x768 1 [⟨S256x256, s.h0⟩, ⟨S256x256, s.h1⟩, ⟨S256x256, s.h2⟩] concatenates_S256x256_S256x256_S256x256_S256x768_d1) bitsLt_bf16_f32

/-- One time step: the three layers in order. -/
def step (x : Vec F S256x256 .f32) (w0 w1 w2 : LayerW F) (s : St F) : St F :=
  let hc := hcatOf s
  let h0' := cellH (truncf .bf16 x bitsLt_bf16_f32) s.h0 s.c0 hc w0
  let h1' := cellH (truncf .bf16 h0' bitsLt_bf16_f32) s.h1 s.c1 hc w1
  let h2' := cellH (truncf .bf16 h1' bitsLt_bf16_f32) s.h2 s.c2 hc w2
  { h0 := h0', h1 := h1', h2 := h2',
    c0 := cellC (truncf .bf16 x bitsLt_bf16_f32) s.h0 s.c0 hc w0,
    c1 := cellC (truncf .bf16 h0' bitsLt_bf16_f32) s.h1 s.c1 hc w1,
    c2 := cellC (truncf .bf16 h1' bitsLt_bf16_f32) s.h2 s.c2 hc w2 }

/-- The tiles the first step starts from. -/
def init (hid0 hid1 hid2 cur0 cur1 cur2 : Vec F S1x256x256 .f32) : St F :=
  { h0 := shapeCast S256x256 hid0 shapeCasts_S1x256x256_S256x256,
    h1 := shapeCast S256x256 hid1 shapeCasts_S1x256x256_S256x256,
    h2 := shapeCast S256x256 hid2 shapeCasts_S1x256x256_S256x256,
    c0 := shapeCast S256x256 cur0 shapeCasts_S1x256x256_S256x256,
    c1 := shapeCast S256x256 cur1 shapeCasts_S1x256x256_S256x256,
    c2 := shapeCast S256x256 cur2 shapeCasts_S1x256x256_S256x256 }

/-- The state after `n` steps. -/
def stAt (x : Vec F S256x256 .f32) (w0 w1 w2 : LayerW F) (s0 : St F) : Nat → St F
  | 0 => s0
  | n + 1 => step x w0 w1 w2 (stAt x w0 w1 w2 s0 n)

/-- The output tile: logistic of (the last layer's hidden tiles of steps 1 … 9 side by side)·Wlast + blast. -/
def out (x : Vec F S256x256 .f32) (w0 w1 w2 : LayerW F) (s0 : St F) (wl : Vec F S2304x44 .bf16) (bl : Vec F S44 .f32) : FVec F S256x44 .f32 :=
  logistic (addf
    (matmul dot_S256x2304_S2304x44_S256x44_1_0_0_1_n_n none
      (truncf .bf16 (concatenate S256x2304 1 [⟨S256x256, (stAt x w0 w1 w2 s0 1).h2⟩, ⟨S256x256, (stAt x w0 w1 w2 s0 2).h2⟩, ⟨S256x256, (stAt x w0 w1 w2 s0 3).h2⟩, ⟨S256x256, (stAt x w0 w1 w2 s0 4).h2⟩, ⟨S256x256, (stAt x w0 w1 w2 s0 5).h2⟩, ⟨S256x256, (stAt x w0 w1 w2 s0 6).h2⟩, ⟨S256x256, (stAt x w0 w1 w2 s0 7).h2⟩, ⟨S256x256, (stAt x w0 w1 w2 s0 8).h2⟩, ⟨S256x256, (stAt x w0 w1 w2 s0 9).h2⟩]
        concatenates_S256x256_S256x256_S256x256_S256x256_S256x256_S256x256_S256x256_S256x256_S256x256_S256x2304_d1) bitsLt_bf16_f32)
      (shapeCast S2304x44 wl shapeCasts_S2304x44_S2304x44) (constant S256x44 .f32 0x00000000#32))
    (broadcastTo S256x44 (shapeCast S1x44 bl shapeCasts_S44_S1x44) broadcasts_S1x44_S256x44))

end Cert.KernelIdeal.Spec

end
-- ==== Proof.KLoads.lean ====
/-
  The tile function applied to what the body loads.  The body reads its fifteen input blocks through literal unit
  rectangles: the whole input tile, layer `l`'s slab of the stacked hidden and cell tiles and of each stacked weight
  and bias block, the whole output weight and bias.  `lw l` collects layer `l`'s ten loaded slabs and `tileOut` is the
  tile function of the fifteen blocks.
-/
import proofs.«181228_j76424648065777_1_alg».proof.Proof.KSpec
import Idealize.ShloMosaic.Lib.Pipeline.FrameBody

noncomputable section

namespace Cert.KernelIdeal.Spec

open Idealize.ShloMosaic Idealize.SL.Sem
open Cert.KernelIdeal

variable {F : FTy → Type} [FloatOps F]
variable [Facts]
open Facts₀ Facts

/-- Layer 0's loaded slabs. -/
def lw0 (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) : LayerW F :=
  { wi := View.ld x3 (Rect.unit (s := S3x256x1024) ![0, 0, 0] S1x256x1024.size inb_S3x256x1024_S1x256x1024_0_0_0),
    bi := View.ld x4 (Rect.unit (s := S3x1024) ![0, 0] S1x1024.size inb_S3x1024_S1x1024_0_0),
    wh := View.ld x7 (Rect.unit (s := S3x256x768) ![0, 0, 0] S1x256x768.size inb_S3x256x768_S1x256x768_0_0_0),
    bh := View.ld x8 (Rect.unit (s := S3x768) ![0, 0] S1x768.size inb_S3x768_S1x768_0_0),
    wig := View.ld x5 (Rect.unit (s := S3x256x3) ![0, 0, 0] S1x256x3.size inb_S3x256x3_S1x256x3_0_0_0),
    big := View.ld x6 (Rect.unit (s := S3x3) ![0, 0] S1x3.size inb_S3x3_S1x3_0_0),
    whg := View.ld x9 (Rect.unit (s := S3x768x3) ![0, 0, 0] S1x768x3.size inb_S3x768x3_S1x768x3_0_0_0),
    bhg := View.ld x10 (Rect.unit (s := S3x3) ![0, 0] S1x3.size inb_S3x3_S1x3_0_0),
    whc := View.ld x11 (Rect.unit (s := S3x768x768) ![0, 0, 0] S1x768x768.size inb_S3x768x768_S1x768x768_0_0_0),
    bhc := View.ld x12 (Rect.unit (s := S3x768) ![0, 0] S1x768.size inb_S3x768_S1x768_0_0) }
/-- Layer 1's loaded slabs. -/
def lw1 (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) : LayerW F :=
  { wi := View.ld x3 (Rect.unit (s := S3x256x1024) ![1, 0, 0] S1x256x1024.size inb_S3x256x1024_S1x256x1024_1_0_0),
    bi := View.ld x4 (Rect.unit (s := S3x1024) ![1, 0] S1x1024.size inb_S3x1024_S1x1024_1_0),
    wh := View.ld x7 (Rect.unit (s := S3x256x768) ![1, 0, 0] S1x256x768.size inb_S3x256x768_S1x256x768_1_0_0),
    bh := View.ld x8 (Rect.unit (s := S3x768) ![1, 0] S1x768.size inb_S3x768_S1x768_1_0),
    wig := View.ld x5 (Rect.unit (s := S3x256x3) ![1, 0, 0] S1x256x3.size inb_S3x256x3_S1x256x3_1_0_0),
    big := View.ld x6 (Rect.unit (s := S3x3) ![1, 0] S1x3.size inb_S3x3_S1x3_1_0),
    whg := View.ld x9 (Rect.unit (s := S3x768x3) ![1, 0, 0] S1x768x3.size inb_S3x768x3_S1x768x3_1_0_0),
    bhg := View.ld x10 (Rect.unit (s := S3x3) ![1, 0] S1x3.size inb_S3x3_S1x3_1_0),
    whc := View.ld x11 (Rect.unit (s := S3x768x768) ![1, 0, 0] S1x768x768.size inb_S3x768x768_S1x768x768_1_0_0),
    bhc := View.ld x12 (Rect.unit (s := S3x768) ![1, 0] S1x768.size inb_S3x768_S1x768_1_0) }
/-- Layer 2's loaded slabs. -/
def lw2 (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) : LayerW F :=
  { wi := View.ld x3 (Rect.unit (s := S3x256x1024) ![2, 0, 0] S1x256x1024.size inb_S3x256x1024_S1x256x1024_2_0_0),
    bi := View.ld x4 (Rect.unit (s := S3x1024) ![2, 0] S1x1024.size inb_S3x1024_S1x1024_2_0),
    wh := View.ld x7 (Rect.unit (s := S3x256x768) ![2, 0, 0] S1x256x768.size inb_S3x256x768_S1x256x768_2_0_0),
    bh := View.ld x8 (Rect.unit (s := S3x768) ![2, 0] S1x768.size inb_S3x768_S1x768_2_0),
    wig := View.ld x5 (Rect.unit (s := S3x256x3) ![2, 0, 0] S1x256x3.size inb_S3x256x3_S1x256x3_2_0_0),
    big := View.ld x6 (Rect.unit (s := S3x3) ![2, 0] S1x3.size inb_S3x3_S1x3_2_0),
    whg := View.ld x9 (Rect.unit (s := S3x768x3) ![2, 0, 0] S1x768x3.size inb_S3x768x3_S1x768x3_2_0_0),
    bhg := View.ld x10 (Rect.unit (s := S3x3) ![2, 0] S1x3.size inb_S3x3_S1x3_2_0),
    whc := View.ld x11 (Rect.unit (s := S3x768x768) ![2, 0, 0] S1x768x768.size inb_S3x768x768_S1x768x768_2_0_0),
    bhc := View.ld x12 (Rect.unit (s := S3x768) ![2, 0] S1x768.size inb_S3x768_S1x768_2_0) }

/-- The loaded slab of layer `l` of a stacked state block. -/
def slab0 (x : Vec F S3x256x256 .f32) : Vec F S1x256x256 .f32 := View.ld x (Rect.unit (s := S3x256x256) ![0, 0, 0] S1x256x256.size inb_S3x256x256_S1x256x256_0_0_0)
def slab1 (x : Vec F S3x256x256 .f32) : Vec F S1x256x256 .f32 := View.ld x (Rect.unit (s := S3x256x256) ![1, 0, 0] S1x256x256.size inb_S3x256x256_S1x256x256_1_0_0)
def slab2 (x : Vec F S3x256x256 .f32) : Vec F S1x256x256 .f32 := View.ld x (Rect.unit (s := S3x256x256) ![2, 0, 0] S1x256x256.size inb_S3x256x256_S1x256x256_2_0_0)

/-- The output tile as a function of the fifteen input blocks. -/
def tileOut (x0 : Vec F S256x256 .f32) (x1 x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) : FVec F S256x44 .f32 :=
  out (View.ld x0 (Rect.unit (s := S256x256) ![0, 0] S256x256.size inb_S256x256_S256x256_0_0))
    (lw0 x3 x4 x5 x6 x7 x8 x9 x10 x11 x12) (lw1 x3 x4 x5 x6 x7 x8 x9 x10 x11 x12) (lw2 x3 x4 x5 x6 x7 x8 x9 x10 x11 x12)
    (init (slab0 x1) (slab1 x1) (slab2 x1) (slab0 x2) (slab1 x2) (slab2 x2))
    (View.ld x13 (Rect.unit (s := S2304x44) ![0, 0] S2304x44.size inb_S2304x44_S2304x44_0_0))
    (View.ld x14 (Rect.unit (s := S44) ![0] S44.size inb_S44_S44_0))

end Cert.KernelIdeal.Spec

end
-- ==== Proof.KValue.lean ====
/-
  What the body stores.  The body's one store writes, through the whole-block rectangle of the output tile, a value
  that the run names step by step; unfolding those names, the stored value is the tile function of the fifteen loaded
  blocks: nine time steps of three layers, then the output projection.  A load of a whole memref at contents `x` through
  a literal unit rectangle is the block `x` read through that rectangle.
-/
import proofs.«181228_j76424648065777_1_alg».proof.Proof.KFrameRun
import proofs.«181228_j76424648065777_1_alg».proof.Proof.KLoads

set_option maxRecDepth 65536

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- The tile function of the fifteen blocks as the run reads them: each block through its memref's view. -/
def tileOutRun (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) : FVec F S256x44 .f32 :=
  Spec.out (View.readAt (Elt F) arg1.view (Rect.unit (s := S256x256) ![0, 0] S256x256.size inb_S256x256_S256x256_0_0).toLoadRect (harg1.unread x0))
    { wi := (View.readAt (Elt F) arg4.view (Rect.unit (s := S3x256x1024) ![0, 0, 0] S1x256x1024.size inb_S3x256x1024_S1x256x1024_0_0_0).toLoadRect (harg4.unread x3)),
      bi := (View.readAt (Elt F) arg5.view (Rect.unit (s := S3x1024) ![0, 0] S1x1024.size inb_S3x1024_S1x1024_0_0).toLoadRect (harg5.unread x4)),
      wh := (View.readAt (Elt F) arg8.view (Rect.unit (s := S3x256x768) ![0, 0, 0] S1x256x768.size inb_S3x256x768_S1x256x768_0_0_0).toLoadRect (harg8.unread x7)),
      bh := (View.readAt (Elt F) arg9.view (Rect.unit (s := S3x768) ![0, 0] S1x768.size inb_S3x768_S1x768_0_0).toLoadRect (harg9.unread x8)),
      wig := (View.readAt (Elt F) arg6.view (Rect.unit (s := S3x256x3) ![0, 0, 0] S1x256x3.size inb_S3x256x3_S1x256x3_0_0_0).toLoadRect (harg6.unread x5)),
      big := (View.readAt (Elt F) arg7.view (Rect.unit (s := S3x3) ![0, 0] S1x3.size inb_S3x3_S1x3_0_0).toLoadRect (harg7.unread x6)),
      whg := (View.readAt (Elt F) arg10.view (Rect.unit (s := S3x768x3) ![0, 0, 0] S1x768x3.size inb_S3x768x3_S1x768x3_0_0_0).toLoadRect (harg10.unread x9)),
      bhg := (View.readAt (Elt F) arg11.view (Rect.unit (s := S3x3) ![0, 0] S1x3.size inb_S3x3_S1x3_0_0).toLoadRect (harg11.unread x10)),
      whc := (View.readAt (Elt F) arg12.view (Rect.unit (s := S3x768x768) ![0, 0, 0] S1x768x768.size inb_S3x768x768_S1x768x768_0_0_0).toLoadRect (harg12.unread x11)),
      bhc := (View.readAt (Elt F) arg13.view (Rect.unit (s := S3x768) ![0, 0] S1x768.size inb_S3x768_S1x768_0_0).toLoadRect (harg13.unread x12)) }
    { wi := (View.readAt (Elt F) arg4.view (Rect.unit (s := S3x256x1024) ![1, 0, 0] S1x256x1024.size inb_S3x256x1024_S1x256x1024_1_0_0).toLoadRect (harg4.unread x3)),
      bi := (View.readAt (Elt F) arg5.view (Rect.unit (s := S3x1024) ![1, 0] S1x1024.size inb_S3x1024_S1x1024_1_0).toLoadRect (harg5.unread x4)),
      wh := (View.readAt (Elt F) arg8.view (Rect.unit (s := S3x256x768) ![1, 0, 0] S1x256x768.size inb_S3x256x768_S1x256x768_1_0_0).toLoadRect (harg8.unread x7)),
      bh := (View.readAt (Elt F) arg9.view (Rect.unit (s := S3x768) ![1, 0] S1x768.size inb_S3x768_S1x768_1_0).toLoadRect (harg9.unread x8)),
      wig := (View.readAt (Elt F) arg6.view (Rect.unit (s := S3x256x3) ![1, 0, 0] S1x256x3.size inb_S3x256x3_S1x256x3_1_0_0).toLoadRect (harg6.unread x5)),
      big := (View.readAt (Elt F) arg7.view (Rect.unit (s := S3x3) ![1, 0] S1x3.size inb_S3x3_S1x3_1_0).toLoadRect (harg7.unread x6)),
      whg := (View.readAt (Elt F) arg10.view (Rect.unit (s := S3x768x3) ![1, 0, 0] S1x768x3.size inb_S3x768x3_S1x768x3_1_0_0).toLoadRect (harg10.unread x9)),
      bhg := (View.readAt (Elt F) arg11.view (Rect.unit (s := S3x3) ![1, 0] S1x3.size inb_S3x3_S1x3_1_0).toLoadRect (harg11.unread x10)),
      whc := (View.readAt (Elt F) arg12.view (Rect.unit (s := S3x768x768) ![1, 0, 0] S1x768x768.size inb_S3x768x768_S1x768x768_1_0_0).toLoadRect (harg12.unread x11)),
      bhc := (View.readAt (Elt F) arg13.view (Rect.unit (s := S3x768) ![1, 0] S1x768.size inb_S3x768_S1x768_1_0).toLoadRect (harg13.unread x12)) }
    { wi := (View.readAt (Elt F) arg4.view (Rect.unit (s := S3x256x1024) ![2, 0, 0] S1x256x1024.size inb_S3x256x1024_S1x256x1024_2_0_0).toLoadRect (harg4.unread x3)),
      bi := (View.readAt (Elt F) arg5.view (Rect.unit (s := S3x1024) ![2, 0] S1x1024.size inb_S3x1024_S1x1024_2_0).toLoadRect (harg5.unread x4)),
      wh := (View.readAt (Elt F) arg8.view (Rect.unit (s := S3x256x768) ![2, 0, 0] S1x256x768.size inb_S3x256x768_S1x256x768_2_0_0).toLoadRect (harg8.unread x7)),
      bh := (View.readAt (Elt F) arg9.view (Rect.unit (s := S3x768) ![2, 0] S1x768.size inb_S3x768_S1x768_2_0).toLoadRect (harg9.unread x8)),
      wig := (View.readAt (Elt F) arg6.view (Rect.unit (s := S3x256x3) ![2, 0, 0] S1x256x3.size inb_S3x256x3_S1x256x3_2_0_0).toLoadRect (harg6.unread x5)),
      big := (View.readAt (Elt F) arg7.view (Rect.unit (s := S3x3) ![2, 0] S1x3.size inb_S3x3_S1x3_2_0).toLoadRect (harg7.unread x6)),
      whg := (View.readAt (Elt F) arg10.view (Rect.unit (s := S3x768x3) ![2, 0, 0] S1x768x3.size inb_S3x768x3_S1x768x3_2_0_0).toLoadRect (harg10.unread x9)),
      bhg := (View.readAt (Elt F) arg11.view (Rect.unit (s := S3x3) ![2, 0] S1x3.size inb_S3x3_S1x3_2_0).toLoadRect (harg11.unread x10)),
      whc := (View.readAt (Elt F) arg12.view (Rect.unit (s := S3x768x768) ![2, 0, 0] S1x768x768.size inb_S3x768x768_S1x768x768_2_0_0).toLoadRect (harg12.unread x11)),
      bhc := (View.readAt (Elt F) arg13.view (Rect.unit (s := S3x768) ![2, 0] S1x768.size inb_S3x768_S1x768_2_0).toLoadRect (harg13.unread x12)) }
    (Spec.init (View.readAt (Elt F) arg2.view (Rect.unit (s := S3x256x256) ![0, 0, 0] S1x256x256.size inb_S3x256x256_S1x256x256_0_0_0).toLoadRect (harg2.unread x1)) (View.readAt (Elt F) arg2.view (Rect.unit (s := S3x256x256) ![1, 0, 0] S1x256x256.size inb_S3x256x256_S1x256x256_1_0_0).toLoadRect (harg2.unread x1)) (View.readAt (Elt F) arg2.view (Rect.unit (s := S3x256x256) ![2, 0, 0] S1x256x256.size inb_S3x256x256_S1x256x256_2_0_0).toLoadRect (harg2.unread x1))
      (View.readAt (Elt F) arg3.view (Rect.unit (s := S3x256x256) ![0, 0, 0] S1x256x256.size inb_S3x256x256_S1x256x256_0_0_0).toLoadRect (harg3.unread x2)) (View.readAt (Elt F) arg3.view (Rect.unit (s := S3x256x256) ![1, 0, 0] S1x256x256.size inb_S3x256x256_S1x256x256_1_0_0).toLoadRect (harg3.unread x2)) (View.readAt (Elt F) arg3.view (Rect.unit (s := S3x256x256) ![2, 0, 0] S1x256x256.size inb_S3x256x256_S1x256x256_2_0_0).toLoadRect (harg3.unread x2)))
    (View.readAt (Elt F) arg14.view (Rect.unit (s := S2304x44) ![0, 0] S2304x44.size inb_S2304x44_S2304x44_0_0).toLoadRect (harg14.unread x13))
    (View.readAt (Elt F) arg15.view (Rect.unit (s := S44) ![0] S44.size inb_S44_S44_0).toLoadRect (harg15.unread x14))

set_option maxHeartbeats 4000000 in
/-- The run's pieces: one store, of the tile function of the blocks as read, through the whole output rectangle. -/
theorem kernelRun_pieces_run (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) :
    (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1
      = [⟨Rect.unit (s := S256x44) ![0, 0] S256x44.size inb_S256x44_S256x44_0_0, tileOutRun arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14⟩] := by
  sl_kernel_rfl

end Cert.KernelIdeal.Hand

end
-- ==== Proof.RowSpec.lean ====
/-
  The gated-feedback LSTM of one batch row, over the extended reals.

  Every batch row evolves on its own: the state of a row is the three layers' hidden vectors and cell vectors (each of
  256 entries).  One layer of one step, with input vector `ih`, the layer's previous hidden and cell vectors `hp`, `cp`
  and the concatenation `hc` (768 entries) of the three previous hidden vectors:
      f_j = σ((⟨ih, Wif_j⟩ + bif_j) + (⟨hp, Whf_j⟩ + bhf_j)),   i_j and o_j likewise,
      g_s = σ((⟨ih, Wig_s⟩ + big_s) + (⟨hc, Whg_s⟩ + bhg_s))                         (s = 0, 1, 2),
      aux_j = Σ_s g_s · (⟨hc, Whc_{256 s + j}⟩ + bhc_{256 s + j}),
      c_j = f_j · cp_j + i_j · tanh((⟨ih, Wic_j⟩ + bic_j) + aux_j),      h_j = o_j · c_j.
  A step runs the three layers in order (layer l + 1 reads layer l's new hidden vector; every layer reads the OLD
  concatenation).  After nine steps the output is σ(⟨feat, Wlast_o⟩ + blast_o) with `feat` the nine steps' last-layer
  hidden vectors one after the other (2304 entries).
  Sums are finite sums in the extended reals, in which addition and multiplication are commutative and associative.
-/
import Idealize.ShloMosaic.PureOps.Ideal
import Mathlib.Algebra.BigOperators.Fin

noncomputable section

namespace GFLstm

open Idealize.ShloMosaic

/-- The inner product of two vectors of extended reals. -/
def dot {n : Nat} (a b : Fin n → EReal) : EReal := ∑ k : Fin n, a k * b k

/-- One layer's weights: a matrix is indexed [output][input]. -/
structure LW where
  Wif : Fin 256 → Fin 256 → EReal
  Bif : Fin 256 → EReal
  Wii : Fin 256 → Fin 256 → EReal
  Bii : Fin 256 → EReal
  Wio : Fin 256 → Fin 256 → EReal
  Bio : Fin 256 → EReal
  Wic : Fin 256 → Fin 256 → EReal
  Bic : Fin 256 → EReal
  Wig : Fin 3 → Fin 256 → EReal
  Big : Fin 3 → EReal
  Whf : Fin 256 → Fin 256 → EReal
  Bhf : Fin 256 → EReal
  Whi : Fin 256 → Fin 256 → EReal
  Bhi : Fin 256 → EReal
  Who : Fin 256 → Fin 256 → EReal
  Bho : Fin 256 → EReal
  Whg : Fin 3 → Fin 768 → EReal
  Bhg : Fin 3 → EReal
  Whc : Fin 768 → Fin 768 → EReal
  Bhc : Fin 768 → EReal

/-- Entry `256 s + j` of a vector of 768. -/
def at3 (s : Fin 3) (j : Fin 256) : Fin 768 := ⟨256 * s.val + j.val, by omega⟩

/-- The cross-layer gates of a layer. -/
def gateR (w : LW) (ih : Fin 256 → EReal) (hc : Fin 768 → EReal) (s : Fin 3) : EReal :=
  Ideal.logistic ((dot ih (w.Wig s) + w.Big s) + (dot hc (w.Whg s) + w.Bhg s))

/-- The gated cross-layer term of a layer. -/
def auxR (w : LW) (ih : Fin 256 → EReal) (hc : Fin 768 → EReal) (j : Fin 256) : EReal :=
  ∑ s : Fin 3, gateR w ih hc s * (dot hc (w.Whc (at3 s j)) + w.Bhc (at3 s j))

/-- The new cell vector of a layer. -/
def cellCR (w : LW) (ih hp cp : Fin 256 → EReal) (hc : Fin 768 → EReal) (j : Fin 256) : EReal :=
  Ideal.logistic ((dot ih (w.Wif j) + w.Bif j) + (dot hp (w.Whf j) + w.Bhf j)) * cp j
    + Ideal.logistic ((dot ih (w.Wii j) + w.Bii j) + (dot hp (w.Whi j) + w.Bhi j))
        * Ideal.tanh ((dot ih (w.Wic j) + w.Bic j) + auxR w ih hc j)

/-- The new hidden vector of a layer. -/
def cellHR (w : LW) (ih hp cp : Fin 256 → EReal) (hc : Fin 768 → EReal) (j : Fin 256) : EReal :=
  Ideal.logistic ((dot ih (w.Wio j) + w.Bio j) + (dot hp (w.Who j) + w.Bho j)) * cellCR w ih hp cp hc j

/-- A row's state: hidden and cell vectors of the three layers. -/
structure RowSt where
  h : Fin 3 → Fin 256 → EReal
  c : Fin 3 → Fin 256 → EReal

/-- The three hidden vectors one after the other. -/
def hcatR (s : RowSt) (k : Fin 768) : EReal := s.h ⟨k.val / 256, by omega⟩ ⟨k.val % 256, Nat.mod_lt _ (by decide)⟩

/-- One time step of a row. -/
def stepR (x : Fin 256 → EReal) (w : Fin 3 → LW) (s : RowSt) : RowSt :=
  let hc := hcatR s
  let h0 := cellHR (w 0) x (s.h 0) (s.c 0) hc
  let h1 := cellHR (w 1) h0 (s.h 1) (s.c 1) hc
  let h2 := cellHR (w 2) h1 (s.h 2) (s.c 2) hc
  { h := fun l => match l with | 0 => h0 | 1 => h1 | 2 => h2,
    c := fun l => match l with
      | 0 => cellCR (w 0) x (s.h 0) (s.c 0) hc
      | 1 => cellCR (w 1) h0 (s.h 1) (s.c 1) hc
      | 2 => cellCR (w 2) h1 (s.h 2) (s.c 2) hc }

/-- The row's state after `n` steps. -/
def stAtR (x : Fin 256 → EReal) (w : Fin 3 → LW) (s0 : RowSt) : Nat → RowSt
  | 0 => s0
  | n + 1 => stepR x w (stAtR x w s0 n)

/-- The nine kept hidden vectors one after the other: entry `256 q + j` is step `q + 1`'s last-layer entry `j`. -/
def featR (x : Fin 256 → EReal) (w : Fin 3 → LW) (s0 : RowSt) (k : Fin 2304) : EReal :=
  (stAtR x w s0 (k.val / 256 + 1)).h 2 ⟨k.val % 256, Nat.mod_lt _ (by decide)⟩

/-- The row's output. -/
def outR (x : Fin 256 → EReal) (w : Fin 3 → LW) (s0 : RowSt) (Wl : Fin 44 → Fin 2304 → EReal) (bl : Fin 44 → EReal)
    (o : Fin 44) : EReal :=
  Ideal.logistic (dot (featR x w s0) (Wl o) + bl o)

end GFLstm

end
-- ==== Proof.KAgree.lean ====
/-
  Agreement between one layer's loaded weight and bias blocks and the row-level weights.

  The kernel holds a layer's four input-side matrices side by side in one block of 1024 columns (forget, input,
  candidate, output — in this order), its three hidden-side matrices side by side in one block of 768 columns
  (forget, input, output), and stores every matrix as [input][output]; the row-level weights are indexed
  [output][input].  `Agree w V` says entry by entry that the blocks `w` hold the weights `V`.
-/
import proofs.«181228_j76424648065777_1_alg».proof.Proof.KSpec
import proofs.«181228_j76424648065777_1_alg».proof.Proof.RowSpec
import Idealize.ShloMosaic.Lib.ValueIdx

noncomputable section

namespace Cert.KernelIdeal.KRow

open Idealize.ShloMosaic Idealize.ShloMosaic.ValueIdx
open Cert.KernelIdeal

/-- The loaded blocks `w` of a layer hold the row-level weights `V`. -/
structure Agree (w : Cert.KernelIdeal.Spec.LayerW Ideal) (V : GFLstm.LW) : Prop where
  wi  : ∀ (k : Fin 256) (n : Fin 1024), w.wi (ix3 (0 : Fin 1) k n) = if h0 : n.val < 256 then V.Wif ⟨n.val, h0⟩ k else if h1 : n.val < 512 then V.Wii ⟨n.val - 256, by omega⟩ k else if h2 : n.val < 768 then V.Wic ⟨n.val - 512, by omega⟩ k else V.Wio ⟨n.val - 768, by omega⟩ k
  bi  : ∀ (n : Fin 1024), w.bi (ix2 (0 : Fin 1) n) = if h0 : n.val < 256 then V.Bif ⟨n.val, h0⟩ else if h1 : n.val < 512 then V.Bii ⟨n.val - 256, by omega⟩ else if h2 : n.val < 768 then V.Bic ⟨n.val - 512, by omega⟩ else V.Bio ⟨n.val - 768, by omega⟩
  wh  : ∀ (k : Fin 256) (n : Fin 768), w.wh (ix3 (0 : Fin 1) k n) = if h0 : n.val < 256 then V.Whf ⟨n.val, h0⟩ k else if h1 : n.val < 512 then V.Whi ⟨n.val - 256, by omega⟩ k else V.Who ⟨n.val - 512, by omega⟩ k
  bh  : ∀ (n : Fin 768), w.bh (ix2 (0 : Fin 1) n) = if h0 : n.val < 256 then V.Bhf ⟨n.val, h0⟩ else if h1 : n.val < 512 then V.Bhi ⟨n.val - 256, by omega⟩ else V.Bho ⟨n.val - 512, by omega⟩
  wig : ∀ (k : Fin 256) (s : Fin 3), w.wig (ix3 (0 : Fin 1) k s) = V.Wig s k
  big : ∀ (s : Fin 3), w.big (ix2 (0 : Fin 1) s) = V.Big s
  whg : ∀ (k : Fin 768) (s : Fin 3), w.whg (ix3 (0 : Fin 1) k s) = V.Whg s k
  bhg : ∀ (s : Fin 3), w.bhg (ix2 (0 : Fin 1) s) = V.Bhg s
  whc : ∀ (k : Fin 768) (n : Fin 768), w.whc (ix3 (0 : Fin 1) k n) = V.Whc n k
  bhc : ∀ (n : Fin 768), w.bhc (ix2 (0 : Fin 1) n) = V.Bhc n

end Cert.KernelIdeal.KRow

end
-- ==== Proof.KRowA.lean ====
/-
  Reading the tile function's non-pointwise operations at an index, at the ideal values.

  A plain matrix product into the zero accumulator read at (a, b) is the sum over the contracted coordinate of the
  products of the entries; a column broadcast over the columns reads its one column; a run of equal-shaped pieces set
  side by side reads, at column k, piece k / K at column k % K.
-/
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRow

open Idealize.ShloMosaic Idealize.ShloMosaic.ValueIdx

/-- The plain product of an m×k by a k×n matrix into the zero accumulator, read at `(a, b)`, is the sum over the
    contracted coordinate of the products of the entries. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `N` pieces of one shape `[a, K]` set side by side along the columns, read at `(p, k)`: piece `k / K` at column
    `k % K`. -/
theorem concat_cols_apply {α : Type} {a K T N : Nat} (f : Fin N → ((⟨2, ![a, K]⟩ : Shape).Idx → α))
    (h : Shape.Concatenates ((List.ofFn fun n : Fin N => (⟨⟨2, ![a, K]⟩, f n⟩ : (s : Shape) × (s.Idx → α))).map (·.1)) ⟨2, ![a, T]⟩ 1)
    (p : Fin a) (k : Fin T) (n : Fin N) (hn : k.val / K = n.val) (i : Fin K) (hi : i.val = k.val % K) :
    concatenate ⟨2, ![a, T]⟩ 1 (List.ofFn fun n : Fin N => (⟨⟨2, ![a, K]⟩, f n⟩ : (s : Shape) × (s.Idx → α))) h (ix2 p k)
      = f n (ix2 p i) :=
  concatenate_ofFn_apply (t := ⟨2, ![a, T]⟩) (s₁ := ⟨2, ![a, K]⟩) 1 f h rfl K rfl (ix2 p k) n hn (ix2 p i) hi
    (fun b => by
      match b with
      | ⟨0, _⟩ => exact fun _ => rfl
      | ⟨1, _⟩ => exact fun hb => absurd rfl hb)

/-- The logistic function and the hyperbolic tangent of a vector, read at an index. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- Choosing one of three by a layer number. -/
def pick3 {α : Sort _} (a b c : α) (l : Fin 3) : α := match l with | 0 => a | 1 => b | 2 => c

/-- A concatenation does not change when its list of pieces is replaced by an equal one. -/
theorem concatenate_congr {α : Type} {t : Shape} {a : Fin t.rank} {xs ys : List ((s : Shape) × (s.Idx → α))} (e : xs = ys)
    (h : Shape.Concatenates (xs.map (·.1)) t a) : concatenate t a xs h = concatenate t a ys (e ▸ h) := by
  subst e; rfl

end Cert.KernelIdeal.KRow

end
-- ==== Proof.KRow.lean ====
/-
  The tile function of the gated-feedback LSTM kernel, read at one tile row, is the row-level function of that row's data.

  Every operation of the tile function acts row by row: a matrix product's entry (r, n) is the inner product of row r
  of its left operand with column n of the weights; a bias is broadcast down the rows; slices, the side-by-side
  concatenations and the pointwise operations keep the row.  So entry (r, j) of each of the layer's maps is the row-level
  map of row r, by the agreement of the loaded blocks with the row-level weights; the kernel's bracketing of the
  four-term gate sum and of the gated three-term sum is re-bracketed by associativity of addition in the extended
  reals.  One step, then any number of steps by induction, then the output (the nine kept tiles side by side times the
  last weights) follow.
-/
import proofs.«181228_j76424648065777_1_alg».proof.Proof.KAgree
import proofs.«181228_j76424648065777_1_alg».proof.Proof.KRowA

noncomputable section

namespace Cert.KernelIdeal.KRow

open Idealize.ShloMosaic Idealize.ShloMosaic.ValueIdx

open Idealize.SL.Sem
open Cert.KernelIdeal Cert.KernelIdeal.Spec
variable [Facts]
open Facts₀ Facts

/-! ## The four linear maps of a layer at an entry -/

theorem linI_apply (xin : FVec Ideal S256x256 .bf16) (w : LayerW Ideal) (r : Fin 256) (n : Fin 1024) :
    linI xin w (ix2 r n) = (∑ c : Fin 256, xin (ix2 r c) * w.wi (ix3 (0 : Fin 1) c n)) + w.bi (ix2 (0 : Fin 1) n) := by
  unfold linI
  rw [addf_apply, show dot_S256x256_S256x1024_S256x1024_1_0_0_1_n_n = (⟨[1], [0], [0], [1], [], [], dot_S256x256_S256x1024_S256x1024_1_0_0_1_n_n_wf⟩ : DotDims S256x256 S256x1024 S256x1024) from rfl,
    matmul_plain_zero_apply, broadcastTo_1b_ab_apply, shapeCast_a_1a_apply, shapeCast_1a_a_apply]
  congr 1
  refine Finset.sum_congr rfl fun c _ => ?_
  rw [shapeCast_1ab_ab_apply]

theorem linH_apply (hp : FVec Ideal S256x256 .bf16) (w : LayerW Ideal) (r : Fin 256) (n : Fin 768) :
    linH hp w (ix2 r n) = (∑ c : Fin 256, hp (ix2 r c) * w.wh (ix3 (0 : Fin 1) c n)) + w.bh (ix2 (0 : Fin 1) n) := by
  unfold linH
  rw [addf_apply, show dot_S256x256_S256x768_S256x768_1_0_0_1_n_n = (⟨[1], [0], [0], [1], [], [], dot_S256x256_S256x768_S256x768_1_0_0_1_n_n_wf⟩ : DotDims S256x256 S256x768 S256x768) from rfl,
    matmul_plain_zero_apply, broadcastTo_1b_ab_apply, shapeCast_a_1a_apply, shapeCast_1a_a_apply]
  congr 1
  refine Finset.sum_congr rfl fun c _ => ?_
  rw [shapeCast_1ab_ab_apply]

theorem auxAll_apply (hcat : FVec Ideal S256x768 .bf16) (w : LayerW Ideal) (r : Fin 256) (n : Fin 768) :
    auxAll hcat w (ix2 r n) = (∑ c : Fin 768, hcat (ix2 r c) * w.whc (ix3 (0 : Fin 1) c n)) + w.bhc (ix2 (0 : Fin 1) n) := by
  unfold auxAll
  rw [addf_apply, show dot_S256x768_S768x768_S256x768_1_0_0_1_n_n = (⟨[1], [0], [0], [1], [], [], dot_S256x768_S768x768_S256x768_1_0_0_1_n_n_wf⟩ : DotDims S256x768 S768x768 S256x768) from rfl,
    matmul_plain_zero_apply, broadcastTo_1b_ab_apply, shapeCast_a_1a_apply, shapeCast_1a_a_apply]
  congr 1
  refine Finset.sum_congr rfl fun c _ => ?_
  rw [shapeCast_1ab_ab_apply]

theorem gate_apply (xin : FVec Ideal S256x256 .bf16) (hcat : FVec Ideal S256x768 .bf16) (w : LayerW Ideal) (r : Fin 256) (s : Fin 3) :
    gate xin hcat w (ix2 r s) = Ideal.logistic ((((∑ c : Fin 256, xin (ix2 r c) * w.wig (ix3 (0 : Fin 1) c s)) + w.big (ix2 (0 : Fin 1) s))
      + (∑ c : Fin 768, hcat (ix2 r c) * w.whg (ix3 (0 : Fin 1) c s))) + w.bhg (ix2 (0 : Fin 1) s)) := by
  unfold gate
  show Ideal.logistic _ = _
  rw [addf_apply, addf_apply, addf_apply,
    show dot_S256x256_S256x3_S256x3_1_0_0_1_n_n = (⟨[1], [0], [0], [1], [], [], dot_S256x256_S256x3_S256x3_1_0_0_1_n_n_wf⟩ : DotDims S256x256 S256x3 S256x3) from rfl,
    show dot_S256x768_S768x3_S256x3_1_0_0_1_n_n = (⟨[1], [0], [0], [1], [], [], dot_S256x768_S768x3_S256x3_1_0_0_1_n_n_wf⟩ : DotDims S256x768 S768x3 S256x3) from rfl,
    matmul_plain_zero_apply, matmul_plain_zero_apply, broadcastTo_1b_ab_apply, broadcastTo_1b_ab_apply,
    shapeCast_a_1a_apply, shapeCast_1a_a_apply, shapeCast_a_1a_apply, shapeCast_1a_a_apply]
  congr 3
  · congr 1
    refine Finset.sum_congr rfl fun c _ => ?_
    rw [shapeCast_1ab_ab_apply]
  · refine Finset.sum_congr rfl fun c _ => ?_
    rw [shapeCast_1ab_ab_apply]

/-! ## The same entries in terms of the row-level weights -/

section WithAgree
variable {w : LayerW Ideal} {V : GFLstm.LW} (hw : Agree w V)
include hw

theorem linI_f (xin : FVec Ideal S256x256 .bf16) (r : Fin 256) (j : Fin 256) (n : Fin 1024) (hn : n.val = 0 + j.val) :
    linI xin w (ix2 r n) = GFLstm.dot (fun k => xin (ix2 r k)) (V.Wif j) + V.Bif j := by
  have h0 : n.val < 256 := by omega
  have e : (⟨n.val, h0⟩ : Fin 256) = j := Fin.ext (by simp; omega)
  rw [linI_apply, hw.bi, dif_pos h0, e]
  unfold GFLstm.dot
  congr 1
  refine Finset.sum_congr rfl fun c _ => ?_
  rw [hw.wi, dif_pos h0, e]

theorem linI_i (xin : FVec Ideal S256x256 .bf16) (r : Fin 256) (j : Fin 256) (n : Fin 1024) (hn : n.val = 256 + j.val) :
    linI xin w (ix2 r n) = GFLstm.dot (fun k => xin (ix2 r k)) (V.Wii j) + V.Bii j := by
  have h0 : ¬ n.val < 256 := by omega
  have h1 : n.val < 512 := by omega
  have e : (⟨n.val - 256, by omega⟩ : Fin 256) = j := Fin.ext (by simp; omega)
  rw [linI_apply, hw.bi, dif_neg h0, dif_pos h1, e]
  unfold GFLstm.dot
  congr 1
  refine Finset.sum_congr rfl fun c _ => ?_
  rw [hw.wi, dif_neg h0, dif_pos h1, e]

theorem linI_c (xin : FVec Ideal S256x256 .bf16) (r : Fin 256) (j : Fin 256) (n : Fin 1024) (hn : n.val = 512 + j.val) :
    linI xin w (ix2 r n) = GFLstm.dot (fun k => xin (ix2 r k)) (V.Wic j) + V.Bic j := by
  have h0 : ¬ n.val < 256 := by omega
  have h1 : ¬ n.val < 512 := by omega
  have h2 : n.val < 768 := by omega
  have e : (⟨n.val - 512, by omega⟩ : Fin 256) = j := Fin.ext (by simp; omega)
  rw [linI_apply, hw.bi, dif_neg h0, dif_neg h1, dif_pos h2, e]
  unfold GFLstm.dot
  congr 1
  refine Finset.sum_congr rfl fun c _ => ?_
  rw [hw.wi, dif_neg h0, dif_neg h1, dif_pos h2, e]

theorem linI_o (xin : FVec Ideal S256x256 .bf16) (r : Fin 256) (j : Fin 256) (n : Fin 1024) (hn : n.val = 768 + j.val) :
    linI xin w (ix2 r n) = GFLstm.dot (fun k => xin (ix2 r k)) (V.Wio j) + V.Bio j := by
  have h0 : ¬ n.val < 256 := by omega
  have h1 : ¬ n.val < 512 := by omega
  have h2 : ¬ n.val < 768 := by omega
  have e : (⟨n.val - 768, by omega⟩ : Fin 256) = j := Fin.ext (by simp; omega)
  rw [linI_apply, hw.bi, dif_neg h0, dif_neg h1, dif_neg h2, e]
  unfold GFLstm.dot
  congr 1
  refine Finset.sum_congr rfl fun c _ => ?_
  rw [hw.wi, dif_neg h0, dif_neg h1, dif_neg h2, e]

theorem linH_f (hp : FVec Ideal S256x256 .bf16) (r : Fin 256) (j : Fin 256) (n : Fin 768) (hn : n.val = 0 + j.val) :
    linH hp w (ix2 r n) = GFLstm.dot (fun k => hp (ix2 r k)) (V.Whf j) + V.Bhf j := by
  have h0 : n.val < 256 := by omega
  have e : (⟨n.val, h0⟩ : Fin 256) = j := Fin.ext (by simp; omega)
  rw [linH_apply, hw.bh, dif_pos h0, e]
  unfold GFLstm.dot
  congr 1
  refine Finset.sum_congr rfl fun c _ => ?_
  rw [hw.wh, dif_pos h0, e]

theorem linH_i (hp : FVec Ideal S256x256 .bf16) (r : Fin 256) (j : Fin 256) (n : Fin 768) (hn : n.val = 256 + j.val) :
    linH hp w (ix2 r n) = GFLstm.dot (fun k => hp (ix2 r k)) (V.Whi j) + V.Bhi j := by
  have h0 : ¬ n.val < 256 := by omega
  have h1 : n.val < 512 := by omega
  have e : (⟨n.val - 256, by omega⟩ : Fin 256) = j := Fin.ext (by simp; omega)
  rw [linH_apply, hw.bh, dif_neg h0, dif_pos h1, e]
  unfold GFLstm.dot
  congr 1
  refine Finset.sum_congr rfl fun c _ => ?_
  rw [hw.wh, dif_neg h0, dif_pos h1, e]

theorem linH_o (hp : FVec Ideal S256x256 .bf16) (r : Fin 256) (j : Fin 256) (n : Fin 768) (hn : n.val = 512 + j.val) :
    linH hp w (ix2 r n) = GFLstm.dot (fun k => hp (ix2 r k)) (V.Who j) + V.Bho j := by
  have h0 : ¬ n.val < 256 := by omega
  have h1 : ¬ n.val < 512 := by omega
  have e : (⟨n.val - 512, by omega⟩ : Fin 256) = j := Fin.ext (by simp; omega)
  rw [linH_apply, hw.bh, dif_neg h0, dif_neg h1, e]
  unfold GFLstm.dot
  congr 1
  refine Finset.sum_congr rfl fun c _ => ?_
  rw [hw.wh, dif_neg h0, dif_neg h1, e]

theorem gate_row (xin : FVec Ideal S256x256 .bf16) (hcat : FVec Ideal S256x768 .bf16) (r : Fin 256) (s : Fin 3) :
    gate xin hcat w (ix2 r s) = GFLstm.gateR V (fun k => xin (ix2 r k)) (fun k => hcat (ix2 r k)) s := by
  rw [gate_apply, hw.big, hw.bhg]
  unfold GFLstm.gateR GFLstm.dot
  simp only [hw.wig, hw.whg]
  rw [add_assoc]

theorem auxAll_row (hcat : FVec Ideal S256x768 .bf16) (r : Fin 256) (n : Fin 768) :
    auxAll hcat w (ix2 r n) = GFLstm.dot (fun k => hcat (ix2 r k)) (V.Whc n) + V.Bhc n := by
  rw [auxAll_apply, hw.bhc]
  unfold GFLstm.dot
  simp only [hw.whc]

end WithAgree

/-! ## The gated sum at an entry -/

theorem auxSum_apply (g : FVec Ideal S256x3 .f32) (a : FVec Ideal S256x768 .f32) (r : Fin 256) (j : Fin 256) :
    auxSum g a (ix2 r j) = g (ix2 r (0 : Fin 3)) * a (ix2 r (GFLstm.at3 0 j)) + g (ix2 r (1 : Fin 3)) * a (ix2 r (GFLstm.at3 1 j))
      + g (ix2 r (2 : Fin 3)) * a (ix2 r (GFLstm.at3 2 j)) := by
  unfold auxSum
  rw [addf_apply, addf_apply, addf_apply, mulf_apply, mulf_apply, mulf_apply, broadcast_apply,
    broadcastTo_a1_ab_apply, broadcastTo_a1_ab_apply, broadcastTo_a1_ab_apply,
    slice2_axis1_apply 0 g _ r (0 : Fin 1) (0 : Fin 3) rfl,
    slice2_axis1_apply 1 g _ r (0 : Fin 1) (1 : Fin 3) rfl,
    slice2_axis1_apply 2 g _ r (0 : Fin 1) (2 : Fin 3) rfl,
    slice2_axis1_apply 0 a _ r j (GFLstm.at3 0 j) (by show 256 * 0 + j.val = 0 + j.val; omega),
    slice2_axis1_apply 256 a _ r j (GFLstm.at3 1 j) (by show 256 * 1 + j.val = 256 + j.val; omega),
    slice2_axis1_apply 512 a _ r j (GFLstm.at3 2 j) (by show 256 * 2 + j.val = 512 + j.val; omega)]
  show Ideal.ofBits .f32 0x00000000#32 + _ + _ + _ = _
  rw [Ideal.ofBits_zero_f32, zero_add]

/-! ## The slices of the linear maps -/

section WithAgree2
variable {w : LayerW Ideal} {V : GFLstm.LW} (hw : Agree w V)
include hw

theorem sliceI_f (xin : FVec Ideal S256x256 .bf16) (r j : Fin 256) :
    extractStridedSlice S256x256 ![0, 0] (linI xin w) slices_S256x1024_o0_0_S256x256 (ix2 r j)
      = GFLstm.dot (fun k => xin (ix2 r k)) (V.Wif j) + V.Bif j := by
  rw [slice2_axis1_apply 0 (linI xin w) _ r j (⟨0 + j.val, by have := j.isLt; omega⟩ : Fin 1024) rfl, linI_f hw xin r j _ rfl]

theorem sliceI_i (xin : FVec Ideal S256x256 .bf16) (r j : Fin 256) :
    extractStridedSlice S256x256 ![0, 256] (linI xin w) slices_S256x1024_o0_256_S256x256 (ix2 r j)
      = GFLstm.dot (fun k => xin (ix2 r k)) (V.Wii j) + V.Bii j := by
  rw [slice2_axis1_apply 256 (linI xin w) _ r j (⟨256 + j.val, by have := j.isLt; omega⟩ : Fin 1024) rfl, linI_i hw xin r j _ rfl]

theorem sliceI_c (xin : FVec Ideal S256x256 .bf16) (r j : Fin 256) :
    extractStridedSlice S256x256 ![0, 512] (linI xin w) slices_S256x1024_o0_512_S256x256 (ix2 r j)
      = GFLstm.dot (fun k => xin (ix2 r k)) (V.Wic j) + V.Bic j := by
  rw [slice2_axis1_apply 512 (linI xin w) _ r j (⟨512 + j.val, by have := j.isLt; omega⟩ : Fin 1024) rfl, linI_c hw xin r j _ rfl]

theorem sliceI_o (xin : FVec Ideal S256x256 .bf16) (r j : Fin 256) :
    extractStridedSlice S256x256 ![0, 768] (linI xin w) slices_S256x1024_o0_768_S256x256 (ix2 r j)
      = GFLstm.dot (fun k => xin (ix2 r k)) (V.Wio j) + V.Bio j := by
  rw [slice2_axis1_apply 768 (linI xin w) _ r j (⟨768 + j.val, by have := j.isLt; omega⟩ : Fin 1024) rfl, linI_o hw xin r j _ rfl]

theorem sliceH_f (hp : FVec Ideal S256x256 .bf16) (r j : Fin 256) :
    extractStridedSlice S256x256 ![0, 0] (linH hp w) slices_S256x768_o0_0_S256x256 (ix2 r j)
      = GFLstm.dot (fun k => hp (ix2 r k)) (V.Whf j) + V.Bhf j := by
  rw [slice2_axis1_apply 0 (linH hp w) _ r j (⟨0 + j.val, by have := j.isLt; omega⟩ : Fin 768) rfl, linH_f hw hp r j _ rfl]

theorem sliceH_i (hp : FVec Ideal S256x256 .bf16) (r j : Fin 256) :
    extractStridedSlice S256x256 ![0, 256] (linH hp w) slices_S256x768_o0_256_S256x256 (ix2 r j)
      = GFLstm.dot (fun k => hp (ix2 r k)) (V.Whi j) + V.Bhi j := by
  rw [slice2_axis1_apply 256 (linH hp w) _ r j (⟨256 + j.val, by have := j.isLt; omega⟩ : Fin 768) rfl, linH_i hw hp r j _ rfl]

theorem sliceH_o (hp : FVec Ideal S256x256 .bf16) (r j : Fin 256) :
    extractStridedSlice S256x256 ![0, 512] (linH hp w) slices_S256x768_o0_512_S256x256 (ix2 r j)
      = GFLstm.dot (fun k => hp (ix2 r k)) (V.Who j) + V.Bho j := by
  rw [slice2_axis1_apply 512 (linH hp w) _ r j (⟨512 + j.val, by have := j.isLt; omega⟩ : Fin 768) rfl, linH_o hw hp r j _ rfl]

/-! ## One layer of one step, at a row -/

theorem cellC_row (xin : FVec Ideal S256x256 .bf16) (hprev cprev : FVec Ideal S256x256 .f32) (hcat : FVec Ideal S256x768 .bf16)
    (r j : Fin 256) :
    cellC xin hprev cprev hcat w (ix2 r j)
      = GFLstm.cellCR V (fun k => xin (ix2 r k)) (fun k => hprev (ix2 r k)) (fun k => cprev (ix2 r k)) (fun k => hcat (ix2 r k)) j := by
  unfold cellC
  simp only [addf_apply, mulf_apply, logistic_apply, tanh_apply]
  rw [sliceI_f hw, sliceH_f hw, sliceI_i hw, sliceH_i hw, sliceI_c hw, auxSum_apply]
  simp only [gate_row hw, auxAll_row hw]
  unfold GFLstm.cellCR GFLstm.auxR
  rw [Fin.sum_univ_three]
  rfl

theorem cellH_row (xin : FVec Ideal S256x256 .bf16) (hprev cprev : FVec Ideal S256x256 .f32) (hcat : FVec Ideal S256x768 .bf16)
    (r j : Fin 256) :
    cellH xin hprev cprev hcat w (ix2 r j)
      = GFLstm.cellHR V (fun k => xin (ix2 r k)) (fun k => hprev (ix2 r k)) (fun k => cprev (ix2 r k)) (fun k => hcat (ix2 r k)) j := by
  unfold cellH
  simp only [addf_apply, mulf_apply, logistic_apply]
  rw [sliceI_o hw, sliceH_o hw, cellC_row hw]
  rfl

end WithAgree2

/-! ## The state at a row -/

/-- Row `r` of the six tiles. -/
def rowOf (s : St Ideal) (r : Fin 256) : GFLstm.RowSt :=
  ⟨fun l j => pick3 s.h0 s.h1 s.h2 l (ix2 r j), fun l j => pick3 s.c0 s.c1 s.c2 l (ix2 r j)⟩

theorem hcat_list (s : St Ideal) :
    ([⟨S256x256, s.h0⟩, ⟨S256x256, s.h1⟩, ⟨S256x256, s.h2⟩] : List ((s : Shape) × (s.Idx → Ideal .f32)))
      = List.ofFn (fun l : Fin 3 => (⟨S256x256, pick3 s.h0 s.h1 s.h2 l⟩ : (s : Shape) × (s.Idx → Ideal .f32))) := rfl

theorem hcatOf_row (s : St Ideal) (r : Fin 256) (k : Fin 768) :
    hcatOf s (ix2 r k) = GFLstm.hcatR (rowOf s r) k := by
  unfold hcatOf
  rw [truncf_apply, concatenate_congr (hcat_list s),
    concat_cols_apply (fun l : Fin 3 => pick3 s.h0 s.h1 s.h2 l) _ r k ⟨k.val / 256, by have := k.isLt; omega⟩ rfl
      ⟨k.val % 256, Nat.mod_lt _ (by decide)⟩ rfl]
  rfl

/-! ## One step and any number of steps, at a row -/

section Steps
variable {w0 w1 w2 : LayerW Ideal} {W : Fin 3 → GFLstm.LW}
  (hw0 : Agree w0 (W 0)) (hw1 : Agree w1 (W 1)) (hw2 : Agree w2 (W 2))
include hw0 hw1 hw2

theorem step_row (x : Vec Ideal S256x256 .f32) (s : St Ideal) (r : Fin 256) :
    rowOf (step x w0 w1 w2 s) r = GFLstm.stepR (fun k => x (ix2 r k)) W (rowOf s r) := by
  have hc : (fun k => hcatOf s (ix2 r k)) = GFLstm.hcatR (rowOf s r) := funext fun k => hcatOf_row s r k
  have e0 : (fun j => cellH (truncf .bf16 x bitsLt_bf16_f32) s.h0 s.c0 (hcatOf s) w0 (ix2 r j))
      = GFLstm.cellHR (W 0) (fun k => x (ix2 r k)) ((rowOf s r).h 0) ((rowOf s r).c 0) (GFLstm.hcatR (rowOf s r)) :=
    funext fun j => by rw [cellH_row hw0, hc]; rfl
  have e1 : (fun j => cellH (truncf .bf16 (cellH (truncf .bf16 x bitsLt_bf16_f32) s.h0 s.c0 (hcatOf s) w0) bitsLt_bf16_f32) s.h1 s.c1 (hcatOf s) w1 (ix2 r j))
      = GFLstm.cellHR (W 1) (GFLstm.cellHR (W 0) (fun k => x (ix2 r k)) ((rowOf s r).h 0) ((rowOf s r).c 0) (GFLstm.hcatR (rowOf s r)))
          ((rowOf s r).h 1) ((rowOf s r).c 1) (GFLstm.hcatR (rowOf s r)) :=
    funext fun j => by rw [cellH_row hw1, hc, ← e0]; rfl
  unfold GFLstm.stepR
  show (⟨_, _⟩ : GFLstm.RowSt) = ⟨_, _⟩
  congr 1
  · funext l j
    match l with
    | 0 => exact congrFun e0 j
    | 1 => exact congrFun e1 j
    | 2 =>
      show cellH _ s.h2 s.c2 (hcatOf s) w2 (ix2 r j) = _
      rw [cellH_row hw2, hc, ← e1]; rfl
  · funext l j
    match l with
    | 0 =>
      show cellC _ s.h0 s.c0 (hcatOf s) w0 (ix2 r j) = _
      rw [cellC_row hw0, hc]; rfl
    | 1 =>
      show cellC _ s.h1 s.c1 (hcatOf s) w1 (ix2 r j) = _
      rw [cellC_row hw1, hc, ← e0]; rfl
    | 2 =>
      show cellC _ s.h2 s.c2 (hcatOf s) w2 (ix2 r j) = _
      rw [cellC_row hw2, hc, ← e1]; rfl

theorem stAt_row (x : Vec Ideal S256x256 .f32) (s0 : St Ideal) (r : Fin 256) (n : Nat) :
    rowOf (stAt x w0 w1 w2 s0 n) r = GFLstm.stAtR (fun k => x (ix2 r k)) W (rowOf s0 r) n := by
  induction n with
  | zero => rfl
  | succ n ih =>
    show rowOf (step x w0 w1 w2 (stAt x w0 w1 w2 s0 n)) r = GFLstm.stepR _ W (GFLstm.stAtR _ W (rowOf s0 r) n)
    rw [step_row hw0 hw1 hw2, ih]

end Steps

/-! ## The first state and the output, at a row -/

theorem init_row (hid0 hid1 hid2 cur0 cur1 cur2 : Vec Ideal S1x256x256 .f32) (r : Fin 256) :
    rowOf (init hid0 hid1 hid2 cur0 cur1 cur2) r
      = ⟨fun l j => (match l with | 0 => hid0 | 1 => hid1 | 2 => hid2) (ix3 (0 : Fin 1) r j),
         fun l j => (match l with | 0 => cur0 | 1 => cur1 | 2 => cur2) (ix3 (0 : Fin 1) r j)⟩ := by
  unfold rowOf init
  congr 1
  · funext l j
    match l with
    | 0 => exact shapeCast_1ab_ab_apply hid0 _ r j
    | 1 => exact shapeCast_1ab_ab_apply hid1 _ r j
    | 2 => exact shapeCast_1ab_ab_apply hid2 _ r j
  · funext l j
    match l with
    | 0 => exact shapeCast_1ab_ab_apply cur0 _ r j
    | 1 => exact shapeCast_1ab_ab_apply cur1 _ r j
    | 2 => exact shapeCast_1ab_ab_apply cur2 _ r j

theorem feat_list (x : Vec Ideal S256x256 .f32) (w0 w1 w2 : LayerW Ideal) (s0 : St Ideal) :
    ([⟨S256x256, (stAt x w0 w1 w2 s0 1).h2⟩, ⟨S256x256, (stAt x w0 w1 w2 s0 2).h2⟩, ⟨S256x256, (stAt x w0 w1 w2 s0 3).h2⟩,
      ⟨S256x256, (stAt x w0 w1 w2 s0 4).h2⟩, ⟨S256x256, (stAt x w0 w1 w2 s0 5).h2⟩, ⟨S256x256, (stAt x w0 w1 w2 s0 6).h2⟩,
      ⟨S256x256, (stAt x w0 w1 w2 s0 7).h2⟩, ⟨S256x256, (stAt x w0 w1 w2 s0 8).h2⟩, ⟨S256x256, (stAt x w0 w1 w2 s0 9).h2⟩] :
        List ((s : Shape) × (s.Idx → Ideal .f32)))
      = List.ofFn (fun q : Fin 9 => (⟨S256x256, (stAt x w0 w1 w2 s0 (q.val + 1)).h2⟩ : (s : Shape) × (s.Idx → Ideal .f32))) := rfl

theorem out_row (x : Vec Ideal S256x256 .f32) (w0 w1 w2 : Spec.LayerW Ideal)
    (hid0 hid1 hid2 cur0 cur1 cur2 : Vec Ideal S1x256x256 .f32) (wl : Vec Ideal S2304x44 .bf16) (bl : Vec Ideal S44 .f32)
    (W : Fin 3 → GFLstm.LW) (Wl : Fin 44 → Fin 2304 → EReal) (bL : Fin 44 → EReal)
    (hw0 : Agree w0 (W 0)) (hw1 : Agree w1 (W 1)) (hw2 : Agree w2 (W 2))
    (hwl : ∀ (k : Fin 2304) (o : Fin 44), wl (ix2 k o) = Wl o k) (hbl : ∀ o : Fin 44, bl (ix1 o) = bL o)
    (r : Fin 256) (o : Fin 44) :
    Spec.out (F := Ideal) x w0 w1 w2 (Spec.init hid0 hid1 hid2 cur0 cur1 cur2) wl bl (ix2 r o)
      = GFLstm.outR (fun k => x (ix2 r k)) W
          ⟨fun l j => (match l with | 0 => hid0 | 1 => hid1 | 2 => hid2) (ix3 (0 : Fin 1) r j),
           fun l j => (match l with | 0 => cur0 | 1 => cur1 | 2 => cur2) (ix3 (0 : Fin 1) r j)⟩ Wl bL o := by
  unfold Spec.out
  rw [logistic_apply, addf_apply,
    show dot_S256x2304_S2304x44_S256x44_1_0_0_1_n_n = (⟨[1], [0], [0], [1], [], [], dot_S256x2304_S2304x44_S256x44_1_0_0_1_n_n_wf⟩ : DotDims S256x2304 S2304x44 S256x44) from rfl,
    matmul_plain_zero_apply, broadcastTo_1b_ab_apply, shapeCast_a_1a_apply, hbl]
  unfold GFLstm.outR GFLstm.dot
  refine congrArg Ideal.logistic (congrArg (· + bL o) ?_)
  refine Finset.sum_congr rfl fun k _ => ?_
  rw [shapeCast_self, hwl, truncf_apply, concatenate_congr (feat_list x w0 w1 w2 _),
    concat_cols_apply (fun q : Fin 9 => (stAt x w0 w1 w2 (Spec.init hid0 hid1 hid2 cur0 cur1 cur2) (q.val + 1)).h2) _ r k
      ⟨k.val / 256, by have := k.isLt; omega⟩ rfl ⟨k.val % 256, Nat.mod_lt _ (by decide)⟩ rfl]
  refine congrArg (· * Wl o k) ?_
  unfold GFLstm.featR
  have hst := stAt_row hw0 hw1 hw2 x (Spec.init hid0 hid1 hid2 cur0 cur1 cur2) r (k.val / 256 + 1)
  rw [init_row] at hst
  exact congrArg (fun s : GFLstm.RowSt => s.h 2 ⟨k.val % 256, Nat.mod_lt _ (by decide)⟩) hst

end Cert.KernelIdeal.KRow

end
-- ==== Proof.LibConcatRun.lean ====
/-
  Reading a straight line of host operations at a result whose term holds concatenations of computed operands.
  A concatenation takes its pieces as a list of (shape, contents) pairs beside a proof about the list of shapes, and a
  rewriting pass does not enter that list. Here the two-piece and three-piece concatenations are restated with the pieces
  as plain arguments, an operation over a literal family of three references is read with each operand's contents at its
  own reference, and the one-pass reading of the results is extended by these three facts.
-/
import Idealize.ShloMosaic.Lib.StableHlo.Run

noncomputable section

namespace Idealize.ShloMosaic.StableHlo

section Pieces
variable {α : Type}

/-- The concatenation of two pieces along an axis, the pieces as plain arguments. -/
def cat2 (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- The concatenation of three pieces along an axis, the pieces as plain arguments. -/
def cat3 (t : Shape) (ax : Fin t.rank) (s1 s2 s3 : Shape) (h : Shape.Concatenates [s1, s2, s3] t ax)
    (a : s1.Idx → α) (b : s2.Idx → α) (c : s3.Idx → α) : t.Idx → α :=
  concatenate t ax [⟨s1, a⟩, ⟨s2, b⟩, ⟨s3, c⟩] h

theorem concatenate_two (t : Shape) (ax : Fin t.rank) (s1 s2 : Shape) (h : Shape.Concatenates [s1, s2] t ax)
    (a : s1.Idx → α) (b : s2.Idx → α) :
    concatenate t ax [⟨s1, a⟩, ⟨s2, b⟩] h = cat2 t ax s1 s2 h a b := rfl

theorem concatenate_three (t : Shape) (ax : Fin t.rank) (s1 s2 s3 : Shape) (h : Shape.Concatenates [s1, s2, s3] t ax)
    (a : s1.Idx → α) (b : s2.Idx → α) (c : s3.Idx → α) :
    concatenate t ax [⟨s1, a⟩, ⟨s2, b⟩, ⟨s3, c⟩] h = cat3 t ax s1 s2 s3 h a b c := rfl

end Pieces

section Three
variable {nD : Nat} {τ : Topo} {sig : RefSig} {Val : EltTy → Type} {x a b y : Ref sig .tc}

/-- An operation over a literal family of three references leaves at its result its function of the three contents,
    each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Three

/-- The results of a straight line by one rewriting pass, reaching the operands of two-piece and three-piece
    concatenations: each operation's result at its own buffer is its function's value, at any other buffer what was
    there, and a concatenation of computed pieces is read with the pieces as plain arguments. -/
macro "after_results_simp_cat" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne',
      concatenate_two, concatenate_three]))

end Idealize.ShloMosaic.StableHlo

end
-- ==== Proof.KBlocks.lean ====
/-
  What the kernel's fifteen input windows hold at a grid point, entry by entry, in terms of the launch memory's
  argument arrays.

  * Concatenations of equal blocks and the body's slab loads, read at an index.
  * Each window's block at a grid point: the input tile and the two stacked state tiles are the 256 batch rows of the
    point; every weight and bias window's block is its whole array at every point.
  * The host-computed arrays at the ideal level (the narrowing to sixteen bits is the identity): transposed weight
    matrices set side by side.
  * `Wrow`: one layer's row-level weights read off the argument arrays, and `agree0/1/2`: the slabs the body loads of
    the weight windows' blocks hold them, for every grid point; the reads of the input tile, the initial hidden and
    cell tiles and the output weights in the same style.
-/
import proofs.«181228_j76424648065777_1_alg».proof.Proof.KFrameRun
import proofs.«181228_j76424648065777_1_alg».proof.Proof.KAgree
import proofs.«181228_j76424648065777_1_alg».proof.Proof.KLoads
import proofs.«181228_j76424648065777_1_alg».proof.Proof.LibConcatRun
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.KernelIdeal.Hand
open Idealize.ShloMosaic Idealize.ShloMosaic.TcCoe Idealize.ShloMosaic.ValueIdx
open Idealize.ShloMosaic.StableHlo (concatenate_two concatenate_three)
open Idealize.SL Idealize.SL.Sem
open Idealize.ShloMosaic.Pipeline (Dat Cfg Window)

variable {F : FTy → Type} [FloatOps F]
variable (m : (ℓ : Loc nD τ sig) → Buf (Elt F) ℓ)

/-! ## Concatenations read at an index -/

section Layout
variable {α : Type}

/-- Four blocks of 256 columns side by side (last axis of three): column `n` is column `n - 256 p` of block `p = n / 256`. -/
theorem cat4_cols (x0 x1 x2 x3 : S3x256x256.Idx → α)
    (h : Shape.Concatenates [S3x256x256, S3x256x256, S3x256x256, S3x256x256] S3x256x1024 2)
    (l : Fin 3) (k : Fin 256) (n : Fin 1024) :
    concatenate S3x256x1024 2 [⟨S3x256x256, x0⟩, ⟨S3x256x256, x1⟩, ⟨S3x256x256, x2⟩, ⟨S3x256x256, x3⟩] h (ix3 l k n)
      = if h0 : n.val < 256 then x0 (ix3 l k ⟨n.val, h0⟩) else if h1 : n.val < 512 then x1 (ix3 l k ⟨n.val - 256, by omega⟩)
        else if h2 : n.val < 768 then x2 (ix3 l k ⟨n.val - 512, by omega⟩) else x3 (ix3 l k ⟨n.val - 768, by omega⟩) := by
  have hn := n.isLt
  split
  · next h0 =>
    exact concatenate_apply_piece (t := S3x256x1024) (2 : Fin 3) [⟨S3x256x256, x0⟩, ⟨S3x256x256, x1⟩, ⟨S3x256x256, x2⟩, ⟨S3x256x256, x3⟩] h (ix3 l k n) 0 (by show _ < 4; omega) S3x256x256 x0 rfl rfl 0 rfl (ix3 l k ⟨n.val, h0⟩) (fun b hb => match b with | ⟨0, _⟩ => rfl | ⟨1, _⟩ => rfl | ⟨2, _⟩ => absurd rfl hb) (by show 0 + n.val = n.val; omega)
  · next h0 =>
    split
    · next h1 =>
      exact concatenate_apply_piece (t := S3x256x1024) (2 : Fin 3) [⟨S3x256x256, x0⟩, ⟨S3x256x256, x1⟩, ⟨S3x256x256, x2⟩, ⟨S3x256x256, x3⟩] h (ix3 l k n) 1 (by show _ < 4; omega) S3x256x256 x1 rfl rfl 256 rfl (ix3 l k ⟨n.val - 256, by omega⟩) (fun b hb => match b with | ⟨0, _⟩ => rfl | ⟨1, _⟩ => rfl | ⟨2, _⟩ => absurd rfl hb) (by show 256 + (n.val - 256) = n.val; omega)
    · next h1 =>
      split
      · next h2 =>
        exact concatenate_apply_piece (t := S3x256x1024) (2 : Fin 3) [⟨S3x256x256, x0⟩, ⟨S3x256x256, x1⟩, ⟨S3x256x256, x2⟩, ⟨S3x256x256, x3⟩] h (ix3 l k n) 2 (by show _ < 4; omega) S3x256x256 x2 rfl rfl 512 rfl (ix3 l k ⟨n.val - 512, by omega⟩) (fun b hb => match b with | ⟨0, _⟩ => rfl | ⟨1, _⟩ => rfl | ⟨2, _⟩ => absurd rfl hb) (by show 512 + (n.val - 512) = n.val; omega)
      · next h2 =>
        exact concatenate_apply_piece (t := S3x256x1024) (2 : Fin 3) [⟨S3x256x256, x0⟩, ⟨S3x256x256, x1⟩, ⟨S3x256x256, x2⟩, ⟨S3x256x256, x3⟩] h (ix3 l k n) 3 (by show _ < 4; omega) S3x256x256 x3 rfl rfl 768 rfl (ix3 l k ⟨n.val - 768, by omega⟩) (fun b hb => match b with | ⟨0, _⟩ => rfl | ⟨1, _⟩ => rfl | ⟨2, _⟩ => absurd rfl hb) (by show 768 + (n.val - 768) = n.val; omega)

/-- Three blocks of 256 columns side by side (last axis of three). -/
theorem cat3_cols (x0 x1 x2 : S3x256x256.Idx → α)
    (h : Shape.Concatenates [S3x256x256, S3x256x256, S3x256x256] S3x256x768 2)
    (l : Fin 3) (k : Fin 256) (n : Fin 768) :
    concatenate S3x256x768 2 [⟨S3x256x256, x0⟩, ⟨S3x256x256, x1⟩, ⟨S3x256x256, x2⟩] h (ix3 l k n)
      = if h0 : n.val < 256 then x0 (ix3 l k ⟨n.val, h0⟩) else if h1 : n.val < 512 then x1 (ix3 l k ⟨n.val - 256, by omega⟩)
        else x2 (ix3 l k ⟨n.val - 512, by omega⟩) := by
  have hn := n.isLt
  split
  · next h0 =>
    exact concatenate_apply_piece (t := S3x256x768) (2 : Fin 3) [⟨S3x256x256, x0⟩, ⟨S3x256x256, x1⟩, ⟨S3x256x256, x2⟩] h (ix3 l k n) 0 (by show _ < 3; omega) S3x256x256 x0 rfl rfl 0 rfl (ix3 l k ⟨n.val, h0⟩) (fun b hb => match b with | ⟨0, _⟩ => rfl | ⟨1, _⟩ => rfl | ⟨2, _⟩ => absurd rfl hb) (by show 0 + n.val = n.val; omega)
  · next h0 =>
    split
    · next h1 =>
      exact concatenate_apply_piece (t := S3x256x768) (2 : Fin 3) [⟨S3x256x256, x0⟩, ⟨S3x256x256, x1⟩, ⟨S3x256x256, x2⟩] h (ix3 l k n) 1 (by show _ < 3; omega) S3x256x256 x1 rfl rfl 256 rfl (ix3 l k ⟨n.val - 256, by omega⟩) (fun b hb => match b with | ⟨0, _⟩ => rfl | ⟨1, _⟩ => rfl | ⟨2, _⟩ => absurd rfl hb) (by show 256 + (n.val - 256) = n.val; omega)
    · next h1 =>
      exact concatenate_apply_piece (t := S3x256x768) (2 : Fin 3) [⟨S3x256x256, x0⟩, ⟨S3x256x256, x1⟩, ⟨S3x256x256, x2⟩] h (ix3 l k n) 2 (by show _ < 3; omega) S3x256x256 x2 rfl rfl 512 rfl (ix3 l k ⟨n.val - 512, by omega⟩) (fun b hb => match b with | ⟨0, _⟩ => rfl | ⟨1, _⟩ => rfl | ⟨2, _⟩ => absurd rfl hb) (by show 512 + (n.val - 512) = n.val; omega)

/-- Four bias blocks of 256 entries side by side (last axis of two). -/
theorem cat4_bias (x0 x1 x2 x3 : S3x256.Idx → α)
    (h : Shape.Concatenates [S3x256, S3x256, S3x256, S3x256] S3x1024 1)
    (l : Fin 3) (n : Fin 1024) :
    concatenate S3x1024 1 [⟨S3x256, x0⟩, ⟨S3x256, x1⟩, ⟨S3x256, x2⟩, ⟨S3x256, x3⟩] h (ix2 l n)
      = if h0 : n.val < 256 then x0 (ix2 l ⟨n.val, h0⟩) else if h1 : n.val < 512 then x1 (ix2 l ⟨n.val - 256, by omega⟩)
        else if h2 : n.val < 768 then x2 (ix2 l ⟨n.val - 512, by omega⟩) else x3 (ix2 l ⟨n.val - 768, by omega⟩) := by
  have hn := n.isLt
  split
  · next h0 =>
    exact concatenate_apply_piece (t := S3x1024) (1 : Fin 2) [⟨S3x256, x0⟩, ⟨S3x256, x1⟩, ⟨S3x256, x2⟩, ⟨S3x256, x3⟩] h (ix2 l n) 0 (by show _ < 4; omega) S3x256 x0 rfl rfl 0 rfl (ix2 l ⟨n.val, h0⟩) (fun b hb => match b with | ⟨0, _⟩ => rfl | ⟨1, _⟩ => absurd rfl hb) (by show 0 + n.val = n.val; omega)
  · next h0 =>
    split
    · next h1 =>
      exact concatenate_apply_piece (t := S3x1024) (1 : Fin 2) [⟨S3x256, x0⟩, ⟨S3x256, x1⟩, ⟨S3x256, x2⟩, ⟨S3x256, x3⟩] h (ix2 l n) 1 (by show _ < 4; omega) S3x256 x1 rfl rfl 256 rfl (ix2 l ⟨n.val - 256, by omega⟩) (fun b hb => match b with | ⟨0, _⟩ => rfl | ⟨1, _⟩ => absurd rfl hb) (by show 256 + (n.val - 256) = n.val; omega)
    · next h1 =>
      split
      · next h2 =>
        exact concatenate_apply_piece (t := S3x1024) (1 : Fin 2) [⟨S3x256, x0⟩, ⟨S3x256, x1⟩, ⟨S3x256, x2⟩, ⟨S3x256, x3⟩] h (ix2 l n) 2 (by show _ < 4; omega) S3x256 x2 rfl rfl 512 rfl (ix2 l ⟨n.val - 512, by omega⟩) (fun b hb => match b with | ⟨0, _⟩ => rfl | ⟨1, _⟩ => absurd rfl hb) (by show 512 + (n.val - 512) = n.val; omega)
      · next h2 =>
        exact concatenate_apply_piece (t := S3x1024) (1 : Fin 2) [⟨S3x256, x0⟩, ⟨S3x256, x1⟩, ⟨S3x256, x2⟩, ⟨S3x256, x3⟩] h (ix2 l n) 3 (by show _ < 4; omega) S3x256 x3 rfl rfl 768 rfl (ix2 l ⟨n.val - 768, by omega⟩) (fun b hb => match b with | ⟨0, _⟩ => rfl | ⟨1, _⟩ => absurd rfl hb) (by show 768 + (n.val - 768) = n.val; omega)

/-- Three bias blocks of 256 entries side by side (last axis of two). -/
theorem cat3_bias (x0 x1 x2 : S3x256.Idx → α)
    (h : Shape.Concatenates [S3x256, S3x256, S3x256] S3x768 1)
    (l : Fin 3) (n : Fin 768) :
    concatenate S3x768 1 [⟨S3x256, x0⟩, ⟨S3x256, x1⟩, ⟨S3x256, x2⟩] h (ix2 l n)
      = if h0 : n.val < 256 then x0 (ix2 l ⟨n.val, h0⟩) else if h1 : n.val < 512 then x1 (ix2 l ⟨n.val - 256, by omega⟩)
        else x2 (ix2 l ⟨n.val - 512, by omega⟩) := by
  have hn := n.isLt
  split
  · next h0 =>
    exact concatenate_apply_piece (t := S3x768) (1 : Fin 2) [⟨S3x256, x0⟩, ⟨S3x256, x1⟩, ⟨S3x256, x2⟩] h (ix2 l n) 0 (by show _ < 3; omega) S3x256 x0 rfl rfl 0 rfl (ix2 l ⟨n.val, h0⟩) (fun b hb => match b with | ⟨0, _⟩ => rfl | ⟨1, _⟩ => absurd rfl hb) (by show 0 + n.val = n.val; omega)
  · next h0 =>
    split
    · next h1 =>
      exact concatenate_apply_piece (t := S3x768) (1 : Fin 2) [⟨S3x256, x0⟩, ⟨S3x256, x1⟩, ⟨S3x256, x2⟩] h (ix2 l n) 1 (by show _ < 3; omega) S3x256 x1 rfl rfl 256 rfl (ix2 l ⟨n.val - 256, by omega⟩) (fun b hb => match b with | ⟨0, _⟩ => rfl | ⟨1, _⟩ => absurd rfl hb) (by show 256 + (n.val - 256) = n.val; omega)
    · next h1 =>
      exact concatenate_apply_piece (t := S3x768) (1 : Fin 2) [⟨S3x256, x0⟩, ⟨S3x256, x1⟩, ⟨S3x256, x2⟩] h (ix2 l n) 2 (by show _ < 3; omega) S3x256 x2 rfl rfl 512 rfl (ix2 l ⟨n.val - 512, by omega⟩) (fun b hb => match b with | ⟨0, _⟩ => rfl | ⟨1, _⟩ => absurd rfl hb) (by show 512 + (n.val - 512) = n.val; omega)

end Layout

/-! ## The body's loads read at an index -/

section Loads
variable {Val : EltTy → Type} {e : EltTy}

/-- Layer `l`'s slab of a stack of three matrices, loaded through the unit rectangle at offsets `(l, 0, 0)`. -/
theorem ld_slab3 {A B : ℕ} (x : (⟨3, ![3, A, B]⟩ : Shape).Idx → Val e) (l : Fin 3) (off : Fin 3 → ℕ)
    (h0 : off 0 = l.val) (h1 : off 1 = 0) (h2 : off 2 = 0)
    (inb : ∀ a, off a + (![1, A, B] : Fin 3 → ℕ) a ≤ (⟨3, ![3, A, B]⟩ : Shape).size a) (k : Fin A) (n : Fin B) :
    View.ld x (Rect.unit (s := ⟨3, ![3, A, B]⟩) off ![1, A, B] inb) (ix3 (0 : Fin 1) k n) = x (ix3 l k n) := by
  show x _ = x _
  refine congrArg x (funext fun a => Fin.ext ?_)
  match a with
  | ⟨0, _⟩ => show off 0 + 1 * 0 = l.val; omega
  | ⟨1, _⟩ => show off 1 + 1 * k.val = k.val; omega
  | ⟨2, _⟩ => show off 2 + 1 * n.val = n.val; omega

/-- Layer `l`'s row of a stack of three vectors, loaded through the unit rectangle at offsets `(l, 0)`. -/
theorem ld_slab2 {B : ℕ} (x : (⟨2, ![3, B]⟩ : Shape).Idx → Val e) (l : Fin 3) (off : Fin 2 → ℕ)
    (h0 : off 0 = l.val) (h1 : off 1 = 0)
    (inb : ∀ a, off a + (![1, B] : Fin 2 → ℕ) a ≤ (⟨2, ![3, B]⟩ : Shape).size a) (n : Fin B) :
    View.ld x (Rect.unit (s := ⟨2, ![3, B]⟩) off ![1, B] inb) (ix2 (0 : Fin 1) n) = x (ix2 l n) := by
  show x _ = x _
  refine congrArg x (funext fun a => Fin.ext ?_)
  match a with
  | ⟨0, _⟩ => show off 0 + 1 * 0 = l.val; omega
  | ⟨1, _⟩ => show off 1 + 1 * n.val = n.val; omega

/-- A whole matrix loaded through the unit rectangle at zero offsets. -/
theorem ld_whole2 {A B : ℕ} (x : (⟨2, ![A, B]⟩ : Shape).Idx → Val e) (inb) :
    View.ld x (Rect.unit (s := ⟨2, ![A, B]⟩) ![0, 0] (⟨2, ![A, B]⟩ : Shape).size inb) = x :=
  View.ld_unit_zero (funext fun a => match a with | ⟨0, _⟩ => rfl | ⟨1, _⟩ => rfl) inb x

/-- A whole vector loaded through the unit rectangle at zero offset. -/
theorem ld_whole1 {A : ℕ} (x : (⟨1, ![A]⟩ : Shape).Idx → Val e) (inb) :
    View.ld x (Rect.unit (s := ⟨1, ![A]⟩) ![0] (⟨1, ![A]⟩ : Shape).size inb) = x :=
  View.ld_unit_zero (funext fun a => match a with | ⟨0, _⟩ => rfl) inb x

end Loads

/-! ## The windows' blocks read at an index

A block's element sits in its array, on each axis, at the block index times the block's size plus its own coordinate.
The input tile and the two stacked state tiles move with the grid point along the batch axis; every other window's block
is its whole array at every point. -/

section BlocksAt

theorem idx0 : ∀ t : Fin cfg0.N, win0_0.index t (0 : Fin 2) = t.val ∧ win0_0.index t (1 : Fin 2) = 0 :=
  (by decide +kernel : ∀ t : Fin grid0.N, _)
/-- Window 0's block at point `t`, entry by entry, in the array as the region finds it. -/
theorem iblk0_at (c : Dev nD) (t : Fin cfg0.N) (i0 : Fin 256) (i1 : Fin 256) :
    iblk m c 0 t (ix2 i0 i1) = V m c main_arg0 (ix2 ⟨256 * t.val + i0.val, by have h1 := t.isLt; have h2 : cfg0.N = 16 := N_0; omega⟩ i1) := by
  obtain ⟨e0, e1⟩ := idx0 t
  show V m c main_arg0 (((cfg0.win 0).blk t).view.emb (ix2 i0 i1)) = V m c main_arg0 (ix2 ⟨256 * t.val + i0.val, by have h1 := t.isLt; have h2 : cfg0.N = 16 := N_0; omega⟩ i1)
  refine congrArg _ (funext fun a => Fin.ext ?_)
  match a with
  | ⟨0, _⟩ => show win0_0.index t (0 : Fin 2) * 256 + 1 * i0.val = 256 * t.val + i0.val; omega
  | ⟨1, _⟩ => show win0_0.index t (1 : Fin 2) * 256 + 1 * i1.val = i1.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
/-- Window 1's block at point `t`, entry by entry, in the array as the region finds it. -/
theorem iblk1_at (c : Dev nD) (t : Fin cfg0.N) (i0 : Fin 3) (i1 : Fin 256) (i2 : Fin 256) :
    iblk m c 1 t (ix3 i0 i1 i2) = V m c main_arg1 (ix3 i0 ⟨256 * t.val + i1.val, by have h1 := t.isLt; have h2 : cfg0.N = 16 := N_0; omega⟩ i2) := by
  obtain ⟨e0, e1, e2⟩ := idx1 t
  show V m c main_arg1 (((cfg0.win 1).blk t).view.emb (ix3 i0 i1 i2)) = V m c main_arg1 (ix3 i0 ⟨256 * t.val + i1.val, by have h1 := t.isLt; have h2 : cfg0.N = 16 := N_0; omega⟩ i2)
  refine congrArg _ (funext fun a => Fin.ext ?_)
  match a with
  | ⟨0, _⟩ => show win0_1.index t (0 : Fin 3) * 3 + 1 * i0.val = i0.val; omega
  | ⟨1, _⟩ => show win0_1.index t (1 : Fin 3) * 256 + 1 * i1.val = 256 * t.val + i1.val; omega
  | ⟨2, _⟩ => show win0_1.index t (2 : Fin 3) * 256 + 1 * i2.val = i2.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
/-- Window 2's block at point `t`, entry by entry, in the array as the region finds it. -/
theorem iblk2_at (c : Dev nD) (t : Fin cfg0.N) (i0 : Fin 3) (i1 : Fin 256) (i2 : Fin 256) :
    iblk m c 2 t (ix3 i0 i1 i2) = V m c main_arg2 (ix3 i0 ⟨256 * t.val + i1.val, by have h1 := t.isLt; have h2 : cfg0.N = 16 := N_0; omega⟩ i2) := by
  obtain ⟨e0, e1, e2⟩ := idx2 t
  show V m c main_arg2 (((cfg0.win 2).blk t).view.emb (ix3 i0 i1 i2)) = V m c main_arg2 (ix3 i0 ⟨256 * t.val + i1.val, by have h1 := t.isLt; have h2 : cfg0.N = 16 := N_0; omega⟩ i2)
  refine congrArg _ (funext fun a => Fin.ext ?_)
  match a with
  | ⟨0, _⟩ => show win0_2.index t (0 : Fin 3) * 3 + 1 * i0.val = i0.val; omega
  | ⟨1, _⟩ => show win0_2.index t (1 : Fin 3) * 256 + 1 * i1.val = 256 * t.val + i1.val; omega
  | ⟨2, _⟩ => show win0_2.index t (2 : Fin 3) * 256 + 1 * i2.val = i2.val; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- Window 3's block at point `t`, entry by entry, in the array as the region finds it. -/
theorem iblk3_at (c : Dev nD) (t : Fin cfg0.N) (i0 : Fin 3) (i1 : Fin 256) (i2 : Fin 1024) :
    iblk m c 3 t (ix3 i0 i1 i2) = V m c main_v5 (ix3 i0 i1 i2) := by
  obtain ⟨e0, e1, e2⟩ := idx3 t
  show V m c main_v5 (((cfg0.win 3).blk t).view.emb (ix3 i0 i1 i2)) = V m c main_v5 (ix3 i0 i1 i2)
  refine congrArg _ (funext fun a => Fin.ext ?_)
  match a with
  | ⟨0, _⟩ => show win0_3.index t (0 : Fin 3) * 3 + 1 * i0.val = i0.val; omega
  | ⟨1, _⟩ => show win0_3.index t (1 : Fin 3) * 256 + 1 * i1.val = i1.val; omega
  | ⟨2, _⟩ => show win0_3.index t (2 : Fin 3) * 1024 + 1 * i2.val = i2.val; omega

theorem idx4 : ∀ t : Fin cfg0.N, win0_4.index t (0 : Fin 2) = 0 ∧ win0_4.index t (1 : Fin 2) = 0 :=
  (by decide +kernel : ∀ t : Fin grid0.N, _)
/-- Window 4's block at point `t`, entry by entry, in the array as the region finds it. -/
theorem iblk4_at (c : Dev nD) (t : Fin cfg0.N) (i0 : Fin 3) (i1 : Fin 1024) :
    iblk m c 4 t (ix2 i0 i1) = V m c main_v6 (ix2 i0 i1) := by
  obtain ⟨e0, e1⟩ := idx4 t
  show V m c main_v6 (((cfg0.win 4).blk t).view.emb (ix2 i0 i1)) = V m c main_v6 (ix2 i0 i1)
  refine congrArg _ (funext fun a => Fin.ext ?_)
  match a with
  | ⟨0, _⟩ => show win0_4.index t (0 : Fin 2) * 3 + 1 * i0.val = i0.val; omega
  | ⟨1, _⟩ => show win0_4.index t (1 : Fin 2) * 1024 + 1 * i1.val = i1.val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
/-- Window 5's block at point `t`, entry by entry, in the array as the region finds it. -/
theorem iblk5_at (c : Dev nD) (t : Fin cfg0.N) (i0 : Fin 3) (i1 : Fin 256) (i2 : Fin 3) :
    iblk m c 5 t (ix3 i0 i1 i2) = V m c main_v14 (ix3 i0 i1 i2) := by
  obtain ⟨e0, e1, e2⟩ := idx5 t
  show V m c main_v14 (((cfg0.win 5).blk t).view.emb (ix3 i0 i1 i2)) = V m c main_v14 (ix3 i0 i1 i2)
  refine congrArg _ (funext fun a => Fin.ext ?_)
  match a with
  | ⟨0, _⟩ => show win0_5.index t (0 : Fin 3) * 3 + 1 * i0.val = i0.val; omega
  | ⟨1, _⟩ => show win0_5.index t (1 : Fin 3) * 256 + 1 * i1.val = i1.val; omega
  | ⟨2, _⟩ => show win0_5.index t (2 : Fin 3) * 3 + 1 * i2.val = i2.val; omega

theorem idx6 : ∀ t : Fin cfg0.N, win0_6.index t (0 : Fin 2) = 0 ∧ win0_6.index t (1 : Fin 2) = 0 :=
  (by decide +kernel : ∀ t : Fin grid0.N, _)
/-- Window 6's block at point `t`, entry by entry, in the array as the region finds it. -/
theorem iblk6_at (c : Dev nD) (t : Fin cfg0.N) (i0 : Fin 3) (i1 : Fin 3) :
    iblk m c 6 t (ix2 i0 i1) = V m c main_arg12 (ix2 i0 i1) := by
  obtain ⟨e0, e1⟩ := idx6 t
  show V m c main_arg12 (((cfg0.win 6).blk t).view.emb (ix2 i0 i1)) = V m c main_arg12 (ix2 i0 i1)
  refine congrArg _ (funext fun a => Fin.ext ?_)
  match a with
  | ⟨0, _⟩ => show win0_6.index t (0 : Fin 2) * 3 + 1 * i0.val = i0.val; omega
  | ⟨1, _⟩ => show win0_6.index t (1 : Fin 2) * 3 + 1 * i1.val = i1.val; omega

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
/-- Window 7's block at point `t`, entry by entry, in the array as the region finds it. -/
theorem iblk7_at (c : Dev nD) (t : Fin cfg0.N) (i0 : Fin 3) (i1 : Fin 256) (i2 : Fin 768) :
    iblk m c 7 t (ix3 i0 i1 i2) = V m c main_v11 (ix3 i0 i1 i2) := by
  obtain ⟨e0, e1, e2⟩ := idx7 t
  show V m c main_v11 (((cfg0.win 7).blk t).view.emb (ix3 i0 i1 i2)) = V m c main_v11 (ix3 i0 i1 i2)
  refine congrArg _ (funext fun a => Fin.ext ?_)
  match a with
  | ⟨0, _⟩ => show win0_7.index t (0 : Fin 3) * 3 + 1 * i0.val = i0.val; omega
  | ⟨1, _⟩ => show win0_7.index t (1 : Fin 3) * 256 + 1 * i1.val = i1.val; omega
  | ⟨2, _⟩ => show win0_7.index t (2 : Fin 3) * 768 + 1 * i2.val = i2.val; omega

theorem idx8 : ∀ t : Fin cfg0.N, win0_8.index t (0 : Fin 2) = 0 ∧ win0_8.index t (1 : Fin 2) = 0 :=
  (by decide +kernel : ∀ t : Fin grid0.N, _)
/-- Window 8's block at point `t`, entry by entry, in the array as the region finds it. -/
theorem iblk8_at (c : Dev nD) (t : Fin cfg0.N) (i0 : Fin 3) (i1 : Fin 768) :
    iblk m c 8 t (ix2 i0 i1) = V m c main_v12 (ix2 i0 i1) := by
  obtain ⟨e0, e1⟩ := idx8 t
  show V m c main_v12 (((cfg0.win 8).blk t).view.emb (ix2 i0 i1)) = V m c main_v12 (ix2 i0 i1)
  refine congrArg _ (funext fun a => Fin.ext ?_)
  match a with
  | ⟨0, _⟩ => show win0_8.index t (0 : Fin 2) * 3 + 1 * i0.val = i0.val; omega
  | ⟨1, _⟩ => show win0_8.index t (1 : Fin 2) * 768 + 1 * i1.val = i1.val; omega

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
/-- Window 9's block at point `t`, entry by entry, in the array as the region finds it. -/
theorem iblk9_at (c : Dev nD) (t : Fin cfg0.N) (i0 : Fin 3) (i1 : Fin 768) (i2 : Fin 3) :
    iblk m c 9 t (ix3 i0 i1 i2) = V m c main_v16 (ix3 i0 i1 i2) := by
  obtain ⟨e0, e1, e2⟩ := idx9 t
  show V m c main_v16 (((cfg0.win 9).blk t).view.emb (ix3 i0 i1 i2)) = V m c main_v16 (ix3 i0 i1 i2)
  refine congrArg _ (funext fun a => Fin.ext ?_)
  match a with
  | ⟨0, _⟩ => show win0_9.index t (0 : Fin 3) * 3 + 1 * i0.val = i0.val; omega
  | ⟨1, _⟩ => show win0_9.index t (1 : Fin 3) * 768 + 1 * i1.val = i1.val; omega
  | ⟨2, _⟩ => show win0_9.index t (2 : Fin 3) * 3 + 1 * i2.val = i2.val; omega

theorem idx10 : ∀ t : Fin cfg0.N, win0_10.index t (0 : Fin 2) = 0 ∧ win0_10.index t (1 : Fin 2) = 0 :=
  (by decide +kernel : ∀ t : Fin grid0.N, _)
/-- Window 10's block at point `t`, entry by entry, in the array as the region finds it. -/
theorem iblk10_at (c : Dev nD) (t : Fin cfg0.N) (i0 : Fin 3) (i1 : Fin 3) :
    iblk m c 10 t (ix2 i0 i1) = V m c main_arg20 (ix2 i0 i1) := by
  obtain ⟨e0, e1⟩ := idx10 t
  show V m c main_arg20 (((cfg0.win 10).blk t).view.emb (ix2 i0 i1)) = V m c main_arg20 (ix2 i0 i1)
  refine congrArg _ (funext fun a => Fin.ext ?_)
  match a with
  | ⟨0, _⟩ => show win0_10.index t (0 : Fin 2) * 3 + 1 * i0.val = i0.val; omega
  | ⟨1, _⟩ => show win0_10.index t (1 : Fin 2) * 3 + 1 * i1.val = i1.val; omega

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)
/-- Window 11's block at point `t`, entry by entry, in the array as the region finds it. -/
theorem iblk11_at (c : Dev nD) (t : Fin cfg0.N) (i0 : Fin 3) (i1 : Fin 768) (i2 : Fin 768) :
    iblk m c 11 t (ix3 i0 i1 i2) = V m c main_v18 (ix3 i0 i1 i2) := by
  obtain ⟨e0, e1, e2⟩ := idx11 t
  show V m c main_v18 (((cfg0.win 11).blk t).view.emb (ix3 i0 i1 i2)) = V m c main_v18 (ix3 i0 i1 i2)
  refine congrArg _ (funext fun a => Fin.ext ?_)
  match a with
  | ⟨0, _⟩ => show win0_11.index t (0 : Fin 3) * 3 + 1 * i0.val = i0.val; omega
  | ⟨1, _⟩ => show win0_11.index t (1 : Fin 3) * 768 + 1 * i1.val = i1.val; omega
  | ⟨2, _⟩ => show win0_11.index t (2 : Fin 3) * 768 + 1 * i2.val = i2.val; omega

theorem idx12 : ∀ t : Fin cfg0.N, win0_12.index t (0 : Fin 2) = 0 ∧ win0_12.index t (1 : Fin 2) = 0 :=
  (by decide +kernel : ∀ t : Fin grid0.N, _)
/-- Window 12's block at point `t`, entry by entry, in the array as the region finds it. -/
theorem iblk12_at (c : Dev nD) (t : Fin cfg0.N) (i0 : Fin 3) (i1 : Fin 768) :
    iblk m c 12 t (ix2 i0 i1) = V m c main_arg22 (ix2 i0 i1) := by
  obtain ⟨e0, e1⟩ := idx12 t
  show V m c main_arg22 (((cfg0.win 12).blk t).view.emb (ix2 i0 i1)) = V m c main_arg22 (ix2 i0 i1)
  refine congrArg _ (funext fun a => Fin.ext ?_)
  match a with
  | ⟨0, _⟩ => show win0_12.index t (0 : Fin 2) * 3 + 1 * i0.val = i0.val; omega
  | ⟨1, _⟩ => show win0_12.index t (1 : Fin 2) * 768 + 1 * i1.val = i1.val; omega

theorem idx13 : ∀ t : Fin cfg0.N, win0_13.index t (0 : Fin 2) = 0 ∧ win0_13.index t (1 : Fin 2) = 0 :=
  (by decide +kernel : ∀ t : Fin grid0.N, _)
/-- Window 13's block at point `t`, entry by entry, in the array as the region finds it. -/
theorem iblk13_at (c : Dev nD) (t : Fin cfg0.N) (i0 : Fin 2304) (i1 : Fin 44) :
    iblk m c 13 t (ix2 i0 i1) = V m c main_v20 (ix2 i0 i1) := by
  obtain ⟨e0, e1⟩ := idx13 t
  show V m c main_v20 (((cfg0.win 13).blk t).view.emb (ix2 i0 i1)) = V m c main_v20 (ix2 i0 i1)
  refine congrArg _ (funext fun a => Fin.ext ?_)
  match a with
  | ⟨0, _⟩ => show win0_13.index t (0 : Fin 2) * 2304 + 1 * i0.val = i0.val; omega
  | ⟨1, _⟩ => show win0_13.index t (1 : Fin 2) * 44 + 1 * i1.val = i1.val; omega

theorem idx14 : ∀ t : Fin cfg0.N, win0_14.index t (0 : Fin 1) = 0 :=
  (by decide +kernel : ∀ t : Fin grid0.N, _)
/-- Window 14's block at point `t`, entry by entry, in the array as the region finds it. -/
theorem iblk14_at (c : Dev nD) (t : Fin cfg0.N) (i0 : Fin 44) :
    iblk m c 14 t (ix1 i0) = V m c main_arg24 (ix1 i0) := by
  have e0 := idx14 t
  show V m c main_arg24 (((cfg0.win 14).blk t).view.emb (ix1 i0)) = V m c main_arg24 (ix1 i0)
  refine congrArg _ (funext fun a => Fin.ext ?_)
  match a with
  | ⟨0, _⟩ => show win0_14.index t (0 : Fin 1) * 44 + 1 * i0.val = i0.val; omega

end BlocksAt

/-! ## The host-computed arrays, as the region finds them

At the ideal level the narrowing to sixteen bits is the identity, so each host-computed operand of the kernel is a
transposition, or a side-by-side arrangement of transpositions, of argument arrays. -/

section Host
variable (m : (ℓ : Loc nD τ sig) → Buf (Elt Ideal) ℓ)

/-- The input-side weights: the four gate matrices of every layer transposed and set side by side (forget, input, candidate, output). -/
theorem V_v5 (c : Dev nD) :
    @Eq (S3x256x1024.Idx → EReal) (V m c main_v5) (truncf (F := Ideal) .bf16 (concatenate S3x256x1024 2 [⟨S3x256x256, transpose S3x256x256 [0, 2, 1] (m ((c : Thread nD τ).loc main_arg3) : S3x256x256.Idx → EReal) transposes_S3x256x256_S3x256x256_0_2_1⟩, ⟨S3x256x256, transpose S3x256x256 [0, 2, 1] (m ((c : Thread nD τ).loc main_arg5) : S3x256x256.Idx → EReal) transposes_S3x256x256_S3x256x256_0_2_1⟩, ⟨S3x256x256, transpose S3x256x256 [0, 2, 1] (m ((c : Thread nD τ).loc main_arg9) : S3x256x256.Idx → EReal) transposes_S3x256x256_S3x256x256_0_2_1⟩, ⟨S3x256x256, transpose S3x256x256 [0, 2, 1] (m ((c : Thread nD τ).loc main_arg7) : S3x256x256.Idx → EReal) transposes_S3x256x256_S3x256x256_0_2_1⟩] concatenates_S3x256x256_S3x256x256_S3x256x256_S3x256x256_S3x256x1024_d2) bitsLt_bf16_f32) := by
  dsimp only [V, hostOps0]; after_results; rfl

/-- The input-side biases side by side (forget, input, candidate, output). -/
theorem V_v6 (c : Dev nD) :
    @Eq (S3x1024.Idx → EReal) (V m c main_v6) (concatenate S3x1024 1 [⟨S3x256, (m ((c : Thread nD τ).loc main_arg4) : S3x256.Idx → EReal)⟩, ⟨S3x256, (m ((c : Thread nD τ).loc main_arg6) : S3x256.Idx → EReal)⟩, ⟨S3x256, (m ((c : Thread nD τ).loc main_arg10) : S3x256.Idx → EReal)⟩, ⟨S3x256, (m ((c : Thread nD τ).loc main_arg8) : S3x256.Idx → EReal)⟩] concatenates_S3x256_S3x256_S3x256_S3x256_S3x1024_d1) := by
  dsimp only [V, hostOps0]; after_results; rfl

/-- The hidden-side weights: three gate matrices transposed and set side by side (forget, input, output). -/
theorem V_v11 (c : Dev nD) :
    @Eq (S3x256x768.Idx → EReal) (V m c main_v11) (truncf (F := Ideal) .bf16 (concatenate S3x256x768 2 [⟨S3x256x256, transpose S3x256x256 [0, 2, 1] (m ((c : Thread nD τ).loc main_arg13) : S3x256x256.Idx → EReal) transposes_S3x256x256_S3x256x256_0_2_1⟩, ⟨S3x256x256, transpose S3x256x256 [0, 2, 1] (m ((c : Thread nD τ).loc main_arg15) : S3x256x256.Idx → EReal) transposes_S3x256x256_S3x256x256_0_2_1⟩, ⟨S3x256x256, transpose S3x256x256 [0, 2, 1] (m ((c : Thread nD τ).loc main_arg17) : S3x256x256.Idx → EReal) transposes_S3x256x256_S3x256x256_0_2_1⟩] concatenates_S3x256x256_S3x256x256_S3x256x256_S3x256x768_d2) bitsLt_bf16_f32) := by
  dsimp only [V, hostOps0]; after_results_simp_cat; rfl

/-- The hidden-side biases side by side (forget, input, output). -/
theorem V_v12 (c : Dev nD) :
    @Eq (S3x768.Idx → EReal) (V m c main_v12) (concatenate S3x768 1 [⟨S3x256, (m ((c : Thread nD τ).loc main_arg14) : S3x256.Idx → EReal)⟩, ⟨S3x256, (m ((c : Thread nD τ).loc main_arg16) : S3x256.Idx → EReal)⟩, ⟨S3x256, (m ((c : Thread nD τ).loc main_arg18) : S3x256.Idx → EReal)⟩] concatenates_S3x256_S3x256_S3x256_S3x768_d1) := by
  dsimp only [V, hostOps0]; after_results_simp_cat; rfl

/-- The input-side cross-layer gate weights, transposed. -/
theorem V_v14 (c : Dev nD) :
    @Eq (S3x256x3.Idx → EReal) (V m c main_v14) (truncf (F := Ideal) .bf16 (transpose S3x256x3 [0, 2, 1] (m ((c : Thread nD τ).loc main_arg11) : S3x3x256.Idx → EReal) transposes_S3x3x256_S3x256x3_0_2_1) bitsLt_bf16_f32) := by
  dsimp only [V, hostOps0]; after_results

/-- The hidden-side cross-layer gate weights, transposed. -/
theorem V_v16 (c : Dev nD) :
    @Eq (S3x768x3.Idx → EReal) (V m c main_v16) (truncf (F := Ideal) .bf16 (transpose S3x768x3 [0, 2, 1] (m ((c : Thread nD τ).loc main_arg19) : S3x3x768.Idx → EReal) transposes_S3x3x768_S3x768x3_0_2_1) bitsLt_bf16_f32) := by
  dsimp only [V, hostOps0]; after_results

/-- The cross-layer candidate weights, transposed. -/
theorem V_v18 (c : Dev nD) :
    @Eq (S3x768x768.Idx → EReal) (V m c main_v18) (truncf (F := Ideal) .bf16 (transpose S3x768x768 [0, 2, 1] (m ((c : Thread nD τ).loc main_arg21) : S3x768x768.Idx → EReal) transposes_S3x768x768_S3x768x768_0_2_1) bitsLt_bf16_f32) := by
  dsimp only [V, hostOps0]; after_results

/-- The output weights, transposed. -/
theorem V_v20 (c : Dev nD) :
    @Eq (S2304x44.Idx → EReal) (V m c main_v20) (truncf (F := Ideal) .bf16 (transpose S2304x44 [1, 0] (m ((c : Thread nD τ).loc main_arg23) : S44x2304.Idx → EReal) transposes_S44x2304_S2304x44_1_0) bitsLt_bf16_f32) := by
  dsimp only [V, hostOps0]; after_results

/-! ### … read at an index -/

theorem v5_at (c : Dev nD) (l : Fin 3) (k : Fin 256) (n : Fin 1024) :
    (V m c main_v5 : S3x256x1024.Idx → EReal) (ix3 l k n)
      = if h0 : n.val < 256 then (m ((c : Thread nD τ).loc main_arg3) : S3x256x256.Idx → EReal) (ix3 l ⟨n.val, h0⟩ k)
        else if h1 : n.val < 512 then (m ((c : Thread nD τ).loc main_arg5) : S3x256x256.Idx → EReal) (ix3 l ⟨n.val - 256, by omega⟩ k)
        else if h2 : n.val < 768 then (m ((c : Thread nD τ).loc main_arg9) : S3x256x256.Idx → EReal) (ix3 l ⟨n.val - 512, by omega⟩ k)
        else (m ((c : Thread nD τ).loc main_arg7) : S3x256x256.Idx → EReal) (ix3 l ⟨n.val - 768, by omega⟩ k) := by
  refine (congrFun (V_v5 m c) _).trans ?_
  rw [truncf_apply, cat4_cols]
  have hT : ∀ (x : S3x256x256.Idx → EReal) (l : Fin 3) (a b : Fin 256), transpose S3x256x256 [0, 2, 1] x transposes_S3x256x256_S3x256x256_0_2_1 (ix3 l a b) = x (ix3 l b a) :=
    fun x l a b => transpose_ix3_021_apply x _ l a b
  simp only [hT]

theorem v6_at (c : Dev nD) (l : Fin 3) (n : Fin 1024) :
    (V m c main_v6 : S3x1024.Idx → EReal) (ix2 l n)
      = if h0 : n.val < 256 then (m ((c : Thread nD τ).loc main_arg4) : S3x256.Idx → EReal) (ix2 l ⟨n.val, h0⟩)
        else if h1 : n.val < 512 then (m ((c : Thread nD τ).loc main_arg6) : S3x256.Idx → EReal) (ix2 l ⟨n.val - 256, by omega⟩)
        else if h2 : n.val < 768 then (m ((c : Thread nD τ).loc main_arg10) : S3x256.Idx → EReal) (ix2 l ⟨n.val - 512, by omega⟩)
        else (m ((c : Thread nD τ).loc main_arg8) : S3x256.Idx → EReal) (ix2 l ⟨n.val - 768, by omega⟩) := by
  refine (congrFun (V_v6 m c) _).trans ?_
  rw [cat4_bias]

theorem v11_at (c : Dev nD) (l : Fin 3) (k : Fin 256) (n : Fin 768) :
    (V m c main_v11 : S3x256x768.Idx → EReal) (ix3 l k n)
      = if h0 : n.val < 256 then (m ((c : Thread nD τ).loc main_arg13) : S3x256x256.Idx → EReal) (ix3 l ⟨n.val, h0⟩ k)
        else if h1 : n.val < 512 then (m ((c : Thread nD τ).loc main_arg15) : S3x256x256.Idx → EReal) (ix3 l ⟨n.val - 256, by omega⟩ k)
        else (m ((c : Thread nD τ).loc main_arg17) : S3x256x256.Idx → EReal) (ix3 l ⟨n.val - 512, by omega⟩ k) := by
  refine (congrFun (V_v11 m c) _).trans ?_
  rw [truncf_apply, cat3_cols]
  have hT : ∀ (x : S3x256x256.Idx → EReal) (l : Fin 3) (a b : Fin 256), transpose S3x256x256 [0, 2, 1] x transposes_S3x256x256_S3x256x256_0_2_1 (ix3 l a b) = x (ix3 l b a) :=
    fun x l a b => transpose_ix3_021_apply x _ l a b
  simp only [hT]

theorem v12_at (c : Dev nD) (l : Fin 3) (n : Fin 768) :
    (V m c main_v12 : S3x768.Idx → EReal) (ix2 l n)
      = if h0 : n.val < 256 then (m ((c : Thread nD τ).loc main_arg14) : S3x256.Idx → EReal) (ix2 l ⟨n.val, h0⟩)
        else if h1 : n.val < 512 then (m ((c : Thread nD τ).loc main_arg16) : S3x256.Idx → EReal) (ix2 l ⟨n.val - 256, by omega⟩)
        else (m ((c : Thread nD τ).loc main_arg18) : S3x256.Idx → EReal) (ix2 l ⟨n.val - 512, by omega⟩) := by
  refine (congrFun (V_v12 m c) _).trans ?_
  rw [cat3_bias]

theorem v14_at (c : Dev nD) (l : Fin 3) (k : Fin 256) (s : Fin 3) :
    (V m c main_v14 : S3x256x3.Idx → EReal) (ix3 l k s) = (m ((c : Thread nD τ).loc main_arg11) : S3x3x256.Idx → EReal) (ix3 l s k) := by
  refine (congrFun (V_v14 m c) _).trans ?_
  rw [truncf_apply, transpose_ix3_021_apply]

theorem v16_at (c : Dev nD) (l : Fin 3) (k : Fin 768) (s : Fin 3) :
    (V m c main_v16 : S3x768x3.Idx → EReal) (ix3 l k s) = (m ((c : Thread nD τ).loc main_arg19) : S3x3x768.Idx → EReal) (ix3 l s k) := by
  refine (congrFun (V_v16 m c) _).trans ?_
  rw [truncf_apply, transpose_ix3_021_apply]

theorem v18_at (c : Dev nD) (l : Fin 3) (k : Fin 768) (n : Fin 768) :
    (V m c main_v18 : S3x768x768.Idx → EReal) (ix3 l k n) = (m ((c : Thread nD τ).loc main_arg21) : S3x768x768.Idx → EReal) (ix3 l n k) := by
  refine (congrFun (V_v18 m c) _).trans ?_
  rw [truncf_apply, transpose_ix3_021_apply]

theorem v20_at (c : Dev nD) (k : Fin 2304) (o : Fin 44) :
    (V m c main_v20 : S2304x44.Idx → EReal) (ix2 k o) = (m ((c : Thread nD τ).loc main_arg23) : S44x2304.Idx → EReal) (ix2 o k) := by
  refine (congrFun (V_v20 m c) _).trans ?_
  rw [truncf_apply, transpose_ix2_apply]

end Host

/-! ## The row-level weights and what the body loads -/

section Weights
variable (m : (ℓ : Loc nD τ sig) → Buf (Elt Ideal) ℓ)

/-- Layer `l`'s row-level weights, read off the launch memory's argument arrays (a matrix indexed [output][input]). -/
def Wrow (c : Dev nD) (l : Fin 3) : GFLstm.LW where
  Wif j k := (m ((c : Thread nD τ).loc main_arg3) : S3x256x256.Idx → EReal) (ix3 l j k)
  Bif j := (m ((c : Thread nD τ).loc main_arg4) : S3x256.Idx → EReal) (ix2 l j)
  Wii j k := (m ((c : Thread nD τ).loc main_arg5) : S3x256x256.Idx → EReal) (ix3 l j k)
  Bii j := (m ((c : Thread nD τ).loc main_arg6) : S3x256.Idx → EReal) (ix2 l j)
  Wio j k := (m ((c : Thread nD τ).loc main_arg7) : S3x256x256.Idx → EReal) (ix3 l j k)
  Bio j := (m ((c : Thread nD τ).loc main_arg8) : S3x256.Idx → EReal) (ix2 l j)
  Wic j k := (m ((c : Thread nD τ).loc main_arg9) : S3x256x256.Idx → EReal) (ix3 l j k)
  Bic j := (m ((c : Thread nD τ).loc main_arg10) : S3x256.Idx → EReal) (ix2 l j)
  Wig s k := (m ((c : Thread nD τ).loc main_arg11) : S3x3x256.Idx → EReal) (ix3 l s k)
  Big s := (m ((c : Thread nD τ).loc main_arg12) : S3x3.Idx → EReal) (ix2 l s)
  Whf j k := (m ((c : Thread nD τ).loc main_arg13) : S3x256x256.Idx → EReal) (ix3 l j k)
  Bhf j := (m ((c : Thread nD τ).loc main_arg14) : S3x256.Idx → EReal) (ix2 l j)
  Whi j k := (m ((c : Thread nD τ).loc main_arg15) : S3x256x256.Idx → EReal) (ix3 l j k)
  Bhi j := (m ((c : Thread nD τ).loc main_arg16) : S3x256.Idx → EReal) (ix2 l j)
  Who j k := (m ((c : Thread nD τ).loc main_arg17) : S3x256x256.Idx → EReal) (ix3 l j k)
  Bho j := (m ((c : Thread nD τ).loc main_arg18) : S3x256.Idx → EReal) (ix2 l j)
  Whg s k := (m ((c : Thread nD τ).loc main_arg19) : S3x3x768.Idx → EReal) (ix3 l s k)
  Bhg s := (m ((c : Thread nD τ).loc main_arg20) : S3x3.Idx → EReal) (ix2 l s)
  Whc n k := (m ((c : Thread nD τ).loc main_arg21) : S3x768x768.Idx → EReal) (ix3 l n k)
  Bhc n := (m ((c : Thread nD τ).loc main_arg22) : S3x768.Idx → EReal) (ix2 l n)

/-- Blocks that hold, entry by entry, what the region finds in the weight windows' arrays: the slabs the body loads of
    them for layer 0 hold layer 0's row-level weights. -/
theorem agree0_of (c : Dev nD) (x3 : Vec Ideal S3x256x1024 .bf16) (x4 : Vec Ideal S3x1024 .f32) (x5 : Vec Ideal S3x256x3 .bf16) (x6 : Vec Ideal S3x3 .f32) (x7 : Vec Ideal S3x256x768 .bf16) (x8 : Vec Ideal S3x768 .f32) (x9 : Vec Ideal S3x768x3 .bf16) (x10 : Vec Ideal S3x3 .f32) (x11 : Vec Ideal S3x768x768 .bf16) (x12 : Vec Ideal S3x768 .f32)
    (h3 : ∀ i0 i1 i2, x3 (ix3 i0 i1 i2) = V m c main_v5 (ix3 i0 i1 i2))
    (h4 : ∀ i0 i1, x4 (ix2 i0 i1) = V m c main_v6 (ix2 i0 i1))
    (h5 : ∀ i0 i1 i2, x5 (ix3 i0 i1 i2) = V m c main_v14 (ix3 i0 i1 i2))
    (h6 : ∀ i0 i1, x6 (ix2 i0 i1) = V m c main_arg12 (ix2 i0 i1))
    (h7 : ∀ i0 i1 i2, x7 (ix3 i0 i1 i2) = V m c main_v11 (ix3 i0 i1 i2))
    (h8 : ∀ i0 i1, x8 (ix2 i0 i1) = V m c main_v12 (ix2 i0 i1))
    (h9 : ∀ i0 i1 i2, x9 (ix3 i0 i1 i2) = V m c main_v16 (ix3 i0 i1 i2))
    (h10 : ∀ i0 i1, x10 (ix2 i0 i1) = V m c main_arg20 (ix2 i0 i1))
    (h11 : ∀ i0 i1 i2, x11 (ix3 i0 i1 i2) = V m c main_v18 (ix3 i0 i1 i2))
    (h12 : ∀ i0 i1, x12 (ix2 i0 i1) = V m c main_arg22 (ix2 i0 i1)) :
    KRow.Agree (Spec.lw0 x3 x4 x5 x6 x7 x8 x9 x10 x11 x12) (Wrow m c 0) where
  wi k n := by
    refine (ld_slab3 (A := 256) (B := 1024) x3 0 ![0, 0, 0] rfl rfl rfl Facts₀.inb_S3x256x1024_S1x256x1024_0_0_0 k n).trans ?_
    rw [h3, v5_at]; rfl
  bi n := by
    refine (ld_slab2 (B := 1024) x4 0 ![0, 0] rfl rfl Facts₀.inb_S3x1024_S1x1024_0_0 n).trans ?_
    rw [h4, v6_at]; rfl
  wh k n := by
    refine (ld_slab3 (A := 256) (B := 768) x7 0 ![0, 0, 0] rfl rfl rfl Facts₀.inb_S3x256x768_S1x256x768_0_0_0 k n).trans ?_
    rw [h7, v11_at]; rfl
  bh n := by
    refine (ld_slab2 (B := 768) x8 0 ![0, 0] rfl rfl Facts₀.inb_S3x768_S1x768_0_0 n).trans ?_
    rw [h8, v12_at]; rfl
  wig k s := by
    refine (ld_slab3 (A := 256) (B := 3) x5 0 ![0, 0, 0] rfl rfl rfl Facts₀.inb_S3x256x3_S1x256x3_0_0_0 k s).trans ?_
    rw [h5, v14_at]; rfl
  big s := by
    refine (ld_slab2 (B := 3) x6 0 ![0, 0] rfl rfl Facts₀.inb_S3x3_S1x3_0_0 s).trans ?_
    rw [h6, V_main_arg12]; rfl
  whg k s := by
    refine (ld_slab3 (A := 768) (B := 3) x9 0 ![0, 0, 0] rfl rfl rfl Facts₀.inb_S3x768x3_S1x768x3_0_0_0 k s).trans ?_
    rw [h9, v16_at]; rfl
  bhg s := by
    refine (ld_slab2 (B := 3) x10 0 ![0, 0] rfl rfl Facts₀.inb_S3x3_S1x3_0_0 s).trans ?_
    rw [h10, V_main_arg20]; rfl
  whc k n := by
    refine (ld_slab3 (A := 768) (B := 768) x11 0 ![0, 0, 0] rfl rfl rfl Facts₀.inb_S3x768x768_S1x768x768_0_0_0 k n).trans ?_
    rw [h11, v18_at]; rfl
  bhc n := by
    refine (ld_slab2 (B := 768) x12 0 ![0, 0] rfl rfl Facts₀.inb_S3x768_S1x768_0_0 n).trans ?_
    rw [h12, V_main_arg22]; rfl

/-- At every grid point the slabs the body loads for layer 0 hold layer 0's row-level weights. -/
theorem agree0 (c : Dev nD) (t : Fin cfg0.N) :
    KRow.Agree (Spec.lw0 (iblk m c 3 t) (iblk m c 4 t) (iblk m c 5 t) (iblk m c 6 t) (iblk m c 7 t) (iblk m c 8 t) (iblk m c 9 t) (iblk m c 10 t) (iblk m c 11 t) (iblk m c 12 t)) (Wrow m c 0) :=
  agree0_of m c (iblk m c 3 t) (iblk m c 4 t) (iblk m c 5 t) (iblk m c 6 t) (iblk m c 7 t) (iblk m c 8 t) (iblk m c 9 t) (iblk m c 10 t) (iblk m c 11 t) (iblk m c 12 t)
    (iblk3_at m c t) (iblk4_at m c t) (iblk5_at m c t) (iblk6_at m c t) (iblk7_at m c t) (iblk8_at m c t) (iblk9_at m c t) (iblk10_at m c t) (iblk11_at m c t) (iblk12_at m c t)

/-- Layer 0's slab of a stacked state block. -/
theorem slab0_at {F : FTy → Type} (x : Vec F S3x256x256 .f32) (r k : Fin 256) :
    Spec.slab0 x (ix3 (0 : Fin 1) r k) = x (ix3 0 r k) :=
  ld_slab3 (A := 256) (B := 256) x 0 ![0, 0, 0] rfl rfl rfl Facts₀.inb_S3x256x256_S1x256x256_0_0_0 r k

/-- Blocks that hold, entry by entry, what the region finds in the weight windows' arrays: the slabs the body loads of
    them for layer 1 hold layer 1's row-level weights. -/
theorem agree1_of (c : Dev nD) (x3 : Vec Ideal S3x256x1024 .bf16) (x4 : Vec Ideal S3x1024 .f32) (x5 : Vec Ideal S3x256x3 .bf16) (x6 : Vec Ideal S3x3 .f32) (x7 : Vec Ideal S3x256x768 .bf16) (x8 : Vec Ideal S3x768 .f32) (x9 : Vec Ideal S3x768x3 .bf16) (x10 : Vec Ideal S3x3 .f32) (x11 : Vec Ideal S3x768x768 .bf16) (x12 : Vec Ideal S3x768 .f32)
    (h3 : ∀ i0 i1 i2, x3 (ix3 i0 i1 i2) = V m c main_v5 (ix3 i0 i1 i2))
    (h4 : ∀ i0 i1, x4 (ix2 i0 i1) = V m c main_v6 (ix2 i0 i1))
    (h5 : ∀ i0 i1 i2, x5 (ix3 i0 i1 i2) = V m c main_v14 (ix3 i0 i1 i2))
    (h6 : ∀ i0 i1, x6 (ix2 i0 i1) = V m c main_arg12 (ix2 i0 i1))
    (h7 : ∀ i0 i1 i2, x7 (ix3 i0 i1 i2) = V m c main_v11 (ix3 i0 i1 i2))
    (h8 : ∀ i0 i1, x8 (ix2 i0 i1) = V m c main_v12 (ix2 i0 i1))
    (h9 : ∀ i0 i1 i2, x9 (ix3 i0 i1 i2) = V m c main_v16 (ix3 i0 i1 i2))
    (h10 : ∀ i0 i1, x10 (ix2 i0 i1) = V m c main_arg20 (ix2 i0 i1))
    (h11 : ∀ i0 i1 i2, x11 (ix3 i0 i1 i2) = V m c main_v18 (ix3 i0 i1 i2))
    (h12 : ∀ i0 i1, x12 (ix2 i0 i1) = V m c main_arg22 (ix2 i0 i1)) :
    KRow.Agree (Spec.lw1 x3 x4 x5 x6 x7 x8 x9 x10 x11 x12) (Wrow m c 1) where
  wi k n := by
    refine (ld_slab3 (A := 256) (B := 1024) x3 1 ![1, 0, 0] rfl rfl rfl Facts₀.inb_S3x256x1024_S1x256x1024_1_0_0 k n).trans ?_
    rw [h3, v5_at]; rfl
  bi n := by
    refine (ld_slab2 (B := 1024) x4 1 ![1, 0] rfl rfl Facts₀.inb_S3x1024_S1x1024_1_0 n).trans ?_
    rw [h4, v6_at]; rfl
  wh k n := by
    refine (ld_slab3 (A := 256) (B := 768) x7 1 ![1, 0, 0] rfl rfl rfl Facts₀.inb_S3x256x768_S1x256x768_1_0_0 k n).trans ?_
    rw [h7, v11_at]; rfl
  bh n := by
    refine (ld_slab2 (B := 768) x8 1 ![1, 0] rfl rfl Facts₀.inb_S3x768_S1x768_1_0 n).trans ?_
    rw [h8, v12_at]; rfl
  wig k s := by
    refine (ld_slab3 (A := 256) (B := 3) x5 1 ![1, 0, 0] rfl rfl rfl Facts₀.inb_S3x256x3_S1x256x3_1_0_0 k s).trans ?_
    rw [h5, v14_at]; rfl
  big s := by
    refine (ld_slab2 (B := 3) x6 1 ![1, 0] rfl rfl Facts₀.inb_S3x3_S1x3_1_0 s).trans ?_
    rw [h6, V_main_arg12]; rfl
  whg k s := by
    refine (ld_slab3 (A := 768) (B := 3) x9 1 ![1, 0, 0] rfl rfl rfl Facts₀.inb_S3x768x3_S1x768x3_1_0_0 k s).trans ?_
    rw [h9, v16_at]; rfl
  bhg s := by
    refine (ld_slab2 (B := 3) x10 1 ![1, 0] rfl rfl Facts₀.inb_S3x3_S1x3_1_0 s).trans ?_
    rw [h10, V_main_arg20]; rfl
  whc k n := by
    refine (ld_slab3 (A := 768) (B := 768) x11 1 ![1, 0, 0] rfl rfl rfl Facts₀.inb_S3x768x768_S1x768x768_1_0_0 k n).trans ?_
    rw [h11, v18_at]; rfl
  bhc n := by
    refine (ld_slab2 (B := 768) x12 1 ![1, 0] rfl rfl Facts₀.inb_S3x768_S1x768_1_0 n).trans ?_
    rw [h12, V_main_arg22]; rfl

/-- At every grid point the slabs the body loads for layer 1 hold layer 1's row-level weights. -/
theorem agree1 (c : Dev nD) (t : Fin cfg0.N) :
    KRow.Agree (Spec.lw1 (iblk m c 3 t) (iblk m c 4 t) (iblk m c 5 t) (iblk m c 6 t) (iblk m c 7 t) (iblk m c 8 t) (iblk m c 9 t) (iblk m c 10 t) (iblk m c 11 t) (iblk m c 12 t)) (Wrow m c 1) :=
  agree1_of m c (iblk m c 3 t) (iblk m c 4 t) (iblk m c 5 t) (iblk m c 6 t) (iblk m c 7 t) (iblk m c 8 t) (iblk m c 9 t) (iblk m c 10 t) (iblk m c 11 t) (iblk m c 12 t)
    (iblk3_at m c t) (iblk4_at m c t) (iblk5_at m c t) (iblk6_at m c t) (iblk7_at m c t) (iblk8_at m c t) (iblk9_at m c t) (iblk10_at m c t) (iblk11_at m c t) (iblk12_at m c t)

/-- Layer 1's slab of a stacked state block. -/
theorem slab1_at {F : FTy → Type} (x : Vec F S3x256x256 .f32) (r k : Fin 256) :
    Spec.slab1 x (ix3 (0 : Fin 1) r k) = x (ix3 1 r k) :=
  ld_slab3 (A := 256) (B := 256) x 1 ![1, 0, 0] rfl rfl rfl Facts₀.inb_S3x256x256_S1x256x256_1_0_0 r k

/-- Blocks that hold, entry by entry, what the region finds in the weight windows' arrays: the slabs the body loads of
    them for layer 2 hold layer 2's row-level weights. -/
theorem agree2_of (c : Dev nD) (x3 : Vec Ideal S3x256x1024 .bf16) (x4 : Vec Ideal S3x1024 .f32) (x5 : Vec Ideal S3x256x3 .bf16) (x6 : Vec Ideal S3x3 .f32) (x7 : Vec Ideal S3x256x768 .bf16) (x8 : Vec Ideal S3x768 .f32) (x9 : Vec Ideal S3x768x3 .bf16) (x10 : Vec Ideal S3x3 .f32) (x11 : Vec Ideal S3x768x768 .bf16) (x12 : Vec Ideal S3x768 .f32)
    (h3 : ∀ i0 i1 i2, x3 (ix3 i0 i1 i2) = V m c main_v5 (ix3 i0 i1 i2))
    (h4 : ∀ i0 i1, x4 (ix2 i0 i1) = V m c main_v6 (ix2 i0 i1))
    (h5 : ∀ i0 i1 i2, x5 (ix3 i0 i1 i2) = V m c main_v14 (ix3 i0 i1 i2))
    (h6 : ∀ i0 i1, x6 (ix2 i0 i1) = V m c main_arg12 (ix2 i0 i1))
    (h7 : ∀ i0 i1 i2, x7 (ix3 i0 i1 i2) = V m c main_v11 (ix3 i0 i1 i2))
    (h8 : ∀ i0 i1, x8 (ix2 i0 i1) = V m c main_v12 (ix2 i0 i1))
    (h9 : ∀ i0 i1 i2, x9 (ix3 i0 i1 i2) = V m c main_v16 (ix3 i0 i1 i2))
    (h10 : ∀ i0 i1, x10 (ix2 i0 i1) = V m c main_arg20 (ix2 i0 i1))
    (h11 : ∀ i0 i1 i2, x11 (ix3 i0 i1 i2) = V m c main_v18 (ix3 i0 i1 i2))
    (h12 : ∀ i0 i1, x12 (ix2 i0 i1) = V m c main_arg22 (ix2 i0 i1)) :
    KRow.Agree (Spec.lw2 x3 x4 x5 x6 x7 x8 x9 x10 x11 x12) (Wrow m c 2) where
  wi k n := by
    refine (ld_slab3 (A := 256) (B := 1024) x3 2 ![2, 0, 0] rfl rfl rfl Facts₀.inb_S3x256x1024_S1x256x1024_2_0_0 k n).trans ?_
    rw [h3, v5_at]; rfl
  bi n := by
    refine (ld_slab2 (B := 1024) x4 2 ![2, 0] rfl rfl Facts₀.inb_S3x1024_S1x1024_2_0 n).trans ?_
    rw [h4, v6_at]; rfl
  wh k n := by
    refine (ld_slab3 (A := 256) (B := 768) x7 2 ![2, 0, 0] rfl rfl rfl Facts₀.inb_S3x256x768_S1x256x768_2_0_0 k n).trans ?_
    rw [h7, v11_at]; rfl
  bh n := by
    refine (ld_slab2 (B := 768) x8 2 ![2, 0] rfl rfl Facts₀.inb_S3x768_S1x768_2_0 n).trans ?_
    rw [h8, v12_at]; rfl
  wig k s := by
    refine (ld_slab3 (A := 256) (B := 3) x5 2 ![2, 0, 0] rfl rfl rfl Facts₀.inb_S3x256x3_S1x256x3_2_0_0 k s).trans ?_
    rw [h5, v14_at]; rfl
  big s := by
    refine (ld_slab2 (B := 3) x6 2 ![2, 0] rfl rfl Facts₀.inb_S3x3_S1x3_2_0 s).trans ?_
    rw [h6, V_main_arg12]; rfl
  whg k s := by
    refine (ld_slab3 (A := 768) (B := 3) x9 2 ![2, 0, 0] rfl rfl rfl Facts₀.inb_S3x768x3_S1x768x3_2_0_0 k s).trans ?_
    rw [h9, v16_at]; rfl
  bhg s := by
    refine (ld_slab2 (B := 3) x10 2 ![2, 0] rfl rfl Facts₀.inb_S3x3_S1x3_2_0 s).trans ?_
    rw [h10, V_main_arg20]; rfl
  whc k n := by
    refine (ld_slab3 (A := 768) (B := 768) x11 2 ![2, 0, 0] rfl rfl rfl Facts₀.inb_S3x768x768_S1x768x768_2_0_0 k n).trans ?_
    rw [h11, v18_at]; rfl
  bhc n := by
    refine (ld_slab2 (B := 768) x12 2 ![2, 0] rfl rfl Facts₀.inb_S3x768_S1x768_2_0 n).trans ?_
    rw [h12, V_main_arg22]; rfl

/-- At every grid point the slabs the body loads for layer 2 hold layer 2's row-level weights. -/
theorem agree2 (c : Dev nD) (t : Fin cfg0.N) :
    KRow.Agree (Spec.lw2 (iblk m c 3 t) (iblk m c 4 t) (iblk m c 5 t) (iblk m c 6 t) (iblk m c 7 t) (iblk m c 8 t) (iblk m c 9 t) (iblk m c 10 t) (iblk m c 11 t) (iblk m c 12 t)) (Wrow m c 2) :=
  agree2_of m c (iblk m c 3 t) (iblk m c 4 t) (iblk m c 5 t) (iblk m c 6 t) (iblk m c 7 t) (iblk m c 8 t) (iblk m c 9 t) (iblk m c 10 t) (iblk m c 11 t) (iblk m c 12 t)
    (iblk3_at m c t) (iblk4_at m c t) (iblk5_at m c t) (iblk6_at m c t) (iblk7_at m c t) (iblk8_at m c t) (iblk9_at m c t) (iblk10_at m c t) (iblk11_at m c t) (iblk12_at m c t)

/-- Layer 2's slab of a stacked state block. -/
theorem slab2_at {F : FTy → Type} (x : Vec F S3x256x256 .f32) (r k : Fin 256) :
    Spec.slab2 x (ix3 (0 : Fin 1) r k) = x (ix3 2 r k) :=
  ld_slab3 (A := 256) (B := 256) x 2 ![2, 0, 0] rfl rfl rfl Facts₀.inb_S3x256x256_S1x256x256_2_0_0 r k

/-! ### The input tile, the initial state tiles, the output weights -/

/-- The input tile the body loads at point `t`: batch rows `256 t … 256 t + 255` of the input. -/
theorem x_at (c : Dev nD) (t : Fin cfg0.N) (r k : Fin 256) :
    View.ld (iblk m c 0 t) (Rect.unit (s := S256x256) ![0, 0] S256x256.size Facts₀.inb_S256x256_S256x256_0_0) (ix2 r k)
      = (m ((c : Thread nD τ).loc main_arg0) : S4096x256.Idx → EReal) (ix2 ⟨256 * t.val + r.val, by have h1 := t.isLt; have h2 : cfg0.N = 16 := N_0; omega⟩ k) := by
  rw [ld_whole2 (A := 256) (B := 256) (iblk m c 0 t), iblk0_at, V_main_arg0]

/-- Layer 0's initial hidden tile the body loads at point `t`. -/
theorem hid0_at (c : Dev nD) (t : Fin cfg0.N) (r k : Fin 256) :
    Spec.slab0 (iblk m c 1 t) (ix3 (0 : Fin 1) r k)
      = (m ((c : Thread nD τ).loc main_arg1) : S3x4096x256.Idx → EReal) (ix3 0 ⟨256 * t.val + r.val, by have h1 := t.isLt; have h2 : cfg0.N = 16 := N_0; omega⟩ k) := by
  rw [slab0_at, iblk1_at, V_main_arg1]
/-- Layer 0's initial cell tile the body loads at point `t`. -/
theorem cur0_at (c : Dev nD) (t : Fin cfg0.N) (r k : Fin 256) :
    Spec.slab0 (iblk m c 2 t) (ix3 (0 : Fin 1) r k)
      = (m ((c : Thread nD τ).loc main_arg2) : S3x4096x256.Idx → EReal) (ix3 0 ⟨256 * t.val + r.val, by have h1 := t.isLt; have h2 : cfg0.N = 16 := N_0; omega⟩ k) := by
  rw [slab0_at, iblk2_at, V_main_arg2]

/-- Layer 1's initial hidden tile the body loads at point `t`. -/
theorem hid1_at (c : Dev nD) (t : Fin cfg0.N) (r k : Fin 256) :
    Spec.slab1 (iblk m c 1 t) (ix3 (0 : Fin 1) r k)
      = (m ((c : Thread nD τ).loc main_arg1) : S3x4096x256.Idx → EReal) (ix3 1 ⟨256 * t.val + r.val, by have h1 := t.isLt; have h2 : cfg0.N = 16 := N_0; omega⟩ k) := by
  rw [slab1_at, iblk1_at, V_main_arg1]
/-- Layer 1's initial cell tile the body loads at point `t`. -/
theorem cur1_at (c : Dev nD) (t : Fin cfg0.N) (r k : Fin 256) :
    Spec.slab1 (iblk m c 2 t) (ix3 (0 : Fin 1) r k)
      = (m ((c : Thread nD τ).loc main_arg2) : S3x4096x256.Idx → EReal) (ix3 1 ⟨256 * t.val + r.val, by have h1 := t.isLt; have h2 : cfg0.N = 16 := N_0; omega⟩ k) := by
  rw [slab1_at, iblk2_at, V_main_arg2]

/-- Layer 2's initial hidden tile the body loads at point `t`. -/
theorem hid2_at (c : Dev nD) (t : Fin cfg0.N) (r k : Fin 256) :
    Spec.slab2 (iblk m c 1 t) (ix3 (0 : Fin 1) r k)
      = (m ((c : Thread nD τ).loc main_arg1) : S3x4096x256.Idx → EReal) (ix3 2 ⟨256 * t.val + r.val, by have h1 := t.isLt; have h2 : cfg0.N = 16 := N_0; omega⟩ k) := by
  rw [slab2_at, iblk1_at, V_main_arg1]
/-- Layer 2's initial cell tile the body loads at point `t`. -/
theorem cur2_at (c : Dev nD) (t : Fin cfg0.N) (r k : Fin 256) :
    Spec.slab2 (iblk m c 2 t) (ix3 (0 : Fin 1) r k)
      = (m ((c : Thread nD τ).loc main_arg2) : S3x4096x256.Idx → EReal) (ix3 2 ⟨256 * t.val + r.val, by have h1 := t.isLt; have h2 : cfg0.N = 16 := N_0; omega⟩ k) := by
  rw [slab2_at, iblk2_at, V_main_arg2]

/-- The output weights the body loads: the argument matrix transposed. -/
theorem wlast_at (c : Dev nD) (t : Fin cfg0.N) (k : Fin 2304) (o : Fin 44) :
    View.ld (iblk m c 13 t) (Rect.unit (s := S2304x44) ![0, 0] S2304x44.size Facts₀.inb_S2304x44_S2304x44_0_0) (ix2 k o)
      = (m ((c : Thread nD τ).loc main_arg23) : S44x2304.Idx → EReal) (ix2 o k) := by
  rw [ld_whole2 (A := 2304) (B := 44) (iblk m c 13 t), iblk13_at, v20_at]

/-- The output bias the body loads. -/
theorem blast_at (c : Dev nD) (t : Fin cfg0.N) (o : Fin 44) :
    View.ld (iblk m c 14 t) (Rect.unit (s := S44) ![0] S44.size Facts₀.inb_S44_S44_0) (ix1 o)
      = (m ((c : Thread nD τ).loc main_arg24) : S44.Idx → EReal) (ix1 o) := by
  rw [ld_whole1 (A := 44) (iblk m c 14 t), iblk14_at, V_main_arg24]

end Weights

end Cert.KernelIdeal.Blocks

end
-- ==== Proof.KFinal.lean ====
import proofs.«181228_j76424648065777_1_alg».proof.Proof.KFrame
import proofs.«181228_j76424648065777_1_alg».proof.Proof.KValue
import proofs.«181228_j76424648065777_1_alg».proof.Proof.KRow
import proofs.«181228_j76424648065777_1_alg».proof.Proof.KBlocks
import Idealize.ShloMosaic.Lib.Pipeline.Value

/-!
# The kernel side's final value

The output array after the run, as ONE function of the argument arrays: entry `(i, o)` is the row-level network's
output `o` for batch row `i`.

* The pieces the body's run leaves are one whole-block store of the tile function of the blocks as read; a whole
  memref at contents `x` read through a literal rectangle is `x` through that rectangle, so the output block after the
  body is the tile function of the fifteen input blocks (`out15_eq`).
* Row `r` of the tile function is the row-level network of row `r` of the blocks, and the blocks at point `t` are rows
  `256 t … 256 t + 255` of the argument arrays (the weight blocks the whole prepared weights): point `t` writes back
  block `t` of `Gout` (`flushed15_eq`).
* The sixteen blocks cover the array (`covered15`), so the array ends at `Gout` (`final15`, `run_value`).
-/

noncomputable section

namespace Cert.KernelIdeal.Hand

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

/-! ## The output block after the body is the tile function of the input blocks -/

section Generic

variable {F : FTy → Type} [FloatOps F]

theorem hz2 : (![0, 0] : Fin 2 → Nat) = fun _ => 0 := funext fun a => by fin_cases a <;> rfl

/-- The tile function of the blocks as the run reads them is the tile function of the blocks: a whole memref holding
    the contents that read as `x`, read through a rectangle, is `x` through that rectangle. -/
theorem tileOutRun_eq (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) :
    tileOutRun arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 = Spec.tileOut x0 x1 x2 x3 x4 x5 x6 x7 x8 x9 x10 x11 x12 x13 x14 := by
  unfold tileOutRun Spec.tileOut Spec.lw0 Spec.lw1 Spec.lw2 Spec.slab0 Spec.slab1 Spec.slab2
  simp only [View.readAt_eq_ld, Memref.IsWhole.read_unread]

/-- What the body leaves in the output's staging buffer is the tile function of the input blocks: the one piece is a
    store through the whole-block rectangle, which reads back as its payload. -/
theorem out15_eq (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S3x768x3 .bf16) (harg10 : arg10.IsWhole) (arg11 : Memref sig .tc .vmem S3x3 .f32) (harg11 : arg11.IsWhole) (arg12 : Memref sig .tc .vmem S3x768x768 .bf16) (harg12 : arg12.IsWhole) (arg13 : Memref sig .tc .vmem S3x768 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole)
    (x0 : Vec F S256x256 .f32) (x1 : Vec F S3x256x256 .f32) (x2 : Vec F S3x256x256 .f32) (x3 : Vec F S3x256x1024 .bf16) (x4 : Vec F S3x1024 .f32) (x5 : Vec F S3x256x3 .bf16) (x6 : Vec F S3x3 .f32) (x7 : Vec F S3x256x768 .bf16) (x8 : Vec F S3x768 .f32) (x9 : Vec F S3x768x3 .bf16) (x10 : Vec F S3x3 .f32) (x11 : Vec F S3x768x768 .bf16) (x12 : Vec F S3x768 .f32) (x13 : Vec F S2304x44 .bf16) (x14 : Vec F S44 .f32) :
    out15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = Spec.tileOut x0 x1 x2 x3 x4 x5 x6 x7 x8 x9 x10 x11 x12 x13 x14 := by
  unfold out15
  rw [View.read_writes_junk_eq_canon, kernelRun_pieces_run, View.canon_unit_zero hz2, tileOutRun_eq]

end Generic

/-! ## The array as one function of the arguments -/

variable (m : (ℓ : Loc nD τ sig) → Buf (Elt Ideal) ℓ) (ρ : Dev nD → PrngReg)

/-- The output array as one function of the argument arrays: entry `(i, o)` is output `o` of the row-level network run on
    batch row `i` of the input, with row `i` of the initial hidden and cell states, the row-level weights and the last
    layer's weights and bias. -/
def Gout (c : Dev nD) : S4096x44.Idx → EReal := fun i =>
  GFLstm.outR (fun k => (m ((c : Thread nD τ).loc main_arg0) : S4096x256.Idx → EReal) (ix2 (i 0) k)) (Wrow m c)
    ⟨fun l j => (m ((c : Thread nD τ).loc main_arg1) : S3x4096x256.Idx → EReal) (ix3 l (i 0) j),
     fun l j => (m ((c : Thread nD τ).loc main_arg2) : S3x4096x256.Idx → EReal) (ix3 l (i 0) j)⟩
    (fun o k => (m ((c : Thread nD τ).loc main_arg23) : S44x2304.Idx → EReal) (ix2 o k))
    (fun o => (m ((c : Thread nD τ).loc main_arg24) : S44.Idx → EReal) (ix1 o)) (i 1)

/-- `Gout` at explicit coordinates. -/
theorem Gout_apply (c : Dev nD) (R : Fin 4096) (o : Fin 44) :
    Gout m c (ix2 R o) = GFLstm.outR (fun k => (m ((c : Thread nD τ).loc main_arg0) : S4096x256.Idx → EReal) (ix2 R k)) (Wrow m c)
      ⟨fun l j => (m ((c : Thread nD τ).loc main_arg1) : S3x4096x256.Idx → EReal) (ix3 l R j),
       fun l j => (m ((c : Thread nD τ).loc main_arg2) : S3x4096x256.Idx → EReal) (ix3 l R j)⟩
      (fun o k => (m ((c : Thread nD τ).loc main_arg23) : S44x2304.Idx → EReal) (ix2 o k))
      (fun o => (m ((c : Thread nD τ).loc main_arg24) : S44.Idx → EReal) (ix1 o)) o := rfl

/-- The row-level output depends on the input row and the initial state entry by entry. -/
theorem outR_congr {x x' : Fin 256 → EReal} {W : Fin 3 → GFLstm.LW} {h h' c c' : Fin 3 → Fin 256 → EReal}
    {Wl : Fin 44 → Fin 2304 → EReal} {bL : Fin 44 → EReal} {o : Fin 44}
    (hx : ∀ k, x k = x' k) (hh : ∀ l j, h l j = h' l j) (hc : ∀ l j, c l j = c' l j) :
    GFLstm.outR x W ⟨h, c⟩ Wl bL o = GFLstm.outR x' W ⟨h', c'⟩ Wl bL o := by
  obtain rfl : x = x' := funext hx
  obtain rfl : h = h' := funext fun l => funext fun j => hh l j
  obtain rfl : c = c' := funext fun l => funext fun j => hc l j
  rfl

/-- The output window's block index at point `t` is `(t, 0)` (decided over the grid). -/
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-- Local index `(r, o)` of point `t`'s output block is index `(256 t + r, o)` of the array. -/
theorem emb15 (t : Fin cfg0.N) (r : Fin 256) (o : Fin 44) :
    ((cfg0.win 15).blk t).view.emb (ix2 r o)
      = ix2 (⟨256 * t.val + r.val, by have h1 := t.isLt; have h2 : cfg0.N = 16 := N_0; omega⟩ : Fin 4096) o := by
  obtain ⟨e0, e1⟩ := idx15 t
  funext a; apply Fin.ext
  match a with
  | ⟨0, _⟩ => show win0_15.index t (0 : Fin 2) * 256 + 1 * r.val = 256 * t.val + r.val; omega
  | ⟨1, _⟩ => show win0_15.index t (1 : Fin 2) * 44 + 1 * o.val = o.val; omega

set_option maxHeartbeats 1000000 in
/-- WHAT POINT `t` WRITES BACK is block `t` of `Gout`: the body leaves the tile function of the blocks; its row `r` is the
    row-level network on row `r` of the blocks; and the blocks at point `t` hold rows `256 t + r` of the arguments (the
    weight blocks agree with the row-level weights). -/
theorem flushed15_eq (c : Dev nD) (t : Fin cfg0.N) :
    (dats m 0 c).flushed 15 t = ((cfg0.win 15).blk t).view.read (Elt Ideal) (Gout m c) := by
  show (cfg0.win 15).cut (grid0.coords t) ((dats m 0 c).after 15 t) = _
  rw [after15, out15_eq]
  refine funext fun (j : S256x44.Idx) => ?_
  obtain ⟨r, o, rfl⟩ : ∃ (r : Fin 256) (o : Fin 44), j = ix2 r o := ⟨j 0, j 1, eq_ix2 j⟩
  show Spec.tileOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r o) = Gout m c (((cfg0.win 15).blk t).view.emb (ix2 r o))
  rw [emb15 t r o, Gout_apply]
  unfold Spec.tileOut
  refine (KRow.out_row (View.ld (iblk m c 0 t) (Rect.unit (s := S256x256) ![0, 0] S256x256.size inb_S256x256_S256x256_0_0))
    (Spec.lw0 (iblk m c 3 t) (iblk m c 4 t) (iblk m c 5 t) (iblk m c 6 t) (iblk m c 7 t) (iblk m c 8 t) (iblk m c 9 t) (iblk m c 10 t) (iblk m c 11 t) (iblk m c 12 t)) (Spec.lw1 (iblk m c 3 t) (iblk m c 4 t) (iblk m c 5 t) (iblk m c 6 t) (iblk m c 7 t) (iblk m c 8 t) (iblk m c 9 t) (iblk m c 10 t) (iblk m c 11 t) (iblk m c 12 t)) (Spec.lw2 (iblk m c 3 t) (iblk m c 4 t) (iblk m c 5 t) (iblk m c 6 t) (iblk m c 7 t) (iblk m c 8 t) (iblk m c 9 t) (iblk m c 10 t) (iblk m c 11 t) (iblk m c 12 t))
    (Spec.slab0 (iblk m c 1 t)) (Spec.slab1 (iblk m c 1 t)) (Spec.slab2 (iblk m c 1 t))
    (Spec.slab0 (iblk m c 2 t)) (Spec.slab1 (iblk m c 2 t)) (Spec.slab2 (iblk m c 2 t))
    (View.ld (iblk m c 13 t) (Rect.unit (s := S2304x44) ![0, 0] S2304x44.size inb_S2304x44_S2304x44_0_0))
    (View.ld (iblk m c 14 t) (Rect.unit (s := S44) ![0] S44.size inb_S44_S44_0))
    (Wrow m c) (fun o k => (m ((c : Thread nD τ).loc main_arg23) : S44x2304.Idx → EReal) (ix2 o k)) (fun o => (m ((c : Thread nD τ).loc main_arg24) : S44.Idx → EReal) (ix1 o))
    (agree0 m c t) (agree1 m c t) (agree2 m c t) (fun k o => wlast_at m c t k o) (fun o => blast_at m c t o) r o).trans ?_
  exact outR_congr (fun k => x_at m c t r k)
    (fun l j => match l with
      | 0 => hid0_at m c t r j
      | 1 => hid1_at m c t r j
      | 2 => hid2_at m c t r j
      | ⟨_ + 3, h⟩ => absurd h (Nat.not_lt.2 (Nat.le_add_left _ _)))
    (fun l j => match l with
      | 0 => cur0_at m c t r j
      | 1 => cur1_at m c t r j
      | 2 => cur2_at m c t r j
      | ⟨_ + 3, h⟩ => absurd h (Nat.not_lt.2 (Nat.le_add_left _ _)))

/-! ## The blocks cover the array -/

/-- An index of the array is in point `t`'s block iff each coordinate is in the block's range on its axis. -/
theorem mem_blk15 (t : Fin cfg0.N) (i : S4096x44.Idx) :
    i ∈ ((cfg0.win 15).blk t).view.set ↔ ∀ a : Fin 2, win0_15.index t a * S256x44.size a ≤ (i a).val ∧ (i a).val < win0_15.index t a * S256x44.size a + S256x44.size a := by
  show i ∈ ((View.whole main_v21).slice (win0_15.rect t)).set ↔ _
  rw [View.set_slice_whole, Rect.mem_set_unit]
  exact Iff.rfl

/-- Every index of the array is in the block of the point its row falls in. -/
theorem covered15 (i : S4096x44.Idx) : ∃ t : Fin cfg0.N, (cfg0.win 15).flush t = true ∧ i ∈ ((cfg0.win 15).blk t).view.set := by
  have hi0 : (i 0).val < 4096 := (i 0).isLt
  have hi1 : (i 1).val < 44 := (i 1).isLt
  have hN : cfg0.N = 16 := N_0
  have ht : (i 0).val / 256 < cfg0.N := by omega
  obtain ⟨e0, e1⟩ := idx15 ⟨(i 0).val / 256, ht⟩
  refine ⟨⟨(i 0).val / 256, ht⟩, flush0_15 _, ?_⟩
  rw [mem_blk15]
  intro a
  match a with
  | ⟨0, _⟩ =>
    show win0_15.index ⟨(i 0).val / 256, ht⟩ (0 : Fin 2) * 256 ≤ (i 0).val ∧ (i 0).val < win0_15.index ⟨(i 0).val / 256, ht⟩ (0 : Fin 2) * 256 + 256
    have e0' : win0_15.index ⟨(i 0).val / 256, ht⟩ (0 : Fin 2) = (i 0).val / 256 := e0
    omega
  | ⟨1, _⟩ =>
    show win0_15.index ⟨(i 0).val / 256, ht⟩ (1 : Fin 2) * 44 ≤ (i 1).val ∧ (i 1).val < win0_15.index ⟨(i 0).val / 256, ht⟩ (1 : Fin 2) * 44 + 44
    omega

/-- THE ARRAY after the run is `Gout` of the argument arrays. -/
theorem final15 (c : Dev nD) : (dats m 0 c).arrAt 15 cfg0.N = Gout m c :=
  (dats m 0 c).arrAt_eq_of_cover 15 (Gout m c) (fun t _ => flushed15_eq m c t) covered15

/-! ## The run, read -/

/-- After the frame run the output array is the library's `arrAt` of the proof data. -/
theorem post15 (r : PUnit × MemSt nD τ sig (Elt Ideal)) (h : Pipeline.FramePost cfgs (dats m) 0 (V m) r) (c : Dev nD) :
    r.2.mem ((c : Thread nD τ).loc main_v21) = (dats m 0 c).arrAt 15 cfg0.N :=
  (h c).1 15

/-- After the frame run every argument array is as launched. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).1 6).trans (((dats m 0 c).arrAt_in 6 rfl _).trans ((A_eq m c 6).trans (V_main_arg12 m c))),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c),
    ((h c).1 10).trans (((dats m 0 c).arrAt_in 10 rfl _).trans ((A_eq m c 10).trans (V_main_arg20 m c))),
    ((h c).2 main_arg21 (Pipeline.mem_restRefs_of main_arg21 (by decide) (by decide))).trans (V_main_arg21 m c),
    ((h c).1 12).trans (((dats m 0 c).arrAt_in 12 rfl _).trans ((A_eq m c 12).trans (V_main_arg22 m c))),
    ((h c).2 main_arg23 (Pipeline.mem_restRefs_of main_arg23 (by decide) (by decide))).trans (V_main_arg23 m c),
    ((h c).1 14).trans (((dats m 0 c).arrAt_in 14 rfl _).trans ((A_eq m c 14).trans (V_main_arg24 m c)))⟩

/-- THE KERNEL'S VALUE: the program runs, the result array ends at `Gout` of the argument arrays, and every argument
    array ends unchanged. -/
theorem run_value : θ_run defs (onTc (τ := τ) (main (F := Ideal))) ⟨m, fun _ => 0, ρ⟩ fun r => ∀ c : Dev nD,
      r.2.mem ((c : Thread nD τ).loc main_v21) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r h c => ⟨(post15 m r h c).trans (final15 m c), kept m r h c⟩) (run_main m ρ)

end Cert.KernelIdeal.Hand

end
-- ==== Proof.RSpec.lean ====
/-
  The reference of the gated-feedback LSTM cell, written once as a function of its argument arrays.

  All 4096 rows are handled at once.  One layer of one time step takes the layer's input ih (x for layer 0, else the
  layer below's new hidden array), the layer's previous hidden and cell arrays hp and cp, the three previous hidden
  arrays side by side hcat, and the layer's twenty weight and bias blocks, and returns the new hidden and cell arrays:
    lin W b v = v·Wᵀ + b,   sigm z = 1 / (1 + exp (-z)),
    f, i, o  = sigm (lin Wi b ih + lin Wh b hp),
    g        = sigm (lin Wig Big ih + lin Whg Bhg hcat)                       (three gate columns),
    aux      = the sum over the three blocks k of g[·,k] · (lin Whc Bhc hcat)[·,k,·],
    c        = f·cp + i·tanh (lin Wic Bic ih + aux),   h = o·c.
  Between time steps the three new hidden arrays (and the three new cell arrays) are stacked into one array of three
  pieces, and the next step cuts its pieces out of the stack again; the state is therefore kept as the two stacks.
  Nine steps count: the last layer's new hidden array of each is kept, and the result is
  sigm (lin Wlast blast (the nine kept arrays side by side)).
-/
import proofs.«181228_j76424648065777_1_alg».proof.ReferenceIdeal

noncomputable section

namespace Cert.ReferenceIdeal.Spec

open Idealize.ShloMosaic Idealize.SL.Sem
open Cert.ReferenceIdeal

variable {F : FTy → Type} [FloatOps F]
variable [Facts]
open Facts₀ Facts

/-- The 25 argument arrays, in the order the program takes them. -/
structure Args (F : FTy → Type) where
  x   : FVec F S4096x256 .f32
  hid : FVec F S3x4096x256 .f32
  cur : FVec F S3x4096x256 .f32
  wif : FVec F S3x256x256 .f32
  Bif : FVec F S3x256 .f32
  wii : FVec F S3x256x256 .f32
  Bii : FVec F S3x256 .f32
  wio : FVec F S3x256x256 .f32
  Bio : FVec F S3x256 .f32
  wic : FVec F S3x256x256 .f32
  Bic : FVec F S3x256 .f32
  wig : FVec F S3x3x256 .f32
  Big : FVec F S3x3 .f32
  whf : FVec F S3x256x256 .f32
  Bhf : FVec F S3x256 .f32
  whi : FVec F S3x256x256 .f32
  Bhi : FVec F S3x256 .f32
  who : FVec F S3x256x256 .f32
  Bho : FVec F S3x256 .f32
  whg : FVec F S3x3x768 .f32
  Bhg : FVec F S3x3 .f32
  whc : FVec F S3x768x768 .f32
  Bhc : FVec F S3x768 .f32
  wl  : FVec F S44x2304 .f32
  bl  : FVec F S44 .f32

/-- One layer's weight and bias blocks, each already cut out of its stacked array. -/
structure LayerW (F : FTy → Type) where
  wif : FVec F S256x256 .f32
  Bif : FVec F S256 .f32
  wii : FVec F S256x256 .f32
  Bii : FVec F S256 .f32
  wio : FVec F S256x256 .f32
  Bio : FVec F S256 .f32
  wic : FVec F S256x256 .f32
  Bic : FVec F S256 .f32
  wig : FVec F S3x256 .f32
  Big : FVec F S3 .f32
  whf : FVec F S256x256 .f32
  Bhf : FVec F S256 .f32
  whi : FVec F S256x256 .f32
  Bhi : FVec F S256 .f32
  who : FVec F S256x256 .f32
  Bho : FVec F S256 .f32
  whg : FVec F S3x768 .f32
  Bhg : FVec F S3 .f32
  whc : FVec F S768x768 .f32
  Bhc : FVec F S768 .f32

/-- Layer 0's blocks: row 0 of every stacked weight and bias array. -/
def layerW0 (a : Args F) : LayerW F where
  wif := shapeCast S256x256 (extractStridedSlice S1x256x256 ![0, 0, 0] a.wif slices_S3x256x256_S1x256x256_0_0_0) shapeCasts_S1x256x256_S256x256
  Bif := shapeCast S256 (extractStridedSlice S1x256 ![0, 0] a.Bif slices_S3x256_S1x256_0_0) shapeCasts_S1x256_S256
  wii := shapeCast S256x256 (extractStridedSlice S1x256x256 ![0, 0, 0] a.wii slices_S3x256x256_S1x256x256_0_0_0) shapeCasts_S1x256x256_S256x256
  Bii := shapeCast S256 (extractStridedSlice S1x256 ![0, 0] a.Bii slices_S3x256_S1x256_0_0) shapeCasts_S1x256_S256
  wio := shapeCast S256x256 (extractStridedSlice S1x256x256 ![0, 0, 0] a.wio slices_S3x256x256_S1x256x256_0_0_0) shapeCasts_S1x256x256_S256x256
  Bio := shapeCast S256 (extractStridedSlice S1x256 ![0, 0] a.Bio slices_S3x256_S1x256_0_0) shapeCasts_S1x256_S256
  wic := shapeCast S256x256 (extractStridedSlice S1x256x256 ![0, 0, 0] a.wic slices_S3x256x256_S1x256x256_0_0_0) shapeCasts_S1x256x256_S256x256
  Bic := shapeCast S256 (extractStridedSlice S1x256 ![0, 0] a.Bic slices_S3x256_S1x256_0_0) shapeCasts_S1x256_S256
  wig := shapeCast S3x256 (extractStridedSlice S1x3x256 ![0, 0, 0] a.wig slices_S3x3x256_S1x3x256_0_0_0) shapeCasts_S1x3x256_S3x256
  Big := shapeCast S3 (extractStridedSlice S1x3 ![0, 0] a.Big slices_S3x3_S1x3_0_0) shapeCasts_S1x3_S3
  whf := shapeCast S256x256 (extractStridedSlice S1x256x256 ![0, 0, 0] a.whf slices_S3x256x256_S1x256x256_0_0_0) shapeCasts_S1x256x256_S256x256
  Bhf := shapeCast S256 (extractStridedSlice S1x256 ![0, 0] a.Bhf slices_S3x256_S1x256_0_0) shapeCasts_S1x256_S256
  whi := shapeCast S256x256 (extractStridedSlice S1x256x256 ![0, 0, 0] a.whi slices_S3x256x256_S1x256x256_0_0_0) shapeCasts_S1x256x256_S256x256
  Bhi := shapeCast S256 (extractStridedSlice S1x256 ![0, 0] a.Bhi slices_S3x256_S1x256_0_0) shapeCasts_S1x256_S256
  who := shapeCast S256x256 (extractStridedSlice S1x256x256 ![0, 0, 0] a.who slices_S3x256x256_S1x256x256_0_0_0) shapeCasts_S1x256x256_S256x256
  Bho := shapeCast S256 (extractStridedSlice S1x256 ![0, 0] a.Bho slices_S3x256_S1x256_0_0) shapeCasts_S1x256_S256
  whg := shapeCast S3x768 (extractStridedSlice S1x3x768 ![0, 0, 0] a.whg slices_S3x3x768_S1x3x768_0_0_0) shapeCasts_S1x3x768_S3x768
  Bhg := shapeCast S3 (extractStridedSlice S1x3 ![0, 0] a.Bhg slices_S3x3_S1x3_0_0) shapeCasts_S1x3_S3
  whc := shapeCast S768x768 (extractStridedSlice S1x768x768 ![0, 0, 0] a.whc slices_S3x768x768_S1x768x768_0_0_0) shapeCasts_S1x768x768_S768x768
  Bhc := shapeCast S768 (extractStridedSlice S1x768 ![0, 0] a.Bhc slices_S3x768_S1x768_0_0) shapeCasts_S1x768_S768

/-- Layer 1's blocks: row 1 of every stacked weight and bias array. -/
def layerW1 (a : Args F) : LayerW F where
  wif := shapeCast S256x256 (extractStridedSlice S1x256x256 ![1, 0, 0] a.wif slices_S3x256x256_S1x256x256_1_0_0) shapeCasts_S1x256x256_S256x256
  Bif := shapeCast S256 (extractStridedSlice S1x256 ![1, 0] a.Bif slices_S3x256_S1x256_1_0) shapeCasts_S1x256_S256
  wii := shapeCast S256x256 (extractStridedSlice S1x256x256 ![1, 0, 0] a.wii slices_S3x256x256_S1x256x256_1_0_0) shapeCasts_S1x256x256_S256x256
  Bii := shapeCast S256 (extractStridedSlice S1x256 ![1, 0] a.Bii slices_S3x256_S1x256_1_0) shapeCasts_S1x256_S256
  wio := shapeCast S256x256 (extractStridedSlice S1x256x256 ![1, 0, 0] a.wio slices_S3x256x256_S1x256x256_1_0_0) shapeCasts_S1x256x256_S256x256
  Bio := shapeCast S256 (extractStridedSlice S1x256 ![1, 0] a.Bio slices_S3x256_S1x256_1_0) shapeCasts_S1x256_S256
  wic := shapeCast S256x256 (extractStridedSlice S1x256x256 ![1, 0, 0] a.wic slices_S3x256x256_S1x256x256_1_0_0) shapeCasts_S1x256x256_S256x256
  Bic := shapeCast S256 (extractStridedSlice S1x256 ![1, 0] a.Bic slices_S3x256_S1x256_1_0) shapeCasts_S1x256_S256
  wig := shapeCast S3x256 (extractStridedSlice S1x3x256 ![1, 0, 0] a.wig slices_S3x3x256_S1x3x256_1_0_0) shapeCasts_S1x3x256_S3x256
  Big := shapeCast S3 (extractStridedSlice S1x3 ![1, 0] a.Big slices_S3x3_S1x3_1_0) shapeCasts_S1x3_S3
  whf := shapeCast S256x256 (extractStridedSlice S1x256x256 ![1, 0, 0] a.whf slices_S3x256x256_S1x256x256_1_0_0) shapeCasts_S1x256x256_S256x256
  Bhf := shapeCast S256 (extractStridedSlice S1x256 ![1, 0] a.Bhf slices_S3x256_S1x256_1_0) shapeCasts_S1x256_S256
  whi := shapeCast S256x256 (extractStridedSlice S1x256x256 ![1, 0, 0] a.whi slices_S3x256x256_S1x256x256_1_0_0) shapeCasts_S1x256x256_S256x256
  Bhi := shapeCast S256 (extractStridedSlice S1x256 ![1, 0] a.Bhi slices_S3x256_S1x256_1_0) shapeCasts_S1x256_S256
  who := shapeCast S256x256 (extractStridedSlice S1x256x256 ![1, 0, 0] a.who slices_S3x256x256_S1x256x256_1_0_0) shapeCasts_S1x256x256_S256x256
  Bho := shapeCast S256 (extractStridedSlice S1x256 ![1, 0] a.Bho slices_S3x256_S1x256_1_0) shapeCasts_S1x256_S256
  whg := shapeCast S3x768 (extractStridedSlice S1x3x768 ![1, 0, 0] a.whg slices_S3x3x768_S1x3x768_1_0_0) shapeCasts_S1x3x768_S3x768
  Bhg := shapeCast S3 (extractStridedSlice S1x3 ![1, 0] a.Bhg slices_S3x3_S1x3_1_0) shapeCasts_S1x3_S3
  whc := shapeCast S768x768 (extractStridedSlice S1x768x768 ![1, 0, 0] a.whc slices_S3x768x768_S1x768x768_1_0_0) shapeCasts_S1x768x768_S768x768
  Bhc := shapeCast S768 (extractStridedSlice S1x768 ![1, 0] a.Bhc slices_S3x768_S1x768_1_0) shapeCasts_S1x768_S768

/-- Layer 2's blocks: row 2 of every stacked weight and bias array. -/
def layerW2 (a : Args F) : LayerW F where
  wif := shapeCast S256x256 (extractStridedSlice S1x256x256 ![2, 0, 0] a.wif slices_S3x256x256_S1x256x256_2_0_0) shapeCasts_S1x256x256_S256x256
  Bif := shapeCast S256 (extractStridedSlice S1x256 ![2, 0] a.Bif slices_S3x256_S1x256_2_0) shapeCasts_S1x256_S256
  wii := shapeCast S256x256 (extractStridedSlice S1x256x256 ![2, 0, 0] a.wii slices_S3x256x256_S1x256x256_2_0_0) shapeCasts_S1x256x256_S256x256
  Bii := shapeCast S256 (extractStridedSlice S1x256 ![2, 0] a.Bii slices_S3x256_S1x256_2_0) shapeCasts_S1x256_S256
  wio := shapeCast S256x256 (extractStridedSlice S1x256x256 ![2, 0, 0] a.wio slices_S3x256x256_S1x256x256_2_0_0) shapeCasts_S1x256x256_S256x256
  Bio := shapeCast S256 (extractStridedSlice S1x256 ![2, 0] a.Bio slices_S3x256_S1x256_2_0) shapeCasts_S1x256_S256
  wic := shapeCast S256x256 (extractStridedSlice S1x256x256 ![2, 0, 0] a.wic slices_S3x256x256_S1x256x256_2_0_0) shapeCasts_S1x256x256_S256x256
  Bic := shapeCast S256 (extractStridedSlice S1x256 ![2, 0] a.Bic slices_S3x256_S1x256_2_0) shapeCasts_S1x256_S256
  wig := shapeCast S3x256 (extractStridedSlice S1x3x256 ![2, 0, 0] a.wig slices_S3x3x256_S1x3x256_2_0_0) shapeCasts_S1x3x256_S3x256
  Big := shapeCast S3 (extractStridedSlice S1x3 ![2, 0] a.Big slices_S3x3_S1x3_2_0) shapeCasts_S1x3_S3
  whf := shapeCast S256x256 (extractStridedSlice S1x256x256 ![2, 0, 0] a.whf slices_S3x256x256_S1x256x256_2_0_0) shapeCasts_S1x256x256_S256x256
  Bhf := shapeCast S256 (extractStridedSlice S1x256 ![2, 0] a.Bhf slices_S3x256_S1x256_2_0) shapeCasts_S1x256_S256
  whi := shapeCast S256x256 (extractStridedSlice S1x256x256 ![2, 0, 0] a.whi slices_S3x256x256_S1x256x256_2_0_0) shapeCasts_S1x256x256_S256x256
  Bhi := shapeCast S256 (extractStridedSlice S1x256 ![2, 0] a.Bhi slices_S3x256_S1x256_2_0) shapeCasts_S1x256_S256
  who := shapeCast S256x256 (extractStridedSlice S1x256x256 ![2, 0, 0] a.who slices_S3x256x256_S1x256x256_2_0_0) shapeCasts_S1x256x256_S256x256
  Bho := shapeCast S256 (extractStridedSlice S1x256 ![2, 0] a.Bho slices_S3x256_S1x256_2_0) shapeCasts_S1x256_S256
  whg := shapeCast S3x768 (extractStridedSlice S1x3x768 ![2, 0, 0] a.whg slices_S3x3x768_S1x3x768_2_0_0) shapeCasts_S1x3x768_S3x768
  Bhg := shapeCast S3 (extractStridedSlice S1x3 ![2, 0] a.Bhg slices_S3x3_S1x3_2_0) shapeCasts_S1x3_S3
  whc := shapeCast S768x768 (extractStridedSlice S1x768x768 ![2, 0, 0] a.whc slices_S3x768x768_S1x768x768_2_0_0) shapeCasts_S1x768x768_S768x768
  Bhc := shapeCast S768 (extractStridedSlice S1x768 ![2, 0] a.Bhc slices_S3x768_S1x768_2_0) shapeCasts_S1x768_S768

/-- v·Wᵀ + b with a 256-by-256 block W. -/
def lin256 (v : FVec F S4096x256 .f32) (W : FVec F S256x256 .f32) (b : FVec F S256 .f32) : FVec F S4096x256 .f32 :=
  addf (Host.dotGeneral dot_S4096x256_S256x256_S4096x256_1_0_0_1_n_n none v (transpose S256x256 [1, 0] W transposes_S256x256_S256x256_1_0))
    (broadcastInDim S4096x256 ![0, 1] bcast_S1x256_S4096x256_0_1 (broadcastInDim S1x256 ![1] bcast_S256_S1x256_1 b))

/-- v·Wᵀ + b with a 3-by-256 block W (the gate columns' input side). -/
def linG (v : FVec F S4096x256 .f32) (W : FVec F S3x256 .f32) (b : FVec F S3 .f32) : FVec F S4096x3 .f32 :=
  addf (Host.dotGeneral dot_S4096x256_S256x3_S4096x3_1_0_0_1_n_n none v (transpose S256x3 [1, 0] W transposes_S3x256_S256x3_1_0))
    (broadcastInDim S4096x3 ![0, 1] bcast_S1x3_S4096x3_0_1 (broadcastInDim S1x3 ![1] bcast_S3_S1x3_1 b))

/-- v·Wᵀ + b with a 3-by-768 block W (the gate columns' hidden side). -/
def linGh (v : FVec F S4096x768 .f32) (W : FVec F S3x768 .f32) (b : FVec F S3 .f32) : FVec F S4096x3 .f32 :=
  addf (Host.dotGeneral dot_S4096x768_S768x3_S4096x3_1_0_0_1_n_n none v (transpose S768x3 [1, 0] W transposes_S3x768_S768x3_1_0))
    (broadcastInDim S4096x3 ![0, 1] bcast_S1x3_S4096x3_0_1 (broadcastInDim S1x3 ![1] bcast_S3_S1x3_1 b))

/-- v·Wᵀ + b with a 768-by-768 block W (the cross-layer candidate terms). -/
def lin768 (v : FVec F S4096x768 .f32) (W : FVec F S768x768 .f32) (b : FVec F S768 .f32) : FVec F S4096x768 .f32 :=
  addf (Host.dotGeneral dot_S4096x768_S768x768_S4096x768_1_0_0_1_n_n none v (transpose S768x768 [1, 0] W transposes_S768x768_S768x768_1_0))
    (broadcastInDim S4096x768 ![0, 1] bcast_S1x768_S4096x768_0_1 (broadcastInDim S1x768 ![1] bcast_S768_S1x768_1 b))

/-- The logistic function as the program spells it: 1 / (1 + exp (-z)), the two ones broadcast from a scalar. -/
def sigm {s : Shape} (h : S_.BroadcastsInDim s (![] : Fin 0 → Fin s.rank)) (z : FVec F s .f32) : FVec F s .f32 :=
  Host.divf (broadcastInDim s ![] h (constant S_ .f32 0x3F800000#32))
    (addf (broadcastInDim s ![] h (constant S_ .f32 0x3F800000#32)) (Host.exp (Host.negf z)))

/-- The three cross-layer gate columns. -/
def gate (ih : FVec F S4096x256 .f32) (hcat : FVec F S4096x768 .f32) (w : LayerW F) : FVec F S4096x3 .f32 :=
  sigm bcast_S_S4096x3 (addf (linG ih w.wig w.Big) (linGh hcat w.whg w.Bhg))

/-- The cross-layer candidate terms, cut into three blocks of 256 columns. -/
def auxAll (hcat : FVec F S4096x768 .f32) (w : LayerW F) : FVec F S4096x3x256 .f32 :=
  shapeCast S4096x3x256 (lin768 hcat w.whc w.Bhc) shapeCasts_S4096x768_S4096x3x256

/-- The gated sum of the three candidate blocks. -/
def auxSum (g : FVec F S4096x3 .f32) (a : FVec F S4096x3x256 .f32) : FVec F S4096x256 .f32 :=
  Host.reduceAdd
    (mulf a (broadcastInDim S4096x3x256 ![0, 1, 2] bcast_S4096x3x1_S4096x3x256_0_1_2 (broadcastInDim S4096x3x1 ![0, 1] bcast_S4096x3_S4096x3x1_0_1 g)))
    (constant S_ .f32 0x00000000#32) reducesTo_S4096x3x256_S4096x256_d1 h_S_

/-- The new cell array of one layer. -/
def cellC (ih hp cp : FVec F S4096x256 .f32) (hcat : FVec F S4096x768 .f32) (w : LayerW F) : FVec F S4096x256 .f32 :=
  addf
    (mulf (sigm bcast_S_S4096x256 (addf (lin256 ih w.wif w.Bif) (lin256 hp w.whf w.Bhf))) cp)
    (mulf (sigm bcast_S_S4096x256 (addf (lin256 ih w.wii w.Bii) (lin256 hp w.whi w.Bhi)))
      (Host.tanh (addf (lin256 ih w.wic w.Bic) (auxSum (gate ih hcat w) (auxAll hcat w)))))

/-- The new hidden array of one layer. -/
def cellH (ih hp cp : FVec F S4096x256 .f32) (hcat : FVec F S4096x768 .f32) (w : LayerW F) : FVec F S4096x256 .f32 :=
  mulf (sigm bcast_S_S4096x256 (addf (lin256 ih w.wio w.Bio) (lin256 hp w.who w.Bho))) (cellC ih hp cp hcat w)

/-- What one time step hands to the next: the three hidden arrays stacked, and the three cell arrays stacked. -/
structure St (F : FTy → Type) where
  hs : FVec F S3x4096x256 .f32
  cs : FVec F S3x4096x256 .f32

/-- Piece 0 of a stack of three. -/
def piece0 (a : FVec F S3x4096x256 .f32) : FVec F S4096x256 .f32 :=
  shapeCast S4096x256 (extractStridedSlice S1x4096x256 ![0, 0, 0] a slices_S3x4096x256_S1x4096x256_0_0_0) shapeCasts_S1x4096x256_S4096x256

/-- Piece 1 of a stack of three. -/
def piece1 (a : FVec F S3x4096x256 .f32) : FVec F S4096x256 .f32 :=
  shapeCast S4096x256 (extractStridedSlice S1x4096x256 ![1, 0, 0] a slices_S3x4096x256_S1x4096x256_1_0_0) shapeCasts_S1x4096x256_S4096x256

/-- Piece 2 of a stack of three. -/
def piece2 (a : FVec F S3x4096x256 .f32) : FVec F S4096x256 .f32 :=
  shapeCast S4096x256 (extractStridedSlice S1x4096x256 ![2, 0, 0] a slices_S3x4096x256_S1x4096x256_2_0_0) shapeCasts_S1x4096x256_S4096x256

/-- Three arrays stacked into one array of three pieces. -/
def stack (a b c : FVec F S4096x256 .f32) : FVec F S3x4096x256 .f32 :=
  concatenate S3x4096x256 0
    [⟨S1x4096x256, broadcastInDim S1x4096x256 ![1, 2] bcast_S4096x256_S1x4096x256_1_2 a⟩,
     ⟨S1x4096x256, broadcastInDim S1x4096x256 ![1, 2] bcast_S4096x256_S1x4096x256_1_2 b⟩,
     ⟨S1x4096x256, broadcastInDim S1x4096x256 ![1, 2] bcast_S4096x256_S1x4096x256_1_2 c⟩]
    concatenates_S1x4096x256_S1x4096x256_S1x4096x256_S3x4096x256_d0

/-- The three hidden arrays of a stack side by side: row r holds piece 0's, piece 1's, piece 2's row r in turn. -/
def hcatOf (hs : FVec F S3x4096x256 .f32) : FVec F S4096x768 .f32 :=
  shapeCast S4096x768 (transpose S4096x3x256 [1, 0, 2] hs transposes_S3x4096x256_S4096x3x256_1_0_2) shapeCasts_S4096x3x256_S4096x768

/-- Layer 0's new hidden array of the step that starts from `s`. -/
def newH0 (x : FVec F S4096x256 .f32) (w0 : LayerW F) (s : St F) : FVec F S4096x256 .f32 :=
  cellH x (piece0 s.hs) (piece0 s.cs) (hcatOf s.hs) w0

/-- Layer 1's new hidden array. -/
def newH1 (x : FVec F S4096x256 .f32) (w0 w1 : LayerW F) (s : St F) : FVec F S4096x256 .f32 :=
  cellH (newH0 x w0 s) (piece1 s.hs) (piece1 s.cs) (hcatOf s.hs) w1

/-- Layer 2's new hidden array. -/
def newH2 (x : FVec F S4096x256 .f32) (w0 w1 w2 : LayerW F) (s : St F) : FVec F S4096x256 .f32 :=
  cellH (newH1 x w0 w1 s) (piece2 s.hs) (piece2 s.cs) (hcatOf s.hs) w2

/-- Layer 0's new cell array. -/
def newC0 (x : FVec F S4096x256 .f32) (w0 : LayerW F) (s : St F) : FVec F S4096x256 .f32 :=
  cellC x (piece0 s.hs) (piece0 s.cs) (hcatOf s.hs) w0

/-- Layer 1's new cell array. -/
def newC1 (x : FVec F S4096x256 .f32) (w0 w1 : LayerW F) (s : St F) : FVec F S4096x256 .f32 :=
  cellC (newH0 x w0 s) (piece1 s.hs) (piece1 s.cs) (hcatOf s.hs) w1

/-- Layer 2's new cell array. -/
def newC2 (x : FVec F S4096x256 .f32) (w0 w1 w2 : LayerW F) (s : St F) : FVec F S4096x256 .f32 :=
  cellC (newH1 x w0 w1 s) (piece2 s.hs) (piece2 s.cs) (hcatOf s.hs) w2

/-- One time step: the three layers in order, their new arrays stacked. -/
def step (x : FVec F S4096x256 .f32) (w0 w1 w2 : LayerW F) (s : St F) : St F where
  hs := stack (newH0 x w0 s) (newH1 x w0 w1 s) (newH2 x w0 w1 w2 s)
  cs := stack (newC0 x w0 s) (newC1 x w0 w1 s) (newC2 x w0 w1 w2 s)

/-- The state after `n` steps. -/
def stAt (x : FVec F S4096x256 .f32) (w0 w1 w2 : LayerW F) (s0 : St F) : Nat → St F
  | 0 => s0
  | n + 1 => step x w0 w1 w2 (stAt x w0 w1 w2 s0 n)

/-- The last layer's new hidden array of step `n + 1`. -/
def topH (x : FVec F S4096x256 .f32) (w0 w1 w2 : LayerW F) (s0 : St F) (n : Nat) : FVec F S4096x256 .f32 :=
  newH2 x w0 w1 w2 (stAt x w0 w1 w2 s0 n)

/-- The nine kept arrays side by side. -/
def feat (x : FVec F S4096x256 .f32) (w0 w1 w2 : LayerW F) (s0 : St F) : FVec F S4096x2304 .f32 :=
  concatenate S4096x2304 1
    [⟨S4096x256, topH x w0 w1 w2 s0 0⟩, ⟨S4096x256, topH x w0 w1 w2 s0 1⟩, ⟨S4096x256, topH x w0 w1 w2 s0 2⟩,
     ⟨S4096x256, topH x w0 w1 w2 s0 3⟩, ⟨S4096x256, topH x w0 w1 w2 s0 4⟩, ⟨S4096x256, topH x w0 w1 w2 s0 5⟩,
     ⟨S4096x256, topH x w0 w1 w2 s0 6⟩, ⟨S4096x256, topH x w0 w1 w2 s0 7⟩, ⟨S4096x256, topH x w0 w1 w2 s0 8⟩]
    concatenates_S4096x256_S4096x256_S4096x256_S4096x256_S4096x256_S4096x256_S4096x256_S4096x256_S4096x256_S4096x2304_d1

/-- The result from given layer blocks, first state and last-layer weights. -/
def outOf (x : FVec F S4096x256 .f32) (w0 w1 w2 : LayerW F) (s0 : St F) (wl : FVec F S44x2304 .f32) (bl : FVec F S44 .f32) :
    FVec F S4096x44 .f32 :=
  sigm bcast_S_S4096x44
    (addf (Host.dotGeneral dot_S4096x2304_S2304x44_S4096x44_1_0_0_1_n_n none (feat x w0 w1 w2 s0) (transpose S2304x44 [1, 0] wl transposes_S44x2304_S2304x44_1_0))
      (broadcastInDim S4096x44 ![0, 1] bcast_S1x44_S4096x44_0_1 (broadcastInDim S1x44 ![1] bcast_S44_S1x44_1 bl)))

/-- The reference's result as a function of its 25 argument arrays. -/
def out (a : Args F) : FVec F S4096x44 .f32 :=
  outOf a.x (layerW0 a) (layerW1 a) (layerW2 a) { hs := a.hid, cs := a.cur } a.wl a.bl

end Cert.ReferenceIdeal.Spec

end
-- ==== Proof.RArgs.lean ====
/-
  The reference's 25 argument arrays, read out of a valuation of the program's buffers.
-/
import proofs.«181228_j76424648065777_1_alg».proof.Proof.RSpec

noncomputable section

namespace Cert.ReferenceIdeal.RefValue

open Cert.ReferenceIdeal Idealize.ShloMosaic Idealize.SL.Sem

variable {F : FTy → Type} [FloatOps F]

/-- The 25 argument arrays read out of a valuation of the program's buffers. -/
def argsOf (V0 : Valuation τ sig (Elt F)) : Spec.Args F where
  x := V0 (Proc.devRef .tc main_arg0)
  hid := V0 (Proc.devRef .tc main_arg1)
  cur := V0 (Proc.devRef .tc main_arg2)
  wif := V0 (Proc.devRef .tc main_arg3)
  Bif := V0 (Proc.devRef .tc main_arg4)
  wii := V0 (Proc.devRef .tc main_arg5)
  Bii := V0 (Proc.devRef .tc main_arg6)
  wio := V0 (Proc.devRef .tc main_arg7)
  Bio := V0 (Proc.devRef .tc main_arg8)
  wic := V0 (Proc.devRef .tc main_arg9)
  Bic := V0 (Proc.devRef .tc main_arg10)
  wig := V0 (Proc.devRef .tc main_arg11)
  Big := V0 (Proc.devRef .tc main_arg12)
  whf := V0 (Proc.devRef .tc main_arg13)
  Bhf := V0 (Proc.devRef .tc main_arg14)
  whi := V0 (Proc.devRef .tc main_arg15)
  Bhi := V0 (Proc.devRef .tc main_arg16)
  who := V0 (Proc.devRef .tc main_arg17)
  Bho := V0 (Proc.devRef .tc main_arg18)
  whg := V0 (Proc.devRef .tc main_arg19)
  Bhg := V0 (Proc.devRef .tc main_arg20)
  whc := V0 (Proc.devRef .tc main_arg21)
  Bhc := V0 (Proc.devRef .tc main_arg22)
  wl := V0 (Proc.devRef .tc main_arg23)
  bl := V0 (Proc.devRef .tc main_arg24)

end Cert.ReferenceIdeal.RefValue

end
-- ==== Proof.RefArgsKept.lean ====
/-
  The reference's line of operations leaves every argument array as it was.

  The line is in static single assignment form: each operation writes one buffer, its own result, and the results are
  the references of index 25 and above, the argument arrays the references of index 0 to 24.  So every operation of
  every window of the line writes result buffers only, and a buffer no operation of a line writes keeps its contents.
-/
import proofs.«181228_j76424648065777_1_alg».proof.Proof.RefOps

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The operation writes result buffers only: every buffer it writes is a reference of index at least 25 (the
    argument arrays are the references of index 0 to 24). -/
def WritesResults (op : HloOp τ sig (Elt F)) : Prop :=
  ∀ b ∈ op.writes, ∃ y : Ref sig .tc, 25 ≤ y.idx.val ∧ b = Proc.devRef .tc y

theorem wr {op : HloOp τ sig (Elt F)} {y : Ref sig .tc} (hw : op.writes = {Proc.devRef .tc y}) (hy : 25 ≤ y.idx.val) :
    WritesResults op := by
  intro b hb
  rw [hw, Finset.mem_singleton] at hb
  exact ⟨y, hy, hb⟩

/-- A line all of whose operations write result buffers only leaves every reference of index below 25 as it was. -/
theorem kept_of_writesResults (l : List (HloOp τ sig (Elt F))) (h : l.Forall WritesResults) (V : Valuation τ sig (Elt F))
    (r : Ref sig .tc) (hr : r.idx.val < 25) :
    after l V (Proc.devRef .tc r) = V (Proc.devRef .tc r) :=
  after_of_forall_not_mem l V fun op hop hb => by
    obtain ⟨y, hy, he⟩ := (List.forall_iff_forall_mem.mp h) op hop _ hb
    have e : r = y := Proc.devRef_injective _ he
    subst e
    omega
set_option maxRecDepth 8192 in
theorem ops_part0_wr : (ops_part0 : List (HloOp τ sig (Elt F))).Forall WritesResults :=
  ⟨wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide)⟩
set_option maxRecDepth 8192 in
theorem ops_part1_wr : (ops_part1 : List (HloOp τ sig (Elt F))).Forall WritesResults :=
  ⟨wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide)⟩
set_option maxRecDepth 8192 in
theorem ops_part2_wr : (ops_part2 : List (HloOp τ sig (Elt F))).Forall WritesResults :=
  ⟨wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide)⟩
set_option maxRecDepth 8192 in
theorem ops_part3_wr : (ops_part3 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part4_wr : (ops_part4 : List (HloOp τ sig (Elt F))).Forall WritesResults :=
  ⟨wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part5_wr : (ops_part5 : List (HloOp τ sig (Elt F))).Forall WritesResults :=
  ⟨wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide)⟩
set_option maxRecDepth 8192 in
theorem ops_part6_wr : (ops_part6 : List (HloOp τ sig (Elt F))).Forall WritesResults :=
  ⟨wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide)⟩
set_option maxRecDepth 8192 in
theorem ops_part7_wr : (ops_part7 : List (HloOp τ sig (Elt F))).Forall WritesResults :=
  ⟨wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide)⟩
set_option maxRecDepth 8192 in
theorem ops_part8_wr : (ops_part8 : List (HloOp τ sig (Elt F))).Forall WritesResults :=
  ⟨wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part9_wr : (ops_part9 : List (HloOp τ sig (Elt F))).Forall WritesResults :=
  ⟨wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide)⟩
set_option maxRecDepth 8192 in
theorem ops_part10_wr : (ops_part10 : List (HloOp τ sig (Elt F))).Forall WritesResults :=
  ⟨wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part11_wr : (ops_part11 : List (HloOp τ sig (Elt F))).Forall WritesResults :=
  ⟨wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide)⟩
set_option maxRecDepth 8192 in
theorem ops_part12_wr : (ops_part12 : List (HloOp τ sig (Elt F))).Forall WritesResults :=
  ⟨wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide)⟩
set_option maxRecDepth 8192 in
theorem ops_part13_wr : (ops_part13 : List (HloOp τ sig (Elt F))).Forall WritesResults :=
  ⟨wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide)⟩
set_option maxRecDepth 8192 in
theorem ops_part14_wr : (ops_part14 : List (HloOp τ sig (Elt F))).Forall WritesResults :=
  ⟨wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide)⟩
set_option maxRecDepth 8192 in
theorem ops_part15_wr : (ops_part15 : List (HloOp τ sig (Elt F))).Forall WritesResults :=
  ⟨wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide)⟩
set_option maxRecDepth 8192 in
theorem ops_part16_wr : (ops_part16 : List (HloOp τ sig (Elt F))).Forall WritesResults :=
  ⟨wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part17_wr : (ops_part17 : List (HloOp τ sig (Elt F))).Forall WritesResults :=
  ⟨wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part18_wr : (ops_part18 : List (HloOp τ sig (Elt F))).Forall WritesResults :=
  ⟨wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide)⟩
set_option maxRecDepth 8192 in
theorem ops_part19_wr : (ops_part19 : List (HloOp τ sig (Elt F))).Forall WritesResults :=
  ⟨wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide)⟩
set_option maxRecDepth 8192 in
theorem ops_part20_wr : (ops_part20 : List (HloOp τ sig (Elt F))).Forall WritesResults :=
  ⟨wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide)⟩
set_option maxRecDepth 8192 in
theorem ops_part21_wr : (ops_part21 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part22_wr : (ops_part22 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part23_wr : (ops_part23 : List (HloOp τ sig (Elt F))).Forall WritesResults :=
  ⟨wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide)⟩
set_option maxRecDepth 8192 in
theorem ops_part24_wr : (ops_part24 : List (HloOp τ sig (Elt F))).Forall WritesResults :=
  ⟨wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide)⟩
set_option maxRecDepth 8192 in
theorem ops_part25_wr : (ops_part25 : List (HloOp τ sig (Elt F))).Forall WritesResults :=
  ⟨wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide)⟩
set_option maxRecDepth 8192 in
theorem ops_part26_wr : (ops_part26 : List (HloOp τ sig (Elt F))).Forall WritesResults :=
  ⟨wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide)⟩
set_option maxRecDepth 8192 in
theorem ops_part27_wr : (ops_part27 : List (HloOp τ sig (Elt F))).Forall WritesResults :=
  ⟨wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide)⟩
set_option maxRecDepth 8192 in
theorem ops_part28_wr : (ops_part28 : List (HloOp τ sig (Elt F))).Forall WritesResults :=
  ⟨wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide)⟩
set_option maxRecDepth 8192 in
theorem ops_part29_wr : (ops_part29 : List (HloOp τ sig (Elt F))).Forall WritesResults :=
  ⟨wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part30_wr : (ops_part30 : List (HloOp τ sig (Elt F))).Forall WritesResults :=
  ⟨wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide)⟩
set_option maxRecDepth 8192 in
theorem ops_part31_wr : (ops_part31 : List (HloOp τ sig (Elt F))).Forall WritesResults :=
  ⟨wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide)⟩
set_option maxRecDepth 8192 in
theorem ops_part32_wr : (ops_part32 : List (HloOp τ sig (Elt F))).Forall WritesResults :=
  ⟨wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide)⟩
set_option maxRecDepth 8192 in
theorem ops_part33_wr : (ops_part33 : List (HloOp τ sig (Elt F))).Forall WritesResults :=
  ⟨wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide)⟩
set_option maxRecDepth 8192 in
theorem ops_part34_wr : (ops_part34 : List (HloOp τ sig (Elt F))).Forall WritesResults :=
  ⟨wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part35_wr : (ops_part35 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part36_wr : (ops_part36 : List (HloOp τ sig (Elt F))).Forall WritesResults :=
  ⟨wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part37_wr : (ops_part37 : List (HloOp τ sig (Elt F))).Forall WritesResults :=
  ⟨wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide)⟩
set_option maxRecDepth 8192 in
theorem ops_part38_wr : (ops_part38 : List (HloOp τ sig (Elt F))).Forall WritesResults :=
  ⟨wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide)⟩
set_option maxRecDepth 8192 in
theorem ops_part39_wr : (ops_part39 : List (HloOp τ sig (Elt F))).Forall WritesResults :=
  ⟨wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide)⟩
set_option maxRecDepth 8192 in
theorem ops_part40_wr : (ops_part40 : List (HloOp τ sig (Elt F))).Forall WritesResults :=
  ⟨wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part41_wr : (ops_part41 : List (HloOp τ sig (Elt F))).Forall WritesResults :=
  ⟨wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide)⟩
set_option maxRecDepth 8192 in
theorem ops_part42_wr : (ops_part42 : List (HloOp τ sig (Elt F))).Forall WritesResults :=
  ⟨wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part43_wr : (ops_part43 : List (HloOp τ sig (Elt F))).Forall WritesResults :=
  ⟨wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part44_wr : (ops_part44 : List (HloOp τ sig (Elt F))).Forall WritesResults :=
  ⟨wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide)⟩
set_option maxRecDepth 8192 in
theorem ops_part45_wr : (ops_part45 : List (HloOp τ sig (Elt F))).Forall WritesResults :=
  ⟨wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide)⟩
set_option maxRecDepth 8192 in
theorem ops_part46_wr : (ops_part46 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part47_wr : (ops_part47 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide)⟩
set_option maxRecDepth 8192 in
theorem ops_part48_wr : (ops_part48 : List (HloOp τ sig (Elt F))).Forall WritesResults :=
  ⟨wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide)⟩
set_option maxRecDepth 8192 in
theorem ops_part49_wr : (ops_part49 : List (HloOp τ sig (Elt F))).Forall WritesResults :=
  ⟨wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part50_wr : (ops_part50 : List (HloOp τ sig (Elt F))).Forall WritesResults :=
  ⟨wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide)⟩
set_option maxRecDepth 8192 in
theorem ops_part51_wr : (ops_part51 : List (HloOp τ sig (Elt F))).Forall WritesResults :=
  ⟨wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide)⟩
set_option maxRecDepth 8192 in
theorem ops_part52_wr : (ops_part52 : List (HloOp τ sig (Elt F))).Forall WritesResults :=
  ⟨wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide)⟩
set_option maxRecDepth 8192 in
theorem ops_part53_wr : (ops_part53 : List (HloOp τ sig (Elt F))).Forall WritesResults :=
  ⟨wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide)⟩
set_option maxRecDepth 8192 in
theorem ops_part54_wr : (ops_part54 : List (HloOp τ sig (Elt F))).Forall WritesResults :=
  ⟨wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide)⟩
set_option maxRecDepth 8192 in
theorem ops_part55_wr : (ops_part55 : List (HloOp τ sig (Elt F))).Forall WritesResults :=
  ⟨wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide)⟩
set_option maxRecDepth 8192 in
theorem ops_part56_wr : (ops_part56 : List (HloOp τ sig (Elt F))).Forall WritesResults :=
  ⟨wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide)⟩
set_option maxRecDepth 8192 in
theorem ops_part57_wr : (ops_part57 : List (HloOp τ sig (Elt F))).Forall WritesResults :=
  ⟨wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide)⟩
set_option maxRecDepth 8192 in
theorem ops_part58_wr : (ops_part58 : List (HloOp τ sig (Elt F))).Forall WritesResults :=
  ⟨wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide)⟩
set_option maxRecDepth 8192 in
theorem ops_part59_wr : (ops_part59 : List (HloOp τ sig (Elt F))).Forall WritesResults :=
  ⟨wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide)⟩
set_option maxRecDepth 8192 in
theorem ops_part60_wr : (ops_part60 : List (HloOp τ sig (Elt F))).Forall WritesResults :=
  ⟨wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part61_wr : (ops_part61 : List (HloOp τ sig (Elt F))).Forall WritesResults :=
  ⟨wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide)⟩
set_option maxRecDepth 8192 in
theorem ops_part62_wr : (ops_part62 : List (HloOp τ sig (Elt F))).Forall WritesResults :=
  ⟨wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide)⟩
set_option maxRecDepth 8192 in
theorem ops_part63_wr : (ops_part63 : List (HloOp τ sig (Elt F))).Forall WritesResults :=
  ⟨wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide)⟩
set_option maxRecDepth 8192 in
theorem ops_part64_wr : (ops_part64 : List (HloOp τ sig (Elt F))).Forall WritesResults :=
  ⟨wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide)⟩
set_option maxRecDepth 8192 in
theorem ops_part65_wr : (ops_part65 : List (HloOp τ sig (Elt F))).Forall WritesResults :=
  ⟨wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide)⟩
set_option maxRecDepth 8192 in
theorem ops_part66_wr : (ops_part66 : List (HloOp τ sig (Elt F))).Forall WritesResults :=
  ⟨wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide)⟩
set_option maxRecDepth 8192 in
theorem ops_part67_wr : (ops_part67 : List (HloOp τ sig (Elt F))).Forall WritesResults :=
  ⟨wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part68_wr : (ops_part68 : List (HloOp τ sig (Elt F))).Forall WritesResults :=
  ⟨wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide)⟩
set_option maxRecDepth 8192 in
theorem ops_part69_wr : (ops_part69 : List (HloOp τ sig (Elt F))).Forall WritesResults :=
  ⟨wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide)⟩
set_option maxRecDepth 8192 in
theorem ops_part70_wr : (ops_part70 : List (HloOp τ sig (Elt F))).Forall WritesResults :=
  ⟨wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide)⟩
set_option maxRecDepth 8192 in
theorem ops_part71_wr : (ops_part71 : List (HloOp τ sig (Elt F))).Forall WritesResults :=
  ⟨wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide)⟩
set_option maxRecDepth 8192 in
theorem ops_part72_wr : (ops_part72 : List (HloOp τ sig (Elt F))).Forall WritesResults :=
  ⟨wr (unary_writes ..) (by decide), wr (binary_writes ..) (by decide), wr (nullary_writes ..) (by decide), wr (unary_writes ..) (by decide), wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide)⟩
set_option maxRecDepth 8192 in
theorem ops_part73_wr : (ops_part73 : List (HloOp τ sig (Elt F))).Forall WritesResults :=
  ⟨wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (reshape_writes ..) (by decide), wr (unary_writes ..) (by decide), wr (unary_writes ..) (by decide), wr (binary_writes ..) (by decide), wr (nullary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (reshape_writes ..) (by decide), wr (binary_writes ..) (by decide)⟩
set_option maxRecDepth 8192 in
theorem ops_part74_wr : (ops_part74 : List (HloOp τ sig (Elt F))).Forall WritesResults :=
  ⟨wr (binary_writes ..) (by decide), wr (binary_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (unary_writes ..) (by decide), wr (reshape_writes ..) (by decide), wr (unary_writes ..) (by decide), wr (reshape_writes ..) (by decide), wr (unary_writes ..) (by decide), wr (reshape_writes ..) (by decide), wr (unary_writes ..) (by decide), wr (binary_writes ..) (by decide), wr (unary_writes ..) (by decide), wr (unary_writes ..) (by decide), wr (binary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide), wr (binary_writes ..) (by decide), wr (unary_writes ..) (by decide), wr (unary_writes ..) (by decide), wr (unary_writes ..) (by decide), wr (nary_writes ..) (by decide), wr (unary_writes ..) (by decide), wr (unary_writes ..) (by decide), wr (unary_writes ..) (by decide), wr (nary_writes ..) (by decide), wr (nary_writes ..) (by decide), wr (unary_writes ..) (by decide), wr (binary_writes ..) (by decide), wr (unary_writes ..) (by decide), wr (unary_writes ..) (by decide), wr (binary_writes ..) (by decide), wr (unary_writes ..) (by decide), wr (unary_writes ..) (by decide), wr (nullary_writes ..) (by decide), wr (unary_writes ..) (by decide), wr (binary_writes ..) (by decide), wr (nullary_writes ..) (by decide), wr (unary_writes ..) (by decide), wr (binary_writes ..) (by decide)⟩

theorem ops_wr : (ops : List (HloOp τ sig (Elt F))).Forall WritesResults :=
  List.forall_iff_forall_mem.mpr fun op h => by
    simp only [ops, List.mem_append] at h
    rcases h with h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp ops_part0_wr op h, List.forall_iff_forall_mem.mp ops_part1_wr op h, List.forall_iff_forall_mem.mp ops_part2_wr op h, List.forall_iff_forall_mem.mp ops_part3_wr op h, List.forall_iff_forall_mem.mp ops_part4_wr op h, List.forall_iff_forall_mem.mp ops_part5_wr op h, List.forall_iff_forall_mem.mp ops_part6_wr op h, List.forall_iff_forall_mem.mp ops_part7_wr op h, List.forall_iff_forall_mem.mp ops_part8_wr op h, List.forall_iff_forall_mem.mp ops_part9_wr op h, List.forall_iff_forall_mem.mp ops_part10_wr op h, List.forall_iff_forall_mem.mp ops_part11_wr op h, List.forall_iff_forall_mem.mp ops_part12_wr op h, List.forall_iff_forall_mem.mp ops_part13_wr op h, List.forall_iff_forall_mem.mp ops_part14_wr op h, List.forall_iff_forall_mem.mp ops_part15_wr op h, List.forall_iff_forall_mem.mp ops_part16_wr op h, List.forall_iff_forall_mem.mp ops_part17_wr op h, List.forall_iff_forall_mem.mp ops_part18_wr op h, List.forall_iff_forall_mem.mp ops_part19_wr op h, List.forall_iff_forall_mem.mp ops_part20_wr op h, List.forall_iff_forall_mem.mp ops_part21_wr op h, List.forall_iff_forall_mem.mp ops_part22_wr op h, List.forall_iff_forall_mem.mp ops_part23_wr op h, List.forall_iff_forall_mem.mp ops_part24_wr op h, List.forall_iff_forall_mem.mp ops_part25_wr op h, List.forall_iff_forall_mem.mp ops_part26_wr op h, List.forall_iff_forall_mem.mp ops_part27_wr op h, List.forall_iff_forall_mem.mp ops_part28_wr op h, List.forall_iff_forall_mem.mp ops_part29_wr op h, List.forall_iff_forall_mem.mp ops_part30_wr op h, List.forall_iff_forall_mem.mp ops_part31_wr op h, List.forall_iff_forall_mem.mp ops_part32_wr op h, List.forall_iff_forall_mem.mp ops_part33_wr op h, List.forall_iff_forall_mem.mp ops_part34_wr op h, List.forall_iff_forall_mem.mp ops_part35_wr op h, List.forall_iff_forall_mem.mp ops_part36_wr op h, List.forall_iff_forall_mem.mp ops_part37_wr op h, List.forall_iff_forall_mem.mp ops_part38_wr op h, List.forall_iff_forall_mem.mp ops_part39_wr op h, List.forall_iff_forall_mem.mp ops_part40_wr op h, List.forall_iff_forall_mem.mp ops_part41_wr op h, List.forall_iff_forall_mem.mp ops_part42_wr op h, List.forall_iff_forall_mem.mp ops_part43_wr op h, List.forall_iff_forall_mem.mp ops_part44_wr op h, List.forall_iff_forall_mem.mp ops_part45_wr op h, List.forall_iff_forall_mem.mp ops_part46_wr op h, List.forall_iff_forall_mem.mp ops_part47_wr op h, List.forall_iff_forall_mem.mp ops_part48_wr op h, List.forall_iff_forall_mem.mp ops_part49_wr op h, List.forall_iff_forall_mem.mp ops_part50_wr op h, List.forall_iff_forall_mem.mp ops_part51_wr op h, List.forall_iff_forall_mem.mp ops_part52_wr op h, List.forall_iff_forall_mem.mp ops_part53_wr op h, List.forall_iff_forall_mem.mp ops_part54_wr op h, List.forall_iff_forall_mem.mp ops_part55_wr op h, List.forall_iff_forall_mem.mp ops_part56_wr op h, List.forall_iff_forall_mem.mp ops_part57_wr op h, List.forall_iff_forall_mem.mp ops_part58_wr op h, List.forall_iff_forall_mem.mp ops_part59_wr op h, List.forall_iff_forall_mem.mp ops_part60_wr op h, List.forall_iff_forall_mem.mp ops_part61_wr op h, List.forall_iff_forall_mem.mp ops_part62_wr op h, List.forall_iff_forall_mem.mp ops_part63_wr op h, List.forall_iff_forall_mem.mp ops_part64_wr op h, List.forall_iff_forall_mem.mp ops_part65_wr op h, List.forall_iff_forall_mem.mp ops_part66_wr op h, List.forall_iff_forall_mem.mp ops_part67_wr op h, List.forall_iff_forall_mem.mp ops_part68_wr op h, List.forall_iff_forall_mem.mp ops_part69_wr op h, List.forall_iff_forall_mem.mp ops_part70_wr op h, List.forall_iff_forall_mem.mp ops_part71_wr op h, List.forall_iff_forall_mem.mp ops_part72_wr op h, List.forall_iff_forall_mem.mp ops_part73_wr op h, List.forall_iff_forall_mem.mp ops_part74_wr op h]

/-- Every reference of index below 25 — the argument arrays — is left as it was by the whole line. -/
theorem after_ops_keep (V0 : Valuation τ sig (Elt F)) (r : Ref sig .tc) (hr : r.idx.val < 25) :
    after ops V0 (Proc.devRef .tc r) = V0 (Proc.devRef .tc r) :=
  kept_of_writesResults ops ops_wr V0 r hr

/-- No operation writes `main_arg0`. -/
theorem after_ops_arg0 (V0 : Valuation τ sig (Elt F)) :
    after ops V0 (Proc.devRef .tc main_arg0) = V0 (Proc.devRef .tc main_arg0) :=
  kept_of_writesResults ops ops_wr V0 main_arg0 (by decide)
/-- No operation writes `main_arg1`. -/
theorem after_ops_arg1 (V0 : Valuation τ sig (Elt F)) :
    after ops V0 (Proc.devRef .tc main_arg1) = V0 (Proc.devRef .tc main_arg1) :=
  kept_of_writesResults ops ops_wr V0 main_arg1 (by decide)
/-- No operation writes `main_arg2`. -/
theorem after_ops_arg2 (V0 : Valuation τ sig (Elt F)) :
    after ops V0 (Proc.devRef .tc main_arg2) = V0 (Proc.devRef .tc main_arg2) :=
  kept_of_writesResults ops ops_wr V0 main_arg2 (by decide)
/-- No operation writes `main_arg3`. -/
theorem after_ops_arg3 (V0 : Valuation τ sig (Elt F)) :
    after ops V0 (Proc.devRef .tc main_arg3) = V0 (Proc.devRef .tc main_arg3) :=
  kept_of_writesResults ops ops_wr V0 main_arg3 (by decide)
/-- No operation writes `main_arg4`. -/
theorem after_ops_arg4 (V0 : Valuation τ sig (Elt F)) :
    after ops V0 (Proc.devRef .tc main_arg4) = V0 (Proc.devRef .tc main_arg4) :=
  kept_of_writesResults ops ops_wr V0 main_arg4 (by decide)
/-- No operation writes `main_arg5`. -/
theorem after_ops_arg5 (V0 : Valuation τ sig (Elt F)) :
    after ops V0 (Proc.devRef .tc main_arg5) = V0 (Proc.devRef .tc main_arg5) :=
  kept_of_writesResults ops ops_wr V0 main_arg5 (by decide)
/-- No operation writes `main_arg6`. -/
theorem after_ops_arg6 (V0 : Valuation τ sig (Elt F)) :
    after ops V0 (Proc.devRef .tc main_arg6) = V0 (Proc.devRef .tc main_arg6) :=
  kept_of_writesResults ops ops_wr V0 main_arg6 (by decide)
/-- No operation writes `main_arg7`. -/
theorem after_ops_arg7 (V0 : Valuation τ sig (Elt F)) :
    after ops V0 (Proc.devRef .tc main_arg7) = V0 (Proc.devRef .tc main_arg7) :=
  kept_of_writesResults ops ops_wr V0 main_arg7 (by decide)
/-- No operation writes `main_arg8`. -/
theorem after_ops_arg8 (V0 : Valuation τ sig (Elt F)) :
    after ops V0 (Proc.devRef .tc main_arg8) = V0 (Proc.devRef .tc main_arg8) :=
  kept_of_writesResults ops ops_wr V0 main_arg8 (by decide)
/-- No operation writes `main_arg9`. -/
theorem after_ops_arg9 (V0 : Valuation τ sig (Elt F)) :
    after ops V0 (Proc.devRef .tc main_arg9) = V0 (Proc.devRef .tc main_arg9) :=
  kept_of_writesResults ops ops_wr V0 main_arg9 (by decide)
/-- No operation writes `main_arg10`. -/
theorem after_ops_arg10 (V0 : Valuation τ sig (Elt F)) :
    after ops V0 (Proc.devRef .tc main_arg10) = V0 (Proc.devRef .tc main_arg10) :=
  kept_of_writesResults ops ops_wr V0 main_arg10 (by decide)
/-- No operation writes `main_arg11`. -/
theorem after_ops_arg11 (V0 : Valuation τ sig (Elt F)) :
    after ops V0 (Proc.devRef .tc main_arg11) = V0 (Proc.devRef .tc main_arg11) :=
  kept_of_writesResults ops ops_wr V0 main_arg11 (by decide)
/-- No operation writes `main_arg12`. -/
theorem after_ops_arg12 (V0 : Valuation τ sig (Elt F)) :
    after ops V0 (Proc.devRef .tc main_arg12) = V0 (Proc.devRef .tc main_arg12) :=
  kept_of_writesResults ops ops_wr V0 main_arg12 (by decide)
/-- No operation writes `main_arg13`. -/
theorem after_ops_arg13 (V0 : Valuation τ sig (Elt F)) :
    after ops V0 (Proc.devRef .tc main_arg13) = V0 (Proc.devRef .tc main_arg13) :=
  kept_of_writesResults ops ops_wr V0 main_arg13 (by decide)
/-- No operation writes `main_arg14`. -/
theorem after_ops_arg14 (V0 : Valuation τ sig (Elt F)) :
    after ops V0 (Proc.devRef .tc main_arg14) = V0 (Proc.devRef .tc main_arg14) :=
  kept_of_writesResults ops ops_wr V0 main_arg14 (by decide)
/-- No operation writes `main_arg15`. -/
theorem after_ops_arg15 (V0 : Valuation τ sig (Elt F)) :
    after ops V0 (Proc.devRef .tc main_arg15) = V0 (Proc.devRef .tc main_arg15) :=
  kept_of_writesResults ops ops_wr V0 main_arg15 (by decide)
/-- No operation writes `main_arg16`. -/
theorem after_ops_arg16 (V0 : Valuation τ sig (Elt F)) :
    after ops V0 (Proc.devRef .tc main_arg16) = V0 (Proc.devRef .tc main_arg16) :=
  kept_of_writesResults ops ops_wr V0 main_arg16 (by decide)
/-- No operation writes `main_arg17`. -/
theorem after_ops_arg17 (V0 : Valuation τ sig (Elt F)) :
    after ops V0 (Proc.devRef .tc main_arg17) = V0 (Proc.devRef .tc main_arg17) :=
  kept_of_writesResults ops ops_wr V0 main_arg17 (by decide)
/-- No operation writes `main_arg18`. -/
theorem after_ops_arg18 (V0 : Valuation τ sig (Elt F)) :
    after ops V0 (Proc.devRef .tc main_arg18) = V0 (Proc.devRef .tc main_arg18) :=
  kept_of_writesResults ops ops_wr V0 main_arg18 (by decide)
/-- No operation writes `main_arg19`. -/
theorem after_ops_arg19 (V0 : Valuation τ sig (Elt F)) :
    after ops V0 (Proc.devRef .tc main_arg19) = V0 (Proc.devRef .tc main_arg19) :=
  kept_of_writesResults ops ops_wr V0 main_arg19 (by decide)
/-- No operation writes `main_arg20`. -/
theorem after_ops_arg20 (V0 : Valuation τ sig (Elt F)) :
    after ops V0 (Proc.devRef .tc main_arg20) = V0 (Proc.devRef .tc main_arg20) :=
  kept_of_writesResults ops ops_wr V0 main_arg20 (by decide)
/-- No operation writes `main_arg21`. -/
theorem after_ops_arg21 (V0 : Valuation τ sig (Elt F)) :
    after ops V0 (Proc.devRef .tc main_arg21) = V0 (Proc.devRef .tc main_arg21) :=
  kept_of_writesResults ops ops_wr V0 main_arg21 (by decide)
/-- No operation writes `main_arg22`. -/
theorem after_ops_arg22 (V0 : Valuation τ sig (Elt F)) :
    after ops V0 (Proc.devRef .tc main_arg22) = V0 (Proc.devRef .tc main_arg22) :=
  kept_of_writesResults ops ops_wr V0 main_arg22 (by decide)
/-- No operation writes `main_arg23`. -/
theorem after_ops_arg23 (V0 : Valuation τ sig (Elt F)) :
    after ops V0 (Proc.devRef .tc main_arg23) = V0 (Proc.devRef .tc main_arg23) :=
  kept_of_writesResults ops ops_wr V0 main_arg23 (by decide)
/-- No operation writes `main_arg24`. -/
theorem after_ops_arg24 (V0 : Valuation τ sig (Elt F)) :
    after ops V0 (Proc.devRef .tc main_arg24) = V0 (Proc.devRef .tc main_arg24) :=
  kept_of_writesResults ops ops_wr V0 main_arg24 (by decide)

end Cert.ReferenceIdeal.RefValue

end
-- ==== Proof.RefFresh.lean ====
import proofs.«181228_j76424648065777_1_alg».proof.Proof.RefOps

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo

variable {F : FTy → Type} [FloatOps F]

/-! In each window every operation's set of undetermined buffers is empty by computation (one `rfl` per operation); the
whole list is the 75 windows one after the other. -/

theorem ops_part0_fresh : (ops_part0 : List (HloOp τ sig (Elt F))).Forall fun op => op.fresh = ∅ := by
  repeat (refine ⟨rfl, ?_⟩)
  exact rfl
theorem ops_part1_fresh : (ops_part1 : List (HloOp τ sig (Elt F))).Forall fun op => op.fresh = ∅ := by
  repeat (refine ⟨rfl, ?_⟩)
  exact rfl
theorem ops_part2_fresh : (ops_part2 : List (HloOp τ sig (Elt F))).Forall fun op => op.fresh = ∅ := by
  repeat (refine ⟨rfl, ?_⟩)
  exact rfl
theorem ops_part3_fresh : (ops_part3 : List (HloOp τ sig (Elt F))).Forall fun op => op.fresh = ∅ := by
  repeat (refine ⟨rfl, ?_⟩)
  exact rfl
theorem ops_part4_fresh : (ops_part4 : List (HloOp τ sig (Elt F))).Forall fun op => op.fresh = ∅ := by
  repeat (refine ⟨rfl, ?_⟩)
  exact rfl
theorem ops_part5_fresh : (ops_part5 : List (HloOp τ sig (Elt F))).Forall fun op => op.fresh = ∅ := by
  repeat (refine ⟨rfl, ?_⟩)
  exact rfl
theorem ops_part6_fresh : (ops_part6 : List (HloOp τ sig (Elt F))).Forall fun op => op.fresh = ∅ := by
  repeat (refine ⟨rfl, ?_⟩)
  exact rfl
theorem ops_part7_fresh : (ops_part7 : List (HloOp τ sig (Elt F))).Forall fun op => op.fresh = ∅ := by
  repeat (refine ⟨rfl, ?_⟩)
  exact rfl
theorem ops_part8_fresh : (ops_part8 : List (HloOp τ sig (Elt F))).Forall fun op => op.fresh = ∅ := by
  repeat (refine ⟨rfl, ?_⟩)
  exact rfl
theorem ops_part9_fresh : (ops_part9 : List (HloOp τ sig (Elt F))).Forall fun op => op.fresh = ∅ := by
  repeat (refine ⟨rfl, ?_⟩)
  exact rfl
theorem ops_part10_fresh : (ops_part10 : List (HloOp τ sig (Elt F))).Forall fun op => op.fresh = ∅ := by
  repeat (refine ⟨rfl, ?_⟩)
  exact rfl
theorem ops_part11_fresh : (ops_part11 : List (HloOp τ sig (Elt F))).Forall fun op => op.fresh = ∅ := by
  repeat (refine ⟨rfl, ?_⟩)
  exact rfl
theorem ops_part12_fresh : (ops_part12 : List (HloOp τ sig (Elt F))).Forall fun op => op.fresh = ∅ := by
  repeat (refine ⟨rfl, ?_⟩)
  exact rfl
theorem ops_part13_fresh : (ops_part13 : List (HloOp τ sig (Elt F))).Forall fun op => op.fresh = ∅ := by
  repeat (refine ⟨rfl, ?_⟩)
  exact rfl
theorem ops_part14_fresh : (ops_part14 : List (HloOp τ sig (Elt F))).Forall fun op => op.fresh = ∅ := by
  repeat (refine ⟨rfl, ?_⟩)
  exact rfl
theorem ops_part15_fresh : (ops_part15 : List (HloOp τ sig (Elt F))).Forall fun op => op.fresh = ∅ := by
  repeat (refine ⟨rfl, ?_⟩)
  exact rfl
theorem ops_part16_fresh : (ops_part16 : List (HloOp τ sig (Elt F))).Forall fun op => op.fresh = ∅ := by
  repeat (refine ⟨rfl, ?_⟩)
  exact rfl
theorem ops_part17_fresh : (ops_part17 : List (HloOp τ sig (Elt F))).Forall fun op => op.fresh = ∅ := by
  repeat (refine ⟨rfl, ?_⟩)
  exact rfl
theorem ops_part18_fresh : (ops_part18 : List (HloOp τ sig (Elt F))).Forall fun op => op.fresh = ∅ := by
  repeat (refine ⟨rfl, ?_⟩)
  exact rfl
theorem ops_part19_fresh : (ops_part19 : List (HloOp τ sig (Elt F))).Forall fun op => op.fresh = ∅ := by
  repeat (refine ⟨rfl, ?_⟩)
  exact rfl
theorem ops_part20_fresh : (ops_part20 : List (HloOp τ sig (Elt F))).Forall fun op => op.fresh = ∅ := by
  repeat (refine ⟨rfl, ?_⟩)
  exact rfl
theorem ops_part21_fresh : (ops_part21 : List (HloOp τ sig (Elt F))).Forall fun op => op.fresh = ∅ := by
  repeat (refine ⟨rfl, ?_⟩)
  exact rfl
theorem ops_part22_fresh : (ops_part22 : List (HloOp τ sig (Elt F))).Forall fun op => op.fresh = ∅ := by
  repeat (refine ⟨rfl, ?_⟩)
  exact rfl
theorem ops_part23_fresh : (ops_part23 : List (HloOp τ sig (Elt F))).Forall fun op => op.fresh = ∅ := by
  repeat (refine ⟨rfl, ?_⟩)
  exact rfl
theorem ops_part24_fresh : (ops_part24 : List (HloOp τ sig (Elt F))).Forall fun op => op.fresh = ∅ := by
  repeat (refine ⟨rfl, ?_⟩)
  exact rfl
theorem ops_part25_fresh : (ops_part25 : List (HloOp τ sig (Elt F))).Forall fun op => op.fresh = ∅ := by
  repeat (refine ⟨rfl, ?_⟩)
  exact rfl
theorem ops_part26_fresh : (ops_part26 : List (HloOp τ sig (Elt F))).Forall fun op => op.fresh = ∅ := by
  repeat (refine ⟨rfl, ?_⟩)
  exact rfl
theorem ops_part27_fresh : (ops_part27 : List (HloOp τ sig (Elt F))).Forall fun op => op.fresh = ∅ := by
  repeat (refine ⟨rfl, ?_⟩)
  exact rfl
theorem ops_part28_fresh : (ops_part28 : List (HloOp τ sig (Elt F))).Forall fun op => op.fresh = ∅ := by
  repeat (refine ⟨rfl, ?_⟩)
  exact rfl
theorem ops_part29_fresh : (ops_part29 : List (HloOp τ sig (Elt F))).Forall fun op => op.fresh = ∅ := by
  repeat (refine ⟨rfl, ?_⟩)
  exact rfl
theorem ops_part30_fresh : (ops_part30 : List (HloOp τ sig (Elt F))).Forall fun op => op.fresh = ∅ := by
  repeat (refine ⟨rfl, ?_⟩)
  exact rfl
theorem ops_part31_fresh : (ops_part31 : List (HloOp τ sig (Elt F))).Forall fun op => op.fresh = ∅ := by
  repeat (refine ⟨rfl, ?_⟩)
  exact rfl
theorem ops_part32_fresh : (ops_part32 : List (HloOp τ sig (Elt F))).Forall fun op => op.fresh = ∅ := by
  repeat (refine ⟨rfl, ?_⟩)
  exact rfl
theorem ops_part33_fresh : (ops_part33 : List (HloOp τ sig (Elt F))).Forall fun op => op.fresh = ∅ := by
  repeat (refine ⟨rfl, ?_⟩)
  exact rfl
theorem ops_part34_fresh : (ops_part34 : List (HloOp τ sig (Elt F))).Forall fun op => op.fresh = ∅ := by
  repeat (refine ⟨rfl, ?_⟩)
  exact rfl
theorem ops_part35_fresh : (ops_part35 : List (HloOp τ sig (Elt F))).Forall fun op => op.fresh = ∅ := by
  repeat (refine ⟨rfl, ?_⟩)
  exact rfl
theorem ops_part36_fresh : (ops_part36 : List (HloOp τ sig (Elt F))).Forall fun op => op.fresh = ∅ := by
  repeat (refine ⟨rfl, ?_⟩)
  exact rfl
theorem ops_part37_fresh : (ops_part37 : List (HloOp τ sig (Elt F))).Forall fun op => op.fresh = ∅ := by
  repeat (refine ⟨rfl, ?_⟩)
  exact rfl
theorem ops_part38_fresh : (ops_part38 : List (HloOp τ sig (Elt F))).Forall fun op => op.fresh = ∅ := by
  repeat (refine ⟨rfl, ?_⟩)
  exact rfl
theorem ops_part39_fresh : (ops_part39 : List (HloOp τ sig (Elt F))).Forall fun op => op.fresh = ∅ := by
  repeat (refine ⟨rfl, ?_⟩)
  exact rfl
theorem ops_part40_fresh : (ops_part40 : List (HloOp τ sig (Elt F))).Forall fun op => op.fresh = ∅ := by
  repeat (refine ⟨rfl, ?_⟩)
  exact rfl
theorem ops_part41_fresh : (ops_part41 : List (HloOp τ sig (Elt F))).Forall fun op => op.fresh = ∅ := by
  repeat (refine ⟨rfl, ?_⟩)
  exact rfl
theorem ops_part42_fresh : (ops_part42 : List (HloOp τ sig (Elt F))).Forall fun op => op.fresh = ∅ := by
  repeat (refine ⟨rfl, ?_⟩)
  exact rfl
theorem ops_part43_fresh : (ops_part43 : List (HloOp τ sig (Elt F))).Forall fun op => op.fresh = ∅ := by
  repeat (refine ⟨rfl, ?_⟩)
  exact rfl
theorem ops_part44_fresh : (ops_part44 : List (HloOp τ sig (Elt F))).Forall fun op => op.fresh = ∅ := by
  repeat (refine ⟨rfl, ?_⟩)
  exact rfl
theorem ops_part45_fresh : (ops_part45 : List (HloOp τ sig (Elt F))).Forall fun op => op.fresh = ∅ := by
  repeat (refine ⟨rfl, ?_⟩)
  exact rfl
theorem ops_part46_fresh : (ops_part46 : List (HloOp τ sig (Elt F))).Forall fun op => op.fresh = ∅ := by
  repeat (refine ⟨rfl, ?_⟩)
  exact rfl
theorem ops_part47_fresh : (ops_part47 : List (HloOp τ sig (Elt F))).Forall fun op => op.fresh = ∅ := by
  repeat (refine ⟨rfl, ?_⟩)
  exact rfl
theorem ops_part48_fresh : (ops_part48 : List (HloOp τ sig (Elt F))).Forall fun op => op.fresh = ∅ := by
  repeat (refine ⟨rfl, ?_⟩)
  exact rfl
theorem ops_part49_fresh : (ops_part49 : List (HloOp τ sig (Elt F))).Forall fun op => op.fresh = ∅ := by
  repeat (refine ⟨rfl, ?_⟩)
  exact rfl
theorem ops_part50_fresh : (ops_part50 : List (HloOp τ sig (Elt F))).Forall fun op => op.fresh = ∅ := by
  repeat (refine ⟨rfl, ?_⟩)
  exact rfl
theorem ops_part51_fresh : (ops_part51 : List (HloOp τ sig (Elt F))).Forall fun op => op.fresh = ∅ := by
  repeat (refine ⟨rfl, ?_⟩)
  exact rfl
theorem ops_part52_fresh : (ops_part52 : List (HloOp τ sig (Elt F))).Forall fun op => op.fresh = ∅ := by
  repeat (refine ⟨rfl, ?_⟩)
  exact rfl
theorem ops_part53_fresh : (ops_part53 : List (HloOp τ sig (Elt F))).Forall fun op => op.fresh = ∅ := by
  repeat (refine ⟨rfl, ?_⟩)
  exact rfl
theorem ops_part54_fresh : (ops_part54 : List (HloOp τ sig (Elt F))).Forall fun op => op.fresh = ∅ := by
  repeat (refine ⟨rfl, ?_⟩)
  exact rfl
theorem ops_part55_fresh : (ops_part55 : List (HloOp τ sig (Elt F))).Forall fun op => op.fresh = ∅ := by
  repeat (refine ⟨rfl, ?_⟩)
  exact rfl
theorem ops_part56_fresh : (ops_part56 : List (HloOp τ sig (Elt F))).Forall fun op => op.fresh = ∅ := by
  repeat (refine ⟨rfl, ?_⟩)
  exact rfl
theorem ops_part57_fresh : (ops_part57 : List (HloOp τ sig (Elt F))).Forall fun op => op.fresh = ∅ := by
  repeat (refine ⟨rfl, ?_⟩)
  exact rfl
theorem ops_part58_fresh : (ops_part58 : List (HloOp τ sig (Elt F))).Forall fun op => op.fresh = ∅ := by
  repeat (refine ⟨rfl, ?_⟩)
  exact rfl
theorem ops_part59_fresh : (ops_part59 : List (HloOp τ sig (Elt F))).Forall fun op => op.fresh = ∅ := by
  repeat (refine ⟨rfl, ?_⟩)
  exact rfl
theorem ops_part60_fresh : (ops_part60 : List (HloOp τ sig (Elt F))).Forall fun op => op.fresh = ∅ := by
  repeat (refine ⟨rfl, ?_⟩)
  exact rfl
theorem ops_part61_fresh : (ops_part61 : List (HloOp τ sig (Elt F))).Forall fun op => op.fresh = ∅ := by
  repeat (refine ⟨rfl, ?_⟩)
  exact rfl
theorem ops_part62_fresh : (ops_part62 : List (HloOp τ sig (Elt F))).Forall fun op => op.fresh = ∅ := by
  repeat (refine ⟨rfl, ?_⟩)
  exact rfl
theorem ops_part63_fresh : (ops_part63 : List (HloOp τ sig (Elt F))).Forall fun op => op.fresh = ∅ := by
  repeat (refine ⟨rfl, ?_⟩)
  exact rfl
theorem ops_part64_fresh : (ops_part64 : List (HloOp τ sig (Elt F))).Forall fun op => op.fresh = ∅ := by
  repeat (refine ⟨rfl, ?_⟩)
  exact rfl
theorem ops_part65_fresh : (ops_part65 : List (HloOp τ sig (Elt F))).Forall fun op => op.fresh = ∅ := by
  repeat (refine ⟨rfl, ?_⟩)
  exact rfl
theorem ops_part66_fresh : (ops_part66 : List (HloOp τ sig (Elt F))).Forall fun op => op.fresh = ∅ := by
  repeat (refine ⟨rfl, ?_⟩)
  exact rfl
theorem ops_part67_fresh : (ops_part67 : List (HloOp τ sig (Elt F))).Forall fun op => op.fresh = ∅ := by
  repeat (refine ⟨rfl, ?_⟩)
  exact rfl
theorem ops_part68_fresh : (ops_part68 : List (HloOp τ sig (Elt F))).Forall fun op => op.fresh = ∅ := by
  repeat (refine ⟨rfl, ?_⟩)
  exact rfl
theorem ops_part69_fresh : (ops_part69 : List (HloOp τ sig (Elt F))).Forall fun op => op.fresh = ∅ := by
  repeat (refine ⟨rfl, ?_⟩)
  exact rfl
theorem ops_part70_fresh : (ops_part70 : List (HloOp τ sig (Elt F))).Forall fun op => op.fresh = ∅ := by
  repeat (refine ⟨rfl, ?_⟩)
  exact rfl
theorem ops_part71_fresh : (ops_part71 : List (HloOp τ sig (Elt F))).Forall fun op => op.fresh = ∅ := by
  repeat (refine ⟨rfl, ?_⟩)
  exact rfl
theorem ops_part72_fresh : (ops_part72 : List (HloOp τ sig (Elt F))).Forall fun op => op.fresh = ∅ := by
  repeat (refine ⟨rfl, ?_⟩)
  exact rfl
theorem ops_part73_fresh : (ops_part73 : List (HloOp τ sig (Elt F))).Forall fun op => op.fresh = ∅ := by
  repeat (refine ⟨rfl, ?_⟩)
  exact rfl
theorem ops_part74_fresh : (ops_part74 : List (HloOp τ sig (Elt F))).Forall fun op => op.fresh = ∅ := by
  repeat (refine ⟨rfl, ?_⟩)
  exact rfl

/-- No operation of the whole list leaves a buffer undetermined. -/
theorem ops_fresh : ∀ op ∈ (Value.ops : List (HloOp τ sig (Elt F))), op.fresh = ∅ := by
    intro op h
    simp only [Value.ops, List.mem_append] at h
    rcases h with h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h, List.forall_iff_forall_mem.mp ops_part7_fresh op h, List.forall_iff_forall_mem.mp ops_part8_fresh op h, List.forall_iff_forall_mem.mp ops_part9_fresh op h, List.forall_iff_forall_mem.mp ops_part10_fresh op h, List.forall_iff_forall_mem.mp ops_part11_fresh op h, List.forall_iff_forall_mem.mp ops_part12_fresh op h, List.forall_iff_forall_mem.mp ops_part13_fresh op h, List.forall_iff_forall_mem.mp ops_part14_fresh op h, List.forall_iff_forall_mem.mp ops_part15_fresh op h, List.forall_iff_forall_mem.mp ops_part16_fresh op h, List.forall_iff_forall_mem.mp ops_part17_fresh op h, List.forall_iff_forall_mem.mp ops_part18_fresh op h, List.forall_iff_forall_mem.mp ops_part19_fresh op h, List.forall_iff_forall_mem.mp ops_part20_fresh op h, List.forall_iff_forall_mem.mp ops_part21_fresh op h, List.forall_iff_forall_mem.mp ops_part22_fresh op h, List.forall_iff_forall_mem.mp ops_part23_fresh op h, List.forall_iff_forall_mem.mp ops_part24_fresh op h, List.forall_iff_forall_mem.mp ops_part25_fresh op h, List.forall_iff_forall_mem.mp ops_part26_fresh op h, List.forall_iff_forall_mem.mp ops_part27_fresh op h, List.forall_iff_forall_mem.mp ops_part28_fresh op h, List.forall_iff_forall_mem.mp ops_part29_fresh op h, List.forall_iff_forall_mem.mp ops_part30_fresh op h, List.forall_iff_forall_mem.mp ops_part31_fresh op h, List.forall_iff_forall_mem.mp ops_part32_fresh op h, List.forall_iff_forall_mem.mp ops_part33_fresh op h, List.forall_iff_forall_mem.mp ops_part34_fresh op h, List.forall_iff_forall_mem.mp ops_part35_fresh op h, List.forall_iff_forall_mem.mp ops_part36_fresh op h, List.forall_iff_forall_mem.mp ops_part37_fresh op h, List.forall_iff_forall_mem.mp ops_part38_fresh op h, List.forall_iff_forall_mem.mp ops_part39_fresh op h, List.forall_iff_forall_mem.mp ops_part40_fresh op h, List.forall_iff_forall_mem.mp ops_part41_fresh op h, List.forall_iff_forall_mem.mp ops_part42_fresh op h, List.forall_iff_forall_mem.mp ops_part43_fresh op h, List.forall_iff_forall_mem.mp ops_part44_fresh op h, List.forall_iff_forall_mem.mp ops_part45_fresh op h, List.forall_iff_forall_mem.mp ops_part46_fresh op h, List.forall_iff_forall_mem.mp ops_part47_fresh op h, List.forall_iff_forall_mem.mp ops_part48_fresh op h, List.forall_iff_forall_mem.mp ops_part49_fresh op h, List.forall_iff_forall_mem.mp ops_part50_fresh op h, List.forall_iff_forall_mem.mp ops_part51_fresh op h, List.forall_iff_forall_mem.mp ops_part52_fresh op h, List.forall_iff_forall_mem.mp ops_part53_fresh op h, List.forall_iff_forall_mem.mp ops_part54_fresh op h, List.forall_iff_forall_mem.mp ops_part55_fresh op h, List.forall_iff_forall_mem.mp ops_part56_fresh op h, List.forall_iff_forall_mem.mp ops_part57_fresh op h, List.forall_iff_forall_mem.mp ops_part58_fresh op h, List.forall_iff_forall_mem.mp ops_part59_fresh op h, List.forall_iff_forall_mem.mp ops_part60_fresh op h, List.forall_iff_forall_mem.mp ops_part61_fresh op h, List.forall_iff_forall_mem.mp ops_part62_fresh op h, List.forall_iff_forall_mem.mp ops_part63_fresh op h, List.forall_iff_forall_mem.mp ops_part64_fresh op h, List.forall_iff_forall_mem.mp ops_part65_fresh op h, List.forall_iff_forall_mem.mp ops_part66_fresh op h, List.forall_iff_forall_mem.mp ops_part67_fresh op h, List.forall_iff_forall_mem.mp ops_part68_fresh op h, List.forall_iff_forall_mem.mp ops_part69_fresh op h, List.forall_iff_forall_mem.mp ops_part70_fresh op h, List.forall_iff_forall_mem.mp ops_part71_fresh op h, List.forall_iff_forall_mem.mp ops_part72_fresh op h, List.forall_iff_forall_mem.mp ops_part73_fresh op h, List.forall_iff_forall_mem.mp ops_part74_fresh op h]

end Cert.ReferenceIdeal.RefValue

end
-- ==== Proof.RAfterBase.lean ====
/-
  The reference's operations, folded: the vocabulary.

  The contents of the program's buffers after all its operations, from arbitrary contents V0, are the fold that applies
  each operation's function to its operands' contents.  Named here: that final valuation, the stacked state two of its
  buffers hold, the structured time step and its last layer's hidden array at the valuation's input and weights, the
  first state, and the state after k steps.
-/
import proofs.«181228_j76424648065777_1_alg».proof.Proof.RefOps
import proofs.«181228_j76424648065777_1_alg».proof.Proof.RArgs
import Idealize.ShloMosaic.Lib.Tactic

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The buffers' contents after all the operations, from contents V0. -/
def fin (V0 : Valuation τ sig (Elt F)) : Valuation τ sig (Elt F) := StableHlo.after (Value.ops (F := F)) V0

/-- … which is the fold of the operations over V0. -/
theorem fin_def (V0 : Valuation τ sig (Elt F)) : fin V0 = StableHlo.after (Value.ops (F := F)) V0 := rfl

attribute [irreducible] fin

/-- The stacked state held by two buffers of the final contents. -/
abbrev stOf (V0 : Valuation τ sig (Elt F)) (h c : FVec F S3x4096x256 .f32) : Spec.St F := { hs := h, cs := c }

/-- The structured step at the valuation's input and weights. -/
abbrev stp (V0 : Valuation τ sig (Elt F)) (s : Spec.St F) : Spec.St F :=
  Spec.step (argsOf V0).x (Spec.layerW0 (argsOf V0)) (Spec.layerW1 (argsOf V0)) (Spec.layerW2 (argsOf V0)) s

/-- The last layer's new hidden array of the structured step. -/
abbrev tp (V0 : Valuation τ sig (Elt F)) (s : Spec.St F) : FVec F S4096x256 .f32 :=
  Spec.newH2 (argsOf V0).x (Spec.layerW0 (argsOf V0)) (Spec.layerW1 (argsOf V0)) (Spec.layerW2 (argsOf V0)) s

/-- The first state: the two stacked argument arrays. -/
abbrev s0 (V0 : Valuation τ sig (Elt F)) : Spec.St F := { hs := (argsOf V0).hid, cs := (argsOf V0).cur }

/-- The state after k steps. -/
abbrev stK (V0 : Valuation τ sig (Elt F)) (k : Nat) : Spec.St F :=
  Spec.stAt (argsOf V0).x (Spec.layerW0 (argsOf V0)) (Spec.layerW1 (argsOf V0)) (Spec.layerW2 (argsOf V0)) (s0 V0) k

end Cert.ReferenceIdeal.RefValue
end
-- ==== Proof.RAfterT0.lean ====
/-
  The reference's operations, folded: time step 1.

  The two stacks the time step leaves and the array it keeps are the structured step and its last layer's hidden array
  applied to the two stacks the previous step left (for the first step: the two stacked argument arrays) — both sides
  are the same operations in the same nesting, so the equation holds by unfolding the definitions and evaluating which
  operation wrote which buffer.
-/
import proofs.«181228_j76424648065777_1_alg».proof.Proof.RAfterBase

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The first time step, read off the fold. -/
theorem fold_step0 (V0 : Valuation τ sig (Elt F)) :
    ((fin V0 (Proc.devRef .tc main_v416) : FVec F S3x4096x256 .f32), (fin V0 (Proc.devRef .tc main_v420) : FVec F S3x4096x256 .f32),
      (fin V0 (Proc.devRef .tc main_v412) : FVec F S4096x256 .f32))
      = ((stp V0 (s0 V0)).hs, (stp V0 (s0 V0)).cs, tp V0 (s0 V0)) := by
  sl_kernel_rfl

end Cert.ReferenceIdeal.RefValue
end
-- ==== Proof.RAfterT1.lean ====
/-
  The reference's operations, folded: time step 2.

  The two stacks the time step leaves and the array it keeps are the structured step and its last layer's hidden array
  applied to the two stacks the previous step left (for the first step: the two stacked argument arrays) — both sides
  are the same operations in the same nesting, so the equation holds by unfolding the definitions and evaluating which
  operation wrote which buffer.
-/
import proofs.«181228_j76424648065777_1_alg».proof.Proof.RAfterBase

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- Time step 2, read off the fold, from the stacks step 1 left. -/
theorem fold_step1 (V0 : Valuation τ sig (Elt F)) :
    ((fin V0 (Proc.devRef .tc main_v837) : FVec F S3x4096x256 .f32), (fin V0 (Proc.devRef .tc main_v841) : FVec F S3x4096x256 .f32),
      (fin V0 (Proc.devRef .tc main_v833) : FVec F S4096x256 .f32))
      = ((stp V0 (stOf V0 (fin V0 (Proc.devRef .tc main_v416)) (fin V0 (Proc.devRef .tc main_v420)))).hs,
         (stp V0 (stOf V0 (fin V0 (Proc.devRef .tc main_v416)) (fin V0 (Proc.devRef .tc main_v420)))).cs,
         tp V0 (stOf V0 (fin V0 (Proc.devRef .tc main_v416)) (fin V0 (Proc.devRef .tc main_v420)))) := by
  sl_kernel_rfl

end Cert.ReferenceIdeal.RefValue
end
-- ==== Proof.RAfterT2.lean ====
/-
  The reference's operations, folded: time step 3.

  The two stacks the time step leaves and the array it keeps are the structured step and its last layer's hidden array
  applied to the two stacks the previous step left (for the first step: the two stacked argument arrays) — both sides
  are the same operations in the same nesting, so the equation holds by unfolding the definitions and evaluating which
  operation wrote which buffer.
-/
import proofs.«181228_j76424648065777_1_alg».proof.Proof.RAfterBase

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- Time step 3, read off the fold, from the stacks step 2 left. -/
theorem fold_step2 (V0 : Valuation τ sig (Elt F)) :
    ((fin V0 (Proc.devRef .tc main_v1258) : FVec F S3x4096x256 .f32), (fin V0 (Proc.devRef .tc main_v1262) : FVec F S3x4096x256 .f32),
      (fin V0 (Proc.devRef .tc main_v1254) : FVec F S4096x256 .f32))
      = ((stp V0 (stOf V0 (fin V0 (Proc.devRef .tc main_v837)) (fin V0 (Proc.devRef .tc main_v841)))).hs,
         (stp V0 (stOf V0 (fin V0 (Proc.devRef .tc main_v837)) (fin V0 (Proc.devRef .tc main_v841)))).cs,
         tp V0 (stOf V0 (fin V0 (Proc.devRef .tc main_v837)) (fin V0 (Proc.devRef .tc main_v841)))) := by
  sl_kernel_rfl

end Cert.ReferenceIdeal.RefValue
end
-- ==== Proof.RAfterGen.lean ====
/-
  The reference's operations, folded: cutting the line of operations in two.

  The fold over a line cut in two is the fold over the second piece from the contents the first piece leaves.  The
  first piece, like the whole line, writes result buffers only, so the contents it leaves hold the argument arrays
  unchanged; the structured step and its last layer's hidden array depend on a valuation through its argument arrays
  alone.
-/
import proofs.«181228_j76424648065777_1_alg».proof.Proof.RAfterBase
import proofs.«181228_j76424648065777_1_alg».proof.Proof.RefArgsKept

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The fold over two lines one after the other is the fold over the second from what the first leaves. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The final contents, with the line cut in two. -/
theorem fin_split (P Q : List (HloOp τ sig (Elt F))) (h : (Value.ops (F := F)) = P ++ Q) (V0 : Valuation τ sig (Elt F)) :
    fin V0 = StableHlo.after Q (StableHlo.after P V0) := by
  rw [fin_def, h, after_app]

/-- The first piece of the line leaves the argument arrays as they were. -/
theorem argsOf_prefix (P Q : List (HloOp τ sig (Elt F))) (h : (Value.ops (F := F)) = P ++ Q) (V0 : Valuation τ sig (Elt F)) :
    argsOf (StableHlo.after P V0) = argsOf V0 := by
  have hP : P.Forall WritesResults := List.forall_iff_forall_mem.mpr fun op hop =>
    List.forall_iff_forall_mem.mp ops_wr op (by rw [h]; exact List.mem_append_left Q hop)
  have k := fun (r : Ref sig .tc) (hr : r.idx.val < 25) => kept_of_writesResults P hP V0 r hr
  unfold argsOf
  congr 1 <;> exact k _ (by decide)

/-- The structured step depends on a valuation through its argument arrays alone. -/
theorem stp_congr {W V0 : Valuation τ sig (Elt F)} (h : argsOf W = argsOf V0) (s : Spec.St F) : stp W s = stp V0 s := by
  show Spec.step (argsOf W).x (Spec.layerW0 (argsOf W)) (Spec.layerW1 (argsOf W)) (Spec.layerW2 (argsOf W)) s = _
  rw [h]

/-- So does its last layer's hidden array. -/
theorem tp_congr {W V0 : Valuation τ sig (Elt F)} (h : argsOf W = argsOf V0) (s : Spec.St F) : tp W s = tp V0 s := by
  show Spec.newH2 (argsOf W).x (Spec.layerW0 (argsOf W)) (Spec.layerW1 (argsOf W)) (Spec.layerW2 (argsOf W)) s = _
  rw [h]

end Cert.ReferenceIdeal.RefValue
end
-- ==== Proof.RAfterT3.lean ====
/-
  The reference's operations, folded: time step 4.

  The line of operations is cut at the window boundary just before the step's first operation.  Over the second piece,
  from ANY contents W of the buffers, the two stacks the step leaves and the array it keeps are the structured step and
  its last layer's hidden array applied to the two stacks the previous step left — both sides are the same operations in
  the same nesting, so the equation holds by unfolding the definitions and evaluating which operation wrote which
  buffer.  At W the contents the first piece leaves, whose argument arrays are the launch's, this is the step read off
  the whole fold.
-/
import proofs.«181228_j76424648065777_1_alg».proof.Proof.RAfterGen

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The line's windows before time step 4. -/
def P3 : List (HloOp τ sig (Elt F)) := ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21)))))))))))))))))))))

/-- The line's windows from time step 4 on. -/
def Q3 : List (HloOp τ sig (Elt F)) := ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43 ++ (ops_part44 ++ (ops_part45 ++ (ops_part46 ++ (ops_part47 ++ (ops_part48 ++ (ops_part49 ++ (ops_part50 ++ (ops_part51 ++ (ops_part52 ++ (ops_part53 ++ (ops_part54 ++ (ops_part55 ++ (ops_part56 ++ (ops_part57 ++ (ops_part58 ++ (ops_part59 ++ (ops_part60 ++ (ops_part61 ++ (ops_part62 ++ (ops_part63 ++ (ops_part64 ++ (ops_part65 ++ (ops_part66 ++ (ops_part67 ++ (ops_part68 ++ (ops_part69 ++ (ops_part70 ++ (ops_part71 ++ (ops_part72 ++ (ops_part73 ++ (ops_part74))))))))))))))))))))))))))))))))))))))))))))))))))))

/-- The two pieces make up the line. -/
theorem split3 : (Value.ops (F := F)) = P3 ++ Q3 := by
  sl_kernel_rfl

attribute [irreducible] P3 Q3

/-- Time step 4 read off the fold over the second piece, from any contents W of the buffers. -/
theorem foldW3 (W : Valuation τ sig (Elt F)) :
    ((StableHlo.after (Q3 (F := F)) W (Proc.devRef .tc main_v1679) : FVec F S3x4096x256 .f32), (StableHlo.after (Q3 (F := F)) W (Proc.devRef .tc main_v1683) : FVec F S3x4096x256 .f32),
      (StableHlo.after (Q3 (F := F)) W (Proc.devRef .tc main_v1675) : FVec F S4096x256 .f32))
      = ((stp W (stOf W (StableHlo.after (Q3 (F := F)) W (Proc.devRef .tc main_v1258) : FVec F S3x4096x256 .f32) (StableHlo.after (Q3 (F := F)) W (Proc.devRef .tc main_v1262) : FVec F S3x4096x256 .f32))).hs, (stp W (stOf W (StableHlo.after (Q3 (F := F)) W (Proc.devRef .tc main_v1258) : FVec F S3x4096x256 .f32) (StableHlo.after (Q3 (F := F)) W (Proc.devRef .tc main_v1262) : FVec F S3x4096x256 .f32))).cs, tp W (stOf W (StableHlo.after (Q3 (F := F)) W (Proc.devRef .tc main_v1258) : FVec F S3x4096x256 .f32) (StableHlo.after (Q3 (F := F)) W (Proc.devRef .tc main_v1262) : FVec F S3x4096x256 .f32))) := by
  sl_kernel_rfl

/-- Time step 4, read off the fold, from the stacks step 3 left. -/
theorem fold_step3 (V0 : Valuation τ sig (Elt F)) :
    ((fin V0 (Proc.devRef .tc main_v1679) : FVec F S3x4096x256 .f32), (fin V0 (Proc.devRef .tc main_v1683) : FVec F S3x4096x256 .f32),
      (fin V0 (Proc.devRef .tc main_v1675) : FVec F S4096x256 .f32))
      = ((stp V0 (stOf V0 (fin V0 (Proc.devRef .tc main_v1258)) (fin V0 (Proc.devRef .tc main_v1262)))).hs,
         (stp V0 (stOf V0 (fin V0 (Proc.devRef .tc main_v1258)) (fin V0 (Proc.devRef .tc main_v1262)))).cs,
         tp V0 (stOf V0 (fin V0 (Proc.devRef .tc main_v1258)) (fin V0 (Proc.devRef .tc main_v1262)))) := by
  have h := foldW3 (StableHlo.after (P3 (F := F)) V0)
  have ea := argsOf_prefix (P3 (F := F)) (Q3 (F := F)) split3 V0
  rw [stp_congr ea, tp_congr ea, ← fin_split (P3 (F := F)) (Q3 (F := F)) split3 V0] at h
  exact h

end Cert.ReferenceIdeal.RefValue
end
-- ==== Proof.RAfterT4.lean ====
/-
  The reference's operations, folded: time step 5.

  The line of operations is cut at the window boundary just before the step's first operation.  Over the second piece,
  from ANY contents W of the buffers, the two stacks the step leaves and the array it keeps are the structured step and
  its last layer's hidden array applied to the two stacks the previous step left — both sides are the same operations in
  the same nesting, so the equation holds by unfolding the definitions and evaluating which operation wrote which
  buffer.  At W the contents the first piece leaves, whose argument arrays are the launch's, this is the step read off
  the whole fold.
-/
import proofs.«181228_j76424648065777_1_alg».proof.Proof.RAfterGen

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The line's windows before time step 5. -/
def P4 : List (HloOp τ sig (Elt F)) := ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28))))))))))))))))))))))))))))

/-- The line's windows from time step 5 on. -/
def Q4 : List (HloOp τ sig (Elt F)) := ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43 ++ (ops_part44 ++ (ops_part45 ++ (ops_part46 ++ (ops_part47 ++ (ops_part48 ++ (ops_part49 ++ (ops_part50 ++ (ops_part51 ++ (ops_part52 ++ (ops_part53 ++ (ops_part54 ++ (ops_part55 ++ (ops_part56 ++ (ops_part57 ++ (ops_part58 ++ (ops_part59 ++ (ops_part60 ++ (ops_part61 ++ (ops_part62 ++ (ops_part63 ++ (ops_part64 ++ (ops_part65 ++ (ops_part66 ++ (ops_part67 ++ (ops_part68 ++ (ops_part69 ++ (ops_part70 ++ (ops_part71 ++ (ops_part72 ++ (ops_part73 ++ (ops_part74)))))))))))))))))))))))))))))))))))))))))))))

/-- The two pieces make up the line. -/
theorem split4 : (Value.ops (F := F)) = P4 ++ Q4 := by
  sl_kernel_rfl

attribute [irreducible] P4 Q4

/-- Time step 5 read off the fold over the second piece, from any contents W of the buffers. -/
theorem foldW4 (W : Valuation τ sig (Elt F)) :
    ((StableHlo.after (Q4 (F := F)) W (Proc.devRef .tc main_v2100) : FVec F S3x4096x256 .f32), (StableHlo.after (Q4 (F := F)) W (Proc.devRef .tc main_v2104) : FVec F S3x4096x256 .f32),
      (StableHlo.after (Q4 (F := F)) W (Proc.devRef .tc main_v2096) : FVec F S4096x256 .f32))
      = ((stp W (stOf W (StableHlo.after (Q4 (F := F)) W (Proc.devRef .tc main_v1679) : FVec F S3x4096x256 .f32) (StableHlo.after (Q4 (F := F)) W (Proc.devRef .tc main_v1683) : FVec F S3x4096x256 .f32))).hs, (stp W (stOf W (StableHlo.after (Q4 (F := F)) W (Proc.devRef .tc main_v1679) : FVec F S3x4096x256 .f32) (StableHlo.after (Q4 (F := F)) W (Proc.devRef .tc main_v1683) : FVec F S3x4096x256 .f32))).cs, tp W (stOf W (StableHlo.after (Q4 (F := F)) W (Proc.devRef .tc main_v1679) : FVec F S3x4096x256 .f32) (StableHlo.after (Q4 (F := F)) W (Proc.devRef .tc main_v1683) : FVec F S3x4096x256 .f32))) := by
  sl_kernel_rfl

/-- Time step 5, read off the fold, from the stacks step 4 left. -/
theorem fold_step4 (V0 : Valuation τ sig (Elt F)) :
    ((fin V0 (Proc.devRef .tc main_v2100) : FVec F S3x4096x256 .f32), (fin V0 (Proc.devRef .tc main_v2104) : FVec F S3x4096x256 .f32),
      (fin V0 (Proc.devRef .tc main_v2096) : FVec F S4096x256 .f32))
      = ((stp V0 (stOf V0 (fin V0 (Proc.devRef .tc main_v1679)) (fin V0 (Proc.devRef .tc main_v1683)))).hs,
         (stp V0 (stOf V0 (fin V0 (Proc.devRef .tc main_v1679)) (fin V0 (Proc.devRef .tc main_v1683)))).cs,
         tp V0 (stOf V0 (fin V0 (Proc.devRef .tc main_v1679)) (fin V0 (Proc.devRef .tc main_v1683)))) := by
  have h := foldW4 (StableHlo.after (P4 (F := F)) V0)
  have ea := argsOf_prefix (P4 (F := F)) (Q4 (F := F)) split4 V0
  rw [stp_congr ea, tp_congr ea, ← fin_split (P4 (F := F)) (Q4 (F := F)) split4 V0] at h
  exact h

end Cert.ReferenceIdeal.RefValue
end
-- ==== Proof.RAfterT5.lean ====
/-
  The reference's operations, folded: time step 6.

  The line of operations is cut at the window boundary just before the step's first operation.  Over the second piece,
  from ANY contents W of the buffers, the two stacks the step leaves and the array it keeps are the structured step and
  its last layer's hidden array applied to the two stacks the previous step left — both sides are the same operations in
  the same nesting, so the equation holds by unfolding the definitions and evaluating which operation wrote which
  buffer.  At W the contents the first piece leaves, whose argument arrays are the launch's, this is the step read off
  the whole fold.
-/
import proofs.«181228_j76424648065777_1_alg».proof.Proof.RAfterGen

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The line's windows before time step 6. -/
def P5 : List (HloOp τ sig (Elt F)) := ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36))))))))))))))))))))))))))))))))))))

/-- The line's windows from time step 6 on. -/
def Q5 : List (HloOp τ sig (Elt F)) := ops_part37 ++ (ops_part38 ++ (ops_part39 ++ (ops_part40 ++ (ops_part41 ++ (ops_part42 ++ (ops_part43 ++ (ops_part44 ++ (ops_part45 ++ (ops_part46 ++ (ops_part47 ++ (ops_part48 ++ (ops_part49 ++ (ops_part50 ++ (ops_part51 ++ (ops_part52 ++ (ops_part53 ++ (ops_part54 ++ (ops_part55 ++ (ops_part56 ++ (ops_part57 ++ (ops_part58 ++ (ops_part59 ++ (ops_part60 ++ (ops_part61 ++ (ops_part62 ++ (ops_part63 ++ (ops_part64 ++ (ops_part65 ++ (ops_part66 ++ (ops_part67 ++ (ops_part68 ++ (ops_part69 ++ (ops_part70 ++ (ops_part71 ++ (ops_part72 ++ (ops_part73 ++ (ops_part74)))))))))))))))))))))))))))))))))))))

/-- The two pieces make up the line. -/
theorem split5 : (Value.ops (F := F)) = P5 ++ Q5 := by
  sl_kernel_rfl

attribute [irreducible] P5 Q5

/-- Time step 6 read off the fold over the second piece, from any contents W of the buffers. -/
theorem foldW5 (W : Valuation τ sig (Elt F)) :
    ((StableHlo.after (Q5 (F := F)) W (Proc.devRef .tc main_v2521) : FVec F S3x4096x256 .f32), (StableHlo.after (Q5 (F := F)) W (Proc.devRef .tc main_v2525) : FVec F S3x4096x256 .f32),
      (StableHlo.after (Q5 (F := F)) W (Proc.devRef .tc main_v2517) : FVec F S4096x256 .f32))
      = ((stp W (stOf W (StableHlo.after (Q5 (F := F)) W (Proc.devRef .tc main_v2100) : FVec F S3x4096x256 .f32) (StableHlo.after (Q5 (F := F)) W (Proc.devRef .tc main_v2104) : FVec F S3x4096x256 .f32))).hs, (stp W (stOf W (StableHlo.after (Q5 (F := F)) W (Proc.devRef .tc main_v2100) : FVec F S3x4096x256 .f32) (StableHlo.after (Q5 (F := F)) W (Proc.devRef .tc main_v2104) : FVec F S3x4096x256 .f32))).cs, tp W (stOf W (StableHlo.after (Q5 (F := F)) W (Proc.devRef .tc main_v2100) : FVec F S3x4096x256 .f32) (StableHlo.after (Q5 (F := F)) W (Proc.devRef .tc main_v2104) : FVec F S3x4096x256 .f32))) := by
  sl_kernel_rfl

/-- Time step 6, read off the fold, from the stacks step 5 left. -/
theorem fold_step5 (V0 : Valuation τ sig (Elt F)) :
    ((fin V0 (Proc.devRef .tc main_v2521) : FVec F S3x4096x256 .f32), (fin V0 (Proc.devRef .tc main_v2525) : FVec F S3x4096x256 .f32),
      (fin V0 (Proc.devRef .tc main_v2517) : FVec F S4096x256 .f32))
      = ((stp V0 (stOf V0 (fin V0 (Proc.devRef .tc main_v2100)) (fin V0 (Proc.devRef .tc main_v2104)))).hs,
         (stp V0 (stOf V0 (fin V0 (Proc.devRef .tc main_v2100)) (fin V0 (Proc.devRef .tc main_v2104)))).cs,
         tp V0 (stOf V0 (fin V0 (Proc.devRef .tc main_v2100)) (fin V0 (Proc.devRef .tc main_v2104)))) := by
  have h := foldW5 (StableHlo.after (P5 (F := F)) V0)
  have ea := argsOf_prefix (P5 (F := F)) (Q5 (F := F)) split5 V0
  rw [stp_congr ea, tp_congr ea, ← fin_split (P5 (F := F)) (Q5 (F := F)) split5 V0] at h
  exact h

end Cert.ReferenceIdeal.RefValue
end
-- ==== Proof.RAfterT6.lean ====
/-
  The reference's operations, folded: time step 7.

  The line of operations is cut at the window boundary just before the step's first operation.  Over the second piece,
  from ANY contents W of the buffers, the two stacks the step leaves and the array it keeps are the structured step and
  its last layer's hidden array applied to the two stacks the previous step left — both sides are the same operations in
  the same nesting, so the equation holds by unfolding the definitions and evaluating which operation wrote which
  buffer.  At W the contents the first piece leaves, whose argument arrays are the launch's, this is the step read off
  the whole fold.
-/
import proofs.«181228_j76424648065777_1_alg».proof.Proof.RAfterGen

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The line's windows before time step 7. -/
def P6 : List (HloOp τ sig (Elt F)) := ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43)))))))))))))))))))))))))))))))))))))))))))

/-- The line's windows from time step 7 on. -/
def Q6 : List (HloOp τ sig (Elt F)) := ops_part44 ++ (ops_part45 ++ (ops_part46 ++ (ops_part47 ++ (ops_part48 ++ (ops_part49 ++ (ops_part50 ++ (ops_part51 ++ (ops_part52 ++ (ops_part53 ++ (ops_part54 ++ (ops_part55 ++ (ops_part56 ++ (ops_part57 ++ (ops_part58 ++ (ops_part59 ++ (ops_part60 ++ (ops_part61 ++ (ops_part62 ++ (ops_part63 ++ (ops_part64 ++ (ops_part65 ++ (ops_part66 ++ (ops_part67 ++ (ops_part68 ++ (ops_part69 ++ (ops_part70 ++ (ops_part71 ++ (ops_part72 ++ (ops_part73 ++ (ops_part74))))))))))))))))))))))))))))))

/-- The two pieces make up the line. -/
theorem split6 : (Value.ops (F := F)) = P6 ++ Q6 := by
  sl_kernel_rfl

attribute [irreducible] P6 Q6

/-- Time step 7 read off the fold over the second piece, from any contents W of the buffers. -/
theorem foldW6 (W : Valuation τ sig (Elt F)) :
    ((StableHlo.after (Q6 (F := F)) W (Proc.devRef .tc main_v2942) : FVec F S3x4096x256 .f32), (StableHlo.after (Q6 (F := F)) W (Proc.devRef .tc main_v2946) : FVec F S3x4096x256 .f32),
      (StableHlo.after (Q6 (F := F)) W (Proc.devRef .tc main_v2938) : FVec F S4096x256 .f32))
      = ((stp W (stOf W (StableHlo.after (Q6 (F := F)) W (Proc.devRef .tc main_v2521) : FVec F S3x4096x256 .f32) (StableHlo.after (Q6 (F := F)) W (Proc.devRef .tc main_v2525) : FVec F S3x4096x256 .f32))).hs, (stp W (stOf W (StableHlo.after (Q6 (F := F)) W (Proc.devRef .tc main_v2521) : FVec F S3x4096x256 .f32) (StableHlo.after (Q6 (F := F)) W (Proc.devRef .tc main_v2525) : FVec F S3x4096x256 .f32))).cs, tp W (stOf W (StableHlo.after (Q6 (F := F)) W (Proc.devRef .tc main_v2521) : FVec F S3x4096x256 .f32) (StableHlo.after (Q6 (F := F)) W (Proc.devRef .tc main_v2525) : FVec F S3x4096x256 .f32))) := by
  sl_kernel_rfl

/-- Time step 7, read off the fold, from the stacks step 6 left. -/
theorem fold_step6 (V0 : Valuation τ sig (Elt F)) :
    ((fin V0 (Proc.devRef .tc main_v2942) : FVec F S3x4096x256 .f32), (fin V0 (Proc.devRef .tc main_v2946) : FVec F S3x4096x256 .f32),
      (fin V0 (Proc.devRef .tc main_v2938) : FVec F S4096x256 .f32))
      = ((stp V0 (stOf V0 (fin V0 (Proc.devRef .tc main_v2521)) (fin V0 (Proc.devRef .tc main_v2525)))).hs,
         (stp V0 (stOf V0 (fin V0 (Proc.devRef .tc main_v2521)) (fin V0 (Proc.devRef .tc main_v2525)))).cs,
         tp V0 (stOf V0 (fin V0 (Proc.devRef .tc main_v2521)) (fin V0 (Proc.devRef .tc main_v2525)))) := by
  have h := foldW6 (StableHlo.after (P6 (F := F)) V0)
  have ea := argsOf_prefix (P6 (F := F)) (Q6 (F := F)) split6 V0
  rw [stp_congr ea, tp_congr ea, ← fin_split (P6 (F := F)) (Q6 (F := F)) split6 V0] at h
  exact h

end Cert.ReferenceIdeal.RefValue
end
-- ==== Proof.RAfterT7.lean ====
/-
  The reference's operations, folded: time step 8.

  The line of operations is cut at the window boundary just before the step's first operation.  Over the second piece,
  from ANY contents W of the buffers, the two stacks the step leaves and the array it keeps are the structured step and
  its last layer's hidden array applied to the two stacks the previous step left — both sides are the same operations in
  the same nesting, so the equation holds by unfolding the definitions and evaluating which operation wrote which
  buffer.  At W the contents the first piece leaves, whose argument arrays are the launch's, this is the step read off
  the whole fold.
-/
import proofs.«181228_j76424648065777_1_alg».proof.Proof.RAfterGen

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The line's windows before time step 8. -/
def P7 : List (HloOp τ sig (Elt F)) := ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43 ++ (ops_part44 ++ (ops_part45 ++ (ops_part46 ++ (ops_part47 ++ (ops_part48 ++ (ops_part49 ++ (ops_part50 ++ (ops_part51)))))))))))))))))))))))))))))))))))))))))))))))))))

/-- The line's windows from time step 8 on. -/
def Q7 : List (HloOp τ sig (Elt F)) := ops_part52 ++ (ops_part53 ++ (ops_part54 ++ (ops_part55 ++ (ops_part56 ++ (ops_part57 ++ (ops_part58 ++ (ops_part59 ++ (ops_part60 ++ (ops_part61 ++ (ops_part62 ++ (ops_part63 ++ (ops_part64 ++ (ops_part65 ++ (ops_part66 ++ (ops_part67 ++ (ops_part68 ++ (ops_part69 ++ (ops_part70 ++ (ops_part71 ++ (ops_part72 ++ (ops_part73 ++ (ops_part74))))))))))))))))))))))

/-- The two pieces make up the line. -/
theorem split7 : (Value.ops (F := F)) = P7 ++ Q7 := by
  sl_kernel_rfl

attribute [irreducible] P7 Q7

/-- Time step 8 read off the fold over the second piece, from any contents W of the buffers. -/
theorem foldW7 (W : Valuation τ sig (Elt F)) :
    ((StableHlo.after (Q7 (F := F)) W (Proc.devRef .tc main_v3363) : FVec F S3x4096x256 .f32), (StableHlo.after (Q7 (F := F)) W (Proc.devRef .tc main_v3367) : FVec F S3x4096x256 .f32),
      (StableHlo.after (Q7 (F := F)) W (Proc.devRef .tc main_v3359) : FVec F S4096x256 .f32))
      = ((stp W (stOf W (StableHlo.after (Q7 (F := F)) W (Proc.devRef .tc main_v2942) : FVec F S3x4096x256 .f32) (StableHlo.after (Q7 (F := F)) W (Proc.devRef .tc main_v2946) : FVec F S3x4096x256 .f32))).hs, (stp W (stOf W (StableHlo.after (Q7 (F := F)) W (Proc.devRef .tc main_v2942) : FVec F S3x4096x256 .f32) (StableHlo.after (Q7 (F := F)) W (Proc.devRef .tc main_v2946) : FVec F S3x4096x256 .f32))).cs, tp W (stOf W (StableHlo.after (Q7 (F := F)) W (Proc.devRef .tc main_v2942) : FVec F S3x4096x256 .f32) (StableHlo.after (Q7 (F := F)) W (Proc.devRef .tc main_v2946) : FVec F S3x4096x256 .f32))) := by
  sl_kernel_rfl

/-- Time step 8, read off the fold, from the stacks step 7 left. -/
theorem fold_step7 (V0 : Valuation τ sig (Elt F)) :
    ((fin V0 (Proc.devRef .tc main_v3363) : FVec F S3x4096x256 .f32), (fin V0 (Proc.devRef .tc main_v3367) : FVec F S3x4096x256 .f32),
      (fin V0 (Proc.devRef .tc main_v3359) : FVec F S4096x256 .f32))
      = ((stp V0 (stOf V0 (fin V0 (Proc.devRef .tc main_v2942)) (fin V0 (Proc.devRef .tc main_v2946)))).hs,
         (stp V0 (stOf V0 (fin V0 (Proc.devRef .tc main_v2942)) (fin V0 (Proc.devRef .tc main_v2946)))).cs,
         tp V0 (stOf V0 (fin V0 (Proc.devRef .tc main_v2942)) (fin V0 (Proc.devRef .tc main_v2946)))) := by
  have h := foldW7 (StableHlo.after (P7 (F := F)) V0)
  have ea := argsOf_prefix (P7 (F := F)) (Q7 (F := F)) split7 V0
  rw [stp_congr ea, tp_congr ea, ← fin_split (P7 (F := F)) (Q7 (F := F)) split7 V0] at h
  exact h

end Cert.ReferenceIdeal.RefValue
end
-- ==== Proof.RAfterT8.lean ====
/-
  The reference's operations, folded: time step 9.

  The line of operations is cut at the window boundary just before the step's first operation.  Over the second piece,
  from ANY contents W of the buffers, the two stacks the step leaves and the array it keeps are the structured step and
  its last layer's hidden array applied to the two stacks the previous step left — both sides are the same operations in
  the same nesting, so the equation holds by unfolding the definitions and evaluating which operation wrote which
  buffer.  At W the contents the first piece leaves, whose argument arrays are the launch's, this is the step read off
  the whole fold.
-/
import proofs.«181228_j76424648065777_1_alg».proof.Proof.RAfterGen

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-- The line's windows before time step 9. -/
def P8 : List (HloOp τ sig (Elt F)) := ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43 ++ (ops_part44 ++ (ops_part45 ++ (ops_part46 ++ (ops_part47 ++ (ops_part48 ++ (ops_part49 ++ (ops_part50 ++ (ops_part51 ++ (ops_part52 ++ (ops_part53 ++ (ops_part54 ++ (ops_part55 ++ (ops_part56 ++ (ops_part57 ++ (ops_part58))))))))))))))))))))))))))))))))))))))))))))))))))))))))))

/-- The line's windows from time step 9 on. -/
def Q8 : List (HloOp τ sig (Elt F)) := ops_part59 ++ (ops_part60 ++ (ops_part61 ++ (ops_part62 ++ (ops_part63 ++ (ops_part64 ++ (ops_part65 ++ (ops_part66 ++ (ops_part67 ++ (ops_part68 ++ (ops_part69 ++ (ops_part70 ++ (ops_part71 ++ (ops_part72 ++ (ops_part73 ++ (ops_part74)))))))))))))))

/-- The two pieces make up the line. -/
theorem split8 : (Value.ops (F := F)) = P8 ++ Q8 := by
  sl_kernel_rfl

attribute [irreducible] P8 Q8

/-- Time step 9's kept array read off the fold over the second piece, from any contents W of the buffers. -/
theorem foldW8 (W : Valuation τ sig (Elt F)) :
    (StableHlo.after (Q8 (F := F)) W (Proc.devRef .tc main_v3780) : FVec F S4096x256 .f32) = tp W (stOf W (StableHlo.after (Q8 (F := F)) W (Proc.devRef .tc main_v3363) : FVec F S3x4096x256 .f32) (StableHlo.after (Q8 (F := F)) W (Proc.devRef .tc main_v3367) : FVec F S3x4096x256 .f32)) := by
  sl_kernel_rfl

/-- Time step 9's kept array, read off the fold, from the stacks step 8 left. -/
theorem fold_step8 (V0 : Valuation τ sig (Elt F)) :
    (fin V0 (Proc.devRef .tc main_v3780) : FVec F S4096x256 .f32)
      = tp V0 (stOf V0 (fin V0 (Proc.devRef .tc main_v3363)) (fin V0 (Proc.devRef .tc main_v3367))) := by
  have h := foldW8 (StableHlo.after (P8 (F := F)) V0)
  have ea := argsOf_prefix (P8 (F := F)) (Q8 (F := F)) split8 V0
  rw [tp_congr ea, ← fin_split (P8 (F := F)) (Q8 (F := F)) split8 V0] at h
  exact h

end Cert.ReferenceIdeal.RefValue
end
-- ==== Proof.RAfterS3.lean ====
/-
  The reference's operations, folded: the result buffer from the nine kept arrays.

  Read time step by time step, the two stacks a step leaves and the array it keeps are the structured step and its last
  layer's hidden array applied to the two stacks the previous step left (for the first step: the two stacked argument
  arrays) — both sides are the same operations in the same nesting, so each equation holds by unfolding the definitions
  and evaluating which operation wrote which buffer.
-/
import proofs.«181228_j76424648065777_1_alg».proof.Proof.RAfterBase

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-! ## The result -/

/-- The result from nine kept arrays and the last layer's weights: the logistic of the linear map of the nine side by side. -/
def outFrom (t0 t1 t2 t3 t4 t5 t6 t7 t8 : FVec F S4096x256 .f32) (wl : FVec F S44x2304 .f32) (bl : FVec F S44 .f32) :
    FVec F S4096x44 .f32 :=
  Spec.sigm Facts₀.bcast_S_S4096x44
    (addf (Host.dotGeneral dot_S4096x2304_S2304x44_S4096x44_1_0_0_1_n_n none
        (concatenate S4096x2304 1
          [⟨S4096x256, t0⟩, ⟨S4096x256, t1⟩, ⟨S4096x256, t2⟩, ⟨S4096x256, t3⟩, ⟨S4096x256, t4⟩, ⟨S4096x256, t5⟩,
           ⟨S4096x256, t6⟩, ⟨S4096x256, t7⟩, ⟨S4096x256, t8⟩]
          Facts₀.concatenates_S4096x256_S4096x256_S4096x256_S4096x256_S4096x256_S4096x256_S4096x256_S4096x256_S4096x256_S4096x2304_d1)
        (transpose S2304x44 [1, 0] wl Facts₀.transposes_S44x2304_S2304x44_1_0))
      (broadcastInDim S4096x44 ![0, 1] Facts₀.bcast_S1x44_S4096x44_0_1 (broadcastInDim S1x44 ![1] Facts₀.bcast_S44_S1x44_1 bl)))

/-- The result buffer, read off the fold, from the nine kept arrays' buffers. -/
theorem fold_out (V0 : Valuation τ sig (Elt F)) :
    (fin V0 (Proc.devRef .tc main_v4221) : FVec F S4096x44 .f32)
      = outFrom (fin V0 (Proc.devRef .tc main_v412)) (fin V0 (Proc.devRef .tc main_v833)) (fin V0 (Proc.devRef .tc main_v1254)) (fin V0 (Proc.devRef .tc main_v1675)) (fin V0 (Proc.devRef .tc main_v2096))
          (fin V0 (Proc.devRef .tc main_v2517)) (fin V0 (Proc.devRef .tc main_v2938)) (fin V0 (Proc.devRef .tc main_v3359)) (fin V0 (Proc.devRef .tc main_v3780)) (argsOf V0).wl (argsOf V0).bl := by
  sl_kernel_rfl

end Cert.ReferenceIdeal.RefValue
end
-- ==== Proof.RAfterOut.lean ====
/-
  The reference's result buffer after all its operations is the structured reference's result.

  From the time steps read off the fold: the two stacks step k left are the state after k steps (by induction on k,
  each step being the structured step of the stacks before it), so the array step k + 1 keeps is the last layer's new
  hidden array of the state after k steps; the result buffer is the logistic of the linear map of the nine kept arrays
  side by side, which is how the structured reference's result is defined.
-/
import proofs.«181228_j76424648065777_1_alg».proof.Proof.RAfterT0
import proofs.«181228_j76424648065777_1_alg».proof.Proof.RAfterT1
import proofs.«181228_j76424648065777_1_alg».proof.Proof.RAfterT2
import proofs.«181228_j76424648065777_1_alg».proof.Proof.RAfterT3
import proofs.«181228_j76424648065777_1_alg».proof.Proof.RAfterT4
import proofs.«181228_j76424648065777_1_alg».proof.Proof.RAfterT5
import proofs.«181228_j76424648065777_1_alg».proof.Proof.RAfterT6
import proofs.«181228_j76424648065777_1_alg».proof.Proof.RAfterT7
import proofs.«181228_j76424648065777_1_alg».proof.Proof.RAfterT8
import proofs.«181228_j76424648065777_1_alg».proof.Proof.RAfterS3

set_option maxRecDepth 65536

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.Tactic

variable {F : FTy → Type} [FloatOps F]

/-! ## The states and the kept arrays -/

/-- The state after k + 1 steps is the structured step of the state after k. -/
theorem stK_succ (V0 : Valuation τ sig (Elt F)) (k : Nat) : stK V0 (k + 1) = stp V0 (stK V0 k) := rfl

/-- The stacks step 1 left are the state after one step. -/
theorem st1 (V0 : Valuation τ sig (Elt F)) :
    stOf V0 (fin V0 (Proc.devRef .tc main_v416)) (fin V0 (Proc.devRef .tc main_v420)) = stK V0 1 := by
  have h := fold_step0 V0
  have e1 : (fin V0 (Proc.devRef .tc main_v416) : FVec F S3x4096x256 .f32) = (stp V0 (s0 V0)).hs := congrArg (·.1) h
  have e2 : (fin V0 (Proc.devRef .tc main_v420) : FVec F S3x4096x256 .f32) = (stp V0 (s0 V0)).cs := congrArg (·.2.1) h
  show ({ hs := fin V0 (Proc.devRef .tc main_v416), cs := fin V0 (Proc.devRef .tc main_v420) } : Spec.St F) = _
  rw [e1, e2]
  rfl

/-- Step 1's kept array. -/
theorem top0 (V0 : Valuation τ sig (Elt F)) :
    (fin V0 (Proc.devRef .tc main_v412) : FVec F S4096x256 .f32)
      = Spec.topH (argsOf V0).x (Spec.layerW0 (argsOf V0)) (Spec.layerW1 (argsOf V0)) (Spec.layerW2 (argsOf V0)) (s0 V0) 0 := by
  have h := fold_step0 V0
  exact (congrArg (·.2.2) h : (fin V0 (Proc.devRef .tc main_v412) : FVec F S4096x256 .f32) = tp V0 (s0 V0))

/-- The stacks step 2 left are the state after 2 steps. -/
theorem st2 (V0 : Valuation τ sig (Elt F)) :
    stOf V0 (fin V0 (Proc.devRef .tc main_v837)) (fin V0 (Proc.devRef .tc main_v841)) = stK V0 2 := by
  have h := fold_step1 V0
  have e1 : (fin V0 (Proc.devRef .tc main_v837) : FVec F S3x4096x256 .f32)
      = (stp V0 (stOf V0 (fin V0 (Proc.devRef .tc main_v416)) (fin V0 (Proc.devRef .tc main_v420)))).hs := congrArg (·.1) h
  have e2 : (fin V0 (Proc.devRef .tc main_v841) : FVec F S3x4096x256 .f32)
      = (stp V0 (stOf V0 (fin V0 (Proc.devRef .tc main_v416)) (fin V0 (Proc.devRef .tc main_v420)))).cs := congrArg (·.2.1) h
  rw [st1 V0] at e1 e2
  show ({ hs := fin V0 (Proc.devRef .tc main_v837), cs := fin V0 (Proc.devRef .tc main_v841) } : Spec.St F) = _
  rw [e1, e2]
  exact (stK_succ V0 1).symm

/-- Step 2's kept array. -/
theorem top1 (V0 : Valuation τ sig (Elt F)) :
    (fin V0 (Proc.devRef .tc main_v833) : FVec F S4096x256 .f32)
      = Spec.topH (argsOf V0).x (Spec.layerW0 (argsOf V0)) (Spec.layerW1 (argsOf V0)) (Spec.layerW2 (argsOf V0)) (s0 V0) 1 := by
  have h := fold_step1 V0
  have e : (fin V0 (Proc.devRef .tc main_v833) : FVec F S4096x256 .f32)
      = tp V0 (stOf V0 (fin V0 (Proc.devRef .tc main_v416)) (fin V0 (Proc.devRef .tc main_v420))) := congrArg (·.2.2) h
  rw [st1 V0] at e
  exact e

/-- The stacks step 3 left are the state after 3 steps. -/
theorem st3 (V0 : Valuation τ sig (Elt F)) :
    stOf V0 (fin V0 (Proc.devRef .tc main_v1258)) (fin V0 (Proc.devRef .tc main_v1262)) = stK V0 3 := by
  have h := fold_step2 V0
  have e1 : (fin V0 (Proc.devRef .tc main_v1258) : FVec F S3x4096x256 .f32)
      = (stp V0 (stOf V0 (fin V0 (Proc.devRef .tc main_v837)) (fin V0 (Proc.devRef .tc main_v841)))).hs := congrArg (·.1) h
  have e2 : (fin V0 (Proc.devRef .tc main_v1262) : FVec F S3x4096x256 .f32)
      = (stp V0 (stOf V0 (fin V0 (Proc.devRef .tc main_v837)) (fin V0 (Proc.devRef .tc main_v841)))).cs := congrArg (·.2.1) h
  rw [st2 V0] at e1 e2
  show ({ hs := fin V0 (Proc.devRef .tc main_v1258), cs := fin V0 (Proc.devRef .tc main_v1262) } : Spec.St F) = _
  rw [e1, e2]
  exact (stK_succ V0 2).symm

/-- Step 3's kept array. -/
theorem top2 (V0 : Valuation τ sig (Elt F)) :
    (fin V0 (Proc.devRef .tc main_v1254) : FVec F S4096x256 .f32)
      = Spec.topH (argsOf V0).x (Spec.layerW0 (argsOf V0)) (Spec.layerW1 (argsOf V0)) (Spec.layerW2 (argsOf V0)) (s0 V0) 2 := by
  have h := fold_step2 V0
  have e : (fin V0 (Proc.devRef .tc main_v1254) : FVec F S4096x256 .f32)
      = tp V0 (stOf V0 (fin V0 (Proc.devRef .tc main_v837)) (fin V0 (Proc.devRef .tc main_v841))) := congrArg (·.2.2) h
  rw [st2 V0] at e
  exact e

/-- The stacks step 4 left are the state after 4 steps. -/
theorem st4 (V0 : Valuation τ sig (Elt F)) :
    stOf V0 (fin V0 (Proc.devRef .tc main_v1679)) (fin V0 (Proc.devRef .tc main_v1683)) = stK V0 4 := by
  have h := fold_step3 V0
  have e1 : (fin V0 (Proc.devRef .tc main_v1679) : FVec F S3x4096x256 .f32)
      = (stp V0 (stOf V0 (fin V0 (Proc.devRef .tc main_v1258)) (fin V0 (Proc.devRef .tc main_v1262)))).hs := congrArg (·.1) h
  have e2 : (fin V0 (Proc.devRef .tc main_v1683) : FVec F S3x4096x256 .f32)
      = (stp V0 (stOf V0 (fin V0 (Proc.devRef .tc main_v1258)) (fin V0 (Proc.devRef .tc main_v1262)))).cs := congrArg (·.2.1) h
  rw [st3 V0] at e1 e2
  show ({ hs := fin V0 (Proc.devRef .tc main_v1679), cs := fin V0 (Proc.devRef .tc main_v1683) } : Spec.St F) = _
  rw [e1, e2]
  exact (stK_succ V0 3).symm

/-- Step 4's kept array. -/
theorem top3 (V0 : Valuation τ sig (Elt F)) :
    (fin V0 (Proc.devRef .tc main_v1675) : FVec F S4096x256 .f32)
      = Spec.topH (argsOf V0).x (Spec.layerW0 (argsOf V0)) (Spec.layerW1 (argsOf V0)) (Spec.layerW2 (argsOf V0)) (s0 V0) 3 := by
  have h := fold_step3 V0
  have e : (fin V0 (Proc.devRef .tc main_v1675) : FVec F S4096x256 .f32)
      = tp V0 (stOf V0 (fin V0 (Proc.devRef .tc main_v1258)) (fin V0 (Proc.devRef .tc main_v1262))) := congrArg (·.2.2) h
  rw [st3 V0] at e
  exact e

/-- The stacks step 5 left are the state after 5 steps. -/
theorem st5 (V0 : Valuation τ sig (Elt F)) :
    stOf V0 (fin V0 (Proc.devRef .tc main_v2100)) (fin V0 (Proc.devRef .tc main_v2104)) = stK V0 5 := by
  have h := fold_step4 V0
  have e1 : (fin V0 (Proc.devRef .tc main_v2100) : FVec F S3x4096x256 .f32)
      = (stp V0 (stOf V0 (fin V0 (Proc.devRef .tc main_v1679)) (fin V0 (Proc.devRef .tc main_v1683)))).hs := congrArg (·.1) h
  have e2 : (fin V0 (Proc.devRef .tc main_v2104) : FVec F S3x4096x256 .f32)
      = (stp V0 (stOf V0 (fin V0 (Proc.devRef .tc main_v1679)) (fin V0 (Proc.devRef .tc main_v1683)))).cs := congrArg (·.2.1) h
  rw [st4 V0] at e1 e2
  show ({ hs := fin V0 (Proc.devRef .tc main_v2100), cs := fin V0 (Proc.devRef .tc main_v2104) } : Spec.St F) = _
  rw [e1, e2]
  exact (stK_succ V0 4).symm

/-- Step 5's kept array. -/
theorem top4 (V0 : Valuation τ sig (Elt F)) :
    (fin V0 (Proc.devRef .tc main_v2096) : FVec F S4096x256 .f32)
      = Spec.topH (argsOf V0).x (Spec.layerW0 (argsOf V0)) (Spec.layerW1 (argsOf V0)) (Spec.layerW2 (argsOf V0)) (s0 V0) 4 := by
  have h := fold_step4 V0
  have e : (fin V0 (Proc.devRef .tc main_v2096) : FVec F S4096x256 .f32)
      = tp V0 (stOf V0 (fin V0 (Proc.devRef .tc main_v1679)) (fin V0 (Proc.devRef .tc main_v1683))) := congrArg (·.2.2) h
  rw [st4 V0] at e
  exact e

/-- The stacks step 6 left are the state after 6 steps. -/
theorem st6 (V0 : Valuation τ sig (Elt F)) :
    stOf V0 (fin V0 (Proc.devRef .tc main_v2521)) (fin V0 (Proc.devRef .tc main_v2525)) = stK V0 6 := by
  have h := fold_step5 V0
  have e1 : (fin V0 (Proc.devRef .tc main_v2521) : FVec F S3x4096x256 .f32)
      = (stp V0 (stOf V0 (fin V0 (Proc.devRef .tc main_v2100)) (fin V0 (Proc.devRef .tc main_v2104)))).hs := congrArg (·.1) h
  have e2 : (fin V0 (Proc.devRef .tc main_v2525) : FVec F S3x4096x256 .f32)
      = (stp V0 (stOf V0 (fin V0 (Proc.devRef .tc main_v2100)) (fin V0 (Proc.devRef .tc main_v2104)))).cs := congrArg (·.2.1) h
  rw [st5 V0] at e1 e2
  show ({ hs := fin V0 (Proc.devRef .tc main_v2521), cs := fin V0 (Proc.devRef .tc main_v2525) } : Spec.St F) = _
  rw [e1, e2]
  exact (stK_succ V0 5).symm

/-- Step 6's kept array. -/
theorem top5 (V0 : Valuation τ sig (Elt F)) :
    (fin V0 (Proc.devRef .tc main_v2517) : FVec F S4096x256 .f32)
      = Spec.topH (argsOf V0).x (Spec.layerW0 (argsOf V0)) (Spec.layerW1 (argsOf V0)) (Spec.layerW2 (argsOf V0)) (s0 V0) 5 := by
  have h := fold_step5 V0
  have e : (fin V0 (Proc.devRef .tc main_v2517) : FVec F S4096x256 .f32)
      = tp V0 (stOf V0 (fin V0 (Proc.devRef .tc main_v2100)) (fin V0 (Proc.devRef .tc main_v2104))) := congrArg (·.2.2) h
  rw [st5 V0] at e
  exact e

/-- The stacks step 7 left are the state after 7 steps. -/
theorem st7 (V0 : Valuation τ sig (Elt F)) :
    stOf V0 (fin V0 (Proc.devRef .tc main_v2942)) (fin V0 (Proc.devRef .tc main_v2946)) = stK V0 7 := by
  have h := fold_step6 V0
  have e1 : (fin V0 (Proc.devRef .tc main_v2942) : FVec F S3x4096x256 .f32)
      = (stp V0 (stOf V0 (fin V0 (Proc.devRef .tc main_v2521)) (fin V0 (Proc.devRef .tc main_v2525)))).hs := congrArg (·.1) h
  have e2 : (fin V0 (Proc.devRef .tc main_v2946) : FVec F S3x4096x256 .f32)
      = (stp V0 (stOf V0 (fin V0 (Proc.devRef .tc main_v2521)) (fin V0 (Proc.devRef .tc main_v2525)))).cs := congrArg (·.2.1) h
  rw [st6 V0] at e1 e2
  show ({ hs := fin V0 (Proc.devRef .tc main_v2942), cs := fin V0 (Proc.devRef .tc main_v2946) } : Spec.St F) = _
  rw [e1, e2]
  exact (stK_succ V0 6).symm

/-- Step 7's kept array. -/
theorem top6 (V0 : Valuation τ sig (Elt F)) :
    (fin V0 (Proc.devRef .tc main_v2938) : FVec F S4096x256 .f32)
      = Spec.topH (argsOf V0).x (Spec.layerW0 (argsOf V0)) (Spec.layerW1 (argsOf V0)) (Spec.layerW2 (argsOf V0)) (s0 V0) 6 := by
  have h := fold_step6 V0
  have e : (fin V0 (Proc.devRef .tc main_v2938) : FVec F S4096x256 .f32)
      = tp V0 (stOf V0 (fin V0 (Proc.devRef .tc main_v2521)) (fin V0 (Proc.devRef .tc main_v2525))) := congrArg (·.2.2) h
  rw [st6 V0] at e
  exact e

/-- The stacks step 8 left are the state after 8 steps. -/
theorem st8 (V0 : Valuation τ sig (Elt F)) :
    stOf V0 (fin V0 (Proc.devRef .tc main_v3363)) (fin V0 (Proc.devRef .tc main_v3367)) = stK V0 8 := by
  have h := fold_step7 V0
  have e1 : (fin V0 (Proc.devRef .tc main_v3363) : FVec F S3x4096x256 .f32)
      = (stp V0 (stOf V0 (fin V0 (Proc.devRef .tc main_v2942)) (fin V0 (Proc.devRef .tc main_v2946)))).hs := congrArg (·.1) h
  have e2 : (fin V0 (Proc.devRef .tc main_v3367) : FVec F S3x4096x256 .f32)
      = (stp V0 (stOf V0 (fin V0 (Proc.devRef .tc main_v2942)) (fin V0 (Proc.devRef .tc main_v2946)))).cs := congrArg (·.2.1) h
  rw [st7 V0] at e1 e2
  show ({ hs := fin V0 (Proc.devRef .tc main_v3363), cs := fin V0 (Proc.devRef .tc main_v3367) } : Spec.St F) = _
  rw [e1, e2]
  exact (stK_succ V0 7).symm

/-- Step 8's kept array. -/
theorem top7 (V0 : Valuation τ sig (Elt F)) :
    (fin V0 (Proc.devRef .tc main_v3359) : FVec F S4096x256 .f32)
      = Spec.topH (argsOf V0).x (Spec.layerW0 (argsOf V0)) (Spec.layerW1 (argsOf V0)) (Spec.layerW2 (argsOf V0)) (s0 V0) 7 := by
  have h := fold_step7 V0
  have e : (fin V0 (Proc.devRef .tc main_v3359) : FVec F S4096x256 .f32)
      = tp V0 (stOf V0 (fin V0 (Proc.devRef .tc main_v2942)) (fin V0 (Proc.devRef .tc main_v2946))) := congrArg (·.2.2) h
  rw [st7 V0] at e
  exact e

/-- Step 9's kept array. -/
theorem top8 (V0 : Valuation τ sig (Elt F)) :
    (fin V0 (Proc.devRef .tc main_v3780) : FVec F S4096x256 .f32)
      = Spec.topH (argsOf V0).x (Spec.layerW0 (argsOf V0)) (Spec.layerW1 (argsOf V0)) (Spec.layerW2 (argsOf V0)) (s0 V0) 8 := by
  have e := fold_step8 V0
  rw [st8 V0] at e
  exact e

/-! ## The result -/

/-- The result buffer after all the operations is the structured reference's result at the argument arrays. -/
theorem after_ops_out (V0 : Valuation τ sig (Elt F)) :
    StableHlo.after Value.ops V0 (Proc.devRef .tc main_v4221) = Spec.out (argsOf V0) := by
  rw [← fin_def V0]
  show (fin V0 (Proc.devRef .tc main_v4221) : FVec F S4096x44 .f32) = _
  rw [fold_out, top0 V0, top1 V0, top2 V0, top3 V0, top4 V0, top5 V0, top6 V0, top7 V0, top8 V0]
  rfl

end Cert.ReferenceIdeal.RefValue
end
-- ==== Proof.RefRunHand.lean ====
/-
  The reference's run, from the list of its host operations.

  The program is its 4494 host operations one after the other, so every weakly fair execution terminates with each
  buffer at the fold of the operations' results over the launch contents.  Two facts about that fold, for any starting
  valuation, turn it into the run used downstream: the result buffer ends at the structured reference of the argument
  arrays, and no operation writes an argument array.
-/
import proofs.«181228_j76424648065777_1_alg».proof.Proof.RefOps
import proofs.«181228_j76424648065777_1_alg».proof.Proof.RArgs
import proofs.«181228_j76424648065777_1_alg».proof.Proof.RefArgsKept
import proofs.«181228_j76424648065777_1_alg».proof.Proof.RefFresh
import proofs.«181228_j76424648065777_1_alg».proof.Proof.RAfterOut

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo

variable {F : FTy → Type} [FloatOps F]

/-! ## The run -/

/-- The reference runs, ends with its result at the structured reference of the arguments' launch contents, and leaves
    its argument arrays unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4221) = Spec.out (argsOf (launchContents m c))
∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v4221).trans (after_ops_out (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c)),
      (h c main_arg12).trans (after_ops_arg12 (launchContents m c)),
      (h c main_arg13).trans (after_ops_arg13 (launchContents m c)),
      (h c main_arg14).trans (after_ops_arg14 (launchContents m c)),
      (h c main_arg15).trans (after_ops_arg15 (launchContents m c)),
      (h c main_arg16).trans (after_ops_arg16 (launchContents m c)),
      (h c main_arg17).trans (after_ops_arg17 (launchContents m c)),
      (h c main_arg18).trans (after_ops_arg18 (launchContents m c)),
      (h c main_arg19).trans (after_ops_arg19 (launchContents m c)),
      (h c main_arg20).trans (after_ops_arg20 (launchContents m c)),
      (h c main_arg21).trans (after_ops_arg21 (launchContents m c)),
      (h c main_arg22).trans (after_ops_arg22 (launchContents m c)),
      (h c main_arg23).trans (after_ops_arg23 (launchContents m c)),
      (h c main_arg24).trans (after_ops_arg24 (launchContents m c))⟩)
    (run_seq scopedRefs_eq scopedSems_eq defs main (fun _ => Value.ops) main_eq (fun _ => ops_sub) m ρ (fun _ => ops_fresh))

/-- The reference runs and its argument arrays end unchanged. -/
theorem frame_ri (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => (h c).2) (run_ref m ρ)

end Cert.ReferenceIdeal.RefValue

end
-- ==== Proof.RRowA.lean ====
/-
  Arrays read at an index: the few shapes of layout operation, product and sum the reference is made of.

  Every lemma reads ONE composite of host operations at an index given by its coordinates:
    * a plain product of an M×K by a K×N array at (m, n) is the sum over k of l(m, k) · r(k, n);
    * a bias vector broadcast to one row and then down all rows reads, at (r, c), the vector at c;
    * a scalar constant broadcast to any shape reads the constant;
    * block l cut out of a stack of L blocks (a slice of extent one along the leading axis, the unit axis then
      dropped) reads, at (i, j), the stack at (l, i, j) — for stacks of matrices and of vectors;
    * three arrays, each given a leading unit axis and laid one after the other along it, read at (l, r, j) the
      l-th array at (r, j);
    * a stack of three R×C arrays with its first two axes exchanged and the last two merged reads, at (r, k),
      block k / C at (r, k mod C);
    * an R×(3·C) array with its columns cut into three blocks reads, at (r, s, j), the array at (r, C·s + j);
    * a column of three gates spread along a new trailing axis reads, at (r, s, j), the gate at (r, s);
    * the sum over the middle axis of an R×3×C array at (r, j) is the initial value plus the sum over s of the
      array at (r, s, j).
-/
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RRow

open Idealize.ShloMosaic Idealize.ShloMosaic.ValueIdx
open scoped BigOperators

/-! ## A plain product -/

section Dot
variable {M K N : Nat}
  (wf : DotDims.WF ⟨2, ![M, K]⟩ ⟨2, ![K, N]⟩ ⟨2, ![M, N]⟩ [1] [0] [0] [1] [] [])

/-- The dimension numbers of a plain product of an M×K by a K×N array. -/
abbrev pd : DotDims ⟨2, ![M, K]⟩ ⟨2, ![K, N]⟩ ⟨2, ![M, N]⟩ := ⟨[1], [0], [0], [1], [], [], wf⟩

theorem pd_lhs_0 (j : (⟨2, ![M, N]⟩ : Shape).Idx) (k : (pd wf).contr.Idx) : ((pd wf).lhsIdx j k 0).val = (j 0).val := rfl
theorem pd_lhs_1 (j : (⟨2, ![M, N]⟩ : Shape).Idx) (k : (pd wf).contr.Idx) :
    ((pd wf).lhsIdx j k 1).val = (k ⟨0, Nat.one_pos⟩).val := DotDims.lhsIdx_val_of_single (pd wf) rfl j k
theorem pd_rhs_0 (j : (⟨2, ![M, N]⟩ : Shape).Idx) (k : (pd wf).contr.Idx) :
    ((pd wf).rhsIdx j k 0).val = (k ⟨0, Nat.one_pos⟩).val := DotDims.rhsIdx_val_of_single (pd wf) rfl j k
theorem pd_rhs_1 (j : (⟨2, ![M, N]⟩ : Shape).Idx) (k : (pd wf).contr.Idx) : ((pd wf).rhsIdx j k 1).val = (j 1).val := rfl

/-- A plain product read at (m, n): the sum over the contracted coordinate. -/
theorem pd_apply (l : FVec Ideal ⟨2, ![M, K]⟩ .f32) (r : FVec Ideal ⟨2, ![K, N]⟩ .f32) (m : Fin M) (n : Fin N) :
    Host.dotGeneral (F := Ideal) (pd wf) none l r (ix2 m n) = ∑ k : Fin K, l (ix2 m k) * r (ix2 k n) := by
  show FloatOps.dotGeneral (pd wf) none .single l r (ix2 m n) = _
  rw [Ideal.dotGeneral_apply, ← Equiv.sum_comp (contrEquiv1 (pd wf) K rfl rfl).symm]
  refine Finset.sum_congr rfl fun k _ => ?_
  have hk := contrEquiv1_symm_val (pd wf) K rfl rfl k
  have e1 : (pd wf).lhsIdx (ix2 m n) ((contrEquiv1 (pd wf) K rfl rfl).symm k) = ix2 m k := by
    funext a; refine Fin.ext ?_
    match a with
    | ⟨0, _⟩ => exact pd_lhs_0 wf _ _
    | ⟨1, _⟩ => exact (pd_lhs_1 wf _ _).trans hk
  have e2 : (pd wf).rhsIdx (ix2 m n) ((contrEquiv1 (pd wf) K rfl rfl).symm k) = ix2 k n := by
    funext a; refine Fin.ext ?_
    match a with
    | ⟨0, _⟩ => exact (pd_rhs_0 wf _ _).trans hk
    | ⟨1, _⟩ => exact pd_rhs_1 wf _ _
  rw [e1, e2]

/-- v·Wᵀ at (m, n): the inner product of row m of v and row n of W. -/
theorem pdT_apply (ht : (⟨2, ![N, K]⟩ : Shape).Transposes [1, 0] ⟨2, ![K, N]⟩)
    (v : FVec Ideal ⟨2, ![M, K]⟩ .f32) (W : FVec Ideal ⟨2, ![N, K]⟩ .f32) (m : Fin M) (n : Fin N) :
    Host.dotGeneral (F := Ideal) (pd wf) none v (transpose ⟨2, ![K, N]⟩ [1, 0] W ht) (ix2 m n)
      = ∑ k : Fin K, v (ix2 m k) * W (ix2 n k) := by
  rw [pd_apply]
  exact Finset.sum_congr rfl fun k _ => by rw [transpose_ix2_apply]

end Dot

/-! ## Broadcasts -/

section Bcast
variable {α : Type}

/-- A vector made one row and broadcast down all rows reads, at (r, c), the vector at c. -/
theorem bias_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply ![0, 1] h2 _ (ix2 r c) (ix2 (0 : Fin 1) c) (by
    intro a
    match a with
    | ⟨0, _⟩ => show (0 : ℕ) = if (1 : ℕ) = 1 then 0 else _; rw [if_pos rfl]
    | ⟨1, _⟩ =>
      show c.val = if n = 1 then 0 else c.val
      split
      · have := c.isLt; omega
      · rfl)]
  refine broadcastInDim_apply ![1] h1 b (ix2 (0 : Fin 1) c) (ix1 c) ?_
  intro a
  match a with
  | ⟨0, _⟩ =>
    show c.val = if n = 1 then 0 else c.val
    split
    · have := c.isLt; omega
    · rfl

/-- A column of gates spread along a new trailing axis reads, at (r, s, j), the gate at (r, s). -/
theorem gateSpread_apply {R G C : Nat} (hG : G ≠ 1) (hR : R ≠ 1)
    (h1 : (⟨2, ![R, G]⟩ : Shape).BroadcastsInDim ⟨3, ![R, G, 1]⟩ ![0, 1])
    (h2 : (⟨3, ![R, G, 1]⟩ : Shape).BroadcastsInDim ⟨3, ![R, G, C]⟩ ![0, 1, 2]) (g : (⟨2, ![R, G]⟩ : Shape).Idx → α)
    (r : Fin R) (s : Fin G) (j : Fin C) :
    broadcastInDim ⟨3, ![R, G, C]⟩ ![0, 1, 2] h2 (broadcastInDim ⟨3, ![R, G, 1]⟩ ![0, 1] h1 g) (ix3 r s j) = g (ix2 r s) := by
  rw [broadcastInDim_apply ![0, 1, 2] h2 _ (ix3 r s j) (ix3 r s (0 : Fin 1)) (by
    intro a
    match a with
    | ⟨0, _⟩ => show r.val = if R = 1 then 0 else r.val; rw [if_neg hR]
    | ⟨1, _⟩ => show s.val = if G = 1 then 0 else s.val; rw [if_neg hG]
    | ⟨2, _⟩ => show (0 : ℕ) = if (1 : ℕ) = 1 then 0 else _; rw [if_pos rfl])]
  refine broadcastInDim_apply ![0, 1] h1 g (ix3 r s (0 : Fin 1)) (ix2 r s) ?_
  intro a
  match a with
  | ⟨0, _⟩ => show r.val = if R = 1 then 0 else r.val; rw [if_neg hR]
  | ⟨1, _⟩ => show s.val = if G = 1 then 0 else s.val; rw [if_neg hG]

end Bcast

/-- The logistic function spelled 1 / (1 + exp (−z)) with the ones broadcast from a scalar constant, at an index. -/
theorem sigmoid_apply {s : Shape} (h : (⟨0, ![]⟩ : Shape).BroadcastsInDim s ![]) (z : FVec Ideal s .f32) (i : s.Idx) :
    Host.divf (broadcastInDim s ![] h (constant (F := Ideal) ⟨0, ![]⟩ .f32 0x3F800000#32))
        (addf (broadcastInDim s ![] h (constant (F := Ideal) ⟨0, ![]⟩ .f32 0x3F800000#32)) (Host.exp (Host.negf z))) i
      = Ideal.logistic (z i) := by
  show Ideal.div (broadcastInDim s ![] h (constant (F := Ideal) ⟨0, ![]⟩ .f32 0x3F800000#32) i)
      (broadcastInDim s ![] h (constant (F := Ideal) ⟨0, ![]⟩ .f32 0x3F800000#32) i + Ideal.exp (-(z i))) = _
  rw [broadcastInDim_scalar_apply, constant_apply, Ideal.ofBits_one_f32]
  rfl

/-! ## Blocks of a stack -/

section Blocks
variable {α : Type}

/-- Block l of a stack of L matrices, at (i, j). -/
theorem block3_apply {L A B : Nat} (o : Nat) (l : Fin L) (hl : l.val = o) (x : (⟨3, ![L, A, B]⟩ : Shape).Idx → α)
    (hs : (⟨3, ![L, A, B]⟩ : Shape).Slices ![o, 0, 0] ⟨3, ![1, A, B]⟩) (hc : (⟨3, ![1, A, B]⟩ : Shape).ShapeCasts ⟨2, ![A, B]⟩)
    (i : Fin A) (j : Fin B) :
    shapeCast ⟨2, ![A, B]⟩ (extractStridedSlice ⟨3, ![1, A, B]⟩ ![o, 0, 0] x hs) hc (ix2 i j) = x (ix3 l i j) := by
  rw [shapeCast_1ab_ab_apply]
  refine extractStridedSlice_apply ![o, 0, 0] x hs (ix3 (0 : Fin 1) i j) (ix3 l i j) ?_
  intro a
  match a with
  | ⟨0, _⟩ => show l.val = o + 0; omega
  | ⟨1, _⟩ => show i.val = 0 + i.val; omega
  | ⟨2, _⟩ => show j.val = 0 + j.val; omega

/-- Block l of a stack of L vectors, at j. -/
theorem block2_apply {L A : Nat} (o : Nat) (l : Fin L) (hl : l.val = o) (x : (⟨2, ![L, A]⟩ : Shape).Idx → α)
    (hs : (⟨2, ![L, A]⟩ : Shape).Slices ![o, 0] ⟨2, ![1, A]⟩) (hc : (⟨2, ![1, A]⟩ : Shape).ShapeCasts ⟨1, ![A]⟩) (j : Fin A) :
    shapeCast ⟨1, ![A]⟩ (extractStridedSlice ⟨2, ![1, A]⟩ ![o, 0] x hs) hc (ix1 j) = x (ix2 l j) := by
  rw [shapeCast_1a_a_apply]
  refine extractStridedSlice_apply ![o, 0] x hs (ix2 (0 : Fin 1) j) (ix2 l j) ?_
  intro a
  match a with
  | ⟨0, _⟩ => show l.val = o + 0; omega
  | ⟨1, _⟩ => show j.val = 0 + j.val; omega

/-- An array given a leading unit axis reads, at (u, r, j), the array at (r, j). -/
theorem lead_apply {R C : Nat} (hR : R ≠ 1) (hC : C ≠ 1) (h : (⟨2, ![R, C]⟩ : Shape).BroadcastsInDim ⟨3, ![1, R, C]⟩ ![1, 2])
    (x : (⟨2, ![R, C]⟩ : Shape).Idx → α) (u : Fin 1) (r : Fin R) (j : Fin C) :
    broadcastInDim ⟨3, ![1, R, C]⟩ ![1, 2] h x (ix3 u r j) = x (ix2 r j) := by
  refine broadcastInDim_apply ![1, 2] h x (ix3 u r j) (ix2 r j) ?_
  intro a
  match a with
  | ⟨0, _⟩ => show r.val = if R = 1 then 0 else r.val; rw [if_neg hR]
  | ⟨1, _⟩ => show j.val = if C = 1 then 0 else j.val; rw [if_neg hC]

end Blocks

/-! ## Stacking three arrays, and reading the stack row by row -/

section Stack
variable {α : Type} {R C : Nat}

/-- The three pieces of a stack: each array with a leading unit axis. -/
abbrev stackList (hb : (⟨2, ![R, C]⟩ : Shape).BroadcastsInDim ⟨3, ![1, R, C]⟩ ![1, 2])
    (a b c : (⟨2, ![R, C]⟩ : Shape).Idx → α) : List ((s : Shape) × (s.Idx → α)) :=
  [⟨⟨3, ![1, R, C]⟩, broadcastInDim ⟨3, ![1, R, C]⟩ ![1, 2] hb a⟩,
   ⟨⟨3, ![1, R, C]⟩, broadcastInDim ⟨3, ![1, R, C]⟩ ![1, 2] hb b⟩,
   ⟨⟨3, ![1, R, C]⟩, broadcastInDim ⟨3, ![1, R, C]⟩ ![1, 2] hb c⟩]

/-- Three arrays, each given a leading unit axis, laid one after the other along it. -/
abbrev stack3 (hb : (⟨2, ![R, C]⟩ : Shape).BroadcastsInDim ⟨3, ![1, R, C]⟩ ![1, 2])
    (hc : Shape.Concatenates [⟨3, ![1, R, C]⟩, ⟨3, ![1, R, C]⟩, ⟨3, ![1, R, C]⟩] ⟨3, ![3, R, C]⟩ 0)
    (a b c : (⟨2, ![R, C]⟩ : Shape).Idx → α) : (⟨3, ![3, R, C]⟩ : Shape).Idx → α :=
  concatenate ⟨3, ![3, R, C]⟩ 0 (stackList hb a b c) hc

variable (hR : R ≠ 1) (hC : C ≠ 1) (hb : (⟨2, ![R, C]⟩ : Shape).BroadcastsInDim ⟨3, ![1, R, C]⟩ ![1, 2])
    (hc : Shape.Concatenates [⟨3, ![1, R, C]⟩, ⟨3, ![1, R, C]⟩, ⟨3, ![1, R, C]⟩] ⟨3, ![3, R, C]⟩ 0)
    (a b c : (⟨2, ![R, C]⟩ : Shape).Idx → α) (r : Fin R) (j : Fin C)
include hR hC

/-- The stack at (0, r, j) is the first array at (r, j). -/
theorem stack3_apply0 : stack3 hb hc a b c (ix3 (0 : Fin 3) r j) = a (ix2 r j) := by
  rw [← lead_apply hR hC hb a (0 : Fin 1) r j]
  refine concatenate_apply_piece (t := ⟨3, ![3, R, C]⟩) (0 : Fin 3) (stackList hb a b c) hc (ix3 (0 : Fin 3) r j) 0 (by show 0 < 3; omega) _ _ rfl rfl 0 rfl
    (ix3 (0 : Fin 1) r j) ?_ rfl
  intro d hd
  match d with
  | ⟨0, _⟩ => exact absurd rfl hd
  | ⟨1, _⟩ => rfl
  | ⟨2, _⟩ => rfl

/-- The stack at (1, r, j) is the second array at (r, j). -/
theorem stack3_apply1 : stack3 hb hc a b c (ix3 (1 : Fin 3) r j) = b (ix2 r j) := by
  rw [← lead_apply hR hC hb b (0 : Fin 1) r j]
  refine concatenate_apply_piece (t := ⟨3, ![3, R, C]⟩) (0 : Fin 3) (stackList hb a b c) hc (ix3 (1 : Fin 3) r j) 1 (by show 1 < 3; omega) _ _ rfl rfl 1 rfl
    (ix3 (0 : Fin 1) r j) ?_ rfl
  intro d hd
  match d with
  | ⟨0, _⟩ => exact absurd rfl hd
  | ⟨1, _⟩ => rfl
  | ⟨2, _⟩ => rfl

/-- The stack at (2, r, j) is the third array at (r, j). -/
theorem stack3_apply2 : stack3 hb hc a b c (ix3 (2 : Fin 3) r j) = c (ix2 r j) := by
  rw [← lead_apply hR hC hb c (0 : Fin 1) r j]
  refine concatenate_apply_piece (t := ⟨3, ![3, R, C]⟩) (0 : Fin 3) (stackList hb a b c) hc (ix3 (2 : Fin 3) r j) 2 (by show 2 < 3; omega) _ _ rfl rfl 2 rfl
    (ix3 (0 : Fin 1) r j) ?_ rfl
  intro d hd
  match d with
  | ⟨0, _⟩ => exact absurd rfl hd
  | ⟨1, _⟩ => rfl
  | ⟨2, _⟩ => rfl

end Stack

section Rows
variable {α : Type} {R C : Nat}

/-- A stack of three R×C arrays with its first two axes exchanged and the last two merged: at (r, k), block k / C at
    (r, k mod C). -/
theorem sideBySide_apply (hC : 0 < C) (ht : (⟨3, ![3, R, C]⟩ : Shape).Transposes [1, 0, 2] ⟨3, ![R, 3, C]⟩)
    (hs : (⟨3, ![R, 3, C]⟩ : Shape).ShapeCasts ⟨2, ![R, 3 * C]⟩) (x : (⟨3, ![3, R, C]⟩ : Shape).Idx → α)
    (r : Fin R) (k : Fin (3 * C)) :
    shapeCast ⟨2, ![R, 3 * C]⟩ (transpose ⟨3, ![R, 3, C]⟩ [1, 0, 2] x ht) hs (ix2 r k)
      = x (ix3 (⟨k.val / C, (Nat.div_lt_iff_lt_mul hC).mpr k.isLt⟩ : Fin 3) r ⟨k.val % C, Nat.mod_lt _ hC⟩) := by
  rw [shapeCast_apply _ hs (ix2 r k)
    (ix3 r (⟨k.val / C, (Nat.div_lt_iff_lt_mul hC).mpr k.isLt⟩ : Fin 3) (⟨k.val % C, Nat.mod_lt _ hC⟩ : Fin C)) (by
      rw [Shape.rowMajor_val_three, Shape.rowMajor_val_two]
      show (r.val * 3 + k.val / C) * C + k.val % C = r.val * (3 * C) + k.val
      have := Nat.div_add_mod k.val C
      rw [Nat.add_mul, Nat.mul_assoc, Nat.add_assoc, Nat.mul_comm (k.val / C) C, this])]
  refine transpose_apply [1, 0, 2] x ht _ _ ?_
  intro d
  match d with
  | ⟨0, _⟩ => rfl
  | ⟨1, _⟩ => rfl
  | ⟨2, _⟩ => rfl

/-- An R×(3·C) array with its columns cut into three blocks: at (r, s, j), the array at (r, C·s + j). -/
theorem cutColumns_apply (hs : (⟨2, ![R, 3 * C]⟩ : Shape).ShapeCasts ⟨3, ![R, 3, C]⟩) (x : (⟨2, ![R, 3 * C]⟩ : Shape).Idx → α)
    (r : Fin R) (s : Fin 3) (j : Fin C) (n : Fin (3 * C)) (hn : n.val = C * s.val + j.val) :
    shapeCast ⟨3, ![R, 3, C]⟩ x hs (ix3 r s j) = x (ix2 r n) := by
  refine shapeCast_apply x hs (ix3 r s j) (ix2 r n) ?_
  rw [Shape.rowMajor_val_three, Shape.rowMajor_val_two]
  show r.val * (3 * C) + n.val = (r.val * 3 + s.val) * C + j.val
  rw [hn, Nat.add_mul, Nat.mul_assoc, Nat.add_assoc, Nat.mul_comm s.val C]

end Rows

/-! ## The sum over the middle axis -/

/-- The sum over the middle axis of an R×3×C array at (r, j): the initial value's element plus the three terms. -/
theorem sumMiddle_apply {R C : Nat} (h' : (⟨3, ![R, 3, C]⟩ : Shape).ReducesTo [1] ⟨2, ![R, C]⟩)
    (h : (⟨3, ![R, 3, C]⟩ : Shape).Reduces [1] ⟨2, ![R, C]⟩) (hu : 0 < (⟨0, ![]⟩ : Shape).numel)
    (x : FVec Ideal ⟨3, ![R, 3, C]⟩ .f32) (r : Fin R) (j : Fin C) :
    Host.reduceAdd x (constant (F := Ideal) ⟨0, ![]⟩ .f32 0x00000000#32) h' hu (ix2 r j) = ∑ s : Fin 3, x (ix3 r s j) := by
  rw [hostReduceAdd_apply, Ideal.hostReduceAdd_single h' h, constant_apply, Ideal.ofBits_zero_f32, zero_add]
  refine Finset.sum_congr rfl fun s _ => congrArg x ?_
  funext d; refine Fin.ext ?_
  match d with
  | ⟨0, _⟩ => rfl
  | ⟨1, _⟩ => rfl
  | ⟨2, _⟩ => rfl

end Cert.ReferenceIdeal.RRow

end
-- ==== Proof.RRowB.lean ====
/-
  The reference's layer, read one batch row at a time.

  Row b of every array the reference computes depends on row b of its operands alone: a linear map v·Wᵀ + bias at
  (b, n) is the inner product of row b of v with row n of W plus the bias at n; the logistic and hyperbolic-tangent
  functions and the products act entry by entry; the gated cross-layer sum at (b, j) adds, over the three blocks s,
  the gate at (b, s) times the candidate at (b, 256 s + j).  Hence the new cell and hidden arrays of a layer at (b, j)
  are the row-level cell and hidden functions of the rows b of the layer's operands.
-/
import proofs.«181228_j76424648065777_1_alg».proof.Proof.RSpec
import proofs.«181228_j76424648065777_1_alg».proof.Proof.RowSpec
import proofs.«181228_j76424648065777_1_alg».proof.Proof.RRowA

noncomputable section

namespace Cert.ReferenceIdeal.RRow

open Idealize.ShloMosaic Idealize.ShloMosaic.ValueIdx Idealize.SL.Sem
open Cert.ReferenceIdeal Cert.ReferenceIdeal.Spec
open scoped BigOperators

variable [Facts]
open Facts₀ Facts

/-- One layer's blocks as row-level weights: a matrix entry by (output, input), a bias entry by its output. -/
def LWof (w : LayerW Ideal) : GFLstm.LW where
  Wif := fun j k => w.wif (ix2 j k)
  Bif := fun j => w.Bif (ix1 j)
  Wii := fun j k => w.wii (ix2 j k)
  Bii := fun j => w.Bii (ix1 j)
  Wio := fun j k => w.wio (ix2 j k)
  Bio := fun j => w.Bio (ix1 j)
  Wic := fun j k => w.wic (ix2 j k)
  Bic := fun j => w.Bic (ix1 j)
  Wig := fun s k => w.wig (ix2 s k)
  Big := fun s => w.Big (ix1 s)
  Whf := fun j k => w.whf (ix2 j k)
  Bhf := fun j => w.Bhf (ix1 j)
  Whi := fun j k => w.whi (ix2 j k)
  Bhi := fun j => w.Bhi (ix1 j)
  Who := fun j k => w.who (ix2 j k)
  Bho := fun j => w.Bho (ix1 j)
  Whg := fun s k => w.whg (ix2 s k)
  Bhg := fun s => w.Bhg (ix1 s)
  Whc := fun n k => w.whc (ix2 n k)
  Bhc := fun n => w.Bhc (ix1 n)

/-! ## The linear maps -/

theorem lin256_apply (v : FVec Ideal S4096x256 .f32) (W : FVec Ideal S256x256 .f32) (b : FVec Ideal S256 .f32)
    (r : Fin 4096) (n : Fin 256) :
    lin256 v W b (ix2 r n) = GFLstm.dot (fun k => v (ix2 r k)) (fun k => W (ix2 n k)) + b (ix1 n) := by
  unfold lin256
  rw [addf_apply]
  show Host.dotGeneral (F := Ideal) (pd dot_S4096x256_S256x256_S4096x256_1_0_0_1_n_n_wf) none v _ (ix2 r n) + _ = _
  rw [pdT_apply, bias_apply]
  rfl

theorem linG_apply (v : FVec Ideal S4096x256 .f32) (W : FVec Ideal S3x256 .f32) (b : FVec Ideal S3 .f32)
    (r : Fin 4096) (n : Fin 3) :
    linG v W b (ix2 r n) = GFLstm.dot (fun k => v (ix2 r k)) (fun k => W (ix2 n k)) + b (ix1 n) := by
  unfold linG
  rw [addf_apply]
  show Host.dotGeneral (F := Ideal) (pd dot_S4096x256_S256x3_S4096x3_1_0_0_1_n_n_wf) none v _ (ix2 r n) + _ = _
  rw [pdT_apply, bias_apply]
  rfl

theorem linGh_apply (v : FVec Ideal S4096x768 .f32) (W : FVec Ideal S3x768 .f32) (b : FVec Ideal S3 .f32)
    (r : Fin 4096) (n : Fin 3) :
    linGh v W b (ix2 r n) = GFLstm.dot (fun k => v (ix2 r k)) (fun k => W (ix2 n k)) + b (ix1 n) := by
  unfold linGh
  rw [addf_apply]
  show Host.dotGeneral (F := Ideal) (pd dot_S4096x768_S768x3_S4096x3_1_0_0_1_n_n_wf) none v _ (ix2 r n) + _ = _
  rw [pdT_apply, bias_apply]
  rfl

theorem lin768_apply (v : FVec Ideal S4096x768 .f32) (W : FVec Ideal S768x768 .f32) (b : FVec Ideal S768 .f32)
    (r : Fin 4096) (n : Fin 768) :
    lin768 v W b (ix2 r n) = GFLstm.dot (fun k => v (ix2 r k)) (fun k => W (ix2 n k)) + b (ix1 n) := by
  unfold lin768
  rw [addf_apply]
  show Host.dotGeneral (F := Ideal) (pd dot_S4096x768_S768x768_S4096x768_1_0_0_1_n_n_wf) none v _ (ix2 r n) + _ = _
  rw [pdT_apply, bias_apply]
  rfl

/-- The spelled-out logistic function is the logistic function, entry by entry. -/
theorem sigm_apply {s : Shape} (h : S_.BroadcastsInDim s (![] : Fin 0 → Fin s.rank)) (z : FVec Ideal s .f32) (i : s.Idx) :
    sigm h z i = Ideal.logistic (z i) := sigmoid_apply h z i

/-! ## The cross-layer term -/

theorem gate_apply (ih : FVec Ideal S4096x256 .f32) (hcat : FVec Ideal S4096x768 .f32) (w : LayerW Ideal)
    (b : Fin 4096) (s : Fin 3) :
    gate ih hcat w (ix2 b s) = GFLstm.gateR (LWof w) (fun k => ih (ix2 b k)) (fun k => hcat (ix2 b k)) s := by
  unfold gate GFLstm.gateR
  rw [sigm_apply, addf_apply, linG_apply, linGh_apply]
  rfl

theorem auxAll_apply (hcat : FVec Ideal S4096x768 .f32) (w : LayerW Ideal) (b : Fin 4096) (s : Fin 3) (j : Fin 256) :
    auxAll hcat w (ix3 b s j) = lin768 hcat w.whc w.Bhc (ix2 b (GFLstm.at3 s j)) :=
  cutColumns_apply (R := 4096) (C := 256) shapeCasts_S4096x768_S4096x3x256 _ b s j (GFLstm.at3 s j) rfl

theorem auxSum_apply (g : FVec Ideal S4096x3 .f32) (A : FVec Ideal S4096x3x256 .f32) (b : Fin 4096) (j : Fin 256) :
    auxSum g A (ix2 b j) = ∑ s : Fin 3, A (ix3 b s j) * g (ix2 b s) := by
  unfold auxSum
  rw [sumMiddle_apply (R := 4096) (C := 256) reducesTo_S4096x3x256_S4096x256_d1 (by decide) h_S_]
  refine Finset.sum_congr rfl fun s _ => ?_
  rw [mulf_apply, gateSpread_apply (by decide) (by decide)]

theorem aux_apply (ih : FVec Ideal S4096x256 .f32) (hcat : FVec Ideal S4096x768 .f32) (w : LayerW Ideal)
    (b : Fin 4096) (j : Fin 256) :
    auxSum (gate ih hcat w) (auxAll hcat w) (ix2 b j)
      = GFLstm.auxR (LWof w) (fun k => ih (ix2 b k)) (fun k => hcat (ix2 b k)) j := by
  rw [auxSum_apply]
  unfold GFLstm.auxR
  refine Finset.sum_congr rfl fun s _ => ?_
  rw [auxAll_apply, lin768_apply, gate_apply, mul_comm]
  rfl

/-! ## The cell -/

theorem cellC_apply (ih hp cp : FVec Ideal S4096x256 .f32) (hcat : FVec Ideal S4096x768 .f32) (w : LayerW Ideal)
    (b : Fin 4096) (j : Fin 256) :
    cellC ih hp cp hcat w (ix2 b j)
      = GFLstm.cellCR (LWof w) (fun k => ih (ix2 b k)) (fun k => hp (ix2 b k)) (fun k => cp (ix2 b k))
          (fun k => hcat (ix2 b k)) j := by
  unfold cellC GFLstm.cellCR
  rw [addf_apply, mulf_apply, mulf_apply, sigm_apply, sigm_apply, addf_apply, addf_apply,
    lin256_apply, lin256_apply, lin256_apply, lin256_apply]
  show _ + _ * Ideal.tanh (addf (lin256 ih w.wic w.Bic) (auxSum (gate ih hcat w) (auxAll hcat w)) (ix2 b j)) = _
  rw [addf_apply, lin256_apply, aux_apply]
  rfl

theorem cellH_apply (ih hp cp : FVec Ideal S4096x256 .f32) (hcat : FVec Ideal S4096x768 .f32) (w : LayerW Ideal)
    (b : Fin 4096) (j : Fin 256) :
    cellH ih hp cp hcat w (ix2 b j)
      = GFLstm.cellHR (LWof w) (fun k => ih (ix2 b k)) (fun k => hp (ix2 b k)) (fun k => cp (ix2 b k))
          (fun k => hcat (ix2 b k)) j := by
  unfold cellH GFLstm.cellHR
  rw [mulf_apply, sigm_apply, addf_apply, lin256_apply, lin256_apply, cellC_apply]
  rfl

end Cert.ReferenceIdeal.RRow

end
-- ==== Proof.RRow.lean ====
/-
  Every batch row of the reference evolves on its own.

  Row b of the stacked state after a time step is the row-level step applied to row b of the stacked state before it:
  cutting piece l out of a stack reads the stack at (l, ·, ·); the three hidden arrays side by side read, at (b, k),
  piece k / 256 at (b, k mod 256); each layer's new arrays at (b, ·) are the row-level cell functions of the rows b
  of its operands; stacking puts them back at (l, b, ·).  By induction on the number of steps, row b of the state
  after n steps is the row-level state after n steps; the nine kept arrays side by side read, at (b, 256 q + j), the
  last layer's hidden entry j after step q + 1; and the result at (b, o) is the row-level output.
-/
import proofs.«181228_j76424648065777_1_alg».proof.Proof.RRowB

noncomputable section

namespace Cert.ReferenceIdeal.RRow

open Idealize.ShloMosaic Idealize.ShloMosaic.ValueIdx Idealize.SL.Sem
open Cert.ReferenceIdeal Cert.ReferenceIdeal.Spec
open scoped BigOperators

variable [Facts]
open Facts₀ Facts

/-- Layer l's row-level weights, read out of the stacked weight and bias arrays. -/
def WrowR (a : Spec.Args Ideal) (l : Fin 3) : GFLstm.LW where
  Wif := fun j k => a.wif (ix3 l j k)
  Bif := fun j => a.Bif (ix2 l j)
  Wii := fun j k => a.wii (ix3 l j k)
  Bii := fun j => a.Bii (ix2 l j)
  Wio := fun j k => a.wio (ix3 l j k)
  Bio := fun j => a.Bio (ix2 l j)
  Wic := fun j k => a.wic (ix3 l j k)
  Bic := fun j => a.Bic (ix2 l j)
  Wig := fun s k => a.wig (ix3 l s k)
  Big := fun s => a.Big (ix2 l s)
  Whf := fun j k => a.whf (ix3 l j k)
  Bhf := fun j => a.Bhf (ix2 l j)
  Whi := fun j k => a.whi (ix3 l j k)
  Bhi := fun j => a.Bhi (ix2 l j)
  Who := fun j k => a.who (ix3 l j k)
  Bho := fun j => a.Bho (ix2 l j)
  Whg := fun s k => a.whg (ix3 l s k)
  Bhg := fun s => a.Bhg (ix2 l s)
  Whc := fun n k => a.whc (ix3 l n k)
  Bhc := fun n => a.Bhc (ix2 l n)

/-! ## The layers' blocks -/

theorem LWof_layerW0 (a : Spec.Args Ideal) : LWof (layerW0 a) = WrowR a 0 := by
  unfold LWof WrowR layerW0
  congr 1 <;> funext i <;> (try funext k) <;>
    first
    | exact block3_apply 0 (0 : Fin 3) rfl _ (by decide) (by decide) _ _
    | exact block2_apply 0 (0 : Fin 3) rfl _ (by decide) (by decide) _

theorem LWof_layerW1 (a : Spec.Args Ideal) : LWof (layerW1 a) = WrowR a 1 := by
  unfold LWof WrowR layerW1
  congr 1 <;> funext i <;> (try funext k) <;>
    first
    | exact block3_apply 1 (1 : Fin 3) rfl _ (by decide) (by decide) _ _
    | exact block2_apply 1 (1 : Fin 3) rfl _ (by decide) (by decide) _

theorem LWof_layerW2 (a : Spec.Args Ideal) : LWof (layerW2 a) = WrowR a 2 := by
  unfold LWof WrowR layerW2
  congr 1 <;> funext i <;> (try funext k) <;>
    first
    | exact block3_apply 2 (2 : Fin 3) rfl _ (by decide) (by decide) _ _
    | exact block2_apply 2 (2 : Fin 3) rfl _ (by decide) (by decide) _

/-! ## Pieces, stacks, and the hidden arrays side by side -/

theorem piece0_apply (x : FVec Ideal S3x4096x256 .f32) (r : Fin 4096) (j : Fin 256) :
    piece0 x (ix2 r j) = x (ix3 (0 : Fin 3) r j) := block3_apply 0 (0 : Fin 3) rfl x (by decide) (by decide) r j
theorem piece1_apply (x : FVec Ideal S3x4096x256 .f32) (r : Fin 4096) (j : Fin 256) :
    piece1 x (ix2 r j) = x (ix3 (1 : Fin 3) r j) := block3_apply 1 (1 : Fin 3) rfl x (by decide) (by decide) r j
theorem piece2_apply (x : FVec Ideal S3x4096x256 .f32) (r : Fin 4096) (j : Fin 256) :
    piece2 x (ix2 r j) = x (ix3 (2 : Fin 3) r j) := block3_apply 2 (2 : Fin 3) rfl x (by decide) (by decide) r j

theorem stack_apply0 (a b c : FVec Ideal S4096x256 .f32) (r : Fin 4096) (j : Fin 256) :
    stack a b c (ix3 (0 : Fin 3) r j) = a (ix2 r j) :=
  stack3_apply0 (R := 4096) (C := 256) (by decide) (by decide) bcast_S4096x256_S1x4096x256_1_2
    concatenates_S1x4096x256_S1x4096x256_S1x4096x256_S3x4096x256_d0 a b c r j
theorem stack_apply1 (a b c : FVec Ideal S4096x256 .f32) (r : Fin 4096) (j : Fin 256) :
    stack a b c (ix3 (1 : Fin 3) r j) = b (ix2 r j) :=
  stack3_apply1 (R := 4096) (C := 256) (by decide) (by decide) bcast_S4096x256_S1x4096x256_1_2
    concatenates_S1x4096x256_S1x4096x256_S1x4096x256_S3x4096x256_d0 a b c r j
theorem stack_apply2 (a b c : FVec Ideal S4096x256 .f32) (r : Fin 4096) (j : Fin 256) :
    stack a b c (ix3 (2 : Fin 3) r j) = c (ix2 r j) :=
  stack3_apply2 (R := 4096) (C := 256) (by decide) (by decide) bcast_S4096x256_S1x4096x256_1_2
    concatenates_S1x4096x256_S1x4096x256_S1x4096x256_S3x4096x256_d0 a b c r j

theorem hcatOf_apply (hs : FVec Ideal S3x4096x256 .f32) (r : Fin 4096) (k : Fin 768) :
    hcatOf hs (ix2 r k)
      = hs (ix3 (⟨k.val / 256, by omega⟩ : Fin 3) r (⟨k.val % 256, Nat.mod_lt _ (by decide)⟩ : Fin 256)) :=
  sideBySide_apply (R := 4096) (C := 256) (by decide) transposes_S3x4096x256_S4096x3x256_1_0_2
    shapeCasts_S4096x3x256_S4096x768 hs r k

/-! ## A row of the stacked state -/

/-- Two row states with the same hidden and cell vectors are one. -/
theorem rowSt_ext (p q : GFLstm.RowSt) (hh : p.h = q.h) (hc : p.c = q.c) : p = q := by
  cases p; cases q
  simp only [GFLstm.RowSt.mk.injEq]
  exact ⟨hh, hc⟩

/-- Row b of a stacked state. -/
def rowOf (s : St Ideal) (b : Fin 4096) : GFLstm.RowSt :=
  ⟨fun l j => s.hs (ix3 l b j), fun l j => s.cs (ix3 l b j)⟩

theorem hcat_row (s : St Ideal) (b : Fin 4096) :
    (fun k => hcatOf s.hs (ix2 b k)) = GFLstm.hcatR (rowOf s b) :=
  funext fun k => by rw [hcatOf_apply]; rfl

theorem piece0_row (x : FVec Ideal S3x4096x256 .f32) (b : Fin 4096) :
    (fun k => piece0 x (ix2 b k)) = fun k => x (ix3 (0 : Fin 3) b k) := funext fun k => piece0_apply x b k
theorem piece1_row (x : FVec Ideal S3x4096x256 .f32) (b : Fin 4096) :
    (fun k => piece1 x (ix2 b k)) = fun k => x (ix3 (1 : Fin 3) b k) := funext fun k => piece1_apply x b k
theorem piece2_row (x : FVec Ideal S3x4096x256 .f32) (b : Fin 4096) :
    (fun k => piece2 x (ix2 b k)) = fun k => x (ix3 (2 : Fin 3) b k) := funext fun k => piece2_apply x b k

section Step
variable (x : FVec Ideal S4096x256 .f32) (w0 w1 w2 : LayerW Ideal) (W : Fin 3 → GFLstm.LW)
  (h0 : LWof w0 = W 0) (h1 : LWof w1 = W 1) (h2 : LWof w2 = W 2) (s : St Ideal) (b : Fin 4096)
include h0

theorem newH0_row : (fun j => newH0 x w0 s (ix2 b j))
    = GFLstm.cellHR (W 0) (fun k => x (ix2 b k)) ((rowOf s b).h 0) ((rowOf s b).c 0) (GFLstm.hcatR (rowOf s b)) := by
  funext j
  unfold newH0
  rw [cellH_apply, piece0_row, piece0_row, hcat_row, h0]
  rfl

theorem newC0_row : (fun j => newC0 x w0 s (ix2 b j))
    = GFLstm.cellCR (W 0) (fun k => x (ix2 b k)) ((rowOf s b).h 0) ((rowOf s b).c 0) (GFLstm.hcatR (rowOf s b)) := by
  funext j
  unfold newC0
  rw [cellC_apply, piece0_row, piece0_row, hcat_row, h0]
  rfl

include h1

theorem newH1_row : (fun j => newH1 x w0 w1 s (ix2 b j))
    = GFLstm.cellHR (W 1)
        (GFLstm.cellHR (W 0) (fun k => x (ix2 b k)) ((rowOf s b).h 0) ((rowOf s b).c 0) (GFLstm.hcatR (rowOf s b)))
        ((rowOf s b).h 1) ((rowOf s b).c 1) (GFLstm.hcatR (rowOf s b)) := by
  funext j
  unfold newH1
  rw [cellH_apply, newH0_row x w0 W h0 s b, piece1_row, piece1_row, hcat_row, h1]
  rfl

theorem newC1_row : (fun j => newC1 x w0 w1 s (ix2 b j))
    = GFLstm.cellCR (W 1)
        (GFLstm.cellHR (W 0) (fun k => x (ix2 b k)) ((rowOf s b).h 0) ((rowOf s b).c 0) (GFLstm.hcatR (rowOf s b)))
        ((rowOf s b).h 1) ((rowOf s b).c 1) (GFLstm.hcatR (rowOf s b)) := by
  funext j
  unfold newC1
  rw [cellC_apply, newH0_row x w0 W h0 s b, piece1_row, piece1_row, hcat_row, h1]
  rfl

include h2

theorem newH2_row : (fun j => newH2 x w0 w1 w2 s (ix2 b j))
    = GFLstm.cellHR (W 2)
        (GFLstm.cellHR (W 1)
          (GFLstm.cellHR (W 0) (fun k => x (ix2 b k)) ((rowOf s b).h 0) ((rowOf s b).c 0) (GFLstm.hcatR (rowOf s b)))
          ((rowOf s b).h 1) ((rowOf s b).c 1) (GFLstm.hcatR (rowOf s b)))
        ((rowOf s b).h 2) ((rowOf s b).c 2) (GFLstm.hcatR (rowOf s b)) := by
  funext j
  unfold newH2
  rw [cellH_apply, newH1_row x w0 w1 W h0 h1 s b, piece2_row, piece2_row, hcat_row, h2]
  rfl

theorem newC2_row : (fun j => newC2 x w0 w1 w2 s (ix2 b j))
    = GFLstm.cellCR (W 2)
        (GFLstm.cellHR (W 1)
          (GFLstm.cellHR (W 0) (fun k => x (ix2 b k)) ((rowOf s b).h 0) ((rowOf s b).c 0) (GFLstm.hcatR (rowOf s b)))
          ((rowOf s b).h 1) ((rowOf s b).c 1) (GFLstm.hcatR (rowOf s b)))
        ((rowOf s b).h 2) ((rowOf s b).c 2) (GFLstm.hcatR (rowOf s b)) := by
  funext j
  unfold newC2
  rw [cellC_apply, newH1_row x w0 w1 W h0 h1 s b, piece2_row, piece2_row, hcat_row, h2]
  rfl

/-- Row b of the state after a step is the row-level step of row b of the state before it. -/
theorem step_row : rowOf (step x w0 w1 w2 s) b = GFLstm.stepR (fun k => x (ix2 b k)) W (rowOf s b) := by
  have e0 := newH0_row x w0 W h0 s b
  have e1 := newH1_row x w0 w1 W h0 h1 s b
  have e2 := newH2_row x w0 w1 w2 W h0 h1 h2 s b
  have c0 := newC0_row x w0 W h0 s b
  have c1 := newC1_row x w0 w1 W h0 h1 s b
  have c2 := newC2_row x w0 w1 w2 W h0 h1 h2 s b
  refine rowSt_ext _ _ (funext fun l => funext fun j => ?_) (funext fun l => funext fun j => ?_)
  · match l with
    | 0 =>
      show stack (newH0 x w0 s) (newH1 x w0 w1 s) (newH2 x w0 w1 w2 s) (ix3 (0 : Fin 3) b j) = _
      rw [stack_apply0]
      show _ = GFLstm.cellHR (W 0) _ _ _ _ j
      exact congrFun e0 j
    | 1 =>
      show stack (newH0 x w0 s) (newH1 x w0 w1 s) (newH2 x w0 w1 w2 s) (ix3 (1 : Fin 3) b j) = _
      rw [stack_apply1]
      show _ = GFLstm.cellHR (W 1) _ _ _ _ j
      exact congrFun e1 j
    | 2 =>
      show stack (newH0 x w0 s) (newH1 x w0 w1 s) (newH2 x w0 w1 w2 s) (ix3 (2 : Fin 3) b j) = _
      rw [stack_apply2]
      show _ = GFLstm.cellHR (W 2) _ _ _ _ j
      exact congrFun e2 j
  · match l with
    | 0 =>
      show stack (newC0 x w0 s) (newC1 x w0 w1 s) (newC2 x w0 w1 w2 s) (ix3 (0 : Fin 3) b j) = _
      rw [stack_apply0]
      show _ = GFLstm.cellCR (W 0) _ _ _ _ j
      exact congrFun c0 j
    | 1 =>
      show stack (newC0 x w0 s) (newC1 x w0 w1 s) (newC2 x w0 w1 w2 s) (ix3 (1 : Fin 3) b j) = _
      rw [stack_apply1]
      show _ = GFLstm.cellCR (W 1) _ _ _ _ j
      exact congrFun c1 j
    | 2 =>
      show stack (newC0 x w0 s) (newC1 x w0 w1 s) (newC2 x w0 w1 w2 s) (ix3 (2 : Fin 3) b j) = _
      rw [stack_apply2]
      show _ = GFLstm.cellCR (W 2) _ _ _ _ j
      exact congrFun c2 j

/-- Row b of the state after n steps is the row-level state after n steps. -/
theorem stAt_row (s0 : St Ideal) (n : Nat) :
    rowOf (stAt x w0 w1 w2 s0 n) b = GFLstm.stAtR (fun k => x (ix2 b k)) W (rowOf s0 b) n := by
  induction n with
  | zero => rfl
  | succ n ih =>
    show rowOf (step x w0 w1 w2 (stAt x w0 w1 w2 s0 n)) b = GFLstm.stepR _ W (GFLstm.stAtR _ W (rowOf s0 b) n)
    rw [step_row x w0 w1 w2 W h0 h1 h2, ih]

/-- The last layer's new hidden array of step n + 1 at (b, j). -/
theorem topH_apply (s0 : St Ideal) (n : Nat) (j : Fin 256) :
    topH x w0 w1 w2 s0 n (ix2 b j) = (GFLstm.stAtR (fun k => x (ix2 b k)) W (rowOf s0 b) (n + 1)).h 2 j := by
  have e := stAt_row x w0 w1 w2 W h0 h1 h2 b s0 (n + 1)
  rw [← e]
  show _ = stack (newH0 x w0 (stAt x w0 w1 w2 s0 n)) (newH1 x w0 w1 (stAt x w0 w1 w2 s0 n))
    (newH2 x w0 w1 w2 (stAt x w0 w1 w2 s0 n)) (ix3 (2 : Fin 3) b j)
  rw [stack_apply2]
  rfl

/-- The nine kept arrays side by side, at (b, k). -/
theorem feat_apply (s0 : St Ideal) (k : Fin 2304) :
    feat x w0 w1 w2 s0 (ix2 b k) = GFLstm.featR (fun k => x (ix2 b k)) W (rowOf s0 b) k := by
  unfold GFLstm.featR
  rw [← topH_apply x w0 w1 w2 W h0 h1 h2 b s0 (k.val / 256) ⟨k.val % 256, Nat.mod_lt _ (by decide)⟩]
  unfold feat
  exact concatenate_ofFn_apply (t := S4096x2304) (s₁ := S4096x256) 1 (fun n : Fin 9 => topH x w0 w1 w2 s0 n.val)
    concatenates_S4096x256_S4096x256_S4096x256_S4096x256_S4096x256_S4096x256_S4096x256_S4096x256_S4096x256_S4096x2304_d1
    rfl 256 rfl (ix2 b k) ⟨k.val / 256, by have := k.isLt; omega⟩ rfl
    (ix2 b ⟨k.val % 256, Nat.mod_lt _ (by decide)⟩) rfl
    (fun d hd => match d with
      | ⟨0, _⟩ => rfl
      | ⟨1, _⟩ => absurd rfl hd)

/-- The result at (b, o) from given blocks, first state and last-layer weights. -/
theorem outOf_apply (s0 : St Ideal) (wl : FVec Ideal S44x2304 .f32) (bl : FVec Ideal S44 .f32) (o : Fin 44) :
    outOf x w0 w1 w2 s0 wl bl (ix2 b o)
      = GFLstm.outR (fun k => x (ix2 b k)) W (rowOf s0 b) (fun o k => wl (ix2 o k)) (fun o => bl (ix1 o)) o := by
  unfold outOf GFLstm.outR
  rw [sigm_apply, addf_apply]
  show Ideal.logistic (Host.dotGeneral (F := Ideal) (pd dot_S4096x2304_S2304x44_S4096x44_1_0_0_1_n_n_wf) none _ _ (ix2 b o) + _) = _
  rw [pdT_apply, bias_apply]
  have e : (fun k => feat x w0 w1 w2 s0 (ix2 b k)) = GFLstm.featR (fun k => x (ix2 b k)) W (rowOf s0 b) :=
    funext fun k => feat_apply x w0 w1 w2 W h0 h1 h2 b s0 k
  show Ideal.logistic (GFLstm.dot (fun k => feat x w0 w1 w2 s0 (ix2 b k)) (fun k => wl (ix2 o k)) + bl (ix1 o)) = _
  rw [e]

end Step

/-- Every batch row of the reference evolves on its own: the result at (b, o) is the row-level output of row b's data. -/
theorem out_row (a : Spec.Args Ideal) (b : Fin 4096) (o : Fin 44) :
    Spec.out (F := Ideal) a (ix2 b o)
      = GFLstm.outR (fun k => a.x (ix2 b k)) (WrowR a) ⟨fun l j => a.hid (ix3 l b j), fun l j => a.cur (ix3 l b j)⟩
          (fun o k => a.wl (ix2 o k)) (fun o => a.bl (ix1 o)) o :=
  outOf_apply a.x (layerW0 a) (layerW1 a) (layerW2 a) (WrowR a) (LWof_layerW0 a) (LWof_layerW1 a) (LWof_layerW2 a)
    b { hs := a.hid, cs := a.cur } a.wl a.bl o

end Cert.ReferenceIdeal.RRow

end
-- ==== Proof.RFinal.lean ====
/-
  The reference's run with its result read row by row.

  Every batch row of the reference evolves on its own, so entry (b, o) of the result is the row-level output of row b's
  slices of the argument arrays.  Here that is stated of the memory the run starts from: the structured reference of the
  arguments' launch contents, read at (b, o), is the row-level output of the memory's arrays at row b.
-/
import proofs.«181228_j76424648065777_1_alg».proof.Proof.RefRunHand
import proofs.«181228_j76424648065777_1_alg».proof.Proof.RRow

noncomputable section

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx

/-- Layer `l`'s row-level weights, read out of the memory's argument arrays on device `c`. -/
def WrowM (m : (ℓ : Loc nD τ sig) → Buf (Elt Ideal) ℓ) (c : Dev nD) (l : Fin 3) : GFLstm.LW where
  Wif := fun j k => (m ((c.tc : Thread nD τ).loc main_arg3) : FVec Ideal S3x256x256 .f32) (ix3 l j k)
  Bif := fun j => (m ((c.tc : Thread nD τ).loc main_arg4) : FVec Ideal S3x256 .f32) (ix2 l j)
  Wii := fun j k => (m ((c.tc : Thread nD τ).loc main_arg5) : FVec Ideal S3x256x256 .f32) (ix3 l j k)
  Bii := fun j => (m ((c.tc : Thread nD τ).loc main_arg6) : FVec Ideal S3x256 .f32) (ix2 l j)
  Wio := fun j k => (m ((c.tc : Thread nD τ).loc main_arg7) : FVec Ideal S3x256x256 .f32) (ix3 l j k)
  Bio := fun j => (m ((c.tc : Thread nD τ).loc main_arg8) : FVec Ideal S3x256 .f32) (ix2 l j)
  Wic := fun j k => (m ((c.tc : Thread nD τ).loc main_arg9) : FVec Ideal S3x256x256 .f32) (ix3 l j k)
  Bic := fun j => (m ((c.tc : Thread nD τ).loc main_arg10) : FVec Ideal S3x256 .f32) (ix2 l j)
  Wig := fun s k => (m ((c.tc : Thread nD τ).loc main_arg11) : FVec Ideal S3x3x256 .f32) (ix3 l s k)
  Big := fun s => (m ((c.tc : Thread nD τ).loc main_arg12) : FVec Ideal S3x3 .f32) (ix2 l s)
  Whf := fun j k => (m ((c.tc : Thread nD τ).loc main_arg13) : FVec Ideal S3x256x256 .f32) (ix3 l j k)
  Bhf := fun j => (m ((c.tc : Thread nD τ).loc main_arg14) : FVec Ideal S3x256 .f32) (ix2 l j)
  Whi := fun j k => (m ((c.tc : Thread nD τ).loc main_arg15) : FVec Ideal S3x256x256 .f32) (ix3 l j k)
  Bhi := fun j => (m ((c.tc : Thread nD τ).loc main_arg16) : FVec Ideal S3x256 .f32) (ix2 l j)
  Who := fun j k => (m ((c.tc : Thread nD τ).loc main_arg17) : FVec Ideal S3x256x256 .f32) (ix3 l j k)
  Bho := fun j => (m ((c.tc : Thread nD τ).loc main_arg18) : FVec Ideal S3x256 .f32) (ix2 l j)
  Whg := fun s k => (m ((c.tc : Thread nD τ).loc main_arg19) : FVec Ideal S3x3x768 .f32) (ix3 l s k)
  Bhg := fun s => (m ((c.tc : Thread nD τ).loc main_arg20) : FVec Ideal S3x3 .f32) (ix2 l s)
  Whc := fun n k => (m ((c.tc : Thread nD τ).loc main_arg21) : FVec Ideal S3x768x768 .f32) (ix3 l n k)
  Bhc := fun n => (m ((c.tc : Thread nD τ).loc main_arg22) : FVec Ideal S3x768 .f32) (ix2 l n)

/-- The reference's result on device `c` as a function of the memory's argument arrays: entry (b, o) is the row-level
    output of row b's data. -/
def GoutR (m : (ℓ : Loc nD τ sig) → Buf (Elt Ideal) ℓ) (c : Dev nD) : S4096x44.Idx → EReal := fun i =>
  GFLstm.outR (fun k => (m ((c.tc : Thread nD τ).loc main_arg0) : FVec Ideal S4096x256 .f32) (ix2 (i 0) k)) (WrowM m c)
    ⟨fun l j => (m ((c.tc : Thread nD τ).loc main_arg1) : FVec Ideal S3x4096x256 .f32) (ix3 l (i 0) j),
     fun l j => (m ((c.tc : Thread nD τ).loc main_arg2) : FVec Ideal S3x4096x256 .f32) (ix3 l (i 0) j)⟩
    (fun o k => (m ((c.tc : Thread nD τ).loc main_arg23) : FVec Ideal S44x2304 .f32) (ix2 o k))
    (fun o => (m ((c.tc : Thread nD τ).loc main_arg24) : FVec Ideal S44 .f32) (ix1 o)) (i 1)

/-- The row-level weights of the arguments' launch contents are those of the memory. -/
theorem WrowR_launch (m : (ℓ : Loc nD τ sig) → Buf (Elt Ideal) ℓ) (c : Dev nD) :
    RRow.WrowR (argsOf (F := Ideal) (launchContents m c)) = WrowM m c := rfl

/-- The structured reference of the arguments' launch contents is the row-by-row function of the memory. -/
theorem out_launch (m : (ℓ : Loc nD τ sig) → Buf (Elt Ideal) ℓ) (c : Dev nD) :
    Spec.out (F := Ideal) (argsOf (launchContents m c)) = GoutR m c := by
  funext i
  obtain ⟨b, o, rfl⟩ : ∃ (b : Fin 4096) (o : Fin 44), i = ix2 b o := ⟨i 0, i 1, eq_ix2 i⟩
  exact RRow.out_row (argsOf (launchContents m c)) b o

/-- The reference's run with its result stated row by row over the memory's argument arrays. -/
theorem run_ref_row (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4221) = GoutR m c
∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1.trans (out_launch m c), (h c).2⟩) (run_ref (F := Ideal) m ρ)

end Cert.ReferenceIdeal.RefValue

end
-- ==== Proof.Claims.lean ====
import proofs.«181228_j76424648065777_1_alg».proof.Defs
import proofs.«181228_j76424648065777_1_alg».proof.Proof.Gen.Kernel
import proofs.«181228_j76424648065777_1_alg».proof.Proof.Gen.KernelIdeal
import proofs.«181228_j76424648065777_1_alg».proof.Proof.Gen.ReferenceIdeal
import proofs.«181228_j76424648065777_1_alg».proof.Proof.Gen.Pre_finite_inputs
import proofs.«181228_j76424648065777_1_alg».proof.Proof.BFrame
import proofs.«181228_j76424648065777_1_alg».proof.Proof.KFinal
import proofs.«181228_j76424648065777_1_alg».proof.Proof.RFinal

/-!
# The claims

The three frame claims are the frame runs of the three programs.  The idealization rewrote no operation, so it
preserves trivially.  For the algebraic claim both programs' result arrays are ONE function of their argument arrays —
entry `(i, o)` is output `o` of the row-level network on batch row `i` — and from memories that agree on the arguments
the two functions are equal: the row-level weights, the input rows and the initial states are read off equal arrays.
-/

noncomputable section

namespace Cert.Proof.Claims

open Idealize.ShloMosaic Idealize.ShloMosaic.TcCoe Idealize.SL.Sem Idealize.ShloMosaic.ValueIdx

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ => Cert.ReferenceIdeal.RefValue.frame_ri m ρ

/-- The idealization rewrote no operation. -/
theorem preserves : Cert.preserves_Kernel_KernelIdeal := trivial

/-- The two memories agree on the argument arrays, position by position. -/
def Agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)

/-- Two records of row-level weights are equal when their fields are. -/
theorem LW_ext {a b : GFLstm.LW} (hWif : a.Wif = b.Wif) (hBif : a.Bif = b.Bif) (hWii : a.Wii = b.Wii) (hBii : a.Bii = b.Bii) (hWio : a.Wio = b.Wio) (hBio : a.Bio = b.Bio) (hWic : a.Wic = b.Wic) (hBic : a.Bic = b.Bic) (hWig : a.Wig = b.Wig) (hBig : a.Big = b.Big) (hWhf : a.Whf = b.Whf) (hBhf : a.Bhf = b.Bhf) (hWhi : a.Whi = b.Whi) (hBhi : a.Bhi = b.Bhi) (hWho : a.Who = b.Who) (hBho : a.Bho = b.Bho) (hWhg : a.Whg = b.Whg) (hBhg : a.Bhg = b.Bhg) (hWhc : a.Whc = b.Whc) (hBhc : a.Bhc = b.Bhc) : a = b := by
  cases a; cases b; dsimp only at *; subst_vars; rfl

/-- The row-level output is a function of its six arguments. -/
theorem outR_congr {x x' : Fin 256 → EReal} {W W' : Fin 3 → GFLstm.LW} {h h' c c' : Fin 3 → Fin 256 → EReal}
    {Wl Wl' : Fin 44 → Fin 2304 → EReal} {bL bL' : Fin 44 → EReal} {o : Fin 44}
    (hx : x = x') (hW : W = W') (hh : h = h') (hc : c = c') (hWl : Wl = Wl') (hbL : bL = bL') :
    GFLstm.outR x W ⟨h, c⟩ Wl bL o = GFLstm.outR x' W' ⟨h', c'⟩ Wl' bL' o := by
  subst_vars; rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the arguments the two programs' row-level weights are equal: each field is an entry of
    an argument array. -/
theorem wrow_eq (hag : Agrees m m') (c : Dev Cert.KernelIdeal.nD) (l : Fin 3) :
    Cert.ReferenceIdeal.RefValue.WrowM m' c l = Cert.KernelIdeal.Blocks.Wrow m c l := by
  obtain ⟨h0, h1, h2, h3, h4, h5, h6, h7, h8, h9, h10, h11, h12, h13, h14, h15, h16, h17, h18, h19, h20, h21, h22, h23, h24⟩ := hag c
  exact LW_ext
    (funext fun a => funext fun b => congrFun h3 (ix3 l a b))
    (funext fun a => congrFun h4 (ix2 l a))
    (funext fun a => funext fun b => congrFun h5 (ix3 l a b))
    (funext fun a => congrFun h6 (ix2 l a))
    (funext fun a => funext fun b => congrFun h7 (ix3 l a b))
    (funext fun a => congrFun h8 (ix2 l a))
    (funext fun a => funext fun b => congrFun h9 (ix3 l a b))
    (funext fun a => congrFun h10 (ix2 l a))
    (funext fun a => funext fun b => congrFun h11 (ix3 l a b))
    (funext fun a => congrFun h12 (ix2 l a))
    (funext fun a => funext fun b => congrFun h13 (ix3 l a b))
    (funext fun a => congrFun h14 (ix2 l a))
    (funext fun a => funext fun b => congrFun h15 (ix3 l a b))
    (funext fun a => congrFun h16 (ix2 l a))
    (funext fun a => funext fun b => congrFun h17 (ix3 l a b))
    (funext fun a => congrFun h18 (ix2 l a))
    (funext fun a => funext fun b => congrFun h19 (ix3 l a b))
    (funext fun a => congrFun h20 (ix2 l a))
    (funext fun a => funext fun b => congrFun h21 (ix3 l a b))
    (funext fun a => congrFun h22 (ix2 l a))

/-- From memories that agree on the arguments the two programs' result functions are equal. -/
theorem gout_eq (hag : Agrees m m') (c : Dev Cert.KernelIdeal.nD) :
    Cert.ReferenceIdeal.RefValue.GoutR m' c = Cert.KernelIdeal.Hand.Gout m c := by
  obtain ⟨h0, h1, h2, h3, h4, h5, h6, h7, h8, h9, h10, h11, h12, h13, h14, h15, h16, h17, h18, h19, h20, h21, h22, h23, h24⟩ := hag c
  funext i
  unfold Cert.ReferenceIdeal.RefValue.GoutR Cert.KernelIdeal.Hand.Gout
  exact outR_congr (funext fun k => congrFun h0 (ix2 (i 0) k)) (funext fun l => wrow_eq m m' hag c l)
    (funext fun l => funext fun j => congrFun h1 (ix3 l (i 0) j))
    (funext fun l => funext fun j => congrFun h2 (ix3 l (i 0) j))
    (funext fun o => funext fun k => congrFun h23 (ix2 o k))
    (funext fun o => congrFun h24 (ix1 o))

/-- At the ideal instance, from memories agreeing on the arguments, both programs run, their result arrays end equal —
    both at the one function of the arguments — and their arguments end unchanged. -/
theorem algebraic : Cert.algebraic_KernelIdeal_ReferenceIdeal := by
  intro m ρ m' ρ' _ hagree
  refine ⟨fun c => Cert.KernelIdeal.Hand.Gout m c, Cert.KernelIdeal.Hand.run_value m ρ, ?_⟩
  exact (θ_run Cert.ReferenceIdeal.defs _ _).mono (fun _ h c => ⟨(h c).1.trans (gout_eq m m' hagree c), (h c).2⟩)
    (Cert.ReferenceIdeal.RefValue.run_ref_row m' ρ')

end Cert.Proof.Claims

end
-- ==== Proof.lean ====
/-
  The certificate of the gated-feedback LSTM kernel against its jnp reference.

  The kernel tiles the batch: grid point `t` computes rows 256·t … 256·t + 255 of the output from the same rows of the
  input and of the initial hidden and cell states, and from the whole weights, which the program first transposes,
  lays side by side and narrows.  Its body is straight-line: it loads, runs nine time steps of three layers and the
  output projection on the tile, and stores the output tile whole.

  Frames.  The two kernel programs terminate, fault nowhere and leave their arguments unchanged: the body's run on whole
  staging buffers is found by symbolic execution, each input window's buffer holds its block at every point, the one
  output window is written back at every point, and no host operation before the region writes an argument.  The
  reference is a straight line of host operations.

  Values, at the ideal instance.  Every batch row evolves on its own.  The kernel's tile function read at tile row `r`
  and the reference's array function read at batch row `256·t + r` are both the row-level recurrence of that row's
  data (`GFLstm.outR`): a matrix product read at an index is a finite sum in the extended reals, narrowing is the
  identity, the fused weight blocks read back as the separate weights, the logistic function is 1 / (1 + e⁻ˣ) on both
  sides, and the two bracketings of the gate's and of the cross-layer sum's additions agree because addition of extended
  reals is associative and commutative.  The sixteen tiles cover the output array, so the two results are equal.
-/
import proofs.«181228_j76424648065777_1_alg».proof.Defs
import proofs.«181228_j76424648065777_1_alg».proof.Proof.Gen.Kernel
import proofs.«181228_j76424648065777_1_alg».proof.Proof.Gen.KernelIdeal
import proofs.«181228_j76424648065777_1_alg».proof.Proof.Gen.ReferenceIdeal
import proofs.«181228_j76424648065777_1_alg».proof.Proof.Gen.Pre_finite_inputs
import proofs.«181228_j76424648065777_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
